-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x100000 : Shape := ⟨2, ![1024, 100000]⟩
abbrev S1024 : Shape := ⟨1, ![1024]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x100000 .f32) (main_arg1 : IVec S1024 32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_c_0 : IVec S_ 32 := constantI S_ 32 0#32
  let main_v4 : IVec S1024 32 := broadcastInDim S1024 ![] bcast_S_S1024 main_c_0
  let main_v5 : IVec S1024 1 := cmpi .sge main_arg1 main_v4
  let main_c_1 : IVec S_ 32 := constantI S_ 32 99999#32
  let main_v6 : IVec S1024 32 := broadcastInDim S1024 ![] bcast_S_S1024 main_c_1
  let main_v7 : IVec S1024 1 := cmpi .sle main_arg1 main_v6
  let main_v8 : IVec S1024 1 := andi main_v5 main_v7
  let main_c_2 : IVec S_ 1 := constantI S_ 1 1#1
  let main_v9 : IVec S_ 1 := (fun x v => Host.reduce IntOp.andi x v reducesTo_S1024_S_d0 h_S_) main_v8 main_c_2
  let main_v10 : IVec S_ 1 := andi main_v3 main_v9
  let main_v11 : FVec F S1024x100000 .f32 := Host.absf main_arg0
  let main_cst_3 : FVec F S_ .f32 := constant S_ .f32 0x3F800000#32
  let main_v12 : FVec F S1024x100000 .f32 := broadcastInDim S1024x100000 ![] bcast_S_S1024x100000 main_cst_3
  let main_v13 : IVec S1024x100000 1 := cmpf .ole main_v11 main_v12
  let main_c_4 : IVec S_ 1 := constantI S_ 1 1#1
  let main_v14 : IVec S_ 1 := (fun x v => Host.reduce IntOp.andi x v reducesTo_S1024x100000_S_d0_1 h_S_) main_v13 main_c_4
  let main_v15 : IVec S_ 1 := andi main_v10 main_v14
  main_v15
-- ==== Kernel.lean ====
abbrev S1024x100000 : Shape := ⟨2, ![1024, 100000]⟩
abbrev S1024 : Shape := ⟨1, ![1024]⟩
abbrev S100000x1024 : Shape := ⟨2, ![100000, 1024]⟩
abbrev S32x1024 : Shape := ⟨2, ![32, 1024]⟩
abbrev S_ : Shape := ⟨0, ![]⟩
abbrev S16 : Shape := ⟨1, ![16]⟩
abbrev S1x16 : Shape := ⟨2, ![1, 16]⟩
abbrev S1x1024 : Shape := ⟨2, ![1, 1024]⟩
abbrev S1x1 : Shape := ⟨2, ![1, 1]⟩
abbrev S2048x1024 : Shape := ⟨2, ![2048, 1024]⟩
abbrev S8x1024 : Shape := ⟨2, ![8, 1024]⟩
abbrev S1x1x1024 : Shape := ⟨3, ![1, 1, 1024]⟩
abbrev S1 : Shape := ⟨1, ![1]⟩
abbrev S1x1x1 : Shape := ⟨3, ![1, 1, 1]⟩

abbrev nBuf : Table → Nat
  | .hbm => 8
  | .local .tc .vmem => 7
  | .local .tc .smem => 1
  | .local .scVector .vmem => 5
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S100000x1024, .f32⟩
  | .hbm, ⟨3, _⟩ => ⟨S32x1024, .f32⟩
  | .hbm, ⟨4, _⟩ => ⟨S32x1024, .f32⟩
  | .hbm, ⟨5, _⟩ => ⟨S1x1024, .i32⟩
  | .hbm, ⟨6, _⟩ => ⟨S1x1, .f32⟩
  | .hbm, ⟨7, _⟩ => ⟨S_, .f32⟩
  | .local .tc .vmem, ⟨0, _⟩ => ⟨S2048x1024, .f32⟩
  | .local .tc .vmem, ⟨1, _⟩ => ⟨S2048x1024, .f32⟩
  | .local .tc .vmem, ⟨2, _⟩ => ⟨S1x1024, .i32⟩
  | .local .tc .vmem, ⟨3, _⟩ => ⟨S32x1024, .f32⟩
  | .local .tc .vmem, ⟨4, _⟩ => ⟨S32x1024, .f32⟩
  | .local .tc .vmem, ⟨5, _⟩ => ⟨S8x1024, .f32⟩
  | .local .tc .vmem, ⟨6, _⟩ => ⟨S8x1024, .f32⟩
  | .local .tc .smem, ⟨0, _⟩ => ⟨S1x1, .f32⟩
  | .local .scVector .vmem, ⟨0, _⟩ => ⟨S1024, .i32⟩
  | .local .scVector .vmem, ⟨1, _⟩ => ⟨S1024, .f32⟩
  | .local .scVector .vmem, ⟨2, _⟩ => ⟨S1024, .f32⟩
  | .local .scVector .vmem, ⟨3, _⟩ => ⟨S32x1024, .f32⟩
  | .local .scVector .vmem, ⟨4, _⟩ => ⟨S32x1024, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 2, rfl⟩
abbrev main_arg1_scv : Ref sig .scVector := ⟨.hbm, 1, rfl⟩
abbrev main_v1_0_scv : Ref sig .scVector := ⟨.hbm, 3, rfl⟩
abbrev main_v1_1_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_scratch0 : Ref sig .tc := ⟨.vmem, 5, rfl⟩
abbrev cc1_scratch1 : Ref sig .tc := ⟨.vmem, 6, rfl⟩
abbrev cc1_stg4_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c64_i32 : BitVec 32 := 64#32
  let v4 : BitVec 32 := Scalar.addi c0_i32_0 c64_i32
  let c1_i32 : BitVec 32 := 1#32
  ⟨c0_i32_0, v4, c1_i32⟩
def k0_off1 (k0_t1 : Fin k0_t1_loop.trips) : Fin 1 → Nat :=
  let c0_i32_0 : BitVec 32 := 0#32
  let c1_i32 : BitVec 32 := 1#32
  let arg13 : BitVec 32 := Scf.iv c0_i32_0 c1_i32 k0_t1
  let c16_i32_9 : BitVec 32 := 16#32
  let v9 : BitVec 32 := Scalar.muli arg13 c16_i32_9
  let v10 : Index := Scalar.indexCast v9
  ![v10.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_2 : BitVec 32 := 0#32
  let v5 : BitVec 32 := Scalar.addi v2 c0_i32_2
  let c0_i32_3 : BitVec 32 := 0#32
  ![v5.toNat, 0]
@[reducible] def k0_t2_loop : Scf.Loop 32 :=
  let c0_i32_6 : BitVec 32 := 0#32
  let c16_i32 : BitVec 32 := 16#32
  let v8 : BitVec 32 := Scalar.addi c0_i32_6 c16_i32
  let c1_i32_7 : BitVec 32 := 1#32
  ⟨c0_i32_6, v8, c1_i32_7⟩
def k0_off3 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c2_i32_9 : BitVec 32 := 2#32
  let c0_i32_6 : BitVec 32 := 0#32
  let c1_i32_7 : BitVec 32 := 1#32
  let arg13 : BitVec 32 := Scf.iv c0_i32_6 c1_i32_7 k0_t2
  let v9 : BitVec 32 := Scalar.muli c2_i32_9 arg13
  let c1_i32_10 : BitVec 32 := 1#32
  let v10 : BitVec 32 := Scalar.addi v9 c1_i32_10
  let c32_i32 : BitVec 32 := 32#32
  let v11 : BitVec 32 := Scalar.muli v10 c32_i32
  let v12 : BitVec 32 := Scalar.addi v2 v11
  let c0_i32_11 : BitVec 32 := 0#32
  ![v12.toNat, 0]
def k0_off4 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c2_i32_13 : BitVec 32 := 2#32
  let c0_i32_6 : BitVec 32 := 0#32
  let c1_i32_7 : BitVec 32 := 1#32
  let arg13 : BitVec 32 := Scf.iv c0_i32_6 c1_i32_7 k0_t2
  let v15 : BitVec 32 := Scalar.muli c2_i32_13 arg13
  let c32_i32_14 : BitVec 32 := 32#32
  let v16 : BitVec 32 := Scalar.muli v15 c32_i32_14
  let v17 : BitVec 32 := Scalar.addi v2 v16
  let c0_i32_15 : BitVec 32 := 0#32
  ![v17.toNat, 0]
@[reducible] def k0_t3_loop : Scf.Loop 32 :=
  let c0_i32_20 : BitVec 32 := 0#32
  let c64_i32_21 : BitVec 32 := 64#32
  let v23 : BitVec 32 := Scalar.addi c0_i32_20 c64_i32_21
  let c1_i32_22 : BitVec 32 := 1#32
  ⟨c0_i32_20, v23, c1_i32_22⟩
def k0_off5 (k0_t3 : Fin k0_t3_loop.trips) : Fin 1 → Nat :=
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v40 : Index := Scalar.indexCast v39
  ![v40.toNat]
def k0_off6 (k0_t3 : Fin k0_t3_loop.trips) : Fin 2 → Nat :=
  let c0_i32_41 : BitVec 32 := 0#32
  let v51 : Index := Scalar.indexCast c0_i32_41
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v52 : Index := Scalar.indexCast v39
  ![0, v52.toNat]
def k0_off7 (k0_t3 : Fin k0_t3_loop.trips) : Fin 2 → Nat :=
  let c1_i32_43 : BitVec 32 := 1#32
  let v60 : Index := Scalar.indexCast c1_i32_43
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v61 : Index := Scalar.indexCast v39
  ![1, v61.toNat]
def k0_off8 (k0_t3 : Fin k0_t3_loop.trips) : Fin 2 → Nat :=
  let c2_i32_45 : BitVec 32 := 2#32
  let v69 : Index := Scalar.indexCast c2_i32_45
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v70 : Index := Scalar.indexCast v39
  ![2, v70.toNat]
def k0_off9 (k0_t3 : Fin k0_t3_loop.trips) : Fin 2 → Nat :=
  let c3_i32 : BitVec 32 := 3#32
  let v78 : Index := Scalar.indexCast c3_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v79 : Index := Scalar.indexCast v39
  ![3, v79.toNat]
def k0_off10 (k0_t3 : Fin k0_t3_loop.trips) : Fin 2 → Nat :=
  let c4_i32 : BitVec 32 := 4#32
  let v87 : Index := Scalar.indexCast c4_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v88 : Index := Scalar.indexCast v39
  ![4, v88.toNat]
def k0_off11 (k0_t3 : Fin k0_t3_loop.trips) : Fin 2 → Nat :=
  let c5_i32 : BitVec 32 := 5#32
  let v96 : Index := Scalar.indexCast c5_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v97 : Index := Scalar.indexCast v39
  ![5, v97.toNat]
def k0_off12 (k0_t3 : Fin k0_t3_loop.trips) : Fin 2 → Nat :=
  let c6_i32 : BitVec 32 := 6#32
  let v105 : Index := Scalar.indexCast c6_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v106 : Index := Scalar.indexCast v39
  ![6, v106.toNat]
def k0_off13 (k0_t3 : Fin k0_t3_loop.trips) : Fin 2 → Nat :=
  let c7_i32 : BitVec 32 := 7#32
  let v114 : Index := Scalar.indexCast c7_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v115 : Index := Scalar.indexCast v39
  ![7, v115.toNat]
def k0_off14 (k0_t3 : Fin k0_t3_loop.trips) : Fin 2 → Nat :=
  let c8_i32 : BitVec 32 := 8#32
  let v123 : Index := Scalar.indexCast c8_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v124 : Index := Scalar.indexCast v39
  ![8, v124.toNat]
def k0_off15 (k0_t3 : Fin k0_t3_loop.trips) : Fin 2 → Nat :=
  let c9_i32 : BitVec 32 := 9#32
  let v132 : Index := Scalar.indexCast c9_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v133 : Index := Scalar.indexCast v39
  ![9, v133.toNat]
def k0_off16 (k0_t3 : Fin k0_t3_loop.trips) : Fin 2 → Nat :=
  let c10_i32 : BitVec 32 := 10#32
  let v141 : Index := Scalar.indexCast c10_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v142 : Index := Scalar.indexCast v39
  ![10, v142.toNat]
def k0_off17 (k0_t3 : Fin k0_t3_loop.trips) : Fin 2 → Nat :=
  let c11_i32 : BitVec 32 := 11#32
  let v150 : Index := Scalar.indexCast c11_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v151 : Index := Scalar.indexCast v39
  ![11, v151.toNat]
def k0_off18 (k0_t3 : Fin k0_t3_loop.trips) : Fin 2 → Nat :=
  let c12_i32 : BitVec 32 := 12#32
  let v159 : Index := Scalar.indexCast c12_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v160 : Index := Scalar.indexCast v39
  ![12, v160.toNat]
def k0_off19 (k0_t3 : Fin k0_t3_loop.trips) : Fin 2 → Nat :=
  let c13_i32 : BitVec 32 := 13#32
  let v168 : Index := Scalar.indexCast c13_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v169 : Index := Scalar.indexCast v39
  ![13, v169.toNat]
def k0_off20 (k0_t3 : Fin k0_t3_loop.trips) : Fin 2 → Nat :=
  let c14_i32 : BitVec 32 := 14#32
  let v177 : Index := Scalar.indexCast c14_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v178 : Index := Scalar.indexCast v39
  ![14, v178.toNat]
def k0_off21 (k0_t3 : Fin k0_t3_loop.trips) : Fin 2 → Nat :=
  let c15_i32 : BitVec 32 := 15#32
  let v186 : Index := Scalar.indexCast c15_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v187 : Index := Scalar.indexCast v39
  ![15, v187.toNat]
def k0_off22 (k0_t3 : Fin k0_t3_loop.trips) : Fin 2 → Nat :=
  let c16_i32_60 : BitVec 32 := 16#32
  let v195 : Index := Scalar.indexCast c16_i32_60
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v196 : Index := Scalar.indexCast v39
  ![16, v196.toNat]
def k0_off23 (k0_t3 : Fin k0_t3_loop.trips) : Fin 2 → Nat :=
  let c17_i32 : BitVec 32 := 17#32
  let v204 : Index := Scalar.indexCast c17_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v205 : Index := Scalar.indexCast v39
  ![17, v205.toNat]
def k0_off24 (k0_t3 : Fin k0_t3_loop.trips) : Fin 2 → Nat :=
  let c18_i32 : BitVec 32 := 18#32
  let v213 : Index := Scalar.indexCast c18_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v214 : Index := Scalar.indexCast v39
  ![18, v214.toNat]
def k0_off25 (k0_t3 : Fin k0_t3_loop.trips) : Fin 2 → Nat :=
  let c19_i32 : BitVec 32 := 19#32
  let v222 : Index := Scalar.indexCast c19_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v223 : Index := Scalar.indexCast v39
  ![19, v223.toNat]
def k0_off26 (k0_t3 : Fin k0_t3_loop.trips) : Fin 2 → Nat :=
  let c20_i32 : BitVec 32 := 20#32
  let v231 : Index := Scalar.indexCast c20_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v232 : Index := Scalar.indexCast v39
  ![20, v232.toNat]
def k0_off27 (k0_t3 : Fin k0_t3_loop.trips) : Fin 2 → Nat :=
  let c21_i32 : BitVec 32 := 21#32
  let v240 : Index := Scalar.indexCast c21_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v241 : Index := Scalar.indexCast v39
  ![21, v241.toNat]
def k0_off28 (k0_t3 : Fin k0_t3_loop.trips) : Fin 2 → Nat :=
  let c22_i32 : BitVec 32 := 22#32
  let v249 : Index := Scalar.indexCast c22_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v250 : Index := Scalar.indexCast v39
  ![22, v250.toNat]
def k0_off29 (k0_t3 : Fin k0_t3_loop.trips) : Fin 2 → Nat :=
  let c23_i32 : BitVec 32 := 23#32
  let v258 : Index := Scalar.indexCast c23_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v259 : Index := Scalar.indexCast v39
  ![23, v259.toNat]
def k0_off30 (k0_t3 : Fin k0_t3_loop.trips) : Fin 2 → Nat :=
  let c24_i32 : BitVec 32 := 24#32
  let v267 : Index := Scalar.indexCast c24_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v268 : Index := Scalar.indexCast v39
  ![24, v268.toNat]
def k0_off31 (k0_t3 : Fin k0_t3_loop.trips) : Fin 2 → Nat :=
  let c25_i32 : BitVec 32 := 25#32
  let v276 : Index := Scalar.indexCast c25_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v277 : Index := Scalar.indexCast v39
  ![25, v277.toNat]
def k0_off32 (k0_t3 : Fin k0_t3_loop.trips) : Fin 2 → Nat :=
  let c26_i32 : BitVec 32 := 26#32
  let v285 : Index := Scalar.indexCast c26_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v286 : Index := Scalar.indexCast v39
  ![26, v286.toNat]
def k0_off33 (k0_t3 : Fin k0_t3_loop.trips) : Fin 2 → Nat :=
  let c27_i32 : BitVec 32 := 27#32
  let v294 : Index := Scalar.indexCast c27_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v295 : Index := Scalar.indexCast v39
  ![27, v295.toNat]
def k0_off34 (k0_t3 : Fin k0_t3_loop.trips) : Fin 2 → Nat :=
  let c28_i32 : BitVec 32 := 28#32
  let v303 : Index := Scalar.indexCast c28_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v304 : Index := Scalar.indexCast v39
  ![28, v304.toNat]
def k0_off35 (k0_t3 : Fin k0_t3_loop.trips) : Fin 2 → Nat :=
  let c29_i32 : BitVec 32 := 29#32
  let v312 : Index := Scalar.indexCast c29_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v313 : Index := Scalar.indexCast v39
  ![29, v313.toNat]
def k0_off36 (k0_t3 : Fin k0_t3_loop.trips) : Fin 2 → Nat :=
  let c30_i32 : BitVec 32 := 30#32
  let v321 : Index := Scalar.indexCast c30_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v322 : Index := Scalar.indexCast v39
  ![30, v322.toNat]
def k0_off37 (k0_t3 : Fin k0_t3_loop.trips) : Fin 2 → Nat :=
  let c31_i32 : BitVec 32 := 31#32
  let v330 : Index := Scalar.indexCast c31_i32
  let c0_i32_20 : BitVec 32 := 0#32
  let c1_i32_22 : BitVec 32 := 1#32
  let arg14 : BitVec 32 := Scf.iv c0_i32_20 c1_i32_22 k0_t3
  let c16_i32_40 : BitVec 32 := 16#32
  let v39 : BitVec 32 := Scalar.muli arg14 c16_i32_40
  let v331 : Index := Scalar.indexCast v39
  ![31, v331.toNat]
def k0_cond1 (k0_t2 : Fin k0_t2_loop.trips) : BitVec 1 :=
  let c0_i32_6 : BitVec 32 := 0#32
  let c1_i32_7 : BitVec 32 := 1#32
  let arg13 : BitVec 32 := Scf.iv c0_i32_6 c1_i32_7 k0_t2
  let c1_i32_24 : BitVec 32 := 1#32
  let v24 : BitVec 32 := Scalar.addi arg13 c1_i32_24
  let c16_i32_25 : BitVec 32 := 16#32
  let v25 : BitVec 1 := Scalar.cmpi .slt v24 c16_i32_25
  let v26 : BitVec 32 := Scalar.extui v25
  let c0_i32_26 : BitVec 32 := 0#32
  let v27 : BitVec 1 := Scalar.cmpi .ne v26 c0_i32_26
  v27

def k0_off38 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c2_i32_40 : BitVec 32 := 2#32
  let c0_i32_6 : BitVec 32 := 0#32
  let c1_i32_7 : BitVec 32 := 1#32
  let arg13 : BitVec 32 := Scf.iv c0_i32_6 c1_i32_7 k0_t2
  let v39 : BitVec 32 := Scalar.muli c2_i32_40 arg13
  let c2_i32_41 : BitVec 32 := 2#32
  let v40 : BitVec 32 := Scalar.addi v39 c2_i32_41
  let c32_i32_42 : BitVec 32 := 32#32
  let v41 : BitVec 32 := Scalar.muli v40 c32_i32_42
  let v42 : BitVec 32 := Scalar.addi v2 v41
  let c0_i32_43 : BitVec 32 := 0#32
  ![v42.toNat, 0]
@[reducible] def k0_t4_loop : Scf.Loop 32 :=
  let c0_i32_36 : BitVec 32 := 0#32
  let c64_i32_37 : BitVec 32 := 64#32
  let v38 : BitVec 32 := Scalar.addi c0_i32_36 c64_i32_37
  let c1_i32_38 : BitVec 32 := 1#32
  ⟨c0_i32_36, v38, c1_i32_38⟩
def k0_off39 (k0_t4 : Fin k0_t4_loop.trips) : Fin 1 → Nat :=
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v40 : Index := Scalar.indexCast v39
  ![v40.toNat]
def k0_off40 (k0_t4 : Fin k0_t4_loop.trips) : Fin 2 → Nat :=
  let c0_i32_41 : BitVec 32 := 0#32
  let v51 : Index := Scalar.indexCast c0_i32_41
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v52 : Index := Scalar.indexCast v39
  ![0, v52.toNat]
def k0_off41 (k0_t4 : Fin k0_t4_loop.trips) : Fin 2 → Nat :=
  let c1_i32_43 : BitVec 32 := 1#32
  let v60 : Index := Scalar.indexCast c1_i32_43
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v61 : Index := Scalar.indexCast v39
  ![1, v61.toNat]
def k0_off42 (k0_t4 : Fin k0_t4_loop.trips) : Fin 2 → Nat :=
  let c2_i32_45 : BitVec 32 := 2#32
  let v69 : Index := Scalar.indexCast c2_i32_45
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v70 : Index := Scalar.indexCast v39
  ![2, v70.toNat]
def k0_off43 (k0_t4 : Fin k0_t4_loop.trips) : Fin 2 → Nat :=
  let c3_i32 : BitVec 32 := 3#32
  let v78 : Index := Scalar.indexCast c3_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v79 : Index := Scalar.indexCast v39
  ![3, v79.toNat]
def k0_off44 (k0_t4 : Fin k0_t4_loop.trips) : Fin 2 → Nat :=
  let c4_i32 : BitVec 32 := 4#32
  let v87 : Index := Scalar.indexCast c4_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v88 : Index := Scalar.indexCast v39
  ![4, v88.toNat]
def k0_off45 (k0_t4 : Fin k0_t4_loop.trips) : Fin 2 → Nat :=
  let c5_i32 : BitVec 32 := 5#32
  let v96 : Index := Scalar.indexCast c5_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v97 : Index := Scalar.indexCast v39
  ![5, v97.toNat]
def k0_off46 (k0_t4 : Fin k0_t4_loop.trips) : Fin 2 → Nat :=
  let c6_i32 : BitVec 32 := 6#32
  let v105 : Index := Scalar.indexCast c6_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v106 : Index := Scalar.indexCast v39
  ![6, v106.toNat]
def k0_off47 (k0_t4 : Fin k0_t4_loop.trips) : Fin 2 → Nat :=
  let c7_i32 : BitVec 32 := 7#32
  let v114 : Index := Scalar.indexCast c7_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v115 : Index := Scalar.indexCast v39
  ![7, v115.toNat]
def k0_off48 (k0_t4 : Fin k0_t4_loop.trips) : Fin 2 → Nat :=
  let c8_i32 : BitVec 32 := 8#32
  let v123 : Index := Scalar.indexCast c8_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v124 : Index := Scalar.indexCast v39
  ![8, v124.toNat]
def k0_off49 (k0_t4 : Fin k0_t4_loop.trips) : Fin 2 → Nat :=
  let c9_i32 : BitVec 32 := 9#32
  let v132 : Index := Scalar.indexCast c9_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v133 : Index := Scalar.indexCast v39
  ![9, v133.toNat]
def k0_off50 (k0_t4 : Fin k0_t4_loop.trips) : Fin 2 → Nat :=
  let c10_i32 : BitVec 32 := 10#32
  let v141 : Index := Scalar.indexCast c10_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v142 : Index := Scalar.indexCast v39
  ![10, v142.toNat]
def k0_off51 (k0_t4 : Fin k0_t4_loop.trips) : Fin 2 → Nat :=
  let c11_i32 : BitVec 32 := 11#32
  let v150 : Index := Scalar.indexCast c11_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v151 : Index := Scalar.indexCast v39
  ![11, v151.toNat]
def k0_off52 (k0_t4 : Fin k0_t4_loop.trips) : Fin 2 → Nat :=
  let c12_i32 : BitVec 32 := 12#32
  let v159 : Index := Scalar.indexCast c12_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v160 : Index := Scalar.indexCast v39
  ![12, v160.toNat]
def k0_off53 (k0_t4 : Fin k0_t4_loop.trips) : Fin 2 → Nat :=
  let c13_i32 : BitVec 32 := 13#32
  let v168 : Index := Scalar.indexCast c13_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v169 : Index := Scalar.indexCast v39
  ![13, v169.toNat]
def k0_off54 (k0_t4 : Fin k0_t4_loop.trips) : Fin 2 → Nat :=
  let c14_i32 : BitVec 32 := 14#32
  let v177 : Index := Scalar.indexCast c14_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v178 : Index := Scalar.indexCast v39
  ![14, v178.toNat]
def k0_off55 (k0_t4 : Fin k0_t4_loop.trips) : Fin 2 → Nat :=
  let c15_i32 : BitVec 32 := 15#32
  let v186 : Index := Scalar.indexCast c15_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v187 : Index := Scalar.indexCast v39
  ![15, v187.toNat]
def k0_off56 (k0_t4 : Fin k0_t4_loop.trips) : Fin 2 → Nat :=
  let c16_i32_60 : BitVec 32 := 16#32
  let v195 : Index := Scalar.indexCast c16_i32_60
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v196 : Index := Scalar.indexCast v39
  ![16, v196.toNat]
def k0_off57 (k0_t4 : Fin k0_t4_loop.trips) : Fin 2 → Nat :=
  let c17_i32 : BitVec 32 := 17#32
  let v204 : Index := Scalar.indexCast c17_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v205 : Index := Scalar.indexCast v39
  ![17, v205.toNat]
def k0_off58 (k0_t4 : Fin k0_t4_loop.trips) : Fin 2 → Nat :=
  let c18_i32 : BitVec 32 := 18#32
  let v213 : Index := Scalar.indexCast c18_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v214 : Index := Scalar.indexCast v39
  ![18, v214.toNat]
def k0_off59 (k0_t4 : Fin k0_t4_loop.trips) : Fin 2 → Nat :=
  let c19_i32 : BitVec 32 := 19#32
  let v222 : Index := Scalar.indexCast c19_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v223 : Index := Scalar.indexCast v39
  ![19, v223.toNat]
def k0_off60 (k0_t4 : Fin k0_t4_loop.trips) : Fin 2 → Nat :=
  let c20_i32 : BitVec 32 := 20#32
  let v231 : Index := Scalar.indexCast c20_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v232 : Index := Scalar.indexCast v39
  ![20, v232.toNat]
def k0_off61 (k0_t4 : Fin k0_t4_loop.trips) : Fin 2 → Nat :=
  let c21_i32 : BitVec 32 := 21#32
  let v240 : Index := Scalar.indexCast c21_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v241 : Index := Scalar.indexCast v39
  ![21, v241.toNat]
def k0_off62 (k0_t4 : Fin k0_t4_loop.trips) : Fin 2 → Nat :=
  let c22_i32 : BitVec 32 := 22#32
  let v249 : Index := Scalar.indexCast c22_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v250 : Index := Scalar.indexCast v39
  ![22, v250.toNat]
def k0_off63 (k0_t4 : Fin k0_t4_loop.trips) : Fin 2 → Nat :=
  let c23_i32 : BitVec 32 := 23#32
  let v258 : Index := Scalar.indexCast c23_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v259 : Index := Scalar.indexCast v39
  ![23, v259.toNat]
def k0_off64 (k0_t4 : Fin k0_t4_loop.trips) : Fin 2 → Nat :=
  let c24_i32 : BitVec 32 := 24#32
  let v267 : Index := Scalar.indexCast c24_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v268 : Index := Scalar.indexCast v39
  ![24, v268.toNat]
def k0_off65 (k0_t4 : Fin k0_t4_loop.trips) : Fin 2 → Nat :=
  let c25_i32 : BitVec 32 := 25#32
  let v276 : Index := Scalar.indexCast c25_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v277 : Index := Scalar.indexCast v39
  ![25, v277.toNat]
def k0_off66 (k0_t4 : Fin k0_t4_loop.trips) : Fin 2 → Nat :=
  let c26_i32 : BitVec 32 := 26#32
  let v285 : Index := Scalar.indexCast c26_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v286 : Index := Scalar.indexCast v39
  ![26, v286.toNat]
def k0_off67 (k0_t4 : Fin k0_t4_loop.trips) : Fin 2 → Nat :=
  let c27_i32 : BitVec 32 := 27#32
  let v294 : Index := Scalar.indexCast c27_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v295 : Index := Scalar.indexCast v39
  ![27, v295.toNat]
def k0_off68 (k0_t4 : Fin k0_t4_loop.trips) : Fin 2 → Nat :=
  let c28_i32 : BitVec 32 := 28#32
  let v303 : Index := Scalar.indexCast c28_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v304 : Index := Scalar.indexCast v39
  ![28, v304.toNat]
def k0_off69 (k0_t4 : Fin k0_t4_loop.trips) : Fin 2 → Nat :=
  let c29_i32 : BitVec 32 := 29#32
  let v312 : Index := Scalar.indexCast c29_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v313 : Index := Scalar.indexCast v39
  ![29, v313.toNat]
def k0_off70 (k0_t4 : Fin k0_t4_loop.trips) : Fin 2 → Nat :=
  let c30_i32 : BitVec 32 := 30#32
  let v321 : Index := Scalar.indexCast c30_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v322 : Index := Scalar.indexCast v39
  ![30, v322.toNat]
def k0_off71 (k0_t4 : Fin k0_t4_loop.trips) : Fin 2 → Nat :=
  let c31_i32 : BitVec 32 := 31#32
  let v330 : Index := Scalar.indexCast c31_i32
  let c0_i32_36 : BitVec 32 := 0#32
  let c1_i32_38 : BitVec 32 := 1#32
  let arg14 : BitVec 32 := Scf.iv c0_i32_36 c1_i32_38 k0_t4
  let c16_i32_40 : BitVec 32 := 16#32
  let v39 : BitVec 32 := Scalar.muli arg14 c16_i32_40
  let v331 : Index := Scalar.indexCast v39
  ![31, v331.toNat]
def k0_off72 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9_r1 : BitVec 32 := 0#32
  ![v1.toNat, 0]
abbrev grid1 : Pipeline.Grid := ⟨1, ![33], ![false]⟩

def k1_cond2 (i : grid1.Coords) : BitVec 1 :=
  let arg0 : BitVec 32 := BitVec.ofNat 32 (i 0).val
  let c32_i32_1035 : BitVec 32 := 32#32
  let v4367 : BitVec 1 := Scalar.cmpi .eq arg0 c32_i32_1035
  let v4368 : BitVec 32 := Scalar.extui v4367
  let c0_i32_1036 : BitVec 32 := 0#32
  let v4369 : BitVec 1 := Scalar.cmpi .ne v4368 c0_i32_1036
  v4369

def cc1_transform_0 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .smem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1024x100000_S100000x1024_1_0 : S1024x100000.Transposes [1, 0] S100000x1024
  h_S16 : 0 < S16.numel
  shapeCasts_S16_S16 : S16.ShapeCasts S16
  h_S1x16 : 0 < S1x16.numel
  shapeCasts_S1x16_S16 : S1x16.ShapeCasts S16
  squeezes_S1x1024_S1024 : S1x1024.Squeezes S1024
  shapeCasts_S1024_S1x1024 : S1024.ShapeCasts S1x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x1024_S8x1024_0_0 : ∀ a, (![0, 0] : Fin 2 → Nat) a + S8x1024.size a ≤ S2048x1024.size a
  iota_S8x1024_d0_w32 : S8x1024.Iotas .tc 32 [0]
  broadcasts_S1x1024_S8x1024 : S1x1024.Broadcasts S8x1024
  inb_S2048x1024_S8x1024_8_0 : ∀ a, (![8, 0] : Fin 2 → Nat) a + S8x1024.size a ≤ S2048x1024.size a
  inb_S2048x1024_S8x1024_16_0 : ∀ a, (![16, 0] : Fin 2 → Nat) a + S8x1024.size a ≤ S2048x1024.size a
  inb_S2048x1024_S8x1024_24_0 : ∀ a, (![24, 0] : Fin 2 → Nat) a + S8x1024.size a ≤ S2048x1024.size a
  inb_S2048x1024_S8x1024_32_0 : ∀ a, (![32, 0] : Fin 2 → Nat) a + S8x1024.size a ≤ S2048x1024.size a
  inb_S2048x1024_S8x1024_40_0 : ∀ a, (![40, 0] : Fin 2 → Nat) a + S8x1024.size a ≤ S2048x1024.size a
  inb_S2048x1024_S8x1024_48_0 : ∀ a, (![48, 0] : Fin 2 → Nat) a + S8x1024.size a ≤ S2048x1024.size a
  inb_S2048x1024_S8x1024_56_0 : ∀ a, (![56, 0] : Fin 2 → Nat) a + S8x1024.size a ≤ S2048x1024.size a
  inb_S2048x1024_S8x1024_64_0 : ∀ a, (![64, 0] : Fin 2 → Nat) a + S8x1024.size a ≤ S2048x1024.size a
  inb_S2048x1024_S8x1024_72_0 : ∀ a, (![72, 0] : Fin 2 → Nat) a + S8x1024.size a ≤ S2048x1024.size a
  inb_S2048x1024_S8x1024_80_0 : ∀ a, (![80, 0] : Fin 2 → Nat) a + S8x1024.size a ≤ S2048x1024.size a
  inb_S2048x1024_S8x1024_88_0 : ∀ a, (![88, 0] : Fin 2 → Nat) a + S8x1024.size a ≤ S2048x1024.size a
  inb_S2048x1024_S8x1024_96_0 : ∀ a, (![96, 0] : Fin 2 → Nat) a + S8x1024.size a ≤ S2048x1024.size a
  inb_S2048x1024_S8x1024_104_0 : ∀ a, (![104, 0] : Fin 2 → Nat) a + S8x1024.size a ≤ S2048x1024.size a
  inb_S2048x1024_S8x1024_112_0 : ∀ a, (![112, 0] : Fin 2 → Nat) a + S8x1024.size a ≤ S2048x1024.size a
  inb_S2048x1024_S8x1024_120_0 : ∀ a, (![120, 0] : Fin 2 → Nat) a + S8x1024.size a ≤ S2048x1024.size a
  inb_S2048x1024_S8x1024_128_0 : ∀ a, (![128, 0] : Fin 2 → Nat) a + S8x1024.size a ≤ S2048x1024.size a
  inb_S2048x1024_S8x1024_136_0 : ∀ a, (![136, 0] : Fin 2 → Nat) a + S8x1024.size a ≤ S2048x1024.size a
  inb_S2048x1024_S8x1024_144_0 : ∀ a, (![144, 0] : Fin 2 → Nat) a + S8x1024.size a ≤ S2048x1024.size a
  inb_S2048x1024_S8x1024_152_0 : ∀ a, (![152, 0] : Fin 2 → Nat) a + S8x1024.size a ≤ S2048x1024.size a
  inb_S2048x1024_S8x1024_160_0 : ∀ a, (![160, 0] : Fin 2 → Nat) a + S8x1024.size a ≤ S2048x1024.size a
  inb_S2048x1024_S8x1024_168_0 : ∀ a, (![168, 0] : Fin 2 → Nat) a + S8x1024.size a ≤ S2048x1024.size a
  inb_S2048x1024_S8x1024_176_0 : ∀ a, (![176, 0] : Fin 2 → Nat) a + S8x1024.size a ≤ S2048x1024.size a
  inb_S2048x1024_S8x1024_184_0 : ∀ a, (![184, 0] : Fin 2 → Nat) a + S8x1024.size a ≤ S2048x1024.size a
  inb_S2048x1024_S8x1024_192_0 : ∀ a, (![192, 0] : Fin 2 → Nat) a + S8x1024.size a ≤ S2048x1024.size a
  inb_S2048x1024_S8x1024_200_0 : ∀ a, (![200, 0] : Fin 2 → Nat) a + S8x1024.size a ≤ S2048x1024.size a
  inb_S2048x1024_S8x1024_208_0 : ∀ a, (![208, 0] : Fin 2 → Nat) a + S8x1024.size a ≤ S2048x1024.size a
  inb_S2048x1024_S8x1024_216_0 : ∀ a, (![216, 0] : Fin 2 → Nat) a + S8x1024.size a ≤ S2048x1024.size a
  inb_S2048x1024_S8x1024_224_0 : ∀ a, (![224, 0] : Fin 2 → Nat) a + S8x1024.size a ≤ S2048x1024.size a
  inb_S2048x1024_S8x1024_232_0 : ∀ a, (![232, 0] : Fin 2 → Nat) a + S8x1024.size a ≤ S2048x1024.size a
  inb_S2048x1024_S8x1024_240_0 : ∀ a, (![240, 0] : Fin 2 → Nat) a + S8x1024.size a ≤ S2048x1024.size a
  inb_S2048x1024_S8x1024_248_0 : ∀ a, (![248, 0] : Fin 2 → Nat) a + S8x1024.size a ≤ S2048x1024.size a
  inb_S2048x1024_S8x1024_256_0 : ∀ a, (![256, 0] : Fin 2 → Nat) a + S8x1024.size a ≤ S2048x1024.size a
  inb_S2048x1024_S8x1024_264_0 : ∀ a, (![264, 0] : Fin 2 → Nat) a + S8x1024.size a ≤ S2048x1024.size a
  inb_S2048x1024_S8x1024_272_0 : ∀ a, (![272, 0] : Fin 2 → Nat) a + S8x1024.size a ≤ S2048x1024.size a
  inb_S2048x1024_S8x1024_280_0 : ∀ a, (![280, 0] : Fin 2 → Nat) a + S8x1024.size a ≤ S2048x1024.size a
  inb_S2048x1024_S8x1024_288_0 : ∀ a, (![288, 0] : Fin 2 → Nat) a + S8x1024.size a ≤ S2048x1024.size a
  inb_S2048x1024_S8x1024_296_0 : ∀ a, (![296, 0] : Fin 2 → Nat) a + S8x1024.size a ≤ S2048x1024.size a
  inb_S2048x1024_S8x1024_304_0 : ∀ a, (![304, 0] : Fin 2 → Nat) a + S8x1024.size a ≤ S2048x1024.size a
  inb_S2048x1024_S8x1024_312_0 : ∀ a, (![312, 0] : Fin 2 → Nat) a + S8x1024.size a ≤ S2048x1024.size a
  inb_S2048x1024_S8x1024_320_0 : ∀ a, (![320, 0] : Fin 2 → Nat) a + S8x1024.size a ≤ S2048x1024.size a
  inb_S2048x1024_S8x1024_328_0 : ∀ a, (![328, 0] : Fin 2 → Nat) a + S8x1024.size a ≤ S2048x1024.size a
  inb_S2048x1024_S8x1024_336_0 : ∀ a, (![336, 0] : Fin 2 → Nat) a + S8x1024.size a ≤ S2048x1024.size a
  inb_S2048x1024_S8x1024_344_0 : ∀ a, (![344, 0] : Fin 2 → Nat) a + S8x1024.size a ≤ S2048x1024.size a
  inb_S2048x1024_S8x1024_352_0 : ∀ a, (![352, 0] : Fin 2 → Nat) a + S8x1024.size a ≤ S2048x1024.size a
  inb_S2048x1024_S8x1024_360_0 : ∀ a, (![360, 0] : Fin 2 → Nat) a + S8x1024.size a ≤ S2048x1024.size a
  inb_S2048x1024_S8x1024_368_0 : ∀ a, (![368, 0] : Fin 2 → Nat) a + S8x1024.size a ≤ S2048x1024.size a
  inb_S2048x1024_S8x1024_376_0 : ∀ a, (![376, 0] : Fin 2 → Nat) a + S8x1024.size a ≤ S2048x1024.size a
  inb_S2048x1024_S8x1024_384_0 : ∀ a, (![384, 0] : Fin 2 → Nat) a + S8x1024.size a ≤ S2048x1024.size a
  inb_S2048x1024_S8x1024_392_0 : ∀ a, (![392, 0] : Fin 2 → Nat) a + S8x1024.size a ≤ S2048x1024.size a
  inb_S2048x1024_S8x1024_400_0 : ∀ a, (![400, 0] : Fin 2 → Nat) a + S8x1024.size a ≤ S2048x1024.size a
  inb_S2048x1024_S8x1024_408_0 : ∀ a, (![408, 0] : Fin 2 → Nat) a + S8x1024.size a ≤ S2048x1024.size a
  inb_S2048x1024_S8x1024_416_0 : ∀ a, (![416, 0] : Fin 2 → Nat) a + S8x1024.size a ≤ S2048x1024.size a
  inb_S2048x1024_S8x1024_424_0 : ∀ a, (![424, 0] : Fin 2 → Nat) a + S8x1024.size a ≤ S2048x1024.size a
  inb_S2048x1024_S8x1024_432_0 : ∀ a, (![432, 0] : Fin 2 → Nat) a + S8x1024.size a ≤ S2048x1024.size a
  inb_S2048x1024_S8x1024_440_0 : ∀ a, (![440, 0] : Fin 2 → Nat) a + S8x1024.size a ≤ S2048x1024.size a
  inb_S2048x1024_S8x1024_448_0 : ∀ a, (![448, 0] : Fin 2 → Nat) a + S8x1024.size a ≤ S2048x1024.size a
  inb_S2048x1024_S8x1024_456_0 : ∀ a, (![456, 0] : Fin 2 → Nat) a + S8x1024.size a ≤ S2048x1024.size a
  inb_S2048x1024_S8x1024_464_0 : ∀ a, (![464, 0] : Fin 2 → Nat) a + S8x1024.size a ≤ S2048x1024.size a
  inb_S2048x1024_S8x1024_472_0 : ∀ a, (![472, 0] : Fin 2 → Nat) a + S8x1024.size a ≤ S2048x1024.size a
  inb_S2048x1024_S8x1024_480_0 : ∀ a, (![480, 0] : Fin 2 → Nat) a + S8x1024.size a ≤ S2048x1024.size a
  inb_S2048x1024_S8x1024_488_0 : ∀ a, (![488, 0] : Fin 2 → Nat) a + S8x1024.size a ≤ S2048x1024.size a
  inb_S2048x1024_S8x1024_496_0 : ∀ a, (![496, 0] : Fin 2 → Nat) a + S8x1024.size a ≤ S2048x1024.size a
  inb_S2048x1024_S8x1024_504_0 : ∀ a, (![504, 0] : Fin 2 → Nat) a + S8x1024.size a ≤ S2048x1024.size a
  inb_S2048x1024_S8x1024_512_0 : ∀ a, (![512, 0] : Fin 2 → Nat) a + S8x1024.size a ≤ S2048x1024.size a
  inb_S2048x1024_S8x1024_520_0 : ∀ a, (![520, 0] : Fin 2 → Nat) a + S8x1024.size a ≤ S2048x1024.size a
  inb_S2048x1024_S8x1024_528_0 : ∀ a, (![528, 0] : Fin 2 → Nat) a + S8x1024.size a ≤ S2048x1024.size a
  inb_S2048x1024_S8x1024_536_0 : ∀ a, (![536, 0] : Fin 2 → Nat) a + S8x1024.size a ≤ S2048x1024.size a
  inb_S2048x1024_S8x1024_544_0 : ∀ a, (![544, 0] : Fin 2 → Nat) a + S8x1024.size a ≤ S2048x1024.size a
  inb_S2048x1024_S8x1024_552_0 : ∀ a, (![552, 0] : Fin 2 → Nat) a + S8x1024.size a ≤ S2048x1024.size a
  inb_S2048x1024_S8x1024_560_0 : ∀ a, (![560, 0] : Fin 2 → Nat) a + S8x1024.size a ≤ S2048x1024.size a
  inb_S2048x1024_S8x1024_568_0 : ∀ a, (![568, 0] : Fin 2 → Nat) a + S8x1024.size a ≤ S2048x1024.size a
  inb_S2048x1024_S8x1024_576_0 : ∀ a, (![576, 0] : Fin 2 → Nat) a + S8x1024.size a ≤ S2048x1024.size a
  inb_S2048x1024_S8x1024_584_0 : ∀ a, (![584, 0] : Fin 2 → Nat) a + S8x1024.size a ≤ S2048x1024.size a
  inb_S2048x1024_S8x1024_592_0 : ∀ a, (![592, 0] : Fin 2 → Nat) a + S8x1024.size a ≤ S2048x1024.size a
  inb_S2048x1024_S8x1024_600_0 : ∀ a, (![600, 0] : Fin 2 → Nat) a + S8x1024.size a ≤ S2048x1024.size a
  inb_S2048x1024_S8x1024_608_0 : ∀ a, (![608, 0] : Fin 2 → Nat) a + S8x1024.size a ≤ S2048x1024.size a
  inb_S2048x1024_S8x1024_616_0 : ∀ a, (![616, 0] : Fin 2 → Nat) a + S8x1024.size a ≤ S2048x1024.size a
  inb_S2048x1024_S8x1024_624_0 : ∀ a, (![624, 0] : Fin 2 → Nat) a + S8x1024.size a ≤ S2048x1024.size a
  inb_S2048x1024_S8x1024_632_0 : ∀ a, (![632, 0] : Fin 2 → Nat) a + S8x1024.size a ≤ S2048x1024.size a
  inb_S2048x1024_S8x1024_640_0 : ∀ a, (![640, 0] : Fin 2 → Nat) a + S8x1024.size a ≤ S2048x1024.size a
  inb_S2048x1024_S8x1024_648_0 : ∀ a, (![648, 0] : Fin 2 → Nat) a + S8x1024.size a ≤ S2048x1024.size a
  inb_S2048x1024_S8x1024_656_0 : ∀ a, (![656, 0] : Fin 2 → Nat) a + S8x1024.size a ≤ S2048x1024.size a
  inb_S2048x1024_S8x1024_664_0 : ∀ a, (![664, 0] : Fin 2 → Nat) a + S8x1024.size a ≤ S2048x1024.size a
  inb_S2048x1024_S8x1024_672_0 : ∀ a, (![672, 0] : Fin 2 → Nat) a + S8x1024.size a ≤ S2048x1024.size a
  inb_S2048x1024_S8x1024_680_0 : ∀ a, (![680, 0] : Fin 2 → Nat) a + S8x1024.size a ≤ S2048x1024.size a
  inb_S2048x1024_S8x1024_688_0 : ∀ a, (![688, 0] : Fin 2 → Nat) a + S8x1024.size a ≤ S2048x1024.size a
  inb_S2048x1024_S8x1024_696_0 : ∀ a, (![696, 0] : Fin 2 → Nat) a + S8x1024.size a ≤ S2048x1024.size a
  inb_S2048x1024_S8x1024_704_0 : ∀ a, (![704, 0] : Fin 2 → Nat) a + S8x1024.size a ≤ S2048x1024.size a
  inb_S2048x1024_S8x1024_712_0 : ∀ a, (![712, 0] : Fin 2 → Nat) a + S8x1024.size a ≤ S2048x1024.size a
  inb_S2048x1024_S8x1024_720_0 : ∀ a, (![720, 0] : Fin 2 → Nat) a + S8x1024.size a ≤ S2048x1024.size a
  inb_S2048x1024_S8x1024_728_0 : ∀ a, (![728, 0] : Fin 2 → Nat) a + S8x1024.size a ≤ S2048x1024.size a
  inb_S2048x1024_S8x1024_736_0 : ∀ a, (![736, 0] : Fin 2 → Nat) a + S8x1024.size a ≤ S2048x1024.size a
  inb_S2048x1024_S8x1024_744_0 : ∀ a, (![744, 0] : Fin 2 → Nat) a + S8x1024.size a ≤ S2048x1024.size a
  inb_S2048x1024_S8x1024_752_0 : ∀ a, (![752, 0] : Fin 2 → Nat) a + S8x1024.size a ≤ S2048x1024.size a
  inb_S2048x1024_S8x1024_760_0 : ∀ a, (![760, 0] : Fin 2 → Nat) a + S8x1024.size a ≤ S2048x1024.size a
  inb_S2048x1024_S8x1024_768_0 : ∀ a, (![768, 0] : Fin 2 → Nat) a + S8x1024.size a ≤ S2048x1024.size a
  inb_S2048x1024_S8x1024_776_0 : ∀ a, (![776, 0] : Fin 2 → Nat) a + S8x1024.size a ≤ S2048x1024.size a
  inb_S2048x1024_S8x1024_784_0 : ∀ a, (![784, 0] : Fin 2 → Nat) a + S8x1024.size a ≤ S2048x1024.size a
  inb_S2048x1024_S8x1024_792_0 : ∀ a, (![792, 0] : Fin 2 → Nat) a + S8x1024.size a ≤ S2048x1024.size a
  inb_S2048x1024_S8x1024_800_0 : ∀ a, (![800, 0] : Fin 2 → Nat) a + S8x1024.size a ≤ S2048x1024.size a
  inb_S2048x1024_S8x1024_808_0 : ∀ a, (![808, 0] : Fin 2 → Nat) a + S8x1024.size a ≤ S2048x1024.size a
  inb_S2048x1024_S8x1024_816_0 : ∀ a, (![816, 0] : Fin 2 → Nat) a + S8x1024.size a ≤ S2048x1024.size a
  inb_S2048x1024_S8x1024_824_0 : ∀ a, (![824, 0] : Fin 2 → Nat) a + S8x1024.size a ≤ S2048x1024.size a
  inb_S2048x1024_S8x1024_832_0 : ∀ a, (![832, 0] : Fin 2 → Nat) a + S8x1024.size a ≤ S2048x1024.size a
  inb_S2048x1024_S8x1024_840_0 : ∀ a, (![840, 0] : Fin 2 → Nat) a + S8x1024.size a ≤ S2048x1024.size a
  inb_S2048x1024_S8x1024_848_0 : ∀ a, (![848, 0] : Fin 2 → Nat) a + S8x1024.size a ≤ S2048x1024.size a
  inb_S2048x1024_S8x1024_856_0 : ∀ a, (![856, 0] : Fin 2 → Nat) a + S8x1024.size a ≤ S2048x1024.size a
  inb_S2048x1024_S8x1024_864_0 : ∀ a, (![864, 0] : Fin 2 → Nat) a + S8x1024.size a ≤ S2048x1024.size a
  inb_S2048x1024_S8x1024_872_0 : ∀ a, (![872, 0] : Fin 2 → Nat) a + S8x1024.size a ≤ S2048x1024.size a
  inb_S2048x1024_S8x1024_880_0 : ∀ a, (![880, 0] : Fin 2 → Nat) a + S8x1024.size a ≤ S2048x1024.size a
  inb_S2048x1024_S8x1024_888_0 : ∀ a, (![888, 0] : Fin 2 → Nat) a + S8x1024.size a ≤ S2048x1024.size a
  inb_S2048x1024_S8x1024_896_0 : ∀ a, (![896, 0] : Fin 2 → Nat) a + S8x1024.size a ≤ S2048x1024.size a
  inb_S2048x1024_S8x1024_904_0 : ∀ a, (![904, 0] : Fin 2 → Nat) a + S8x1024.size a ≤ S2048x1024.size a
  inb_S2048x1024_S8x1024_912_0 : ∀ a, (![912, 0] : Fin 2 → Nat) a + S8x1024.size a ≤ S2048x1024.size a
  inb_S2048x1024_S8x1024_920_0 : ∀ a, (![920, 0] : Fin 2 → Nat) a + S8x1024.size a ≤ S2048x1024.size a
  inb_S2048x1024_S8x1024_928_0 : ∀ a, (![928, 0] : Fin 2 → Nat) a + S8x1024.size a ≤ S2048x1024.size a
  inb_S2048x1024_S8x1024_936_0 : ∀ a, (![936, 0] : Fin 2 → Nat) a + S8x1024.size a ≤ S2048x1024.size a
  inb_S2048x1024_S8x1024_944_0 : ∀ a, (![944, 0] : Fin 2 → Nat) a + S8x1024.size a ≤ S2048x1024.size a
  inb_S2048x1024_S8x1024_952_0 : ∀ a, (![952, 0] : Fin 2 → Nat) a + S8x1024.size a ≤ S2048x1024.size a
  inb_S2048x1024_S8x1024_960_0 : ∀ a, (![960, 0] : Fin 2 → Nat) a + S8x1024.size a ≤ S2048x1024.size a
  inb_S2048x1024_S8x1024_968_0 : ∀ a, (![968, 0] : Fin 2 → Nat) a + S8x1024.size a ≤ S2048x1024.size a
  inb_S2048x1024_S8x1024_976_0 : ∀ a, (![976, 0] : Fin 2 → Nat) a + S8x1024.size a ≤ S2048x1024.size a
  inb_S2048x1024_S8x1024_984_0 : ∀ a, (![984, 0] : Fin 2 → Nat) a + S8x1024.size a ≤ S2048x1024.size a
  inb_S2048x1024_S8x1024_992_0 : ∀ a, (![992, 0] : Fin 2 → Nat) a + S8x1024.size a ≤ S2048x1024.size a
  inb_S2048x1024_S8x1024_1000_0 : ∀ a, (![1000, 0] : Fin 2 → Nat) a + S8x1024.size a ≤ S2048x1024.size a
  inb_S2048x1024_S8x1024_1008_0 : ∀ a, (![1008, 0] : Fin 2 → Nat) a + S8x1024.size a ≤ S2048x1024.size a
  inb_S2048x1024_S8x1024_1016_0 : ∀ a, (![1016, 0] : Fin 2 → Nat) a + S8x1024.size a ≤ S2048x1024.size a
  inb_S2048x1024_S8x1024_1024_0 : ∀ a, (![1024, 0] : Fin 2 → Nat) a + S8x1024.size a ≤ S2048x1024.size a
  inb_S2048x1024_S8x1024_1032_0 : ∀ a, (![1032, 0] : Fin 2 → Nat) a + S8x1024.size a ≤ S2048x1024.size a
  inb_S2048x1024_S8x1024_1040_0 : ∀ a, (![1040, 0] : Fin 2 → Nat) a + S8x1024.size a ≤ S2048x1024.size a
  inb_S2048x1024_S8x1024_1048_0 : ∀ a, (![1048, 0] : Fin 2 → Nat) a + S8x1024.size a ≤ S2048x1024.size a
  inb_S2048x1024_S8x1024_1056_0 : ∀ a, (![1056, 0] : Fin 2 → Nat) a + S8x1024.size a ≤ S2048x1024.size a
  inb_S2048x1024_S8x1024_1064_0 : ∀ a, (![1064, 0] : Fin 2 → Nat) a + S8x1024.size a ≤ S2048x1024.size a
  inb_S2048x1024_S8x1024_1072_0 : ∀ a, (![1072, 0] : Fin 2 → Nat) a + S8x1024.size a ≤ S2048x1024.size a
  inb_S2048x1024_S8x1024_1080_0 : ∀ a, (![1080, 0] : Fin 2 → Nat) a + S8x1024.size a ≤ S2048x1024.size a
  inb_S2048x1024_S8x1024_1088_0 : ∀ a, (![1088, 0] : Fin 2 → Nat) a + S8x1024.size a ≤ S2048x1024.size a
  inb_S2048x1024_S8x1024_1096_0 : ∀ a, (![1096, 0] : Fin 2 → Nat) a + S8x1024.size a ≤ S2048x1024.size a
  inb_S2048x1024_S8x1024_1104_0 : ∀ a, (![1104, 0] : Fin 2 → Nat) a + S8x1024.size a ≤ S2048x1024.size a
  inb_S2048x1024_S8x1024_1112_0 : ∀ a, (![1112, 0] : Fin 2 → Nat) a + S8x1024.size a ≤ S2048x1024.size a
  inb_S2048x1024_S8x1024_1120_0 : ∀ a, (![1120, 0] : Fin 2 → Nat) a + S8x1024.size a ≤ S2048x1024.size a
  inb_S2048x1024_S8x1024_1128_0 : ∀ a, (![1128, 0] : Fin 2 → Nat) a + S8x1024.size a ≤ S2048x1024.size a
  inb_S2048x1024_S8x1024_1136_0 : ∀ a, (![1136, 0] : Fin 2 → Nat) a + S8x1024.size a ≤ S2048x1024.size a
  inb_S2048x1024_S8x1024_1144_0 : ∀ a, (![1144, 0] : Fin 2 → Nat) a + S8x1024.size a ≤ S2048x1024.size a
  inb_S2048x1024_S8x1024_1152_0 : ∀ a, (![1152, 0] : Fin 2 → Nat) a + S8x1024.size a ≤ S2048x1024.size a
  inb_S2048x1024_S8x1024_1160_0 : ∀ a, (![1160, 0] : Fin 2 → Nat) a + S8x1024.size a ≤ S2048x1024.size a
  inb_S2048x1024_S8x1024_1168_0 : ∀ a, (![1168, 0] : Fin 2 → Nat) a + S8x1024.size a ≤ S2048x1024.size a
  inb_S2048x1024_S8x1024_1176_0 : ∀ a, (![1176, 0] : Fin 2 → Nat) a + S8x1024.size a ≤ S2048x1024.size a
  inb_S2048x1024_S8x1024_1184_0 : ∀ a, (![1184, 0] : Fin 2 → Nat) a + S8x1024.size a ≤ S2048x1024.size a
  inb_S2048x1024_S8x1024_1192_0 : ∀ a, (![1192, 0] : Fin 2 → Nat) a + S8x1024.size a ≤ S2048x1024.size a
  inb_S2048x1024_S8x1024_1200_0 : ∀ a, (![1200, 0] : Fin 2 → Nat) a + S8x1024.size a ≤ S2048x1024.size a
  inb_S2048x1024_S8x1024_1208_0 : ∀ a, (![1208, 0] : Fin 2 → Nat) a + S8x1024.size a ≤ S2048x1024.size a
  inb_S2048x1024_S8x1024_1216_0 : ∀ a, (![1216, 0] : Fin 2 → Nat) a + S8x1024.size a ≤ S2048x1024.size a
  inb_S2048x1024_S8x1024_1224_0 : ∀ a, (![1224, 0] : Fin 2 → Nat) a + S8x1024.size a ≤ S2048x1024.size a
  inb_S2048x1024_S8x1024_1232_0 : ∀ a, (![1232, 0] : Fin 2 → Nat) a + S8x1024.size a ≤ S2048x1024.size a
  inb_S2048x1024_S8x1024_1240_0 : ∀ a, (![1240, 0] : Fin 2 → Nat) a + S8x1024.size a ≤ S2048x1024.size a
  inb_S2048x1024_S8x1024_1248_0 : ∀ a, (![1248, 0] : Fin 2 → Nat) a + S8x1024.size a ≤ S2048x1024.size a
  inb_S2048x1024_S8x1024_1256_0 : ∀ a, (![1256, 0] : Fin 2 → Nat) a + S8x1024.size a ≤ S2048x1024.size a
  inb_S2048x1024_S8x1024_1264_0 : ∀ a, (![1264, 0] : Fin 2 → Nat) a + S8x1024.size a ≤ S2048x1024.size a
  inb_S2048x1024_S8x1024_1272_0 : ∀ a, (![1272, 0] : Fin 2 → Nat) a + S8x1024.size a ≤ S2048x1024.size a
  inb_S2048x1024_S8x1024_1280_0 : ∀ a, (![1280, 0] : Fin 2 → Nat) a + S8x1024.size a ≤ S2048x1024.size a
  inb_S2048x1024_S8x1024_1288_0 : ∀ a, (![1288, 0] : Fin 2 → Nat) a + S8x1024.size a ≤ S2048x1024.size a
  inb_S2048x1024_S8x1024_1296_0 : ∀ a, (![1296, 0] : Fin 2 → Nat) a + S8x1024.size a ≤ S2048x1024.size a
  inb_S2048x1024_S8x1024_1304_0 : ∀ a, (![1304, 0] : Fin 2 → Nat) a + S8x1024.size a ≤ S2048x1024.size a
  inb_S2048x1024_S8x1024_1312_0 : ∀ a, (![1312, 0] : Fin 2 → Nat) a + S8x1024.size a ≤ S2048x1024.size a
  inb_S2048x1024_S8x1024_1320_0 : ∀ a, (![1320, 0] : Fin 2 → Nat) a + S8x1024.size a ≤ S2048x1024.size a
  inb_S2048x1024_S8x1024_1328_0 : ∀ a, (![1328, 0] : Fin 2 → Nat) a + S8x1024.size a ≤ S2048x1024.size a
  inb_S2048x1024_S8x1024_1336_0 : ∀ a, (![1336, 0] : Fin 2 → Nat) a + S8x1024.size a ≤ S2048x1024.size a
  inb_S2048x1024_S8x1024_1344_0 : ∀ a, (![1344, 0] : Fin 2 → Nat) a + S8x1024.size a ≤ S2048x1024.size a
  inb_S2048x1024_S8x1024_1352_0 : ∀ a, (![1352, 0] : Fin 2 → Nat) a + S8x1024.size a ≤ S2048x1024.size a
  inb_S2048x1024_S8x1024_1360_0 : ∀ a, (![1360, 0] : Fin 2 → Nat) a + S8x1024.size a ≤ S2048x1024.size a
  inb_S2048x1024_S8x1024_1368_0 : ∀ a, (![1368, 0] : Fin 2 → Nat) a + S8x1024.size a ≤ S2048x1024.size a
  inb_S2048x1024_S8x1024_1376_0 : ∀ a, (![1376, 0] : Fin 2 → Nat) a + S8x1024.size a ≤ S2048x1024.size a
  inb_S2048x1024_S8x1024_1384_0 : ∀ a, (![1384, 0] : Fin 2 → Nat) a + S8x1024.size a ≤ S2048x1024.size a
  inb_S2048x1024_S8x1024_1392_0 : ∀ a, (![1392, 0] : Fin 2 → Nat) a + S8x1024.size a ≤ S2048x1024.size a
  inb_S2048x1024_S8x1024_1400_0 : ∀ a, (![1400, 0] : Fin 2 → Nat) a + S8x1024.size a ≤ S2048x1024.size a
  inb_S2048x1024_S8x1024_1408_0 : ∀ a, (![1408, 0] : Fin 2 → Nat) a + S8x1024.size a ≤ S2048x1024.size a
  inb_S2048x1024_S8x1024_1416_0 : ∀ a, (![1416, 0] : Fin 2 → Nat) a + S8x1024.size a ≤ S2048x1024.size a
  inb_S2048x1024_S8x1024_1424_0 : ∀ a, (![1424, 0] : Fin 2 → Nat) a + S8x1024.size a ≤ S2048x1024.size a
  inb_S2048x1024_S8x1024_1432_0 : ∀ a, (![1432, 0] : Fin 2 → Nat) a + S8x1024.size a ≤ S2048x1024.size a
  inb_S2048x1024_S8x1024_1440_0 : ∀ a, (![1440, 0] : Fin 2 → Nat) a + S8x1024.size a ≤ S2048x1024.size a
  inb_S2048x1024_S8x1024_1448_0 : ∀ a, (![1448, 0] : Fin 2 → Nat) a + S8x1024.size a ≤ S2048x1024.size a
  inb_S2048x1024_S8x1024_1456_0 : ∀ a, (![1456, 0] : Fin 2 → Nat) a + S8x1024.size a ≤ S2048x1024.size a
  inb_S2048x1024_S8x1024_1464_0 : ∀ a, (![1464, 0] : Fin 2 → Nat) a + S8x1024.size a ≤ S2048x1024.size a
  inb_S2048x1024_S8x1024_1472_0 : ∀ a, (![1472, 0] : Fin 2 → Nat) a + S8x1024.size a ≤ S2048x1024.size a
  inb_S2048x1024_S8x1024_1480_0 : ∀ a, (![1480, 0] : Fin 2 → Nat) a + S8x1024.size a ≤ S2048x1024.size a
  inb_S2048x1024_S8x1024_1488_0 : ∀ a, (![1488, 0] : Fin 2 → Nat) a + S8x1024.size a ≤ S2048x1024.size a
  inb_S2048x1024_S8x1024_1496_0 : ∀ a, (![1496, 0] : Fin 2 → Nat) a + S8x1024.size a ≤ S2048x1024.size a
  inb_S2048x1024_S8x1024_1504_0 : ∀ a, (![1504, 0] : Fin 2 → Nat) a + S8x1024.size a ≤ S2048x1024.size a
  inb_S2048x1024_S8x1024_1512_0 : ∀ a, (![1512, 0] : Fin 2 → Nat) a + S8x1024.size a ≤ S2048x1024.size a
  inb_S2048x1024_S8x1024_1520_0 : ∀ a, (![1520, 0] : Fin 2 → Nat) a + S8x1024.size a ≤ S2048x1024.size a
  inb_S2048x1024_S8x1024_1528_0 : ∀ a, (![1528, 0] : Fin 2 → Nat) a + S8x1024.size a ≤ S2048x1024.size a
  inb_S2048x1024_S8x1024_1536_0 : ∀ a, (![1536, 0] : Fin 2 → Nat) a + S8x1024.size a ≤ S2048x1024.size a
  inb_S2048x1024_S8x1024_1544_0 : ∀ a, (![1544, 0] : Fin 2 → Nat) a + S8x1024.size a ≤ S2048x1024.size a
  inb_S2048x1024_S8x1024_1552_0 : ∀ a, (![1552, 0] : Fin 2 → Nat) a + S8x1024.size a ≤ S2048x1024.size a
  inb_S2048x1024_S8x1024_1560_0 : ∀ a, (![1560, 0] : Fin 2 → Nat) a + S8x1024.size a ≤ S2048x1024.size a
  inb_S2048x1024_S8x1024_1568_0 : ∀ a, (![1568, 0] : Fin 2 → Nat) a + S8x1024.size a ≤ S2048x1024.size a
  inb_S2048x1024_S8x1024_1576_0 : ∀ a, (![1576, 0] : Fin 2 → Nat) a + S8x1024.size a ≤ S2048x1024.size a
  inb_S2048x1024_S8x1024_1584_0 : ∀ a, (![1584, 0] : Fin 2 → Nat) a + S8x1024.size a ≤ S2048x1024.size a
  inb_S2048x1024_S8x1024_1592_0 : ∀ a, (![1592, 0] : Fin 2 → Nat) a + S8x1024.size a ≤ S2048x1024.size a
  inb_S2048x1024_S8x1024_1600_0 : ∀ a, (![1600, 0] : Fin 2 → Nat) a + S8x1024.size a ≤ S2048x1024.size a
  inb_S2048x1024_S8x1024_1608_0 : ∀ a, (![1608, 0] : Fin 2 → Nat) a + S8x1024.size a ≤ S2048x1024.size a
  inb_S2048x1024_S8x1024_1616_0 : ∀ a, (![1616, 0] : Fin 2 → Nat) a + S8x1024.size a ≤ S2048x1024.size a
  inb_S2048x1024_S8x1024_1624_0 : ∀ a, (![1624, 0] : Fin 2 → Nat) a + S8x1024.size a ≤ S2048x1024.size a
  inb_S2048x1024_S8x1024_1632_0 : ∀ a, (![1632, 0] : Fin 2 → Nat) a + S8x1024.size a ≤ S2048x1024.size a
  inb_S2048x1024_S8x1024_1640_0 : ∀ a, (![1640, 0] : Fin 2 → Nat) a + S8x1024.size a ≤ S2048x1024.size a
  inb_S2048x1024_S8x1024_1648_0 : ∀ a, (![1648, 0] : Fin 2 → Nat) a + S8x1024.size a ≤ S2048x1024.size a
  inb_S2048x1024_S8x1024_1656_0 : ∀ a, (![1656, 0] : Fin 2 → Nat) a + S8x1024.size a ≤ S2048x1024.size a
  inb_S2048x1024_S8x1024_1664_0 : ∀ a, (![1664, 0] : Fin 2 → Nat) a + S8x1024.size a ≤ S2048x1024.size a
  inb_S2048x1024_S8x1024_1672_0 : ∀ a, (![1672, 0] : Fin 2 → Nat) a + S8x1024.size a ≤ S2048x1024.size a
  inb_S2048x1024_S8x1024_1680_0 : ∀ a, (![1680, 0] : Fin 2 → Nat) a + S8x1024.size a ≤ S2048x1024.size a
  inb_S2048x1024_S8x1024_1688_0 : ∀ a, (![1688, 0] : Fin 2 → Nat) a + S8x1024.size a ≤ S2048x1024.size a
  inb_S2048x1024_S8x1024_1696_0 : ∀ a, (![1696, 0] : Fin 2 → Nat) a + S8x1024.size a ≤ S2048x1024.size a
  inb_S2048x1024_S8x1024_1704_0 : ∀ a, (![1704, 0] : Fin 2 → Nat) a + S8x1024.size a ≤ S2048x1024.size a
  inb_S2048x1024_S8x1024_1712_0 : ∀ a, (![1712, 0] : Fin 2 → Nat) a + S8x1024.size a ≤ S2048x1024.size a
  inb_S2048x1024_S8x1024_1720_0 : ∀ a, (![1720, 0] : Fin 2 → Nat) a + S8x1024.size a ≤ S2048x1024.size a
  inb_S2048x1024_S8x1024_1728_0 : ∀ a, (![1728, 0] : Fin 2 → Nat) a + S8x1024.size a ≤ S2048x1024.size a
  inb_S2048x1024_S8x1024_1736_0 : ∀ a, (![1736, 0] : Fin 2 → Nat) a + S8x1024.size a ≤ S2048x1024.size a
  inb_S2048x1024_S8x1024_1744_0 : ∀ a, (![1744, 0] : Fin 2 → Nat) a + S8x1024.size a ≤ S2048x1024.size a
  inb_S2048x1024_S8x1024_1752_0 : ∀ a, (![1752, 0] : Fin 2 → Nat) a + S8x1024.size a ≤ S2048x1024.size a
  inb_S2048x1024_S8x1024_1760_0 : ∀ a, (![1760, 0] : Fin 2 → Nat) a + S8x1024.size a ≤ S2048x1024.size a
  inb_S2048x1024_S8x1024_1768_0 : ∀ a, (![1768, 0] : Fin 2 → Nat) a + S8x1024.size a ≤ S2048x1024.size a
  inb_S2048x1024_S8x1024_1776_0 : ∀ a, (![1776, 0] : Fin 2 → Nat) a + S8x1024.size a ≤ S2048x1024.size a
  inb_S2048x1024_S8x1024_1784_0 : ∀ a, (![1784, 0] : Fin 2 → Nat) a + S8x1024.size a ≤ S2048x1024.size a
  inb_S2048x1024_S8x1024_1792_0 : ∀ a, (![1792, 0] : Fin 2 → Nat) a + S8x1024.size a ≤ S2048x1024.size a
  inb_S2048x1024_S8x1024_1800_0 : ∀ a, (![1800, 0] : Fin 2 → Nat) a + S8x1024.size a ≤ S2048x1024.size a
  inb_S2048x1024_S8x1024_1808_0 : ∀ a, (![1808, 0] : Fin 2 → Nat) a + S8x1024.size a ≤ S2048x1024.size a
  inb_S2048x1024_S8x1024_1816_0 : ∀ a, (![1816, 0] : Fin 2 → Nat) a + S8x1024.size a ≤ S2048x1024.size a
  inb_S2048x1024_S8x1024_1824_0 : ∀ a, (![1824, 0] : Fin 2 → Nat) a + S8x1024.size a ≤ S2048x1024.size a
  inb_S2048x1024_S8x1024_1832_0 : ∀ a, (![1832, 0] : Fin 2 → Nat) a + S8x1024.size a ≤ S2048x1024.size a
  inb_S2048x1024_S8x1024_1840_0 : ∀ a, (![1840, 0] : Fin 2 → Nat) a + S8x1024.size a ≤ S2048x1024.size a
  inb_S2048x1024_S8x1024_1848_0 : ∀ a, (![1848, 0] : Fin 2 → Nat) a + S8x1024.size a ≤ S2048x1024.size a
  inb_S2048x1024_S8x1024_1856_0 : ∀ a, (![1856, 0] : Fin 2 → Nat) a + S8x1024.size a ≤ S2048x1024.size a
  inb_S2048x1024_S8x1024_1864_0 : ∀ a, (![1864, 0] : Fin 2 → Nat) a + S8x1024.size a ≤ S2048x1024.size a
  inb_S2048x1024_S8x1024_1872_0 : ∀ a, (![1872, 0] : Fin 2 → Nat) a + S8x1024.size a ≤ S2048x1024.size a
  inb_S2048x1024_S8x1024_1880_0 : ∀ a, (![1880, 0] : Fin 2 → Nat) a + S8x1024.size a ≤ S2048x1024.size a
  inb_S2048x1024_S8x1024_1888_0 : ∀ a, (![1888, 0] : Fin 2 → Nat) a + S8x1024.size a ≤ S2048x1024.size a
  inb_S2048x1024_S8x1024_1896_0 : ∀ a, (![1896, 0] : Fin 2 → Nat) a + S8x1024.size a ≤ S2048x1024.size a
  inb_S2048x1024_S8x1024_1904_0 : ∀ a, (![1904, 0] : Fin 2 → Nat) a + S8x1024.size a ≤ S2048x1024.size a
  inb_S2048x1024_S8x1024_1912_0 : ∀ a, (![1912, 0] : Fin 2 → Nat) a + S8x1024.size a ≤ S2048x1024.size a
  inb_S2048x1024_S8x1024_1920_0 : ∀ a, (![1920, 0] : Fin 2 → Nat) a + S8x1024.size a ≤ S2048x1024.size a
  inb_S2048x1024_S8x1024_1928_0 : ∀ a, (![1928, 0] : Fin 2 → Nat) a + S8x1024.size a ≤ S2048x1024.size a
  inb_S2048x1024_S8x1024_1936_0 : ∀ a, (![1936, 0] : Fin 2 → Nat) a + S8x1024.size a ≤ S2048x1024.size a
  inb_S2048x1024_S8x1024_1944_0 : ∀ a, (![1944, 0] : Fin 2 → Nat) a + S8x1024.size a ≤ S2048x1024.size a
  inb_S2048x1024_S8x1024_1952_0 : ∀ a, (![1952, 0] : Fin 2 → Nat) a + S8x1024.size a ≤ S2048x1024.size a
  inb_S2048x1024_S8x1024_1960_0 : ∀ a, (![1960, 0] : Fin 2 → Nat) a + S8x1024.size a ≤ S2048x1024.size a
  inb_S2048x1024_S8x1024_1968_0 : ∀ a, (![1968, 0] : Fin 2 → Nat) a + S8x1024.size a ≤ S2048x1024.size a
  inb_S2048x1024_S8x1024_1976_0 : ∀ a, (![1976, 0] : Fin 2 → Nat) a + S8x1024.size a ≤ S2048x1024.size a
  inb_S2048x1024_S8x1024_1984_0 : ∀ a, (![1984, 0] : Fin 2 → Nat) a + S8x1024.size a ≤ S2048x1024.size a
  inb_S2048x1024_S8x1024_1992_0 : ∀ a, (![1992, 0] : Fin 2 → Nat) a + S8x1024.size a ≤ S2048x1024.size a
  inb_S2048x1024_S8x1024_2000_0 : ∀ a, (![2000, 0] : Fin 2 → Nat) a + S8x1024.size a ≤ S2048x1024.size a
  inb_S2048x1024_S8x1024_2008_0 : ∀ a, (![2008, 0] : Fin 2 → Nat) a + S8x1024.size a ≤ S2048x1024.size a
  inb_S2048x1024_S8x1024_2016_0 : ∀ a, (![2016, 0] : Fin 2 → Nat) a + S8x1024.size a ≤ S2048x1024.size a
  inb_S2048x1024_S8x1024_2024_0 : ∀ a, (![2024, 0] : Fin 2 → Nat) a + S8x1024.size a ≤ S2048x1024.size a
  inb_S2048x1024_S8x1024_2032_0 : ∀ a, (![2032, 0] : Fin 2 → Nat) a + S8x1024.size a ≤ S2048x1024.size a
  inb_S2048x1024_S8x1024_2040_0 : ∀ a, (![2040, 0] : Fin 2 → Nat) a + S8x1024.size a ≤ S2048x1024.size a
  reduces_S8x1024_S1024 : S8x1024.Reduces [0] S1024
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  reduces_S32x1024_S1024 : S32x1024.Reduces [0] S1024
  shapeCasts_S1x1024_S1x1x1024 : S1x1024.ShapeCasts S1x1x1024
  reduces_S1x1x1024_S1 : S1x1x1024.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  numel1_S1x1 : S1x1.numel = 1
  shapeCasts_S1x1_S_ : S1x1.ShapeCasts S_
  hcc0_scratch5 : 0 + S_.numel ≤ 11
  hcc0_scratch6 : 1 + S_.numel ≤ 11
  hcc0_scoped0 : 2 + S_.numel ≤ 11
  hcc0_scoped1 : 3 + S_.numel ≤ 11
  hcc0_scoped2 : 4 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ a, (k0_off1 k0_t1) a + S16.size a ≤ S1024.size a
  k0_off2_inb : ∀ i : grid0.Coords, ∀ a, (k0_off2 i) a + S32x1024.size a ≤ S100000x1024.size a
  k0_t2_ok : k0_t2_loop.OK
  k0_off3_inb : ∀ (i : grid0.Coords) (k0_t2 : Fin k0_t2_loop.trips), ∀ a, (k0_off3 i k0_t2) a + S32x1024.size a ≤ S100000x1024.size a
  k0_off4_inb : ∀ (i : grid0.Coords) (k0_t2 : Fin k0_t2_loop.trips), ∀ a, (k0_off4 i k0_t2) a + S32x1024.size a ≤ S100000x1024.size a
  k0_t3_ok : k0_t3_loop.OK
  k0_off5_inb : ∀ k0_t3 : Fin k0_t3_loop.trips, ∀ a, (k0_off5 k0_t3) a + S16.size a ≤ S1024.size a
  k0_off6_inb : ∀ k0_t3 : Fin k0_t3_loop.trips, ∀ a, (k0_off6 k0_t3) a + S1x16.size a ≤ S32x1024.size a
  k0_off7_inb : ∀ k0_t3 : Fin k0_t3_loop.trips, ∀ a, (k0_off7 k0_t3) a + S1x16.size a ≤ S32x1024.size a
  k0_off8_inb : ∀ k0_t3 : Fin k0_t3_loop.trips, ∀ a, (k0_off8 k0_t3) a + S1x16.size a ≤ S32x1024.size a
  k0_off9_inb : ∀ k0_t3 : Fin k0_t3_loop.trips, ∀ a, (k0_off9 k0_t3) a + S1x16.size a ≤ S32x1024.size a
  k0_off10_inb : ∀ k0_t3 : Fin k0_t3_loop.trips, ∀ a, (k0_off10 k0_t3) a + S1x16.size a ≤ S32x1024.size a
  k0_off11_inb : ∀ k0_t3 : Fin k0_t3_loop.trips, ∀ a, (k0_off11 k0_t3) a + S1x16.size a ≤ S32x1024.size a
  k0_off12_inb : ∀ k0_t3 : Fin k0_t3_loop.trips, ∀ a, (k0_off12 k0_t3) a + S1x16.size a ≤ S32x1024.size a
  k0_off13_inb : ∀ k0_t3 : Fin k0_t3_loop.trips, ∀ a, (k0_off13 k0_t3) a + S1x16.size a ≤ S32x1024.size a
  k0_off14_inb : ∀ k0_t3 : Fin k0_t3_loop.trips, ∀ a, (k0_off14 k0_t3) a + S1x16.size a ≤ S32x1024.size a
  k0_off15_inb : ∀ k0_t3 : Fin k0_t3_loop.trips, ∀ a, (k0_off15 k0_t3) a + S1x16.size a ≤ S32x1024.size a
  k0_off16_inb : ∀ k0_t3 : Fin k0_t3_loop.trips, ∀ a, (k0_off16 k0_t3) a + S1x16.size a ≤ S32x1024.size a
  k0_off17_inb : ∀ k0_t3 : Fin k0_t3_loop.trips, ∀ a, (k0_off17 k0_t3) a + S1x16.size a ≤ S32x1024.size a
  k0_off18_inb : ∀ k0_t3 : Fin k0_t3_loop.trips, ∀ a, (k0_off18 k0_t3) a + S1x16.size a ≤ S32x1024.size a
  k0_off19_inb : ∀ k0_t3 : Fin k0_t3_loop.trips, ∀ a, (k0_off19 k0_t3) a + S1x16.size a ≤ S32x1024.size a
  k0_off20_inb : ∀ k0_t3 : Fin k0_t3_loop.trips, ∀ a, (k0_off20 k0_t3) a + S1x16.size a ≤ S32x1024.size a
  k0_off21_inb : ∀ k0_t3 : Fin k0_t3_loop.trips, ∀ a, (k0_off21 k0_t3) a + S1x16.size a ≤ S32x1024.size a
  k0_off22_inb : ∀ k0_t3 : Fin k0_t3_loop.trips, ∀ a, (k0_off22 k0_t3) a + S1x16.size a ≤ S32x1024.size a
  k0_off23_inb : ∀ k0_t3 : Fin k0_t3_loop.trips, ∀ a, (k0_off23 k0_t3) a + S1x16.size a ≤ S32x1024.size a
  k0_off24_inb : ∀ k0_t3 : Fin k0_t3_loop.trips, ∀ a, (k0_off24 k0_t3) a + S1x16.size a ≤ S32x1024.size a
  k0_off25_inb : ∀ k0_t3 : Fin k0_t3_loop.trips, ∀ a, (k0_off25 k0_t3) a + S1x16.size a ≤ S32x1024.size a
  k0_off26_inb : ∀ k0_t3 : Fin k0_t3_loop.trips, ∀ a, (k0_off26 k0_t3) a + S1x16.size a ≤ S32x1024.size a
  k0_off27_inb : ∀ k0_t3 : Fin k0_t3_loop.trips, ∀ a, (k0_off27 k0_t3) a + S1x16.size a ≤ S32x1024.size a
  k0_off28_inb : ∀ k0_t3 : Fin k0_t3_loop.trips, ∀ a, (k0_off28 k0_t3) a + S1x16.size a ≤ S32x1024.size a
  k0_off29_inb : ∀ k0_t3 : Fin k0_t3_loop.trips, ∀ a, (k0_off29 k0_t3) a + S1x16.size a ≤ S32x1024.size a
  k0_off30_inb : ∀ k0_t3 : Fin k0_t3_loop.trips, ∀ a, (k0_off30 k0_t3) a + S1x16.size a ≤ S32x1024.size a
  k0_off31_inb : ∀ k0_t3 : Fin k0_t3_loop.trips, ∀ a, (k0_off31 k0_t3) a + S1x16.size a ≤ S32x1024.size a
  k0_off32_inb : ∀ k0_t3 : Fin k0_t3_loop.trips, ∀ a, (k0_off32 k0_t3) a + S1x16.size a ≤ S32x1024.size a
  k0_off33_inb : ∀ k0_t3 : Fin k0_t3_loop.trips, ∀ a, (k0_off33 k0_t3) a + S1x16.size a ≤ S32x1024.size a
  k0_off34_inb : ∀ k0_t3 : Fin k0_t3_loop.trips, ∀ a, (k0_off34 k0_t3) a + S1x16.size a ≤ S32x1024.size a
  k0_off35_inb : ∀ k0_t3 : Fin k0_t3_loop.trips, ∀ a, (k0_off35 k0_t3) a + S1x16.size a ≤ S32x1024.size a
  k0_off36_inb : ∀ k0_t3 : Fin k0_t3_loop.trips, ∀ a, (k0_off36 k0_t3) a + S1x16.size a ≤ S32x1024.size a
  k0_off37_inb : ∀ k0_t3 : Fin k0_t3_loop.trips, ∀ a, (k0_off37 k0_t3) a + S1x16.size a ≤ S32x1024.size a
  k0_off38_inb : ∀ (i : grid0.Coords) (k0_t2 : Fin k0_t2_loop.trips), ∀ (k0_h1 : k0_cond1 k0_t2 = 1#1), ∀ a, (k0_off38 i k0_t2) a + S32x1024.size a ≤ S100000x1024.size a
  k0_t4_ok : k0_t4_loop.OK
  k0_off39_inb : ∀ k0_t4 : Fin k0_t4_loop.trips, ∀ a, (k0_off39 k0_t4) a + S16.size a ≤ S1024.size a
  k0_off40_inb : ∀ k0_t4 : Fin k0_t4_loop.trips, ∀ a, (k0_off40 k0_t4) a + S1x16.size a ≤ S32x1024.size a
  k0_off41_inb : ∀ k0_t4 : Fin k0_t4_loop.trips, ∀ a, (k0_off41 k0_t4) a + S1x16.size a ≤ S32x1024.size a
  k0_off42_inb : ∀ k0_t4 : Fin k0_t4_loop.trips, ∀ a, (k0_off42 k0_t4) a + S1x16.size a ≤ S32x1024.size a
  k0_off43_inb : ∀ k0_t4 : Fin k0_t4_loop.trips, ∀ a, (k0_off43 k0_t4) a + S1x16.size a ≤ S32x1024.size a
  k0_off44_inb : ∀ k0_t4 : Fin k0_t4_loop.trips, ∀ a, (k0_off44 k0_t4) a + S1x16.size a ≤ S32x1024.size a
  k0_off45_inb : ∀ k0_t4 : Fin k0_t4_loop.trips, ∀ a, (k0_off45 k0_t4) a + S1x16.size a ≤ S32x1024.size a
  k0_off46_inb : ∀ k0_t4 : Fin k0_t4_loop.trips, ∀ a, (k0_off46 k0_t4) a + S1x16.size a ≤ S32x1024.size a
  k0_off47_inb : ∀ k0_t4 : Fin k0_t4_loop.trips, ∀ a, (k0_off47 k0_t4) a + S1x16.size a ≤ S32x1024.size a
  k0_off48_inb : ∀ k0_t4 : Fin k0_t4_loop.trips, ∀ a, (k0_off48 k0_t4) a + S1x16.size a ≤ S32x1024.size a
  k0_off49_inb : ∀ k0_t4 : Fin k0_t4_loop.trips, ∀ a, (k0_off49 k0_t4) a + S1x16.size a ≤ S32x1024.size a
  k0_off50_inb : ∀ k0_t4 : Fin k0_t4_loop.trips, ∀ a, (k0_off50 k0_t4) a + S1x16.size a ≤ S32x1024.size a
  k0_off51_inb : ∀ k0_t4 : Fin k0_t4_loop.trips, ∀ a, (k0_off51 k0_t4) a + S1x16.size a ≤ S32x1024.size a
  k0_off52_inb : ∀ k0_t4 : Fin k0_t4_loop.trips, ∀ a, (k0_off52 k0_t4) a + S1x16.size a ≤ S32x1024.size a
  k0_off53_inb : ∀ k0_t4 : Fin k0_t4_loop.trips, ∀ a, (k0_off53 k0_t4) a + S1x16.size a ≤ S32x1024.size a
  k0_off54_inb : ∀ k0_t4 : Fin k0_t4_loop.trips, ∀ a, (k0_off54 k0_t4) a + S1x16.size a ≤ S32x1024.size a
  k0_off55_inb : ∀ k0_t4 : Fin k0_t4_loop.trips, ∀ a, (k0_off55 k0_t4) a + S1x16.size a ≤ S32x1024.size a
  k0_off56_inb : ∀ k0_t4 : Fin k0_t4_loop.trips, ∀ a, (k0_off56 k0_t4) a + S1x16.size a ≤ S32x1024.size a
  k0_off57_inb : ∀ k0_t4 : Fin k0_t4_loop.trips, ∀ a, (k0_off57 k0_t4) a + S1x16.size a ≤ S32x1024.size a
  k0_off58_inb : ∀ k0_t4 : Fin k0_t4_loop.trips, ∀ a, (k0_off58 k0_t4) a + S1x16.size a ≤ S32x1024.size a
  k0_off59_inb : ∀ k0_t4 : Fin k0_t4_loop.trips, ∀ a, (k0_off59 k0_t4) a + S1x16.size a ≤ S32x1024.size a
  k0_off60_inb : ∀ k0_t4 : Fin k0_t4_loop.trips, ∀ a, (k0_off60 k0_t4) a + S1x16.size a ≤ S32x1024.size a
  k0_off61_inb : ∀ k0_t4 : Fin k0_t4_loop.trips, ∀ a, (k0_off61 k0_t4) a + S1x16.size a ≤ S32x1024.size a
  k0_off62_inb : ∀ k0_t4 : Fin k0_t4_loop.trips, ∀ a, (k0_off62 k0_t4) a + S1x16.size a ≤ S32x1024.size a
  k0_off63_inb : ∀ k0_t4 : Fin k0_t4_loop.trips, ∀ a, (k0_off63 k0_t4) a + S1x16.size a ≤ S32x1024.size a
  k0_off64_inb : ∀ k0_t4 : Fin k0_t4_loop.trips, ∀ a, (k0_off64 k0_t4) a + S1x16.size a ≤ S32x1024.size a
  k0_off65_inb : ∀ k0_t4 : Fin k0_t4_loop.trips, ∀ a, (k0_off65 k0_t4) a + S1x16.size a ≤ S32x1024.size a
  k0_off66_inb : ∀ k0_t4 : Fin k0_t4_loop.trips, ∀ a, (k0_off66 k0_t4) a + S1x16.size a ≤ S32x1024.size a
  k0_off67_inb : ∀ k0_t4 : Fin k0_t4_loop.trips, ∀ a, (k0_off67 k0_t4) a + S1x16.size a ≤ S32x1024.size a
  k0_off68_inb : ∀ k0_t4 : Fin k0_t4_loop.trips, ∀ a, (k0_off68 k0_t4) a + S1x16.size a ≤ S32x1024.size a
  k0_off69_inb : ∀ k0_t4 : Fin k0_t4_loop.trips, ∀ a, (k0_off69 k0_t4) a + S1x16.size a ≤ S32x1024.size a
  k0_off70_inb : ∀ k0_t4 : Fin k0_t4_loop.trips, ∀ a, (k0_off70 k0_t4) a + S1x16.size a ≤ S32x1024.size a
  k0_off71_inb : ∀ k0_t4 : Fin k0_t4_loop.trips, ∀ a, (k0_off71 k0_t4) a + S1x16.size a ≤ S32x1024.size a
  k0_off72_inb : ∀ i : grid0.Coords, ∀ a, (k0_off72 i) a + S1x1024.size a ≤ S32x1024.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S2048x1024.size a < S100000x1024.size a
  hwx1_0 : ∀ i : grid1.Coords, EltTy.bits .f32 = 32 ∨ (Rect.unit (s := S100000x1024) (fun a => cc1_transform_0 i a * S2048x1024.size a) (fun a => (Pipeline.Clip.of (cc1_transform_0 i a) (S2048x1024.size a) (S100000x1024.size a)).extent (S2048x1024.size a)) fun a => Pipeline.Clip.inb (Pipeline.Clip.ok_of (hstart1_0 i a))).WholeWords (EltTy.packing .f32)
  hwxs1_0 : ∀ i : grid1.Coords, EltTy.bits .f32 = 32 ∨ (Rect.unit (s := S2048x1024) (fun _ => 0) (fun a => (Pipeline.Clip.of (cc1_transform_0 i a) (S2048x1024.size a) (S100000x1024.size a)).extent (S2048x1024.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .i32 = 32 ∨ (Rect.block (s := S1x1024) S1x1024.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x1024.size a ≤ S32x1024.size a
  hwx1_2 : ∀ i : grid1.Coords, EltTy.bits .f32 = 32 ∨ (Rect.block (s := S32x1024) S32x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x1024.size a ≤ S32x1024.size a
  hwx1_3 : ∀ i : grid1.Coords, EltTy.bits .f32 = 32 ∨ (Rect.block (s := S32x1024) S32x1024.size (cc1_transform_3 i) (hinb1_3 i)).WholeWords (EltTy.packing .f32)
  hstage1_4 : ∀ j, (stage1_4 j).IsWhole
  nbuf1_4 : grid1.bufCount reads1_4 false = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

abbrev cc0_scratch5 : DmaSems sig S_ := SemArray.consecutive 0 S_ hcc0_scratch5
abbrev cc0_scratch6 : DmaSems sig S_ := SemArray.consecutive 1 S_ hcc0_scratch6
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2

abbrev win1_0 : Pipeline.Window sig grid1 :=
  Pipeline.Window.ofSpecClip (Memref.whole main_v0) S2048x1024.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v2) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S32x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S32x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1.size cc1_transform_4 reads1_4 true false 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S1024x100000 : Shape := ⟨2, ![1024, 100000]⟩
abbrev S1024 : Shape := ⟨1, ![1024]⟩
abbrev S1024x1 : Shape := ⟨2, ![1024, 1]⟩
abbrev S_ : Shape := ⟨0, ![]⟩
abbrev S1024x1x1 : Shape := ⟨3, ![1024, 1, 1]⟩
abbrev S1 : Shape := ⟨1, ![1]⟩
abbrev S1x1x1 : Shape := ⟨3, ![1, 1, 1]⟩
abbrev S1024x2 : Shape := ⟨2, ![1024, 2]⟩

abbrev nBuf : Space → Nat
  | .hbm => 101
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024x1, .i32⟩
  | .hbm, ⟨3, _⟩ => ⟨S_, .i32⟩
  | .hbm, ⟨4, _⟩ => ⟨S1024x1, .i32⟩
  | .hbm, ⟨5, _⟩ => ⟨S1024x1, .i1⟩
  | .hbm, ⟨6, _⟩ => ⟨S_, .i32⟩
  | .hbm, ⟨7, _⟩ => ⟨S1024x1, .i32⟩
  | .hbm, ⟨8, _⟩ => ⟨S1024x1, .i32⟩
  | .hbm, ⟨9, _⟩ => ⟨S1024x1, .i32⟩
  | .hbm, ⟨10, _⟩ => ⟨S1024x1x1, .i32⟩
  | .hbm, ⟨11, _⟩ => ⟨S1, .i32⟩
  | .hbm, ⟨12, _⟩ => ⟨S_, .i32⟩
  | .hbm, ⟨13, _⟩ => ⟨S1024x1x1, .i32⟩
  | .hbm, ⟨14, _⟩ => ⟨S1024x1x1, .i1⟩
  | .hbm, ⟨15, _⟩ => ⟨S1x1x1, .i32⟩
  | .hbm, ⟨16, _⟩ => ⟨S1024x1x1, .i32⟩
  | .hbm, ⟨17, _⟩ => ⟨S1024x1x1, .i1⟩
  | .hbm, ⟨18, _⟩ => ⟨S1024x1x1, .i1⟩
  | .hbm, ⟨19, _⟩ => ⟨S_, .i1⟩
  | .hbm, ⟨20, _⟩ => ⟨S1024x1, .i1⟩
  | .hbm, ⟨21, _⟩ => ⟨S1024x1, .f32⟩
  | .hbm, ⟨22, _⟩ => ⟨S_, .f32⟩
  | .hbm, ⟨23, _⟩ => ⟨S1024x1, .f32⟩
  | .hbm, ⟨24, _⟩ => ⟨S1024x1, .f32⟩
  | .hbm, ⟨25, _⟩ => ⟨S1024x1, .f32⟩
  | .hbm, ⟨26, _⟩ => ⟨S_, .f32⟩
  | .hbm, ⟨27, _⟩ => ⟨S1024x1, .f32⟩
  | .hbm, ⟨28, _⟩ => ⟨S1024x1, .f32⟩
  | .hbm, ⟨29, _⟩ => ⟨S1024x1, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S_, .f32⟩
  | .hbm, ⟨34, _⟩ => ⟨S1024x1, .f32⟩
  | .hbm, ⟨35, _⟩ => ⟨S1024x1, .f32⟩
  | .hbm, ⟨36, _⟩ => ⟨S1024x1, .f32⟩
  | .hbm, ⟨37, _⟩ => ⟨S1024, .i32⟩
  | .hbm, ⟨38, _⟩ => ⟨S1024, .f32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S_, .i32⟩
  | .hbm, ⟨50, _⟩ => ⟨S1024, .i32⟩
  | .hbm, ⟨51, _⟩ => ⟨S1024, .i32⟩
  | .hbm, ⟨52, _⟩ => ⟨S1024, .i32⟩
  | .hbm, ⟨53, _⟩ => ⟨S1024x1, .i32⟩
  | .hbm, ⟨54, _⟩ => ⟨S1024x1, .i32⟩
  | .hbm, ⟨55, _⟩ => ⟨S1024x2, .i32⟩
  | .hbm, ⟨56, _⟩ => ⟨S1024x100000, .f32⟩
  | .hbm, ⟨57, _⟩ => ⟨S_, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S1024x1, .f32⟩
  | .hbm, ⟨63, _⟩ => ⟨S1024x100000, .f32⟩
  | .hbm, ⟨64, _⟩ => ⟨S1024x100000, .f32⟩
  | .hbm, ⟨65, _⟩ => ⟨S1024x100000, .f32⟩
  | .hbm, ⟨66, _⟩ => ⟨S_, .f32⟩
  | .hbm, ⟨67, _⟩ => ⟨S1024, .f32⟩
  | .hbm, ⟨68, _⟩ => ⟨S1024x1, .f32⟩
  | .hbm, ⟨69, _⟩ => ⟨S1024x1, .f32⟩
  | .hbm, ⟨70, _⟩ => ⟨S1024x100000, .f32⟩
  | .hbm, ⟨71, _⟩ => ⟨S1024x100000, .f32⟩
  | .hbm, ⟨72, _⟩ => ⟨S1024x1, .i32⟩
  | .hbm, ⟨73, _⟩ => ⟨S_, .i32⟩
  | .hbm, ⟨74, _⟩ => ⟨S1024x1, .i32⟩
  | .hbm, ⟨75, _⟩ => ⟨S1024x1, .i1⟩
  | .hbm, ⟨76, _⟩ => ⟨S_, .i32⟩
  | .hbm, ⟨77, _⟩ => ⟨S1024x1, .i32⟩
  | .hbm, ⟨78, _⟩ => ⟨S1024x1, .i32⟩
  | .hbm, ⟨79, _⟩ => ⟨S1024x1, .i32⟩
  | .hbm, ⟨80, _⟩ => ⟨S1024x1x1, .i32⟩
  | .hbm, ⟨81, _⟩ => ⟨S1, .i32⟩
  | .hbm, ⟨82, _⟩ => ⟨S_, .i32⟩
  | .hbm, ⟨83, _⟩ => ⟨S1024x1x1, .i32⟩
  | .hbm, ⟨84, _⟩ => ⟨S1024x1x1, .i1⟩
  | .hbm, ⟨85, _⟩ => ⟨S1x1x1, .i32⟩
  | .hbm, ⟨86, _⟩ => ⟨S1024x1x1, .i32⟩
  | .hbm, ⟨87, _⟩ => ⟨S1024x1x1, .i1⟩
  | .hbm, ⟨88, _⟩ => ⟨S1024x1x1, .i1⟩
  | .hbm, ⟨89, _⟩ => ⟨S_, .i1⟩
  | .hbm, ⟨90, _⟩ => ⟨S1024x1, .i1⟩
  | .hbm, ⟨91, _⟩ => ⟨S1024x1, .f32⟩
  | .hbm, ⟨92, _⟩ => ⟨S_, .f32⟩
  | .hbm, ⟨93, _⟩ => ⟨S1024x1, .f32⟩
  | .hbm, ⟨94, _⟩ => ⟨S1024x1, .f32⟩
  | .hbm, ⟨95, _⟩ => ⟨S1024, .f32⟩
  | .hbm, ⟨96, _⟩ => ⟨S1024, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c : Ref sig .tc := ⟨.hbm, 39, rfl⟩
abbrev main_v13 : Ref sig .tc := ⟨.hbm, 40, rfl⟩
abbrev main_v14 : Ref sig .tc := ⟨.hbm, 41, rfl⟩
abbrev main_c_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_3 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_call1_cst : Ref sig .tc := ⟨.hbm, 57, rfl⟩
abbrev main_call1_v0 : Ref sig .tc := ⟨.hbm, 58, rfl⟩
abbrev main_call1_cst_0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_cst_1 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_v27 : Ref sig .tc := ⟨.hbm, 71, rfl⟩
abbrev main_v28 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_cst : Ref sig .tc := ⟨.hbm, 92, rfl⟩
abbrev main_call2_v14 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_cst_5 : Ref sig .tc := ⟨.hbm, 97, rfl⟩
abbrev main_v32 : Ref sig .tc := ⟨.hbm, 98, rfl⟩
abbrev main_cst_6 : Ref sig .tc := ⟨.hbm, 99, rfl⟩
abbrev main_v33 : Ref sig .tc := ⟨.hbm, 100, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S_S1024x1 : S_.BroadcastsInDim S1024x1 (![] : Fin 0 → Fin S1024x1.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  h_S_ : 0 < S_.numel
  shapeCasts_S1024x1_S1024 : S1024x1.ShapeCasts S1024
  bcast_S_S1024 : S_.BroadcastsInDim S1024 (![] : Fin 0 → Fin S1024.rank)
  concatenates_S1024x1_S1024x1_S1024x2_d1 : Shape.Concatenates [S1024x1, S1024x1] S1024x2 1
  reducesTo_S1024x100000_S1024_d1 : S1024x100000.ReducesTo [1] S1024
  bcast_S1024x1_S1024x100000_0_1 : S1024x1.BroadcastsInDim S1024x100000 (![0, 1] : Fin 2 → Fin S1024x100000.rank)
  reducesTo_S1024_S_d0 : S1024.ReducesTo [0] S_
  gather_S1024x100000_S1024x1x1_S1024x1_n_1_0_0_1_2_11_wf : GatherDims.WF S1024x100000 S1024x1x1 S1024x1 [] [1] [0] [1] [0] 2 ![1, 1]
  scatter_S1024x100000_S1024x2_S1024_n_01_01_1_wf : ScatterDims.WF S1024x100000 S1024x2 S1024 [] [0, 1] [0, 1] 1

variable [Facts₀]

def gather_S1024x100000_S1024x1x1_S1024x1_n_1_0_0_1_2_11 : GatherDims S1024x100000 S1024x1x1 S1024x1 where
  offsetDims := []
  collapsedSliceDims := [1]
  operandBatchingDims := [0]
  startIndicesBatchingDims := [0]
  startIndexMap := [1]
  indexVectorDim := 2
  sliceSizes := ![1, 1]
  wf := gather_S1024x100000_S1024x1x1_S1024x1_n_1_0_0_1_2_11_wf
def scatter_S1024x100000_S1024x2_S1024_n_01_01_1 : ScatterDims S1024x100000 S1024x2 S1024 where
  updateWindowDims := []
  insertedWindowDims := [0, 1]
  scatterDimsToOperandDims := [0, 1]
  indexVectorDim := 1
  wf := scatter_S1024x100000_S1024x2_S1024_n_01_01_1_wf

class Facts : Prop extends Facts₀ where

variable [Facts]
-- ==== Proof.KICommon.lean ====
/-
  The program as the launch theorem sees it: its label signature, its SparseCore configuration, its body table, the
  ghost state (the handshakes' rounds beside the transfers' counters), and the arrays of @main by name.

  The arrays: `xT` is the input transposed, classes by rows; `tg` the targets; `sP` and `cP` the thirty-two
  per-subcore partial rows (sums of exponentials; the target's cosine where the subcore's stripe holds the target, zero
  elsewhere); `tg2` the targets as one row; `out` the mean loss as a one-by-one array and `res` as a scalar.
-/
import proofs.«202903_g36928128811344_cont_8to1_b_1739_32_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«202903_g36928128811344_cont_8to1_b_1739_32_alg».proof.Proof.Gen.KernelIdeal
import proofs.«202903_g36928128811344_cont_8to1_b_1739_32_alg».proof.Proof.Gen.KernelIdeal.Skeleton
import proofs.«202903_g36928128811344_cont_8to1_b_1739_32_alg».proof.Proof.Gen.KernelIdeal.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds of the TensorCore call, the transfers' counters -/

abbrev UH : Type := URounds (GSem nD τ sig) ℕ
/-- The rounds of the TensorCore call's staging cells: one duty per round, carrying nothing. -/
abbrev UP : Type := URounds (GSem nD τ sig) Unit
abbrev UU : Type := UH × (UP × Counters)

/-- The model every assertion of this certificate is stated in. -/
abbrev MM (F : FTy → Type) : Type := MT nD τ sig (HIx 1) (Elt F) ℕ UU ℕ

abbrev EH : Emb UH (MM F) := embL

/-- The staging cells' rounds, the left factor of the right factor; the counters are found by instance in what remains. -/
def EP : Emb UP (MM F) := (Emb.inl : Emb UP (UP × Counters)).trans embR

instance EP_landsIn : (EP : Emb UP (MM F)).LandsIn (upEmb : UEmb _ (MM F)) := by unfold EP; infer_instance

/-! ## The arrays of @main, as locations of device `d` -/

abbrev inLoc (d : Dev nD) : Loc nD τ sig := (SparseCore.T d).loc main_arg0
abbrev tgLoc (d : Dev nD) : Loc nD τ sig := (SparseCore.T d).loc main_arg1
abbrev xTLoc (d : Dev nD) : Loc nD τ sig := (SparseCore.T d).loc main_v0
abbrev sPLoc (d : Dev nD) : Loc nD τ sig := (SparseCore.T d).loc main_v1_0
abbrev cPLoc (d : Dev nD) : Loc nD τ sig := (SparseCore.T d).loc main_v1_1
abbrev tg2Loc (d : Dev nD) : Loc nD τ sig := (SparseCore.T d).loc main_v2
abbrev outLoc (d : Dev nD) : Loc nD τ sig := (SparseCore.T d).loc main_v3
abbrev resLoc (d : Dev nD) : Loc nD τ sig := (SparseCore.T d).loc main_v4

/-! ## The thirty-two rows of a partial array -/

theorem hdiv32 : 32 ∣ S32x1024.size 0 := ⟨1, rfl⟩
/-- Row `w` of a thirty-two-row array, as a rectangle; -/
abbrev sRow (w : Fin 32) : Rect S32x1024 := Rect.part (s := S32x1024) (a₀ := 0) hdiv32 w
/-- and as the set of its indices, through the whole array's view sliced at that row. -/
abbrev rowSet (w : Fin 32) : Finset S32x1024.Idx := ((Memref.whole main_v1_0_scv : Memref sig .scVector .hbm S32x1024 .f32).view.slice (sRow w)).set

/-- The subcore of grid place `L` and the stripe it owns: subcore `s` of SparseCore `c` works stripe `2 s + c`. -/
abbrev cV (L : grid0.Coords) : Fin τ.nSC := (L 0).castLE hcore0
abbrev jV (L : grid0.Coords) : Fin τ.nSub := (L 1).castLE hsub0
def wid (L : grid0.Coords) : Fin 32 := ⟨(L 1).val * 2 + (L 0).val, by
  have h0 : (L 0).val < 2 := (L 0).isLt
  have h1 : (L 1).val < 16 := (L 1).isLt
  omega⟩

def coordsV (c : Fin (grid0.bound 0)) (s : Fin (grid0.bound 1)) : grid0.Coords :=
  fun | 0 => c | 1 => s | ⟨_ + 2, h⟩ => absurd h (Nat.not_lt.2 (Nat.le_add_left _ _))

end Cert.Proof.KI

end
-- ==== Proof.ScVal.lean ====
/-
  The two per-subcore partial rows as pure terms of the transposed input and the targets, for any float instance.

  Stripe `w` (of 32) holds classes `1024 w .. 1024 w + 1023`. For a column `b` the subcore starts from the zero word and
  takes the stripe's rows in order: the running sum gains the exponential of the row's entry, and the running selection
  is replaced by the row's entry exactly when the row's class is the column's target. `scSumN` and `scSelN` are the
  two running values after the first `n` rows; `scSum` and `scSel` are their values after all 1024.
-/
import Idealize.ShloMosaic.PureOps.Vector
import Idealize.ShloMosaic.Lib.ValueIdx

noncomputable section

namespace Cert.Proof.ScVal

open Idealize.ShloMosaic Idealize.ShloMosaic.ValueIdx

variable {F : FTy → Type} [FloatOps F]

/-- The transposed input's shape, classes by rows, and the targets' shape. -/
abbrev SXT : Shape := ⟨2, ![100000, 1024]⟩
abbrev STG : Shape := ⟨1, ![1024]⟩

/-- Row `r` of stripe `w` is class `1024 w + r`. -/
def stripeRow (w : Fin 32) (r : Fin 1024) : Fin 100000 := ⟨1024 * w.val + r.val, by have := w.isLt; have := r.isLt; omega⟩

@[simp] theorem stripeRow_val (w : Fin 32) (r : Fin 1024) : (stripeRow w r).val = 1024 * w.val + r.val := rfl

/-- Column `b`'s running sum of exponentials after the first `n` rows of stripe `w`, from the zero word. -/
def scSumN (x : SXT.Idx → F .f32) (w : Fin 32) (b : Fin 1024) : ℕ → F .f32
  | 0 => FloatOps.ofBits .f32 0#32
  | n + 1 =>
    if h : n < 1024 then FloatOps.addf (scSumN x w b n) (FloatOps.exp (x (ix2 (stripeRow w ⟨n, h⟩) b))) else scSumN x w b n

/-- Column `b`'s running selection after the first `n` rows of stripe `w`, from the zero word: the entry of the row whose
    class is the column's target, if one of the first `n` rows is. -/
def scSelN (x : SXT.Idx → F .f32) (t : STG.Idx → BitVec 32) (w : Fin 32) (b : Fin 1024) : ℕ → F .f32
  | 0 => FloatOps.ofBits .f32 0#32
  | n + 1 =>
    if h : n < 1024 then
      (if (t (ix1 b)).toNat = 1024 * w.val + n then x (ix2 (stripeRow w ⟨n, h⟩) b) else scSelN x t w b n)
    else scSelN x t w b n

/-- The subcore's two partial rows at column `b`: the values after the stripe's 1024 rows. -/
def scSum (x : SXT.Idx → F .f32) (w : Fin 32) (b : Fin 1024) : F .f32 := scSumN x w b 1024
def scSel (x : SXT.Idx → F .f32) (t : STG.Idx → BitVec 32) (w : Fin 32) (b : Fin 1024) : F .f32 := scSelN x t w b 1024

theorem scSumN_zero (x : SXT.Idx → F .f32) (w : Fin 32) (b : Fin 1024) : scSumN x w b 0 = FloatOps.ofBits .f32 0#32 := rfl
theorem scSelN_zero (x : SXT.Idx → F .f32) (t : STG.Idx → BitVec 32) (w : Fin 32) (b : Fin 1024) :
    scSelN x t w b 0 = FloatOps.ofBits .f32 0#32 := rfl

theorem scSumN_succ (x : SXT.Idx → F .f32) (w : Fin 32) (b : Fin 1024) {n : ℕ} (h : n < 1024) :
    scSumN x w b (n + 1) = FloatOps.addf (scSumN x w b n) (FloatOps.exp (x (ix2 (stripeRow w ⟨n, h⟩) b))) := by
  rw [scSumN, dif_pos h]

theorem scSelN_succ (x : SXT.Idx → F .f32) (t : STG.Idx → BitVec 32) (w : Fin 32) (b : Fin 1024) {n : ℕ} (h : n < 1024) :
    scSelN x t w b (n + 1)
      = if (t (ix1 b)).toNat = 1024 * w.val + n then x (ix2 (stripeRow w ⟨n, h⟩) b) else scSelN x t w b n := by
  rw [scSelN, dif_pos h]

end Cert.Proof.ScVal

end
-- ==== Proof.TcValue.lean ====
/-
  The scalar the last grid point of the TensorCore call stores, as a function of the four arrays the call reads, for any
  float values.

  The call walks the classes from row 32768 on in 33 blocks of 2048 rows; point t holds the rows (16 + t) · 2048 + j of
  the transposed input, and of the last block only the first 1696 rows lie inside the array: what the staging buffer
  holds on the other 352 rows nothing states, and it enters here as a parameter (dd). A block is folded in 256 slabs of
  eight rows, in order, into two accumulators of eight rows each: acc gains exp x on the rows whose class is below
  100000 and zero on the others; cacc gains x on the rows whose class is the column's target and zero on the others.
  Point 0 starts both from zero. After the last point the finish sums each accumulator down its eight rows, adds the
  32 partial rows of the subcores' kernel, moves the target's cosine by the margin and takes the mean of the rows'
  losses.
-/
import proofs.«202903_g36928128811344_cont_8to1_b_1739_32_alg».proof.Proof.KICommon
import Idealize.ShloMosaic.Lib.Pipeline.FrameBody
import Idealize.ShloMosaic.Lib.ValueIdx

noncomputable section

namespace Cert.Proof.KI

open Cert.KernelIdeal Cert.KernelIdeal.Gen
open Idealize.ShloMosaic Idealize.ShloMosaic.ValueIdx

variable {F : FTy → Type} [FloatOps F]

/-- Eight rows of the zero word. -/
abbrev zero8 : FVec F S8x1024 .f32 := broadcast S8x1024 (Scalar.ofBits .f32 0x00000000#32)

/-- The class of the first row of point t's block, as the kernel computes it: (16 + t) · 2048 on 32-bit words. -/
def rowBase (t : ℕ) : BitVec 32 := Scalar.muli (Scalar.addi 16#32 (BitVec.ofNat 32 t)) 2048#32

/-- The class of each row of slab k of point t's block: the row's number in the slab plus the block's base plus 8 k. -/
def rid (t k : ℕ) : IVec S8x1024 32 :=
  addi (iota .tc S8x1024 32 [0] iota_S8x1024_d0_w32) (broadcast S8x1024 (Scalar.addi (rowBase t) (BitVec.ofNat 32 (8 * k))))

/-- Slab k lies inside the block. -/
theorem slab_inb (k : ℕ) (hk : k < 256) : ∀ a, (![8 * k, 0] : Fin 2 → ℕ) a + S8x1024.size a ≤ S2048x1024.size a := by
  intro a
  match a with
  | ⟨0, _⟩ => show 8 * k + 8 ≤ 2048; omega
  | ⟨1, _⟩ => show 0 + 1024 ≤ 1024; omega

/-- Slab k of a block: its rows 8 k … 8 k + 7. -/
def slab (x : Vec F S2048x1024 .f32) (k : ℕ) (hk : k < 256) : FVec F S8x1024 .f32 :=
  shapeCast S8x1024 (View.ld x (Rect.unit (s := S2048x1024) ![8 * k, 0] S8x1024.size (slab_inb k hk))) shapeCasts_S8x1024_S8x1024

/-- The targets as the body reads them. -/
def tvec (tg : Vec F S1x1024 .i32) : IVec S1x1024 32 := shapeCast S1x1024 tg shapeCasts_S1x1024_S1x1024

/-- One slab into the sum of exponentials: exp x where the row's class is below 100000, zero elsewhere. -/
def accStep (t : ℕ) (x : Vec F S2048x1024 .f32) (k : ℕ) (hk : k < 256) (a : FVec F S8x1024 .f32) : FVec F S8x1024 .f32 :=
  addf a (select (cmpi .slt (rid t k) (broadcast S8x1024 100000#32)) (exp (slab x k hk)) zero8)

/-- One slab into the target's cosine: x where the row's class is the column's target, zero elsewhere. -/
def caccStep (t : ℕ) (x : Vec F S2048x1024 .f32) (tg : Vec F S1x1024 .i32) (k : ℕ) (hk : k < 256) (c : FVec F S8x1024 .f32) :
    FVec F S8x1024 .f32 :=
  addf c (select (cmpi .eq (rid t k) (broadcastTo S8x1024 (tvec tg) broadcasts_S1x1024_S8x1024)) (slab x k hk) zero8)

/-- The first n slabs of a block folded into a, in order. -/
def accUpTo (t : ℕ) (x : Vec F S2048x1024 .f32) : (n : ℕ) → n ≤ 256 → FVec F S8x1024 .f32 → FVec F S8x1024 .f32
  | 0, _, a => a
  | n + 1, h, a => accStep t x n h (accUpTo t x n (Nat.le_of_succ_le h) a)

/-- The same for the target's cosine. -/
def caccUpTo (t : ℕ) (x : Vec F S2048x1024 .f32) (tg : Vec F S1x1024 .i32) :
    (n : ℕ) → n ≤ 256 → FVec F S8x1024 .f32 → FVec F S8x1024 .f32
  | 0, _, c => c
  | n + 1, h, c => caccStep t x tg n h (caccUpTo t x tg n (Nat.le_of_succ_le h) c)

/-- A whole block, 256 slabs. -/
def accPoint (t : ℕ) (x : Vec F S2048x1024 .f32) (a : FVec F S8x1024 .f32) : FVec F S8x1024 .f32 := accUpTo t x 256 le_rfl a
def caccPoint (t : ℕ) (x : Vec F S2048x1024 .f32) (tg : Vec F S1x1024 .i32) (c : FVec F S8x1024 .f32) : FVec F S8x1024 .f32 :=
  caccUpTo t x tg 256 le_rfl c

/-- What point t leaves in each accumulator, given what it found there: point 0 starts from zero. -/
def accOut (t : ℕ) (x : Vec F S2048x1024 .f32) (a0 : FVec F S8x1024 .f32) : FVec F S8x1024 .f32 :=
  accPoint t x (if t = 0 then zero8 else a0)
def caccOut (t : ℕ) (x : Vec F S2048x1024 .f32) (tg : Vec F S1x1024 .i32) (c0 : FVec F S8x1024 .f32) : FVec F S8x1024 .f32 :=
  caccPoint t x tg (if t = 0 then zero8 else c0)

/-- Point t's block of the transposed input: row j of it is row (16 + t) · 2048 + j of the array where that lies inside
    the array, and what dd says elsewhere. -/
def xBlk (xT : Vec F S100000x1024 .f32) (dd : ℕ → Vec F S2048x1024 .f32) (t : ℕ) : Vec F S2048x1024 .f32 :=
  fun j => if h : (16 + t) * 2048 + (j 0).val < 100000 then xT (ix2 ⟨(16 + t) * 2048 + (j 0).val, h⟩ ⟨(j 1).val, (j 1).isLt⟩)
    else dd t j

/-- The accumulators after the first t points. -/
def accS (xT : Vec F S100000x1024 .f32) (dd : ℕ → Vec F S2048x1024 .f32) : ℕ → FVec F S8x1024 .f32
  | 0 => zero8
  | t + 1 => accOut t (xBlk xT dd t) (accS xT dd t)
def caccS (xT : Vec F S100000x1024 .f32) (tg2 : Vec F S1x1024 .i32) (dd : ℕ → Vec F S2048x1024 .f32) : ℕ → FVec F S8x1024 .f32
  | 0 => zero8
  | t + 1 => caccOut t (xBlk xT dd t) tg2 (caccS xT tg2 dd t)

/-- The scalar the call's last point stores. -/
def tcOut (xT : Vec F S100000x1024 .f32) (tg2 : Vec F S1x1024 .i32) (sP cP : Vec F S32x1024 .f32)
    (dd : ℕ → Vec F S2048x1024 .f32) : F .f32 :=
  k1_pay3 (accS xT dd 33) (caccS xT tg2 dd 33) sP cP

/-- A point of the one-axis grid is its coordinate. -/
theorem coords1_val (t : Fin grid1.N) : (grid1.coords t 0).val = t.val := by
  revert t; decide +kernel

end Cert.Proof.KI

end
-- ==== Proof.KerVal.lean ====
/-
  The kernel's result as one function of its two inputs, for any float values: the input transposed (classes by rows),
  the thirty-two partial rows the subcores leave (sums of exponentials over each stripe of 1024 classes; the target's
  cosine where the stripe holds the target), and the scalar the TensorCore call's last point stores from them and from the
  remaining classes. What the last block's staging rows past the array hold enters as the parameter `dd`.
-/
import proofs.«202903_g36928128811344_cont_8to1_b_1739_32_alg».proof.Proof.KICommon
import proofs.«202903_g36928128811344_cont_8to1_b_1739_32_alg».proof.Proof.ScVal
import proofs.«202903_g36928128811344_cont_8to1_b_1739_32_alg».proof.Proof.TcValue

noncomputable section

namespace Cert.Proof.KI

open Cert.KernelIdeal Cert.KernelIdeal.Gen Cert.Proof.ScVal
open Idealize.ShloMosaic Idealize.ShloMosaic.ValueIdx

variable {F : FTy → Type} [FloatOps F]

/-- The input with classes by rows, as @main's first operation writes it. -/
def xTof (x : Vec F S1024x100000 .f32) : Vec F S100000x1024 .f32 :=
  transpose S100000x1024 [1, 0] x transposes_S1024x100000_S100000x1024_1_0

/-- The targets as one row, as @main's reshape writes them. -/
def tg2of (t : Vec F S1024 .i32) : Vec F S1x1024 .i32 := shapeCast S1x1024 t shapeCasts_S1024_S1x1024

/-- The subcores' partial sums of exponentials: row `w` is stripe `w`'s. -/
def sPof (xT : Vec F S100000x1024 .f32) : Vec F S32x1024 .f32 := fun j => scSum xT (j 0) (j 1)

/-- The subcores' partial target cosines. -/
def cPof (xT : Vec F S100000x1024 .f32) (t : Vec F S1024 .i32) : Vec F S32x1024 .f32 := fun j => scSel xT t (j 0) (j 1)

/-- The kernel's result. -/
def kerOut (x : Vec F S1024x100000 .f32) (t : Vec F S1024 .i32) (dd : ℕ → Vec F S2048x1024 .f32) : F .f32 :=
  tcOut (xTof x) (tg2of t) (sPof (xTof x)) (cPof (xTof x) t) dd

/-- The result as @main's last reshape leaves it: the one-by-one array read as a scalar. -/
def kerRes (x : Vec F S1024x100000 .f32) (t : Vec F S1024 .i32) (dd : ℕ → Vec F S2048x1024 .f32) : Vec F S_ .f32 :=
  fun i => shapeCast S_ (fun _ : S1x1.Idx => kerOut x t dd) shapeCasts_S1x1_S_ i

end Cert.Proof.KI

end
-- ==== Proof.TcBodyStmt.lean ====
/-
  The statement of the body's run at one grid point of the TensorCore call, as a proposition: what the region's proof
  takes of the body and the body's proof supplies.

  At point t the body is handed the five windows' current staging buffers — the block of the transposed input, the
  targets, the two arrays of partial rows, the one-word result — and the two accumulators. It leaves the four inputs as
  it found them; each accumulator at the fold of the block's 256 slabs into what it held (into zero at point 0); and the
  result's buffer as it found it, except at the last point, where it holds the finish of the two accumulators and the
  partial rows.
-/
import proofs.«202903_g36928128811344_cont_8to1_b_1739_32_alg».proof.Proof.TcValue
import proofs.«202903_g36928128811344_cont_8to1_b_1739_32_alg».proof.Proof.Gen.KernelIdeal.Points

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The body's run at every grid point, on every core. -/
def TcBodyRun (F : FTy → Type) [FloatOps F] : Prop :=
  ∀ (c : Dev nD) (t : Fin cfg1.N) (x : Vec F S2048x1024 .f32) (tg : Vec F S1x1024 .i32) (sp cp : Vec F S32x1024 .f32)
    (o : Vec F S1x1 .f32) (a0 c0 : Vec F S8x1024 .f32),
    (iprop(owns (c : Thread nD τ) (st1_0 t) fullShare x ∗ owns (c : Thread nD τ) (st1_1 t) fullShare tg
        ∗ owns (c : Thread nD τ) (st1_2 t) fullShare sp ∗ owns (c : Thread nD τ) (st1_3 t) fullShare cp
        ∗ owns (c : Thread nD τ) (st1_4 t) fullShare o
        ∗ owns (c : Thread nD τ) (Memref.whole cc1_scratch0) fullShare a0
        ∗ owns (c : Thread nD τ) (Memref.whole cc1_scratch1) fullShare c0) : sProp (MM F))
      ⊢ wp frame (wpE (defs₀ (F := F)) 𝒱₀ (c : Thread nD τ) none) Set.univ (bodyAt1 (F := F) t) fun _ =>
          iprop(owns (c : Thread nD τ) (st1_0 t) fullShare x ∗ owns (c : Thread nD τ) (st1_1 t) fullShare tg
            ∗ owns (c : Thread nD τ) (st1_2 t) fullShare sp ∗ owns (c : Thread nD τ) (st1_3 t) fullShare cp
            ∗ owns (c : Thread nD τ) (st1_4 t) fullShare
                (if t.val = 32 then (fun _ => k1_pay3 (accOut t.val x a0) (caccOut t.val x tg c0) sp cp) else o)
            ∗ owns (c : Thread nD τ) (Memref.whole cc1_scratch0) fullShare (accOut t.val x a0)
            ∗ owns (c : Thread nD τ) (Memref.whole cc1_scratch1) fullShare (caccOut t.val x tg c0))

end Cert.Proof.KI

end
-- ==== Proof.TcRegion.lean ====
/-
  The TensorCore call inside the program: the region rule applied to the call's pipeline.

  The call runs 33 grid points over five windows: the transposed input in blocks of 2048 rows (fetched at every point,
  the last block cut at the array's end), the targets and the two arrays of partial rows (whole, fetched once), and the
  one-word result (written back after the last point only). Two accumulators of eight rows are carried from point to
  point in scratch memory. The proof data constrains each window's staging buffer by a relation: the four inputs are
  left as found; the result's buffer is left as found but at the last point, where it holds the finish. Between points
  the two accumulators hold the running folds (anything before the first point, which zeroes them). Each point's
  fetch of the input block leaves the rows past the array's end at contents nothing states: they are collected point by
  point into the parameter the value takes.

  From the region's entry (the five arrays, what the core owes) the region rule gives its exit: the four inputs as they
  were, the result array at the finish, the core owing what it owed, its recorded waits grown by the pipeline's own at
  the kernels' index.
-/
import proofs.«202903_g36928128811344_cont_8to1_b_1739_32_alg».proof.Proof.TcBodyStmt
import Idealize.ShloMosaic.Lib.Pipeline.Regions
import Idealize.ShloMosaic.Lib.Pipeline.FrameBody
import Idealize.ShloMosaic.Lib.Tactic

noncomputable section

namespace Cert.Proof.KI

open Cert.KernelIdeal Cert.KernelIdeal.Gen
open Idealize.ShloMosaic Idealize.ShloMosaic.TcCoe Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The call has no prefetched table: its admissible contents are the empty ones. -/
abbrev adm : (p : Fin 1) → ((pcfgs (F := F)) p).Adm := fun p => (cfgs p).toPCfg_adm

/-! ## The value's dependence on the unstated rows -/

/-- The unstated rows with point t's replaced. -/
def ddSet (dd : ℕ → Vec F S2048x1024 .f32) (t : ℕ) (d : Vec F S2048x1024 .f32) : ℕ → Vec F S2048x1024 .f32 :=
  fun s => if s = t then d else dd s

theorem ddSet_self (dd : ℕ → Vec F S2048x1024 .f32) (t : ℕ) (d : Vec F S2048x1024 .f32) : ddSet dd t d t = d := by
  unfold ddSet; rw [if_pos rfl]

theorem ddSet_of_ne (dd : ℕ → Vec F S2048x1024 .f32) {t s : ℕ} (d : Vec F S2048x1024 .f32) (h : s ≠ t) : ddSet dd t d s = dd s := by
  unfold ddSet; rw [if_neg h]

/-- A block reads the unstated rows of its own point only. -/
theorem xBlk_congr (xT : Vec F S100000x1024 .f32) {dd dd' : ℕ → Vec F S2048x1024 .f32} {t : ℕ} (h : dd t = dd' t) :
    xBlk xT dd t = xBlk xT dd' t := by
  funext j; unfold xBlk; rw [h]

/-- The accumulators after t points read the unstated rows of the points below t only. -/
theorem accS_congr (xT : Vec F S100000x1024 .f32) {dd dd' : ℕ → Vec F S2048x1024 .f32} :
    ∀ t, (∀ s, s < t → dd s = dd' s) → accS xT dd t = accS xT dd' t
  | 0, _ => rfl
  | t + 1, h => by
    rw [accS, accS, xBlk_congr xT (h t (Nat.lt_succ_self t)), accS_congr xT t fun s hs => h s (Nat.lt_succ_of_lt hs)]

theorem caccS_congr (xT : Vec F S100000x1024 .f32) (tg2 : Vec F S1x1024 .i32) {dd dd' : ℕ → Vec F S2048x1024 .f32} :
    ∀ t, (∀ s, s < t → dd s = dd' s) → caccS xT tg2 dd t = caccS xT tg2 dd' t
  | 0, _ => rfl
  | t + 1, h => by
    rw [caccS, caccS, xBlk_congr xT (h t (Nat.lt_succ_self t)), caccS_congr xT tg2 t fun s hs => h s (Nat.lt_succ_of_lt hs)]

/-- Point 0 starts from zero whatever it finds. -/
theorem accOut_zero (x : Vec F S2048x1024 .f32) (a a' : FVec F S8x1024 .f32) : accOut 0 x a = accOut 0 x a' := by
  unfold accOut; rw [if_pos rfl, if_pos rfl]
theorem caccOut_zero (x : Vec F S2048x1024 .f32) (tg : Vec F S1x1024 .i32) (c c' : FVec F S8x1024 .f32) :
    caccOut 0 x tg c = caccOut 0 x tg c' := by
  unfold caccOut; rw [if_pos rfl, if_pos rfl]

/-- One more point, its unstated rows d: the accumulators after it are the point's fold of what they were. -/
theorem accS_step (xT : Vec F S100000x1024 .f32) (dd : ℕ → Vec F S2048x1024 .f32) (t : ℕ) (d : Vec F S2048x1024 .f32)
    (a0 : FVec F S8x1024 .f32) (h : t ≠ 0 → a0 = accS xT dd t) :
    accS xT (ddSet dd t d) (t + 1) = accOut t (xBlk xT (ddSet dd t d) t) a0 := by
  rw [accS]
  by_cases ht : t = 0
  · subst ht; exact accOut_zero _ _ _
  · rw [h ht, accS_congr xT t fun s hs => ddSet_of_ne dd d (Nat.ne_of_lt hs)]

theorem caccS_step (xT : Vec F S100000x1024 .f32) (tg2 : Vec F S1x1024 .i32) (dd : ℕ → Vec F S2048x1024 .f32) (t : ℕ)
    (d : Vec F S2048x1024 .f32) (c0 : FVec F S8x1024 .f32) (h : t ≠ 0 → c0 = caccS xT tg2 dd t) :
    caccS xT tg2 (ddSet dd t d) (t + 1) = caccOut t (xBlk xT (ddSet dd t d) t) tg2 c0 := by
  rw [caccS]
  by_cases ht : t = 0
  · subst ht; exact caccOut_zero _ _ _ _
  · rw [h ht, caccS_congr xT tg2 t fun s hs => ddSet_of_ne dd d (Nat.ne_of_lt hs)]

/-! ## The proof data -/

section Data

variable (xT : Vec F S100000x1024 .f32) (tg2 : Vec F S1x1024 .i32) (sP cP : Vec F S32x1024 .f32) (o₀ : Vec F S1x1 .f32)
  (O : CellTallies nD τ sig (HIx 1)) (W : Waits sig (HIx 1))

/-- The two accumulators before point t: at anything before the first point, at the running folds after it. -/
def scr (c : Dev nD) (t : ℕ) : sProp (MM F) :=
  if t = 0 then
    iprop((∃ a : Vec F S8x1024 .f32, owns (c : Thread nD τ) (Memref.whole cc1_scratch0) fullShare a)
      ∗ (∃ a : Vec F S8x1024 .f32, owns (c : Thread nD τ) (Memref.whole cc1_scratch1) fullShare a))
  else
    iprop(∃ dd : ℕ → Vec F S2048x1024 .f32, owns (c : Thread nD τ) (Memref.whole cc1_scratch0) fullShare (accS xT dd t)
      ∗ owns (c : Thread nD τ) (Memref.whole cc1_scratch1) fullShare (caccS xT tg2 dd t))

/-- What the result's staging buffer may hold after point t, given what it held before. -/
def outAfter (t : Fin cfg1.N) (Y X : Vec F S1x1 .f32) : Prop :=
  if t.val = 32 then ∃ dd : ℕ → Vec F S2048x1024 .f32, X = fun _ => tcOut xT tg2 sP cP dd else X = Y

/-- The call's proof data on core c. -/
def rd (c : Dev nD) : Pipeline.RDat τ (Elt F) (HIx 1) ℕ UU ℕ cfg1 c where
  A := fun
    | 0 => xT
    | 1 => tg2
    | 2 => sP
    | 3 => cP
    | 4 => o₀
    | ⟨_ + 5, h⟩ => absurd h (Nat.not_lt.2 (Nat.le_add_left _ _))
  after := fun
    | 0 => fun _ Y X => X = Y
    | 1 => fun _ Y X => X = Y
    | 2 => fun _ Y X => X = Y
    | 3 => fun _ Y X => X = Y
    | 4 => fun t Y X => outAfter xT tg2 sP cP t Y X
    | ⟨_ + 5, h⟩ => absurd h (Nat.not_lt.2 (Nat.le_add_left _ _))
  Φ := fun t => scr xT tg2 c t.val
  q := fun _ => fullShare
  owed := fun _ => O
  recorded := fun _ => (↑W : Set (SemLoc sig × HIx 1))

/-- The family the region rule takes: one pipeline. -/
def rdats : (p : Fin 1) → (c : Dev nD) → Pipeline.RDat τ (Elt F) (HIx 1) ℕ UU ℕ (Pipeline.pin (pcfgs (F := F)) adm p) c
  | 0 => fun c => rd xT tg2 sP cP o₀ O W c
  | ⟨_ + 1, h⟩ => absurd h (Nat.not_lt.2 (Nat.le_add_left _ _))

end Data

/-! ## What the body finds in the input windows' buffers -/

section Finds

variable (xT : Vec F S100000x1024 .f32) (tg2 : Vec F S1x1024 .i32) (sP cP : Vec F S32x1024 .f32) (o₀ : Vec F S1x1 .f32)
  (O : CellTallies nD τ sig (HIx 1)) (W : Waits sig (HIx 1))

/-- The input's block index at point t is (16 + t, 0). -/
theorem idx0 : ∀ t : Fin grid1.N, win1_0.index t (0 : Fin 2) = 16 + t.val ∧ win1_0.index t (1 : Fin 2) = 0 := by
  decide +kernel

/-- Its transfers move 2048 rows of 1024, but the last point's, which moves the 1696 rows inside the array. -/
theorem xsz0 : ∀ t : Fin grid1.N, win1_0.xsize (grid1.coords t) (0 : Fin 2) = (if t.val = 32 then 1696 else 2048)
    ∧ win1_0.xsize (grid1.coords t) (1 : Fin 2) = 1024 := by
  decide +kernel

/-- The whole-array windows' blocks start at the array's origin. -/
theorem off1 : ∀ (t : Fin grid1.N) (a : Fin 2), win1_1.index t a * win1_1.size a = 0 := by decide +kernel
theorem off2 : ∀ (t : Fin grid1.N) (a : Fin 2), win1_2.index t a * win1_2.size a = 0 := by decide +kernel
theorem off3 : ∀ (t : Fin grid1.N) (a : Fin 2), win1_3.index t a * win1_3.size a = 0 := by decide +kernel
theorem off4 : ∀ (t : Fin grid1.N) (a : Fin 2), win1_4.index t a * win1_4.size a = 0 := by decide +kernel

/-- What a fetch of the input block at point t leaves in a buffer that held d: the array's rows where the block lies
    inside the array, d past it. -/
theorem fetched0 (c : Dev nD) (t : Fin cfg1.N) (d : Vec F S2048x1024 .f32) :
    (rd xT tg2 sP cP o₀ O W c).fetched (0 : Fin 5) t d = xBlk xT (fun _ => d) t.val := by
  funext j
  obtain ⟨hx0, hx1⟩ := xsz0 t
  obtain ⟨hi0, hi1⟩ := idx0 t
  have hm := win1_0.moved_iff (grid1.coords t) j
  have hj0 : (j 0).val < 2048 := (j 0).isLt
  have hj1 : (j 1).val < 1024 := (j 1).isLt
  have ht : t.val < 33 := lt_of_lt_of_eq t.isLt N_1
  show win1_0.fill (grid1.coords t) d ((rd xT tg2 sP cP o₀ O W c).blockOf (0 : Fin 5) t) j = xBlk xT (fun _ => d) t.val j
  unfold Pipeline.Window.fill xBlk
  by_cases h : (16 + t.val) * 2048 + (j 0).val < 100000
  · have hmv : win1_0.moved (grid1.coords t) j = true := hm.mpr fun a => by
      match a with
      | ⟨0, _⟩ => show (j 0).val < win1_0.xsize (grid1.coords t) (0 : Fin 2); rw [hx0]; split <;> omega
      | ⟨1, _⟩ => show (j 1).val < win1_0.xsize (grid1.coords t) (1 : Fin 2); rw [hx1]; exact hj1
    rw [dif_pos hmv, dif_pos h]
    show xT ((win1_0.rect t).emb _) = xT _
    congr 1
    funext a
    match a with
    | ⟨0, _⟩ => apply Fin.ext; show win1_0.index t (0 : Fin 2) * 2048 + 1 * (j 0).val = (16 + t.val) * 2048 + (j 0).val; rw [hi0]; omega
    | ⟨1, _⟩ => apply Fin.ext; show win1_0.index t (1 : Fin 2) * 1024 + 1 * (j 1).val = (j 1).val; rw [hi1]; omega
  · have hmv : ¬win1_0.moved (grid1.coords t) j = true := fun hh => h (by
      have h0 := hm.mp hh (0 : Fin 2)
      rw [hx0] at h0
      split at h0 <;> omega)
    rw [dif_neg hmv, dif_neg h]

/-- The input window's cuts are a function of its block index. -/
theorem hclip0 (t t' : Fin cfg1.N) (h : (cfg1.win 0).index t = (cfg1.win 0).index t') :
    (cfg1.win 0).clip (cfg1.grid.coords t) = (cfg1.win 0).clip (cfg1.grid.coords t') := by
  have e : t = t' := by
    apply Fin.ext
    have h0 := congrFun h (0 : Fin 2)
    have := (idx0 t).1; have := (idx0 t').1
    change win1_0.index t (0 : Fin 2) = win1_0.index t' (0 : Fin 2) at h0
    omega
  rw [e]

/-- The input block's buffer holds point t's block: the array's rows where the block lies inside it, anything past. -/
theorem finds0 (c : Dev nD) (t : Fin cfg1.N) (Y : Vec F S2048x1024 .f32)
    (h : (rd xT tg2 sP cP o₀ O W c).Finds (0 : Fin 5) t Y) : ∃ d : Vec F S2048x1024 .f32, Y = xBlk xT (fun _ => d) t.val := by
  obtain ⟨d, hd⟩ := Pipeline.RDat.finds_in_eq_fetched (rd xT tg2 sP cP o₀ O W c) (0 : Fin 5) rfl hclip0 (fun _ _ _ e => e) t Y h
  exact ⟨d, hd.trans (fetched0 xT tg2 sP cP o₀ O W c t d)⟩

/-- The targets' buffer holds the targets at every point. -/
theorem finds1 (c : Dev nD) (t : Fin cfg1.N) (Y : Vec F S1x1024 .i32)
    (h : (rd xT tg2 sP cP o₀ O W c).Finds (1 : Fin 5) t Y) : Y = tg2 := by
  obtain ⟨d, hd⟩ := Pipeline.RDat.finds_in_eq_fetched (rd xT tg2 sP cP o₀ O W c) (1 : Fin 5) rfl (fun _ _ _ => rfl) (fun _ _ _ e => e) t Y h
  rw [hd]
  funext j
  show win1_1.fill (grid1.coords t) d ((rd xT tg2 sP cP o₀ O W c).blockOf (1 : Fin 5) t) j = tg2 j
  unfold Pipeline.Window.fill
  rw [dif_pos (show win1_1.moved (grid1.coords t) j = true from rfl)]
  exact congrFun (Memref.read_access_unit_zero (Elt F) main_v2 (funext (off1 t)) _ tg2) j

/-- The partial rows' buffers hold them at every point. -/
theorem finds2 (c : Dev nD) (t : Fin cfg1.N) (Y : Vec F S32x1024 .f32)
    (h : (rd xT tg2 sP cP o₀ O W c).Finds (2 : Fin 5) t Y) : Y = sP := by
  obtain ⟨d, hd⟩ := Pipeline.RDat.finds_in_eq_fetched (rd xT tg2 sP cP o₀ O W c) (2 : Fin 5) rfl (fun _ _ _ => rfl) (fun _ _ _ e => e) t Y h
  rw [hd]
  funext j
  show win1_2.fill (grid1.coords t) d ((rd xT tg2 sP cP o₀ O W c).blockOf (2 : Fin 5) t) j = sP j
  unfold Pipeline.Window.fill
  rw [dif_pos (show win1_2.moved (grid1.coords t) j = true from rfl)]
  exact congrFun (Memref.read_access_unit_zero (Elt F) main_v1_0 (funext (off2 t)) _ sP) j

theorem finds3 (c : Dev nD) (t : Fin cfg1.N) (Y : Vec F S32x1024 .f32)
    (h : (rd xT tg2 sP cP o₀ O W c).Finds (3 : Fin 5) t Y) : Y = cP := by
  obtain ⟨d, hd⟩ := Pipeline.RDat.finds_in_eq_fetched (rd xT tg2 sP cP o₀ O W c) (3 : Fin 5) rfl (fun _ _ _ => rfl) (fun _ _ _ e => e) t Y h
  rw [hd]
  funext j
  show win1_3.fill (grid1.coords t) d ((rd xT tg2 sP cP o₀ O W c).blockOf (3 : Fin 5) t) j = cP j
  unfold Pipeline.Window.fill
  rw [dif_pos (show win1_3.moved (grid1.coords t) j = true from rfl)]
  exact congrFun (Memref.read_access_unit_zero (Elt F) main_v1_1 (funext (off3 t)) _ cP) j

end Finds

/-! ## The body obligation -/

section Body

variable (xT : Vec F S100000x1024 .f32) (tg2 : Vec F S1x1024 .i32) (sP cP : Vec F S32x1024 .f32) (o₀ : Vec F S1x1 .f32)
  (O : CellTallies nD τ sig (HIx 1)) (W : Waits sig (HIx 1))

/-- A whole scratch buffer held at some contents, in the two spellings. -/
theorem owns_of_pointsTo (c : Dev nD) (b : Ref sig .tc) (f : Buf (Elt F) ((c : Thread nD τ).loc b)) :
    ((((c : Thread nD τ).loc b) ↦{fullShare} f) : sProp (MM F)) ⊢ iprop(∃ a, owns (c : Thread nD τ) (Memref.whole b) fullShare a) := by
  iintro H; iexists f; rw [owns_whole]; iexact H

theorem pointsTo_of_owns (c : Dev nD) (b : Ref sig .tc) (a : Buf (Elt F) ((c : Thread nD τ).loc b)) :
    (owns (c : Thread nD τ) (Memref.whole b) fullShare a : sProp (MM F))
      ⊢ iprop(∃ f : Buf (Elt F) ((c : Thread nD τ).loc b), (((c : Thread nD τ).loc b) ↦{fullShare} f)) := by
  rw [owns_whole]; iintro H; iexists a; iexact H

/-- Before any point the accumulators hold something, and after the first what the folds say. -/
theorem scr_elim (c : Dev nD) (t : ℕ) :
    scr xT tg2 c t ⊢ (iprop(∃ (dd : ℕ → Vec F S2048x1024 .f32) (a0 c0 : Vec F S8x1024 .f32),
      ⌜t ≠ 0 → a0 = accS xT dd t ∧ c0 = caccS xT tg2 dd t⌝
        ∗ owns (c : Thread nD τ) (Memref.whole cc1_scratch0) fullShare a0
        ∗ owns (c : Thread nD τ) (Memref.whole cc1_scratch1) fullShare c0) : sProp (MM F)) := by
  unfold scr
  split
  · next h =>
    iintro ⟨⟨%a0, H0⟩, ⟨%c0, H1⟩⟩
    iexists (fun _ _ => Scalar.ofBits .f32 0x00000000#32), a0, c0
    isplitr; · ipureintro; intro hne; exact absurd h hne
    isplitl [H0] <;> iassumption
  · next h =>
    iintro ⟨%dd, H0, H1⟩
    iexists dd, _, _
    isplitr; · ipureintro; intro _; exact ⟨rfl, rfl⟩
    isplitl [H0] <;> iassumption

theorem scr_intro (c : Dev nD) (t : ℕ) (ht : t ≠ 0) (dd : ℕ → Vec F S2048x1024 .f32) :
    (iprop(owns (c : Thread nD τ) (Memref.whole cc1_scratch0) fullShare (accS xT dd t)
      ∗ owns (c : Thread nD τ) (Memref.whole cc1_scratch1) fullShare (caccS xT tg2 dd t)) : sProp (MM F)) ⊢ scr xT tg2 c t := by
  unfold scr
  rw [if_neg ht]
  iintro ⟨H0, H1⟩
  iexists dd
  isplitl [H0] <;> iassumption

/-- The body obligation at every point, from the body's run. -/
theorem body_obl (hrun : TcBodyRun F) (c : Dev nD) :
    (rd xT tg2 sP cP o₀ O W c).BodyObligation (defs₀ (F := F)) 𝒱₀ none Set.univ := by
  intro t Y hY
  obtain ⟨d, h0⟩ := finds0 xT tg2 sP cP o₀ O W c t (Y 0) (hY 0)
  have h1 := finds1 xT tg2 sP cP o₀ O W c t (Y 1) (hY 1)
  have h2 := finds2 xT tg2 sP cP o₀ O W c t (Y 2) (hY 2)
  have h3 := finds3 xT tg2 sP cP o₀ O W c t (Y 3) (hY 3)
  rw [bigSep_W1, bigSep_W1]
  show (iprop(scr xT tg2 c t.val ∗ (rd xT tg2 sP cP o₀ O W c).owesAt none t.castSucc
        ∗ owns (c : Thread nD τ) (st1_0 t) fullShare (Y 0) ∗ owns (c : Thread nD τ) (st1_1 t) fullShare (Y 1)
        ∗ owns (c : Thread nD τ) (st1_2 t) fullShare (Y 2) ∗ owns (c : Thread nD τ) (st1_3 t) fullShare (Y 3)
        ∗ owns (c : Thread nD τ) (st1_4 t) fullShare (Y 4)) : sProp (MM F))
      ⊢ wp frame (wpE (defs₀ (F := F)) 𝒱₀ (c : Thread nD τ) none) Set.univ (bodyAt1 (F := F) t) fun _ =>
          iprop(scr xT tg2 c (t.val + 1) ∗ (rd xT tg2 sP cP o₀ O W c).owesAt none t.castSucc
            ∗ (∃ X, ⌜X = Y 0⌝ ∗ owns (c : Thread nD τ) (st1_0 t) fullShare X)
            ∗ (∃ X, ⌜X = Y 1⌝ ∗ owns (c : Thread nD τ) (st1_1 t) fullShare X)
            ∗ (∃ X, ⌜X = Y 2⌝ ∗ owns (c : Thread nD τ) (st1_2 t) fullShare X)
            ∗ (∃ X, ⌜X = Y 3⌝ ∗ owns (c : Thread nD τ) (st1_3 t) fullShare X)
            ∗ (∃ X, ⌜outAfter xT tg2 sP cP t (Y 4) X⌝ ∗ owns (c : Thread nD τ) (st1_4 t) fullShare X))
  rw [h0, h1, h2, h3]
  iintro ⟨HΦ, Ho, H0, H1, H2, H3, H4⟩
  ihave HΦ' := (scr_elim xT tg2 c t.val) $$ HΦ
  icases HΦ' with ⟨%dd, %a0, %c0, %hac, Hs0, Hs1⟩
  have hx : xBlk xT (fun _ => d) t.val = xBlk xT (ddSet dd t.val d) t.val :=
    xBlk_congr xT (by rw [ddSet_self])
  rw [hx]
  have ha : accS xT (ddSet dd t.val d) (t.val + 1) = accOut t.val (xBlk xT (ddSet dd t.val d) t.val) a0 :=
    accS_step xT dd t.val d a0 fun hne => (hac hne).1
  have hc : caccS xT tg2 (ddSet dd t.val d) (t.val + 1) = caccOut t.val (xBlk xT (ddSet dd t.val d) t.val) tg2 c0 :=
    caccS_step xT tg2 dd t.val d c0 fun hne => (hac hne).2
  iapply (wp_wand_r frame _ Set.univ)
  isplitl [H0 H1 H2 H3 H4 Hs0 Hs1]
  · iapply (hrun c t (xBlk xT (ddSet dd t.val d) t.val) tg2 sP cP (Y 4) a0 c0)
    isplitl [H0]; · iexact H0
    isplitl [H1]; · iexact H1
    isplitl [H2]; · iexact H2
    isplitl [H3]; · iexact H3
    isplitl [H4]; · iexact H4
    isplitl [Hs0]; · iexact Hs0
    iexact Hs1
  · iintro %_ ⟨H0, H1, H2, H3, H4, Hs0, Hs1⟩
    isplitl [Hs0 Hs1]
    · iapply (scr_intro xT tg2 c (t.val + 1) (Nat.succ_ne_zero _) (ddSet dd t.val d))
      rw [ha, hc]
      isplitl [Hs0] <;> iassumption
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    iexists (if t.val = 32 then (fun _ => k1_pay3 (accOut t.val (xBlk xT (ddSet dd t.val d) t.val) a0)
        (caccOut t.val (xBlk xT (ddSet dd t.val d) t.val) tg2 c0) sP cP) else Y 4)
    isplitr
    · ipureintro
      unfold outAfter
      split
      · next h32 =>
        refine ⟨ddSet dd t.val d, ?_⟩
        funext _
        unfold tcOut
        have e33 : (33 : ℕ) = t.val + 1 := by omega
        rw [e33, ha, hc]
      · rfl
    iexact H4

end Body

/-! ## The arrays at the region's two ends -/

section Arrays

variable (xT : Vec F S100000x1024 .f32) (tg2 : Vec F S1x1024 .i32) (sP cP : Vec F S32x1024 .f32) (o₀ : Vec F S1x1 .f32)
  (O : CellTallies nD τ sig (HIx 1)) (W : Waits sig (HIx 1))

/-- Every array is held at the full share. -/
theorem share_rd (c : Dev nD) (w : Fin 5) : (rd xT tg2 sP cP o₀ O W c).share w = fullShare := by
  unfold Pipeline.RDat.share; split <;> rfl

/-- The five arrays at the entry contents, one by one. -/
theorem arrays_rd (c : Dev nD) :
    ((rd xT tg2 sP cP o₀ O W c).arrays (rd xT tg2 sP cP o₀ O W c).A : sProp (MM F))
      = iprop((xTLoc c ↦{fullShare} xT) ∗ (tg2Loc c ↦{fullShare} tg2) ∗ (sPLoc c ↦{fullShare} sP) ∗ (cPLoc c ↦{fullShare} cP)
          ∗ (outLoc c ↦{fullShare} o₀)) := by
  unfold Pipeline.RDat.arrays
  rw [bigSep_W1]
  simp only [share_rd, Memref.view_whole, View.set_whole]
  rfl

/-- An input array is as it was after every write-back. -/
theorem arrAt_in (c : Dev nD) (w : Fin 5) (hw : (cfg1.win w).isOut = false) (n : ℕ)
    (G : Buf (Elt F) ((cfg1.win w).arr.view.loc (c : Thread nD τ))) :
    (rd xT tg2 sP cP o₀ O W c).ArrAt w n G ↔ G = (rd xT tg2 sP cP o₀ O W c).A w := by
  exact Eq.to_iff (congrFun (Pipeline.RDat.ArrAt_in (rd xT tg2 sP cP o₀ O W c) w hw n) G)

/-- The result array after the last point's write-back holds the finish at every index, for some unstated rows. -/
theorem arrAt_out (c : Dev nD) (G : Vec F S1x1 .f32)
    (h : (rd xT tg2 sP cP o₀ O W c).ArrAt (4 : Fin 5) cfg1.N G) :
    ∃ dd : ℕ → Vec F S2048x1024 .f32, G = fun _ => tcOut xT tg2 sP cP dd := by
  have hN : cfg1.N = 33 := N_1
  let u : Fin cfg1.N := ⟨32, by rw [hN]; decide⟩
  have hs := Pipeline.RDat.ArrAt_succ (rd xT tg2 sP cP o₀ O W c) (4 : Fin 5) u
  have hfl : (cfg1.win 4).flush u = true := (flush1_4 u).mpr rfl
  rw [hfl, if_pos rfl] at hs
  rw [hN, show (33 : ℕ) = u.val + 1 from rfl, hs] at h
  obtain ⟨G₀, X, -, ⟨Y, -, hYX⟩, hG⟩ := h
  have hX : outAfter xT tg2 sP cP u Y X := hYX
  unfold outAfter at hX
  rw [if_pos rfl] at hX
  obtain ⟨dd, rfl⟩ := hX
  refine ⟨dd, hG.trans ?_⟩
  exact Memref.write_access_unit_zero_univ (Elt F) main_v3 (funext (off4 u)) _ G₀ _

/-- The five arrays at the exit, one by one. -/
theorem arraysAt_rd (c : Dev nD) :
    ((rd xT tg2 sP cP o₀ O W c).arraysAt cfg1.N : sProp (MM F))
      ⊢ iprop((xTLoc c ↦{fullShare} xT) ∗ (tg2Loc c ↦{fullShare} tg2) ∗ (sPLoc c ↦{fullShare} sP) ∗ (cPLoc c ↦{fullShare} cP)
          ∗ ∃ dd : ℕ → Vec F S2048x1024 .f32, (outLoc c ↦{fullShare} (fun _ => tcOut xT tg2 sP cP dd))) := by
  unfold Pipeline.RDat.arraysAt
  rw [bigSep_W1]
  simp only [share_rd, Memref.view_whole, View.set_whole]
  iintro ⟨⟨%F0, %h0, H0⟩, ⟨%F1, %h1, H1⟩, ⟨%F2, %h2, H2⟩, ⟨%F3, %h3, H3⟩, ⟨%F4, %h4, H4⟩⟩
  rw [arrAt_in xT tg2 sP cP o₀ O W c 0 rfl] at h0
  rw [arrAt_in xT tg2 sP cP o₀ O W c 1 rfl] at h1
  rw [arrAt_in xT tg2 sP cP o₀ O W c 2 rfl] at h2
  rw [arrAt_in xT tg2 sP cP o₀ O W c 3 rfl] at h3
  obtain ⟨dd, h4'⟩ := arrAt_out xT tg2 sP cP o₀ O W c F4 h4
  subst h0; subst h1; subst h2; subst h3; subst h4'
  isplitl [H0]; · iexact H0
  isplitl [H1]; · iexact H1
  isplitl [H2]; · iexact H2
  isplitl [H3]; · iexact H3
  iexists dd
  iexact H4

end Arrays

/-! ## The region -/

section Region

variable (xT : Vec F S100000x1024 .f32) (tg2 : Vec F S1x1024 .i32) (sP cP : Vec F S32x1024 .f32) (o₀ : Vec F S1x1 .f32)
  (O : CellTallies nD τ sig (HIx 1)) (W : Waits sig (HIx 1))

/-- The thread state the region is entered from: the five arrays, what the core owes. -/
def tcPre (c : Dev nD) : sProp (MM F) :=
  iprop((xTLoc c ↦{fullShare} xT) ∗ (tg2Loc c ↦{fullShare} tg2) ∗ (sPLoc c ↦{fullShare} sP) ∗ (cPLoc c ↦{fullShare} cP)
    ∗ (outLoc c ↦{fullShare} o₀) ∗ owes (T c) O W)

/-- The thread state it leaves: the inputs as they were, the result at the finish, the core owing what it owed with
    its recorded waits grown at the kernels' index only. -/
def tcPost (c : Dev nD) : sProp (MM F) :=
  iprop((xTLoc c ↦{fullShare} xT) ∗ (tg2Loc c ↦{fullShare} tg2) ∗ (sPLoc c ↦{fullShare} sP) ∗ (cPLoc c ↦{fullShare} cP)
    ∗ (∃ dd : ℕ → Vec F S2048x1024 .f32, (outLoc c ↦{fullShare} (fun _ => tcOut xT tg2 sP cP dd)))
    ∗ ∃ W' : Waits sig (HIx 1), ⌜∀ p ∈ W', p ∈ W ∨ p.2 = none⌝ ∗ owes (T c) O W')

/-- The call as a kernel region of @main. -/
def tcSeg (hrun : TcBodyRun F) (lv : GSem nD τ sig → HIx 1 → ℕ) (hlv : (K (F := F)).Refines lv) (hO : ∀ g, O g none = 0) :
    Pipeline.RDat.RegionSeg (pcfgs (F := F)) adm (rdats xT tg2 sP cP o₀ O W) none (defs₀ (F := F)) 𝒱₀ (K (F := F)).L lv (0 : Fin 1) where
  win := winFacts1.to₀
  block_pos := block_pos1
  stage_whole := stage_whole1
  K := PEmpty
  osem := fun k => k.elim
  ho := Pipeline.OwnSemFacts.none _
  hbody := fun c => body_obl xT tg2 sP cP o₀ O W hrun c
  hwaits := fun c => Pipeline.RDat.cellsWaits_intro (Pipeline.pin (pcfgs (F := F)) adm) (rdats xT tg2 sP cP o₀ O W) none 0 c
    fun w s t => (K (F := F)).mayWait_none (.dma _) hO lv hlv
  pre := tcPre xT tg2 sP cP o₀ O W
  post := tcPost xT tg2 sP cP O W
  X := fun _ => iprop(emp)
  Y := fun _ => iprop(emp)
  Z := fun _ => iprop(emp)
  hentry := fun c => by
    show (iprop(tcPre xT tg2 sP cP o₀ O W c ∗ Pipeline.ownSems0 (fun k : PEmpty => k.elim) c ∗ levAts (K (F := F)).L lv) : sProp (MM F))
      ⊢ |={Set.univ}=> iprop((rd xT tg2 sP cP o₀ O W c).arrays (rd xT tg2 sP cP o₀ O W c).A
          ∗ Pipeline.prefHeld Pipeline.Prefetch.none c (fun _ => fullShare) Pipeline.Prefetch.Contents.none
          ∗ (rd xT tg2 sP cP o₀ O W c).owesAt none 0 ∗ emp ∗ emp)
    rw [arrays_rd]
    unfold tcPre
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr
    · unfold Pipeline.prefHeld; rw [Finset.univ_eq_empty, BI.bigSep_empty]; iempintro
    isplitl [HO]
    · iexists W
      isplitr; · ipureintro; exact Set.subset_union_left
      iexact HO
    isplitr <;> iempintro
  hin := fun c => by
    show (iprop(emp ∗ Pipeline.prefHeld Pipeline.Prefetch.none c (fun _ => fullShare) Pipeline.Prefetch.Contents.none
        ∗ Pipeline.scopedRest spec1 c) : sProp (MM F))
      ⊢ scr xT tg2 c 0
    rw [scopedRest1_eq]
    unfold scr
    rw [if_pos rfl]
    iintro ⟨-, -, ⟨%f0, H0⟩, ⟨%f1, H1⟩⟩
    isplitl [H0]
    · iapply (owns_of_pointsTo c cc1_scratch0 f0); iexact H0
    · iapply (owns_of_pointsTo c cc1_scratch1 f1); iexact H1
  hout := fun c => by
    show scr xT tg2 c cfg1.N
      ⊢ (iprop(emp ∗ Pipeline.ownSems0 (fun k : PEmpty => k.elim) c ∗ Pipeline.scopedRest spec1 c) : sProp (MM F))
    rw [scopedRest1_eq, Pipeline.ownSems0_none _ _ _ _ _ _ _ _ c]
    refine (scr_elim xT tg2 c _).trans ?_
    iintro ⟨%dd, %a0, %c0, -, H0, H1⟩
    isplitr; · iempintro
    isplitr; · iempintro
    isplitl [H0]
    · iapply (pointsTo_of_owns c cc1_scratch0 a0); iexact H0
    · iapply (pointsTo_of_owns c cc1_scratch1 c0); iexact H1
  hexit := fun c => by
    show (iprop((rd xT tg2 sP cP o₀ O W c).arraysAt cfg1.N
        ∗ (rd xT tg2 sP cP o₀ O W c).owesAt none (Fin.last cfg1.N) ∗ emp ∗ emp) : sProp (MM F))
      ⊢ |={Set.univ}=> tcPost xT tg2 sP cP O W c
    unfold tcPost
    iintro ⟨Ha, ⟨%W', %hW', HO⟩, -, -⟩
    ihave Ha' := (arraysAt_rd xT tg2 sP cP o₀ O W c) $$ Ha
    icases Ha' with ⟨H0, H1, H2, H3, H4⟩
    imodintro
    isplitl [H0]; · iexact H0
    isplitl [H1]; · iexact H1
    isplitl [H2]; · iexact H2
    isplitl [H3]; · iexact H3
    isplitl [H4]; · iexact H4
    iexists W'
    isplitr
    · ipureintro
      intro p hp
      rcases hW' hp with h | ⟨w, s, rfl⟩
      · exact .inl h
      · exact .inr rfl
    iexact HO

/-- The TensorCore call, run: from the region's boundary, the five arrays, what the core owes (nothing at the kernels'
    index) and the pipeline's ghost state, the call runs to the boundary, the inputs as they were, the result array at the
    finish for some contents of the rows nothing states, and the core owing what it owed. -/
theorem tc_region (hrun : TcBodyRun F)
    (EP : Emb (URounds (GSem nD τ sig) Unit) (MM F)) [EP.LandsIn (upEmb : UEmb _ (MM F))]
    (lv : GSem nD τ sig → HIx 1 → ℕ) (hlv : (K (F := F)).Refines lv) (d : Dev nD)
    (hO : ∀ g, O g none = 0)
    {α : Type} (k : PUnit → Prog (TpuEff nD τ sig (Elt F) (ΛP (F := F)) .tc) α) (Q : α → sProp (MM F)) :
    (iprop(boundary (T d) ∗ levAts (K (F := F)).L lv
        ∗ Pipeline.cellsGhost (Pipeline.pin (pcfgs (F := F)) adm) EP 0 d ∗ Pipeline.toksInit (Pipeline.pin (pcfgs (F := F)) adm) EP 0 d
        ∗ (xTLoc d ↦{fullShare} xT) ∗ (tg2Loc d ↦{fullShare} tg2) ∗ (sPLoc d ↦{fullShare} sP) ∗ (cPLoc d ↦{fullShare} cP)
        ∗ (∃ o : Vec F S1x1 .f32, (outLoc d ↦{fullShare} o))
        ∗ owes (T d) O W
        ∗ (iprop(boundary (T d) ∗ tcPost xT tg2 sP cP O W d)
            -∗ wp frame (wpE (D (F := F)) 𝒱 (T d) none) Set.univ (k ⟨⟩) Q)) : sProp (MM F))
      ⊢ wp frame (wpE (D (F := F)) 𝒱 (T d) none) Set.univ (.op (.customCall (Pipeline.entry 0) ()) k) Q := by
  iintro ⟨Hbd, #Hla, Hg, Ht, H0, H1, H2, H3, ⟨%o₀, H4⟩, HO, Hk⟩
  have hwp : (iprop((iprop(boundary (T d) ∗ tcPost xT tg2 sP cP O W d) -∗ wp frame (wpE (D (F := F)) 𝒱 (T d) none) Set.univ (k ⟨⟩) Q)
        ∗ boundary (T d) ∗ tcPre xT tg2 sP cP o₀ O W d ∗ levAts (K (F := F)).L lv
        ∗ Pipeline.cellsGhost (Pipeline.pin (pcfgs (F := F)) adm) EP 0 d ∗ Pipeline.toksInit (Pipeline.pin (pcfgs (F := F)) adm) EP 0 d) : sProp (MM F))
      ⊢ wp frame (wpE (D (F := F)) 𝒱 (T d) none) Set.univ (.op (.customCall (Pipeline.entry 0) ()) k) Q :=
    Pipeline.RDat.RegionSeg.wp (pcfgs (F := F)) adm (rdats xT tg2 sP cP o₀ O W) none cellOf_inj EP (defs₀ (F := F)) 𝒱₀
      (K (F := F)).L lv (tcSeg xT tg2 sP cP o₀ O W hrun lv hlv hO) d none (fun u h => nomatch h) k Q
  unfold tcPre at hwp
  iapply hwp
  isplitl [Hk]; · iexact Hk
  isplitl [Hbd]; · iexact Hbd
  isplitl [H0 H1 H2 H3 H4 HO]
  · isplitl [H0]; · iexact H0
    isplitl [H1]; · iexact H1
    isplitl [H2]; · iexact H2
    isplitl [H3]; · iexact H3
    isplitl [H4]; · iexact H4
    iexact HO
  isplitr; · iexact Hla
  isplitl [Hg] <;> iassumption

end Region

end Cert.Proof.KI

end
-- ==== Proof.ScBody.lean ====
/-
  One vector subcore's task, at a symbolic place of the grid, for any float instance.

  Subcore `(L 0, L 1)` owns stripe `w = 2 (L 1) + (L 0)` of the transposed input: classes `1024 w .. 1024 w + 1023`.
  It fetches the targets, clears its two running rows, and streams the stripe through two buffers, thirty-two rows at a
  time: for each column the running sum gains the exponential of every row's entry and the running selection takes the
  entry of the row whose class is the column's target. The two rows then go out to row `w` of the two partial arrays.
  The statement names what those rows hold (`scSum`, `scSel`); the input and the targets come back as they were lent.
-/
import proofs.«202903_g36928128811344_cont_8to1_b_1739_32_alg».proof.Proof.KICommon
import proofs.«202903_g36928128811344_cont_8to1_b_1739_32_alg».proof.Proof.ScVal
import Idealize.ShloMosaic.Lib.Writes
import Idealize.ShloMosaic.Lib.ValueLayout
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.ScVal

variable {F : FTy → Type}

/-! ## Running values over a block of rows -/

section Pure

variable [FloatOps F]

/-- The transposed input at class `r`, column `b`; the zero word off the array. -/
def xAt (x : SXT.Idx → F .f32) (r : ℕ) (b : Fin 1024) : F .f32 :=
  if h : r < 100000 then x (ix2 ⟨r, h⟩ b) else FloatOps.ofBits .f32 0#32

theorem xAt_stripe (x : SXT.Idx → F .f32) (w : Fin 32) (n : ℕ) (h : n < 1024) (b : Fin 1024) :
    xAt x (1024 * w.val + n) b = x (ix2 (stripeRow w ⟨n, h⟩) b) := by
  have hw := w.isLt
  rw [xAt, dif_pos (by omega)]; rfl

/-- A running sum `a` after `m` more rows `r 0 .. r (m - 1)`: each adds its exponential. -/
def addExpN (a : F .f32) (r : ℕ → F .f32) : ℕ → F .f32
  | 0 => a
  | m + 1 => FloatOps.addf (addExpN a r m) (FloatOps.exp (r m))

/-- The stripe's running sum after `n + m` rows is the one after `n` rows carried over the next `m`. -/
theorem scSumN_add (x : SXT.Idx → F .f32) (w : Fin 32) (b : Fin 1024) (n : ℕ) :
    ∀ m, n + m ≤ 1024 →
      scSumN x w b (n + m) = addExpN (scSumN x w b n) (fun i => xAt x (1024 * w.val + (n + i)) b) m
  | 0, _ => rfl
  | m + 1, h => by
    have hm : n + m < 1024 := by omega
    have ih := scSumN_add x w b n m (by omega)
    show scSumN x w b (n + m + 1)
      = FloatOps.addf (addExpN (scSumN x w b n) (fun i => xAt x (1024 * w.val + (n + i)) b) m)
          (FloatOps.exp (xAt x (1024 * w.val + (n + m)) b))
    rw [scSumN_succ x w b hm, ih, xAt_stripe x w (n + m) hm b]

/-- A running selection `s` after `m` more rows: row `i` replaces it when the target's word less the base word `g` is `i`. -/
def selStepN (t g : BitVec 32) (s : F .f32) (r : ℕ → F .f32) : ℕ → F .f32
  | 0 => s
  | m + 1 => Scalar.select (IntOp.cmpi .eq (IntOp.subi t g) (BitVec.ofNat 32 m)) (r m) (selStepN t g s r m)

/-- The word test of a row: the target's word less the base word is `m` exactly when the target, read unsigned, is
    the base plus `m` (no wrap: the sum is below `2 ^ 32`). -/
theorem cmpi_sub_eq_one_iff (t g : BitVec 32) (m : ℕ) (h : g.toNat + m < 2 ^ 32) :
    IntOp.cmpi .eq (IntOp.subi t g) (BitVec.ofNat 32 m) = 1#1 ↔ t.toNat = g.toNat + m := by
  have h1 : IntOp.cmpi .eq (IntOp.subi t g) (BitVec.ofNat 32 m) = BitVec.ofBool (t - g == BitVec.ofNat 32 m) := rfl
  have h2 : (BitVec.ofBool (t - g == BitVec.ofNat 32 m) = 1#1) ↔ (t - g = BitVec.ofNat 32 m) := by
    cases hb : (t - g == BitVec.ofNat 32 m)
    · simp only [BitVec.ofBool_false, beq_eq_false_iff_ne, ne_eq] at hb ⊢
      exact ⟨fun e => absurd e (by decide), fun e => absurd e hb⟩
    · simp only [BitVec.ofBool_true, beq_iff_eq] at hb ⊢
      exact ⟨fun _ => hb, fun _ => rfl⟩
  rw [h1, h2]
  constructor
  · intro e
    bv_omega
  · intro e
    bv_omega

/-- The stripe's running selection after `n + m` rows is the one after `n` rows carried over the next `m`, the base
    word `g` being class `1024 w + n`. -/
theorem scSelN_add (x : SXT.Idx → F .f32) (t : STG.Idx → BitVec 32) (w : Fin 32) (b : Fin 1024) (n : ℕ) (g : BitVec 32)
    (hg : g.toNat = 1024 * w.val + n) :
    ∀ m, n + m ≤ 1024 →
      scSelN x t w b (n + m)
        = selStepN (t (ix1 b)) g (scSelN x t w b n) (fun i => xAt x (1024 * w.val + (n + i)) b) m
  | 0, _ => rfl
  | m + 1, h => by
    have hm : n + m < 1024 := by omega
    have hw := w.isLt
    have ih := scSelN_add x t w b n g hg m (by omega)
    show scSelN x t w b (n + m + 1)
      = Scalar.select (IntOp.cmpi .eq (IntOp.subi (t (ix1 b)) g) (BitVec.ofNat 32 m)) (xAt x (1024 * w.val + (n + m)) b)
          (selStepN (t (ix1 b)) g (scSelN x t w b n) (fun i => xAt x (1024 * w.val + (n + i)) b) m)
    rw [scSelN_succ x t w b hm, ih, xAt_stripe x w (n + m) hm b]
    have hiff : (IntOp.cmpi .eq (IntOp.subi (t (ix1 b)) g) (BitVec.ofNat 32 m) = (1 : BitVec 1)) ↔ (t (ix1 b)).toNat = g.toNat + m :=
      cmpi_sub_eq_one_iff (t (ix1 b)) g m (by omega)
    unfold Scalar.select
    by_cases hc : (t (ix1 b)).toNat = 1024 * w.val + (n + m)
    · rw [if_pos hc, if_pos (hiff.mpr (by omega))]
    · rw [if_neg hc, if_neg (fun e => hc (by have := hiff.mp e; omega))]

end Pure

/-! ## A store of some lanes of a whole buffer, as one function -/

section Writes

variable {sigR : RefSig} {κ : Kind} {Val : EltTy → Type}

/-- An unmasked store through a rectangle of a whole buffer leaves the function `G` when the payload is `G` on the
    rectangle and the old contents are `G` off it. -/
theorem whole_write_eq {b : Ref sigR κ} (r : Rect b.ty.shape) (f G : b.ty.Contents Val) (w : r.shape.Idx → Val b.ty.elt)
    (hin : ∀ x, w x = G (r.emb x)) (hout : ∀ y, y ∉ r.set → f y = G y) :
    ((View.whole b).slice r).write Val f w Finset.univ = G := by
  funext y
  by_cases hy : y ∈ r.set
  · obtain ⟨x, rfl⟩ := r.exists_idx_of_mem hy
    have h := View.write_emb_of_mem (v := (View.whole b).slice r) (Val := Val) f w (M := Finset.univ) (x := x) (Finset.mem_univ _)
    exact h.trans ((cast_eq _ _).trans (hin x))
  · rw [View.write_of_not_mem _ _ _ (by rw [View.setOn_univ, View.set_slice_whole]; exact hy)]
    exact hout y hy

end Writes

/-! ## The subcore's arrays, scratch and semaphores -/

section Tile

variable [FloatOps F] (d : Dev nD) (L : grid0.Coords)

-- the kernel's memrefs, spelt as the body table passes them
local notation "xV" => (Memref.whole Cert.KernelIdeal.main_v0_scv : Memref Cert.KernelIdeal.sig Kind.scVector Space.hbm Cert.KernelIdeal.S100000x1024 EltTy.f32)
local notation "tV" => (Memref.whole Cert.KernelIdeal.main_arg1_scv : Memref Cert.KernelIdeal.sig Kind.scVector Space.hbm Cert.KernelIdeal.S1024 EltTy.i32)
local notation "sPV" => (Memref.whole Cert.KernelIdeal.main_v1_0_scv : Memref Cert.KernelIdeal.sig Kind.scVector Space.hbm Cert.KernelIdeal.S32x1024 EltTy.f32)
local notation "cPV" => (Memref.whole Cert.KernelIdeal.main_v1_1_scv : Memref Cert.KernelIdeal.sig Kind.scVector Space.hbm Cert.KernelIdeal.S32x1024 EltTy.f32)
local notation "sT" => (Memref.whole Cert.KernelIdeal.cc0_scratch0 : Memref Cert.KernelIdeal.sig Kind.scVector Space.vmem Cert.KernelIdeal.S1024 EltTy.i32)
local notation "sA" => (Memref.whole Cert.KernelIdeal.cc0_scratch1 : Memref Cert.KernelIdeal.sig Kind.scVector Space.vmem Cert.KernelIdeal.S1024 EltTy.f32)
local notation "sC" => (Memref.whole Cert.KernelIdeal.cc0_scratch2 : Memref Cert.KernelIdeal.sig Kind.scVector Space.vmem Cert.KernelIdeal.S1024 EltTy.f32)
local notation "bA" => (Memref.whole Cert.KernelIdeal.cc0_scratch3 : Memref Cert.KernelIdeal.sig Kind.scVector Space.vmem Cert.KernelIdeal.S32x1024 EltTy.f32)
local notation "bB" => (Memref.whole Cert.KernelIdeal.cc0_scratch4 : Memref Cert.KernelIdeal.sig Kind.scVector Space.vmem Cert.KernelIdeal.S32x1024 EltTy.f32)

/-- The subcore's thread. -/
abbrev thr : Thread nD τ := V d (cV L) (jV L)

/-- The five semaphores the task uses: one per stream buffer, one per synchronous copy. -/
abbrev cellA : GSem nD τ sig := (V d (cV L) (jV L), .dma cc0_scratch5.sem)
abbrev cellB : GSem nD τ sig := (V d (cV L) (jV L), .dma cc0_scratch6.sem)
abbrev cell0 : GSem nD τ sig := (V d (cV L) (jV L), .dma cc0_scoped0.sem)
abbrev cell1 : GSem nD τ sig := (V d (cV L) (jV L), .dma cc0_scoped1.sem)
abbrev cell2 : GSem nD τ sig := (V d (cV L) (jV L), .dma cc0_scoped2.sem)

omit [FloatOps F] in
theorem cell_ne (t : Thread nD τ) {s s' : DmaSem sig} (h : s ≠ s') :
    ((t, SemLoc.dma s) : GSem nD τ sig) ≠ (t, SemLoc.dma s') :=
  fun e => h (SemLoc.dma.inj (Prod.mk.inj e).2)

omit [FloatOps F] in
theorem cell_mem (s : DmaSem sig) (hs : (SemLoc.dma s : SemLoc sig).isScoped .scVector = true) :
    ((V d (cV L) (jV L), SemLoc.dma s) : GSem nD τ sig) ∈ ownCells (V d (cV L) (jV L)) :=
  (mem_ownCells (g := ((V d (cV L) (jV L), SemLoc.dma s) : GSem nD τ sig))).mpr ⟨rfl, hs⟩

omit [FloatOps F] in
theorem ownSems0_V :
    (ownSems0 (V d (cV L) (jV L)) : sProp (MM F))
      = iprop(semVal (cellA d L) 0 ∗ semVal (cellB d L) 0 ∗ semVal (cell0 d L) 0 ∗ semVal (cell1 d L) 0 ∗ semVal (cell2 d L) 0
          ∗ bigSep ((((((ownCells (V d (cV L) (jV L))).erase (cellA d L)).erase (cellB d L)).erase (cell0 d L)).erase (cell1 d L)).erase (cell2 d L))
              fun g => semVal g 0) := by
  unfold SparseCore.Cfg.ownSems0
  have mA := cell_mem d L cc0_scratch5.sem (by decide)
  have mB := cell_mem d L cc0_scratch6.sem (by decide)
  have m0 := cell_mem d L cc0_scoped0.sem (by decide)
  have m1 := cell_mem d L cc0_scoped1.sem (by decide)
  have m2 := cell_mem d L cc0_scoped2.sem (by decide)
  rw [SparseCore.bigSep_erase' mA,
    SparseCore.bigSep_erase' (Finset.mem_erase.mpr ⟨cell_ne _ (by decide), mB⟩),
    SparseCore.bigSep_erase' (Finset.mem_erase.mpr ⟨cell_ne _ (by decide), Finset.mem_erase.mpr ⟨cell_ne _ (by decide), m0⟩⟩),
    SparseCore.bigSep_erase' (Finset.mem_erase.mpr ⟨cell_ne _ (by decide), Finset.mem_erase.mpr ⟨cell_ne _ (by decide),
      Finset.mem_erase.mpr ⟨cell_ne _ (by decide), m1⟩⟩⟩),
    SparseCore.bigSep_erase' (Finset.mem_erase.mpr ⟨cell_ne _ (by decide), Finset.mem_erase.mpr ⟨cell_ne _ (by decide),
      Finset.mem_erase.mpr ⟨cell_ne _ (by decide), Finset.mem_erase.mpr ⟨cell_ne _ (by decide), m2⟩⟩⟩⟩)]

omit [FloatOps F] in
theorem ref_ne {b b' : Ref sig .scVector} (h : b ≠ b') :
    (Proc.scVector (cV L) (jV L)).devRef b ≠ (Proc.scVector (cV L) (jV L)).devRef b' :=
  fun e => h (Proc.devRef_injective _ e)

omit [FloatOps F] in
/-- The five scratch buffers are among the subcore's own: they are them, at some contents, and the rest. -/
theorem ownBufs_V :
    (ownBufs (V d (cV L) (jV L)) : sProp (MM F))
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' ((SparseCore.Cfg.mem_ownRefs_of_owner (p := Proc.scVector (cV L) (jV L)) (b := (Proc.scVector (cV L) (jV L)).devRef cc0_scratch0) rfl))).trans ?_
  rw [SparseCore.bigSep_erase' (Finset.mem_erase.mpr ⟨ref_ne L (by decide), (SparseCore.Cfg.mem_ownRefs_of_owner (p := Proc.scVector (cV L) (jV L)) (b := (Proc.scVector (cV L) (jV L)).devRef cc0_scratch1) rfl)⟩),
    SparseCore.bigSep_erase' (Finset.mem_erase.mpr ⟨ref_ne L (by decide), Finset.mem_erase.mpr ⟨ref_ne L (by decide), (SparseCore.Cfg.mem_ownRefs_of_owner (p := Proc.scVector (cV L) (jV L)) (b := (Proc.scVector (cV L) (jV L)).devRef cc0_scratch2) rfl)⟩⟩),
    SparseCore.bigSep_erase' (Finset.mem_erase.mpr ⟨ref_ne L (by decide), Finset.mem_erase.mpr ⟨ref_ne L (by decide),
      Finset.mem_erase.mpr ⟨ref_ne L (by decide), (SparseCore.Cfg.mem_ownRefs_of_owner (p := Proc.scVector (cV L) (jV L)) (b := (Proc.scVector (cV L) (jV L)).devRef cc0_scratch3) rfl)⟩⟩⟩),
    SparseCore.bigSep_erase' (Finset.mem_erase.mpr ⟨ref_ne L (by decide), Finset.mem_erase.mpr ⟨ref_ne L (by decide),
      Finset.mem_erase.mpr ⟨ref_ne L (by decide), Finset.mem_erase.mpr ⟨ref_ne L (by decide), (SparseCore.Cfg.mem_ownRefs_of_owner (p := Proc.scVector (cV L) (jV L)) (b := (Proc.scVector (cV L) (jV L)).devRef cc0_scratch4) rfl)⟩⟩⟩⟩)]

/-! ### Row `w` of a partial array, as the kernel slices it -/

/-- The rectangle of the kernel's two write-outs: one row at the printed offsets. -/
abbrev rowK : Rect S32x1024 := Rect.unit (s := S32x1024) (k0_off72 L) S1x1024.size (k0_off72_inb L)
/-- Row `w` of the two partial arrays as the kernel addresses it: the slice, squeezed. -/
abbrev sPRowK : Memref sig .scVector .hbm S1024 .f32 := ((sPV).slice (rowK L) (fun _ => rfl)).squeeze S1024 squeezes_S1x1024_S1024
abbrev cPRowK : Memref sig .scVector .hbm S1024 .f32 := ((cPV).slice (rowK L) (fun _ => rfl)).squeeze S1024 squeezes_S1x1024_S1024

omit [FloatOps F] in
theorem rowK_eq : rowK L = sRow (wid L) := by
  unfold rowK sRow Rect.part Rect.block
  congr 1 <;> funext a
  · rw [k0_off72_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_sPRowK : (sPRowK L).view.set = rowSet (wid L) := by
  show (((sPV).view.slice (rowK L)).reshape S1024 squeezes_S1x1024_S1024.numel_eq).set
    = ((sPV).view.slice (sRow (wid L))).set
  rw [View.set_reshape]
  exact rowK_eq L ▸ rfl
omit [FloatOps F] in
theorem set_cPRowK : (cPRowK L).view.set = rowSet (wid L) := by
  show (((cPV).view.slice (rowK L)).reshape S1024 squeezes_S1x1024_S1024.numel_eq).set
    = ((sPV).view.slice (sRow (wid L))).set
  rw [View.set_reshape]
  exact rowK_eq L ▸ rfl

omit [FloatOps F] in
theorem pts_sPRowK (f : Buf (Elt F) (sPLoc d)) :
    ((sPRowK L).view.loc (V d (cV L) (jV L)) ↦[(sPRowK L).view.set]{fullShare} f : sProp (MM F)) = sPLoc d ↦[rowSet (wid L)]{fullShare} f := by
  rw [set_sPRowK]
omit [FloatOps F] in
theorem pts_cPRowK (f : Buf (Elt F) (cPLoc d)) :
    ((cPRowK L).view.loc (V d (cV L) (jV L)) ↦[(cPRowK L).view.set]{fullShare} f : sProp (MM F)) = cPLoc d ↦[rowSet (wid L)]{fullShare} f := by
  rw [set_cPRowK]

/-! ### The arrays and the scratch, as the subcore's memrefs address them -/

omit [FloatOps F] in
theorem pts_x (q : PosShare TreeShare) (f : Buf (Elt F) (xTLoc d)) :
    ((xV).view.loc (V d (cV L) (jV L)) ↦{q} f : sProp (MM F)) = xTLoc d ↦{q} f := rfl
omit [FloatOps F] in
theorem pts_t (q : PosShare TreeShare) (f : Buf (Elt F) (tgLoc d)) :
    ((tV).view.loc (V d (cV L) (jV L)) ↦{q} f : sProp (MM F)) = tgLoc d ↦{q} f := rfl
omit [FloatOps F] in
theorem pts_sT (f : Buf (Elt F) ((V d (cV L) (jV L)).loc cc0_scratch0)) :
    ((sT).view.loc (V d (cV L) (jV L)) ↦{fullShare} f : sProp (MM F)) = (V d (cV L) (jV L)).loc cc0_scratch0 ↦{fullShare} f := rfl
omit [FloatOps F] in
theorem pts_sA (f : Buf (Elt F) ((V d (cV L) (jV L)).loc cc0_scratch1)) :
    ((sA).view.loc (V d (cV L) (jV L)) ↦{fullShare} f : sProp (MM F)) = (V d (cV L) (jV L)).loc cc0_scratch1 ↦{fullShare} f := rfl
omit [FloatOps F] in
theorem pts_sC (f : Buf (Elt F) ((V d (cV L) (jV L)).loc cc0_scratch2)) :
    ((sC).view.loc (V d (cV L) (jV L)) ↦{fullShare} f : sProp (MM F)) = (V d (cV L) (jV L)).loc cc0_scratch2 ↦{fullShare} f := rfl
omit [FloatOps F] in
theorem pts_bA (f : Buf (Elt F) ((V d (cV L) (jV L)).loc cc0_scratch3)) :
    ((bA).view.loc (V d (cV L) (jV L)) ↦{fullShare} f : sProp (MM F)) = (V d (cV L) (jV L)).loc cc0_scratch3 ↦{fullShare} f := rfl
omit [FloatOps F] in
theorem pts_bB (f : Buf (Elt F) ((V d (cV L) (jV L)).loc cc0_scratch4)) :
    ((bB).view.loc (V d (cV L) (jV L)) ↦{fullShare} f : sProp (MM F)) = (V d (cV L) (jV L)).loc cc0_scratch4 ↦{fullShare} f := rfl

/-! ### What the scratch buffers hold, as functions of the input -/

/-- Lanes below `16 k` at `B`, the others at `A`: a buffer of 1024 lanes partway through a sweep in groups of sixteen. -/
def midF {α : Type} (A B : S1024.Idx → α) (k : ℕ) : S1024.Idx → α := fun j => if (j 0).val < 16 * k then B j else A j

omit [FloatOps F] in
theorem midF_zero {α : Type} (A B : S1024.Idx → α) : midF A B 0 = A := by
  funext j; unfold midF; rw [if_neg (by omega)]
omit [FloatOps F] in
theorem midF_full {α : Type} (A B : S1024.Idx → α) : midF A B 64 = B := by
  funext j; unfold midF
  have hj : (j 0).val < 1024 := (j 0).isLt
  rw [if_pos (by omega)]

omit [FloatOps F] in
/-- The sixteen lanes a trip stores sit at `16 k ..`: a lane of the store, placed in the buffer. -/
theorem lane_val {off : Fin 1 → ℕ} {inb : ∀ a, off a + S16.size a ≤ S1024.size a} (k : ℕ) (hoff : off = ![16 * k]) (x : S16.Idx) :
    (((Rect.unit (s := S1024) off S16.size inb).emb x) 0).val = 16 * k + (x 0).val := by
  subst hoff
  show 16 * k + 1 * (x 0).val = 16 * k + (x 0).val
  rw [Nat.one_mul]

omit [FloatOps F] in
theorem midF_in {α : Type} (A B : S1024.Idx → α) (k : ℕ) {off : Fin 1 → ℕ} {inb : ∀ a, off a + S16.size a ≤ S1024.size a}
    (hoff : off = ![16 * k]) (x : S16.Idx) :
    midF A B (k + 1) ((Rect.unit (s := S1024) off S16.size inb).emb x) = B ((Rect.unit (s := S1024) off S16.size inb).emb x) := by
  have he := lane_val (inb := inb) k hoff x
  have hx : (x 0).val < 16 := (x 0).isLt
  unfold midF
  rw [if_pos (by omega)]

omit [FloatOps F] in
theorem midF_old {α : Type} (A B : S1024.Idx → α) (k : ℕ) {off : Fin 1 → ℕ} {inb : ∀ a, off a + S16.size a ≤ S1024.size a}
    (hoff : off = ![16 * k]) (x : S16.Idx) :
    midF A B k ((Rect.unit (s := S1024) off S16.size inb).emb x) = A ((Rect.unit (s := S1024) off S16.size inb).emb x) := by
  have he := lane_val (inb := inb) k hoff x
  unfold midF
  rw [if_neg (by omega)]

omit [FloatOps F] in
theorem midF_out {α : Type} (A B : S1024.Idx → α) (k : ℕ) {off : Fin 1 → ℕ} {inb : ∀ a, off a + S16.size a ≤ S1024.size a}
    (hoff : off = ![16 * k]) (y : S1024.Idx) (hy : y ∉ (Rect.unit (s := S1024) off S16.size inb).set) :
    midF A B k y = midF A B (k + 1) y := by
  subst hoff
  have hy' : ¬ (16 * k ≤ (y 0).val ∧ (y 0).val < 16 * k + 16) := fun h => hy (Rect.mem_set_unit.mpr fun a => by
    obtain rfl : a = 0 := Subsingleton.elim _ _
    exact h)
  unfold midF
  by_cases h1 : (y 0).val < 16 * k
  · rw [if_pos h1, if_pos (by omega)]
  · rw [if_neg h1, if_neg (by omega)]

/-- The running sums and selections after `n` rows of stripe `w`, all 1024 columns. -/
def accAt (xT : SXT.Idx → F .f32) (w : Fin 32) (n : ℕ) : S1024.Idx → F .f32 := fun j => scSumN xT w (j 0) n
def selAt (xT : SXT.Idx → F .f32) (tg : STG.Idx → BitVec 32) (w : Fin 32) (n : ℕ) : S1024.Idx → F .f32 :=
  fun j => scSelN xT tg w (j 0) n

/-- A stream buffer holding rows `n .. n + 31` of stripe `w`. -/
def chunkOf (xT : SXT.Idx → F .f32) (w : Fin 32) (n : ℕ) : S32x1024.Idx → F .f32 :=
  fun j => xAt xT (1024 * w.val + (n + (j 0).val)) (j 1)

theorem accAt_zero (xT : SXT.Idx → F .f32) (w : Fin 32) : accAt xT w 0 = fun _ => FloatOps.ofBits .f32 0#32 := rfl
theorem selAt_zero (xT : SXT.Idx → F .f32) (tg : STG.Idx → BitVec 32) (w : Fin 32) :
    selAt xT tg w 0 = fun _ => FloatOps.ofBits .f32 0#32 := rfl

/-- The thirty-two rows a trip loads, by position. -/
def rows3 (v53 : Vec F S1x16 .f32) (v62 : Vec F S1x16 .f32) (v71 : Vec F S1x16 .f32) (v80 : Vec F S1x16 .f32) (v89 : Vec F S1x16 .f32) (v98 : Vec F S1x16 .f32) (v107 : Vec F S1x16 .f32) (v116 : Vec F S1x16 .f32) (v125 : Vec F S1x16 .f32) (v134 : Vec F S1x16 .f32) (v143 : Vec F S1x16 .f32) (v152 : Vec F S1x16 .f32) (v161 : Vec F S1x16 .f32) (v170 : Vec F S1x16 .f32) (v179 : Vec F S1x16 .f32) (v188 : Vec F S1x16 .f32) (v197 : Vec F S1x16 .f32) (v206 : Vec F S1x16 .f32) (v215 : Vec F S1x16 .f32) (v224 : Vec F S1x16 .f32) (v233 : Vec F S1x16 .f32) (v242 : Vec F S1x16 .f32) (v251 : Vec F S1x16 .f32) (v260 : Vec F S1x16 .f32) (v269 : Vec F S1x16 .f32) (v278 : Vec F S1x16 .f32) (v287 : Vec F S1x16 .f32) (v296 : Vec F S1x16 .f32) (v305 : Vec F S1x16 .f32) (v314 : Vec F S1x16 .f32) (v323 : Vec F S1x16 .f32) (v332 : Vec F S1x16 .f32) : ℕ → Vec F S1x16 .f32 :=
  fun i => match i with | 0 => v53 | 1 => v62 | 2 => v71 | 3 => v80 | 4 => v89 | 5 => v98 | 6 => v107 | 7 => v116 | 8 => v125 | 9 => v134 | 10 => v143 | 11 => v152 | 12 => v161 | 13 => v170 | 14 => v179 | 15 => v188 | 16 => v197 | 17 => v206 | 18 => v215 | 19 => v224 | 20 => v233 | 21 => v242 | 22 => v251 | 23 => v260 | 24 => v269 | 25 => v278 | 26 => v287 | 27 => v296 | 28 => v305 | 29 => v314 | 30 => v323 | 31 => v332 | _ => v332

/-- What a trip stores into the running sums, lane by lane: the lane's old sum carried over the thirty-two rows. -/
theorem pay3_acc (v46 : Vec F S16 .f32) (v53 : Vec F S1x16 .f32) (v62 : Vec F S1x16 .f32) (v71 : Vec F S1x16 .f32) (v80 : Vec F S1x16 .f32) (v89 : Vec F S1x16 .f32) (v98 : Vec F S1x16 .f32) (v107 : Vec F S1x16 .f32) (v116 : Vec F S1x16 .f32) (v125 : Vec F S1x16 .f32) (v134 : Vec F S1x16 .f32) (v143 : Vec F S1x16 .f32) (v152 : Vec F S1x16 .f32) (v161 : Vec F S1x16 .f32) (v170 : Vec F S1x16 .f32) (v179 : Vec F S1x16 .f32) (v188 : Vec F S1x16 .f32) (v197 : Vec F S1x16 .f32) (v206 : Vec F S1x16 .f32) (v215 : Vec F S1x16 .f32) (v224 : Vec F S1x16 .f32) (v233 : Vec F S1x16 .f32) (v242 : Vec F S1x16 .f32) (v251 : Vec F S1x16 .f32) (v260 : Vec F S1x16 .f32) (v269 : Vec F S1x16 .f32) (v278 : Vec F S1x16 .f32) (v287 : Vec F S1x16 .f32) (v296 : Vec F S1x16 .f32) (v305 : Vec F S1x16 .f32) (v314 : Vec F S1x16 .f32) (v323 : Vec F S1x16 .f32) (v332 : Vec F S1x16 .f32) (x : S16.Idx) :
    (k0_pay93 (k0_pay44 (k0_pay37 (k0_pay28 (k0_pay21 (k0_pay15 (k0_pay6 v46 v53 v62 v71 v80) v89 v98 v107 v116 v125 v134) v143 v152 v161 v170 v179) v188 v197 v206 v215 v224) (k0_pay31 v233) v242 v251 v260 v269 v278) v287 v296 v305 v314 v323) (k0_pay46 v332)) x
      = addExpN (shapeCast S16 v46 shapeCasts_S16_S16 x)
          (fun i => shapeCast S16 (rows3 v53 v62 v71 v80 v89 v98 v107 v116 v125 v134 v143 v152 v161 v170 v179 v188 v197 v206 v215 v224 v233 v242 v251 v260 v269 v278 v287 v296 v305 v314 v323 v332 i) shapeCasts_S1x16_S16 x) 32 := by
  rw [show (k0_pay93 (k0_pay44 (k0_pay37 (k0_pay28 (k0_pay21 (k0_pay15 (k0_pay6 v46 v53 v62 v71 v80) v89 v98 v107 v116 v125 v134) v143 v152 v161 v170 v179) v188 v197 v206 v215 v224) (k0_pay31 v233) v242 v251 v260 v269 v278) v287 v296 v305 v314 v323) (k0_pay46 v332))
      = shapeCast S16 (addf (k0_pay44 (k0_pay37 (k0_pay28 (k0_pay21 (k0_pay15 (k0_pay6 v46 v53 v62 v71 v80) v89 v98 v107 v116 v125 v134) v143 v152 v161 v170 v179) v188 v197 v206 v215 v224) (k0_pay31 v233) v242 v251 v260 v269 v278) v287 v296 v305 v314 v323) (exp (k0_pay46 v332))) shapeCasts_S16_S16 from rfl, shapeCast_self]
  rfl

/-- What a trip stores into the running selections, lane by lane: the lane's old selection carried over the thirty-two
    rows, each tested against the lane's target less the base word. -/
theorem pay3_sel (v22 : BitVec 32) (v41 : Vec F S16 .i32) (v49 : Vec F S16 .f32) (v53 : Vec F S1x16 .f32) (v62 : Vec F S1x16 .f32) (v71 : Vec F S1x16 .f32) (v80 : Vec F S1x16 .f32) (v89 : Vec F S1x16 .f32) (v98 : Vec F S1x16 .f32) (v107 : Vec F S1x16 .f32) (v116 : Vec F S1x16 .f32) (v125 : Vec F S1x16 .f32) (v134 : Vec F S1x16 .f32) (v143 : Vec F S1x16 .f32) (v152 : Vec F S1x16 .f32) (v161 : Vec F S1x16 .f32) (v170 : Vec F S1x16 .f32) (v179 : Vec F S1x16 .f32) (v188 : Vec F S1x16 .f32) (v197 : Vec F S1x16 .f32) (v206 : Vec F S1x16 .f32) (v215 : Vec F S1x16 .f32) (v224 : Vec F S1x16 .f32) (v233 : Vec F S1x16 .f32) (v242 : Vec F S1x16 .f32) (v251 : Vec F S1x16 .f32) (v260 : Vec F S1x16 .f32) (v269 : Vec F S1x16 .f32) (v278 : Vec F S1x16 .f32) (v287 : Vec F S1x16 .f32) (v296 : Vec F S1x16 .f32) (v305 : Vec F S1x16 .f32) (v314 : Vec F S1x16 .f32) (v323 : Vec F S1x16 .f32) (v332 : Vec F S1x16 .f32) (x : S16.Idx) :
    (k0_pay94 (k0_pay1 v22 v41) (k0_pay45 (k0_pay1 v22 v41) (k0_pay38 (k0_pay1 v22 v41) (k0_pay29 (k0_pay1 v22 v41) (k0_pay22 (k0_pay1 v22 v41) (k0_pay13 (k0_pay1 v22 v41) (k0_pay7 v22 v41 v49 v53 v62 v71 v80) v89 v98 v107 v116 v125) (k0_pay14 v134) v143 v152 v161 v170 v179) v188 v197 v206 v215 v224) (k0_pay30 v233) v242 v251 v260 v269 v278) v287 v296 v305 v314 v323) (k0_pay46 v332)) x
      = selStepN (shapeCast S16 v41 shapeCasts_S16_S16 x) v22 (shapeCast S16 v49 shapeCasts_S16_S16 x)
          (fun i => shapeCast S16 (rows3 v53 v62 v71 v80 v89 v98 v107 v116 v125 v134 v143 v152 v161 v170 v179 v188 v197 v206 v215 v224 v233 v242 v251 v260 v269 v278 v287 v296 v305 v314 v323 v332 i) shapeCasts_S1x16_S16 x) 32 := by
  rw [show (k0_pay94 (k0_pay1 v22 v41) (k0_pay45 (k0_pay1 v22 v41) (k0_pay38 (k0_pay1 v22 v41) (k0_pay29 (k0_pay1 v22 v41) (k0_pay22 (k0_pay1 v22 v41) (k0_pay13 (k0_pay1 v22 v41) (k0_pay7 v22 v41 v49 v53 v62 v71 v80) v89 v98 v107 v116 v125) (k0_pay14 v134) v143 v152 v161 v170 v179) v188 v197 v206 v215 v224) (k0_pay30 v233) v242 v251 v260 v269 v278) v287 v296 v305 v314 v323) (k0_pay46 v332))
      = shapeCast S16 (select (cmpi .eq (k0_pay1 v22 v41) (broadcast S16 31#32)) (k0_pay46 v332) (k0_pay45 (k0_pay1 v22 v41) (k0_pay38 (k0_pay1 v22 v41) (k0_pay29 (k0_pay1 v22 v41) (k0_pay22 (k0_pay1 v22 v41) (k0_pay13 (k0_pay1 v22 v41) (k0_pay7 v22 v41 v49 v53 v62 v71 v80) v89 v98 v107 v116 v125) (k0_pay14 v134) v143 v152 v161 v170 v179) v188 v197 v206 v215 v224) (k0_pay30 v233) v242 v251 v260 v269 v278) v287 v296 v305 v314 v323)) shapeCasts_S16_S16 from rfl, shapeCast_self]
  rfl

/-- The thirty-two rows a trip loads, by position. -/
def rows4 (v53 : Vec F S1x16 .f32) (v62 : Vec F S1x16 .f32) (v71 : Vec F S1x16 .f32) (v80 : Vec F S1x16 .f32) (v89 : Vec F S1x16 .f32) (v98 : Vec F S1x16 .f32) (v107 : Vec F S1x16 .f32) (v116 : Vec F S1x16 .f32) (v125 : Vec F S1x16 .f32) (v134 : Vec F S1x16 .f32) (v143 : Vec F S1x16 .f32) (v152 : Vec F S1x16 .f32) (v161 : Vec F S1x16 .f32) (v170 : Vec F S1x16 .f32) (v179 : Vec F S1x16 .f32) (v188 : Vec F S1x16 .f32) (v197 : Vec F S1x16 .f32) (v206 : Vec F S1x16 .f32) (v215 : Vec F S1x16 .f32) (v224 : Vec F S1x16 .f32) (v233 : Vec F S1x16 .f32) (v242 : Vec F S1x16 .f32) (v251 : Vec F S1x16 .f32) (v260 : Vec F S1x16 .f32) (v269 : Vec F S1x16 .f32) (v278 : Vec F S1x16 .f32) (v287 : Vec F S1x16 .f32) (v296 : Vec F S1x16 .f32) (v305 : Vec F S1x16 .f32) (v314 : Vec F S1x16 .f32) (v323 : Vec F S1x16 .f32) (v332 : Vec F S1x16 .f32) : ℕ → Vec F S1x16 .f32 :=
  fun i => match i with | 0 => v53 | 1 => v62 | 2 => v71 | 3 => v80 | 4 => v89 | 5 => v98 | 6 => v107 | 7 => v116 | 8 => v125 | 9 => v134 | 10 => v143 | 11 => v152 | 12 => v161 | 13 => v170 | 14 => v179 | 15 => v188 | 16 => v197 | 17 => v206 | 18 => v215 | 19 => v224 | 20 => v233 | 21 => v242 | 22 => v251 | 23 => v260 | 24 => v269 | 25 => v278 | 26 => v287 | 27 => v296 | 28 => v305 | 29 => v314 | 30 => v323 | 31 => v332 | _ => v332

/-- What a trip stores into the running sums, lane by lane: the lane's old sum carried over the thirty-two rows. -/
theorem pay4_acc (v46 : Vec F S16 .f32) (v53 : Vec F S1x16 .f32) (v62 : Vec F S1x16 .f32) (v71 : Vec F S1x16 .f32) (v80 : Vec F S1x16 .f32) (v89 : Vec F S1x16 .f32) (v98 : Vec F S1x16 .f32) (v107 : Vec F S1x16 .f32) (v116 : Vec F S1x16 .f32) (v125 : Vec F S1x16 .f32) (v134 : Vec F S1x16 .f32) (v143 : Vec F S1x16 .f32) (v152 : Vec F S1x16 .f32) (v161 : Vec F S1x16 .f32) (v170 : Vec F S1x16 .f32) (v179 : Vec F S1x16 .f32) (v188 : Vec F S1x16 .f32) (v197 : Vec F S1x16 .f32) (v206 : Vec F S1x16 .f32) (v215 : Vec F S1x16 .f32) (v224 : Vec F S1x16 .f32) (v233 : Vec F S1x16 .f32) (v242 : Vec F S1x16 .f32) (v251 : Vec F S1x16 .f32) (v260 : Vec F S1x16 .f32) (v269 : Vec F S1x16 .f32) (v278 : Vec F S1x16 .f32) (v287 : Vec F S1x16 .f32) (v296 : Vec F S1x16 .f32) (v305 : Vec F S1x16 .f32) (v314 : Vec F S1x16 .f32) (v323 : Vec F S1x16 .f32) (v332 : Vec F S1x16 .f32) (x : S16.Idx) :
    (k0_pay98 (k0_pay90 (k0_pay83 (k0_pay74 (k0_pay67 (k0_pay61 (k0_pay52 v46 v53 v62 v71 v80) v89 v98 v107 v116 v125 v134) v143 v152 v161 v170 v179) v188 v197 v206 v215 v224) (k0_pay77 v233) v242 v251 v260 v269 v278) v287 v296 v305 v314 v323) (k0_pay92 v332)) x
      = addExpN (shapeCast S16 v46 shapeCasts_S16_S16 x)
          (fun i => shapeCast S16 (rows4 v53 v62 v71 v80 v89 v98 v107 v116 v125 v134 v143 v152 v161 v170 v179 v188 v197 v206 v215 v224 v233 v242 v251 v260 v269 v278 v287 v296 v305 v314 v323 v332 i) shapeCasts_S1x16_S16 x) 32 := by
  rw [show (k0_pay98 (k0_pay90 (k0_pay83 (k0_pay74 (k0_pay67 (k0_pay61 (k0_pay52 v46 v53 v62 v71 v80) v89 v98 v107 v116 v125 v134) v143 v152 v161 v170 v179) v188 v197 v206 v215 v224) (k0_pay77 v233) v242 v251 v260 v269 v278) v287 v296 v305 v314 v323) (k0_pay92 v332))
      = shapeCast S16 (addf (k0_pay90 (k0_pay83 (k0_pay74 (k0_pay67 (k0_pay61 (k0_pay52 v46 v53 v62 v71 v80) v89 v98 v107 v116 v125 v134) v143 v152 v161 v170 v179) v188 v197 v206 v215 v224) (k0_pay77 v233) v242 v251 v260 v269 v278) v287 v296 v305 v314 v323) (exp (k0_pay92 v332))) shapeCasts_S16_S16 from rfl, shapeCast_self]
  rfl

/-- What a trip stores into the running selections, lane by lane: the lane's old selection carried over the thirty-two
    rows, each tested against the lane's target less the base word. -/
theorem pay4_sel (v37 : BitVec 32) (v41 : Vec F S16 .i32) (v49 : Vec F S16 .f32) (v53 : Vec F S1x16 .f32) (v62 : Vec F S1x16 .f32) (v71 : Vec F S1x16 .f32) (v80 : Vec F S1x16 .f32) (v89 : Vec F S1x16 .f32) (v98 : Vec F S1x16 .f32) (v107 : Vec F S1x16 .f32) (v116 : Vec F S1x16 .f32) (v125 : Vec F S1x16 .f32) (v134 : Vec F S1x16 .f32) (v143 : Vec F S1x16 .f32) (v152 : Vec F S1x16 .f32) (v161 : Vec F S1x16 .f32) (v170 : Vec F S1x16 .f32) (v179 : Vec F S1x16 .f32) (v188 : Vec F S1x16 .f32) (v197 : Vec F S1x16 .f32) (v206 : Vec F S1x16 .f32) (v215 : Vec F S1x16 .f32) (v224 : Vec F S1x16 .f32) (v233 : Vec F S1x16 .f32) (v242 : Vec F S1x16 .f32) (v251 : Vec F S1x16 .f32) (v260 : Vec F S1x16 .f32) (v269 : Vec F S1x16 .f32) (v278 : Vec F S1x16 .f32) (v287 : Vec F S1x16 .f32) (v296 : Vec F S1x16 .f32) (v305 : Vec F S1x16 .f32) (v314 : Vec F S1x16 .f32) (v323 : Vec F S1x16 .f32) (v332 : Vec F S1x16 .f32) (x : S16.Idx) :
    (k0_pay99 (k0_pay47 v37 v41) (k0_pay91 (k0_pay47 v37 v41) (k0_pay84 (k0_pay47 v37 v41) (k0_pay75 (k0_pay47 v37 v41) (k0_pay68 (k0_pay47 v37 v41) (k0_pay59 (k0_pay47 v37 v41) (k0_pay53 v37 v41 v49 v53 v62 v71 v80) v89 v98 v107 v116 v125) (k0_pay60 v134) v143 v152 v161 v170 v179) v188 v197 v206 v215 v224) (k0_pay76 v233) v242 v251 v260 v269 v278) v287 v296 v305 v314 v323) (k0_pay92 v332)) x
      = selStepN (shapeCast S16 v41 shapeCasts_S16_S16 x) v37 (shapeCast S16 v49 shapeCasts_S16_S16 x)
          (fun i => shapeCast S16 (rows4 v53 v62 v71 v80 v89 v98 v107 v116 v125 v134 v143 v152 v161 v170 v179 v188 v197 v206 v215 v224 v233 v242 v251 v260 v269 v278 v287 v296 v305 v314 v323 v332 i) shapeCasts_S1x16_S16 x) 32 := by
  rw [show (k0_pay99 (k0_pay47 v37 v41) (k0_pay91 (k0_pay47 v37 v41) (k0_pay84 (k0_pay47 v37 v41) (k0_pay75 (k0_pay47 v37 v41) (k0_pay68 (k0_pay47 v37 v41) (k0_pay59 (k0_pay47 v37 v41) (k0_pay53 v37 v41 v49 v53 v62 v71 v80) v89 v98 v107 v116 v125) (k0_pay60 v134) v143 v152 v161 v170 v179) v188 v197 v206 v215 v224) (k0_pay76 v233) v242 v251 v260 v269 v278) v287 v296 v305 v314 v323) (k0_pay92 v332))
      = shapeCast S16 (select (cmpi .eq (k0_pay47 v37 v41) (broadcast S16 31#32)) (k0_pay92 v332) (k0_pay91 (k0_pay47 v37 v41) (k0_pay84 (k0_pay47 v37 v41) (k0_pay75 (k0_pay47 v37 v41) (k0_pay68 (k0_pay47 v37 v41) (k0_pay59 (k0_pay47 v37 v41) (k0_pay53 v37 v41 v49 v53 v62 v71 v80) v89 v98 v107 v116 v125) (k0_pay60 v134) v143 v152 v161 v170 v179) v188 v197 v206 v215 v224) (k0_pay76 v233) v242 v251 v260 v269 v278) v287 v296 v305 v314 v323)) shapeCasts_S16_S16 from rfl, shapeCast_self]
  rfl

/-! ### Loop counts and the pair loop's branch -/

omit [FloatOps F] in
theorem trips1 : k0_t1_loop.trips = 64 := by decide +kernel
omit [FloatOps F] in
theorem trips2 : k0_t2_loop.trips = 16 := by decide +kernel
omit [FloatOps F] in
theorem trips3 : k0_t3_loop.trips = 64 := by decide +kernel
omit [FloatOps F] in
theorem trips4 : k0_t4_loop.trips = 64 := by decide +kernel
omit [FloatOps F] in
/-- The pair loop starts the next pair's first chunk exactly when there is a next pair. -/
theorem cond1_iff : ∀ p : Fin k0_t2_loop.trips, k0_cond1 p = 1#1 ↔ p.val + 1 < 16 := by decide +kernel

/-! ### The chunks of the stripe, as the kernel slices them -/

/-- A chunk of thirty-two rows of the transposed input at printed offsets `off`. -/
abbrev chunkM (off : Fin 2 → ℕ) (inb : ∀ a, off a + S32x1024.size a ≤ S100000x1024.size a) : Memref sig .scVector .hbm S32x1024 .f32 :=
  (xV).slice (Rect.unit (s := S100000x1024) off S32x1024.size inb) (fun _ => rfl)

omit [FloatOps F] in
theorem chunkM_congr {off off' : Fin 2 → ℕ} (h : off = off') (inb) (inb') : chunkM off inb = chunkM off' inb' :=
  Memref.slice_unit_congr _ h inb inb' _ _

/-- What a chunk reads off the input: rows `n .. n + 31` of stripe `w`, when its offsets are `(1024 w + n, 0)`. -/
theorem chunk_read (xT : S100000x1024.Idx → F .f32) (w : Fin 32) (n : ℕ) (hn : n + 32 ≤ 1024) {off : Fin 2 → ℕ}
    {inb : ∀ a, off a + S32x1024.size a ≤ S100000x1024.size a} (hoff : off = ![1024 * w.val + n, 0]) :
    (chunkM off inb).view.read (Elt F) xT = chunkOf xT w n := by
  subst hoff
  funext j
  have hw := w.isLt
  have hj0 : (j 0).val < 32 := (j 0).isLt
  show xT ((Rect.unit (s := S100000x1024) ![1024 * w.val + n, 0] S32x1024.size inb).emb j) = chunkOf xT w n j
  unfold chunkOf xAt
  rw [dif_pos (by omega)]
  congr 1
  funext a
  match a with
  | ⟨0, _⟩ => exact Fin.ext (by show 1024 * w.val + n + 1 * (j 0).val = 1024 * w.val + (n + (j 0).val); omega)
  | ⟨1, _⟩ => exact Fin.ext (by show 0 + 1 * (j 1).val = (j 1).val; omega)

/-! ### The three loops' invariants -/

/-- Clearing the two running rows, sixteen lanes a trip. -/
def inv1 (fA fC : S1024.Idx → F .f32) (k : ℕ) (_ : Unit) : sProp (MM F) :=
  iprop(((sA).view.loc (V d (cV L) (jV L)) ↦{fullShare} midF fA (fun _ => FloatOps.ofBits .f32 0#32) k)
    ∗ ((sC).view.loc (V d (cV L) (jV L)) ↦{fullShare} midF fC (fun _ => FloatOps.ofBits .f32 0#32) k))

/-- One chunk, sixteen columns a trip: the targets, the two running rows partway from `n` rows to `n + 32`, and the
    chunk in stream buffer A. -/
def inv3 (xT : S100000x1024.Idx → F .f32) (tg : S1024.Idx → BitVec 32) (n : ℕ) (k : ℕ) (_ : Unit) : sProp (MM F) :=
  iprop(((sT).view.loc (V d (cV L) (jV L)) ↦{fullShare} tg)
    ∗ ((sA).view.loc (V d (cV L) (jV L)) ↦{fullShare} midF (accAt xT (wid L) n) (accAt xT (wid L) (n + 32)) k)
    ∗ ((sC).view.loc (V d (cV L) (jV L)) ↦{fullShare} midF (selAt xT tg (wid L) n) (selAt xT tg (wid L) (n + 32)) k)
    ∗ ((bA).view.loc (V d (cV L) (jV L)) ↦{fullShare} chunkOf xT (wid L) n))

/-- The same with the chunk in stream buffer B. -/
def inv4 (xT : S100000x1024.Idx → F .f32) (tg : S1024.Idx → BitVec 32) (n : ℕ) (k : ℕ) (_ : Unit) : sProp (MM F) :=
  iprop(((sT).view.loc (V d (cV L) (jV L)) ↦{fullShare} tg)
    ∗ ((sA).view.loc (V d (cV L) (jV L)) ↦{fullShare} midF (accAt xT (wid L) n) (accAt xT (wid L) (n + 32)) k)
    ∗ ((sC).view.loc (V d (cV L) (jV L)) ↦{fullShare} midF (selAt xT tg (wid L) n) (selAt xT tg (wid L) (n + 32)) k)
    ∗ ((bB).view.loc (V d (cV L) (jV L)) ↦{fullShare} chunkOf xT (wid L) n))

/-! ### One column group: what a trip loads and what it stores, lane by lane -/

theorem addExpN_congr {a a' : F .f32} {r r' : ℕ → F .f32} (ha : a = a') :
    ∀ m, (∀ i, i < m → r i = r' i) → addExpN a r m = addExpN a' r' m
  | 0, _ => ha
  | m + 1, h => by
    show FloatOps.addf (addExpN a r m) (FloatOps.exp (r m)) = FloatOps.addf (addExpN a' r' m) (FloatOps.exp (r' m))
    rw [addExpN_congr ha m (fun i hi => h i (by omega)), h m (by omega)]

theorem selStepN_congr {t t' g : BitVec 32} {s s' : F .f32} {r r' : ℕ → F .f32} (ht : t = t') (hs : s = s') :
    ∀ m, (∀ i, i < m → r i = r' i) → selStepN t g s r m = selStepN t' g s' r' m
  | 0, _ => hs
  | m + 1, h => by
    show Scalar.select (IntOp.cmpi .eq (IntOp.subi t g) (BitVec.ofNat 32 m)) (r m) (selStepN t g s r m)
      = Scalar.select (IntOp.cmpi .eq (IntOp.subi t' g) (BitVec.ofNat 32 m)) (r' m) (selStepN t' g s' r' m)
    rw [selStepN_congr ht hs m (fun i hi => h i (by omega)), h m (by omega), ht]

omit [FloatOps F] in
/-- Lane `x` of the sixteen a trip handles is column `16 k + x`. -/
theorem lane_ix1 {off : Fin 1 → ℕ} {inb : ∀ a, off a + S16.size a ≤ S1024.size a} (k : ℕ) (hoff : off = ![16 * k]) (x : S16.Idx)
    (col : Fin 1024) (hcol : col.val = 16 * k + (x 0).val) :
    (Rect.unit (s := S1024) off S16.size inb).emb x = ix1 col := by
  funext a
  obtain rfl : a = 0 := Subsingleton.elim _ _
  exact Fin.ext ((lane_val (inb := inb) k hoff x).trans hcol.symm)

/-- Row `i` of a chunk, loaded at the trip's sixteen columns and read at lane `x`: the input at class `1024 w + n + i`,
    column `16 k + x`. -/
theorem row_lane (xT : S100000x1024.Idx → F .f32) (w : Fin 32) (n i k : ℕ) {off : Fin 2 → ℕ}
    {inb : ∀ a, off a + S1x16.size a ≤ S32x1024.size a} (hoff : off = ![i, 16 * k]) (x : S16.Idx)
    (col : Fin 1024) (hcol : col.val = 16 * k + (x 0).val) (v : Vec F S1x16 .f32)
    (hv : ∀ y, v y = chunkOf xT w n ((Rect.unit (s := S32x1024) off S1x16.size inb).emb y)) :
    shapeCast S16 v shapeCasts_S1x16_S16 x = xAt xT (1024 * w.val + (n + i)) col := by
  subst hoff
  obtain ⟨i0, rfl⟩ : ∃ i0 : Fin 16, x = ix1 i0 := ⟨x 0, eq_ix1 x⟩
  rw [shapeCast_1a_a_apply, hv]
  have e0 : (((Rect.unit (s := S32x1024) ![i, 16 * k] S1x16.size inb).emb (ix2 (0 : Fin 1) i0)) 0).val = i := by
    show i + 1 * 0 = i
    omega
  have e1 : (((Rect.unit (s := S32x1024) ![i, 16 * k] S1x16.size inb).emb (ix2 (0 : Fin 1) i0)) 1 : Fin 1024) = col :=
    Fin.ext (by
      show 16 * k + 1 * i0.val = col.val
      rw [hcol]
      show 16 * k + 1 * i0.val = 16 * k + i0.val
      omega)
  show xAt xT (1024 * w.val + (n + (((Rect.unit (s := S32x1024) ![i, 16 * k] S1x16.size inb).emb (ix2 (0 : Fin 1) i0)) 0).val))
      (((Rect.unit (s := S32x1024) ![i, 16 * k] S1x16.size inb).emb (ix2 (0 : Fin 1) i0)) 1) = _
  rw [e0]
  exact congrArg (xAt xT (1024 * w.val + (n + i))) e1

/-- What a trip stores into the running sums at lane `x`: the column's sum after `n + 32` rows. -/
theorem acc_lane (xT : S100000x1024.Idx → F .f32) (w : Fin 32) (n : ℕ) (hn : n + 32 ≤ 1024) (k : ℕ) {off5 : Fin 1 → ℕ}
    {inb5 : ∀ a, off5 a + S16.size a ≤ S1024.size a} (h5 : off5 = ![16 * k]) (x : S16.Idx) (col : Fin 1024)
    (hcol : col.val = 16 * k + (x 0).val) (v46 : Vec F S16 .f32) (R : ℕ → Vec F S1x16 .f32)
    (h46 : ∀ y, v46 y = midF (accAt xT w n) (accAt xT w (n + 32)) k ((Rect.unit (s := S1024) off5 S16.size inb5).emb y))
    (hR : ∀ i, i < 32 → shapeCast S16 (R i) shapeCasts_S1x16_S16 x = xAt xT (1024 * w.val + (n + i)) col) :
    addExpN (shapeCast S16 v46 shapeCasts_S16_S16 x) (fun i => shapeCast S16 (R i) shapeCasts_S1x16_S16 x) 32
      = scSumN xT w col (n + 32) := by
  rw [scSumN_add xT w col n 32 hn]
  refine addExpN_congr ?_ 32 hR
  rw [shapeCast_self, h46, midF_old _ _ k h5 x, lane_ix1 k h5 x col hcol]
  rfl

/-- What a trip stores into the running selections at lane `x`: the column's selection after `n + 32` rows. -/
theorem sel_lane (xT : S100000x1024.Idx → F .f32) (tg : S1024.Idx → BitVec 32) (w : Fin 32) (n : ℕ) (hn : n + 32 ≤ 1024)
    (g : BitVec 32) (hg : g.toNat = 1024 * w.val + n) (k : ℕ) {off5 : Fin 1 → ℕ}
    {inb5 : ∀ a, off5 a + S16.size a ≤ S1024.size a} (h5 : off5 = ![16 * k]) (x : S16.Idx) (col : Fin 1024)
    (hcol : col.val = 16 * k + (x 0).val) (v41 : Vec F S16 .i32) (v49 : Vec F S16 .f32) (R : ℕ → Vec F S1x16 .f32)
    (h41 : ∀ y, v41 y = tg ((Rect.unit (s := S1024) off5 S16.size inb5).emb y))
    (h49 : ∀ y, v49 y = midF (selAt xT tg w n) (selAt xT tg w (n + 32)) k ((Rect.unit (s := S1024) off5 S16.size inb5).emb y))
    (hR : ∀ i, i < 32 → shapeCast S16 (R i) shapeCasts_S1x16_S16 x = xAt xT (1024 * w.val + (n + i)) col) :
    selStepN (shapeCast S16 v41 shapeCasts_S16_S16 x) g (shapeCast S16 v49 shapeCasts_S16_S16 x)
        (fun i => shapeCast S16 (R i) shapeCasts_S1x16_S16 x) 32
      = scSelN xT tg w col (n + 32) := by
  rw [scSelN_add xT tg w col n g hg 32 hn]
  refine selStepN_congr ?_ ?_ 32 hR
  · rw [shapeCast_self, h41, lane_ix1 k h5 x col hcol]
  · rw [shapeCast_self, h49, midF_old _ _ k h5 x, lane_ix1 k h5 x col hcol]
    rfl

/-! ### The write-outs: a running row placed in row `w` of a partial array -/

omit [FloatOps F] in
theorem rowK_emb (b : Fin 1024) :
    (rowK L).emb (Shape.reshapeEquiv squeezes_S1x1024_S1024.numel_eq (ix1 b)) = ix2 (wid L) b := by
  rw [Shape.reshapeEquiv_eq_of_rowMajor (y := ix2 (0 : Fin 1) b) _ (by
    rw [Shape.rowMajor_val_two, Shape.rowMajor_val_one]
    show 0 * 1024 + b.val = b.val
    omega)]
  funext a
  match a with
  | ⟨0, _⟩ =>
    exact Fin.ext (by
      show (k0_off72 L) 0 + 1 * 0 = (wid L).val
      rw [k0_off72_eq]
      show 2 * (L 1).val + (L 0).val + 1 * 0 = (L 1).val * 2 + (L 0).val
      omega)
  | ⟨1, _⟩ =>
    exact Fin.ext (by
      show (k0_off72 L) 1 + 1 * b.val = b.val
      rw [k0_off72_eq]
      show 0 + 1 * b.val = b.val
      omega)

/-- A row of 1024 written through the kernel's row memref lands in row `w`, column by column. -/
theorem sPRow_write (f0 : Buf (Elt F) (sPLoc d)) (g : S1024.Idx → F .f32) (b : Fin 1024) :
    ((sPRowK L).view.write (Elt F) f0 g Finset.univ) (ix2 (wid L) b) = g (ix1 b) := by
  have h := View.write_emb_of_mem (v := (sPRowK L).view) (Val := Elt F) f0 g (M := Finset.univ) (x := ix1 b) (Finset.mem_univ _)
  have he : (sPRowK L).view.emb (ix1 b) = ix2 (wid L) b := rowK_emb L b
  rw [he] at h
  exact h.trans (cast_eq _ _)
theorem cPRow_write (f0 : Buf (Elt F) (cPLoc d)) (g : S1024.Idx → F .f32) (b : Fin 1024) :
    ((cPRowK L).view.write (Elt F) f0 g Finset.univ) (ix2 (wid L) b) = g (ix1 b) := by
  have h := View.write_emb_of_mem (v := (cPRowK L).view) (Val := Elt F) f0 g (M := Finset.univ) (x := ix1 b) (Finset.mem_univ _)
  have he : (cPRowK L).view.emb (ix1 b) = ix2 (wid L) b := rowK_emb L b
  rw [he] at h
  exact h.trans (cast_eq _ _)

/-! ### The pair loop -/

/-- The base words of a pair's two chunks: the stripe's first class plus `64 p` and `64 p + 32`. -/
abbrev V2 : BitVec 32 := Scalar.muli (Scalar.addi (Scalar.muli (BitVec.ofNat 32 (L 1).val) 2#32) (BitVec.ofNat 32 (L 0).val)) 1024#32
abbrev gA (p : Fin k0_t2_loop.trips) : BitVec 32 := Scalar.addi (V2 L) (Scalar.muli (Scalar.muli 2#32 (Scf.iv 0#32 1#32 p)) 32#32)
abbrev gB (p : Fin k0_t2_loop.trips) : BitVec 32 := Scalar.addi (V2 L) (Scalar.muli (Scalar.addi (Scalar.muli 2#32 (Scf.iv 0#32 1#32 p)) 1#32) 32#32)

omit [FloatOps F] in
theorem gA_toNat (p : Fin k0_t2_loop.trips) : (gA L p).toNat = 1024 * (wid L).val + 64 * p.val := by
  have h : (k0_off4 L p) 0 = 2048 * (L 1).val + 1024 * (L 0).val + 64 * p.val := congrFun (k0_off4_eq L p) 0
  have h' : (gA L p).toNat = 2048 * (L 1).val + 1024 * (L 0).val + 64 * p.val := h
  rw [h']; show _ = 1024 * ((L 1).val * 2 + (L 0).val) + 64 * p.val; omega
omit [FloatOps F] in
theorem gB_toNat (p : Fin k0_t2_loop.trips) : (gB L p).toNat = 1024 * (wid L).val + (64 * p.val + 32) := by
  have h : (k0_off3 L p) 0 = 2048 * (L 1).val + 1024 * (L 0).val + 64 * p.val + 32 := congrFun (k0_off3_eq L p) 0
  have h' : (gB L p).toNat = 2048 * (L 1).val + 1024 * (L 0).val + 64 * p.val + 32 := h
  rw [h']; show _ = 1024 * ((L 1).val * 2 + (L 0).val) + (64 * p.val + 32); omega

omit [FloatOps F] in
theorem off4_eq (p : Fin k0_t2_loop.trips) : k0_off4 L p = ![1024 * (wid L).val + 64 * p.val, 0] := by
  rw [k0_off4_eq]; congr 1; show _ = 1024 * ((L 1).val * 2 + (L 0).val) + 64 * p.val; omega
omit [FloatOps F] in
theorem off3_eq (p : Fin k0_t2_loop.trips) : k0_off3 L p = ![1024 * (wid L).val + (64 * p.val + 32), 0] := by
  rw [k0_off3_eq]; congr 1; show _ = 1024 * ((L 1).val * 2 + (L 0).val) + (64 * p.val + 32); omega
omit [FloatOps F] in
theorem off2_eq : k0_off2 L = ![1024 * (wid L).val + 0, 0] := by
  rw [k0_off2_eq]; congr 1; show _ = 1024 * ((L 1).val * 2 + (L 0).val) + 0; omega
omit [FloatOps F] in
theorem off38_eq (p : Fin k0_t2_loop.trips) : k0_off38 L p = ![1024 * (wid L).val + (64 * p.val + 64), 0] := by
  rw [k0_off38_eq]; congr 1; show _ = 1024 * ((L 1).val * 2 + (L 0).val) + (64 * p.val + 64); omega

/-- The same through the one-piece list a landed copy leaves. -/
theorem sPRow_writes (f0 : Buf (Elt F) (sPLoc d)) (g : S1024.Idx → F .f32) (b : Fin 1024) :
    ((sPRowK L).view.writes (Elt F) f0 [⟨Rect.whole S1024, g⟩]) (ix2 (wid L) b) = g (ix1 b) := by
  have h := View.write_emb_of_mem (v := (sPRowK L).view.slice (Rect.whole S1024)) (Val := Elt F) f0 g (M := Finset.univ)
    (x := ix1 b) (Finset.mem_univ _)
  have he : ((sPRowK L).view.slice (Rect.whole S1024)).emb (ix1 b) = ix2 (wid L) b := by
    show (sPRowK L).view.emb ((Rect.whole S1024).emb (ix1 b)) = _
    rw [Rect.emb_whole_apply]
    exact rowK_emb L b
  rw [he] at h
  exact h.trans (cast_eq _ _)
theorem cPRow_writes (f0 : Buf (Elt F) (cPLoc d)) (g : S1024.Idx → F .f32) (b : Fin 1024) :
    ((cPRowK L).view.writes (Elt F) f0 [⟨Rect.whole S1024, g⟩]) (ix2 (wid L) b) = g (ix1 b) := by
  have h := View.write_emb_of_mem (v := (cPRowK L).view.slice (Rect.whole S1024)) (Val := Elt F) f0 g (M := Finset.univ)
    (x := ix1 b) (Finset.mem_univ _)
  have he : ((cPRowK L).view.slice (Rect.whole S1024)).emb (ix1 b) = ix2 (wid L) b := by
    show (cPRowK L).view.emb ((Rect.whole S1024).emb (ix1 b)) = _
    rw [Rect.emb_whole_apply]
    exact rowK_emb L b
  rw [he] at h
  exact h.trans (cast_eq _ _)

set_option maxHeartbeats 1000000 in
/-- One trip of the clearing loop: sixteen lanes of each running row set to the zero word. -/
theorem trip1 (fA fC : S1024.Idx → F .f32) (k : Fin k0_t1_loop.trips) (u : Unit) :
    inv1 d L fA fC k.val u
      ⊢ wp frame (wpE (defs₀ (F := F)) 𝒱₀ (V d (cV L) (jV L)) none) Set.univ
          (k0_t1_body L (xV) (Memref.isWhole_whole _) (tV) (Memref.isWhole_whole _) (sPV) (Memref.isWhole_whole _) (cPV) (Memref.isWhole_whole _) (sT) (Memref.isWhole_whole _) (sA) (Memref.isWhole_whole _) (sC) (Memref.isWhole_whole _) (bA) (Memref.isWhole_whole _) (bB) (Memref.isWhole_whole _) cc0_scratch5 cc0_scratch6 cc0_scoped0 cc0_scoped1 cc0_scoped2 k u)
          (inv1 d L fA fC (k.val + 1)) := by
  unfold inv1
  iintro ⟨HsA, HsC⟩
  unfold k0_t1_body
  sl_exec
  sl_step
  isplitl [HsA]
  · istop
    refine Entails.of_eq (congrArg _ ?_)
    refine whole_write_eq _ _ _ _ (fun x => ?_) (fun y hy => ?_)
    · dsimp only
      rw [midF_in _ _ k.val (inb := k0_off1_inb k) (k0_off1_eq k) x]
      rfl
    · exact midF_out _ _ k.val (inb := k0_off1_inb k) (k0_off1_eq k) y hy
  · istop
    refine Entails.of_eq (congrArg _ ?_)
    refine whole_write_eq _ _ _ _ (fun x => ?_) (fun y hy => ?_)
    · dsimp only
      rw [midF_in _ _ k.val (inb := k0_off1_inb k) (k0_off1_eq k) x]
      rfl
    · exact midF_out _ _ k.val (inb := k0_off1_inb k) (k0_off1_eq k) y hy

set_option maxHeartbeats 4000000 in
/-- One column group of a chunk in stream buffer A: sixteen targets, sums and selections loaded, thirty-two rows of
    sixteen entries folded in, the sums and selections stored back. -/
theorem trip3 (xT : S100000x1024.Idx → F .f32) (tg : S1024.Idx → BitVec 32) (n : ℕ) (hn : n + 32 ≤ 1024) (g : BitVec 32)
    (hg : g.toNat = 1024 * (wid L).val + n) (v2 c0 c1 : BitVec 32) (p : Fin k0_t2_loop.trips) (k : Fin k0_t3_loop.trips) (u : Unit) :
    inv3 d L xT tg n k.val u
      ⊢ wp frame (wpE (defs₀ (F := F)) 𝒱₀ (V d (cV L) (jV L)) none) Set.univ
          (k0_t3_body L (xV) (Memref.isWhole_whole _) (tV) (Memref.isWhole_whole _) (sPV) (Memref.isWhole_whole _) (cPV) (Memref.isWhole_whole _) (sT) (Memref.isWhole_whole _) (sA) (Memref.isWhole_whole _) (sC) (Memref.isWhole_whole _) (bA) (Memref.isWhole_whole _) (bB) (Memref.isWhole_whole _) cc0_scratch5 cc0_scratch6 cc0_scoped0 cc0_scoped1 cc0_scoped2 v2 c0 c1 p g k u)
          (inv3 d L xT tg n (k.val + 1)) := by
  have hk : k.val < 64 := trips3 ▸ k.isLt
  unfold inv3
  iintro ⟨HsT, HsA, HsC, HbX⟩
  unfold k0_t3_body
  sl_exec
  sl_step
  isplitl [HsT]; · iexact HsT
  isplitl [HsA]
  · istop
    refine Entails.of_eq (congrArg _ ?_)
    refine whole_write_eq _ _ _ _ (fun x => ?_) (fun y hy => ?_)
    · dsimp only
      have hx16 : (x 0).val < 16 := (x 0).isLt
      obtain ⟨col, hcol⟩ : ∃ col : Fin 1024, col.val = 16 * k.val + (x 0).val := ⟨⟨16 * k.val + (x 0).val, by omega⟩, rfl⟩
      rw [midF_in _ _ k.val (inb := k0_off5_inb k) (k0_off5_eq k) x, lane_ix1 k.val (inb := k0_off5_inb k) (k0_off5_eq k) x col hcol]
      sl_unfold_run_names
      rw [pay3_acc]
      refine acc_lane xT (wid L) n hn k.val (inb5 := k0_off5_inb k) (k0_off5_eq k) x col hcol _ _ (fun _ => rfl) ?_
      · intro i hi
        match i, hi with
        | 0, _ => exact row_lane xT (wid L) n 0 k.val (inb := k0_off6_inb k) (k0_off6_eq k) x col hcol _ (fun _ => rfl)
        | 1, _ => exact row_lane xT (wid L) n 1 k.val (inb := k0_off7_inb k) (k0_off7_eq k) x col hcol _ (fun _ => rfl)
        | 2, _ => exact row_lane xT (wid L) n 2 k.val (inb := k0_off8_inb k) (k0_off8_eq k) x col hcol _ (fun _ => rfl)
        | 3, _ => exact row_lane xT (wid L) n 3 k.val (inb := k0_off9_inb k) (k0_off9_eq k) x col hcol _ (fun _ => rfl)
        | 4, _ => exact row_lane xT (wid L) n 4 k.val (inb := k0_off10_inb k) (k0_off10_eq k) x col hcol _ (fun _ => rfl)
        | 5, _ => exact row_lane xT (wid L) n 5 k.val (inb := k0_off11_inb k) (k0_off11_eq k) x col hcol _ (fun _ => rfl)
        | 6, _ => exact row_lane xT (wid L) n 6 k.val (inb := k0_off12_inb k) (k0_off12_eq k) x col hcol _ (fun _ => rfl)
        | 7, _ => exact row_lane xT (wid L) n 7 k.val (inb := k0_off13_inb k) (k0_off13_eq k) x col hcol _ (fun _ => rfl)
        | 8, _ => exact row_lane xT (wid L) n 8 k.val (inb := k0_off14_inb k) (k0_off14_eq k) x col hcol _ (fun _ => rfl)
        | 9, _ => exact row_lane xT (wid L) n 9 k.val (inb := k0_off15_inb k) (k0_off15_eq k) x col hcol _ (fun _ => rfl)
        | 10, _ => exact row_lane xT (wid L) n 10 k.val (inb := k0_off16_inb k) (k0_off16_eq k) x col hcol _ (fun _ => rfl)
        | 11, _ => exact row_lane xT (wid L) n 11 k.val (inb := k0_off17_inb k) (k0_off17_eq k) x col hcol _ (fun _ => rfl)
        | 12, _ => exact row_lane xT (wid L) n 12 k.val (inb := k0_off18_inb k) (k0_off18_eq k) x col hcol _ (fun _ => rfl)
        | 13, _ => exact row_lane xT (wid L) n 13 k.val (inb := k0_off19_inb k) (k0_off19_eq k) x col hcol _ (fun _ => rfl)
        | 14, _ => exact row_lane xT (wid L) n 14 k.val (inb := k0_off20_inb k) (k0_off20_eq k) x col hcol _ (fun _ => rfl)
        | 15, _ => exact row_lane xT (wid L) n 15 k.val (inb := k0_off21_inb k) (k0_off21_eq k) x col hcol _ (fun _ => rfl)
        | 16, _ => exact row_lane xT (wid L) n 16 k.val (inb := k0_off22_inb k) (k0_off22_eq k) x col hcol _ (fun _ => rfl)
        | 17, _ => exact row_lane xT (wid L) n 17 k.val (inb := k0_off23_inb k) (k0_off23_eq k) x col hcol _ (fun _ => rfl)
        | 18, _ => exact row_lane xT (wid L) n 18 k.val (inb := k0_off24_inb k) (k0_off24_eq k) x col hcol _ (fun _ => rfl)
        | 19, _ => exact row_lane xT (wid L) n 19 k.val (inb := k0_off25_inb k) (k0_off25_eq k) x col hcol _ (fun _ => rfl)
        | 20, _ => exact row_lane xT (wid L) n 20 k.val (inb := k0_off26_inb k) (k0_off26_eq k) x col hcol _ (fun _ => rfl)
        | 21, _ => exact row_lane xT (wid L) n 21 k.val (inb := k0_off27_inb k) (k0_off27_eq k) x col hcol _ (fun _ => rfl)
        | 22, _ => exact row_lane xT (wid L) n 22 k.val (inb := k0_off28_inb k) (k0_off28_eq k) x col hcol _ (fun _ => rfl)
        | 23, _ => exact row_lane xT (wid L) n 23 k.val (inb := k0_off29_inb k) (k0_off29_eq k) x col hcol _ (fun _ => rfl)
        | 24, _ => exact row_lane xT (wid L) n 24 k.val (inb := k0_off30_inb k) (k0_off30_eq k) x col hcol _ (fun _ => rfl)
        | 25, _ => exact row_lane xT (wid L) n 25 k.val (inb := k0_off31_inb k) (k0_off31_eq k) x col hcol _ (fun _ => rfl)
        | 26, _ => exact row_lane xT (wid L) n 26 k.val (inb := k0_off32_inb k) (k0_off32_eq k) x col hcol _ (fun _ => rfl)
        | 27, _ => exact row_lane xT (wid L) n 27 k.val (inb := k0_off33_inb k) (k0_off33_eq k) x col hcol _ (fun _ => rfl)
        | 28, _ => exact row_lane xT (wid L) n 28 k.val (inb := k0_off34_inb k) (k0_off34_eq k) x col hcol _ (fun _ => rfl)
        | 29, _ => exact row_lane xT (wid L) n 29 k.val (inb := k0_off35_inb k) (k0_off35_eq k) x col hcol _ (fun _ => rfl)
        | 30, _ => exact row_lane xT (wid L) n 30 k.val (inb := k0_off36_inb k) (k0_off36_eq k) x col hcol _ (fun _ => rfl)
        | 31, _ => exact row_lane xT (wid L) n 31 k.val (inb := k0_off37_inb k) (k0_off37_eq k) x col hcol _ (fun _ => rfl)
        | i + 32, h => exact absurd h (by omega)
    · exact midF_out _ _ k.val (inb := k0_off5_inb k) (k0_off5_eq k) y hy
  isplitl [HsC]
  · istop
    refine Entails.of_eq (congrArg _ ?_)
    refine whole_write_eq _ _ _ _ (fun x => ?_) (fun y hy => ?_)
    · dsimp only
      have hx16 : (x 0).val < 16 := (x 0).isLt
      obtain ⟨col, hcol⟩ : ∃ col : Fin 1024, col.val = 16 * k.val + (x 0).val := ⟨⟨16 * k.val + (x 0).val, by omega⟩, rfl⟩
      rw [midF_in _ _ k.val (inb := k0_off5_inb k) (k0_off5_eq k) x, lane_ix1 k.val (inb := k0_off5_inb k) (k0_off5_eq k) x col hcol]
      sl_unfold_run_names
      rw [pay3_sel]
      refine sel_lane xT tg (wid L) n hn g hg k.val (inb5 := k0_off5_inb k) (k0_off5_eq k) x col hcol _ _ _ (fun _ => rfl) (fun _ => rfl) ?_
      · intro i hi
        match i, hi with
        | 0, _ => exact row_lane xT (wid L) n 0 k.val (inb := k0_off6_inb k) (k0_off6_eq k) x col hcol _ (fun _ => rfl)
        | 1, _ => exact row_lane xT (wid L) n 1 k.val (inb := k0_off7_inb k) (k0_off7_eq k) x col hcol _ (fun _ => rfl)
        | 2, _ => exact row_lane xT (wid L) n 2 k.val (inb := k0_off8_inb k) (k0_off8_eq k) x col hcol _ (fun _ => rfl)
        | 3, _ => exact row_lane xT (wid L) n 3 k.val (inb := k0_off9_inb k) (k0_off9_eq k) x col hcol _ (fun _ => rfl)
        | 4, _ => exact row_lane xT (wid L) n 4 k.val (inb := k0_off10_inb k) (k0_off10_eq k) x col hcol _ (fun _ => rfl)
        | 5, _ => exact row_lane xT (wid L) n 5 k.val (inb := k0_off11_inb k) (k0_off11_eq k) x col hcol _ (fun _ => rfl)
        | 6, _ => exact row_lane xT (wid L) n 6 k.val (inb := k0_off12_inb k) (k0_off12_eq k) x col hcol _ (fun _ => rfl)
        | 7, _ => exact row_lane xT (wid L) n 7 k.val (inb := k0_off13_inb k) (k0_off13_eq k) x col hcol _ (fun _ => rfl)
        | 8, _ => exact row_lane xT (wid L) n 8 k.val (inb := k0_off14_inb k) (k0_off14_eq k) x col hcol _ (fun _ => rfl)
        | 9, _ => exact row_lane xT (wid L) n 9 k.val (inb := k0_off15_inb k) (k0_off15_eq k) x col hcol _ (fun _ => rfl)
        | 10, _ => exact row_lane xT (wid L) n 10 k.val (inb := k0_off16_inb k) (k0_off16_eq k) x col hcol _ (fun _ => rfl)
        | 11, _ => exact row_lane xT (wid L) n 11 k.val (inb := k0_off17_inb k) (k0_off17_eq k) x col hcol _ (fun _ => rfl)
        | 12, _ => exact row_lane xT (wid L) n 12 k.val (inb := k0_off18_inb k) (k0_off18_eq k) x col hcol _ (fun _ => rfl)
        | 13, _ => exact row_lane xT (wid L) n 13 k.val (inb := k0_off19_inb k) (k0_off19_eq k) x col hcol _ (fun _ => rfl)
        | 14, _ => exact row_lane xT (wid L) n 14 k.val (inb := k0_off20_inb k) (k0_off20_eq k) x col hcol _ (fun _ => rfl)
        | 15, _ => exact row_lane xT (wid L) n 15 k.val (inb := k0_off21_inb k) (k0_off21_eq k) x col hcol _ (fun _ => rfl)
        | 16, _ => exact row_lane xT (wid L) n 16 k.val (inb := k0_off22_inb k) (k0_off22_eq k) x col hcol _ (fun _ => rfl)
        | 17, _ => exact row_lane xT (wid L) n 17 k.val (inb := k0_off23_inb k) (k0_off23_eq k) x col hcol _ (fun _ => rfl)
        | 18, _ => exact row_lane xT (wid L) n 18 k.val (inb := k0_off24_inb k) (k0_off24_eq k) x col hcol _ (fun _ => rfl)
        | 19, _ => exact row_lane xT (wid L) n 19 k.val (inb := k0_off25_inb k) (k0_off25_eq k) x col hcol _ (fun _ => rfl)
        | 20, _ => exact row_lane xT (wid L) n 20 k.val (inb := k0_off26_inb k) (k0_off26_eq k) x col hcol _ (fun _ => rfl)
        | 21, _ => exact row_lane xT (wid L) n 21 k.val (inb := k0_off27_inb k) (k0_off27_eq k) x col hcol _ (fun _ => rfl)
        | 22, _ => exact row_lane xT (wid L) n 22 k.val (inb := k0_off28_inb k) (k0_off28_eq k) x col hcol _ (fun _ => rfl)
        | 23, _ => exact row_lane xT (wid L) n 23 k.val (inb := k0_off29_inb k) (k0_off29_eq k) x col hcol _ (fun _ => rfl)
        | 24, _ => exact row_lane xT (wid L) n 24 k.val (inb := k0_off30_inb k) (k0_off30_eq k) x col hcol _ (fun _ => rfl)
        | 25, _ => exact row_lane xT (wid L) n 25 k.val (inb := k0_off31_inb k) (k0_off31_eq k) x col hcol _ (fun _ => rfl)
        | 26, _ => exact row_lane xT (wid L) n 26 k.val (inb := k0_off32_inb k) (k0_off32_eq k) x col hcol _ (fun _ => rfl)
        | 27, _ => exact row_lane xT (wid L) n 27 k.val (inb := k0_off33_inb k) (k0_off33_eq k) x col hcol _ (fun _ => rfl)
        | 28, _ => exact row_lane xT (wid L) n 28 k.val (inb := k0_off34_inb k) (k0_off34_eq k) x col hcol _ (fun _ => rfl)
        | 29, _ => exact row_lane xT (wid L) n 29 k.val (inb := k0_off35_inb k) (k0_off35_eq k) x col hcol _ (fun _ => rfl)
        | 30, _ => exact row_lane xT (wid L) n 30 k.val (inb := k0_off36_inb k) (k0_off36_eq k) x col hcol _ (fun _ => rfl)
        | 31, _ => exact row_lane xT (wid L) n 31 k.val (inb := k0_off37_inb k) (k0_off37_eq k) x col hcol _ (fun _ => rfl)
        | i + 32, h => exact absurd h (by omega)
    · exact midF_out _ _ k.val (inb := k0_off5_inb k) (k0_off5_eq k) y hy
  iexact HbX

set_option maxHeartbeats 4000000 in
/-- One column group of a chunk in stream buffer B: sixteen targets, sums and selections loaded, thirty-two rows of
    sixteen entries folded in, the sums and selections stored back. -/
theorem trip4 (xT : S100000x1024.Idx → F .f32) (tg : S1024.Idx → BitVec 32) (n : ℕ) (hn : n + 32 ≤ 1024) (g : BitVec 32)
    (hg : g.toNat = 1024 * (wid L).val + n) (k : Fin k0_t4_loop.trips) (u : Unit) :
    inv4 d L xT tg n k.val u
      ⊢ wp frame (wpE (defs₀ (F := F)) 𝒱₀ (V d (cV L) (jV L)) none) Set.univ
          (k0_t4_body L (xV) (Memref.isWhole_whole _) (tV) (Memref.isWhole_whole _) (sPV) (Memref.isWhole_whole _) (cPV) (Memref.isWhole_whole _) (sT) (Memref.isWhole_whole _) (sA) (Memref.isWhole_whole _) (sC) (Memref.isWhole_whole _) (bA) (Memref.isWhole_whole _) (bB) (Memref.isWhole_whole _) cc0_scratch5 cc0_scratch6 cc0_scoped0 cc0_scoped1 cc0_scoped2 g k u)
          (inv4 d L xT tg n (k.val + 1)) := by
  have hk : k.val < 64 := trips4 ▸ k.isLt
  unfold inv4
  iintro ⟨HsT, HsA, HsC, HbX⟩
  unfold k0_t4_body
  sl_exec
  sl_step
  isplitl [HsT]; · iexact HsT
  isplitl [HsA]
  · istop
    refine Entails.of_eq (congrArg _ ?_)
    refine whole_write_eq _ _ _ _ (fun x => ?_) (fun y hy => ?_)
    · dsimp only
      have hx16 : (x 0).val < 16 := (x 0).isLt
      obtain ⟨col, hcol⟩ : ∃ col : Fin 1024, col.val = 16 * k.val + (x 0).val := ⟨⟨16 * k.val + (x 0).val, by omega⟩, rfl⟩
      rw [midF_in _ _ k.val (inb := k0_off39_inb k) (k0_off39_eq k) x, lane_ix1 k.val (inb := k0_off39_inb k) (k0_off39_eq k) x col hcol]
      sl_unfold_run_names
      rw [pay4_acc]
      refine acc_lane xT (wid L) n hn k.val (inb5 := k0_off39_inb k) (k0_off39_eq k) x col hcol _ _ (fun _ => rfl) ?_
      · intro i hi
        match i, hi with
        | 0, _ => exact row_lane xT (wid L) n 0 k.val (inb := k0_off40_inb k) (k0_off40_eq k) x col hcol _ (fun _ => rfl)
        | 1, _ => exact row_lane xT (wid L) n 1 k.val (inb := k0_off41_inb k) (k0_off41_eq k) x col hcol _ (fun _ => rfl)
        | 2, _ => exact row_lane xT (wid L) n 2 k.val (inb := k0_off42_inb k) (k0_off42_eq k) x col hcol _ (fun _ => rfl)
        | 3, _ => exact row_lane xT (wid L) n 3 k.val (inb := k0_off43_inb k) (k0_off43_eq k) x col hcol _ (fun _ => rfl)
        | 4, _ => exact row_lane xT (wid L) n 4 k.val (inb := k0_off44_inb k) (k0_off44_eq k) x col hcol _ (fun _ => rfl)
        | 5, _ => exact row_lane xT (wid L) n 5 k.val (inb := k0_off45_inb k) (k0_off45_eq k) x col hcol _ (fun _ => rfl)
        | 6, _ => exact row_lane xT (wid L) n 6 k.val (inb := k0_off46_inb k) (k0_off46_eq k) x col hcol _ (fun _ => rfl)
        | 7, _ => exact row_lane xT (wid L) n 7 k.val (inb := k0_off47_inb k) (k0_off47_eq k) x col hcol _ (fun _ => rfl)
        | 8, _ => exact row_lane xT (wid L) n 8 k.val (inb := k0_off48_inb k) (k0_off48_eq k) x col hcol _ (fun _ => rfl)
        | 9, _ => exact row_lane xT (wid L) n 9 k.val (inb := k0_off49_inb k) (k0_off49_eq k) x col hcol _ (fun _ => rfl)
        | 10, _ => exact row_lane xT (wid L) n 10 k.val (inb := k0_off50_inb k) (k0_off50_eq k) x col hcol _ (fun _ => rfl)
        | 11, _ => exact row_lane xT (wid L) n 11 k.val (inb := k0_off51_inb k) (k0_off51_eq k) x col hcol _ (fun _ => rfl)
        | 12, _ => exact row_lane xT (wid L) n 12 k.val (inb := k0_off52_inb k) (k0_off52_eq k) x col hcol _ (fun _ => rfl)
        | 13, _ => exact row_lane xT (wid L) n 13 k.val (inb := k0_off53_inb k) (k0_off53_eq k) x col hcol _ (fun _ => rfl)
        | 14, _ => exact row_lane xT (wid L) n 14 k.val (inb := k0_off54_inb k) (k0_off54_eq k) x col hcol _ (fun _ => rfl)
        | 15, _ => exact row_lane xT (wid L) n 15 k.val (inb := k0_off55_inb k) (k0_off55_eq k) x col hcol _ (fun _ => rfl)
        | 16, _ => exact row_lane xT (wid L) n 16 k.val (inb := k0_off56_inb k) (k0_off56_eq k) x col hcol _ (fun _ => rfl)
        | 17, _ => exact row_lane xT (wid L) n 17 k.val (inb := k0_off57_inb k) (k0_off57_eq k) x col hcol _ (fun _ => rfl)
        | 18, _ => exact row_lane xT (wid L) n 18 k.val (inb := k0_off58_inb k) (k0_off58_eq k) x col hcol _ (fun _ => rfl)
        | 19, _ => exact row_lane xT (wid L) n 19 k.val (inb := k0_off59_inb k) (k0_off59_eq k) x col hcol _ (fun _ => rfl)
        | 20, _ => exact row_lane xT (wid L) n 20 k.val (inb := k0_off60_inb k) (k0_off60_eq k) x col hcol _ (fun _ => rfl)
        | 21, _ => exact row_lane xT (wid L) n 21 k.val (inb := k0_off61_inb k) (k0_off61_eq k) x col hcol _ (fun _ => rfl)
        | 22, _ => exact row_lane xT (wid L) n 22 k.val (inb := k0_off62_inb k) (k0_off62_eq k) x col hcol _ (fun _ => rfl)
        | 23, _ => exact row_lane xT (wid L) n 23 k.val (inb := k0_off63_inb k) (k0_off63_eq k) x col hcol _ (fun _ => rfl)
        | 24, _ => exact row_lane xT (wid L) n 24 k.val (inb := k0_off64_inb k) (k0_off64_eq k) x col hcol _ (fun _ => rfl)
        | 25, _ => exact row_lane xT (wid L) n 25 k.val (inb := k0_off65_inb k) (k0_off65_eq k) x col hcol _ (fun _ => rfl)
        | 26, _ => exact row_lane xT (wid L) n 26 k.val (inb := k0_off66_inb k) (k0_off66_eq k) x col hcol _ (fun _ => rfl)
        | 27, _ => exact row_lane xT (wid L) n 27 k.val (inb := k0_off67_inb k) (k0_off67_eq k) x col hcol _ (fun _ => rfl)
        | 28, _ => exact row_lane xT (wid L) n 28 k.val (inb := k0_off68_inb k) (k0_off68_eq k) x col hcol _ (fun _ => rfl)
        | 29, _ => exact row_lane xT (wid L) n 29 k.val (inb := k0_off69_inb k) (k0_off69_eq k) x col hcol _ (fun _ => rfl)
        | 30, _ => exact row_lane xT (wid L) n 30 k.val (inb := k0_off70_inb k) (k0_off70_eq k) x col hcol _ (fun _ => rfl)
        | 31, _ => exact row_lane xT (wid L) n 31 k.val (inb := k0_off71_inb k) (k0_off71_eq k) x col hcol _ (fun _ => rfl)
        | i + 32, h => exact absurd h (by omega)
    · exact midF_out _ _ k.val (inb := k0_off39_inb k) (k0_off39_eq k) y hy
  isplitl [HsC]
  · istop
    refine Entails.of_eq (congrArg _ ?_)
    refine whole_write_eq _ _ _ _ (fun x => ?_) (fun y hy => ?_)
    · dsimp only
      have hx16 : (x 0).val < 16 := (x 0).isLt
      obtain ⟨col, hcol⟩ : ∃ col : Fin 1024, col.val = 16 * k.val + (x 0).val := ⟨⟨16 * k.val + (x 0).val, by omega⟩, rfl⟩
      rw [midF_in _ _ k.val (inb := k0_off39_inb k) (k0_off39_eq k) x, lane_ix1 k.val (inb := k0_off39_inb k) (k0_off39_eq k) x col hcol]
      sl_unfold_run_names
      rw [pay4_sel]
      refine sel_lane xT tg (wid L) n hn g hg k.val (inb5 := k0_off39_inb k) (k0_off39_eq k) x col hcol _ _ _ (fun _ => rfl) (fun _ => rfl) ?_
      · intro i hi
        match i, hi with
        | 0, _ => exact row_lane xT (wid L) n 0 k.val (inb := k0_off40_inb k) (k0_off40_eq k) x col hcol _ (fun _ => rfl)
        | 1, _ => exact row_lane xT (wid L) n 1 k.val (inb := k0_off41_inb k) (k0_off41_eq k) x col hcol _ (fun _ => rfl)
        | 2, _ => exact row_lane xT (wid L) n 2 k.val (inb := k0_off42_inb k) (k0_off42_eq k) x col hcol _ (fun _ => rfl)
        | 3, _ => exact row_lane xT (wid L) n 3 k.val (inb := k0_off43_inb k) (k0_off43_eq k) x col hcol _ (fun _ => rfl)
        | 4, _ => exact row_lane xT (wid L) n 4 k.val (inb := k0_off44_inb k) (k0_off44_eq k) x col hcol _ (fun _ => rfl)
        | 5, _ => exact row_lane xT (wid L) n 5 k.val (inb := k0_off45_inb k) (k0_off45_eq k) x col hcol _ (fun _ => rfl)
        | 6, _ => exact row_lane xT (wid L) n 6 k.val (inb := k0_off46_inb k) (k0_off46_eq k) x col hcol _ (fun _ => rfl)
        | 7, _ => exact row_lane xT (wid L) n 7 k.val (inb := k0_off47_inb k) (k0_off47_eq k) x col hcol _ (fun _ => rfl)
        | 8, _ => exact row_lane xT (wid L) n 8 k.val (inb := k0_off48_inb k) (k0_off48_eq k) x col hcol _ (fun _ => rfl)
        | 9, _ => exact row_lane xT (wid L) n 9 k.val (inb := k0_off49_inb k) (k0_off49_eq k) x col hcol _ (fun _ => rfl)
        | 10, _ => exact row_lane xT (wid L) n 10 k.val (inb := k0_off50_inb k) (k0_off50_eq k) x col hcol _ (fun _ => rfl)
        | 11, _ => exact row_lane xT (wid L) n 11 k.val (inb := k0_off51_inb k) (k0_off51_eq k) x col hcol _ (fun _ => rfl)
        | 12, _ => exact row_lane xT (wid L) n 12 k.val (inb := k0_off52_inb k) (k0_off52_eq k) x col hcol _ (fun _ => rfl)
        | 13, _ => exact row_lane xT (wid L) n 13 k.val (inb := k0_off53_inb k) (k0_off53_eq k) x col hcol _ (fun _ => rfl)
        | 14, _ => exact row_lane xT (wid L) n 14 k.val (inb := k0_off54_inb k) (k0_off54_eq k) x col hcol _ (fun _ => rfl)
        | 15, _ => exact row_lane xT (wid L) n 15 k.val (inb := k0_off55_inb k) (k0_off55_eq k) x col hcol _ (fun _ => rfl)
        | 16, _ => exact row_lane xT (wid L) n 16 k.val (inb := k0_off56_inb k) (k0_off56_eq k) x col hcol _ (fun _ => rfl)
        | 17, _ => exact row_lane xT (wid L) n 17 k.val (inb := k0_off57_inb k) (k0_off57_eq k) x col hcol _ (fun _ => rfl)
        | 18, _ => exact row_lane xT (wid L) n 18 k.val (inb := k0_off58_inb k) (k0_off58_eq k) x col hcol _ (fun _ => rfl)
        | 19, _ => exact row_lane xT (wid L) n 19 k.val (inb := k0_off59_inb k) (k0_off59_eq k) x col hcol _ (fun _ => rfl)
        | 20, _ => exact row_lane xT (wid L) n 20 k.val (inb := k0_off60_inb k) (k0_off60_eq k) x col hcol _ (fun _ => rfl)
        | 21, _ => exact row_lane xT (wid L) n 21 k.val (inb := k0_off61_inb k) (k0_off61_eq k) x col hcol _ (fun _ => rfl)
        | 22, _ => exact row_lane xT (wid L) n 22 k.val (inb := k0_off62_inb k) (k0_off62_eq k) x col hcol _ (fun _ => rfl)
        | 23, _ => exact row_lane xT (wid L) n 23 k.val (inb := k0_off63_inb k) (k0_off63_eq k) x col hcol _ (fun _ => rfl)
        | 24, _ => exact row_lane xT (wid L) n 24 k.val (inb := k0_off64_inb k) (k0_off64_eq k) x col hcol _ (fun _ => rfl)
        | 25, _ => exact row_lane xT (wid L) n 25 k.val (inb := k0_off65_inb k) (k0_off65_eq k) x col hcol _ (fun _ => rfl)
        | 26, _ => exact row_lane xT (wid L) n 26 k.val (inb := k0_off66_inb k) (k0_off66_eq k) x col hcol _ (fun _ => rfl)
        | 27, _ => exact row_lane xT (wid L) n 27 k.val (inb := k0_off67_inb k) (k0_off67_eq k) x col hcol _ (fun _ => rfl)
        | 28, _ => exact row_lane xT (wid L) n 28 k.val (inb := k0_off68_inb k) (k0_off68_eq k) x col hcol _ (fun _ => rfl)
        | 29, _ => exact row_lane xT (wid L) n 29 k.val (inb := k0_off69_inb k) (k0_off69_eq k) x col hcol _ (fun _ => rfl)
        | 30, _ => exact row_lane xT (wid L) n 30 k.val (inb := k0_off70_inb k) (k0_off70_eq k) x col hcol _ (fun _ => rfl)
        | 31, _ => exact row_lane xT (wid L) n 31 k.val (inb := k0_off71_inb k) (k0_off71_eq k) x col hcol _ (fun _ => rfl)
        | i + 32, h => exact absurd h (by omega)
    · exact midF_out _ _ k.val (inb := k0_off39_inb k) (k0_off39_eq k) y hy
  iexact HbX

/-! ### The input's read share, dealt to the two stream buffers' copies -/

omit [FloatOps F] in
/-- A read share of the input splits into a token for each stream buffer's copies and a remainder. -/
theorem toks2 (q : PosShare TreeShare) (xT : Buf (Elt F) (xTLoc d)) :
    (((xV).view.loc (V d (cV L) (jV L)) ↦{q} xT : sProp (MM F)))
      ⊣⊢ iprop(((xV).view.loc (V d (cV L) (jV L)) ↦{Transfers.shareDrop q 2} xT) ∗ ((xV).view.loc (V d (cV L) (jV L)) ↦{Transfers.shareTokN q 0} xT)
          ∗ ((xV).view.loc (V d (cV L) (jV L)) ↦{Transfers.shareTokN q 1} xT)) := by
  have h1 : (((xV).view.loc (V d (cV L) (jV L)) ↦{q} xT : sProp (MM F)))
      ⊣⊢ iprop(((xV).view.loc (V d (cV L) (jV L)) ↦{q.left} xT) ∗ ((xV).view.loc (V d (cV L) (jV L)) ↦{q.right} xT)) :=
    pointsTo_share (PosShare.mem_left_op_right q)
  have h2 : (((xV).view.loc (V d (cV L) (jV L)) ↦{q.left} xT : sProp (MM F)))
      ⊣⊢ iprop(((xV).view.loc (V d (cV L) (jV L)) ↦{q.left.left} xT) ∗ ((xV).view.loc (V d (cV L) (jV L)) ↦{q.left.right} xT)) :=
    pointsTo_share (PosShare.mem_left_op_right q.left)
  constructor
  · refine h1.1.trans ((sep_mono_left h2.1).trans ?_)
    iintro ⟨⟨Hd, H1⟩, H0⟩
    isplitl [Hd]; · iexact Hd
    isplitl [H0]; · iexact H0
    iexact H1
  · refine BIBase.Entails.trans ?_ ((sep_mono_left h2.2).trans h1.2)
    iintro ⟨Hd, H0, H1⟩
    isplitl [Hd H1]
    · isplitl [Hd]; · iexact Hd
      iexact H1
    · iexact H0

/-! ### The pair loop's invariant: the next pair's first chunk in flight -/

/-- A chunk landed in stream buffer A: the buffer holds rows `n .. n + 31` of the stripe. -/
theorem chunk_landsA (xT : S100000x1024.Idx → F .f32) (n : ℕ) (hn : n + 32 ≤ 1024) {off : Fin 2 → ℕ}
    {inb : ∀ a, off a + S32x1024.size a ≤ S100000x1024.size a} (hoff : off = ![1024 * (wid L).val + n, 0])
    (fb : S32x1024.Idx → F .f32) :
    View.write (Elt F) (bA).view fb ((chunkM off inb).view.read (Elt F) xT) Finset.univ = chunkOf xT (wid L) n :=
  (View.write_whole_univ cc0_scratch3 fb _).trans (chunk_read xT (wid L) n hn hoff)

/-- The copy of a chunk into stream buffer A, in flight: what it will deliver, named. -/
theorem flightA_land (q : PosShare TreeShare) (xT : S100000x1024.Idx → F .f32) (n : ℕ) (hn : n + 32 ≤ 1024) {off : Fin 2 → ℕ}
    {inb : ∀ a, off a + S32x1024.size a ≤ S100000x1024.size a} (hoff : off = ![1024 * (wid L).val + n, 0])
    (fb : S32x1024.Idx → F .f32) :
    (Transfers.Flight (countersEmb : UEmb Counters (MM F)) (V d (cV L) (jV L)) (SemLoc.dma cc0_scratch5.sem) default 1048576
          iprop(((bA).view.loc (V d (cV L) (jV L)) ↦{fullShare} View.write (Elt F) (bA).view fb ((chunkM off inb).view.read (Elt F) xT) Finset.univ)
            ∗ ((xV).view.loc (V d (cV L) (jV L)) ↦[(chunkM off inb).view.set]{Transfers.shareTokN q 0} xT)) : sProp (MM F))
      ⊢ Transfers.Flight (countersEmb : UEmb Counters (MM F)) (V d (cV L) (jV L)) (SemLoc.dma cc0_scratch5.sem) default 1048576
          iprop(((bA).view.loc (V d (cV L) (jV L)) ↦{fullShare} chunkOf xT (wid L) n)
            ∗ ((xV).view.loc (V d (cV L) (jV L)) ↦[(chunkM off inb).view.set]{Transfers.shareTokN q 0} xT)) := by
  rw [chunk_landsA L xT n hn hoff fb]

omit [FloatOps F] in
/-- The same flight and the input's rest, the chunk's offsets spelt another way. -/
theorem flightA_respell (q : PosShare TreeShare) (xT : S100000x1024.Idx → F .f32) (f : S32x1024.Idx → F .f32) {off off' : Fin 2 → ℕ}
    {inb : ∀ a, off a + S32x1024.size a ≤ S100000x1024.size a} {inb' : ∀ a, off' a + S32x1024.size a ≤ S100000x1024.size a}
    (h : off = off') :
    (iprop(Transfers.Flight (countersEmb : UEmb Counters (MM F)) (V d (cV L) (jV L)) (SemLoc.dma cc0_scratch5.sem) default 1048576
          iprop(((bA).view.loc (V d (cV L) (jV L)) ↦{fullShare} f)
            ∗ ((xV).view.loc (V d (cV L) (jV L)) ↦[(chunkM off inb).view.set]{Transfers.shareTokN q 0} xT))
        ∗ ((xV).view.loc (V d (cV L) (jV L)) ↦[Finset.univ \ (chunkM off inb).view.set]{Transfers.shareTokN q 0} xT)) : sProp (MM F))
      ⊢ iprop(Transfers.Flight (countersEmb : UEmb Counters (MM F)) (V d (cV L) (jV L)) (SemLoc.dma cc0_scratch5.sem) default 1048576
          iprop(((bA).view.loc (V d (cV L) (jV L)) ↦{fullShare} f)
            ∗ ((xV).view.loc (V d (cV L) (jV L)) ↦[(chunkM off' inb').view.set]{Transfers.shareTokN q 0} xT))
        ∗ ((xV).view.loc (V d (cV L) (jV L)) ↦[Finset.univ \ (chunkM off' inb').view.set]{Transfers.shareTokN q 0} xT)) := by
  subst h
  exact .rfl

/-- A chunk landed in stream buffer B: the buffer holds rows `n .. n + 31` of the stripe. -/
theorem chunk_landsB (xT : S100000x1024.Idx → F .f32) (n : ℕ) (hn : n + 32 ≤ 1024) {off : Fin 2 → ℕ}
    {inb : ∀ a, off a + S32x1024.size a ≤ S100000x1024.size a} (hoff : off = ![1024 * (wid L).val + n, 0])
    (fb : S32x1024.Idx → F .f32) :
    View.write (Elt F) (bB).view fb ((chunkM off inb).view.read (Elt F) xT) Finset.univ = chunkOf xT (wid L) n :=
  (View.write_whole_univ cc0_scratch4 fb _).trans (chunk_read xT (wid L) n hn hoff)

/-- The copy of a chunk into stream buffer B, in flight: what it will deliver, named. -/
theorem flightB_land (q : PosShare TreeShare) (xT : S100000x1024.Idx → F .f32) (n : ℕ) (hn : n + 32 ≤ 1024) {off : Fin 2 → ℕ}
    {inb : ∀ a, off a + S32x1024.size a ≤ S100000x1024.size a} (hoff : off = ![1024 * (wid L).val + n, 0])
    (fb : S32x1024.Idx → F .f32) :
    (Transfers.Flight (countersEmb : UEmb Counters (MM F)) (V d (cV L) (jV L)) (SemLoc.dma cc0_scratch6.sem) default 1048576
          iprop(((bB).view.loc (V d (cV L) (jV L)) ↦{fullShare} View.write (Elt F) (bB).view fb ((chunkM off inb).view.read (Elt F) xT) Finset.univ)
            ∗ ((xV).view.loc (V d (cV L) (jV L)) ↦[(chunkM off inb).view.set]{Transfers.shareTokN q 1} xT)) : sProp (MM F))
      ⊢ Transfers.Flight (countersEmb : UEmb Counters (MM F)) (V d (cV L) (jV L)) (SemLoc.dma cc0_scratch6.sem) default 1048576
          iprop(((bB).view.loc (V d (cV L) (jV L)) ↦{fullShare} chunkOf xT (wid L) n)
            ∗ ((xV).view.loc (V d (cV L) (jV L)) ↦[(chunkM off inb).view.set]{Transfers.shareTokN q 1} xT)) := by
  rw [chunk_landsB L xT n hn hoff fb]

omit [FloatOps F] in
/-- The same flight and the input's rest, the chunk's offsets spelt another way. -/
theorem flightB_respell (q : PosShare TreeShare) (xT : S100000x1024.Idx → F .f32) (f : S32x1024.Idx → F .f32) {off off' : Fin 2 → ℕ}
    {inb : ∀ a, off a + S32x1024.size a ≤ S100000x1024.size a} {inb' : ∀ a, off' a + S32x1024.size a ≤ S100000x1024.size a}
    (h : off = off') :
    (iprop(Transfers.Flight (countersEmb : UEmb Counters (MM F)) (V d (cV L) (jV L)) (SemLoc.dma cc0_scratch6.sem) default 1048576
          iprop(((bB).view.loc (V d (cV L) (jV L)) ↦{fullShare} f)
            ∗ ((xV).view.loc (V d (cV L) (jV L)) ↦[(chunkM off inb).view.set]{Transfers.shareTokN q 1} xT))
        ∗ ((xV).view.loc (V d (cV L) (jV L)) ↦[Finset.univ \ (chunkM off inb).view.set]{Transfers.shareTokN q 1} xT)) : sProp (MM F))
      ⊢ iprop(Transfers.Flight (countersEmb : UEmb Counters (MM F)) (V d (cV L) (jV L)) (SemLoc.dma cc0_scratch6.sem) default 1048576
          iprop(((bB).view.loc (V d (cV L) (jV L)) ↦{fullShare} f)
            ∗ ((xV).view.loc (V d (cV L) (jV L)) ↦[(chunkM off' inb').view.set]{Transfers.shareTokN q 1} xT))
        ∗ ((xV).view.loc (V d (cV L) (jV L)) ↦[Finset.univ \ (chunkM off' inb').view.set]{Transfers.shareTokN q 1} xT)) := by
  subst h
  exact .rfl

/-- A chunk's copy into stream buffer A just started, with the input's rest: what it will deliver, named, and the chunk's
    offsets spelt as the invariant spells them. -/
theorem flightA_next (q : PosShare TreeShare) (xT : S100000x1024.Idx → F .f32) (n : ℕ) (hn : n + 32 ≤ 1024) {off off' : Fin 2 → ℕ}
    {inb : ∀ a, off a + S32x1024.size a ≤ S100000x1024.size a} {inb' : ∀ a, off' a + S32x1024.size a ≤ S100000x1024.size a}
    (hoff : off = ![1024 * (wid L).val + n, 0]) (h : off = off') (fb : S32x1024.Idx → F .f32) :
    (iprop(Transfers.Flight (countersEmb : UEmb Counters (MM F)) (V d (cV L) (jV L)) (SemLoc.dma cc0_scratch5.sem) default 1048576
          iprop(((bA).view.loc (V d (cV L) (jV L)) ↦{fullShare} View.write (Elt F) (bA).view fb ((chunkM off inb).view.read (Elt F) xT) Finset.univ)
            ∗ ((xV).view.loc (V d (cV L) (jV L)) ↦[(chunkM off inb).view.set]{Transfers.shareTokN q 0} xT))
        ∗ ((xV).view.loc (V d (cV L) (jV L)) ↦[Finset.univ \ (chunkM off inb).view.set]{Transfers.shareTokN q 0} xT)) : sProp (MM F))
      ⊢ iprop(Transfers.Flight (countersEmb : UEmb Counters (MM F)) (V d (cV L) (jV L)) (SemLoc.dma cc0_scratch5.sem) default 1048576
          iprop(((bA).view.loc (V d (cV L) (jV L)) ↦{fullShare} chunkOf xT (wid L) n)
            ∗ ((xV).view.loc (V d (cV L) (jV L)) ↦[(chunkM off' inb').view.set]{Transfers.shareTokN q 0} xT))
        ∗ ((xV).view.loc (V d (cV L) (jV L)) ↦[Finset.univ \ (chunkM off' inb').view.set]{Transfers.shareTokN q 0} xT)) := by
  subst h
  rw [chunk_landsA L xT n hn hoff fb]

/-- Before pair `p`: the targets, the two running rows after `64 p` rows, stream buffer B and its semaphore free, and —
    while pairs remain — the copy of the pair's first chunk into stream buffer A in flight. -/
def inv2 (q : PosShare TreeShare) (xT : S100000x1024.Idx → F .f32) (tg : S1024.Idx → BitVec 32)
    (O : CellTallies nD τ sig (HIx 1)) (W : Waits sig (HIx 1)) (p : ℕ) (_ : Unit) : sProp (MM F) :=
  iprop(Transfers.MayWaits (V d (cV L) (jV L)) (none : HIx 1) O
    ∗ ((sT).view.loc (V d (cV L) (jV L)) ↦{fullShare} tg)
    ∗ ((sA).view.loc (V d (cV L) (jV L)) ↦{fullShare} accAt xT (wid L) (64 * p))
    ∗ ((sC).view.loc (V d (cV L) (jV L)) ↦{fullShare} selAt xT tg (wid L) (64 * p))
    ∗ (∃ fB, (bB).view.loc (V d (cV L) (jV L)) ↦{fullShare} fB)
    ∗ semVal (cellB d L) 0
    ∗ ((xV).view.loc (V d (cV L) (jV L)) ↦{Transfers.shareTokN q 1} xT)
    ∗ (if h : p < k0_t2_loop.trips then
        iprop(Transfers.Flight (countersEmb : UEmb Counters (MM F)) (V d (cV L) (jV L)) (SemLoc.dma cc0_scratch5.sem) default 1048576
          iprop(((bA).view.loc (V d (cV L) (jV L)) ↦{fullShare} chunkOf xT (wid L) (64 * p))
            ∗ ((xV).view.loc (V d (cV L) (jV L)) ↦[(chunkM (k0_off4 L ⟨p, h⟩) (k0_off4_inb L ⟨p, h⟩)).view.set]{Transfers.shareTokN q 0} xT))
          ∗ ((xV).view.loc (V d (cV L) (jV L)) ↦[Finset.univ \ (chunkM (k0_off4 L ⟨p, h⟩) (k0_off4_inb L ⟨p, h⟩)).view.set]{Transfers.shareTokN q 0} xT))
      else
        iprop((∃ fA, (bA).view.loc (V d (cV L) (jV L)) ↦{fullShare} fA) ∗ semVal (cellA d L) 0
          ∗ ((xV).view.loc (V d (cV L) (jV L)) ↦{Transfers.shareTokN q 0} xT)))
    ∗ ∃ W', ⌜∀ pw ∈ W', pw ∈ W ∨ pw.2 = none⌝ ∗ owes (V d (cV L) (jV L)) O W')

omit [FloatOps F] in
theorem midF_trips3 {α : Type} (A B : S1024.Idx → α) : midF A B (Scf.trips k0_t3_loop.lb k0_t3_loop.ub k0_t3_loop.st) = B := by
  rw [show Scf.trips k0_t3_loop.lb k0_t3_loop.ub k0_t3_loop.st = 64 from trips3]; exact midF_full A B
omit [FloatOps F] in
theorem midF_trips4 {α : Type} (A B : S1024.Idx → α) : midF A B (Scf.trips k0_t4_loop.lb k0_t4_loop.ub k0_t4_loop.st) = B := by
  rw [show Scf.trips k0_t4_loop.lb k0_t4_loop.ub k0_t4_loop.st = 64 from trips4]; exact midF_full A B
omit [FloatOps F] in
theorem midF_trips1 {α : Type} (A B : S1024.Idx → α) : midF A B (Scf.trips k0_t1_loop.lb k0_t1_loop.ub k0_t1_loop.st) = B := by
  rw [show Scf.trips k0_t1_loop.lb k0_t1_loop.ub k0_t1_loop.st = 64 from trips1]; exact midF_full A B

set_option maxHeartbeats 4000000 in
/-- One pair of chunks: the second chunk's copy into stream buffer B started, the first waited for and folded in, the next
    pair's first chunk started into stream buffer A if there is one, the second waited for and folded in. -/
theorem trip2 (q : PosShare TreeShare) (xT : S100000x1024.Idx → F .f32) (tg : S1024.Idx → BitVec 32)
    (O : CellTallies nD τ sig (HIx 1)) (W : Waits sig (HIx 1)) (p : Fin k0_t2_loop.trips) (u : Unit) :
    inv2 d L q xT tg O W p.val u
      ⊢ wp frame (wpE (defs₀ (F := F)) 𝒱₀ (V d (cV L) (jV L)) none) Set.univ
          (k0_t2_body L (xV) (Memref.isWhole_whole _) (tV) (Memref.isWhole_whole _) (sPV) (Memref.isWhole_whole _) (cPV) (Memref.isWhole_whole _) (sT) (Memref.isWhole_whole _) (sA) (Memref.isWhole_whole _) (sC) (Memref.isWhole_whole _) (bA) (Memref.isWhole_whole _) (bB) (Memref.isWhole_whole _) cc0_scratch5 cc0_scratch6 cc0_scoped0 cc0_scoped1 cc0_scoped2 (V2 L) p u)
          (inv2 d L q xT tg O W (p.val + 1)) := by
  have hp : p.val < 16 := trips2 ▸ p.isLt
  have hnA : 64 * p.val + 32 ≤ 1024 := by omega
  have hnB : 64 * p.val + 32 + 32 ≤ 1024 := by omega
  unfold inv2
  rw [dif_pos p.isLt]
  iintro ⟨#Hmw, HsT, HsA, HsC, ⟨%fB, HbB⟩, HsemB, Hx1, ⟨HF, Hx0⟩, %W', %hW', HO⟩
  unfold k0_t2_body
  by_cases hc : k0_cond1 p = 1#1
  · have hp1 : p.val + 1 < 16 := (cond1_iff p).mp hc
    sl_exec
    sl_for (inv3 d L xT tg (64 * p.val)) $$ [HsT HsA HsC HF_dst]
    case region => intro k acc; exact trip3 d L xT tg (64 * p.val) hnA _ (gA_toNat L p) (V2 L) 0#32 1#32 p k acc
    · unfold inv3
      rw [midF_zero, midF_zero]
      isplitl [HsT]; · iexact HsT
      isplitl [HsA]; · iexact HsA
      isplitl [HsC]; · iexact HsC
      iexact HF_dst
    iintro %_ HI
    unfold inv3
    icases HI with ⟨HsT, HsA, HsC, HbA⟩
    sl_exec
    sl_for (inv4 d L xT tg (64 * p.val + 32)) $$ [HsT HsA HsC HbB]
    case region => intro k acc; exact trip4 d L xT tg (64 * p.val + 32) hnB _ (gB_toNat L p) k acc
    · unfold inv4
      rw [midF_zero, midF_zero]
      isplitl [HsT]; · iexact HsT
      isplitl [HsA]
      · iclear Hmw
        istop
        refine Entails.of_eq (congrArg _ ?_)
        exact midF_trips3 _ _
      isplitl [HsC]
      · iclear Hmw
        istop
        refine Entails.of_eq (congrArg _ ?_)
        exact midF_trips3 _ _
      iclear Hmw
      istop
      refine Entails.of_eq (congrArg _ ?_)
      exact chunk_landsB L xT (64 * p.val + 32) hnB (off3_eq L p) fB
    iintro %_ HI
    unfold inv4
    icases HI with ⟨HsT, HsA, HsC, HbB⟩
    sl_exec
    sl_step
    have hlt : p.val + 1 < k0_t2_loop.trips := lt_of_lt_of_eq hp1 trips2.symm
    rw [dif_pos hlt]
    have hoff38 : k0_off38 L p = ![1024 * (wid L).val + 64 * (p.val + 1), 0] := (off38_eq L p).trans (by congr 1 <;> omega)
    have hoffEq : k0_off38 L p = k0_off4 L ⟨p.val + 1, hlt⟩ := hoff38.trans (off4_eq L ⟨p.val + 1, hlt⟩).symm
    isplitr; · iexact Hmw
    isplitl [HsT]; · iexact HsT
    isplitl [HsA]
    · iclear Hmw
      istop
      refine Entails.of_eq (congrArg _ ?_)
      exact (midF_trips4 _ _).trans (congrArg (accAt xT (wid L)) (by omega))
    isplitl [HsC]
    · iclear Hmw
      istop
      refine Entails.of_eq (congrArg _ ?_)
      exact (midF_trips4 _ _).trans (congrArg (selAt xT tg (wid L)) (by omega))
    isplitl [HbB]; · iexists _; iexact HbB
    isplitl [HsemB]; · iexact HsemB
    isplitl [Hx1]; · iexact Hx1
    isplitl [HF Hx0]
    · iclear Hmw
      istop
      exact flightA_next d L q xT (64 * (p.val + 1)) (by omega) (inb := k0_off38_inb L p hc) (inb' := k0_off4_inb L ⟨p.val + 1, hlt⟩)
        hoff38 hoffEq _
    iexists _; isplitr
    rotate_left
    · iexact HO
    · ipureintro
      intro pw hpw
      rcases Finset.mem_insert.mp hpw with hpw | hpw
      · exact .inr (hpw ▸ rfl)
      rcases Finset.mem_insert.mp hpw with hpw | hpw
      · exact .inr (hpw ▸ rfl)
      exact hW' pw hpw
  · sl_exec
    sl_for (inv3 d L xT tg (64 * p.val)) $$ [HsT HsA HsC HF_dst]
    case region => intro k acc; exact trip3 d L xT tg (64 * p.val) hnA _ (gA_toNat L p) (V2 L) 0#32 1#32 p k acc
    · unfold inv3
      rw [midF_zero, midF_zero]
      isplitl [HsT]; · iexact HsT
      isplitl [HsA]; · iexact HsA
      isplitl [HsC]; · iexact HsC
      iexact HF_dst
    iintro %_ HI
    unfold inv3
    icases HI with ⟨HsT, HsA, HsC, HbA⟩
    sl_exec
    sl_for (inv4 d L xT tg (64 * p.val + 32)) $$ [HsT HsA HsC HbB]
    case region => intro k acc; exact trip4 d L xT tg (64 * p.val + 32) hnB _ (gB_toNat L p) k acc
    · unfold inv4
      rw [midF_zero, midF_zero]
      isplitl [HsT]; · iexact HsT
      isplitl [HsA]
      · iclear Hmw
        istop
        refine Entails.of_eq (congrArg _ ?_)
        exact midF_trips3 _ _
      isplitl [HsC]
      · iclear Hmw
        istop
        refine Entails.of_eq (congrArg _ ?_)
        exact midF_trips3 _ _
      iclear Hmw
      istop
      refine Entails.of_eq (congrArg _ ?_)
      exact chunk_landsB L xT (64 * p.val + 32) hnB (off3_eq L p) fB
    iintro %_ HI
    unfold inv4
    icases HI with ⟨HsT, HsA, HsC, HbB⟩
    sl_exec
    sl_step
    have hnlt : ¬ p.val + 1 < k0_t2_loop.trips := fun h => hc ((cond1_iff p).mpr (lt_of_lt_of_eq h trips2))
    rw [dif_neg hnlt]
    isplitr; · iexact Hmw
    isplitl [HsT]; · iexact HsT
    isplitl [HsA]
    · iclear Hmw
      istop
      refine Entails.of_eq (congrArg _ ?_)
      exact (midF_trips4 _ _).trans (congrArg (accAt xT (wid L)) (by omega))
    isplitl [HsC]
    · iclear Hmw
      istop
      refine Entails.of_eq (congrArg _ ?_)
      exact (midF_trips4 _ _).trans (congrArg (selAt xT tg (wid L)) (by omega))
    isplitl [HbB]; · iexists _; iexact HbB
    isplitl [HsemB]; · iexact HsemB
    isplitl [Hx1]; · iexact Hx1
    isplitl [HbA HF Hx0]
    · isplitl [HbA]; · iexists _; iexact HbA
      isplitl [HF]; · iexact HF
      iexact Hx0
    iexists _; isplitr
    rotate_left
    · iexact HO
    · ipureintro
      intro pw hpw
      rcases Finset.mem_insert.mp hpw with hpw | hpw
      · exact .inr (hpw ▸ rfl)
      rcases Finset.mem_insert.mp hpw with hpw | hpw
      · exact .inr (hpw ▸ rfl)
      exact hW' pw hpw

/-! ## The task -/

set_option maxHeartbeats 4000000 in
/-- The task on vector subcore `(L 0, L 1)` of device `d`: the input and the targets lent at any share and handed back,
    row `w` of the two partial arrays taken at any contents and handed back at the stripe's sums and selections. -/
theorem tile_body_at (hF : (K (F := F)).Facts) (q : PosShare TreeShare)
    (xT : Buf (Elt F) (xTLoc d)) (tg : Buf (Elt F) (tgLoc d)) (s0 : Buf (Elt F) (sPLoc d)) (c0 : Buf (Elt F) (cPLoc d))
    (O : CellTallies nD τ sig (HIx 1)) (W : Waits sig (HIx 1)) (hO : ∀ g, O g none = 0) :
    (iprop(levAts (K (F := F)).L (K (F := F)).lev ∗ emp
        ∗ ((xTLoc d ↦{q} xT) ∗ (tgLoc d ↦{q} tg) ∗ (sPLoc d ↦[rowSet (wid L)]{fullShare} s0) ∗ cPLoc d ↦[rowSet (wid L)]{fullShare} c0)
        ∗ scopedBufs (V d (cV L) (jV L)) ∗ scopedSems0 (V d (cV L) (jV L)) ∗ owes (V d (cV L) (jV L)) O W) : sProp (MM F))
      ⊢ wp frame (wpE (defs₀ (F := F)) 𝒱₀ (V d (cV L) (jV L)) none) Set.univ
          (cc0_sc_kernel L (xV) (Memref.isWhole_whole _) (tV) (Memref.isWhole_whole _) (sPV) (Memref.isWhole_whole _) (cPV) (Memref.isWhole_whole _) (sT) (Memref.isWhole_whole _) (sA) (Memref.isWhole_whole _) (sC) (Memref.isWhole_whole _) (bA) (Memref.isWhole_whole _) (bB) (Memref.isWhole_whole _) cc0_scratch5 cc0_scratch6 cc0_scoped0 cc0_scoped1 cc0_scoped2)
          fun _ => iprop(((xTLoc d ↦{q} xT) ∗ (tgLoc d ↦{q} tg)
              ∗ (∃ f, ⌜∀ b : Fin 1024, f (ix2 (wid L) b) = scSum xT (wid L) b⌝ ∗ sPLoc d ↦[rowSet (wid L)]{fullShare} f)
              ∗ (∃ f, ⌜∀ b : Fin 1024, f (ix2 (wid L) b) = scSel xT tg (wid L) b⌝ ∗ cPLoc d ↦[rowSet (wid L)]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_kernel_eq_skeleton]; unfold cc0_sc_kernel_skel
  rw [(K (F := F)).scopedBufs_V hF d (cV L) (jV L), SparseCore.Cfg.scopedSems0_V (Val := Elt F) d (cV L) (jV L), ownSems0_V, ownBufs_V]
  iintro ⟨#Hlv, -, ⟨Hx, Ht, Hs, Hc⟩, ⟨⟨%fT, HsT⟩, ⟨%fA, HsA⟩, ⟨%fC, HsC⟩, ⟨%fbA, HbA⟩, ⟨%fbB, HbB⟩, Hbufs⟩,
    ⟨HsemA, HsemB, Hsem0, Hsem1, Hsem2, Hsems⟩, HO⟩
  ihave Hmw := ((K (F := F)).mayWaits_none (thr := (V d (cV L) (jV L))) hO) $$ Hlv
  ihave Hx' := (Entails.of_eq (pts_x (F := F) d L q _).symm) $$ Hx
  ihave Hxs := (toks2 (F := F) d L q xT).1 $$ Hx'
  icases Hxs with ⟨HxR, Hx0, Hx1⟩
  ihave Ht' := (Entails.of_eq (pts_t (F := F) d L q _).symm) $$ Ht
  ihave HsT' := (Entails.of_eq (pts_sT (F := F) d L _).symm) $$ HsT
  ihave HsA' := (Entails.of_eq (pts_sA (F := F) d L _).symm) $$ HsA
  ihave HsC' := (Entails.of_eq (pts_sC (F := F) d L _).symm) $$ HsC
  ihave HbA' := (Entails.of_eq (pts_bA (F := F) d L _).symm) $$ HbA
  ihave HbB' := (Entails.of_eq (pts_bB (F := F) d L _).symm) $$ HbB
  ihave Hs' := (Entails.of_eq (pts_sPRowK (F := F) d L _).symm) $$ Hs
  ihave Hc' := (Entails.of_eq (pts_cPRowK (F := F) d L _).symm) $$ Hc
  -- the targets fetched; the two running rows cleared
  sl_exec
  sl_for (inv1 d L fA fC) $$ [HsA' HsC']
  case region => intro k acc; exact trip1 d L fA fC k acc
  · unfold inv1
    rw [midF_zero, midF_zero]
    isplitl [HsA']; · iexact HsA'
    iexact HsC'
  iintro %_ HI
  unfold inv1
  icases HI with ⟨HsA, HsC⟩
  -- the first chunk started; the sixteen pairs
  sl_exec
  have h0 : 0 < k0_t2_loop.trips := lt_of_lt_of_eq (by omega : 0 < 16) trips2.symm
  have hoff2 : k0_off2 L = ![1024 * (wid L).val + 64 * 0, 0] := (off2_eq L).trans (by congr 1 <;> omega)
  have hoffEq0 : k0_off2 L = k0_off4 L ⟨0, h0⟩ := hoff2.trans (off4_eq L ⟨0, h0⟩).symm
  sl_for (inv2 d L q xT tg O W) $$ [HsT' HsA HsC HbB' HsemB Hx1 HsemA Hx0 HO]
  case region => intro p acc; exact trip2 d L q xT tg O W p acc
  · unfold inv2
    rw [dif_pos h0]
    isplitr; · iexact Hmw
    isplitl [HsT']
    · iclear Hmw Hlv
      istop
      refine Entails.of_eq (congrArg _ ?_)
      exact View.write_whole_univ cc0_scratch0 fT _
    isplitl [HsA]
    · iclear Hmw Hlv
      istop
      refine Entails.of_eq (congrArg _ ?_)
      exact midF_trips1 _ _
    isplitl [HsC]
    · iclear Hmw Hlv
      istop
      refine Entails.of_eq (congrArg _ ?_)
      exact midF_trips1 _ _
    isplitl [HbB']; · iexists _; iexact HbB'
    isplitl [HsemB]; · iexact HsemB
    isplitl [Hx1]; · iexact Hx1
    isplitl [HsemA Hx0]
    · iclear Hmw Hlv
      istop
      exact flightA_next d L q xT (64 * 0) (by omega) (inb := k0_off2_inb L) (inb' := k0_off4_inb L ⟨0, h0⟩) hoff2 hoffEq0 _
    iexists _; isplitr
    rotate_left
    · iexact HO
    · ipureintro
      intro pw hpw
      rcases Finset.mem_insert.mp hpw with hpw | hpw
      · exact .inr (hpw ▸ rfl)
      exact .inl hpw
  iintro %_ HI
  unfold inv2
  rw [dif_neg (lt_irrefl _)]
  icases HI with ⟨-, HsT, HsA, HsC, ⟨%fB', HbB⟩, HsemB, Hx1, ⟨⟨%fA', HbA⟩, HsemA, Hx0⟩, %W', %hW', HO⟩
  -- the two running rows written out
  sl_exec
  sl_step
  -- the post: the input and the targets back, the two rows at the stripe's sums and selections, the scratch and the semaphores
  isplitl [HxR Hx0 Hx1 Ht' Hs' Hc']
  · isplitl [HxR Hx0 Hx1]
    · iapply (Entails.of_eq (pts_x (F := F) d L q xT))
      iapply (toks2 (F := F) d L q xT).2
      isplitl [HxR]; · iexact HxR
      isplitl [Hx0]; · iexact Hx0
      iexact Hx1
    isplitl [Ht']
    · iapply (Entails.of_eq (pts_t (F := F) d L q tg))
      iexact Ht'
    isplitl [Hs']
    · iexists _; isplitr
      rotate_left
      · iapply (Entails.of_eq (pts_sPRowK (F := F) d L _))
        iexact Hs'
      · ipureintro
        intro b
        refine (sPRow_writes d L s0 _ b).trans ?_
        show scSumN xT (wid L) b (64 * k0_t2_loop.trips) = scSumN xT (wid L) b 1024
        rw [trips2]
    · iexists _; isplitr
      rotate_left
      · iapply (Entails.of_eq (pts_cPRowK (F := F) d L _))
        iexact Hc'
      · ipureintro
        intro b
        refine (cPRow_writes d L c0 _ b).trans ?_
        show scSelN xT tg (wid L) b (64 * k0_t2_loop.trips) = scSelN xT tg (wid L) b 1024
        rw [trips2]
  isplitl [HsT HsA HsC HbA HbB Hbufs]
  · isplitl [HsT]
    · iexists _; iapply (Entails.of_eq (pts_sT (F := F) d L _)); iexact HsT
    isplitl [HsA]
    · iexists _; iapply (Entails.of_eq (pts_sA (F := F) d L _)); iexact HsA
    isplitl [HsC]
    · iexists _; iapply (Entails.of_eq (pts_sC (F := F) d L _)); iexact HsC
    isplitl [HbA]
    · iexists _; iapply (Entails.of_eq (pts_bA (F := F) d L _)); iexact HbA
    isplitl [HbB]
    · iexists _; iapply (Entails.of_eq (pts_bB (F := F) d L _)); iexact HbB
    iexact Hbufs
  isplitl [HsemA HsemB Hsem0 Hsem1 Hsem2 Hsems]
  · isplitl [HsemA]; · iexact HsemA
    isplitl [HsemB]; · iexact HsemB
    isplitl [Hsem0]; · iexact Hsem0
    isplitl [Hsem1]; · iexact Hsem1
    isplitl [Hsem2]; · iexact Hsem2
    iexact Hsems
  iexists _; isplitr
  rotate_left
  · iexact HO
  · ipureintro
    intro pw hpw
    rcases Finset.mem_insert.mp hpw with hpw | hpw
    · exact .inr (hpw ▸ rfl)
    rcases Finset.mem_insert.mp hpw with hpw | hpw
    · exact .inr (hpw ▸ rfl)
    exact hW' pw hpw

end Tile

/-- The task on vector subcore `(L 0, L 1)` of device `d`, in the launch theorem's argument order. -/
theorem tile_body [FloatOps F] (hF : (K (F := F)).Facts) (d : Dev nD) (L : grid0.Coords) (q : PosShare TreeShare)
    (xT : Buf (Elt F) (xTLoc d)) (tg : Buf (Elt F) (tgLoc d)) (s0 : Buf (Elt F) (sPLoc d)) (c0 : Buf (Elt F) (cPLoc d))
    (O : CellTallies nD τ sig (HIx 1)) (W : Waits sig (HIx 1)) (hO : ∀ g, O g none = 0) :
    (iprop(levAts (K (F := F)).L (K (F := F)).lev ∗ emp
        ∗ ((xTLoc d ↦{q} xT) ∗ (tgLoc d ↦{q} tg) ∗ (sPLoc d ↦[rowSet (wid L)]{fullShare} s0) ∗ cPLoc d ↦[rowSet (wid L)]{fullShare} c0)
        ∗ scopedBufs (V d (cV L) (jV L)) ∗ scopedSems0 (V d (cV L) (jV L)) ∗ owes (V d (cV L) (jV L)) O W) : sProp (MM F))
      ⊢ wp frame (wpE (defs₀ (F := F)) 𝒱₀ (V d (cV L) (jV L)) none) Set.univ
          (cc0_sc_kernel L (Memref.whole main_v0_scv) (Memref.isWhole_whole _) (Memref.whole main_arg1_scv) (Memref.isWhole_whole _) (Memref.whole main_v1_0_scv) (Memref.isWhole_whole _) (Memref.whole main_v1_1_scv) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
            cc0_scratch5 cc0_scratch6 cc0_scoped0 cc0_scoped1 cc0_scoped2)
          fun _ => iprop(((xTLoc d ↦{q} xT) ∗ (tgLoc d ↦{q} tg)
              ∗ (∃ f, ⌜∀ b : Fin 1024, f (ix2 (wid L) b) = scSum xT (wid L) b⌝ ∗ sPLoc d ↦[rowSet (wid L)]{fullShare} f)
              ∗ (∃ f, ⌜∀ b : Fin 1024, f (ix2 (wid L) b) = scSel xT tg (wid L) b⌝ ∗ cPLoc d ↦[rowSet (wid L)]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') :=
  tile_body_at d L hF q xT tg s0 c0 O W hO

end Cert.Proof.KI

end
-- ==== Proof.ScLaunch.lean ====
/-
  The launch of the margin-softmax program: one vector-subcore call on two SparseCores of sixteen subcores each, then one
  TensorCore call, between host operations.

  Subcore `s` of SparseCore `c` owns stripe `w = 2 s + c` of the thirty-two stripes of a thousand and twenty-four classes
  the call covers. Its task reads the transposed input and the targets, each through one of thirty-two read shares cut
  from the whole, and writes row `w` of the two partial arrays: the stripe's sums of exponentials, and the target's cosine
  where the stripe holds the target. The TensorCore cuts the shares before the call and keeps what is left over; it holds
  both arrays whole again after it, the partial arrays at the closed terms `sPof`, `cPof` of the transposed input.

  The TensorCore call takes the four arrays whole and leaves the mean loss `tcOut`, a term of them and of what the last,
  clipped block of classes reads past the array's end. The run's post names the result as that term of the launch
  contents, the input and the targets unchanged.
-/
import proofs.«202903_g36928128811344_cont_8to1_b_1739_32_alg».proof.Proof.KICommon
import proofs.«202903_g36928128811344_cont_8to1_b_1739_32_alg».proof.Proof.KerVal
import proofs.«202903_g36928128811344_cont_8to1_b_1739_32_alg».proof.Proof.TcRegion
import proofs.«202903_g36928128811344_cont_8to1_b_1739_32_alg».proof.Proof.ScBody
import Idealize.ShloMosaic.Lib.Transfers
import Idealize.ShloMosaic.Lib.Pipeline.Regions
import Idealize.ShloMosaic.Lib.ValueIdx

noncomputable section

namespace Cert.Proof.KI

open Cert.KernelIdeal Cert.KernelIdeal.Gen
open Cert.Proof.ScVal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)
open Idealize.ShloMosaic.Tactic

variable {F : FTy → Type} [FloatOps F]

/-! ## Stripes: the thirty-two rows, and the pairs (SparseCore, subcore) that own them -/

omit [FloatOps F] in
theorem wid_coordsV (c : Fin (grid0.bound 0)) (s : Fin (grid0.bound 1)) : (wid (coordsV c s)).val = s.val * 2 + c.val := rfl

omit [FloatOps F] in
theorem wid_injective : Function.Injective fun p : Fin (grid0.bound 0) × Fin (grid0.bound 1) => wid (coordsV p.1 p.2) := by
  rintro ⟨c, s⟩ ⟨c', s'⟩ h
  have h' : (wid (coordsV c s)).val = (wid (coordsV c' s')).val := congrArg Fin.val h
  rw [wid_coordsV, wid_coordsV] at h'
  have hc : c.val < 2 := c.isLt
  have hc' : c'.val < 2 := c'.isLt
  exact Prod.ext (Fin.ext (show c.val = c'.val by omega)) (Fin.ext (show s.val = s'.val by omega))

omit [FloatOps F] in
theorem wid_surjective : Function.Surjective fun p : Fin (grid0.bound 0) × Fin (grid0.bound 1) => wid (coordsV p.1 p.2) := by
  intro w
  have hw : w.val < 32 := w.isLt
  refine ⟨(⟨w.val % 2, Nat.mod_lt _ (by decide)⟩, ⟨w.val / 2, by show w.val / 2 < 16; omega⟩), Fin.ext ?_⟩
  show w.val / 2 * 2 + w.val % 2 = w.val
  omega

/-- Stripe `2 s + c` for the pair `(c, s)`: every stripe once. -/
def widEquiv : Fin (grid0.bound 0) × Fin (grid0.bound 1) ≃ Fin 32 := Equiv.ofBijective _ ⟨wid_injective, wid_surjective⟩

omit [FloatOps F] in
/-- A conjunction over the stripes is one over the SparseCores and, within each, over its subcores. -/
theorem bigSep_wid (Φ : Fin 32 → sProp (MM F)) :
    bigSep Finset.univ Φ = bigSep Finset.univ fun c : Fin (grid0.bound 0) => bigSep Finset.univ fun s : Fin (grid0.bound 1) => Φ (wid (coordsV c s)) := by
  rw [← Finset.map_univ_equiv widEquiv, bigSep_map, bigSep_univ_prod]
  rfl

omit [FloatOps F] in
theorem rowSet_eq (w : Fin 32) : rowSet w = (sRow w).set := by
  show ((View.whole (main_v1_0_scv : Ref sig .scVector)).slice (sRow w)).set = _
  rw [View.set_slice]; exact Finset.map_refl
omit [FloatOps F] in
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv32 h
omit [FloatOps F] in
theorem rows_cover : (Finset.univ : Finset (Fin 32)).biUnion rowSet = Finset.univ :=
  (Finset.biUnion_congr rfl fun i _ => rowSet_eq i).trans (Rect.biUnion_part hdiv32)

omit [FloatOps F] in
/-- An index lies in row `w` exactly when its first coordinate is `w`. -/
theorem mem_rowSet {w : Fin 32} {j : S32x1024.Idx} : j ∈ rowSet w ↔ (j 0).val = w.val := by
  rw [rowSet_eq, Rect.mem_set_unit]
  constructor
  · intro h
    have h0 := h 0
    simp only [Shape.partIx, Shape.partSize, ↓reduceIte] at h0
    have : S32x1024.size 0 / 32 = 1 := by decide
    rw [this] at h0
    omega
  · intro h a
    match a with
    | ⟨0, _⟩ =>
      simp only [Shape.partIx, Shape.partSize]
      have : S32x1024.size 0 / 32 = 1 := by decide
      show w.val * (S32x1024.size 0 / 32) ≤ (j 0).val ∧ (j 0).val < w.val * (S32x1024.size 0 / 32) + S32x1024.size 0 / 32
      rw [this]; omega
    | ⟨1, _⟩ =>
      simp only [Shape.partIx, Shape.partSize]
      exact ⟨by simp, by simpa using (j 1).isLt⟩

section Rows

variable (d : Dev nD)

omit [FloatOps F] in
/-- An array of thirty-two rows, whole, is its rows. -/
theorem sP_rows (f : Buf (Elt F) (sPLoc d)) :
    (sPLoc d ↦{fullShare} f : sProp (MM F)) = bigSep Finset.univ fun w : Fin 32 => sPLoc d ↦[rowSet w]{fullShare} f := by
  rw [← pointsTo_biUnion Finset.univ (ℓ := sPLoc d) rowSet rows_disjoint, rows_cover]; try rfl
omit [FloatOps F] in
theorem cP_rows (f : Buf (Elt F) (cPLoc d)) :
    (cPLoc d ↦{fullShare} f : sProp (MM F)) = bigSep Finset.univ fun w : Fin 32 => cPLoc d ↦[rowSet w]{fullShare} f := by
  rw [← pointsTo_biUnion Finset.univ (ℓ := cPLoc d) rowSet rows_disjoint, rows_cover]; try rfl

/-- A row at contents that read the stripe's sums at the row's own indices is the row at `sPof`. -/
theorem sP_row (xT : Vec F S100000x1024 .f32) (w : Fin 32) :
    iprop(∃ f : Buf (Elt F) (sPLoc d), ⌜∀ b : Fin 1024, f (ix2 w b) = scSum xT w b⌝ ∗ sPLoc d ↦[rowSet w]{fullShare} f)
      ⊢ (sPLoc d ↦[rowSet w]{fullShare} sPof xT : sProp (MM F)) := by
  iintro ⟨%f, %hf, H⟩
  have hcg : (sPLoc d ↦[rowSet w]{fullShare} f : sProp (MM F)) = sPLoc d ↦[rowSet w]{fullShare} sPof xT :=
    pointsTo_congr fun j hj => by
      have hw : j 0 = w := Fin.ext (mem_rowSet.mp hj)
      subst hw
      exact (congrArg f (eq_ix2 j)).trans (hf (j 1))
  rw [← hcg]
  iexact H
/-- The rows, each so, are the whole array at `sPof`. -/
theorem sP_join (xT : Vec F S100000x1024 .f32) :
    (bigSep Finset.univ fun w : Fin 32 => iprop(∃ f : Buf (Elt F) (sPLoc d), ⌜∀ b : Fin 1024, f (ix2 w b) = scSum xT w b⌝ ∗ sPLoc d ↦[rowSet w]{fullShare} f))
      ⊢ (sPLoc d ↦{fullShare} sPof xT : sProp (MM F)) := by
  rw [sP_rows]
  exact bigSep_mono fun w _ => sP_row d xT w
/-- The same for the selected cosines, at `cPof`. -/
theorem cP_row (xT : Vec F S100000x1024 .f32) (t : Vec F S1024 .i32) (w : Fin 32) :
    iprop(∃ f : Buf (Elt F) (cPLoc d), ⌜∀ b : Fin 1024, f (ix2 w b) = scSel xT t w b⌝ ∗ cPLoc d ↦[rowSet w]{fullShare} f)
      ⊢ (cPLoc d ↦[rowSet w]{fullShare} cPof xT t : sProp (MM F)) := by
  iintro ⟨%f, %hf, H⟩
  have hcg : (cPLoc d ↦[rowSet w]{fullShare} f : sProp (MM F)) = cPLoc d ↦[rowSet w]{fullShare} cPof xT t :=
    pointsTo_congr fun j hj => by
      have hw : j 0 = w := Fin.ext (mem_rowSet.mp hj)
      subst hw
      exact (congrArg f (eq_ix2 j)).trans (hf (j 1))
  rw [← hcg]
  iexact H
theorem cP_join (xT : Vec F S100000x1024 .f32) (t : Vec F S1024 .i32) :
    (bigSep Finset.univ fun w : Fin 32 => iprop(∃ f : Buf (Elt F) (cPLoc d), ⌜∀ b : Fin 1024, f (ix2 w b) = scSel xT t w b⌝ ∗ cPLoc d ↦[rowSet w]{fullShare} f))
      ⊢ (cPLoc d ↦{fullShare} cPof xT t : sProp (MM F)) := by
  rw [cP_rows]
  exact bigSep_mono fun w _ => cP_row d xT t w

end Rows

/-! ## What the handshakes carry -/

variable (m : (ℓ : Loc nD τ sig) → Buf (Elt F) ℓ) (ρ : Dev nD → PrngReg)

/-- Stripe `w`'s read share of an array read whole by every task. -/
abbrev tok (w : Fin 32) : PosShare TreeShare := shareTok fullShare 32 w
/-- What the TensorCore keeps of such an array during the call. -/
abbrev kept : PosShare TreeShare := shareDrop fullShare 32

/-- What the task of stripe `w` is handed: a read share of the transposed input and of the targets, and row `w` of the
    two partial arrays, as the launch left them. -/
def goRes (d : Dev nD) (w : Fin 32) : sProp (MM F) :=
  iprop((xTLoc d ↦{tok w} xTof (m (inLoc d))) ∗ (tgLoc d ↦{tok w} m (tgLoc d))
    ∗ (sPLoc d ↦[rowSet w]{fullShare} m (sPLoc d)) ∗ cPLoc d ↦[rowSet w]{fullShare} m (cPLoc d))

/-- What it hands back: the shares, and the two rows at the stripe's sums and selected cosines. -/
def tdRes (d : Dev nD) (w : Fin 32) : sProp (MM F) :=
  iprop((xTLoc d ↦{tok w} xTof (m (inLoc d))) ∗ (tgLoc d ↦{tok w} m (tgLoc d))
    ∗ (∃ f, ⌜∀ b : Fin 1024, f (ix2 w b) = scSum (xTof (m (inLoc d))) w b⌝ ∗ sPLoc d ↦[rowSet w]{fullShare} f)
    ∗ (∃ f, ⌜∀ b : Fin 1024, f (ix2 w b) = scSel (xTof (m (inLoc d))) (m (tgLoc d)) w b⌝ ∗ cPLoc d ↦[rowSet w]{fullShare} f))

instance goRes_storable (d : Dev nD) (w : Fin 32) : BI.Storable (upEmb : UEmb _ (MM F)) (goRes m d w) := by
  unfold goRes; infer_instance
instance tdRes_storable (d : Dev nD) (w : Fin 32) : BI.Storable (upEmb : UEmb _ (MM F)) (tdRes m d w) := by
  unfold tdRes; infer_instance

/-- The one call: a SparseCore is handed its sixteen tasks' resources and hands back their results; a task its own. -/
def P : (K (F := F)).Pay (nD := nD) (Val := Elt F) (Name := ℕ) (U := UU) where
  st := fun q d c => match q with | 0 => bigSep Finset.univ fun i : Fin ((K (F := F)).nSub 0) => goRes m d (wid (coordsV c i))
  dn := fun q d c => match q with | 0 => bigSep Finset.univ fun i : Fin ((K (F := F)).nSub 0) => tdRes m d (wid (coordsV c i))
  go := fun q d c i => match q with | 0 => goRes m d (wid (coordsV c i))
  td := fun q d c i => match q with | 0 => tdRes m d (wid (coordsV c i))
  x := fun _ _ => iprop(emp)

theorem P_st (d : Dev nD) (c : Fin ((K (F := F)).nCore 0)) :
    (P m).st 0 d c = bigSep Finset.univ fun i : Fin ((K (F := F)).nSub 0) => goRes m d (wid (coordsV c i)) := rfl
theorem P_dn (d : Dev nD) (c : Fin ((K (F := F)).nCore 0)) :
    (P m).dn 0 d c = bigSep Finset.univ fun i : Fin ((K (F := F)).nSub 0) => tdRes m d (wid (coordsV c i)) := rfl
theorem P_go (d : Dev nD) (c : Fin ((K (F := F)).nCore 0)) (i : Fin ((K (F := F)).nSub 0)) :
    (P m).go 0 d c i = goRes m d (wid (coordsV c i)) := rfl
theorem P_td (d : Dev nD) (c : Fin ((K (F := F)).nCore 0)) (i : Fin ((K (F := F)).nSub 0)) :
    (P m).td 0 d c i = tdRes m d (wid (coordsV c i)) := rfl

instance P_storable : (P (F := F) m).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

/-! ## The launch theorem's obligations -/

theorem defs₀_vector (c : Fin τ.nSC) (s : Fin τ.nSub) :
    defs₀ (F := F) (.scVector c s) 0 ()
      = SparseCore.onTile hcore0 hsub0 (fun c s => cc0_sc_kernel (coordsV c s)
          (Memref.whole main_v0_scv) (Memref.isWhole_whole _) (Memref.whole main_arg1_scv) (Memref.isWhole_whole _)
          (Memref.whole main_v1_0_scv) (Memref.isWhole_whole _) (Memref.whole main_v1_1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) cc0_scratch5 cc0_scratch6 cc0_scoped0 cc0_scoped1 cc0_scoped2) ⟨⟩ c s := rfl

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of subcore `i` of SparseCore `c`: the body at the place `(c, i)`. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_go, P_td]
  unfold goRes tdRes
  exact (tile_body facts d (coordsV ⟨_, hc.1⟩ ⟨_, hc.2⟩) _ _ _ _ _ O W hO).trans (wp_mono frame _ _ fun _ => obl_post)

/-- A SparseCore's operands are its tasks'; its results theirs. -/
theorem vecSplit : (K (F := F)).VecSplit' (P m) 0 := by
  intro d c
  rw [P_st, P_dn]
  simp only [P_go, P_td]
  iintro H; imodintro
  isplitl [H]; · iexact H
  iintro H; iexact H

/-! ## The launch element -/

/-- The TensorCore call's pipeline. -/
abbrev pcs : Fin 1 → Pipeline.Cfg sig Λ₀ := Pipeline.pin (pcfgs (F := F)) adm

/-- What @main's proof starts from, beside what the launch deals: the TensorCore call's staging cells' rounds and its
    transfers' duty tokens. -/
def G (d : Dev nD) : sProp (MM F) :=
  iprop(Pipeline.cellsGhost (pcs (F := F)) EP 0 d ∗ Pipeline.toksInit (pcs (F := F)) EP 0 d)

/-- The launch element: the handshakes' rounds; the staging cells' rounds; no counter. -/
def u₀ : UU :=
  (initOf (K (F := F)).hsCells (K (F := F)).hsToks,
    (initOf (Pipeline.cells (pcs (F := F)) Gen.cellOf_inj) (Pipeline.launchToks (pcs (F := F)) Gen.cellOf_inj), 1))

omit [FloatOps F] in
theorem bigSep_emp' {I : Type} (s : Finset I) : (bigSep s fun _ => iprop(emp)) = (iprop(emp) : sProp (MM F)) := bigSep_emp_const s

theorem G_intro :
    iprop((bigSep Finset.univ fun c : Dev nD => bigSep Finset.univ fun p : Fin 1 => (Pipeline.cellsGhost (pcs (F := F)) EP p c : sProp (MM F)))
        ∗ (bigSep Finset.univ fun c : Dev nD => bigSep Finset.univ fun p : Fin 1 => (Pipeline.toksInit (pcs (F := F)) EP p c : sProp (MM F))))
      ⊢ bigSep Finset.univ fun d : Dev nD => G (F := F) d := by
  have e1 : (bigSep Finset.univ fun c : Dev nD => bigSep Finset.univ fun p : Fin 1 => (Pipeline.cellsGhost (pcs (F := F)) EP p c : sProp (MM F)))
      = bigSep Finset.univ fun c : Dev nD => Pipeline.cellsGhost (pcs (F := F)) EP 0 c :=
    bigSep_congr fun c _ => bigSep_univ_of_subsingleton (0 : Fin 1)
  have e2 : (bigSep Finset.univ fun c : Dev nD => bigSep Finset.univ fun p : Fin 1 => (Pipeline.toksInit (pcs (F := F)) EP p c : sProp (MM F)))
      = bigSep Finset.univ fun c : Dev nD => Pipeline.toksInit (pcs (F := F)) EP 0 c :=
    bigSep_congr fun c _ => bigSep_univ_of_subsingleton (0 : Fin 1)
  rw [e1, e2, ← bigSep_sep']
  exact BI.Entails.refl _

omit [FloatOps F] in
/-- The right factor's element holds the staging cells' rounds through `EP`. -/
theorem own_EP (a : UP) (b : Counters) : (BI.own ((embR : Emb (UP × Counters) (MM F)) (a, b)) : sProp (MM F)) ⊢ BI.own (EP a) :=
  (own_pair_emb embR a b).trans sep_elim_left

theorem hu₀ : (ownU (u₀ (F := F)) : sProp (MM F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HP := (own_EP (F := F) _ _) $$ HR
  imod (Pipeline.fund_ghost (pcs (F := F)) EP Gen.cellOf_inj) $$ HP with ⟨Hg, Ht⟩
  imodintro
  isplitl [HH]; · iexact HH
  isplitl [Hg Ht]
  · iapply G_intro
    isplitl [Hg] <;> iassumption
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The three host operations: the transposition, the targets made one row, the result made a scalar. -/
abbrev opT : HloOp τ sig (Elt F) :=
  StableHlo.unary main_arg0 main_v0 ((transpose S100000x1024 [1, 0] · transposes_S1024x100000_S100000x1024_1_0) : (⟨S1024x100000, .f32⟩ : BufTy).Contents (Elt F) → (⟨S100000x1024, .f32⟩ : BufTy).Contents (Elt F))
abbrev opR1 : HloOp τ sig (Elt F) := StableHlo.reshape main_arg1 main_v2 rfl shapeCasts_S1024_S1x1024
abbrev opR2 : HloOp τ sig (Elt F) := StableHlo.reshape main_v3 main_v4 rfl shapeCasts_S1x1_S_

omit [FloatOps F] in
/-- Two distinct arrays of the device, whole. -/
theorem held_pair (d : Dev nD) {x y : DevRef τ sig} (h : x ∉ ({y} : Finset (DevRef τ sig))) (W : Valuation τ sig (Elt F)) :
    (held (T d) {x, y} W : sProp (MM F)) = iprop((((d, x) : Loc nD τ sig) ↦{fullShare} W x) ∗ ((d, y) : Loc nD τ sig) ↦{fullShare} W y) := by
  unfold held
  rw [SparseCore.bigSep_insert' h, bigSep_singleton]

omit [FloatOps F] in
theorem unscopedBufs_eq (d : Dev nD) (W : (b : Ref sig .tc) → Buf (Elt F) ((d.tc : Thread nD τ).loc b)) :
    (unscopedBufs d W : sProp (MM F)) = iprop((inLoc d ↦{fullShare} W main_arg0) ∗ (tgLoc d ↦{fullShare} W main_arg1) ∗ (xTLoc d ↦{fullShare} W main_v0)
      ∗ (sPLoc d ↦{fullShare} W main_v1_0) ∗ (cPLoc d ↦{fullShare} W main_v1_1) ∗ (tg2Loc d ↦{fullShare} W main_v2)
      ∗ (outLoc d ↦{fullShare} W main_v3) ∗ resLoc d ↦{fullShare} W main_v4) := by
  unfold unscopedBufs
  rw [show (Finset.univ.filter fun b : Ref sig .tc => ¬ b.isScoped) = {main_arg0, main_arg1, main_v0, main_v1_0, main_v1_1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation of the device's arrays. -/
def V0 (d : Dev nD) : Valuation τ sig (Elt F) := fun b => m (d, b)

/-- Two arrays of the device at their launch contents. -/
theorem held_V0 (d : Dev nD) {x y : DevRef τ sig} (h : x ∉ ({y} : Finset (DevRef τ sig))) :
    (held (T d) {x, y} (V0 m d) : sProp (MM F))
      = iprop((((d, x) : Loc nD τ sig) ↦{fullShare} m (d, x)) ∗ ((d, y) : Loc nD τ sig) ↦{fullShare} m (d, y)) :=
  held_pair d h (V0 m d)

/-- After the transposition: the input as it was, its transpose beside it. -/
theorem held_T (d : Dev nD) :
    (held (T d) {a0', v0'} ((opT (F := F)).result (V0 m d)) : sProp (MM F))
      = iprop((inLoc d ↦{fullShare} m (inLoc d)) ∗ xTLoc d ↦{fullShare} xTof (m (inLoc d))) := by
  rw [held_pair d (x := a0') (y := v0') (by decide), StableHlo.unary_result_ne' _ _ _ (V0 m d) (show main_arg0 ≠ main_v0 by decide),
    StableHlo.unary_result' _ _ _ (V0 m d)]
  rfl

/-- After the first reshape: the targets as they were, and as one row. -/
theorem held_R1 (d : Dev nD) :
    (held (T d) {a1', v2'} ((opR1 (F := F)).result (V0 m d)) : sProp (MM F))
      = iprop((tgLoc d ↦{fullShare} m (tgLoc d)) ∗ tg2Loc d ↦{fullShare} tg2of (m (tgLoc d))) := by
  rw [held_pair d (x := a1') (y := v2') (by decide), StableHlo.reshape_result_ne' _ _ _ _ (V0 m d) (show main_arg1 ≠ main_v2 by decide),
    StableHlo.reshape_result' _ _ _ _ (V0 m d)]
  rfl

/-- The one-by-one array at `o` beside the scalar as launched; -/
theorem held_V3 (d : Dev nD) (o : Vec F S1x1 .f32) :
    (held (T d) {v3', v4'} (Function.update (V0 m d) v3' o) : sProp (MM F))
      = iprop((outLoc d ↦{fullShare} o) ∗ resLoc d ↦{fullShare} m (resLoc d)) := by
  rw [held_pair d (x := v3') (y := v4') (by decide), Function.update_self, Function.update_of_ne (show v4' ≠ v3' by decide)]
  rfl

/-- and after the last reshape: the scalar reads the array's one entry. -/
theorem held_R2 (d : Dev nD) (o : Vec F S1x1 .f32) :
    (held (T d) {v3', v4'} ((opR2 (F := F)).result (Function.update (V0 m d) v3' o)) : sProp (MM F))
      = iprop((outLoc d ↦{fullShare} o) ∗ resLoc d ↦{fullShare} (fun i => shapeCast S_ o shapeCasts_S1x1_S_ i)) := by
  rw [held_pair d (x := v3') (y := v4') (by decide), StableHlo.reshape_result_ne' _ _ _ _ _ (show main_v3 ≠ main_v4 by decide),
    StableHlo.reshape_result' _ _ _ _ _, Function.update_self]
  rfl

/-- The stripes' shares and rows, cut from the four arrays whole; what is left of the two read arrays stays behind. -/
theorem st_intro (d : Dev nD) :
    iprop((xTLoc d ↦{fullShare} xTof (m (inLoc d))) ∗ (tgLoc d ↦{fullShare} m (tgLoc d)) ∗ (sPLoc d ↦{fullShare} m (sPLoc d)) ∗ cPLoc d ↦{fullShare} m (cPLoc d))
      ⊢ iprop(((xTLoc d ↦{kept} xTof (m (inLoc d))) ∗ tgLoc d ↦{kept} m (tgLoc d))
          ∗ bigSep Finset.univ fun c : Fin ((K (F := F)).nCore 0) => (P m).st 0 d c) := by
  have e : (bigSep Finset.univ fun c : Fin ((K (F := F)).nCore 0) => (P m).st 0 d c) = bigSep Finset.univ fun w : Fin 32 => goRes m d w :=
    (bigSep_wid (F := F) (goRes m d)).symm
  rw [e]
  unfold goRes
  rw [bigSep_sep', bigSep_sep', bigSep_sep', sP_rows, cP_rows]
  iintro ⟨Hx, Ht, Hs, Hc⟩
  ihave Hx' := (pointsTo_toks_split fullShare 32) $$ Hx
  icases Hx' with ⟨Hxk, Hxt⟩
  ihave Ht' := (pointsTo_toks_split fullShare 32) $$ Ht
  icases Ht' with ⟨Htk, Htt⟩
  isplitl [Hxk Htk]
  · isplitl [Hxk] <;> iassumption
  isplitl [Hxt]; · iexact Hxt
  isplitl [Htt]; · iexact Htt
  isplitl [Hs] <;> iassumption

/-- The four arrays whole again from what the call hands back and what stayed behind, the partial arrays at their terms. -/
theorem dn_elim (d : Dev nD) :
    iprop(((xTLoc d ↦{kept} xTof (m (inLoc d))) ∗ tgLoc d ↦{kept} m (tgLoc d))
        ∗ bigSep Finset.univ fun c : Fin ((K (F := F)).nCore 0) => (P m).dn 0 d c)
      ⊢ iprop((xTLoc d ↦{fullShare} xTof (m (inLoc d))) ∗ (tgLoc d ↦{fullShare} m (tgLoc d))
          ∗ (sPLoc d ↦{fullShare} sPof (xTof (m (inLoc d)))) ∗ cPLoc d ↦{fullShare} cPof (xTof (m (inLoc d))) (m (tgLoc d))) := by
  have e : (bigSep Finset.univ fun c : Fin ((K (F := F)).nCore 0) => (P m).dn 0 d c) = bigSep Finset.univ fun w : Fin 32 => tdRes m d w :=
    (bigSep_wid (F := F) (tdRes m d)).symm
  rw [e]
  unfold tdRes
  rw [bigSep_sep', bigSep_sep', bigSep_sep']
  iintro ⟨⟨Hxk, Htk⟩, Hxt, Htt, Hs, Hc⟩
  isplitl [Hxk Hxt]
  · iapply (pointsTo_toks_join fullShare 32); isplitl [Hxk] <;> iassumption
  isplitl [Htk Htt]
  · iapply (pointsTo_toks_join fullShare 32); isplitl [Htk] <;> iassumption
  isplitl [Hs]
  · iapply (sP_join d (xTof (m (inLoc d)))); iexact Hs
  · iapply (cP_join d (xTof (m (inLoc d))) (m (tgLoc d))); iexact Hc

/-- What @main leaves the claim: the input and the targets as launched, the result at the mean loss. -/
def FIN (d : Dev nD) : sProp (MM F) :=
  iprop((inLoc d ↦{fullShare} m (inLoc d)) ∗ (tgLoc d ↦{fullShare} m (tgLoc d))
    ∗ ∃ dd : ℕ → Vec F S2048x1024 .f32, resLoc d ↦{fullShare} kerRes (m (inLoc d)) (m (tgLoc d)) dd)

set_option backward.isDefEq.respectTransparency.types false in
/-- The TensorCore call inside @main: entered from the TensorCore's state after the SparseCore call, which it opens for
    what the TensorCore owes and closes again over the waits the call recorded. -/
theorem region_core (hrun : TcBodyRun F) (κ : GSem nD τ sig → ℕ) (d : Dev nD)
    (xT : Vec F S100000x1024 .f32) (tg2 : Vec F S1x1024 .i32) (sP cP : Vec F S32x1024 .f32) (Φ : PUnit → sProp (MM F)) :
    iprop((K (F := F)).ctx EH (P m) κ ∗ (K (F := F)).tcSt EH d 1 ∗ boundary (T d) ∗ G (F := F) d
        ∗ (xTLoc d ↦{fullShare} xT) ∗ (tg2Loc d ↦{fullShare} tg2) ∗ (sPLoc d ↦{fullShare} sP) ∗ (cPLoc d ↦{fullShare} cP)
        ∗ (∃ o : Vec F S1x1 .f32, outLoc d ↦{fullShare} o)
        ∗ (iprop((K (F := F)).tcSt EH d 1 ∗ boundary (T d)
              ∗ (xTLoc d ↦{fullShare} xT) ∗ (tg2Loc d ↦{fullShare} tg2) ∗ (sPLoc d ↦{fullShare} sP) ∗ (cPLoc d ↦{fullShare} cP)
              ∗ ∃ dd : ℕ → Vec F S2048x1024 .f32, outLoc d ↦{fullShare} (fun _ => tcOut xT tg2 sP cP dd)) -∗ Φ ⟨⟩))
      ⊢ wp frame (wpE (D (F := F)) 𝒱 (SparseCore.T d) none) Set.univ
          ((.op (.customCall (Pipeline.entry 0) ()) .ret : Prog (TpuEff nD τ sig (Elt F) (ΛP (F := F)) .tc) PUnit)) Φ := by
  unfold SparseCore.Cfg.tcSt G
  rw [(K (F := F)).Otc_end d (show 1 ≤ 1 from le_rfl)]
  iintro ⟨#Hctx, ⟨⟨%W, %hW, HO⟩, Hrest⟩, Hb, ⟨Hcg, Hti⟩, HxT, Htg, HsP, HcP, Hout, Hk⟩
  ihave Hlev := ((K (F := F)).ctx_levAts κ) $$ Hctx
  iapply (tc_region (xT := xT) (tg2 := tg2) (sP := sP) (cP := cP) (O := 0) (W := W) hrun EP (K (F := F)).lev (by sl_refines_lev) d (fun _ => rfl) .ret Φ)
  isplitl [Hb]; · iexact Hb
  isplitl [Hlev]; · iexact Hlev
  isplitl [Hcg]; · iexact Hcg
  isplitl [Hti]; · iexact Hti
  isplitl [HxT]; · iexact HxT
  isplitl [Htg]; · iexact Htg
  isplitl [HsP]; · iexact HsP
  isplitl [HcP]; · iexact HcP
  isplitl [Hout]; · iexact Hout
  isplitl [HO]; · iexact HO
  unfold tcPost
  iintro ⟨Hb, HxT, Htg, HsP, HcP, Hout, %W', %hW', HO⟩
  rw [wp_ret]; imodintro
  iapply Hk
  isplitl [HO Hrest]
  · isplitl [HO]
    · iexists W'; isplitr
      · ipureintro
        intro p hp
        rcases hW' p hp with h | h
        · exact hW p h
        · show (K (F := F)).lev _ p.2 ≤ _
          rw [h]; exact Nat.zero_le _
      · iexact HO
    · iexact Hrest
  isplitl [Hb]; · iexact Hb
  isplitl [HxT]; · iexact HxT
  isplitl [Htg]; · iexact Htg
  isplitl [HsP]; · iexact HsP
  isplitl [HcP]; · iexact HcP
  iexact Hout

set_option backward.isDefEq.respectTransparency.types false in
/-- The same under the launch's body table: the call's label is the certificate's, lifted. -/
theorem region_step (hrun : TcBodyRun F) (κ : GSem nD τ sig → ℕ) (d : Dev nD)
    (xT : Vec F S100000x1024 .f32) (tg2 : Vec F S1x1024 .i32) (sP cP : Vec F S32x1024 .f32) (Φ : PUnit → sProp (MM F)) :
    iprop((K (F := F)).ctx EH (P m) κ ∗ (K (F := F)).tcSt EH d 1 ∗ boundary (T d) ∗ G (F := F) d
        ∗ (xTLoc d ↦{fullShare} xT) ∗ (tg2Loc d ↦{fullShare} tg2) ∗ (sPLoc d ↦{fullShare} sP) ∗ (cPLoc d ↦{fullShare} cP)
        ∗ (∃ o : Vec F S1x1 .f32, outLoc d ↦{fullShare} o)
        ∗ (iprop((K (F := F)).tcSt EH d 1 ∗ boundary (T d)
              ∗ (xTLoc d ↦{fullShare} xT) ∗ (tg2Loc d ↦{fullShare} tg2) ∗ (sPLoc d ↦{fullShare} sP) ∗ (cPLoc d ↦{fullShare} cP)
              ∗ ∃ dd : ℕ → Vec F S2048x1024 .f32, outLoc d ↦{fullShare} (fun _ => tcOut xT tg2 sP cP dd)) -∗ Φ ⟨⟩))
      ⊢ wp frame (wpE ((K (F := F)).defs (D (F := F))) 𝒱 (SparseCore.T d) none) Set.univ
          (Prog.lift (.customCall (SparseCore.inner (Pipeline.entry 0)) ())) Φ := by
  change _ ⊢ wp _ _ _ (SparseCore.liftProg ((.op (.customCall (Pipeline.entry 0) ()) .ret : Prog (TpuEff nD τ sig (Elt F) (ΛP (F := F)) .tc) PUnit))) _
  exact (region_core m hrun κ d xT tg2 sP cP Φ).trans ((K (F := F)).wp_liftProg (D (F := F)) 𝒱 (SparseCore.T d) Set.univ none _ Φ)

set_option backward.isDefEq.respectTransparency.types false in
/-- @main on device `d`'s TensorCore: the transposition; the call, the stripes' shares and rows out and back; the targets
    made one row; the TensorCore call; the result made a scalar. -/
theorem hmain (hrun : TcBodyRun F) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Hv0, Hs, Hc, Hv2, Hv3, Hv4⟩, -, -⟩, HG⟩
  -- the transposition, over the input and its transpose
  iapply (wp_hlo_within 𝒱 (SparseCore.T d) none Set.univ (op := opT) (S := {a0', v0'}) (Finset.Subset.refl _) (V := V0 m d)) $$ [Hb Ha0 Hv0]
  · isplitl [Hb]; · iexact Hb
    rw [held_V0 m d (x := a0') (y := v0') (by decide)]
    isplitl [Ha0]; · iexact Ha0
    iexact Hv0
  iintro ⟨Hb, Hheld⟩
  ihave Hh := (Entails.of_eq (held_T m d)) $$ Hheld
  icases Hh with ⟨Ha0, Hv0⟩
  rw [wp_ret]; imodintro
  -- the call: the stripes' shares and rows to the two SparseCores and back
  ihave Hsplit := (st_intro m d) $$ [Hv0 Ha1 Hs Hc]
  · isplitl [Hv0]; · iexact Hv0
    isplitl [Ha1]; · iexact Ha1
    isplitl [Hs] <;> iassumption
  icases Hsplit with ⟨Hkept, Hstc⟩
  iapply ((K (F := F)).wp_run (D (F := F)) 𝒱 (EH := EH) (P := P m) κ d 0) $$ [Hst Hstc Hkept Hb Ha0 Hv2 Hv3 Hv4 HG]
  isplitr; · iexact Hctx
  isplitl [Hst]; · iexact Hst
  isplitl [Hstc]; · iexact Hstc
  iintro ⟨Hst, Hdn⟩
  ihave Hjoin := (dn_elim m d) $$ [Hkept Hdn]
  · isplitl [Hkept] <;> iassumption
  icases Hjoin with ⟨Hv0, Ha1, Hs, Hc⟩
  -- the targets as one row
  iapply (wp_hlo_within 𝒱 (SparseCore.T d) none Set.univ (op := opR1) (S := {a1', v2'}) (Finset.Subset.refl _) (V := V0 m d)) $$ [Hb Ha1 Hv2]
  · isplitl [Hb]; · iexact Hb
    rw [held_V0 m d (x := a1') (y := v2') (by decide)]
    isplitl [Ha1]; · iexact Ha1
    iexact Hv2
  iintro ⟨Hb, Hheld⟩
  ihave Hh := (Entails.of_eq (held_R1 m d)) $$ Hheld
  icases Hh with ⟨Ha1, Hv2⟩
  rw [wp_ret]; imodintro
  -- the TensorCore call
  iapply (region_step m hrun κ d (xTof (m (inLoc d))) (tg2of (m (tgLoc d))) (sPof (xTof (m (inLoc d)))) (cPof (xTof (m (inLoc d))) (m (tgLoc d))) _) $$ [Hst Hb HG Hv0 Hv2 Hs Hc Hv3 Ha0 Ha1 Hv4]
  isplitr; · iexact Hctx
  isplitl [Hst]; · iexact Hst
  isplitl [Hb]; · iexact Hb
  isplitl [HG]; · iexact HG
  isplitl [Hv0]; · iexact Hv0
  isplitl [Hv2]; · iexact Hv2
  isplitl [Hs]; · iexact Hs
  isplitl [Hc]; · iexact Hc
  isplitl [Hv3]; · iexists _; iexact Hv3
  iintro ⟨Hst, Hb, Hv0, Hv2, Hs, Hc, %dd, Hv3⟩
  -- the result as a scalar
  iapply (wp_hlo_within 𝒱 (SparseCore.T d) none Set.univ (op := opR2) (S := {v3', v4'}) (Finset.Subset.refl _)
      (V := Function.update (V0 m d) v3' (fun _ => tcOut (xTof (m (inLoc d))) (tg2of (m (tgLoc d))) (sPof (xTof (m (inLoc d)))) (cPof (xTof (m (inLoc d))) (m (tgLoc d))) dd))) $$ [Hb Hv3 Hv4]
  · isplitl [Hb]; · iexact Hb
    rw [held_V3 m d]
    isplitl [Hv3]; · iexact Hv3
    iexact Hv4
  iintro ⟨Hb, Hheld⟩
  ihave Hh := (Entails.of_eq (held_R2 m d _)) $$ Hheld
  icases Hh with ⟨-, Hv4⟩
  rw [wp_ret]; imodintro; imodintro
  isplitl [Hst]; · iexact Hst
  unfold FIN
  isplitl [Ha0]; · iexact Ha0
  isplitl [Ha1]; · iexact Ha1
  iexists dd; iexact Hv4

/-! ## The final memory reads the claim -/

/-- The claim, read off device `d`'s final memory. -/
def fq (d : Dev nD) (s' : Phys nD τ sig (Elt F)) : Prop :=
  (∃ dd : ℕ → Vec F S2048x1024 .f32, s'.mem.mem (resLoc d) = kerRes (m (inLoc d)) (m (tgLoc d)) dd)
    ∧ s'.mem.mem (inLoc d) = m (inLoc d) ∧ s'.mem.mem (tgLoc d) = m (tgLoc d)

theorem hfin (d : Dev nD) (s' : Phys nD τ sig (Elt F)) : iprop(FIN m d ∗ SI s') ⊢ (⌜fq m d s'⌝ : sProp (MM F)) := by
  unfold FIN
  iintro ⟨⟨Hi, Ht, %dd, Hr⟩, HSI⟩
  ihave H := (persistent_entails_right (SI_pointsTo_agree (st := s') (ℓ := inLoc d) (I := Finset.univ) (q := fullShare) (f := m (inLoc d)))) $$ [HSI Hi]
  · isplitl [HSI] <;> iassumption
  icases H with ⟨%h1, HSI, -⟩
  ihave H := (persistent_entails_right (SI_pointsTo_agree (st := s') (ℓ := tgLoc d) (I := Finset.univ) (q := fullShare) (f := m (tgLoc d)))) $$ [HSI Ht]
  · isplitl [HSI] <;> iassumption
  icases H with ⟨%h2, HSI, -⟩
  ihave H := (SI_pointsTo_agree (st := s') (ℓ := resLoc d) (I := Finset.univ) (q := fullShare) (f := kerRes (m (inLoc d)) (m (tgLoc d)) dd)) $$ [HSI Hr]
  · isplitl [HSI] <;> iassumption
  icases H with %h3
  ipureintro
  exact ⟨⟨dd, funext fun i => h3 i (Finset.mem_univ i)⟩, funext fun i => h1 i (Finset.mem_univ i), funext fun i => h2 i (Finset.mem_univ i)⟩

/-! ## The program's run -/

/-- The run's post: on every device the result is the mean loss as a term of the launch contents, and the input and
    the targets are as launched. -/
def QC : PUnit × MemSt nD τ sig (Elt F) → Prop := fun r => ∀ c : Dev nD,
  (∃ dd : ℕ → Vec F S2048x1024 .f32, r.2.mem (resLoc c) = kerRes (m (inLoc c)) (m (tgLoc c)) dd)
    ∧ r.2.mem (inLoc c) = m (inLoc c) ∧ r.2.mem (tgLoc c) = m (tgLoc c)

theorem run_main [∀ e, Nonempty (Elt F e)] (hrun : TcBodyRun F) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (G (F := F)) (FIN m) (u₀ (F := F)) (sep_elim_left.trans (hu₀ m)) (hmain m ρ hrun) (fq m) (hfin m) (QC m) (fun _ h => h)

end Cert.Proof.KI

end
-- ==== Proof.TcBodyCases.lean ====
/-
  The TensorCore kernel's body, run once per control case at a symbolic grid point and on symbolic whole memrefs.

  The body zeroes the two accumulators when the point is the first, loads the targets' row and the two
  accumulators, adds over the 256 slabs of eight rows of the staged block the exponentials of the rows that lie
  inside the array (to the first accumulator) and the entries whose row is the column's target (to the second), stores
  both back, and at the last point sums everything into the mean loss, stored to the scalar window.

  Three cases by the two conditions: the first point, a middle point, the last point. In each the run itself finds
  what the two accumulators (and, at the last point, the scalar window) are left holding: terms over the contents the
  staging memrefs read when the body starts, the witnesses of a subtype.
-/
import proofs.«202903_g36928128811344_cont_8to1_b_1739_32_alg».proof.Proof.KICommon
import proofs.«202903_g36928128811344_cont_8to1_b_1739_32_alg».proof.Proof.Gen.KernelIdeal.Points
import Idealize.ShloMosaic.Lib.Pipeline.FrameBody
import Idealize.ShloMosaic.Lib.Tactic

set_option maxRecDepth 16384
set_option pp.deepTerms false
set_option pp.maxSteps 5000

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The two conditions, over the grid -/

/-- The body zeroes the accumulators: the condition of its first conditional, the scalar chain substituted. -/
abbrev condInit (i : grid1.Coords) : Prop :=
  (Scalar.cmpi .ne (Scalar.extui (Scalar.cmpi .eq (BitVec.ofNat 32 (i 0).val) 0#32)) 0#32) = 1#1
/-- The body finishes: the condition of its last conditional. -/
abbrev condFin (i : grid1.Coords) : Prop := k1_cond2 i = 1#1

/-- The accumulators are zeroed at the first point only. -/
theorem hcondInit : ∀ t : Fin grid1.N, condInit (grid1.coords t) ↔ t.val = 0 := by decide +kernel
/-- The finish runs at the last point only. -/
theorem hcondFin : ∀ t : Fin grid1.N, condFin (grid1.coords t) ↔ t.val = 32 := by decide +kernel

/-! ## Reading back a buffer the body has just stored whole -/

/-- A rank-two shape taken whole as a unit-stride rectangle from the origin places every index at itself. -/
theorem emb_origin2 {d : Fin 2 → ℕ} (h : ∀ a, (![0, 0] : Fin 2 → ℕ) a + d a ≤ d a) (y : (⟨2, d⟩ : Shape).Idx) :
    (Rect.unit (s := ⟨2, d⟩) ![0, 0] d h).emb y = y := by
  funext a; apply Fin.ext
  show (![0, 0] : Fin 2 → ℕ) a + 1 * (y a).val = (y a).val
  fin_cases a <;> simp

/-- A buffer stored whole last and read back holds the stored vector, whatever was stored before. -/
theorem read_writes_junk_whole2 {Val : EltTy → Type} [∀ e, Nonempty (Val e)] {κ : Kind} {sp : Space} {d : Fin 2 → ℕ} {e : EltTy}
    {M : Memref sig κ sp ⟨2, d⟩ e} (h : ∀ a, (![0, 0] : Fin 2 → ℕ) a + d a ≤ d a)
    (p : (Rect.unit (s := ⟨2, d⟩) ![0, 0] d h).shape.Idx → Val e) (L : List (View.Piece Val ⟨2, d⟩ e)) :
    M.view.read Val (M.view.writes Val M.view.junk (⟨Rect.unit (s := ⟨2, d⟩) ![0, 0] d h, p⟩ :: L)) = p := by
  rw [View.read_writes_junk_eq_canon]
  funext y
  have hy := View.canon_cons_emb (Rect.unit (s := ⟨2, d⟩) ![0, 0] d h) p L y
  rw [emb_origin2 h y] at hy
  exact hy

/-! ## A middle point -/

set_option maxHeartbeats 4000000 in
/-- At a point that is neither first nor last: what the run leaves in the two accumulators, with the proof that from the
    seven memrefs held whole the body runs to its return handing back the five windows' buffers as they were and the
    accumulators at the witnesses. -/
noncomputable def tcRunMid (c : Dev nD) (i : grid1.Coords)
    (M1 : Memref sig .tc .vmem S2048x1024 .f32) (h1 : M1.IsWhole) (M2 : Memref sig .tc .vmem S1x1024 .i32) (h2 : M2.IsWhole)
    (M3 : Memref sig .tc .vmem S32x1024 .f32) (h3 : M3.IsWhole) (M4 : Memref sig .tc .vmem S32x1024 .f32) (h4 : M4.IsWhole)
    (M5 : Memref sig .tc .smem S1x1 .f32) (h5 : M5.IsWhole) (M6 : Memref sig .tc .vmem S8x1024 .f32) (h6 : M6.IsWhole)
    (M7 : Memref sig .tc .vmem S8x1024 .f32) (h7 : M7.IsWhole)
    (hi : ¬ condInit i) (hf : ¬ condFin i)
    (x : Vec F S2048x1024 .f32) (tg : Vec F S1x1024 .i32) (a0 c0 : Vec F S8x1024 .f32) :
    { W : Vec F S8x1024 .f32 × Vec F S8x1024 .f32 //
      ∀ (sp cp : Vec F S32x1024 .f32) (o : Vec F S1x1 .f32) (E : Set ℕ) (Q : PUnit → sProp (MM F)),
        iprop(owns (c : Thread nD τ) M1 fullShare x
            ∗ owns (c : Thread nD τ) M2 fullShare tg
            ∗ owns (c : Thread nD τ) M3 fullShare sp
            ∗ owns (c : Thread nD τ) M4 fullShare cp
            ∗ owns (c : Thread nD τ) M5 fullShare o
            ∗ owns (c : Thread nD τ) M6 fullShare a0
            ∗ owns (c : Thread nD τ) M7 fullShare c0
            ∗ (iprop(owns (c : Thread nD τ) M1 fullShare x
                ∗ owns (c : Thread nD τ) M2 fullShare tg
                ∗ owns (c : Thread nD τ) M3 fullShare sp
                ∗ owns (c : Thread nD τ) M4 fullShare cp
                ∗ owns (c : Thread nD τ) M5 fullShare o
                ∗ owns (c : Thread nD τ) M6 fullShare W.1
                ∗ owns (c : Thread nD τ) M7 fullShare W.2) -∗ Q ⟨⟩))
          ⊢ wp frame (wpE (defs₀ (F := F)) 𝒱₀ (c : Thread nD τ) none) E (cc1__tc_body i M1 h1 M2 h2 M3 h3 M4 h4 M5 h5 M6 h6 M7 h7) Q } := by
  refine ⟨⟨?_, ?_⟩, fun sp cp o E Q => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := h1.eq_unread hf1; obtain rfl := h2.eq_unread hf2; obtain rfl := h3.eq_unread hf3
    obtain rfl := h4.eq_unread hf4; obtain rfl := h5.eq_unread hf5; obtain rfl := h6.eq_unread hf6
    obtain rfl := h7.eq_unread hf7
    sl_exec_parts! (disch := first | exact hi | exact hf)
    sl_step
    iapply Hk
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    -- the two accumulators: each conjunct hands its buffer over and reads the stored vector back, which assigns its witness
    isplitl [H6]
    all_goals try (iexists _; isplitr; swap; (· first | iexact H6 | iexact H7); ipureintro; (first | exact read_writes_junk_whole2 (Val := Elt F) _ _ _ | skip))

/-! ## The first point -/

set_option maxHeartbeats 4000000 in
/-- At the first point the accumulators are zeroed before anything is read of them: the same, whatever they held. -/
noncomputable def tcRunFirst (c : Dev nD) (i : grid1.Coords)
    (M1 : Memref sig .tc .vmem S2048x1024 .f32) (h1 : M1.IsWhole) (M2 : Memref sig .tc .vmem S1x1024 .i32) (h2 : M2.IsWhole)
    (M3 : Memref sig .tc .vmem S32x1024 .f32) (h3 : M3.IsWhole) (M4 : Memref sig .tc .vmem S32x1024 .f32) (h4 : M4.IsWhole)
    (M5 : Memref sig .tc .smem S1x1 .f32) (h5 : M5.IsWhole) (M6 : Memref sig .tc .vmem S8x1024 .f32) (h6 : M6.IsWhole)
    (M7 : Memref sig .tc .vmem S8x1024 .f32) (h7 : M7.IsWhole)
    (hi : condInit i) (hf : ¬ condFin i)
    (x : Vec F S2048x1024 .f32) (tg : Vec F S1x1024 .i32) :
    { W : Vec F S8x1024 .f32 × Vec F S8x1024 .f32 //
      ∀ (sp cp : Vec F S32x1024 .f32) (o : Vec F S1x1 .f32) (a0 c0 : Vec F S8x1024 .f32) (E : Set ℕ) (Q : PUnit → sProp (MM F)),
        iprop(owns (c : Thread nD τ) M1 fullShare x
            ∗ owns (c : Thread nD τ) M2 fullShare tg
            ∗ owns (c : Thread nD τ) M3 fullShare sp
            ∗ owns (c : Thread nD τ) M4 fullShare cp
            ∗ owns (c : Thread nD τ) M5 fullShare o
            ∗ owns (c : Thread nD τ) M6 fullShare a0
            ∗ owns (c : Thread nD τ) M7 fullShare c0
            ∗ (iprop(owns (c : Thread nD τ) M1 fullShare x
                ∗ owns (c : Thread nD τ) M2 fullShare tg
                ∗ owns (c : Thread nD τ) M3 fullShare sp
                ∗ owns (c : Thread nD τ) M4 fullShare cp
                ∗ owns (c : Thread nD τ) M5 fullShare o
                ∗ owns (c : Thread nD τ) M6 fullShare W.1
                ∗ owns (c : Thread nD τ) M7 fullShare W.2) -∗ Q ⟨⟩))
          ⊢ wp frame (wpE (defs₀ (F := F)) 𝒱₀ (c : Thread nD τ) none) E (cc1__tc_body i M1 h1 M2 h2 M3 h3 M4 h4 M5 h5 M6 h6 M7 h7) Q } := by
  refine ⟨⟨?_, ?_⟩, fun sp cp o a0 c0 E Q => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := h1.eq_unread hf1; obtain rfl := h2.eq_unread hf2; obtain rfl := h3.eq_unread hf3
    obtain rfl := h4.eq_unread hf4; obtain rfl := h5.eq_unread hf5; obtain rfl := h6.eq_unread hf6
    obtain rfl := h7.eq_unread hf7
    sl_exec_parts! (disch := first | exact hi | exact hf)
    sl_step
    iapply Hk
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    -- the two accumulators: each conjunct hands its buffer over and reads the stored vector back, which assigns its witness
    isplitl [H6]
    all_goals try (iexists _; isplitr; swap; (· first | iexact H6 | iexact H7); ipureintro; (first | exact read_writes_junk_whole2 (Val := Elt F) _ _ _ | skip))

/-! ## The last point -/

set_option maxHeartbeats 4000000 in
/-- At the last point the finish follows the stores: the run also leaves the mean loss in the scalar window's buffer,
    a term over the two accumulators it has just stored and the two arrays of partial rows. -/
noncomputable def tcRunLast (c : Dev nD) (i : grid1.Coords)
    (M1 : Memref sig .tc .vmem S2048x1024 .f32) (h1 : M1.IsWhole) (M2 : Memref sig .tc .vmem S1x1024 .i32) (h2 : M2.IsWhole)
    (M3 : Memref sig .tc .vmem S32x1024 .f32) (h3 : M3.IsWhole) (M4 : Memref sig .tc .vmem S32x1024 .f32) (h4 : M4.IsWhole)
    (M5 : Memref sig .tc .smem S1x1 .f32) (h5 : M5.IsWhole) (M6 : Memref sig .tc .vmem S8x1024 .f32) (h6 : M6.IsWhole)
    (M7 : Memref sig .tc .vmem S8x1024 .f32) (h7 : M7.IsWhole)
    (hi : ¬ condInit i) (hf : condFin i)
    (x : Vec F S2048x1024 .f32) (tg : Vec F S1x1024 .i32) (sp cp : Vec F S32x1024 .f32) (a0 c0 : Vec F S8x1024 .f32) :
    { W : Vec F S8x1024 .f32 × Vec F S8x1024 .f32 × Vec F S1x1 .f32 //
      ∀ (o : Vec F S1x1 .f32) (E : Set ℕ) (Q : PUnit → sProp (MM F)),
        iprop(owns (c : Thread nD τ) M1 fullShare x
            ∗ owns (c : Thread nD τ) M2 fullShare tg
            ∗ owns (c : Thread nD τ) M3 fullShare sp
            ∗ owns (c : Thread nD τ) M4 fullShare cp
            ∗ owns (c : Thread nD τ) M5 fullShare o
            ∗ owns (c : Thread nD τ) M6 fullShare a0
            ∗ owns (c : Thread nD τ) M7 fullShare c0
            ∗ (iprop(owns (c : Thread nD τ) M1 fullShare x
                ∗ owns (c : Thread nD τ) M2 fullShare tg
                ∗ owns (c : Thread nD τ) M3 fullShare sp
                ∗ owns (c : Thread nD τ) M4 fullShare cp
                ∗ owns (c : Thread nD τ) M5 fullShare W.2.2
                ∗ owns (c : Thread nD τ) M6 fullShare W.1
                ∗ owns (c : Thread nD τ) M7 fullShare W.2.1) -∗ Q ⟨⟩))
          ⊢ wp frame (wpE (defs₀ (F := F)) 𝒱₀ (c : Thread nD τ) none) E (cc1__tc_body i M1 h1 M2 h2 M3 h3 M4 h4 M5 h5 M6 h6 M7 h7) Q } := by
  refine ⟨⟨?_, ?_, ?_⟩, fun o E Q => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := h1.eq_unread hf1; obtain rfl := h2.eq_unread hf2; obtain rfl := h3.eq_unread hf3
    obtain rfl := h4.eq_unread hf4; obtain rfl := h5.eq_unread hf5; obtain rfl := h6.eq_unread hf6
    obtain rfl := h7.eq_unread hf7
    sl_exec_parts! (disch := first | exact hi | exact hf)
    sl_step
    iapply Hk
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    -- the scalar window and the two accumulators: each conjunct hands its buffer over and reads the stored vector back,
    -- which assigns its witness
    isplitl [H5]
    all_goals try isplitl [H6]
    all_goals try (iexists _; isplitr; swap; (· first | iexact H5 | iexact H6 | iexact H7); ipureintro; (first | exact read_writes_junk_whole2 (Val := Elt F) _ _ _ | skip))

end Cert.Proof.KI

end
-- ==== Proof.TcBridge.lean ====
/-
  What the three runs of the TensorCore kernel's body leave, read as the fold of the block's 256 slabs.

  Each run names what it stores by the body's own payload terms, one auxiliary definition per returned value, over what the
  loads read of the staging memrefs. Slab by slab those terms are the fold's steps word for word: the class of a slab's
  rows, the comparison with 100000 or with the targets, the exponential, the selection against zero, the sum. So each
  equation holds by unfolding both sides, after two rewritings that do not hold by unfolding: the identity reshape the
  last store ends in, and the contents a whole memref reads back of what it was held at. At the first point the fold
  starts from the zero vector the body has just stored, read back; at the last the scalar is the finish of the two
  accumulators read back after their stores.
-/
import proofs.«202903_g36928128811344_cont_8to1_b_1739_32_alg».proof.Proof.TcBodyCases
import proofs.«202903_g36928128811344_cont_8to1_b_1739_32_alg».proof.Proof.TcValue
import Idealize.ShloMosaic.Lib.Pipeline.Value

set_option maxRecDepth 100000

noncomputable section

namespace Cert.Proof.KI

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A load of a rank-two shape taken whole from the origin reads the contents as they are. -/
theorem ld_origin2 {Val : EltTy → Type} {d : Fin 2 → ℕ} {e : EltTy} (h : ∀ a, (![0, 0] : Fin 2 → ℕ) a + d a ≤ d a)
    (X : (⟨2, d⟩ : Shape).Idx → Val e) : View.ld X (Rect.unit (s := ⟨2, d⟩) ![0, 0] d h) = X := by
  funext y
  show X ((Rect.unit (s := ⟨2, d⟩) ![0, 0] d h).idx y) = X y
  exact congrArg X (emb_origin2 h y)

/-- The vector the body zeroes an accumulator with is the zero vector. -/
theorem k1_pay4_eq : k1_pay4 (F := F) = zero8 := by simp only [k1_pay4, shapeCast_self]
theorem k1_pay5_eq : k1_pay5 (F := F) = zero8 := by simp only [k1_pay5, shapeCast_self]

/-! ## A middle point -/

set_option maxHeartbeats 4000000 in
/-- At a middle point the first accumulator is left at the fold of the block's slabs into what it held. -/
theorem tcRunMid_acc (c : Dev nD) (i : grid1.Coords)
    (M1 : Memref sig .tc .vmem S2048x1024 .f32) (h1 : M1.IsWhole) (M2 : Memref sig .tc .vmem S1x1024 .i32) (h2 : M2.IsWhole)
    (M3 : Memref sig .tc .vmem S32x1024 .f32) (h3 : M3.IsWhole) (M4 : Memref sig .tc .vmem S32x1024 .f32) (h4 : M4.IsWhole)
    (M5 : Memref sig .tc .smem S1x1 .f32) (h5 : M5.IsWhole) (M6 : Memref sig .tc .vmem S8x1024 .f32) (h6 : M6.IsWhole)
    (M7 : Memref sig .tc .vmem S8x1024 .f32) (h7 : M7.IsWhole)
    (hi : ¬ condInit i) (hf : ¬ condFin i)
    (x : Vec F S2048x1024 .f32) (tg : Vec F S1x1024 .i32) (a0 c0 : Vec F S8x1024 .f32) :
    (tcRunMid c i M1 h1 M2 h2 M3 h3 M4 h4 M5 h5 M6 h6 M7 h7 hi hf x tg a0 c0).1.1 = accPoint (i 0).val x a0 := by
  show k1_pay1 _ _ = _
  simp only [k1_pay1, shapeCast_self]
  refine Eq.trans (?_ : _ = accUpTo (i 0).val (M1.view.read (Elt F) (h1.unread x)) 256 le_rfl (View.ld (M6.view.read (Elt F) (h6.unread a0)) (Rect.unit (s := S8x1024) ![0, 0] S8x1024.size inb_S8x1024_S8x1024_0_0))) ?_
  · rfl
  · rw [h1.read_unread, h6.read_unread, ld_origin2]; rfl

set_option maxHeartbeats 4000000 in
/-- At a middle point the second accumulator is left at the fold of the block's slabs into what it held. -/
theorem tcRunMid_cacc (c : Dev nD) (i : grid1.Coords)
    (M1 : Memref sig .tc .vmem S2048x1024 .f32) (h1 : M1.IsWhole) (M2 : Memref sig .tc .vmem S1x1024 .i32) (h2 : M2.IsWhole)
    (M3 : Memref sig .tc .vmem S32x1024 .f32) (h3 : M3.IsWhole) (M4 : Memref sig .tc .vmem S32x1024 .f32) (h4 : M4.IsWhole)
    (M5 : Memref sig .tc .smem S1x1 .f32) (h5 : M5.IsWhole) (M6 : Memref sig .tc .vmem S8x1024 .f32) (h6 : M6.IsWhole)
    (M7 : Memref sig .tc .vmem S8x1024 .f32) (h7 : M7.IsWhole)
    (hi : ¬ condInit i) (hf : ¬ condFin i)
    (x : Vec F S2048x1024 .f32) (tg : Vec F S1x1024 .i32) (a0 c0 : Vec F S8x1024 .f32) :
    (tcRunMid c i M1 h1 M2 h2 M3 h3 M4 h4 M5 h5 M6 h6 M7 h7 hi hf x tg a0 c0).1.2 = caccPoint (i 0).val x tg c0 := by
  show k1_pay2 _ _ _ _ = _
  simp only [k1_pay2, shapeCast_self]
  refine Eq.trans (?_ : _ = caccUpTo (i 0).val (M1.view.read (Elt F) (h1.unread x)) (View.ld (M2.view.read (Elt F) (h2.unread tg)) (Rect.unit (s := S1x1024) ![0, 0] S1x1024.size inb_S1x1024_S1x1024_0_0)) 256 le_rfl (View.ld (M7.view.read (Elt F) (h7.unread c0)) (Rect.unit (s := S8x1024) ![0, 0] S8x1024.size inb_S8x1024_S8x1024_0_0))) ?_
  · rfl
  · rw [h1.read_unread, h2.read_unread, h7.read_unread, ld_origin2, ld_origin2]; rfl

/-! ## The first point -/

set_option maxHeartbeats 4000000 in
/-- At the first point the first accumulator is left at the fold into zero. -/
theorem tcRunFirst_acc (c : Dev nD) (i : grid1.Coords)
    (M1 : Memref sig .tc .vmem S2048x1024 .f32) (h1 : M1.IsWhole) (M2 : Memref sig .tc .vmem S1x1024 .i32) (h2 : M2.IsWhole)
    (M3 : Memref sig .tc .vmem S32x1024 .f32) (h3 : M3.IsWhole) (M4 : Memref sig .tc .vmem S32x1024 .f32) (h4 : M4.IsWhole)
    (M5 : Memref sig .tc .smem S1x1 .f32) (h5 : M5.IsWhole) (M6 : Memref sig .tc .vmem S8x1024 .f32) (h6 : M6.IsWhole)
    (M7 : Memref sig .tc .vmem S8x1024 .f32) (h7 : M7.IsWhole)
    (hi : condInit i) (hf : ¬ condFin i)
    (x : Vec F S2048x1024 .f32) (tg : Vec F S1x1024 .i32) :
    (tcRunFirst c i M1 h1 M2 h2 M3 h3 M4 h4 M5 h5 M6 h6 M7 h7 hi hf x tg).1.1 = accPoint (i 0).val x zero8 := by
  show k1_pay1 _ _ = _
  simp only [k1_pay1, shapeCast_self]
  refine Eq.trans (?_ : _ = accUpTo (i 0).val (M1.view.read (Elt F) (h1.unread x)) 256 le_rfl (M6.view.readCov ([⟨(Rect.unit (s := S8x1024) ![0, 0] S8x1024.size inb_S8x1024_S8x1024_0_0), k1_pay4 (F := F)⟩] : List (View.Piece (Elt F) S8x1024 .f32)) (Rect.unit (s := S8x1024) ![0, 0] S8x1024.size inb_S8x1024_S8x1024_0_0).toLoadRect)) ?_
  · rfl
  · rw [h1.read_unread, View.readCov_cons_toLoadRect, k1_pay4_eq]; rfl

set_option maxHeartbeats 4000000 in
/-- At the first point the second accumulator is left at the fold into zero. -/
theorem tcRunFirst_cacc (c : Dev nD) (i : grid1.Coords)
    (M1 : Memref sig .tc .vmem S2048x1024 .f32) (h1 : M1.IsWhole) (M2 : Memref sig .tc .vmem S1x1024 .i32) (h2 : M2.IsWhole)
    (M3 : Memref sig .tc .vmem S32x1024 .f32) (h3 : M3.IsWhole) (M4 : Memref sig .tc .vmem S32x1024 .f32) (h4 : M4.IsWhole)
    (M5 : Memref sig .tc .smem S1x1 .f32) (h5 : M5.IsWhole) (M6 : Memref sig .tc .vmem S8x1024 .f32) (h6 : M6.IsWhole)
    (M7 : Memref sig .tc .vmem S8x1024 .f32) (h7 : M7.IsWhole)
    (hi : condInit i) (hf : ¬ condFin i)
    (x : Vec F S2048x1024 .f32) (tg : Vec F S1x1024 .i32) :
    (tcRunFirst c i M1 h1 M2 h2 M3 h3 M4 h4 M5 h5 M6 h6 M7 h7 hi hf x tg).1.2 = caccPoint (i 0).val x tg zero8 := by
  show k1_pay2 _ _ _ _ = _
  simp only [k1_pay2, shapeCast_self]
  refine Eq.trans (?_ : _ = caccUpTo (i 0).val (M1.view.read (Elt F) (h1.unread x)) (View.ld (M2.view.read (Elt F) (h2.unread tg)) (Rect.unit (s := S1x1024) ![0, 0] S1x1024.size inb_S1x1024_S1x1024_0_0)) 256 le_rfl (M7.view.readCov ([⟨(Rect.unit (s := S8x1024) ![0, 0] S8x1024.size inb_S8x1024_S8x1024_0_0), k1_pay5 (F := F)⟩] : List (View.Piece (Elt F) S8x1024 .f32)) (Rect.unit (s := S8x1024) ![0, 0] S8x1024.size inb_S8x1024_S8x1024_0_0).toLoadRect)) ?_
  · rfl
  · rw [h1.read_unread, h2.read_unread, View.readCov_cons_toLoadRect, k1_pay5_eq, ld_origin2]; rfl

/-! ## The last point -/

set_option maxHeartbeats 4000000 in
/-- At the last point the first accumulator is left at the fold of the block's slabs into what it held. -/
theorem tcRunLast_acc (c : Dev nD) (i : grid1.Coords)
    (M1 : Memref sig .tc .vmem S2048x1024 .f32) (h1 : M1.IsWhole) (M2 : Memref sig .tc .vmem S1x1024 .i32) (h2 : M2.IsWhole)
    (M3 : Memref sig .tc .vmem S32x1024 .f32) (h3 : M3.IsWhole) (M4 : Memref sig .tc .vmem S32x1024 .f32) (h4 : M4.IsWhole)
    (M5 : Memref sig .tc .smem S1x1 .f32) (h5 : M5.IsWhole) (M6 : Memref sig .tc .vmem S8x1024 .f32) (h6 : M6.IsWhole)
    (M7 : Memref sig .tc .vmem S8x1024 .f32) (h7 : M7.IsWhole)
    (hi : ¬ condInit i) (hf : condFin i)
    (x : Vec F S2048x1024 .f32) (tg : Vec F S1x1024 .i32) (sp cp : Vec F S32x1024 .f32) (a0 c0 : Vec F S8x1024 .f32) :
    (tcRunLast c i M1 h1 M2 h2 M3 h3 M4 h4 M5 h5 M6 h6 M7 h7 hi hf x tg sp cp a0 c0).1.1 = accPoint (i 0).val x a0 := by
  show k1_pay1 _ _ = _
  simp only [k1_pay1, shapeCast_self]
  refine Eq.trans (?_ : _ = accUpTo (i 0).val (M1.view.read (Elt F) (h1.unread x)) 256 le_rfl (View.ld (M6.view.read (Elt F) (h6.unread a0)) (Rect.unit (s := S8x1024) ![0, 0] S8x1024.size inb_S8x1024_S8x1024_0_0))) ?_
  · rfl
  · rw [h1.read_unread, h6.read_unread, ld_origin2]; rfl

set_option maxHeartbeats 4000000 in
/-- At the last point the second accumulator is left at the fold of the block's slabs into what it held. -/
theorem tcRunLast_cacc (c : Dev nD) (i : grid1.Coords)
    (M1 : Memref sig .tc .vmem S2048x1024 .f32) (h1 : M1.IsWhole) (M2 : Memref sig .tc .vmem S1x1024 .i32) (h2 : M2.IsWhole)
    (M3 : Memref sig .tc .vmem S32x1024 .f32) (h3 : M3.IsWhole) (M4 : Memref sig .tc .vmem S32x1024 .f32) (h4 : M4.IsWhole)
    (M5 : Memref sig .tc .smem S1x1 .f32) (h5 : M5.IsWhole) (M6 : Memref sig .tc .vmem S8x1024 .f32) (h6 : M6.IsWhole)
    (M7 : Memref sig .tc .vmem S8x1024 .f32) (h7 : M7.IsWhole)
    (hi : ¬ condInit i) (hf : condFin i)
    (x : Vec F S2048x1024 .f32) (tg : Vec F S1x1024 .i32) (sp cp : Vec F S32x1024 .f32) (a0 c0 : Vec F S8x1024 .f32) :
    (tcRunLast c i M1 h1 M2 h2 M3 h3 M4 h4 M5 h5 M6 h6 M7 h7 hi hf x tg sp cp a0 c0).1.2.1 = caccPoint (i 0).val x tg c0 := by
  show k1_pay2 _ _ _ _ = _
  simp only [k1_pay2, shapeCast_self]
  refine Eq.trans (?_ : _ = caccUpTo (i 0).val (M1.view.read (Elt F) (h1.unread x)) (View.ld (M2.view.read (Elt F) (h2.unread tg)) (Rect.unit (s := S1x1024) ![0, 0] S1x1024.size inb_S1x1024_S1x1024_0_0)) 256 le_rfl (View.ld (M7.view.read (Elt F) (h7.unread c0)) (Rect.unit (s := S8x1024) ![0, 0] S8x1024.size inb_S8x1024_S8x1024_0_0))) ?_
  · rfl
  · rw [h1.read_unread, h2.read_unread, h7.read_unread, ld_origin2, ld_origin2]; rfl

set_option maxHeartbeats 4000000 in
/-- At the last point the scalar window is left at the finish of the two accumulators just stored and the two arrays of
    partial rows. -/
theorem tcRunLast_out (c : Dev nD) (i : grid1.Coords)
    (M1 : Memref sig .tc .vmem S2048x1024 .f32) (h1 : M1.IsWhole) (M2 : Memref sig .tc .vmem S1x1024 .i32) (h2 : M2.IsWhole)
    (M3 : Memref sig .tc .vmem S32x1024 .f32) (h3 : M3.IsWhole) (M4 : Memref sig .tc .vmem S32x1024 .f32) (h4 : M4.IsWhole)
    (M5 : Memref sig .tc .smem S1x1 .f32) (h5 : M5.IsWhole) (M6 : Memref sig .tc .vmem S8x1024 .f32) (h6 : M6.IsWhole)
    (M7 : Memref sig .tc .vmem S8x1024 .f32) (h7 : M7.IsWhole)
    (hi : ¬ condInit i) (hf : condFin i)
    (x : Vec F S2048x1024 .f32) (tg : Vec F S1x1024 .i32) (sp cp : Vec F S32x1024 .f32) (a0 c0 : Vec F S8x1024 .f32) :
    (tcRunLast c i M1 h1 M2 h2 M3 h3 M4 h4 M5 h5 M6 h6 M7 h7 hi hf x tg sp cp a0 c0).1.2.2 = fun _ => k1_pay3 (accPoint (i 0).val x a0) (caccPoint (i 0).val x tg c0) sp cp := by
  have e : (tcRunLast c i M1 h1 M2 h2 M3 h3 M4 h4 M5 h5 M6 h6 M7 h7 hi hf x tg sp cp a0 c0).1.2.2 = fun _ => k1_pay3
      (M6.view.readCov ([⟨(Rect.unit (s := S8x1024) ![0, 0] S8x1024.size inb_S8x1024_S8x1024_0_0), (tcRunLast c i M1 h1 M2 h2 M3 h3 M4 h4 M5 h5 M6 h6 M7 h7 hi hf x tg sp cp a0 c0).1.1⟩] : List (View.Piece (Elt F) S8x1024 .f32)) (Rect.unit (s := S8x1024) ![0, 0] S8x1024.size inb_S8x1024_S8x1024_0_0).toLoadRect)
      (M7.view.readCov ([⟨(Rect.unit (s := S8x1024) ![0, 0] S8x1024.size inb_S8x1024_S8x1024_0_0), (tcRunLast c i M1 h1 M2 h2 M3 h3 M4 h4 M5 h5 M6 h6 M7 h7 hi hf x tg sp cp a0 c0).1.2.1⟩] : List (View.Piece (Elt F) S8x1024 .f32)) (Rect.unit (s := S8x1024) ![0, 0] S8x1024.size inb_S8x1024_S8x1024_0_0).toLoadRect)
      (View.ld (M3.view.read (Elt F) (h3.unread sp)) (Rect.unit (s := S32x1024) ![0, 0] S32x1024.size inb_S32x1024_S32x1024_0_0))
      (View.ld (M4.view.read (Elt F) (h4.unread cp)) (Rect.unit (s := S32x1024) ![0, 0] S32x1024.size inb_S32x1024_S32x1024_0_0)) := rfl
  rw [e, View.readCov_cons_toLoadRect, View.readCov_cons_toLoadRect, tcRunLast_acc, tcRunLast_cacc, h3.read_unread, h4.read_unread,
    ld_origin2, ld_origin2]

end Cert.Proof.KI

end
-- ==== Proof.TcBody.lean ====
/-
  The body's run at every grid point, assembled from its three control cases.

  The first point zeroes the accumulators before the slabs; the last point runs the finish after them; every other point
  runs the slabs alone. Which case a point falls in is decided by its number, and in each case what the run leaves in
  the accumulators is the fold of the point's 256 slabs, from zero at the first point and from what they held elsewhere.
-/
import proofs.«202903_g36928128811344_cont_8to1_b_1739_32_alg».proof.Proof.TcBodyStmt
import proofs.«202903_g36928128811344_cont_8to1_b_1739_32_alg».proof.Proof.TcBridge

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

-- the folds and the finish are compared as wholes here, never unrolled
attribute [local irreducible] accPoint caccPoint k1_pay3

/-- A buffer held at contents is held at equal contents. -/
theorem owns_of_eq (c : Dev nD) {sp : Space} {sh : Shape} {e : EltTy} (M : Memref sig .tc sp sh e) {X X' : sh.Idx → Elt F e}
    (h : X = X') : (owns (c : Thread nD τ) M fullShare X : sProp (MM F)) ⊢ owns (c : Thread nD τ) M fullShare X' := by
  rw [h]

/-- The body's run at every grid point. -/
theorem tc_body_run : TcBodyRun F := by
  intro c t x tg sp cp o a0 c0
  have hv : (grid1.coords t 0).val = t.val := coords1_val t
  by_cases h0 : t.val = 0
  · -- the first point: both accumulators start from zero
    have hi : condInit (grid1.coords t) := (hcondInit t).mpr h0
    have hf : ¬condFin (grid1.coords t) := fun h => by have := (hcondFin t).mp h; omega
    have ea := tcRunFirst_acc (F := F) c (grid1.coords t) (st1_0 t) (hstage1_0 ((cfg1.slots t 0).cast nbuf1_0))
      (st1_1 t) (hstage1_1 ((cfg1.slots t 1).cast nbuf1_1)) (st1_2 t) (hstage1_2 ((cfg1.slots t 2).cast nbuf1_2))
      (st1_3 t) (hstage1_3 ((cfg1.slots t 3).cast nbuf1_3)) (st1_4 t) (hstage1_4 ((cfg1.slots t 4).cast nbuf1_4))
      (Memref.whole cc1_scratch0) (Memref.isWhole_whole _) (Memref.whole cc1_scratch1) (Memref.isWhole_whole _) hi hf x tg
    have ec := tcRunFirst_cacc (F := F) c (grid1.coords t) (st1_0 t) (hstage1_0 ((cfg1.slots t 0).cast nbuf1_0))
      (st1_1 t) (hstage1_1 ((cfg1.slots t 1).cast nbuf1_1)) (st1_2 t) (hstage1_2 ((cfg1.slots t 2).cast nbuf1_2))
      (st1_3 t) (hstage1_3 ((cfg1.slots t 3).cast nbuf1_3)) (st1_4 t) (hstage1_4 ((cfg1.slots t 4).cast nbuf1_4))
      (Memref.whole cc1_scratch0) (Memref.isWhole_whole _) (Memref.whole cc1_scratch1) (Memref.isWhole_whole _) hi hf x tg
    have hrun := (tcRunFirst (F := F) c (grid1.coords t) (st1_0 t) (hstage1_0 ((cfg1.slots t 0).cast nbuf1_0))
      (st1_1 t) (hstage1_1 ((cfg1.slots t 1).cast nbuf1_1)) (st1_2 t) (hstage1_2 ((cfg1.slots t 2).cast nbuf1_2))
      (st1_3 t) (hstage1_3 ((cfg1.slots t 3).cast nbuf1_3)) (st1_4 t) (hstage1_4 ((cfg1.slots t 4).cast nbuf1_4))
      (Memref.whole cc1_scratch0) (Memref.isWhole_whole _) (Memref.whole cc1_scratch1) (Memref.isWhole_whole _) hi hf x tg).2
      sp cp o a0 c0 Set.univ
    rw [ea, ec, hv] at hrun
    have eo : (if t.val = 32 then (fun _ => k1_pay3 (accOut t.val x a0) (caccOut t.val x tg c0) sp cp) else o) = o :=
      if_neg (by omega)
    have e1 : accOut t.val x a0 = accPoint t.val x zero8 := by unfold accOut; rw [if_pos h0]
    have e2 : caccOut t.val x tg c0 = caccPoint t.val x tg zero8 := by unfold caccOut; rw [if_pos h0]
    refine BIBase.Entails.trans ?_ (hrun _)
    iintro ⟨H1, H2, H3, H4, H5, H6, H7⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H1, H2, H3, H4, H5, H6, H7⟩
    isplitl [H1]; · iexact H1
    isplitl [H2]; · iexact H2
    isplitl [H3]; · iexact H3
    isplitl [H4]; · iexact H4
    isplitl [H5]; · iapply (owns_of_eq c (st1_4 t) eo.symm); iexact H5
    isplitl [H6]; · iapply (owns_of_eq c (Memref.whole cc1_scratch0) e1.symm); iexact H6
    iapply (owns_of_eq c (Memref.whole cc1_scratch1) e2.symm); iexact H7
  · by_cases h32 : t.val = 32
    · -- the last point: the slabs, then the finish
      have hi : ¬condInit (grid1.coords t) := fun h => h0 ((hcondInit t).mp h)
      have hf : condFin (grid1.coords t) := (hcondFin t).mpr h32
      have ea := tcRunLast_acc (F := F) c (grid1.coords t) (st1_0 t) (hstage1_0 ((cfg1.slots t 0).cast nbuf1_0))
        (st1_1 t) (hstage1_1 ((cfg1.slots t 1).cast nbuf1_1)) (st1_2 t) (hstage1_2 ((cfg1.slots t 2).cast nbuf1_2))
        (st1_3 t) (hstage1_3 ((cfg1.slots t 3).cast nbuf1_3)) (st1_4 t) (hstage1_4 ((cfg1.slots t 4).cast nbuf1_4))
        (Memref.whole cc1_scratch0) (Memref.isWhole_whole _) (Memref.whole cc1_scratch1) (Memref.isWhole_whole _) hi hf x tg sp cp a0 c0
      have ec := tcRunLast_cacc (F := F) c (grid1.coords t) (st1_0 t) (hstage1_0 ((cfg1.slots t 0).cast nbuf1_0))
        (st1_1 t) (hstage1_1 ((cfg1.slots t 1).cast nbuf1_1)) (st1_2 t) (hstage1_2 ((cfg1.slots t 2).cast nbuf1_2))
        (st1_3 t) (hstage1_3 ((cfg1.slots t 3).cast nbuf1_3)) (st1_4 t) (hstage1_4 ((cfg1.slots t 4).cast nbuf1_4))
        (Memref.whole cc1_scratch0) (Memref.isWhole_whole _) (Memref.whole cc1_scratch1) (Memref.isWhole_whole _) hi hf x tg sp cp a0 c0
      have eout := tcRunLast_out (F := F) c (grid1.coords t) (st1_0 t) (hstage1_0 ((cfg1.slots t 0).cast nbuf1_0))
        (st1_1 t) (hstage1_1 ((cfg1.slots t 1).cast nbuf1_1)) (st1_2 t) (hstage1_2 ((cfg1.slots t 2).cast nbuf1_2))
        (st1_3 t) (hstage1_3 ((cfg1.slots t 3).cast nbuf1_3)) (st1_4 t) (hstage1_4 ((cfg1.slots t 4).cast nbuf1_4))
        (Memref.whole cc1_scratch0) (Memref.isWhole_whole _) (Memref.whole cc1_scratch1) (Memref.isWhole_whole _) hi hf x tg sp cp a0 c0
      have hrun := (tcRunLast (F := F) c (grid1.coords t) (st1_0 t) (hstage1_0 ((cfg1.slots t 0).cast nbuf1_0))
        (st1_1 t) (hstage1_1 ((cfg1.slots t 1).cast nbuf1_1)) (st1_2 t) (hstage1_2 ((cfg1.slots t 2).cast nbuf1_2))
        (st1_3 t) (hstage1_3 ((cfg1.slots t 3).cast nbuf1_3)) (st1_4 t) (hstage1_4 ((cfg1.slots t 4).cast nbuf1_4))
        (Memref.whole cc1_scratch0) (Memref.isWhole_whole _) (Memref.whole cc1_scratch1) (Memref.isWhole_whole _) hi hf x tg sp cp a0 c0).2
        o Set.univ
      rw [ea, ec, eout, hv] at hrun
      have e1 : accOut t.val x a0 = accPoint t.val x a0 := by unfold accOut; rw [if_neg h0]
      have e2 : caccOut t.val x tg c0 = caccPoint t.val x tg c0 := by unfold caccOut; rw [if_neg h0]
      have eo : (if t.val = 32 then (fun _ => k1_pay3 (accOut t.val x a0) (caccOut t.val x tg c0) sp cp) else o)
          = fun _ => k1_pay3 (accPoint t.val x a0) (caccPoint t.val x tg c0) sp cp := by rw [if_pos h32, e1, e2]
      refine BIBase.Entails.trans ?_ (hrun _)
      iintro ⟨H1, H2, H3, H4, H5, H6, H7⟩
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H1, H2, H3, H4, H5, H6, H7⟩
      isplitl [H1]; · iexact H1
      isplitl [H2]; · iexact H2
      isplitl [H3]; · iexact H3
      isplitl [H4]; · iexact H4
      isplitl [H5]; · iapply (owns_of_eq c (st1_4 t) eo.symm); iexact H5
      isplitl [H6]; · iapply (owns_of_eq c (Memref.whole cc1_scratch0) e1.symm); iexact H6
      iapply (owns_of_eq c (Memref.whole cc1_scratch1) e2.symm); iexact H7
    · -- a middle point: the slabs alone
      have hi : ¬condInit (grid1.coords t) := fun h => h0 ((hcondInit t).mp h)
      have hf : ¬condFin (grid1.coords t) := fun h => h32 ((hcondFin t).mp h)
      have ea := tcRunMid_acc (F := F) c (grid1.coords t) (st1_0 t) (hstage1_0 ((cfg1.slots t 0).cast nbuf1_0))
        (st1_1 t) (hstage1_1 ((cfg1.slots t 1).cast nbuf1_1)) (st1_2 t) (hstage1_2 ((cfg1.slots t 2).cast nbuf1_2))
        (st1_3 t) (hstage1_3 ((cfg1.slots t 3).cast nbuf1_3)) (st1_4 t) (hstage1_4 ((cfg1.slots t 4).cast nbuf1_4))
        (Memref.whole cc1_scratch0) (Memref.isWhole_whole _) (Memref.whole cc1_scratch1) (Memref.isWhole_whole _) hi hf x tg a0 c0
      have ec := tcRunMid_cacc (F := F) c (grid1.coords t) (st1_0 t) (hstage1_0 ((cfg1.slots t 0).cast nbuf1_0))
        (st1_1 t) (hstage1_1 ((cfg1.slots t 1).cast nbuf1_1)) (st1_2 t) (hstage1_2 ((cfg1.slots t 2).cast nbuf1_2))
        (st1_3 t) (hstage1_3 ((cfg1.slots t 3).cast nbuf1_3)) (st1_4 t) (hstage1_4 ((cfg1.slots t 4).cast nbuf1_4))
        (Memref.whole cc1_scratch0) (Memref.isWhole_whole _) (Memref.whole cc1_scratch1) (Memref.isWhole_whole _) hi hf x tg a0 c0
      have hrun := (tcRunMid (F := F) c (grid1.coords t) (st1_0 t) (hstage1_0 ((cfg1.slots t 0).cast nbuf1_0))
        (st1_1 t) (hstage1_1 ((cfg1.slots t 1).cast nbuf1_1)) (st1_2 t) (hstage1_2 ((cfg1.slots t 2).cast nbuf1_2))
        (st1_3 t) (hstage1_3 ((cfg1.slots t 3).cast nbuf1_3)) (st1_4 t) (hstage1_4 ((cfg1.slots t 4).cast nbuf1_4))
        (Memref.whole cc1_scratch0) (Memref.isWhole_whole _) (Memref.whole cc1_scratch1) (Memref.isWhole_whole _) hi hf x tg a0 c0).2
        sp cp o Set.univ
      rw [ea, ec, hv] at hrun
      have eo : (if t.val = 32 then (fun _ => k1_pay3 (accOut t.val x a0) (caccOut t.val x tg c0) sp cp) else o) = o :=
        if_neg h32
      have e1 : accOut t.val x a0 = accPoint t.val x a0 := by unfold accOut; rw [if_neg h0]
      have e2 : caccOut t.val x tg c0 = caccPoint t.val x tg c0 := by unfold caccOut; rw [if_neg h0]
      refine BIBase.Entails.trans ?_ (hrun _)
      iintro ⟨H1, H2, H3, H4, H5, H6, H7⟩
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H1, H2, H3, H4, H5, H6, H7⟩
      isplitl [H1]; · iexact H1
      isplitl [H2]; · iexact H2
      isplitl [H3]; · iexact H3
      isplitl [H4]; · iexact H4
      isplitl [H5]; · iapply (owns_of_eq c (st1_4 t) eo.symm); iexact H5
      isplitl [H6]; · iapply (owns_of_eq c (Memref.whole cc1_scratch0) e1.symm); iexact H6
      iapply (owns_of_eq c (Memref.whole cc1_scratch1) e2.symm); iexact H7

end Cert.Proof.KI

end
-- ==== Proof.Bits.KICommon.lean ====
/-
  The program as the launch theorem sees it: its label signature, its SparseCore configuration, its body table, the
  ghost state (the handshakes' rounds beside the transfers' counters), and the arrays of @main by name.

  The arrays: `xT` is the input transposed, classes by rows; `tg` the targets; `sP` and `cP` the thirty-two
  per-subcore partial rows (sums of exponentials; the target's cosine where the subcore's stripe holds the target, zero
  elsewhere); `tg2` the targets as one row; `out` the mean loss as a one-by-one array and `res` as a scalar.
-/
import proofs.«202903_g36928128811344_cont_8to1_b_1739_32_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«202903_g36928128811344_cont_8to1_b_1739_32_alg».proof.Proof.Gen.Kernel
import proofs.«202903_g36928128811344_cont_8to1_b_1739_32_alg».proof.Proof.Gen.Kernel.Skeleton
import proofs.«202903_g36928128811344_cont_8to1_b_1739_32_alg».proof.Proof.Gen.Kernel.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds of the TensorCore call, the transfers' counters -/

abbrev UH : Type := URounds (GSem nD τ sig) ℕ
/-- The rounds of the TensorCore call's staging cells: one duty per round, carrying nothing. -/
abbrev UP : Type := URounds (GSem nD τ sig) Unit
abbrev UU : Type := UH × (UP × Counters)

/-- The model every assertion of this certificate is stated in. -/
abbrev MM (F : FTy → Type) : Type := MT nD τ sig (HIx 1) (Elt F) ℕ UU ℕ

abbrev EH : Emb UH (MM F) := embL

/-- The staging cells' rounds, the left factor of the right factor; the counters are found by instance in what remains. -/
def EP : Emb UP (MM F) := (Emb.inl : Emb UP (UP × Counters)).trans embR

instance EP_landsIn : (EP : Emb UP (MM F)).LandsIn (upEmb : UEmb _ (MM F)) := by unfold EP; infer_instance

/-! ## The arrays of @main, as locations of device `d` -/

abbrev inLoc (d : Dev nD) : Loc nD τ sig := (SparseCore.T d).loc main_arg0
abbrev tgLoc (d : Dev nD) : Loc nD τ sig := (SparseCore.T d).loc main_arg1
abbrev xTLoc (d : Dev nD) : Loc nD τ sig := (SparseCore.T d).loc main_v0
abbrev sPLoc (d : Dev nD) : Loc nD τ sig := (SparseCore.T d).loc main_v1_0
abbrev cPLoc (d : Dev nD) : Loc nD τ sig := (SparseCore.T d).loc main_v1_1
abbrev tg2Loc (d : Dev nD) : Loc nD τ sig := (SparseCore.T d).loc main_v2
abbrev outLoc (d : Dev nD) : Loc nD τ sig := (SparseCore.T d).loc main_v3
abbrev resLoc (d : Dev nD) : Loc nD τ sig := (SparseCore.T d).loc main_v4

/-! ## The thirty-two rows of a partial array -/

theorem hdiv32 : 32 ∣ S32x1024.size 0 := ⟨1, rfl⟩
/-- Row `w` of a thirty-two-row array, as a rectangle; -/
abbrev sRow (w : Fin 32) : Rect S32x1024 := Rect.part (s := S32x1024) (a₀ := 0) hdiv32 w
/-- and as the set of its indices, through the whole array's view sliced at that row. -/
abbrev rowSet (w : Fin 32) : Finset S32x1024.Idx := ((Memref.whole main_v1_0_scv : Memref sig .scVector .hbm S32x1024 .f32).view.slice (sRow w)).set

/-- The subcore of grid place `L` and the stripe it owns: subcore `s` of SparseCore `c` works stripe `2 s + c`. -/
abbrev cV (L : grid0.Coords) : Fin τ.nSC := (L 0).castLE hcore0
abbrev jV (L : grid0.Coords) : Fin τ.nSub := (L 1).castLE hsub0
def wid (L : grid0.Coords) : Fin 32 := ⟨(L 1).val * 2 + (L 0).val, by
  have h0 : (L 0).val < 2 := (L 0).isLt
  have h1 : (L 1).val < 16 := (L 1).isLt
  omega⟩

def coordsV (c : Fin (grid0.bound 0)) (s : Fin (grid0.bound 1)) : grid0.Coords :=
  fun | 0 => c | 1 => s | ⟨_ + 2, h⟩ => absurd h (Nat.not_lt.2 (Nat.le_add_left _ _))

end Cert.Proof.KB

end
-- ==== Proof.Bits.TcValue.lean ====
/-
  The scalar the last grid point of the TensorCore call stores, as a function of the four arrays the call reads, for any
  float values.

  The call walks the classes from row 32768 on in 33 blocks of 2048 rows; point t holds the rows (16 + t) · 2048 + j of
  the transposed input, and of the last block only the first 1696 rows lie inside the array: what the staging buffer
  holds on the other 352 rows nothing states, and it enters here as a parameter (dd). A block is folded in 256 slabs of
  eight rows, in order, into two accumulators of eight rows each: acc gains exp x on the rows whose class is below
  100000 and zero on the others; cacc gains x on the rows whose class is the column's target and zero on the others.
  Point 0 starts both from zero. After the last point the finish sums each accumulator down its eight rows, adds the
  32 partial rows of the subcores' kernel, moves the target's cosine by the margin and takes the mean of the rows'
  losses.
-/
import proofs.«202903_g36928128811344_cont_8to1_b_1739_32_alg».proof.Proof.Bits.KICommon
import Idealize.ShloMosaic.Lib.Pipeline.FrameBody
import Idealize.ShloMosaic.Lib.ValueIdx

noncomputable section

namespace Cert.Proof.KB

open Cert.Kernel Cert.Kernel.Gen
open Idealize.ShloMosaic Idealize.ShloMosaic.ValueIdx

variable {F : FTy → Type} [FloatOps F]

/-- Eight rows of the zero word. -/
abbrev zero8 : FVec F S8x1024 .f32 := broadcast S8x1024 (Scalar.ofBits .f32 0x00000000#32)

/-- The class of the first row of point t's block, as the kernel computes it: (16 + t) · 2048 on 32-bit words. -/
def rowBase (t : ℕ) : BitVec 32 := Scalar.muli (Scalar.addi 16#32 (BitVec.ofNat 32 t)) 2048#32

/-- The class of each row of slab k of point t's block: the row's number in the slab plus the block's base plus 8 k. -/
def rid (t k : ℕ) : IVec S8x1024 32 :=
  addi (iota .tc S8x1024 32 [0] iota_S8x1024_d0_w32) (broadcast S8x1024 (Scalar.addi (rowBase t) (BitVec.ofNat 32 (8 * k))))

/-- Slab k lies inside the block. -/
theorem slab_inb (k : ℕ) (hk : k < 256) : ∀ a, (![8 * k, 0] : Fin 2 → ℕ) a + S8x1024.size a ≤ S2048x1024.size a := by
  intro a
  match a with
  | ⟨0, _⟩ => show 8 * k + 8 ≤ 2048; omega
  | ⟨1, _⟩ => show 0 + 1024 ≤ 1024; omega

/-- Slab k of a block: its rows 8 k … 8 k + 7. -/
def slab (x : Vec F S2048x1024 .f32) (k : ℕ) (hk : k < 256) : FVec F S8x1024 .f32 :=
  shapeCast S8x1024 (View.ld x (Rect.unit (s := S2048x1024) ![8 * k, 0] S8x1024.size (slab_inb k hk))) shapeCasts_S8x1024_S8x1024

/-- The targets as the body reads them. -/
def tvec (tg : Vec F S1x1024 .i32) : IVec S1x1024 32 := shapeCast S1x1024 tg shapeCasts_S1x1024_S1x1024

/-- One slab into the sum of exponentials: exp x where the row's class is below 100000, zero elsewhere. -/
def accStep (t : ℕ) (x : Vec F S2048x1024 .f32) (k : ℕ) (hk : k < 256) (a : FVec F S8x1024 .f32) : FVec F S8x1024 .f32 :=
  addf a (select (cmpi .slt (rid t k) (broadcast S8x1024 100000#32)) (exp (slab x k hk)) zero8)

/-- One slab into the target's cosine: x where the row's class is the column's target, zero elsewhere. -/
def caccStep (t : ℕ) (x : Vec F S2048x1024 .f32) (tg : Vec F S1x1024 .i32) (k : ℕ) (hk : k < 256) (c : FVec F S8x1024 .f32) :
    FVec F S8x1024 .f32 :=
  addf c (select (cmpi .eq (rid t k) (broadcastTo S8x1024 (tvec tg) broadcasts_S1x1024_S8x1024)) (slab x k hk) zero8)

/-- The first n slabs of a block folded into a, in order. -/
def accUpTo (t : ℕ) (x : Vec F S2048x1024 .f32) : (n : ℕ) → n ≤ 256 → FVec F S8x1024 .f32 → FVec F S8x1024 .f32
  | 0, _, a => a
  | n + 1, h, a => accStep t x n h (accUpTo t x n (Nat.le_of_succ_le h) a)

/-- The same for the target's cosine. -/
def caccUpTo (t : ℕ) (x : Vec F S2048x1024 .f32) (tg : Vec F S1x1024 .i32) :
    (n : ℕ) → n ≤ 256 → FVec F S8x1024 .f32 → FVec F S8x1024 .f32
  | 0, _, c => c
  | n + 1, h, c => caccStep t x tg n h (caccUpTo t x tg n (Nat.le_of_succ_le h) c)

/-- A whole block, 256 slabs. -/
def accPoint (t : ℕ) (x : Vec F S2048x1024 .f32) (a : FVec F S8x1024 .f32) : FVec F S8x1024 .f32 := accUpTo t x 256 le_rfl a
def caccPoint (t : ℕ) (x : Vec F S2048x1024 .f32) (tg : Vec F S1x1024 .i32) (c : FVec F S8x1024 .f32) : FVec F S8x1024 .f32 :=
  caccUpTo t x tg 256 le_rfl c

/-- What point t leaves in each accumulator, given what it found there: point 0 starts from zero. -/
def accOut (t : ℕ) (x : Vec F S2048x1024 .f32) (a0 : FVec F S8x1024 .f32) : FVec F S8x1024 .f32 :=
  accPoint t x (if t = 0 then zero8 else a0)
def caccOut (t : ℕ) (x : Vec F S2048x1024 .f32) (tg : Vec F S1x1024 .i32) (c0 : FVec F S8x1024 .f32) : FVec F S8x1024 .f32 :=
  caccPoint t x tg (if t = 0 then zero8 else c0)

/-- Point t's block of the transposed input: row j of it is row (16 + t) · 2048 + j of the array where that lies inside
    the array, and what dd says elsewhere. -/
def xBlk (xT : Vec F S100000x1024 .f32) (dd : ℕ → Vec F S2048x1024 .f32) (t : ℕ) : Vec F S2048x1024 .f32 :=
  fun j => if h : (16 + t) * 2048 + (j 0).val < 100000 then xT (ix2 ⟨(16 + t) * 2048 + (j 0).val, h⟩ ⟨(j 1).val, (j 1).isLt⟩)
    else dd t j

/-- The accumulators after the first t points. -/
def accS (xT : Vec F S100000x1024 .f32) (dd : ℕ → Vec F S2048x1024 .f32) : ℕ → FVec F S8x1024 .f32
  | 0 => zero8
  | t + 1 => accOut t (xBlk xT dd t) (accS xT dd t)
def caccS (xT : Vec F S100000x1024 .f32) (tg2 : Vec F S1x1024 .i32) (dd : ℕ → Vec F S2048x1024 .f32) : ℕ → FVec F S8x1024 .f32
  | 0 => zero8
  | t + 1 => caccOut t (xBlk xT dd t) tg2 (caccS xT tg2 dd t)

/-- The scalar the call's last point stores. -/
def tcOut (xT : Vec F S100000x1024 .f32) (tg2 : Vec F S1x1024 .i32) (sP cP : Vec F S32x1024 .f32)
    (dd : ℕ → Vec F S2048x1024 .f32) : F .f32 :=
  k1_pay3 (accS xT dd 33) (caccS xT tg2 dd 33) sP cP

/-- A point of the one-axis grid is its coordinate. -/
theorem coords1_val (t : Fin grid1.N) : (grid1.coords t 0).val = t.val := by
  revert t; decide +kernel

end Cert.Proof.KB

end
-- ==== Proof.Bits.KerVal.lean ====
/-
  The kernel's result as one function of its two inputs, for any float values: the input transposed (classes by rows),
  the thirty-two partial rows the subcores leave (sums of exponentials over each stripe of 1024 classes; the target's
  cosine where the stripe holds the target), and the scalar the TensorCore call's last point stores from them and from the
  remaining classes. What the last block's staging rows past the array hold enters as the parameter `dd`.
-/
import proofs.«202903_g36928128811344_cont_8to1_b_1739_32_alg».proof.Proof.Bits.KICommon
import proofs.«202903_g36928128811344_cont_8to1_b_1739_32_alg».proof.Proof.ScVal
import proofs.«202903_g36928128811344_cont_8to1_b_1739_32_alg».proof.Proof.Bits.TcValue

noncomputable section

namespace Cert.Proof.KB

open Cert.Kernel Cert.Kernel.Gen Cert.Proof.ScVal
open Idealize.ShloMosaic Idealize.ShloMosaic.ValueIdx

variable {F : FTy → Type} [FloatOps F]

/-- The input with classes by rows, as @main's first operation writes it. -/
def xTof (x : Vec F S1024x100000 .f32) : Vec F S100000x1024 .f32 :=
  transpose S100000x1024 [1, 0] x transposes_S1024x100000_S100000x1024_1_0

/-- The targets as one row, as @main's reshape writes them. -/
def tg2of (t : Vec F S1024 .i32) : Vec F S1x1024 .i32 := shapeCast S1x1024 t shapeCasts_S1024_S1x1024

/-- The subcores' partial sums of exponentials: row `w` is stripe `w`'s. -/
def sPof (xT : Vec F S100000x1024 .f32) : Vec F S32x1024 .f32 := fun j => scSum xT (j 0) (j 1)

/-- The subcores' partial target cosines. -/
def cPof (xT : Vec F S100000x1024 .f32) (t : Vec F S1024 .i32) : Vec F S32x1024 .f32 := fun j => scSel xT t (j 0) (j 1)

/-- The kernel's result. -/
def kerOut (x : Vec F S1024x100000 .f32) (t : Vec F S1024 .i32) (dd : ℕ → Vec F S2048x1024 .f32) : F .f32 :=
  tcOut (xTof x) (tg2of t) (sPof (xTof x)) (cPof (xTof x) t) dd

/-- The result as @main's last reshape leaves it: the one-by-one array read as a scalar. -/
def kerRes (x : Vec F S1024x100000 .f32) (t : Vec F S1024 .i32) (dd : ℕ → Vec F S2048x1024 .f32) : Vec F S_ .f32 :=
  fun i => shapeCast S_ (fun _ : S1x1.Idx => kerOut x t dd) shapeCasts_S1x1_S_ i

end Cert.Proof.KB

end
-- ==== Proof.Bits.TcBodyStmt.lean ====
/-
  The statement of the body's run at one grid point of the TensorCore call, as a proposition: what the region's proof
  takes of the body and the body's proof supplies.

  At point t the body is handed the five windows' current staging buffers — the block of the transposed input, the
  targets, the two arrays of partial rows, the one-word result — and the two accumulators. It leaves the four inputs as
  it found them; each accumulator at the fold of the block's 256 slabs into what it held (into zero at point 0); and the
  result's buffer as it found it, except at the last point, where it holds the finish of the two accumulators and the
  partial rows.
-/
import proofs.«202903_g36928128811344_cont_8to1_b_1739_32_alg».proof.Proof.Bits.TcValue
import proofs.«202903_g36928128811344_cont_8to1_b_1739_32_alg».proof.Proof.Gen.Kernel.Points

noncomputable section

namespace Cert.Proof.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The body's run at every grid point, on every core. -/
def TcBodyRun (F : FTy → Type) [FloatOps F] : Prop :=
  ∀ (c : Dev nD) (t : Fin cfg1.N) (x : Vec F S2048x1024 .f32) (tg : Vec F S1x1024 .i32) (sp cp : Vec F S32x1024 .f32)
    (o : Vec F S1x1 .f32) (a0 c0 : Vec F S8x1024 .f32),
    (iprop(owns (c : Thread nD τ) (st1_0 t) fullShare x ∗ owns (c : Thread nD τ) (st1_1 t) fullShare tg
        ∗ owns (c : Thread nD τ) (st1_2 t) fullShare sp ∗ owns (c : Thread nD τ) (st1_3 t) fullShare cp
        ∗ owns (c : Thread nD τ) (st1_4 t) fullShare o
        ∗ owns (c : Thread nD τ) (Memref.whole cc1_scratch0) fullShare a0
        ∗ owns (c : Thread nD τ) (Memref.whole cc1_scratch1) fullShare c0) : sProp (MM F))
      ⊢ wp frame (wpE (defs₀ (F := F)) 𝒱₀ (c : Thread nD τ) none) Set.univ (bodyAt1 (F := F) t) fun _ =>
          iprop(owns (c : Thread nD τ) (st1_0 t) fullShare x ∗ owns (c : Thread nD τ) (st1_1 t) fullShare tg
            ∗ owns (c : Thread nD τ) (st1_2 t) fullShare sp ∗ owns (c : Thread nD τ) (st1_3 t) fullShare cp
            ∗ owns (c : Thread nD τ) (st1_4 t) fullShare
                (if t.val = 32 then (fun _ => k1_pay3 (accOut t.val x a0) (caccOut t.val x tg c0) sp cp) else o)
            ∗ owns (c : Thread nD τ) (Memref.whole cc1_scratch0) fullShare (accOut t.val x a0)
            ∗ owns (c : Thread nD τ) (Memref.whole cc1_scratch1) fullShare (caccOut t.val x tg c0))

end Cert.Proof.KB

end
-- ==== Proof.Bits.TcRegion.lean ====
/-
  The TensorCore call inside the program: the region rule applied to the call's pipeline.

  The call runs 33 grid points over five windows: the transposed input in blocks of 2048 rows (fetched at every point,
  the last block cut at the array's end), the targets and the two arrays of partial rows (whole, fetched once), and the
  one-word result (written back after the last point only). Two accumulators of eight rows are carried from point to
  point in scratch memory. The proof data constrains each window's staging buffer by a relation: the four inputs are
  left as found; the result's buffer is left as found but at the last point, where it holds the finish. Between points
  the two accumulators hold the running folds (anything before the first point, which zeroes them). Each point's
  fetch of the input block leaves the rows past the array's end at contents nothing states: they are collected point by
  point into the parameter the value takes.

  From the region's entry (the five arrays, what the core owes) the region rule gives its exit: the four inputs as they
  were, the result array at the finish, the core owing what it owed, its recorded waits grown by the pipeline's own at
  the kernels' index.
-/
import proofs.«202903_g36928128811344_cont_8to1_b_1739_32_alg».proof.Proof.Bits.TcBodyStmt
import Idealize.ShloMosaic.Lib.Pipeline.Regions
import Idealize.ShloMosaic.Lib.Pipeline.FrameBody
import Idealize.ShloMosaic.Lib.Tactic

noncomputable section

namespace Cert.Proof.KB

open Cert.Kernel Cert.Kernel.Gen
open Idealize.ShloMosaic Idealize.ShloMosaic.TcCoe Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The call has no prefetched table: its admissible contents are the empty ones. -/
abbrev adm : (p : Fin 1) → ((pcfgs (F := F)) p).Adm := fun p => (cfgs p).toPCfg_adm

/-! ## The value's dependence on the unstated rows -/

/-- The unstated rows with point t's replaced. -/
def ddSet (dd : ℕ → Vec F S2048x1024 .f32) (t : ℕ) (d : Vec F S2048x1024 .f32) : ℕ → Vec F S2048x1024 .f32 :=
  fun s => if s = t then d else dd s

theorem ddSet_self (dd : ℕ → Vec F S2048x1024 .f32) (t : ℕ) (d : Vec F S2048x1024 .f32) : ddSet dd t d t = d := by
  unfold ddSet; rw [if_pos rfl]

theorem ddSet_of_ne (dd : ℕ → Vec F S2048x1024 .f32) {t s : ℕ} (d : Vec F S2048x1024 .f32) (h : s ≠ t) : ddSet dd t d s = dd s := by
  unfold ddSet; rw [if_neg h]

/-- A block reads the unstated rows of its own point only. -/
theorem xBlk_congr (xT : Vec F S100000x1024 .f32) {dd dd' : ℕ → Vec F S2048x1024 .f32} {t : ℕ} (h : dd t = dd' t) :
    xBlk xT dd t = xBlk xT dd' t := by
  funext j; unfold xBlk; rw [h]

/-- The accumulators after t points read the unstated rows of the points below t only. -/
theorem accS_congr (xT : Vec F S100000x1024 .f32) {dd dd' : ℕ → Vec F S2048x1024 .f32} :
    ∀ t, (∀ s, s < t → dd s = dd' s) → accS xT dd t = accS xT dd' t
  | 0, _ => rfl
  | t + 1, h => by
    rw [accS, accS, xBlk_congr xT (h t (Nat.lt_succ_self t)), accS_congr xT t fun s hs => h s (Nat.lt_succ_of_lt hs)]

theorem caccS_congr (xT : Vec F S100000x1024 .f32) (tg2 : Vec F S1x1024 .i32) {dd dd' : ℕ → Vec F S2048x1024 .f32} :
    ∀ t, (∀ s, s < t → dd s = dd' s) → caccS xT tg2 dd t = caccS xT tg2 dd' t
  | 0, _ => rfl
  | t + 1, h => by
    rw [caccS, caccS, xBlk_congr xT (h t (Nat.lt_succ_self t)), caccS_congr xT tg2 t fun s hs => h s (Nat.lt_succ_of_lt hs)]

/-- Point 0 starts from zero whatever it finds. -/
theorem accOut_zero (x : Vec F S2048x1024 .f32) (a a' : FVec F S8x1024 .f32) : accOut 0 x a = accOut 0 x a' := by
  unfold accOut; rw [if_pos rfl, if_pos rfl]
theorem caccOut_zero (x : Vec F S2048x1024 .f32) (tg : Vec F S1x1024 .i32) (c c' : FVec F S8x1024 .f32) :
    caccOut 0 x tg c = caccOut 0 x tg c' := by
  unfold caccOut; rw [if_pos rfl, if_pos rfl]

/-- One more point, its unstated rows d: the accumulators after it are the point's fold of what they were. -/
theorem accS_step (xT : Vec F S100000x1024 .f32) (dd : ℕ → Vec F S2048x1024 .f32) (t : ℕ) (d : Vec F S2048x1024 .f32)
    (a0 : FVec F S8x1024 .f32) (h : t ≠ 0 → a0 = accS xT dd t) :
    accS xT (ddSet dd t d) (t + 1) = accOut t (xBlk xT (ddSet dd t d) t) a0 := by
  rw [accS]
  by_cases ht : t = 0
  · subst ht; exact accOut_zero _ _ _
  · rw [h ht, accS_congr xT t fun s hs => ddSet_of_ne dd d (Nat.ne_of_lt hs)]

theorem caccS_step (xT : Vec F S100000x1024 .f32) (tg2 : Vec F S1x1024 .i32) (dd : ℕ → Vec F S2048x1024 .f32) (t : ℕ)
    (d : Vec F S2048x1024 .f32) (c0 : FVec F S8x1024 .f32) (h : t ≠ 0 → c0 = caccS xT tg2 dd t) :
    caccS xT tg2 (ddSet dd t d) (t + 1) = caccOut t (xBlk xT (ddSet dd t d) t) tg2 c0 := by
  rw [caccS]
  by_cases ht : t = 0
  · subst ht; exact caccOut_zero _ _ _ _
  · rw [h ht, caccS_congr xT tg2 t fun s hs => ddSet_of_ne dd d (Nat.ne_of_lt hs)]

/-! ## The proof data -/

section Data

variable (xT : Vec F S100000x1024 .f32) (tg2 : Vec F S1x1024 .i32) (sP cP : Vec F S32x1024 .f32) (o₀ : Vec F S1x1 .f32)
  (O : CellTallies nD τ sig (HIx 1)) (W : Waits sig (HIx 1))

/-- The two accumulators before point t: at anything before the first point, at the running folds after it. -/
def scr (c : Dev nD) (t : ℕ) : sProp (MM F) :=
  if t = 0 then
    iprop((∃ a : Vec F S8x1024 .f32, owns (c : Thread nD τ) (Memref.whole cc1_scratch0) fullShare a)
      ∗ (∃ a : Vec F S8x1024 .f32, owns (c : Thread nD τ) (Memref.whole cc1_scratch1) fullShare a))
  else
    iprop(∃ dd : ℕ → Vec F S2048x1024 .f32, owns (c : Thread nD τ) (Memref.whole cc1_scratch0) fullShare (accS xT dd t)
      ∗ owns (c : Thread nD τ) (Memref.whole cc1_scratch1) fullShare (caccS xT tg2 dd t))

/-- What the result's staging buffer may hold after point t, given what it held before. -/
def outAfter (t : Fin cfg1.N) (Y X : Vec F S1x1 .f32) : Prop :=
  if t.val = 32 then ∃ dd : ℕ → Vec F S2048x1024 .f32, X = fun _ => tcOut xT tg2 sP cP dd else X = Y

/-- The call's proof data on core c. -/
def rd (c : Dev nD) : Pipeline.RDat τ (Elt F) (HIx 1) ℕ UU ℕ cfg1 c where
  A := fun
    | 0 => xT
    | 1 => tg2
    | 2 => sP
    | 3 => cP
    | 4 => o₀
    | ⟨_ + 5, h⟩ => absurd h (Nat.not_lt.2 (Nat.le_add_left _ _))
  after := fun
    | 0 => fun _ Y X => X = Y
    | 1 => fun _ Y X => X = Y
    | 2 => fun _ Y X => X = Y
    | 3 => fun _ Y X => X = Y
    | 4 => fun t Y X => outAfter xT tg2 sP cP t Y X
    | ⟨_ + 5, h⟩ => absurd h (Nat.not_lt.2 (Nat.le_add_left _ _))
  Φ := fun t => scr xT tg2 c t.val
  q := fun _ => fullShare
  owed := fun _ => O
  recorded := fun _ => (↑W : Set (SemLoc sig × HIx 1))

/-- The family the region rule takes: one pipeline. -/
def rdats : (p : Fin 1) → (c : Dev nD) → Pipeline.RDat τ (Elt F) (HIx 1) ℕ UU ℕ (Pipeline.pin (pcfgs (F := F)) adm p) c
  | 0 => fun c => rd xT tg2 sP cP o₀ O W c
  | ⟨_ + 1, h⟩ => absurd h (Nat.not_lt.2 (Nat.le_add_left _ _))

end Data

/-! ## What the body finds in the input windows' buffers -/

section Finds

variable (xT : Vec F S100000x1024 .f32) (tg2 : Vec F S1x1024 .i32) (sP cP : Vec F S32x1024 .f32) (o₀ : Vec F S1x1 .f32)
  (O : CellTallies nD τ sig (HIx 1)) (W : Waits sig (HIx 1))

/-- The input's block index at point t is (16 + t, 0). -/
theorem idx0 : ∀ t : Fin grid1.N, win1_0.index t (0 : Fin 2) = 16 + t.val ∧ win1_0.index t (1 : Fin 2) = 0 := by
  decide +kernel

/-- Its transfers move 2048 rows of 1024, but the last point's, which moves the 1696 rows inside the array. -/
theorem xsz0 : ∀ t : Fin grid1.N, win1_0.xsize (grid1.coords t) (0 : Fin 2) = (if t.val = 32 then 1696 else 2048)
    ∧ win1_0.xsize (grid1.coords t) (1 : Fin 2) = 1024 := by
  decide +kernel

/-- The whole-array windows' blocks start at the array's origin. -/
theorem off1 : ∀ (t : Fin grid1.N) (a : Fin 2), win1_1.index t a * win1_1.size a = 0 := by decide +kernel
theorem off2 : ∀ (t : Fin grid1.N) (a : Fin 2), win1_2.index t a * win1_2.size a = 0 := by decide +kernel
theorem off3 : ∀ (t : Fin grid1.N) (a : Fin 2), win1_3.index t a * win1_3.size a = 0 := by decide +kernel
theorem off4 : ∀ (t : Fin grid1.N) (a : Fin 2), win1_4.index t a * win1_4.size a = 0 := by decide +kernel

/-- What a fetch of the input block at point t leaves in a buffer that held d: the array's rows where the block lies
    inside the array, d past it. -/
theorem fetched0 (c : Dev nD) (t : Fin cfg1.N) (d : Vec F S2048x1024 .f32) :
    (rd xT tg2 sP cP o₀ O W c).fetched (0 : Fin 5) t d = xBlk xT (fun _ => d) t.val := by
  funext j
  obtain ⟨hx0, hx1⟩ := xsz0 t
  obtain ⟨hi0, hi1⟩ := idx0 t
  have hm := win1_0.moved_iff (grid1.coords t) j
  have hj0 : (j 0).val < 2048 := (j 0).isLt
  have hj1 : (j 1).val < 1024 := (j 1).isLt
  have ht : t.val < 33 := lt_of_lt_of_eq t.isLt N_1
  show win1_0.fill (grid1.coords t) d ((rd xT tg2 sP cP o₀ O W c).blockOf (0 : Fin 5) t) j = xBlk xT (fun _ => d) t.val j
  unfold Pipeline.Window.fill xBlk
  by_cases h : (16 + t.val) * 2048 + (j 0).val < 100000
  · have hmv : win1_0.moved (grid1.coords t) j = true := hm.mpr fun a => by
      match a with
      | ⟨0, _⟩ => show (j 0).val < win1_0.xsize (grid1.coords t) (0 : Fin 2); rw [hx0]; split <;> omega
      | ⟨1, _⟩ => show (j 1).val < win1_0.xsize (grid1.coords t) (1 : Fin 2); rw [hx1]; exact hj1
    rw [dif_pos hmv, dif_pos h]
    show xT ((win1_0.rect t).emb _) = xT _
    congr 1
    funext a
    match a with
    | ⟨0, _⟩ => apply Fin.ext; show win1_0.index t (0 : Fin 2) * 2048 + 1 * (j 0).val = (16 + t.val) * 2048 + (j 0).val; rw [hi0]; omega
    | ⟨1, _⟩ => apply Fin.ext; show win1_0.index t (1 : Fin 2) * 1024 + 1 * (j 1).val = (j 1).val; rw [hi1]; omega
  · have hmv : ¬win1_0.moved (grid1.coords t) j = true := fun hh => h (by
      have h0 := hm.mp hh (0 : Fin 2)
      rw [hx0] at h0
      split at h0 <;> omega)
    rw [dif_neg hmv, dif_neg h]

/-- The input window's cuts are a function of its block index. -/
theorem hclip0 (t t' : Fin cfg1.N) (h : (cfg1.win 0).index t = (cfg1.win 0).index t') :
    (cfg1.win 0).clip (cfg1.grid.coords t) = (cfg1.win 0).clip (cfg1.grid.coords t') := by
  have e : t = t' := by
    apply Fin.ext
    have h0 := congrFun h (0 : Fin 2)
    have := (idx0 t).1; have := (idx0 t').1
    change win1_0.index t (0 : Fin 2) = win1_0.index t' (0 : Fin 2) at h0
    omega
  rw [e]

/-- The input block's buffer holds point t's block: the array's rows where the block lies inside it, anything past. -/
theorem finds0 (c : Dev nD) (t : Fin cfg1.N) (Y : Vec F S2048x1024 .f32)
    (h : (rd xT tg2 sP cP o₀ O W c).Finds (0 : Fin 5) t Y) : ∃ d : Vec F S2048x1024 .f32, Y = xBlk xT (fun _ => d) t.val := by
  obtain ⟨d, hd⟩ := Pipeline.RDat.finds_in_eq_fetched (rd xT tg2 sP cP o₀ O W c) (0 : Fin 5) rfl hclip0 (fun _ _ _ e => e) t Y h
  exact ⟨d, hd.trans (fetched0 xT tg2 sP cP o₀ O W c t d)⟩

/-- The targets' buffer holds the targets at every point. -/
theorem finds1 (c : Dev nD) (t : Fin cfg1.N) (Y : Vec F S1x1024 .i32)
    (h : (rd xT tg2 sP cP o₀ O W c).Finds (1 : Fin 5) t Y) : Y = tg2 := by
  obtain ⟨d, hd⟩ := Pipeline.RDat.finds_in_eq_fetched (rd xT tg2 sP cP o₀ O W c) (1 : Fin 5) rfl (fun _ _ _ => rfl) (fun _ _ _ e => e) t Y h
  rw [hd]
  funext j
  show win1_1.fill (grid1.coords t) d ((rd xT tg2 sP cP o₀ O W c).blockOf (1 : Fin 5) t) j = tg2 j
  unfold Pipeline.Window.fill
  rw [dif_pos (show win1_1.moved (grid1.coords t) j = true from rfl)]
  exact congrFun (Memref.read_access_unit_zero (Elt F) main_v2 (funext (off1 t)) _ tg2) j

/-- The partial rows' buffers hold them at every point. -/
theorem finds2 (c : Dev nD) (t : Fin cfg1.N) (Y : Vec F S32x1024 .f32)
    (h : (rd xT tg2 sP cP o₀ O W c).Finds (2 : Fin 5) t Y) : Y = sP := by
  obtain ⟨d, hd⟩ := Pipeline.RDat.finds_in_eq_fetched (rd xT tg2 sP cP o₀ O W c) (2 : Fin 5) rfl (fun _ _ _ => rfl) (fun _ _ _ e => e) t Y h
  rw [hd]
  funext j
  show win1_2.fill (grid1.coords t) d ((rd xT tg2 sP cP o₀ O W c).blockOf (2 : Fin 5) t) j = sP j
  unfold Pipeline.Window.fill
  rw [dif_pos (show win1_2.moved (grid1.coords t) j = true from rfl)]
  exact congrFun (Memref.read_access_unit_zero (Elt F) main_v1_0 (funext (off2 t)) _ sP) j

theorem finds3 (c : Dev nD) (t : Fin cfg1.N) (Y : Vec F S32x1024 .f32)
    (h : (rd xT tg2 sP cP o₀ O W c).Finds (3 : Fin 5) t Y) : Y = cP := by
  obtain ⟨d, hd⟩ := Pipeline.RDat.finds_in_eq_fetched (rd xT tg2 sP cP o₀ O W c) (3 : Fin 5) rfl (fun _ _ _ => rfl) (fun _ _ _ e => e) t Y h
  rw [hd]
  funext j
  show win1_3.fill (grid1.coords t) d ((rd xT tg2 sP cP o₀ O W c).blockOf (3 : Fin 5) t) j = cP j
  unfold Pipeline.Window.fill
  rw [dif_pos (show win1_3.moved (grid1.coords t) j = true from rfl)]
  exact congrFun (Memref.read_access_unit_zero (Elt F) main_v1_1 (funext (off3 t)) _ cP) j

end Finds

/-! ## The body obligation -/

section Body

variable (xT : Vec F S100000x1024 .f32) (tg2 : Vec F S1x1024 .i32) (sP cP : Vec F S32x1024 .f32) (o₀ : Vec F S1x1 .f32)
  (O : CellTallies nD τ sig (HIx 1)) (W : Waits sig (HIx 1))

/-- A whole scratch buffer held at some contents, in the two spellings. -/
theorem owns_of_pointsTo (c : Dev nD) (b : Ref sig .tc) (f : Buf (Elt F) ((c : Thread nD τ).loc b)) :
    ((((c : Thread nD τ).loc b) ↦{fullShare} f) : sProp (MM F)) ⊢ iprop(∃ a, owns (c : Thread nD τ) (Memref.whole b) fullShare a) := by
  iintro H; iexists f; rw [owns_whole]; iexact H

theorem pointsTo_of_owns (c : Dev nD) (b : Ref sig .tc) (a : Buf (Elt F) ((c : Thread nD τ).loc b)) :
    (owns (c : Thread nD τ) (Memref.whole b) fullShare a : sProp (MM F))
      ⊢ iprop(∃ f : Buf (Elt F) ((c : Thread nD τ).loc b), (((c : Thread nD τ).loc b) ↦{fullShare} f)) := by
  rw [owns_whole]; iintro H; iexists a; iexact H

/-- Before any point the accumulators hold something, and after the first what the folds say. -/
theorem scr_elim (c : Dev nD) (t : ℕ) :
    scr xT tg2 c t ⊢ (iprop(∃ (dd : ℕ → Vec F S2048x1024 .f32) (a0 c0 : Vec F S8x1024 .f32),
      ⌜t ≠ 0 → a0 = accS xT dd t ∧ c0 = caccS xT tg2 dd t⌝
        ∗ owns (c : Thread nD τ) (Memref.whole cc1_scratch0) fullShare a0
        ∗ owns (c : Thread nD τ) (Memref.whole cc1_scratch1) fullShare c0) : sProp (MM F)) := by
  unfold scr
  split
  · next h =>
    iintro ⟨⟨%a0, H0⟩, ⟨%c0, H1⟩⟩
    iexists (fun _ _ => Scalar.ofBits .f32 0x00000000#32), a0, c0
    isplitr; · ipureintro; intro hne; exact absurd h hne
    isplitl [H0] <;> iassumption
  · next h =>
    iintro ⟨%dd, H0, H1⟩
    iexists dd, _, _
    isplitr; · ipureintro; intro _; exact ⟨rfl, rfl⟩
    isplitl [H0] <;> iassumption

theorem scr_intro (c : Dev nD) (t : ℕ) (ht : t ≠ 0) (dd : ℕ → Vec F S2048x1024 .f32) :
    (iprop(owns (c : Thread nD τ) (Memref.whole cc1_scratch0) fullShare (accS xT dd t)
      ∗ owns (c : Thread nD τ) (Memref.whole cc1_scratch1) fullShare (caccS xT tg2 dd t)) : sProp (MM F)) ⊢ scr xT tg2 c t := by
  unfold scr
  rw [if_neg ht]
  iintro ⟨H0, H1⟩
  iexists dd
  isplitl [H0] <;> iassumption

/-- The body obligation at every point, from the body's run. -/
theorem body_obl (hrun : TcBodyRun F) (c : Dev nD) :
    (rd xT tg2 sP cP o₀ O W c).BodyObligation (defs₀ (F := F)) 𝒱₀ none Set.univ := by
  intro t Y hY
  obtain ⟨d, h0⟩ := finds0 xT tg2 sP cP o₀ O W c t (Y 0) (hY 0)
  have h1 := finds1 xT tg2 sP cP o₀ O W c t (Y 1) (hY 1)
  have h2 := finds2 xT tg2 sP cP o₀ O W c t (Y 2) (hY 2)
  have h3 := finds3 xT tg2 sP cP o₀ O W c t (Y 3) (hY 3)
  rw [bigSep_W1, bigSep_W1]
  show (iprop(scr xT tg2 c t.val ∗ (rd xT tg2 sP cP o₀ O W c).owesAt none t.castSucc
        ∗ owns (c : Thread nD τ) (st1_0 t) fullShare (Y 0) ∗ owns (c : Thread nD τ) (st1_1 t) fullShare (Y 1)
        ∗ owns (c : Thread nD τ) (st1_2 t) fullShare (Y 2) ∗ owns (c : Thread nD τ) (st1_3 t) fullShare (Y 3)
        ∗ owns (c : Thread nD τ) (st1_4 t) fullShare (Y 4)) : sProp (MM F))
      ⊢ wp frame (wpE (defs₀ (F := F)) 𝒱₀ (c : Thread nD τ) none) Set.univ (bodyAt1 (F := F) t) fun _ =>
          iprop(scr xT tg2 c (t.val + 1) ∗ (rd xT tg2 sP cP o₀ O W c).owesAt none t.castSucc
            ∗ (∃ X, ⌜X = Y 0⌝ ∗ owns (c : Thread nD τ) (st1_0 t) fullShare X)
            ∗ (∃ X, ⌜X = Y 1⌝ ∗ owns (c : Thread nD τ) (st1_1 t) fullShare X)
            ∗ (∃ X, ⌜X = Y 2⌝ ∗ owns (c : Thread nD τ) (st1_2 t) fullShare X)
            ∗ (∃ X, ⌜X = Y 3⌝ ∗ owns (c : Thread nD τ) (st1_3 t) fullShare X)
            ∗ (∃ X, ⌜outAfter xT tg2 sP cP t (Y 4) X⌝ ∗ owns (c : Thread nD τ) (st1_4 t) fullShare X))
  rw [h0, h1, h2, h3]
  iintro ⟨HΦ, Ho, H0, H1, H2, H3, H4⟩
  ihave HΦ' := (scr_elim xT tg2 c t.val) $$ HΦ
  icases HΦ' with ⟨%dd, %a0, %c0, %hac, Hs0, Hs1⟩
  have hx : xBlk xT (fun _ => d) t.val = xBlk xT (ddSet dd t.val d) t.val :=
    xBlk_congr xT (by rw [ddSet_self])
  rw [hx]
  have ha : accS xT (ddSet dd t.val d) (t.val + 1) = accOut t.val (xBlk xT (ddSet dd t.val d) t.val) a0 :=
    accS_step xT dd t.val d a0 fun hne => (hac hne).1
  have hc : caccS xT tg2 (ddSet dd t.val d) (t.val + 1) = caccOut t.val (xBlk xT (ddSet dd t.val d) t.val) tg2 c0 :=
    caccS_step xT tg2 dd t.val d c0 fun hne => (hac hne).2
  iapply (wp_wand_r frame _ Set.univ)
  isplitl [H0 H1 H2 H3 H4 Hs0 Hs1]
  · iapply (hrun c t (xBlk xT (ddSet dd t.val d) t.val) tg2 sP cP (Y 4) a0 c0)
    isplitl [H0]; · iexact H0
    isplitl [H1]; · iexact H1
    isplitl [H2]; · iexact H2
    isplitl [H3]; · iexact H3
    isplitl [H4]; · iexact H4
    isplitl [Hs0]; · iexact Hs0
    iexact Hs1
  · iintro %_ ⟨H0, H1, H2, H3, H4, Hs0, Hs1⟩
    isplitl [Hs0 Hs1]
    · iapply (scr_intro xT tg2 c (t.val + 1) (Nat.succ_ne_zero _) (ddSet dd t.val d))
      rw [ha, hc]
      isplitl [Hs0] <;> iassumption
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    iexists (if t.val = 32 then (fun _ => k1_pay3 (accOut t.val (xBlk xT (ddSet dd t.val d) t.val) a0)
        (caccOut t.val (xBlk xT (ddSet dd t.val d) t.val) tg2 c0) sP cP) else Y 4)
    isplitr
    · ipureintro
      unfold outAfter
      split
      · next h32 =>
        refine ⟨ddSet dd t.val d, ?_⟩
        funext _
        unfold tcOut
        have e33 : (33 : ℕ) = t.val + 1 := by omega
        rw [e33, ha, hc]
      · rfl
    iexact H4

end Body

/-! ## The arrays at the region's two ends -/

section Arrays

variable (xT : Vec F S100000x1024 .f32) (tg2 : Vec F S1x1024 .i32) (sP cP : Vec F S32x1024 .f32) (o₀ : Vec F S1x1 .f32)
  (O : CellTallies nD τ sig (HIx 1)) (W : Waits sig (HIx 1))

/-- Every array is held at the full share. -/
theorem share_rd (c : Dev nD) (w : Fin 5) : (rd xT tg2 sP cP o₀ O W c).share w = fullShare := by
  unfold Pipeline.RDat.share; split <;> rfl

/-- The five arrays at the entry contents, one by one. -/
theorem arrays_rd (c : Dev nD) :
    ((rd xT tg2 sP cP o₀ O W c).arrays (rd xT tg2 sP cP o₀ O W c).A : sProp (MM F))
      = iprop((xTLoc c ↦{fullShare} xT) ∗ (tg2Loc c ↦{fullShare} tg2) ∗ (sPLoc c ↦{fullShare} sP) ∗ (cPLoc c ↦{fullShare} cP)
          ∗ (outLoc c ↦{fullShare} o₀)) := by
  unfold Pipeline.RDat.arrays
  rw [bigSep_W1]
  simp only [share_rd, Memref.view_whole, View.set_whole]
  rfl

/-- An input array is as it was after every write-back. -/
theorem arrAt_in (c : Dev nD) (w : Fin 5) (hw : (cfg1.win w).isOut = false) (n : ℕ)
    (G : Buf (Elt F) ((cfg1.win w).arr.view.loc (c : Thread nD τ))) :
    (rd xT tg2 sP cP o₀ O W c).ArrAt w n G ↔ G = (rd xT tg2 sP cP o₀ O W c).A w := by
  exact Eq.to_iff (congrFun (Pipeline.RDat.ArrAt_in (rd xT tg2 sP cP o₀ O W c) w hw n) G)

/-- The result array after the last point's write-back holds the finish at every index, for some unstated rows. -/
theorem arrAt_out (c : Dev nD) (G : Vec F S1x1 .f32)
    (h : (rd xT tg2 sP cP o₀ O W c).ArrAt (4 : Fin 5) cfg1.N G) :
    ∃ dd : ℕ → Vec F S2048x1024 .f32, G = fun _ => tcOut xT tg2 sP cP dd := by
  have hN : cfg1.N = 33 := N_1
  let u : Fin cfg1.N := ⟨32, by rw [hN]; decide⟩
  have hs := Pipeline.RDat.ArrAt_succ (rd xT tg2 sP cP o₀ O W c) (4 : Fin 5) u
  have hfl : (cfg1.win 4).flush u = true := (flush1_4 u).mpr rfl
  rw [hfl, if_pos rfl] at hs
  rw [hN, show (33 : ℕ) = u.val + 1 from rfl, hs] at h
  obtain ⟨G₀, X, -, ⟨Y, -, hYX⟩, hG⟩ := h
  have hX : outAfter xT tg2 sP cP u Y X := hYX
  unfold outAfter at hX
  rw [if_pos rfl] at hX
  obtain ⟨dd, rfl⟩ := hX
  refine ⟨dd, hG.trans ?_⟩
  exact Memref.write_access_unit_zero_univ (Elt F) main_v3 (funext (off4 u)) _ G₀ _

/-- The five arrays at the exit, one by one. -/
theorem arraysAt_rd (c : Dev nD) :
    ((rd xT tg2 sP cP o₀ O W c).arraysAt cfg1.N : sProp (MM F))
      ⊢ iprop((xTLoc c ↦{fullShare} xT) ∗ (tg2Loc c ↦{fullShare} tg2) ∗ (sPLoc c ↦{fullShare} sP) ∗ (cPLoc c ↦{fullShare} cP)
          ∗ ∃ dd : ℕ → Vec F S2048x1024 .f32, (outLoc c ↦{fullShare} (fun _ => tcOut xT tg2 sP cP dd))) := by
  unfold Pipeline.RDat.arraysAt
  rw [bigSep_W1]
  simp only [share_rd, Memref.view_whole, View.set_whole]
  iintro ⟨⟨%F0, %h0, H0⟩, ⟨%F1, %h1, H1⟩, ⟨%F2, %h2, H2⟩, ⟨%F3, %h3, H3⟩, ⟨%F4, %h4, H4⟩⟩
  rw [arrAt_in xT tg2 sP cP o₀ O W c 0 rfl] at h0
  rw [arrAt_in xT tg2 sP cP o₀ O W c 1 rfl] at h1
  rw [arrAt_in xT tg2 sP cP o₀ O W c 2 rfl] at h2
  rw [arrAt_in xT tg2 sP cP o₀ O W c 3 rfl] at h3
  obtain ⟨dd, h4'⟩ := arrAt_out xT tg2 sP cP o₀ O W c F4 h4
  subst h0; subst h1; subst h2; subst h3; subst h4'
  isplitl [H0]; · iexact H0
  isplitl [H1]; · iexact H1
  isplitl [H2]; · iexact H2
  isplitl [H3]; · iexact H3
  iexists dd
  iexact H4

end Arrays

/-! ## The region -/

section Region

variable (xT : Vec F S100000x1024 .f32) (tg2 : Vec F S1x1024 .i32) (sP cP : Vec F S32x1024 .f32) (o₀ : Vec F S1x1 .f32)
  (O : CellTallies nD τ sig (HIx 1)) (W : Waits sig (HIx 1))

/-- The thread state the region is entered from: the five arrays, what the core owes. -/
def tcPre (c : Dev nD) : sProp (MM F) :=
  iprop((xTLoc c ↦{fullShare} xT) ∗ (tg2Loc c ↦{fullShare} tg2) ∗ (sPLoc c ↦{fullShare} sP) ∗ (cPLoc c ↦{fullShare} cP)
    ∗ (outLoc c ↦{fullShare} o₀) ∗ owes (T c) O W)

/-- The thread state it leaves: the inputs as they were, the result at the finish, the core owing what it owed with
    its recorded waits grown at the kernels' index only. -/
def tcPost (c : Dev nD) : sProp (MM F) :=
  iprop((xTLoc c ↦{fullShare} xT) ∗ (tg2Loc c ↦{fullShare} tg2) ∗ (sPLoc c ↦{fullShare} sP) ∗ (cPLoc c ↦{fullShare} cP)
    ∗ (∃ dd : ℕ → Vec F S2048x1024 .f32, (outLoc c ↦{fullShare} (fun _ => tcOut xT tg2 sP cP dd)))
    ∗ ∃ W' : Waits sig (HIx 1), ⌜∀ p ∈ W', p ∈ W ∨ p.2 = none⌝ ∗ owes (T c) O W')

/-- The call as a kernel region of @main. -/
def tcSeg (hrun : TcBodyRun F) (lv : GSem nD τ sig → HIx 1 → ℕ) (hlv : (K (F := F)).Refines lv) (hO : ∀ g, O g none = 0) :
    Pipeline.RDat.RegionSeg (pcfgs (F := F)) adm (rdats xT tg2 sP cP o₀ O W) none (defs₀ (F := F)) 𝒱₀ (K (F := F)).L lv (0 : Fin 1) where
  win := winFacts1.to₀
  block_pos := block_pos1
  stage_whole := stage_whole1
  K := PEmpty
  osem := fun k => k.elim
  ho := Pipeline.OwnSemFacts.none _
  hbody := fun c => body_obl xT tg2 sP cP o₀ O W hrun c
  hwaits := fun c => Pipeline.RDat.cellsWaits_intro (Pipeline.pin (pcfgs (F := F)) adm) (rdats xT tg2 sP cP o₀ O W) none 0 c
    fun w s t => (K (F := F)).mayWait_none (.dma _) hO lv hlv
  pre := tcPre xT tg2 sP cP o₀ O W
  post := tcPost xT tg2 sP cP O W
  X := fun _ => iprop(emp)
  Y := fun _ => iprop(emp)
  Z := fun _ => iprop(emp)
  hentry := fun c => by
    show (iprop(tcPre xT tg2 sP cP o₀ O W c ∗ Pipeline.ownSems0 (fun k : PEmpty => k.elim) c ∗ levAts (K (F := F)).L lv) : sProp (MM F))
      ⊢ |={Set.univ}=> iprop((rd xT tg2 sP cP o₀ O W c).arrays (rd xT tg2 sP cP o₀ O W c).A
          ∗ Pipeline.prefHeld Pipeline.Prefetch.none c (fun _ => fullShare) Pipeline.Prefetch.Contents.none
          ∗ (rd xT tg2 sP cP o₀ O W c).owesAt none 0 ∗ emp ∗ emp)
    rw [arrays_rd]
    unfold tcPre
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr
    · unfold Pipeline.prefHeld; rw [Finset.univ_eq_empty, BI.bigSep_empty]; iempintro
    isplitl [HO]
    · iexists W
      isplitr; · ipureintro; exact Set.subset_union_left
      iexact HO
    isplitr <;> iempintro
  hin := fun c => by
    show (iprop(emp ∗ Pipeline.prefHeld Pipeline.Prefetch.none c (fun _ => fullShare) Pipeline.Prefetch.Contents.none
        ∗ Pipeline.scopedRest spec1 c) : sProp (MM F))
      ⊢ scr xT tg2 c 0
    rw [scopedRest1_eq]
    unfold scr
    rw [if_pos rfl]
    iintro ⟨-, -, ⟨%f0, H0⟩, ⟨%f1, H1⟩⟩
    isplitl [H0]
    · iapply (owns_of_pointsTo c cc1_scratch0 f0); iexact H0
    · iapply (owns_of_pointsTo c cc1_scratch1 f1); iexact H1
  hout := fun c => by
    show scr xT tg2 c cfg1.N
      ⊢ (iprop(emp ∗ Pipeline.ownSems0 (fun k : PEmpty => k.elim) c ∗ Pipeline.scopedRest spec1 c) : sProp (MM F))
    rw [scopedRest1_eq, Pipeline.ownSems0_none _ _ _ _ _ _ _ _ c]
    refine (scr_elim xT tg2 c _).trans ?_
    iintro ⟨%dd, %a0, %c0, -, H0, H1⟩
    isplitr; · iempintro
    isplitr; · iempintro
    isplitl [H0]
    · iapply (pointsTo_of_owns c cc1_scratch0 a0); iexact H0
    · iapply (pointsTo_of_owns c cc1_scratch1 c0); iexact H1
  hexit := fun c => by
    show (iprop((rd xT tg2 sP cP o₀ O W c).arraysAt cfg1.N
        ∗ (rd xT tg2 sP cP o₀ O W c).owesAt none (Fin.last cfg1.N) ∗ emp ∗ emp) : sProp (MM F))
      ⊢ |={Set.univ}=> tcPost xT tg2 sP cP O W c
    unfold tcPost
    iintro ⟨Ha, ⟨%W', %hW', HO⟩, -, -⟩
    ihave Ha' := (arraysAt_rd xT tg2 sP cP o₀ O W c) $$ Ha
    icases Ha' with ⟨H0, H1, H2, H3, H4⟩
    imodintro
    isplitl [H0]; · iexact H0
    isplitl [H1]; · iexact H1
    isplitl [H2]; · iexact H2
    isplitl [H3]; · iexact H3
    isplitl [H4]; · iexact H4
    iexists W'
    isplitr
    · ipureintro
      intro p hp
      rcases hW' hp with h | ⟨w, s, rfl⟩
      · exact .inl h
      · exact .inr rfl
    iexact HO

/-- The TensorCore call, run: from the region's boundary, the five arrays, what the core owes (nothing at the kernels'
    index) and the pipeline's ghost state, the call runs to the boundary, the inputs as they were, the result array at the
    finish for some contents of the rows nothing states, and the core owing what it owed. -/
theorem tc_region (hrun : TcBodyRun F)
    (EP : Emb (URounds (GSem nD τ sig) Unit) (MM F)) [EP.LandsIn (upEmb : UEmb _ (MM F))]
    (lv : GSem nD τ sig → HIx 1 → ℕ) (hlv : (K (F := F)).Refines lv) (d : Dev nD)
    (hO : ∀ g, O g none = 0)
    {α : Type} (k : PUnit → Prog (TpuEff nD τ sig (Elt F) (ΛP (F := F)) .tc) α) (Q : α → sProp (MM F)) :
    (iprop(boundary (T d) ∗ levAts (K (F := F)).L lv
        ∗ Pipeline.cellsGhost (Pipeline.pin (pcfgs (F := F)) adm) EP 0 d ∗ Pipeline.toksInit (Pipeline.pin (pcfgs (F := F)) adm) EP 0 d
        ∗ (xTLoc d ↦{fullShare} xT) ∗ (tg2Loc d ↦{fullShare} tg2) ∗ (sPLoc d ↦{fullShare} sP) ∗ (cPLoc d ↦{fullShare} cP)
        ∗ (∃ o : Vec F S1x1 .f32, (outLoc d ↦{fullShare} o))
        ∗ owes (T d) O W
        ∗ (iprop(boundary (T d) ∗ tcPost xT tg2 sP cP O W d)
            -∗ wp frame (wpE (D (F := F)) 𝒱 (T d) none) Set.univ (k ⟨⟩) Q)) : sProp (MM F))
      ⊢ wp frame (wpE (D (F := F)) 𝒱 (T d) none) Set.univ (.op (.customCall (Pipeline.entry 0) ()) k) Q := by
  iintro ⟨Hbd, #Hla, Hg, Ht, H0, H1, H2, H3, ⟨%o₀, H4⟩, HO, Hk⟩
  have hwp : (iprop((iprop(boundary (T d) ∗ tcPost xT tg2 sP cP O W d) -∗ wp frame (wpE (D (F := F)) 𝒱 (T d) none) Set.univ (k ⟨⟩) Q)
        ∗ boundary (T d) ∗ tcPre xT tg2 sP cP o₀ O W d ∗ levAts (K (F := F)).L lv
        ∗ Pipeline.cellsGhost (Pipeline.pin (pcfgs (F := F)) adm) EP 0 d ∗ Pipeline.toksInit (Pipeline.pin (pcfgs (F := F)) adm) EP 0 d) : sProp (MM F))
      ⊢ wp frame (wpE (D (F := F)) 𝒱 (T d) none) Set.univ (.op (.customCall (Pipeline.entry 0) ()) k) Q :=
    Pipeline.RDat.RegionSeg.wp (pcfgs (F := F)) adm (rdats xT tg2 sP cP o₀ O W) none cellOf_inj EP (defs₀ (F := F)) 𝒱₀
      (K (F := F)).L lv (tcSeg xT tg2 sP cP o₀ O W hrun lv hlv hO) d none (fun u h => nomatch h) k Q
  unfold tcPre at hwp
  iapply hwp
  isplitl [Hk]; · iexact Hk
  isplitl [Hbd]; · iexact Hbd
  isplitl [H0 H1 H2 H3 H4 HO]
  · isplitl [H0]; · iexact H0
    isplitl [H1]; · iexact H1
    isplitl [H2]; · iexact H2
    isplitl [H3]; · iexact H3
    isplitl [H4]; · iexact H4
    iexact HO
  isplitr; · iexact Hla
  isplitl [Hg] <;> iassumption

end Region

end Cert.Proof.KB

end
-- ==== Proof.Bits.ScBody.lean ====
/-
  One vector subcore's task, at a symbolic place of the grid, for any float instance.

  Subcore `(L 0, L 1)` owns stripe `w = 2 (L 1) + (L 0)` of the transposed input: classes `1024 w .. 1024 w + 1023`.
  It fetches the targets, clears its two running rows, and streams the stripe through two buffers, thirty-two rows at a
  time: for each column the running sum gains the exponential of every row's entry and the running selection takes the
  entry of the row whose class is the column's target. The two rows then go out to row `w` of the two partial arrays.
  The statement names what those rows hold (`scSum`, `scSel`); the input and the targets come back as they were lent.
-/
import proofs.«202903_g36928128811344_cont_8to1_b_1739_32_alg».proof.Proof.Bits.KICommon
import proofs.«202903_g36928128811344_cont_8to1_b_1739_32_alg».proof.Proof.ScVal
import Idealize.ShloMosaic.Lib.Writes
import Idealize.ShloMosaic.Lib.ValueLayout
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.ScVal

variable {F : FTy → Type}

/-! ## Running values over a block of rows -/

section Pure

variable [FloatOps F]

/-- The transposed input at class `r`, column `b`; the zero word off the array. -/
def xAt (x : SXT.Idx → F .f32) (r : ℕ) (b : Fin 1024) : F .f32 :=
  if h : r < 100000 then x (ix2 ⟨r, h⟩ b) else FloatOps.ofBits .f32 0#32

theorem xAt_stripe (x : SXT.Idx → F .f32) (w : Fin 32) (n : ℕ) (h : n < 1024) (b : Fin 1024) :
    xAt x (1024 * w.val + n) b = x (ix2 (stripeRow w ⟨n, h⟩) b) := by
  have hw := w.isLt
  rw [xAt, dif_pos (by omega)]; rfl

/-- A running sum `a` after `m` more rows `r 0 .. r (m - 1)`: each adds its exponential. -/
def addExpN (a : F .f32) (r : ℕ → F .f32) : ℕ → F .f32
  | 0 => a
  | m + 1 => FloatOps.addf (addExpN a r m) (FloatOps.exp (r m))

/-- The stripe's running sum after `n + m` rows is the one after `n` rows carried over the next `m`. -/
theorem scSumN_add (x : SXT.Idx → F .f32) (w : Fin 32) (b : Fin 1024) (n : ℕ) :
    ∀ m, n + m ≤ 1024 →
      scSumN x w b (n + m) = addExpN (scSumN x w b n) (fun i => xAt x (1024 * w.val + (n + i)) b) m
  | 0, _ => rfl
  | m + 1, h => by
    have hm : n + m < 1024 := by omega
    have ih := scSumN_add x w b n m (by omega)
    show scSumN x w b (n + m + 1)
      = FloatOps.addf (addExpN (scSumN x w b n) (fun i => xAt x (1024 * w.val + (n + i)) b) m)
          (FloatOps.exp (xAt x (1024 * w.val + (n + m)) b))
    rw [scSumN_succ x w b hm, ih, xAt_stripe x w (n + m) hm b]

/-- A running selection `s` after `m` more rows: row `i` replaces it when the target's word less the base word `g` is `i`. -/
def selStepN (t g : BitVec 32) (s : F .f32) (r : ℕ → F .f32) : ℕ → F .f32
  | 0 => s
  | m + 1 => Scalar.select (IntOp.cmpi .eq (IntOp.subi t g) (BitVec.ofNat 32 m)) (r m) (selStepN t g s r m)

/-- The word test of a row: the target's word less the base word is `m` exactly when the target, read unsigned, is
    the base plus `m` (no wrap: the sum is below `2 ^ 32`). -/
theorem cmpi_sub_eq_one_iff (t g : BitVec 32) (m : ℕ) (h : g.toNat + m < 2 ^ 32) :
    IntOp.cmpi .eq (IntOp.subi t g) (BitVec.ofNat 32 m) = 1#1 ↔ t.toNat = g.toNat + m := by
  have h1 : IntOp.cmpi .eq (IntOp.subi t g) (BitVec.ofNat 32 m) = BitVec.ofBool (t - g == BitVec.ofNat 32 m) := rfl
  have h2 : (BitVec.ofBool (t - g == BitVec.ofNat 32 m) = 1#1) ↔ (t - g = BitVec.ofNat 32 m) := by
    cases hb : (t - g == BitVec.ofNat 32 m)
    · simp only [BitVec.ofBool_false, beq_eq_false_iff_ne, ne_eq] at hb ⊢
      exact ⟨fun e => absurd e (by decide), fun e => absurd e hb⟩
    · simp only [BitVec.ofBool_true, beq_iff_eq] at hb ⊢
      exact ⟨fun _ => hb, fun _ => rfl⟩
  rw [h1, h2]
  constructor
  · intro e
    bv_omega
  · intro e
    bv_omega

/-- The stripe's running selection after `n + m` rows is the one after `n` rows carried over the next `m`, the base
    word `g` being class `1024 w + n`. -/
theorem scSelN_add (x : SXT.Idx → F .f32) (t : STG.Idx → BitVec 32) (w : Fin 32) (b : Fin 1024) (n : ℕ) (g : BitVec 32)
    (hg : g.toNat = 1024 * w.val + n) :
    ∀ m, n + m ≤ 1024 →
      scSelN x t w b (n + m)
        = selStepN (t (ix1 b)) g (scSelN x t w b n) (fun i => xAt x (1024 * w.val + (n + i)) b) m
  | 0, _ => rfl
  | m + 1, h => by
    have hm : n + m < 1024 := by omega
    have hw := w.isLt
    have ih := scSelN_add x t w b n g hg m (by omega)
    show scSelN x t w b (n + m + 1)
      = Scalar.select (IntOp.cmpi .eq (IntOp.subi (t (ix1 b)) g) (BitVec.ofNat 32 m)) (xAt x (1024 * w.val + (n + m)) b)
          (selStepN (t (ix1 b)) g (scSelN x t w b n) (fun i => xAt x (1024 * w.val + (n + i)) b) m)
    rw [scSelN_succ x t w b hm, ih, xAt_stripe x w (n + m) hm b]
    have hiff : (IntOp.cmpi .eq (IntOp.subi (t (ix1 b)) g) (BitVec.ofNat 32 m) = (1 : BitVec 1)) ↔ (t (ix1 b)).toNat = g.toNat + m :=
      cmpi_sub_eq_one_iff (t (ix1 b)) g m (by omega)
    unfold Scalar.select
    by_cases hc : (t (ix1 b)).toNat = 1024 * w.val + (n + m)
    · rw [if_pos hc, if_pos (hiff.mpr (by omega))]
    · rw [if_neg hc, if_neg (fun e => hc (by have := hiff.mp e; omega))]

end Pure

/-! ## A store of some lanes of a whole buffer, as one function -/

section Writes

variable {sigR : RefSig} {κ : Kind} {Val : EltTy → Type}

/-- An unmasked store through a rectangle of a whole buffer leaves the function `G` when the payload is `G` on the
    rectangle and the old contents are `G` off it. -/
theorem whole_write_eq {b : Ref sigR κ} (r : Rect b.ty.shape) (f G : b.ty.Contents Val) (w : r.shape.Idx → Val b.ty.elt)
    (hin : ∀ x, w x = G (r.emb x)) (hout : ∀ y, y ∉ r.set → f y = G y) :
    ((View.whole b).slice r).write Val f w Finset.univ = G := by
  funext y
  by_cases hy : y ∈ r.set
  · obtain ⟨x, rfl⟩ := r.exists_idx_of_mem hy
    have h := View.write_emb_of_mem (v := (View.whole b).slice r) (Val := Val) f w (M := Finset.univ) (x := x) (Finset.mem_univ _)
    exact h.trans ((cast_eq _ _).trans (hin x))
  · rw [View.write_of_not_mem _ _ _ (by rw [View.setOn_univ, View.set_slice_whole]; exact hy)]
    exact hout y hy

end Writes

/-! ## The subcore's arrays, scratch and semaphores -/

section Tile

variable [FloatOps F] (d : Dev nD) (L : grid0.Coords)

-- the kernel's memrefs, spelt as the body table passes them
local notation "xV" => (Memref.whole Cert.Kernel.main_v0_scv : Memref Cert.Kernel.sig Kind.scVector Space.hbm Cert.Kernel.S100000x1024 EltTy.f32)
local notation "tV" => (Memref.whole Cert.Kernel.main_arg1_scv : Memref Cert.Kernel.sig Kind.scVector Space.hbm Cert.Kernel.S1024 EltTy.i32)
local notation "sPV" => (Memref.whole Cert.Kernel.main_v1_0_scv : Memref Cert.Kernel.sig Kind.scVector Space.hbm Cert.Kernel.S32x1024 EltTy.f32)
local notation "cPV" => (Memref.whole Cert.Kernel.main_v1_1_scv : Memref Cert.Kernel.sig Kind.scVector Space.hbm Cert.Kernel.S32x1024 EltTy.f32)
local notation "sT" => (Memref.whole Cert.Kernel.cc0_scratch0 : Memref Cert.Kernel.sig Kind.scVector Space.vmem Cert.Kernel.S1024 EltTy.i32)
local notation "sA" => (Memref.whole Cert.Kernel.cc0_scratch1 : Memref Cert.Kernel.sig Kind.scVector Space.vmem Cert.Kernel.S1024 EltTy.f32)
local notation "sC" => (Memref.whole Cert.Kernel.cc0_scratch2 : Memref Cert.Kernel.sig Kind.scVector Space.vmem Cert.Kernel.S1024 EltTy.f32)
local notation "bA" => (Memref.whole Cert.Kernel.cc0_scratch3 : Memref Cert.Kernel.sig Kind.scVector Space.vmem Cert.Kernel.S32x1024 EltTy.f32)
local notation "bB" => (Memref.whole Cert.Kernel.cc0_scratch4 : Memref Cert.Kernel.sig Kind.scVector Space.vmem Cert.Kernel.S32x1024 EltTy.f32)

/-- The subcore's thread. -/
abbrev thr : Thread nD τ := V d (cV L) (jV L)

/-- The five semaphores the task uses: one per stream buffer, one per synchronous copy. -/
abbrev cellA : GSem nD τ sig := (V d (cV L) (jV L), .dma cc0_scratch5.sem)
abbrev cellB : GSem nD τ sig := (V d (cV L) (jV L), .dma cc0_scratch6.sem)
abbrev cell0 : GSem nD τ sig := (V d (cV L) (jV L), .dma cc0_scoped0.sem)
abbrev cell1 : GSem nD τ sig := (V d (cV L) (jV L), .dma cc0_scoped1.sem)
abbrev cell2 : GSem nD τ sig := (V d (cV L) (jV L), .dma cc0_scoped2.sem)

omit [FloatOps F] in
theorem cell_ne (t : Thread nD τ) {s s' : DmaSem sig} (h : s ≠ s') :
    ((t, SemLoc.dma s) : GSem nD τ sig) ≠ (t, SemLoc.dma s') :=
  fun e => h (SemLoc.dma.inj (Prod.mk.inj e).2)

omit [FloatOps F] in
theorem cell_mem (s : DmaSem sig) (hs : (SemLoc.dma s : SemLoc sig).isScoped .scVector = true) :
    ((V d (cV L) (jV L), SemLoc.dma s) : GSem nD τ sig) ∈ ownCells (V d (cV L) (jV L)) :=
  (mem_ownCells (g := ((V d (cV L) (jV L), SemLoc.dma s) : GSem nD τ sig))).mpr ⟨rfl, hs⟩

omit [FloatOps F] in
theorem ownSems0_V :
    (ownSems0 (V d (cV L) (jV L)) : sProp (MM F))
      = iprop(semVal (cellA d L) 0 ∗ semVal (cellB d L) 0 ∗ semVal (cell0 d L) 0 ∗ semVal (cell1 d L) 0 ∗ semVal (cell2 d L) 0
          ∗ bigSep ((((((ownCells (V d (cV L) (jV L))).erase (cellA d L)).erase (cellB d L)).erase (cell0 d L)).erase (cell1 d L)).erase (cell2 d L))
              fun g => semVal g 0) := by
  unfold SparseCore.Cfg.ownSems0
  have mA := cell_mem d L cc0_scratch5.sem (by decide)
  have mB := cell_mem d L cc0_scratch6.sem (by decide)
  have m0 := cell_mem d L cc0_scoped0.sem (by decide)
  have m1 := cell_mem d L cc0_scoped1.sem (by decide)
  have m2 := cell_mem d L cc0_scoped2.sem (by decide)
  rw [SparseCore.bigSep_erase' mA,
    SparseCore.bigSep_erase' (Finset.mem_erase.mpr ⟨cell_ne _ (by decide), mB⟩),
    SparseCore.bigSep_erase' (Finset.mem_erase.mpr ⟨cell_ne _ (by decide), Finset.mem_erase.mpr ⟨cell_ne _ (by decide), m0⟩⟩),
    SparseCore.bigSep_erase' (Finset.mem_erase.mpr ⟨cell_ne _ (by decide), Finset.mem_erase.mpr ⟨cell_ne _ (by decide),
      Finset.mem_erase.mpr ⟨cell_ne _ (by decide), m1⟩⟩⟩),
    SparseCore.bigSep_erase' (Finset.mem_erase.mpr ⟨cell_ne _ (by decide), Finset.mem_erase.mpr ⟨cell_ne _ (by decide),
      Finset.mem_erase.mpr ⟨cell_ne _ (by decide), Finset.mem_erase.mpr ⟨cell_ne _ (by decide), m2⟩⟩⟩⟩)]

omit [FloatOps F] in
theorem ref_ne {b b' : Ref sig .scVector} (h : b ≠ b') :
    (Proc.scVector (cV L) (jV L)).devRef b ≠ (Proc.scVector (cV L) (jV L)).devRef b' :=
  fun e => h (Proc.devRef_injective _ e)

omit [FloatOps F] in
/-- The five scratch buffers are among the subcore's own: they are them, at some contents, and the rest. -/
theorem ownBufs_V :
    (ownBufs (V d (cV L) (jV L)) : sProp (MM F))
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' ((SparseCore.Cfg.mem_ownRefs_of_owner (p := Proc.scVector (cV L) (jV L)) (b := (Proc.scVector (cV L) (jV L)).devRef cc0_scratch0) rfl))).trans ?_
  rw [SparseCore.bigSep_erase' (Finset.mem_erase.mpr ⟨ref_ne L (by decide), (SparseCore.Cfg.mem_ownRefs_of_owner (p := Proc.scVector (cV L) (jV L)) (b := (Proc.scVector (cV L) (jV L)).devRef cc0_scratch1) rfl)⟩),
    SparseCore.bigSep_erase' (Finset.mem_erase.mpr ⟨ref_ne L (by decide), Finset.mem_erase.mpr ⟨ref_ne L (by decide), (SparseCore.Cfg.mem_ownRefs_of_owner (p := Proc.scVector (cV L) (jV L)) (b := (Proc.scVector (cV L) (jV L)).devRef cc0_scratch2) rfl)⟩⟩),
    SparseCore.bigSep_erase' (Finset.mem_erase.mpr ⟨ref_ne L (by decide), Finset.mem_erase.mpr ⟨ref_ne L (by decide),
      Finset.mem_erase.mpr ⟨ref_ne L (by decide), (SparseCore.Cfg.mem_ownRefs_of_owner (p := Proc.scVector (cV L) (jV L)) (b := (Proc.scVector (cV L) (jV L)).devRef cc0_scratch3) rfl)⟩⟩⟩),
    SparseCore.bigSep_erase' (Finset.mem_erase.mpr ⟨ref_ne L (by decide), Finset.mem_erase.mpr ⟨ref_ne L (by decide),
      Finset.mem_erase.mpr ⟨ref_ne L (by decide), Finset.mem_erase.mpr ⟨ref_ne L (by decide), (SparseCore.Cfg.mem_ownRefs_of_owner (p := Proc.scVector (cV L) (jV L)) (b := (Proc.scVector (cV L) (jV L)).devRef cc0_scratch4) rfl)⟩⟩⟩⟩)]

/-! ### Row `w` of a partial array, as the kernel slices it -/

/-- The rectangle of the kernel's two write-outs: one row at the printed offsets. -/
abbrev rowK : Rect S32x1024 := Rect.unit (s := S32x1024) (k0_off72 L) S1x1024.size (k0_off72_inb L)
/-- Row `w` of the two partial arrays as the kernel addresses it: the slice, squeezed. -/
abbrev sPRowK : Memref sig .scVector .hbm S1024 .f32 := ((sPV).slice (rowK L) (fun _ => rfl)).squeeze S1024 squeezes_S1x1024_S1024
abbrev cPRowK : Memref sig .scVector .hbm S1024 .f32 := ((cPV).slice (rowK L) (fun _ => rfl)).squeeze S1024 squeezes_S1x1024_S1024

omit [FloatOps F] in
theorem rowK_eq : rowK L = sRow (wid L) := by
  unfold rowK sRow Rect.part Rect.block
  congr 1 <;> funext a
  · rw [k0_off72_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_sPRowK : (sPRowK L).view.set = rowSet (wid L) := by
  show (((sPV).view.slice (rowK L)).reshape S1024 squeezes_S1x1024_S1024.numel_eq).set
    = ((sPV).view.slice (sRow (wid L))).set
  rw [View.set_reshape]
  exact rowK_eq L ▸ rfl
omit [FloatOps F] in
theorem set_cPRowK : (cPRowK L).view.set = rowSet (wid L) := by
  show (((cPV).view.slice (rowK L)).reshape S1024 squeezes_S1x1024_S1024.numel_eq).set
    = ((sPV).view.slice (sRow (wid L))).set
  rw [View.set_reshape]
  exact rowK_eq L ▸ rfl

omit [FloatOps F] in
theorem pts_sPRowK (f : Buf (Elt F) (sPLoc d)) :
    ((sPRowK L).view.loc (V d (cV L) (jV L)) ↦[(sPRowK L).view.set]{fullShare} f : sProp (MM F)) = sPLoc d ↦[rowSet (wid L)]{fullShare} f := by
  rw [set_sPRowK]
omit [FloatOps F] in
theorem pts_cPRowK (f : Buf (Elt F) (cPLoc d)) :
    ((cPRowK L).view.loc (V d (cV L) (jV L)) ↦[(cPRowK L).view.set]{fullShare} f : sProp (MM F)) = cPLoc d ↦[rowSet (wid L)]{fullShare} f := by
  rw [set_cPRowK]

/-! ### The arrays and the scratch, as the subcore's memrefs address them -/

omit [FloatOps F] in
theorem pts_x (q : PosShare TreeShare) (f : Buf (Elt F) (xTLoc d)) :
    ((xV).view.loc (V d (cV L) (jV L)) ↦{q} f : sProp (MM F)) = xTLoc d ↦{q} f := rfl
omit [FloatOps F] in
theorem pts_t (q : PosShare TreeShare) (f : Buf (Elt F) (tgLoc d)) :
    ((tV).view.loc (V d (cV L) (jV L)) ↦{q} f : sProp (MM F)) = tgLoc d ↦{q} f := rfl
omit [FloatOps F] in
theorem pts_sT (f : Buf (Elt F) ((V d (cV L) (jV L)).loc cc0_scratch0)) :
    ((sT).view.loc (V d (cV L) (jV L)) ↦{fullShare} f : sProp (MM F)) = (V d (cV L) (jV L)).loc cc0_scratch0 ↦{fullShare} f := rfl
omit [FloatOps F] in
theorem pts_sA (f : Buf (Elt F) ((V d (cV L) (jV L)).loc cc0_scratch1)) :
    ((sA).view.loc (V d (cV L) (jV L)) ↦{fullShare} f : sProp (MM F)) = (V d (cV L) (jV L)).loc cc0_scratch1 ↦{fullShare} f := rfl
omit [FloatOps F] in
theorem pts_sC (f : Buf (Elt F) ((V d (cV L) (jV L)).loc cc0_scratch2)) :
    ((sC).view.loc (V d (cV L) (jV L)) ↦{fullShare} f : sProp (MM F)) = (V d (cV L) (jV L)).loc cc0_scratch2 ↦{fullShare} f := rfl
omit [FloatOps F] in
theorem pts_bA (f : Buf (Elt F) ((V d (cV L) (jV L)).loc cc0_scratch3)) :
    ((bA).view.loc (V d (cV L) (jV L)) ↦{fullShare} f : sProp (MM F)) = (V d (cV L) (jV L)).loc cc0_scratch3 ↦{fullShare} f := rfl
omit [FloatOps F] in
theorem pts_bB (f : Buf (Elt F) ((V d (cV L) (jV L)).loc cc0_scratch4)) :
    ((bB).view.loc (V d (cV L) (jV L)) ↦{fullShare} f : sProp (MM F)) = (V d (cV L) (jV L)).loc cc0_scratch4 ↦{fullShare} f := rfl

/-! ### What the scratch buffers hold, as functions of the input -/

/-- Lanes below `16 k` at `B`, the others at `A`: a buffer of 1024 lanes partway through a sweep in groups of sixteen. -/
def midF {α : Type} (A B : S1024.Idx → α) (k : ℕ) : S1024.Idx → α := fun j => if (j 0).val < 16 * k then B j else A j

omit [FloatOps F] in
theorem midF_zero {α : Type} (A B : S1024.Idx → α) : midF A B 0 = A := by
  funext j; unfold midF; rw [if_neg (by omega)]
omit [FloatOps F] in
theorem midF_full {α : Type} (A B : S1024.Idx → α) : midF A B 64 = B := by
  funext j; unfold midF
  have hj : (j 0).val < 1024 := (j 0).isLt
  rw [if_pos (by omega)]

omit [FloatOps F] in
/-- The sixteen lanes a trip stores sit at `16 k ..`: a lane of the store, placed in the buffer. -/
theorem lane_val {off : Fin 1 → ℕ} {inb : ∀ a, off a + S16.size a ≤ S1024.size a} (k : ℕ) (hoff : off = ![16 * k]) (x : S16.Idx) :
    (((Rect.unit (s := S1024) off S16.size inb).emb x) 0).val = 16 * k + (x 0).val := by
  subst hoff
  show 16 * k + 1 * (x 0).val = 16 * k + (x 0).val
  rw [Nat.one_mul]

omit [FloatOps F] in
theorem midF_in {α : Type} (A B : S1024.Idx → α) (k : ℕ) {off : Fin 1 → ℕ} {inb : ∀ a, off a + S16.size a ≤ S1024.size a}
    (hoff : off = ![16 * k]) (x : S16.Idx) :
    midF A B (k + 1) ((Rect.unit (s := S1024) off S16.size inb).emb x) = B ((Rect.unit (s := S1024) off S16.size inb).emb x) := by
  have he := lane_val (inb := inb) k hoff x
  have hx : (x 0).val < 16 := (x 0).isLt
  unfold midF
  rw [if_pos (by omega)]

omit [FloatOps F] in
theorem midF_old {α : Type} (A B : S1024.Idx → α) (k : ℕ) {off : Fin 1 → ℕ} {inb : ∀ a, off a + S16.size a ≤ S1024.size a}
    (hoff : off = ![16 * k]) (x : S16.Idx) :
    midF A B k ((Rect.unit (s := S1024) off S16.size inb).emb x) = A ((Rect.unit (s := S1024) off S16.size inb).emb x) := by
  have he := lane_val (inb := inb) k hoff x
  unfold midF
  rw [if_neg (by omega)]

omit [FloatOps F] in
theorem midF_out {α : Type} (A B : S1024.Idx → α) (k : ℕ) {off : Fin 1 → ℕ} {inb : ∀ a, off a + S16.size a ≤ S1024.size a}
    (hoff : off = ![16 * k]) (y : S1024.Idx) (hy : y ∉ (Rect.unit (s := S1024) off S16.size inb).set) :
    midF A B k y = midF A B (k + 1) y := by
  subst hoff
  have hy' : ¬ (16 * k ≤ (y 0).val ∧ (y 0).val < 16 * k + 16) := fun h => hy (Rect.mem_set_unit.mpr fun a => by
    obtain rfl : a = 0 := Subsingleton.elim _ _
    exact h)
  unfold midF
  by_cases h1 : (y 0).val < 16 * k
  · rw [if_pos h1, if_pos (by omega)]
  · rw [if_neg h1, if_neg (by omega)]

/-- The running sums and selections after `n` rows of stripe `w`, all 1024 columns. -/
def accAt (xT : SXT.Idx → F .f32) (w : Fin 32) (n : ℕ) : S1024.Idx → F .f32 := fun j => scSumN xT w (j 0) n
def selAt (xT : SXT.Idx → F .f32) (tg : STG.Idx → BitVec 32) (w : Fin 32) (n : ℕ) : S1024.Idx → F .f32 :=
  fun j => scSelN xT tg w (j 0) n

/-- A stream buffer holding rows `n .. n + 31` of stripe `w`. -/
def chunkOf (xT : SXT.Idx → F .f32) (w : Fin 32) (n : ℕ) : S32x1024.Idx → F .f32 :=
  fun j => xAt xT (1024 * w.val + (n + (j 0).val)) (j 1)

theorem accAt_zero (xT : SXT.Idx → F .f32) (w : Fin 32) : accAt xT w 0 = fun _ => FloatOps.ofBits .f32 0#32 := rfl
theorem selAt_zero (xT : SXT.Idx → F .f32) (tg : STG.Idx → BitVec 32) (w : Fin 32) :
    selAt xT tg w 0 = fun _ => FloatOps.ofBits .f32 0#32 := rfl

/-- The thirty-two rows a trip loads, by position. -/
def rows3 (v53 : Vec F S1x16 .f32) (v62 : Vec F S1x16 .f32) (v71 : Vec F S1x16 .f32) (v80 : Vec F S1x16 .f32) (v89 : Vec F S1x16 .f32) (v98 : Vec F S1x16 .f32) (v107 : Vec F S1x16 .f32) (v116 : Vec F S1x16 .f32) (v125 : Vec F S1x16 .f32) (v134 : Vec F S1x16 .f32) (v143 : Vec F S1x16 .f32) (v152 : Vec F S1x16 .f32) (v161 : Vec F S1x16 .f32) (v170 : Vec F S1x16 .f32) (v179 : Vec F S1x16 .f32) (v188 : Vec F S1x16 .f32) (v197 : Vec F S1x16 .f32) (v206 : Vec F S1x16 .f32) (v215 : Vec F S1x16 .f32) (v224 : Vec F S1x16 .f32) (v233 : Vec F S1x16 .f32) (v242 : Vec F S1x16 .f32) (v251 : Vec F S1x16 .f32) (v260 : Vec F S1x16 .f32) (v269 : Vec F S1x16 .f32) (v278 : Vec F S1x16 .f32) (v287 : Vec F S1x16 .f32) (v296 : Vec F S1x16 .f32) (v305 : Vec F S1x16 .f32) (v314 : Vec F S1x16 .f32) (v323 : Vec F S1x16 .f32) (v332 : Vec F S1x16 .f32) : ℕ → Vec F S1x16 .f32 :=
  fun i => match i with | 0 => v53 | 1 => v62 | 2 => v71 | 3 => v80 | 4 => v89 | 5 => v98 | 6 => v107 | 7 => v116 | 8 => v125 | 9 => v134 | 10 => v143 | 11 => v152 | 12 => v161 | 13 => v170 | 14 => v179 | 15 => v188 | 16 => v197 | 17 => v206 | 18 => v215 | 19 => v224 | 20 => v233 | 21 => v242 | 22 => v251 | 23 => v260 | 24 => v269 | 25 => v278 | 26 => v287 | 27 => v296 | 28 => v305 | 29 => v314 | 30 => v323 | 31 => v332 | _ => v332

/-- What a trip stores into the running sums, lane by lane: the lane's old sum carried over the thirty-two rows. -/
theorem pay3_acc (v46 : Vec F S16 .f32) (v53 : Vec F S1x16 .f32) (v62 : Vec F S1x16 .f32) (v71 : Vec F S1x16 .f32) (v80 : Vec F S1x16 .f32) (v89 : Vec F S1x16 .f32) (v98 : Vec F S1x16 .f32) (v107 : Vec F S1x16 .f32) (v116 : Vec F S1x16 .f32) (v125 : Vec F S1x16 .f32) (v134 : Vec F S1x16 .f32) (v143 : Vec F S1x16 .f32) (v152 : Vec F S1x16 .f32) (v161 : Vec F S1x16 .f32) (v170 : Vec F S1x16 .f32) (v179 : Vec F S1x16 .f32) (v188 : Vec F S1x16 .f32) (v197 : Vec F S1x16 .f32) (v206 : Vec F S1x16 .f32) (v215 : Vec F S1x16 .f32) (v224 : Vec F S1x16 .f32) (v233 : Vec F S1x16 .f32) (v242 : Vec F S1x16 .f32) (v251 : Vec F S1x16 .f32) (v260 : Vec F S1x16 .f32) (v269 : Vec F S1x16 .f32) (v278 : Vec F S1x16 .f32) (v287 : Vec F S1x16 .f32) (v296 : Vec F S1x16 .f32) (v305 : Vec F S1x16 .f32) (v314 : Vec F S1x16 .f32) (v323 : Vec F S1x16 .f32) (v332 : Vec F S1x16 .f32) (x : S16.Idx) :
    (k0_pay93 (k0_pay44 (k0_pay37 (k0_pay28 (k0_pay21 (k0_pay15 (k0_pay6 v46 v53 v62 v71 v80) v89 v98 v107 v116 v125 v134) v143 v152 v161 v170 v179) v188 v197 v206 v215 v224) (k0_pay31 v233) v242 v251 v260 v269 v278) v287 v296 v305 v314 v323) (k0_pay46 v332)) x
      = addExpN (shapeCast S16 v46 shapeCasts_S16_S16 x)
          (fun i => shapeCast S16 (rows3 v53 v62 v71 v80 v89 v98 v107 v116 v125 v134 v143 v152 v161 v170 v179 v188 v197 v206 v215 v224 v233 v242 v251 v260 v269 v278 v287 v296 v305 v314 v323 v332 i) shapeCasts_S1x16_S16 x) 32 := by
  rw [show (k0_pay93 (k0_pay44 (k0_pay37 (k0_pay28 (k0_pay21 (k0_pay15 (k0_pay6 v46 v53 v62 v71 v80) v89 v98 v107 v116 v125 v134) v143 v152 v161 v170 v179) v188 v197 v206 v215 v224) (k0_pay31 v233) v242 v251 v260 v269 v278) v287 v296 v305 v314 v323) (k0_pay46 v332))
      = shapeCast S16 (addf (k0_pay44 (k0_pay37 (k0_pay28 (k0_pay21 (k0_pay15 (k0_pay6 v46 v53 v62 v71 v80) v89 v98 v107 v116 v125 v134) v143 v152 v161 v170 v179) v188 v197 v206 v215 v224) (k0_pay31 v233) v242 v251 v260 v269 v278) v287 v296 v305 v314 v323) (exp (k0_pay46 v332))) shapeCasts_S16_S16 from rfl, shapeCast_self]
  rfl

/-- What a trip stores into the running selections, lane by lane: the lane's old selection carried over the thirty-two
    rows, each tested against the lane's target less the base word. -/
theorem pay3_sel (v22 : BitVec 32) (v41 : Vec F S16 .i32) (v49 : Vec F S16 .f32) (v53 : Vec F S1x16 .f32) (v62 : Vec F S1x16 .f32) (v71 : Vec F S1x16 .f32) (v80 : Vec F S1x16 .f32) (v89 : Vec F S1x16 .f32) (v98 : Vec F S1x16 .f32) (v107 : Vec F S1x16 .f32) (v116 : Vec F S1x16 .f32) (v125 : Vec F S1x16 .f32) (v134 : Vec F S1x16 .f32) (v143 : Vec F S1x16 .f32) (v152 : Vec F S1x16 .f32) (v161 : Vec F S1x16 .f32) (v170 : Vec F S1x16 .f32) (v179 : Vec F S1x16 .f32) (v188 : Vec F S1x16 .f32) (v197 : Vec F S1x16 .f32) (v206 : Vec F S1x16 .f32) (v215 : Vec F S1x16 .f32) (v224 : Vec F S1x16 .f32) (v233 : Vec F S1x16 .f32) (v242 : Vec F S1x16 .f32) (v251 : Vec F S1x16 .f32) (v260 : Vec F S1x16 .f32) (v269 : Vec F S1x16 .f32) (v278 : Vec F S1x16 .f32) (v287 : Vec F S1x16 .f32) (v296 : Vec F S1x16 .f32) (v305 : Vec F S1x16 .f32) (v314 : Vec F S1x16 .f32) (v323 : Vec F S1x16 .f32) (v332 : Vec F S1x16 .f32) (x : S16.Idx) :
    (k0_pay94 (k0_pay1 v22 v41) (k0_pay45 (k0_pay1 v22 v41) (k0_pay38 (k0_pay1 v22 v41) (k0_pay29 (k0_pay1 v22 v41) (k0_pay22 (k0_pay1 v22 v41) (k0_pay13 (k0_pay1 v22 v41) (k0_pay7 v22 v41 v49 v53 v62 v71 v80) v89 v98 v107 v116 v125) (k0_pay14 v134) v143 v152 v161 v170 v179) v188 v197 v206 v215 v224) (k0_pay30 v233) v242 v251 v260 v269 v278) v287 v296 v305 v314 v323) (k0_pay46 v332)) x
      = selStepN (shapeCast S16 v41 shapeCasts_S16_S16 x) v22 (shapeCast S16 v49 shapeCasts_S16_S16 x)
          (fun i => shapeCast S16 (rows3 v53 v62 v71 v80 v89 v98 v107 v116 v125 v134 v143 v152 v161 v170 v179 v188 v197 v206 v215 v224 v233 v242 v251 v260 v269 v278 v287 v296 v305 v314 v323 v332 i) shapeCasts_S1x16_S16 x) 32 := by
  rw [show (k0_pay94 (k0_pay1 v22 v41) (k0_pay45 (k0_pay1 v22 v41) (k0_pay38 (k0_pay1 v22 v41) (k0_pay29 (k0_pay1 v22 v41) (k0_pay22 (k0_pay1 v22 v41) (k0_pay13 (k0_pay1 v22 v41) (k0_pay7 v22 v41 v49 v53 v62 v71 v80) v89 v98 v107 v116 v125) (k0_pay14 v134) v143 v152 v161 v170 v179) v188 v197 v206 v215 v224) (k0_pay30 v233) v242 v251 v260 v269 v278) v287 v296 v305 v314 v323) (k0_pay46 v332))
      = shapeCast S16 (select (cmpi .eq (k0_pay1 v22 v41) (broadcast S16 31#32)) (k0_pay46 v332) (k0_pay45 (k0_pay1 v22 v41) (k0_pay38 (k0_pay1 v22 v41) (k0_pay29 (k0_pay1 v22 v41) (k0_pay22 (k0_pay1 v22 v41) (k0_pay13 (k0_pay1 v22 v41) (k0_pay7 v22 v41 v49 v53 v62 v71 v80) v89 v98 v107 v116 v125) (k0_pay14 v134) v143 v152 v161 v170 v179) v188 v197 v206 v215 v224) (k0_pay30 v233) v242 v251 v260 v269 v278) v287 v296 v305 v314 v323)) shapeCasts_S16_S16 from rfl, shapeCast_self]
  rfl

/-- The thirty-two rows a trip loads, by position. -/
def rows4 (v53 : Vec F S1x16 .f32) (v62 : Vec F S1x16 .f32) (v71 : Vec F S1x16 .f32) (v80 : Vec F S1x16 .f32) (v89 : Vec F S1x16 .f32) (v98 : Vec F S1x16 .f32) (v107 : Vec F S1x16 .f32) (v116 : Vec F S1x16 .f32) (v125 : Vec F S1x16 .f32) (v134 : Vec F S1x16 .f32) (v143 : Vec F S1x16 .f32) (v152 : Vec F S1x16 .f32) (v161 : Vec F S1x16 .f32) (v170 : Vec F S1x16 .f32) (v179 : Vec F S1x16 .f32) (v188 : Vec F S1x16 .f32) (v197 : Vec F S1x16 .f32) (v206 : Vec F S1x16 .f32) (v215 : Vec F S1x16 .f32) (v224 : Vec F S1x16 .f32) (v233 : Vec F S1x16 .f32) (v242 : Vec F S1x16 .f32) (v251 : Vec F S1x16 .f32) (v260 : Vec F S1x16 .f32) (v269 : Vec F S1x16 .f32) (v278 : Vec F S1x16 .f32) (v287 : Vec F S1x16 .f32) (v296 : Vec F S1x16 .f32) (v305 : Vec F S1x16 .f32) (v314 : Vec F S1x16 .f32) (v323 : Vec F S1x16 .f32) (v332 : Vec F S1x16 .f32) : ℕ → Vec F S1x16 .f32 :=
  fun i => match i with | 0 => v53 | 1 => v62 | 2 => v71 | 3 => v80 | 4 => v89 | 5 => v98 | 6 => v107 | 7 => v116 | 8 => v125 | 9 => v134 | 10 => v143 | 11 => v152 | 12 => v161 | 13 => v170 | 14 => v179 | 15 => v188 | 16 => v197 | 17 => v206 | 18 => v215 | 19 => v224 | 20 => v233 | 21 => v242 | 22 => v251 | 23 => v260 | 24 => v269 | 25 => v278 | 26 => v287 | 27 => v296 | 28 => v305 | 29 => v314 | 30 => v323 | 31 => v332 | _ => v332

/-- What a trip stores into the running sums, lane by lane: the lane's old sum carried over the thirty-two rows. -/
theorem pay4_acc (v46 : Vec F S16 .f32) (v53 : Vec F S1x16 .f32) (v62 : Vec F S1x16 .f32) (v71 : Vec F S1x16 .f32) (v80 : Vec F S1x16 .f32) (v89 : Vec F S1x16 .f32) (v98 : Vec F S1x16 .f32) (v107 : Vec F S1x16 .f32) (v116 : Vec F S1x16 .f32) (v125 : Vec F S1x16 .f32) (v134 : Vec F S1x16 .f32) (v143 : Vec F S1x16 .f32) (v152 : Vec F S1x16 .f32) (v161 : Vec F S1x16 .f32) (v170 : Vec F S1x16 .f32) (v179 : Vec F S1x16 .f32) (v188 : Vec F S1x16 .f32) (v197 : Vec F S1x16 .f32) (v206 : Vec F S1x16 .f32) (v215 : Vec F S1x16 .f32) (v224 : Vec F S1x16 .f32) (v233 : Vec F S1x16 .f32) (v242 : Vec F S1x16 .f32) (v251 : Vec F S1x16 .f32) (v260 : Vec F S1x16 .f32) (v269 : Vec F S1x16 .f32) (v278 : Vec F S1x16 .f32) (v287 : Vec F S1x16 .f32) (v296 : Vec F S1x16 .f32) (v305 : Vec F S1x16 .f32) (v314 : Vec F S1x16 .f32) (v323 : Vec F S1x16 .f32) (v332 : Vec F S1x16 .f32) (x : S16.Idx) :
    (k0_pay98 (k0_pay90 (k0_pay83 (k0_pay74 (k0_pay67 (k0_pay61 (k0_pay52 v46 v53 v62 v71 v80) v89 v98 v107 v116 v125 v134) v143 v152 v161 v170 v179) v188 v197 v206 v215 v224) (k0_pay77 v233) v242 v251 v260 v269 v278) v287 v296 v305 v314 v323) (k0_pay92 v332)) x
      = addExpN (shapeCast S16 v46 shapeCasts_S16_S16 x)
          (fun i => shapeCast S16 (rows4 v53 v62 v71 v80 v89 v98 v107 v116 v125 v134 v143 v152 v161 v170 v179 v188 v197 v206 v215 v224 v233 v242 v251 v260 v269 v278 v287 v296 v305 v314 v323 v332 i) shapeCasts_S1x16_S16 x) 32 := by
  rw [show (k0_pay98 (k0_pay90 (k0_pay83 (k0_pay74 (k0_pay67 (k0_pay61 (k0_pay52 v46 v53 v62 v71 v80) v89 v98 v107 v116 v125 v134) v143 v152 v161 v170 v179) v188 v197 v206 v215 v224) (k0_pay77 v233) v242 v251 v260 v269 v278) v287 v296 v305 v314 v323) (k0_pay92 v332))
      = shapeCast S16 (addf (k0_pay90 (k0_pay83 (k0_pay74 (k0_pay67 (k0_pay61 (k0_pay52 v46 v53 v62 v71 v80) v89 v98 v107 v116 v125 v134) v143 v152 v161 v170 v179) v188 v197 v206 v215 v224) (k0_pay77 v233) v242 v251 v260 v269 v278) v287 v296 v305 v314 v323) (exp (k0_pay92 v332))) shapeCasts_S16_S16 from rfl, shapeCast_self]
  rfl

/-- What a trip stores into the running selections, lane by lane: the lane's old selection carried over the thirty-two
    rows, each tested against the lane's target less the base word. -/
theorem pay4_sel (v37 : BitVec 32) (v41 : Vec F S16 .i32) (v49 : Vec F S16 .f32) (v53 : Vec F S1x16 .f32) (v62 : Vec F S1x16 .f32) (v71 : Vec F S1x16 .f32) (v80 : Vec F S1x16 .f32) (v89 : Vec F S1x16 .f32) (v98 : Vec F S1x16 .f32) (v107 : Vec F S1x16 .f32) (v116 : Vec F S1x16 .f32) (v125 : Vec F S1x16 .f32) (v134 : Vec F S1x16 .f32) (v143 : Vec F S1x16 .f32) (v152 : Vec F S1x16 .f32) (v161 : Vec F S1x16 .f32) (v170 : Vec F S1x16 .f32) (v179 : Vec F S1x16 .f32) (v188 : Vec F S1x16 .f32) (v197 : Vec F S1x16 .f32) (v206 : Vec F S1x16 .f32) (v215 : Vec F S1x16 .f32) (v224 : Vec F S1x16 .f32) (v233 : Vec F S1x16 .f32) (v242 : Vec F S1x16 .f32) (v251 : Vec F S1x16 .f32) (v260 : Vec F S1x16 .f32) (v269 : Vec F S1x16 .f32) (v278 : Vec F S1x16 .f32) (v287 : Vec F S1x16 .f32) (v296 : Vec F S1x16 .f32) (v305 : Vec F S1x16 .f32) (v314 : Vec F S1x16 .f32) (v323 : Vec F S1x16 .f32) (v332 : Vec F S1x16 .f32) (x : S16.Idx) :
    (k0_pay99 (k0_pay47 v37 v41) (k0_pay91 (k0_pay47 v37 v41) (k0_pay84 (k0_pay47 v37 v41) (k0_pay75 (k0_pay47 v37 v41) (k0_pay68 (k0_pay47 v37 v41) (k0_pay59 (k0_pay47 v37 v41) (k0_pay53 v37 v41 v49 v53 v62 v71 v80) v89 v98 v107 v116 v125) (k0_pay60 v134) v143 v152 v161 v170 v179) v188 v197 v206 v215 v224) (k0_pay76 v233) v242 v251 v260 v269 v278) v287 v296 v305 v314 v323) (k0_pay92 v332)) x
      = selStepN (shapeCast S16 v41 shapeCasts_S16_S16 x) v37 (shapeCast S16 v49 shapeCasts_S16_S16 x)
          (fun i => shapeCast S16 (rows4 v53 v62 v71 v80 v89 v98 v107 v116 v125 v134 v143 v152 v161 v170 v179 v188 v197 v206 v215 v224 v233 v242 v251 v260 v269 v278 v287 v296 v305 v314 v323 v332 i) shapeCasts_S1x16_S16 x) 32 := by
  rw [show (k0_pay99 (k0_pay47 v37 v41) (k0_pay91 (k0_pay47 v37 v41) (k0_pay84 (k0_pay47 v37 v41) (k0_pay75 (k0_pay47 v37 v41) (k0_pay68 (k0_pay47 v37 v41) (k0_pay59 (k0_pay47 v37 v41) (k0_pay53 v37 v41 v49 v53 v62 v71 v80) v89 v98 v107 v116 v125) (k0_pay60 v134) v143 v152 v161 v170 v179) v188 v197 v206 v215 v224) (k0_pay76 v233) v242 v251 v260 v269 v278) v287 v296 v305 v314 v323) (k0_pay92 v332))
      = shapeCast S16 (select (cmpi .eq (k0_pay47 v37 v41) (broadcast S16 31#32)) (k0_pay92 v332) (k0_pay91 (k0_pay47 v37 v41) (k0_pay84 (k0_pay47 v37 v41) (k0_pay75 (k0_pay47 v37 v41) (k0_pay68 (k0_pay47 v37 v41) (k0_pay59 (k0_pay47 v37 v41) (k0_pay53 v37 v41 v49 v53 v62 v71 v80) v89 v98 v107 v116 v125) (k0_pay60 v134) v143 v152 v161 v170 v179) v188 v197 v206 v215 v224) (k0_pay76 v233) v242 v251 v260 v269 v278) v287 v296 v305 v314 v323)) shapeCasts_S16_S16 from rfl, shapeCast_self]
  rfl

/-! ### Loop counts and the pair loop's branch -/

omit [FloatOps F] in
theorem trips1 : k0_t1_loop.trips = 64 := by decide +kernel
omit [FloatOps F] in
theorem trips2 : k0_t2_loop.trips = 16 := by decide +kernel
omit [FloatOps F] in
theorem trips3 : k0_t3_loop.trips = 64 := by decide +kernel
omit [FloatOps F] in
theorem trips4 : k0_t4_loop.trips = 64 := by decide +kernel
omit [FloatOps F] in
/-- The pair loop starts the next pair's first chunk exactly when there is a next pair. -/
theorem cond1_iff : ∀ p : Fin k0_t2_loop.trips, k0_cond1 p = 1#1 ↔ p.val + 1 < 16 := by decide +kernel

/-! ### The chunks of the stripe, as the kernel slices them -/

/-- A chunk of thirty-two rows of the transposed input at printed offsets `off`. -/
abbrev chunkM (off : Fin 2 → ℕ) (inb : ∀ a, off a + S32x1024.size a ≤ S100000x1024.size a) : Memref sig .scVector .hbm S32x1024 .f32 :=
  (xV).slice (Rect.unit (s := S100000x1024) off S32x1024.size inb) (fun _ => rfl)

omit [FloatOps F] in
theorem chunkM_congr {off off' : Fin 2 → ℕ} (h : off = off') (inb) (inb') : chunkM off inb = chunkM off' inb' :=
  Memref.slice_unit_congr _ h inb inb' _ _

/-- What a chunk reads off the input: rows `n .. n + 31` of stripe `w`, when its offsets are `(1024 w + n, 0)`. -/
theorem chunk_read (xT : S100000x1024.Idx → F .f32) (w : Fin 32) (n : ℕ) (hn : n + 32 ≤ 1024) {off : Fin 2 → ℕ}
    {inb : ∀ a, off a + S32x1024.size a ≤ S100000x1024.size a} (hoff : off = ![1024 * w.val + n, 0]) :
    (chunkM off inb).view.read (Elt F) xT = chunkOf xT w n := by
  subst hoff
  funext j
  have hw := w.isLt
  have hj0 : (j 0).val < 32 := (j 0).isLt
  show xT ((Rect.unit (s := S100000x1024) ![1024 * w.val + n, 0] S32x1024.size inb).emb j) = chunkOf xT w n j
  unfold chunkOf xAt
  rw [dif_pos (by omega)]
  congr 1
  funext a
  match a with
  | ⟨0, _⟩ => exact Fin.ext (by show 1024 * w.val + n + 1 * (j 0).val = 1024 * w.val + (n + (j 0).val); omega)
  | ⟨1, _⟩ => exact Fin.ext (by show 0 + 1 * (j 1).val = (j 1).val; omega)

/-! ### The three loops' invariants -/

/-- Clearing the two running rows, sixteen lanes a trip. -/
def inv1 (fA fC : S1024.Idx → F .f32) (k : ℕ) (_ : Unit) : sProp (MM F) :=
  iprop(((sA).view.loc (V d (cV L) (jV L)) ↦{fullShare} midF fA (fun _ => FloatOps.ofBits .f32 0#32) k)
    ∗ ((sC).view.loc (V d (cV L) (jV L)) ↦{fullShare} midF fC (fun _ => FloatOps.ofBits .f32 0#32) k))

/-- One chunk, sixteen columns a trip: the targets, the two running rows partway from `n` rows to `n + 32`, and the
    chunk in stream buffer A. -/
def inv3 (xT : S100000x1024.Idx → F .f32) (tg : S1024.Idx → BitVec 32) (n : ℕ) (k : ℕ) (_ : Unit) : sProp (MM F) :=
  iprop(((sT).view.loc (V d (cV L) (jV L)) ↦{fullShare} tg)
    ∗ ((sA).view.loc (V d (cV L) (jV L)) ↦{fullShare} midF (accAt xT (wid L) n) (accAt xT (wid L) (n + 32)) k)
    ∗ ((sC).view.loc (V d (cV L) (jV L)) ↦{fullShare} midF (selAt xT tg (wid L) n) (selAt xT tg (wid L) (n + 32)) k)
    ∗ ((bA).view.loc (V d (cV L) (jV L)) ↦{fullShare} chunkOf xT (wid L) n))

/-- The same with the chunk in stream buffer B. -/
def inv4 (xT : S100000x1024.Idx → F .f32) (tg : S1024.Idx → BitVec 32) (n : ℕ) (k : ℕ) (_ : Unit) : sProp (MM F) :=
  iprop(((sT).view.loc (V d (cV L) (jV L)) ↦{fullShare} tg)
    ∗ ((sA).view.loc (V d (cV L) (jV L)) ↦{fullShare} midF (accAt xT (wid L) n) (accAt xT (wid L) (n + 32)) k)
    ∗ ((sC).view.loc (V d (cV L) (jV L)) ↦{fullShare} midF (selAt xT tg (wid L) n) (selAt xT tg (wid L) (n + 32)) k)
    ∗ ((bB).view.loc (V d (cV L) (jV L)) ↦{fullShare} chunkOf xT (wid L) n))

/-! ### One column group: what a trip loads and what it stores, lane by lane -/

theorem addExpN_congr {a a' : F .f32} {r r' : ℕ → F .f32} (ha : a = a') :
    ∀ m, (∀ i, i < m → r i = r' i) → addExpN a r m = addExpN a' r' m
  | 0, _ => ha
  | m + 1, h => by
    show FloatOps.addf (addExpN a r m) (FloatOps.exp (r m)) = FloatOps.addf (addExpN a' r' m) (FloatOps.exp (r' m))
    rw [addExpN_congr ha m (fun i hi => h i (by omega)), h m (by omega)]

theorem selStepN_congr {t t' g : BitVec 32} {s s' : F .f32} {r r' : ℕ → F .f32} (ht : t = t') (hs : s = s') :
    ∀ m, (∀ i, i < m → r i = r' i) → selStepN t g s r m = selStepN t' g s' r' m
  | 0, _ => hs
  | m + 1, h => by
    show Scalar.select (IntOp.cmpi .eq (IntOp.subi t g) (BitVec.ofNat 32 m)) (r m) (selStepN t g s r m)
      = Scalar.select (IntOp.cmpi .eq (IntOp.subi t' g) (BitVec.ofNat 32 m)) (r' m) (selStepN t' g s' r' m)
    rw [selStepN_congr ht hs m (fun i hi => h i (by omega)), h m (by omega), ht]

omit [FloatOps F] in
/-- Lane `x` of the sixteen a trip handles is column `16 k + x`. -/
theorem lane_ix1 {off : Fin 1 → ℕ} {inb : ∀ a, off a + S16.size a ≤ S1024.size a} (k : ℕ) (hoff : off = ![16 * k]) (x : S16.Idx)
    (col : Fin 1024) (hcol : col.val = 16 * k + (x 0).val) :
    (Rect.unit (s := S1024) off S16.size inb).emb x = ix1 col := by
  funext a
  obtain rfl : a = 0 := Subsingleton.elim _ _
  exact Fin.ext ((lane_val (inb := inb) k hoff x).trans hcol.symm)

/-- Row `i` of a chunk, loaded at the trip's sixteen columns and read at lane `x`: the input at class `1024 w + n + i`,
    column `16 k + x`. -/
theorem row_lane (xT : S100000x1024.Idx → F .f32) (w : Fin 32) (n i k : ℕ) {off : Fin 2 → ℕ}
    {inb : ∀ a, off a + S1x16.size a ≤ S32x1024.size a} (hoff : off = ![i, 16 * k]) (x : S16.Idx)
    (col : Fin 1024) (hcol : col.val = 16 * k + (x 0).val) (v : Vec F S1x16 .f32)
    (hv : ∀ y, v y = chunkOf xT w n ((Rect.unit (s := S32x1024) off S1x16.size inb).emb y)) :
    shapeCast S16 v shapeCasts_S1x16_S16 x = xAt xT (1024 * w.val + (n + i)) col := by
  subst hoff
  obtain ⟨i0, rfl⟩ : ∃ i0 : Fin 16, x = ix1 i0 := ⟨x 0, eq_ix1 x⟩
  rw [shapeCast_1a_a_apply, hv]
  have e0 : (((Rect.unit (s := S32x1024) ![i, 16 * k] S1x16.size inb).emb (ix2 (0 : Fin 1) i0)) 0).val = i := by
    show i + 1 * 0 = i
    omega
  have e1 : (((Rect.unit (s := S32x1024) ![i, 16 * k] S1x16.size inb).emb (ix2 (0 : Fin 1) i0)) 1 : Fin 1024) = col :=
    Fin.ext (by
      show 16 * k + 1 * i0.val = col.val
      rw [hcol]
      show 16 * k + 1 * i0.val = 16 * k + i0.val
      omega)
  show xAt xT (1024 * w.val + (n + (((Rect.unit (s := S32x1024) ![i, 16 * k] S1x16.size inb).emb (ix2 (0 : Fin 1) i0)) 0).val))
      (((Rect.unit (s := S32x1024) ![i, 16 * k] S1x16.size inb).emb (ix2 (0 : Fin 1) i0)) 1) = _
  rw [e0]
  exact congrArg (xAt xT (1024 * w.val + (n + i))) e1

/-- What a trip stores into the running sums at lane `x`: the column's sum after `n + 32` rows. -/
theorem acc_lane (xT : S100000x1024.Idx → F .f32) (w : Fin 32) (n : ℕ) (hn : n + 32 ≤ 1024) (k : ℕ) {off5 : Fin 1 → ℕ}
    {inb5 : ∀ a, off5 a + S16.size a ≤ S1024.size a} (h5 : off5 = ![16 * k]) (x : S16.Idx) (col : Fin 1024)
    (hcol : col.val = 16 * k + (x 0).val) (v46 : Vec F S16 .f32) (R : ℕ → Vec F S1x16 .f32)
    (h46 : ∀ y, v46 y = midF (accAt xT w n) (accAt xT w (n + 32)) k ((Rect.unit (s := S1024) off5 S16.size inb5).emb y))
    (hR : ∀ i, i < 32 → shapeCast S16 (R i) shapeCasts_S1x16_S16 x = xAt xT (1024 * w.val + (n + i)) col) :
    addExpN (shapeCast S16 v46 shapeCasts_S16_S16 x) (fun i => shapeCast S16 (R i) shapeCasts_S1x16_S16 x) 32
      = scSumN xT w col (n + 32) := by
  rw [scSumN_add xT w col n 32 hn]
  refine addExpN_congr ?_ 32 hR
  rw [shapeCast_self, h46, midF_old _ _ k h5 x, lane_ix1 k h5 x col hcol]
  rfl

/-- What a trip stores into the running selections at lane `x`: the column's selection after `n + 32` rows. -/
theorem sel_lane (xT : S100000x1024.Idx → F .f32) (tg : S1024.Idx → BitVec 32) (w : Fin 32) (n : ℕ) (hn : n + 32 ≤ 1024)
    (g : BitVec 32) (hg : g.toNat = 1024 * w.val + n) (k : ℕ) {off5 : Fin 1 → ℕ}
    {inb5 : ∀ a, off5 a + S16.size a ≤ S1024.size a} (h5 : off5 = ![16 * k]) (x : S16.Idx) (col : Fin 1024)
    (hcol : col.val = 16 * k + (x 0).val) (v41 : Vec F S16 .i32) (v49 : Vec F S16 .f32) (R : ℕ → Vec F S1x16 .f32)
    (h41 : ∀ y, v41 y = tg ((Rect.unit (s := S1024) off5 S16.size inb5).emb y))
    (h49 : ∀ y, v49 y = midF (selAt xT tg w n) (selAt xT tg w (n + 32)) k ((Rect.unit (s := S1024) off5 S16.size inb5).emb y))
    (hR : ∀ i, i < 32 → shapeCast S16 (R i) shapeCasts_S1x16_S16 x = xAt xT (1024 * w.val + (n + i)) col) :
    selStepN (shapeCast S16 v41 shapeCasts_S16_S16 x) g (shapeCast S16 v49 shapeCasts_S16_S16 x)
        (fun i => shapeCast S16 (R i) shapeCasts_S1x16_S16 x) 32
      = scSelN xT tg w col (n + 32) := by
  rw [scSelN_add xT tg w col n g hg 32 hn]
  refine selStepN_congr ?_ ?_ 32 hR
  · rw [shapeCast_self, h41, lane_ix1 k h5 x col hcol]
  · rw [shapeCast_self, h49, midF_old _ _ k h5 x, lane_ix1 k h5 x col hcol]
    rfl

/-! ### The write-outs: a running row placed in row `w` of a partial array -/

omit [FloatOps F] in
theorem rowK_emb (b : Fin 1024) :
    (rowK L).emb (Shape.reshapeEquiv squeezes_S1x1024_S1024.numel_eq (ix1 b)) = ix2 (wid L) b := by
  rw [Shape.reshapeEquiv_eq_of_rowMajor (y := ix2 (0 : Fin 1) b) _ (by
    rw [Shape.rowMajor_val_two, Shape.rowMajor_val_one]
    show 0 * 1024 + b.val = b.val
    omega)]
  funext a
  match a with
  | ⟨0, _⟩ =>
    exact Fin.ext (by
      show (k0_off72 L) 0 + 1 * 0 = (wid L).val
      rw [k0_off72_eq]
      show 2 * (L 1).val + (L 0).val + 1 * 0 = (L 1).val * 2 + (L 0).val
      omega)
  | ⟨1, _⟩ =>
    exact Fin.ext (by
      show (k0_off72 L) 1 + 1 * b.val = b.val
      rw [k0_off72_eq]
      show 0 + 1 * b.val = b.val
      omega)

/-- A row of 1024 written through the kernel's row memref lands in row `w`, column by column. -/
theorem sPRow_write (f0 : Buf (Elt F) (sPLoc d)) (g : S1024.Idx → F .f32) (b : Fin 1024) :
    ((sPRowK L).view.write (Elt F) f0 g Finset.univ) (ix2 (wid L) b) = g (ix1 b) := by
  have h := View.write_emb_of_mem (v := (sPRowK L).view) (Val := Elt F) f0 g (M := Finset.univ) (x := ix1 b) (Finset.mem_univ _)
  have he : (sPRowK L).view.emb (ix1 b) = ix2 (wid L) b := rowK_emb L b
  rw [he] at h
  exact h.trans (cast_eq _ _)
theorem cPRow_write (f0 : Buf (Elt F) (cPLoc d)) (g : S1024.Idx → F .f32) (b : Fin 1024) :
    ((cPRowK L).view.write (Elt F) f0 g Finset.univ) (ix2 (wid L) b) = g (ix1 b) := by
  have h := View.write_emb_of_mem (v := (cPRowK L).view) (Val := Elt F) f0 g (M := Finset.univ) (x := ix1 b) (Finset.mem_univ _)
  have he : (cPRowK L).view.emb (ix1 b) = ix2 (wid L) b := rowK_emb L b
  rw [he] at h
  exact h.trans (cast_eq _ _)

/-! ### The pair loop -/

/-- The base words of a pair's two chunks: the stripe's first class plus `64 p` and `64 p + 32`. -/
abbrev V2 : BitVec 32 := Scalar.muli (Scalar.addi (Scalar.muli (BitVec.ofNat 32 (L 1).val) 2#32) (BitVec.ofNat 32 (L 0).val)) 1024#32
abbrev gA (p : Fin k0_t2_loop.trips) : BitVec 32 := Scalar.addi (V2 L) (Scalar.muli (Scalar.muli 2#32 (Scf.iv 0#32 1#32 p)) 32#32)
abbrev gB (p : Fin k0_t2_loop.trips) : BitVec 32 := Scalar.addi (V2 L) (Scalar.muli (Scalar.addi (Scalar.muli 2#32 (Scf.iv 0#32 1#32 p)) 1#32) 32#32)

omit [FloatOps F] in
theorem gA_toNat (p : Fin k0_t2_loop.trips) : (gA L p).toNat = 1024 * (wid L).val + 64 * p.val := by
  have h : (k0_off4 L p) 0 = 2048 * (L 1).val + 1024 * (L 0).val + 64 * p.val := congrFun (k0_off4_eq L p) 0
  have h' : (gA L p).toNat = 2048 * (L 1).val + 1024 * (L 0).val + 64 * p.val := h
  rw [h']; show _ = 1024 * ((L 1).val * 2 + (L 0).val) + 64 * p.val; omega
omit [FloatOps F] in
theorem gB_toNat (p : Fin k0_t2_loop.trips) : (gB L p).toNat = 1024 * (wid L).val + (64 * p.val + 32) := by
  have h : (k0_off3 L p) 0 = 2048 * (L 1).val + 1024 * (L 0).val + 64 * p.val + 32 := congrFun (k0_off3_eq L p) 0
  have h' : (gB L p).toNat = 2048 * (L 1).val + 1024 * (L 0).val + 64 * p.val + 32 := h
  rw [h']; show _ = 1024 * ((L 1).val * 2 + (L 0).val) + (64 * p.val + 32); omega

omit [FloatOps F] in
theorem off4_eq (p : Fin k0_t2_loop.trips) : k0_off4 L p = ![1024 * (wid L).val + 64 * p.val, 0] := by
  rw [k0_off4_eq]; congr 1; show _ = 1024 * ((L 1).val * 2 + (L 0).val) + 64 * p.val; omega
omit [FloatOps F] in
theorem off3_eq (p : Fin k0_t2_loop.trips) : k0_off3 L p = ![1024 * (wid L).val + (64 * p.val + 32), 0] := by
  rw [k0_off3_eq]; congr 1; show _ = 1024 * ((L 1).val * 2 + (L 0).val) + (64 * p.val + 32); omega
omit [FloatOps F] in
theorem off2_eq : k0_off2 L = ![1024 * (wid L).val + 0, 0] := by
  rw [k0_off2_eq]; congr 1; show _ = 1024 * ((L 1).val * 2 + (L 0).val) + 0; omega
omit [FloatOps F] in
theorem off38_eq (p : Fin k0_t2_loop.trips) : k0_off38 L p = ![1024 * (wid L).val + (64 * p.val + 64), 0] := by
  rw [k0_off38_eq]; congr 1; show _ = 1024 * ((L 1).val * 2 + (L 0).val) + (64 * p.val + 64); omega

/-- The same through the one-piece list a landed copy leaves. -/
theorem sPRow_writes (f0 : Buf (Elt F) (sPLoc d)) (g : S1024.Idx → F .f32) (b : Fin 1024) :
    ((sPRowK L).view.writes (Elt F) f0 [⟨Rect.whole S1024, g⟩]) (ix2 (wid L) b) = g (ix1 b) := by
  have h := View.write_emb_of_mem (v := (sPRowK L).view.slice (Rect.whole S1024)) (Val := Elt F) f0 g (M := Finset.univ)
    (x := ix1 b) (Finset.mem_univ _)
  have he : ((sPRowK L).view.slice (Rect.whole S1024)).emb (ix1 b) = ix2 (wid L) b := by
    show (sPRowK L).view.emb ((Rect.whole S1024).emb (ix1 b)) = _
    rw [Rect.emb_whole_apply]
    exact rowK_emb L b
  rw [he] at h
  exact h.trans (cast_eq _ _)
theorem cPRow_writes (f0 : Buf (Elt F) (cPLoc d)) (g : S1024.Idx → F .f32) (b : Fin 1024) :
    ((cPRowK L).view.writes (Elt F) f0 [⟨Rect.whole S1024, g⟩]) (ix2 (wid L) b) = g (ix1 b) := by
  have h := View.write_emb_of_mem (v := (cPRowK L).view.slice (Rect.whole S1024)) (Val := Elt F) f0 g (M := Finset.univ)
    (x := ix1 b) (Finset.mem_univ _)
  have he : ((cPRowK L).view.slice (Rect.whole S1024)).emb (ix1 b) = ix2 (wid L) b := by
    show (cPRowK L).view.emb ((Rect.whole S1024).emb (ix1 b)) = _
    rw [Rect.emb_whole_apply]
    exact rowK_emb L b
  rw [he] at h
  exact h.trans (cast_eq _ _)

set_option maxHeartbeats 1000000 in
/-- One trip of the clearing loop: sixteen lanes of each running row set to the zero word. -/
theorem trip1 (fA fC : S1024.Idx → F .f32) (k : Fin k0_t1_loop.trips) (u : Unit) :
    inv1 d L fA fC k.val u
      ⊢ wp frame (wpE (defs₀ (F := F)) 𝒱₀ (V d (cV L) (jV L)) none) Set.univ
          (k0_t1_body L (xV) (Memref.isWhole_whole _) (tV) (Memref.isWhole_whole _) (sPV) (Memref.isWhole_whole _) (cPV) (Memref.isWhole_whole _) (sT) (Memref.isWhole_whole _) (sA) (Memref.isWhole_whole _) (sC) (Memref.isWhole_whole _) (bA) (Memref.isWhole_whole _) (bB) (Memref.isWhole_whole _) cc0_scratch5 cc0_scratch6 cc0_scoped0 cc0_scoped1 cc0_scoped2 k u)
          (inv1 d L fA fC (k.val + 1)) := by
  unfold inv1
  iintro ⟨HsA, HsC⟩
  unfold k0_t1_body
  sl_exec
  sl_step
  isplitl [HsA]
  · istop
    refine Entails.of_eq (congrArg _ ?_)
    refine whole_write_eq _ _ _ _ (fun x => ?_) (fun y hy => ?_)
    · dsimp only
      rw [midF_in _ _ k.val (inb := k0_off1_inb k) (k0_off1_eq k) x]
      rfl
    · exact midF_out _ _ k.val (inb := k0_off1_inb k) (k0_off1_eq k) y hy
  · istop
    refine Entails.of_eq (congrArg _ ?_)
    refine whole_write_eq _ _ _ _ (fun x => ?_) (fun y hy => ?_)
    · dsimp only
      rw [midF_in _ _ k.val (inb := k0_off1_inb k) (k0_off1_eq k) x]
      rfl
    · exact midF_out _ _ k.val (inb := k0_off1_inb k) (k0_off1_eq k) y hy

set_option maxHeartbeats 4000000 in
/-- One column group of a chunk in stream buffer A: sixteen targets, sums and selections loaded, thirty-two rows of
    sixteen entries folded in, the sums and selections stored back. -/
theorem trip3 (xT : S100000x1024.Idx → F .f32) (tg : S1024.Idx → BitVec 32) (n : ℕ) (hn : n + 32 ≤ 1024) (g : BitVec 32)
    (hg : g.toNat = 1024 * (wid L).val + n) (v2 c0 c1 : BitVec 32) (p : Fin k0_t2_loop.trips) (k : Fin k0_t3_loop.trips) (u : Unit) :
    inv3 d L xT tg n k.val u
      ⊢ wp frame (wpE (defs₀ (F := F)) 𝒱₀ (V d (cV L) (jV L)) none) Set.univ
          (k0_t3_body L (xV) (Memref.isWhole_whole _) (tV) (Memref.isWhole_whole _) (sPV) (Memref.isWhole_whole _) (cPV) (Memref.isWhole_whole _) (sT) (Memref.isWhole_whole _) (sA) (Memref.isWhole_whole _) (sC) (Memref.isWhole_whole _) (bA) (Memref.isWhole_whole _) (bB) (Memref.isWhole_whole _) cc0_scratch5 cc0_scratch6 cc0_scoped0 cc0_scoped1 cc0_scoped2 v2 c0 c1 p g k u)
          (inv3 d L xT tg n (k.val + 1)) := by
  have hk : k.val < 64 := trips3 ▸ k.isLt
  unfold inv3
  iintro ⟨HsT, HsA, HsC, HbX⟩
  unfold k0_t3_body
  sl_exec
  sl_step
  isplitl [HsT]; · iexact HsT
  isplitl [HsA]
  · istop
    refine Entails.of_eq (congrArg _ ?_)
    refine whole_write_eq _ _ _ _ (fun x => ?_) (fun y hy => ?_)
    · dsimp only
      have hx16 : (x 0).val < 16 := (x 0).isLt
      obtain ⟨col, hcol⟩ : ∃ col : Fin 1024, col.val = 16 * k.val + (x 0).val := ⟨⟨16 * k.val + (x 0).val, by omega⟩, rfl⟩
      rw [midF_in _ _ k.val (inb := k0_off5_inb k) (k0_off5_eq k) x, lane_ix1 k.val (inb := k0_off5_inb k) (k0_off5_eq k) x col hcol]
      sl_unfold_run_names
      rw [pay3_acc]
      refine acc_lane xT (wid L) n hn k.val (inb5 := k0_off5_inb k) (k0_off5_eq k) x col hcol _ _ (fun _ => rfl) ?_
      · intro i hi
        match i, hi with
        | 0, _ => exact row_lane xT (wid L) n 0 k.val (inb := k0_off6_inb k) (k0_off6_eq k) x col hcol _ (fun _ => rfl)
        | 1, _ => exact row_lane xT (wid L) n 1 k.val (inb := k0_off7_inb k) (k0_off7_eq k) x col hcol _ (fun _ => rfl)
        | 2, _ => exact row_lane xT (wid L) n 2 k.val (inb := k0_off8_inb k) (k0_off8_eq k) x col hcol _ (fun _ => rfl)
        | 3, _ => exact row_lane xT (wid L) n 3 k.val (inb := k0_off9_inb k) (k0_off9_eq k) x col hcol _ (fun _ => rfl)
        | 4, _ => exact row_lane xT (wid L) n 4 k.val (inb := k0_off10_inb k) (k0_off10_eq k) x col hcol _ (fun _ => rfl)
        | 5, _ => exact row_lane xT (wid L) n 5 k.val (inb := k0_off11_inb k) (k0_off11_eq k) x col hcol _ (fun _ => rfl)
        | 6, _ => exact row_lane xT (wid L) n 6 k.val (inb := k0_off12_inb k) (k0_off12_eq k) x col hcol _ (fun _ => rfl)
        | 7, _ => exact row_lane xT (wid L) n 7 k.val (inb := k0_off13_inb k) (k0_off13_eq k) x col hcol _ (fun _ => rfl)
        | 8, _ => exact row_lane xT (wid L) n 8 k.val (inb := k0_off14_inb k) (k0_off14_eq k) x col hcol _ (fun _ => rfl)
        | 9, _ => exact row_lane xT (wid L) n 9 k.val (inb := k0_off15_inb k) (k0_off15_eq k) x col hcol _ (fun _ => rfl)
        | 10, _ => exact row_lane xT (wid L) n 10 k.val (inb := k0_off16_inb k) (k0_off16_eq k) x col hcol _ (fun _ => rfl)
        | 11, _ => exact row_lane xT (wid L) n 11 k.val (inb := k0_off17_inb k) (k0_off17_eq k) x col hcol _ (fun _ => rfl)
        | 12, _ => exact row_lane xT (wid L) n 12 k.val (inb := k0_off18_inb k) (k0_off18_eq k) x col hcol _ (fun _ => rfl)
        | 13, _ => exact row_lane xT (wid L) n 13 k.val (inb := k0_off19_inb k) (k0_off19_eq k) x col hcol _ (fun _ => rfl)
        | 14, _ => exact row_lane xT (wid L) n 14 k.val (inb := k0_off20_inb k) (k0_off20_eq k) x col hcol _ (fun _ => rfl)
        | 15, _ => exact row_lane xT (wid L) n 15 k.val (inb := k0_off21_inb k) (k0_off21_eq k) x col hcol _ (fun _ => rfl)
        | 16, _ => exact row_lane xT (wid L) n 16 k.val (inb := k0_off22_inb k) (k0_off22_eq k) x col hcol _ (fun _ => rfl)
        | 17, _ => exact row_lane xT (wid L) n 17 k.val (inb := k0_off23_inb k) (k0_off23_eq k) x col hcol _ (fun _ => rfl)
        | 18, _ => exact row_lane xT (wid L) n 18 k.val (inb := k0_off24_inb k) (k0_off24_eq k) x col hcol _ (fun _ => rfl)
        | 19, _ => exact row_lane xT (wid L) n 19 k.val (inb := k0_off25_inb k) (k0_off25_eq k) x col hcol _ (fun _ => rfl)
        | 20, _ => exact row_lane xT (wid L) n 20 k.val (inb := k0_off26_inb k) (k0_off26_eq k) x col hcol _ (fun _ => rfl)
        | 21, _ => exact row_lane xT (wid L) n 21 k.val (inb := k0_off27_inb k) (k0_off27_eq k) x col hcol _ (fun _ => rfl)
        | 22, _ => exact row_lane xT (wid L) n 22 k.val (inb := k0_off28_inb k) (k0_off28_eq k) x col hcol _ (fun _ => rfl)
        | 23, _ => exact row_lane xT (wid L) n 23 k.val (inb := k0_off29_inb k) (k0_off29_eq k) x col hcol _ (fun _ => rfl)
        | 24, _ => exact row_lane xT (wid L) n 24 k.val (inb := k0_off30_inb k) (k0_off30_eq k) x col hcol _ (fun _ => rfl)
        | 25, _ => exact row_lane xT (wid L) n 25 k.val (inb := k0_off31_inb k) (k0_off31_eq k) x col hcol _ (fun _ => rfl)
        | 26, _ => exact row_lane xT (wid L) n 26 k.val (inb := k0_off32_inb k) (k0_off32_eq k) x col hcol _ (fun _ => rfl)
        | 27, _ => exact row_lane xT (wid L) n 27 k.val (inb := k0_off33_inb k) (k0_off33_eq k) x col hcol _ (fun _ => rfl)
        | 28, _ => exact row_lane xT (wid L) n 28 k.val (inb := k0_off34_inb k) (k0_off34_eq k) x col hcol _ (fun _ => rfl)
        | 29, _ => exact row_lane xT (wid L) n 29 k.val (inb := k0_off35_inb k) (k0_off35_eq k) x col hcol _ (fun _ => rfl)
        | 30, _ => exact row_lane xT (wid L) n 30 k.val (inb := k0_off36_inb k) (k0_off36_eq k) x col hcol _ (fun _ => rfl)
        | 31, _ => exact row_lane xT (wid L) n 31 k.val (inb := k0_off37_inb k) (k0_off37_eq k) x col hcol _ (fun _ => rfl)
        | i + 32, h => exact absurd h (by omega)
    · exact midF_out _ _ k.val (inb := k0_off5_inb k) (k0_off5_eq k) y hy
  isplitl [HsC]
  · istop
    refine Entails.of_eq (congrArg _ ?_)
    refine whole_write_eq _ _ _ _ (fun x => ?_) (fun y hy => ?_)
    · dsimp only
      have hx16 : (x 0).val < 16 := (x 0).isLt
      obtain ⟨col, hcol⟩ : ∃ col : Fin 1024, col.val = 16 * k.val + (x 0).val := ⟨⟨16 * k.val + (x 0).val, by omega⟩, rfl⟩
      rw [midF_in _ _ k.val (inb := k0_off5_inb k) (k0_off5_eq k) x, lane_ix1 k.val (inb := k0_off5_inb k) (k0_off5_eq k) x col hcol]
      sl_unfold_run_names
      rw [pay3_sel]
      refine sel_lane xT tg (wid L) n hn g hg k.val (inb5 := k0_off5_inb k) (k0_off5_eq k) x col hcol _ _ _ (fun _ => rfl) (fun _ => rfl) ?_
      · intro i hi
        match i, hi with
        | 0, _ => exact row_lane xT (wid L) n 0 k.val (inb := k0_off6_inb k) (k0_off6_eq k) x col hcol _ (fun _ => rfl)
        | 1, _ => exact row_lane xT (wid L) n 1 k.val (inb := k0_off7_inb k) (k0_off7_eq k) x col hcol _ (fun _ => rfl)
        | 2, _ => exact row_lane xT (wid L) n 2 k.val (inb := k0_off8_inb k) (k0_off8_eq k) x col hcol _ (fun _ => rfl)
        | 3, _ => exact row_lane xT (wid L) n 3 k.val (inb := k0_off9_inb k) (k0_off9_eq k) x col hcol _ (fun _ => rfl)
        | 4, _ => exact row_lane xT (wid L) n 4 k.val (inb := k0_off10_inb k) (k0_off10_eq k) x col hcol _ (fun _ => rfl)
        | 5, _ => exact row_lane xT (wid L) n 5 k.val (inb := k0_off11_inb k) (k0_off11_eq k) x col hcol _ (fun _ => rfl)
        | 6, _ => exact row_lane xT (wid L) n 6 k.val (inb := k0_off12_inb k) (k0_off12_eq k) x col hcol _ (fun _ => rfl)
        | 7, _ => exact row_lane xT (wid L) n 7 k.val (inb := k0_off13_inb k) (k0_off13_eq k) x col hcol _ (fun _ => rfl)
        | 8, _ => exact row_lane xT (wid L) n 8 k.val (inb := k0_off14_inb k) (k0_off14_eq k) x col hcol _ (fun _ => rfl)
        | 9, _ => exact row_lane xT (wid L) n 9 k.val (inb := k0_off15_inb k) (k0_off15_eq k) x col hcol _ (fun _ => rfl)
        | 10, _ => exact row_lane xT (wid L) n 10 k.val (inb := k0_off16_inb k) (k0_off16_eq k) x col hcol _ (fun _ => rfl)
        | 11, _ => exact row_lane xT (wid L) n 11 k.val (inb := k0_off17_inb k) (k0_off17_eq k) x col hcol _ (fun _ => rfl)
        | 12, _ => exact row_lane xT (wid L) n 12 k.val (inb := k0_off18_inb k) (k0_off18_eq k) x col hcol _ (fun _ => rfl)
        | 13, _ => exact row_lane xT (wid L) n 13 k.val (inb := k0_off19_inb k) (k0_off19_eq k) x col hcol _ (fun _ => rfl)
        | 14, _ => exact row_lane xT (wid L) n 14 k.val (inb := k0_off20_inb k) (k0_off20_eq k) x col hcol _ (fun _ => rfl)
        | 15, _ => exact row_lane xT (wid L) n 15 k.val (inb := k0_off21_inb k) (k0_off21_eq k) x col hcol _ (fun _ => rfl)
        | 16, _ => exact row_lane xT (wid L) n 16 k.val (inb := k0_off22_inb k) (k0_off22_eq k) x col hcol _ (fun _ => rfl)
        | 17, _ => exact row_lane xT (wid L) n 17 k.val (inb := k0_off23_inb k) (k0_off23_eq k) x col hcol _ (fun _ => rfl)
        | 18, _ => exact row_lane xT (wid L) n 18 k.val (inb := k0_off24_inb k) (k0_off24_eq k) x col hcol _ (fun _ => rfl)
        | 19, _ => exact row_lane xT (wid L) n 19 k.val (inb := k0_off25_inb k) (k0_off25_eq k) x col hcol _ (fun _ => rfl)
        | 20, _ => exact row_lane xT (wid L) n 20 k.val (inb := k0_off26_inb k) (k0_off26_eq k) x col hcol _ (fun _ => rfl)
        | 21, _ => exact row_lane xT (wid L) n 21 k.val (inb := k0_off27_inb k) (k0_off27_eq k) x col hcol _ (fun _ => rfl)
        | 22, _ => exact row_lane xT (wid L) n 22 k.val (inb := k0_off28_inb k) (k0_off28_eq k) x col hcol _ (fun _ => rfl)
        | 23, _ => exact row_lane xT (wid L) n 23 k.val (inb := k0_off29_inb k) (k0_off29_eq k) x col hcol _ (fun _ => rfl)
        | 24, _ => exact row_lane xT (wid L) n 24 k.val (inb := k0_off30_inb k) (k0_off30_eq k) x col hcol _ (fun _ => rfl)
        | 25, _ => exact row_lane xT (wid L) n 25 k.val (inb := k0_off31_inb k) (k0_off31_eq k) x col hcol _ (fun _ => rfl)
        | 26, _ => exact row_lane xT (wid L) n 26 k.val (inb := k0_off32_inb k) (k0_off32_eq k) x col hcol _ (fun _ => rfl)
        | 27, _ => exact row_lane xT (wid L) n 27 k.val (inb := k0_off33_inb k) (k0_off33_eq k) x col hcol _ (fun _ => rfl)
        | 28, _ => exact row_lane xT (wid L) n 28 k.val (inb := k0_off34_inb k) (k0_off34_eq k) x col hcol _ (fun _ => rfl)
        | 29, _ => exact row_lane xT (wid L) n 29 k.val (inb := k0_off35_inb k) (k0_off35_eq k) x col hcol _ (fun _ => rfl)
        | 30, _ => exact row_lane xT (wid L) n 30 k.val (inb := k0_off36_inb k) (k0_off36_eq k) x col hcol _ (fun _ => rfl)
        | 31, _ => exact row_lane xT (wid L) n 31 k.val (inb := k0_off37_inb k) (k0_off37_eq k) x col hcol _ (fun _ => rfl)
        | i + 32, h => exact absurd h (by omega)
    · exact midF_out _ _ k.val (inb := k0_off5_inb k) (k0_off5_eq k) y hy
  iexact HbX

set_option maxHeartbeats 4000000 in
/-- One column group of a chunk in stream buffer B: sixteen targets, sums and selections loaded, thirty-two rows of
    sixteen entries folded in, the sums and selections stored back. -/
theorem trip4 (xT : S100000x1024.Idx → F .f32) (tg : S1024.Idx → BitVec 32) (n : ℕ) (hn : n + 32 ≤ 1024) (g : BitVec 32)
    (hg : g.toNat = 1024 * (wid L).val + n) (k : Fin k0_t4_loop.trips) (u : Unit) :
    inv4 d L xT tg n k.val u
      ⊢ wp frame (wpE (defs₀ (F := F)) 𝒱₀ (V d (cV L) (jV L)) none) Set.univ
          (k0_t4_body L (xV) (Memref.isWhole_whole _) (tV) (Memref.isWhole_whole _) (sPV) (Memref.isWhole_whole _) (cPV) (Memref.isWhole_whole _) (sT) (Memref.isWhole_whole _) (sA) (Memref.isWhole_whole _) (sC) (Memref.isWhole_whole _) (bA) (Memref.isWhole_whole _) (bB) (Memref.isWhole_whole _) cc0_scratch5 cc0_scratch6 cc0_scoped0 cc0_scoped1 cc0_scoped2 g k u)
          (inv4 d L xT tg n (k.val + 1)) := by
  have hk : k.val < 64 := trips4 ▸ k.isLt
  unfold inv4
  iintro ⟨HsT, HsA, HsC, HbX⟩
  unfold k0_t4_body
  sl_exec
  sl_step
  isplitl [HsT]; · iexact HsT
  isplitl [HsA]
  · istop
    refine Entails.of_eq (congrArg _ ?_)
    refine whole_write_eq _ _ _ _ (fun x => ?_) (fun y hy => ?_)
    · dsimp only
      have hx16 : (x 0).val < 16 := (x 0).isLt
      obtain ⟨col, hcol⟩ : ∃ col : Fin 1024, col.val = 16 * k.val + (x 0).val := ⟨⟨16 * k.val + (x 0).val, by omega⟩, rfl⟩
      rw [midF_in _ _ k.val (inb := k0_off39_inb k) (k0_off39_eq k) x, lane_ix1 k.val (inb := k0_off39_inb k) (k0_off39_eq k) x col hcol]
      sl_unfold_run_names
      rw [pay4_acc]
      refine acc_lane xT (wid L) n hn k.val (inb5 := k0_off39_inb k) (k0_off39_eq k) x col hcol _ _ (fun _ => rfl) ?_
      · intro i hi
        match i, hi with
        | 0, _ => exact row_lane xT (wid L) n 0 k.val (inb := k0_off40_inb k) (k0_off40_eq k) x col hcol _ (fun _ => rfl)
        | 1, _ => exact row_lane xT (wid L) n 1 k.val (inb := k0_off41_inb k) (k0_off41_eq k) x col hcol _ (fun _ => rfl)
        | 2, _ => exact row_lane xT (wid L) n 2 k.val (inb := k0_off42_inb k) (k0_off42_eq k) x col hcol _ (fun _ => rfl)
        | 3, _ => exact row_lane xT (wid L) n 3 k.val (inb := k0_off43_inb k) (k0_off43_eq k) x col hcol _ (fun _ => rfl)
        | 4, _ => exact row_lane xT (wid L) n 4 k.val (inb := k0_off44_inb k) (k0_off44_eq k) x col hcol _ (fun _ => rfl)
        | 5, _ => exact row_lane xT (wid L) n 5 k.val (inb := k0_off45_inb k) (k0_off45_eq k) x col hcol _ (fun _ => rfl)
        | 6, _ => exact row_lane xT (wid L) n 6 k.val (inb := k0_off46_inb k) (k0_off46_eq k) x col hcol _ (fun _ => rfl)
        | 7, _ => exact row_lane xT (wid L) n 7 k.val (inb := k0_off47_inb k) (k0_off47_eq k) x col hcol _ (fun _ => rfl)
        | 8, _ => exact row_lane xT (wid L) n 8 k.val (inb := k0_off48_inb k) (k0_off48_eq k) x col hcol _ (fun _ => rfl)
        | 9, _ => exact row_lane xT (wid L) n 9 k.val (inb := k0_off49_inb k) (k0_off49_eq k) x col hcol _ (fun _ => rfl)
        | 10, _ => exact row_lane xT (wid L) n 10 k.val (inb := k0_off50_inb k) (k0_off50_eq k) x col hcol _ (fun _ => rfl)
        | 11, _ => exact row_lane xT (wid L) n 11 k.val (inb := k0_off51_inb k) (k0_off51_eq k) x col hcol _ (fun _ => rfl)
        | 12, _ => exact row_lane xT (wid L) n 12 k.val (inb := k0_off52_inb k) (k0_off52_eq k) x col hcol _ (fun _ => rfl)
        | 13, _ => exact row_lane xT (wid L) n 13 k.val (inb := k0_off53_inb k) (k0_off53_eq k) x col hcol _ (fun _ => rfl)
        | 14, _ => exact row_lane xT (wid L) n 14 k.val (inb := k0_off54_inb k) (k0_off54_eq k) x col hcol _ (fun _ => rfl)
        | 15, _ => exact row_lane xT (wid L) n 15 k.val (inb := k0_off55_inb k) (k0_off55_eq k) x col hcol _ (fun _ => rfl)
        | 16, _ => exact row_lane xT (wid L) n 16 k.val (inb := k0_off56_inb k) (k0_off56_eq k) x col hcol _ (fun _ => rfl)
        | 17, _ => exact row_lane xT (wid L) n 17 k.val (inb := k0_off57_inb k) (k0_off57_eq k) x col hcol _ (fun _ => rfl)
        | 18, _ => exact row_lane xT (wid L) n 18 k.val (inb := k0_off58_inb k) (k0_off58_eq k) x col hcol _ (fun _ => rfl)
        | 19, _ => exact row_lane xT (wid L) n 19 k.val (inb := k0_off59_inb k) (k0_off59_eq k) x col hcol _ (fun _ => rfl)
        | 20, _ => exact row_lane xT (wid L) n 20 k.val (inb := k0_off60_inb k) (k0_off60_eq k) x col hcol _ (fun _ => rfl)
        | 21, _ => exact row_lane xT (wid L) n 21 k.val (inb := k0_off61_inb k) (k0_off61_eq k) x col hcol _ (fun _ => rfl)
        | 22, _ => exact row_lane xT (wid L) n 22 k.val (inb := k0_off62_inb k) (k0_off62_eq k) x col hcol _ (fun _ => rfl)
        | 23, _ => exact row_lane xT (wid L) n 23 k.val (inb := k0_off63_inb k) (k0_off63_eq k) x col hcol _ (fun _ => rfl)
        | 24, _ => exact row_lane xT (wid L) n 24 k.val (inb := k0_off64_inb k) (k0_off64_eq k) x col hcol _ (fun _ => rfl)
        | 25, _ => exact row_lane xT (wid L) n 25 k.val (inb := k0_off65_inb k) (k0_off65_eq k) x col hcol _ (fun _ => rfl)
        | 26, _ => exact row_lane xT (wid L) n 26 k.val (inb := k0_off66_inb k) (k0_off66_eq k) x col hcol _ (fun _ => rfl)
        | 27, _ => exact row_lane xT (wid L) n 27 k.val (inb := k0_off67_inb k) (k0_off67_eq k) x col hcol _ (fun _ => rfl)
        | 28, _ => exact row_lane xT (wid L) n 28 k.val (inb := k0_off68_inb k) (k0_off68_eq k) x col hcol _ (fun _ => rfl)
        | 29, _ => exact row_lane xT (wid L) n 29 k.val (inb := k0_off69_inb k) (k0_off69_eq k) x col hcol _ (fun _ => rfl)
        | 30, _ => exact row_lane xT (wid L) n 30 k.val (inb := k0_off70_inb k) (k0_off70_eq k) x col hcol _ (fun _ => rfl)
        | 31, _ => exact row_lane xT (wid L) n 31 k.val (inb := k0_off71_inb k) (k0_off71_eq k) x col hcol _ (fun _ => rfl)
        | i + 32, h => exact absurd h (by omega)
    · exact midF_out _ _ k.val (inb := k0_off39_inb k) (k0_off39_eq k) y hy
  isplitl [HsC]
  · istop
    refine Entails.of_eq (congrArg _ ?_)
    refine whole_write_eq _ _ _ _ (fun x => ?_) (fun y hy => ?_)
    · dsimp only
      have hx16 : (x 0).val < 16 := (x 0).isLt
      obtain ⟨col, hcol⟩ : ∃ col : Fin 1024, col.val = 16 * k.val + (x 0).val := ⟨⟨16 * k.val + (x 0).val, by omega⟩, rfl⟩
      rw [midF_in _ _ k.val (inb := k0_off39_inb k) (k0_off39_eq k) x, lane_ix1 k.val (inb := k0_off39_inb k) (k0_off39_eq k) x col hcol]
      sl_unfold_run_names
      rw [pay4_sel]
      refine sel_lane xT tg (wid L) n hn g hg k.val (inb5 := k0_off39_inb k) (k0_off39_eq k) x col hcol _ _ _ (fun _ => rfl) (fun _ => rfl) ?_
      · intro i hi
        match i, hi with
        | 0, _ => exact row_lane xT (wid L) n 0 k.val (inb := k0_off40_inb k) (k0_off40_eq k) x col hcol _ (fun _ => rfl)
        | 1, _ => exact row_lane xT (wid L) n 1 k.val (inb := k0_off41_inb k) (k0_off41_eq k) x col hcol _ (fun _ => rfl)
        | 2, _ => exact row_lane xT (wid L) n 2 k.val (inb := k0_off42_inb k) (k0_off42_eq k) x col hcol _ (fun _ => rfl)
        | 3, _ => exact row_lane xT (wid L) n 3 k.val (inb := k0_off43_inb k) (k0_off43_eq k) x col hcol _ (fun _ => rfl)
        | 4, _ => exact row_lane xT (wid L) n 4 k.val (inb := k0_off44_inb k) (k0_off44_eq k) x col hcol _ (fun _ => rfl)
        | 5, _ => exact row_lane xT (wid L) n 5 k.val (inb := k0_off45_inb k) (k0_off45_eq k) x col hcol _ (fun _ => rfl)
        | 6, _ => exact row_lane xT (wid L) n 6 k.val (inb := k0_off46_inb k) (k0_off46_eq k) x col hcol _ (fun _ => rfl)
        | 7, _ => exact row_lane xT (wid L) n 7 k.val (inb := k0_off47_inb k) (k0_off47_eq k) x col hcol _ (fun _ => rfl)
        | 8, _ => exact row_lane xT (wid L) n 8 k.val (inb := k0_off48_inb k) (k0_off48_eq k) x col hcol _ (fun _ => rfl)
        | 9, _ => exact row_lane xT (wid L) n 9 k.val (inb := k0_off49_inb k) (k0_off49_eq k) x col hcol _ (fun _ => rfl)
        | 10, _ => exact row_lane xT (wid L) n 10 k.val (inb := k0_off50_inb k) (k0_off50_eq k) x col hcol _ (fun _ => rfl)
        | 11, _ => exact row_lane xT (wid L) n 11 k.val (inb := k0_off51_inb k) (k0_off51_eq k) x col hcol _ (fun _ => rfl)
        | 12, _ => exact row_lane xT (wid L) n 12 k.val (inb := k0_off52_inb k) (k0_off52_eq k) x col hcol _ (fun _ => rfl)
        | 13, _ => exact row_lane xT (wid L) n 13 k.val (inb := k0_off53_inb k) (k0_off53_eq k) x col hcol _ (fun _ => rfl)
        | 14, _ => exact row_lane xT (wid L) n 14 k.val (inb := k0_off54_inb k) (k0_off54_eq k) x col hcol _ (fun _ => rfl)
        | 15, _ => exact row_lane xT (wid L) n 15 k.val (inb := k0_off55_inb k) (k0_off55_eq k) x col hcol _ (fun _ => rfl)
        | 16, _ => exact row_lane xT (wid L) n 16 k.val (inb := k0_off56_inb k) (k0_off56_eq k) x col hcol _ (fun _ => rfl)
        | 17, _ => exact row_lane xT (wid L) n 17 k.val (inb := k0_off57_inb k) (k0_off57_eq k) x col hcol _ (fun _ => rfl)
        | 18, _ => exact row_lane xT (wid L) n 18 k.val (inb := k0_off58_inb k) (k0_off58_eq k) x col hcol _ (fun _ => rfl)
        | 19, _ => exact row_lane xT (wid L) n 19 k.val (inb := k0_off59_inb k) (k0_off59_eq k) x col hcol _ (fun _ => rfl)
        | 20, _ => exact row_lane xT (wid L) n 20 k.val (inb := k0_off60_inb k) (k0_off60_eq k) x col hcol _ (fun _ => rfl)
        | 21, _ => exact row_lane xT (wid L) n 21 k.val (inb := k0_off61_inb k) (k0_off61_eq k) x col hcol _ (fun _ => rfl)
        | 22, _ => exact row_lane xT (wid L) n 22 k.val (inb := k0_off62_inb k) (k0_off62_eq k) x col hcol _ (fun _ => rfl)
        | 23, _ => exact row_lane xT (wid L) n 23 k.val (inb := k0_off63_inb k) (k0_off63_eq k) x col hcol _ (fun _ => rfl)
        | 24, _ => exact row_lane xT (wid L) n 24 k.val (inb := k0_off64_inb k) (k0_off64_eq k) x col hcol _ (fun _ => rfl)
        | 25, _ => exact row_lane xT (wid L) n 25 k.val (inb := k0_off65_inb k) (k0_off65_eq k) x col hcol _ (fun _ => rfl)
        | 26, _ => exact row_lane xT (wid L) n 26 k.val (inb := k0_off66_inb k) (k0_off66_eq k) x col hcol _ (fun _ => rfl)
        | 27, _ => exact row_lane xT (wid L) n 27 k.val (inb := k0_off67_inb k) (k0_off67_eq k) x col hcol _ (fun _ => rfl)
        | 28, _ => exact row_lane xT (wid L) n 28 k.val (inb := k0_off68_inb k) (k0_off68_eq k) x col hcol _ (fun _ => rfl)
        | 29, _ => exact row_lane xT (wid L) n 29 k.val (inb := k0_off69_inb k) (k0_off69_eq k) x col hcol _ (fun _ => rfl)
        | 30, _ => exact row_lane xT (wid L) n 30 k.val (inb := k0_off70_inb k) (k0_off70_eq k) x col hcol _ (fun _ => rfl)
        | 31, _ => exact row_lane xT (wid L) n 31 k.val (inb := k0_off71_inb k) (k0_off71_eq k) x col hcol _ (fun _ => rfl)
        | i + 32, h => exact absurd h (by omega)
    · exact midF_out _ _ k.val (inb := k0_off39_inb k) (k0_off39_eq k) y hy
  iexact HbX

/-! ### The input's read share, dealt to the two stream buffers' copies -/

omit [FloatOps F] in
/-- A read share of the input splits into a token for each stream buffer's copies and a remainder. -/
theorem toks2 (q : PosShare TreeShare) (xT : Buf (Elt F) (xTLoc d)) :
    (((xV).view.loc (V d (cV L) (jV L)) ↦{q} xT : sProp (MM F)))
      ⊣⊢ iprop(((xV).view.loc (V d (cV L) (jV L)) ↦{Transfers.shareDrop q 2} xT) ∗ ((xV).view.loc (V d (cV L) (jV L)) ↦{Transfers.shareTokN q 0} xT)
          ∗ ((xV).view.loc (V d (cV L) (jV L)) ↦{Transfers.shareTokN q 1} xT)) := by
  have h1 : (((xV).view.loc (V d (cV L) (jV L)) ↦{q} xT : sProp (MM F)))
      ⊣⊢ iprop(((xV).view.loc (V d (cV L) (jV L)) ↦{q.left} xT) ∗ ((xV).view.loc (V d (cV L) (jV L)) ↦{q.right} xT)) :=
    pointsTo_share (PosShare.mem_left_op_right q)
  have h2 : (((xV).view.loc (V d (cV L) (jV L)) ↦{q.left} xT : sProp (MM F)))
      ⊣⊢ iprop(((xV).view.loc (V d (cV L) (jV L)) ↦{q.left.left} xT) ∗ ((xV).view.loc (V d (cV L) (jV L)) ↦{q.left.right} xT)) :=
    pointsTo_share (PosShare.mem_left_op_right q.left)
  constructor
  · refine h1.1.trans ((sep_mono_left h2.1).trans ?_)
    iintro ⟨⟨Hd, H1⟩, H0⟩
    isplitl [Hd]; · iexact Hd
    isplitl [H0]; · iexact H0
    iexact H1
  · refine BIBase.Entails.trans ?_ ((sep_mono_left h2.2).trans h1.2)
    iintro ⟨Hd, H0, H1⟩
    isplitl [Hd H1]
    · isplitl [Hd]; · iexact Hd
      iexact H1
    · iexact H0

/-! ### The pair loop's invariant: the next pair's first chunk in flight -/

/-- A chunk landed in stream buffer A: the buffer holds rows `n .. n + 31` of the stripe. -/
theorem chunk_landsA (xT : S100000x1024.Idx → F .f32) (n : ℕ) (hn : n + 32 ≤ 1024) {off : Fin 2 → ℕ}
    {inb : ∀ a, off a + S32x1024.size a ≤ S100000x1024.size a} (hoff : off = ![1024 * (wid L).val + n, 0])
    (fb : S32x1024.Idx → F .f32) :
    View.write (Elt F) (bA).view fb ((chunkM off inb).view.read (Elt F) xT) Finset.univ = chunkOf xT (wid L) n :=
  (View.write_whole_univ cc0_scratch3 fb _).trans (chunk_read xT (wid L) n hn hoff)

/-- The copy of a chunk into stream buffer A, in flight: what it will deliver, named. -/
theorem flightA_land (q : PosShare TreeShare) (xT : S100000x1024.Idx → F .f32) (n : ℕ) (hn : n + 32 ≤ 1024) {off : Fin 2 → ℕ}
    {inb : ∀ a, off a + S32x1024.size a ≤ S100000x1024.size a} (hoff : off = ![1024 * (wid L).val + n, 0])
    (fb : S32x1024.Idx → F .f32) :
    (Transfers.Flight (countersEmb : UEmb Counters (MM F)) (V d (cV L) (jV L)) (SemLoc.dma cc0_scratch5.sem) default 1048576
          iprop(((bA).view.loc (V d (cV L) (jV L)) ↦{fullShare} View.write (Elt F) (bA).view fb ((chunkM off inb).view.read (Elt F) xT) Finset.univ)
            ∗ ((xV).view.loc (V d (cV L) (jV L)) ↦[(chunkM off inb).view.set]{Transfers.shareTokN q 0} xT)) : sProp (MM F))
      ⊢ Transfers.Flight (countersEmb : UEmb Counters (MM F)) (V d (cV L) (jV L)) (SemLoc.dma cc0_scratch5.sem) default 1048576
          iprop(((bA).view.loc (V d (cV L) (jV L)) ↦{fullShare} chunkOf xT (wid L) n)
            ∗ ((xV).view.loc (V d (cV L) (jV L)) ↦[(chunkM off inb).view.set]{Transfers.shareTokN q 0} xT)) := by
  rw [chunk_landsA L xT n hn hoff fb]

omit [FloatOps F] in
/-- The same flight and the input's rest, the chunk's offsets spelt another way. -/
theorem flightA_respell (q : PosShare TreeShare) (xT : S100000x1024.Idx → F .f32) (f : S32x1024.Idx → F .f32) {off off' : Fin 2 → ℕ}
    {inb : ∀ a, off a + S32x1024.size a ≤ S100000x1024.size a} {inb' : ∀ a, off' a + S32x1024.size a ≤ S100000x1024.size a}
    (h : off = off') :
    (iprop(Transfers.Flight (countersEmb : UEmb Counters (MM F)) (V d (cV L) (jV L)) (SemLoc.dma cc0_scratch5.sem) default 1048576
          iprop(((bA).view.loc (V d (cV L) (jV L)) ↦{fullShare} f)
            ∗ ((xV).view.loc (V d (cV L) (jV L)) ↦[(chunkM off inb).view.set]{Transfers.shareTokN q 0} xT))
        ∗ ((xV).view.loc (V d (cV L) (jV L)) ↦[Finset.univ \ (chunkM off inb).view.set]{Transfers.shareTokN q 0} xT)) : sProp (MM F))
      ⊢ iprop(Transfers.Flight (countersEmb : UEmb Counters (MM F)) (V d (cV L) (jV L)) (SemLoc.dma cc0_scratch5.sem) default 1048576
          iprop(((bA).view.loc (V d (cV L) (jV L)) ↦{fullShare} f)
            ∗ ((xV).view.loc (V d (cV L) (jV L)) ↦[(chunkM off' inb').view.set]{Transfers.shareTokN q 0} xT))
        ∗ ((xV).view.loc (V d (cV L) (jV L)) ↦[Finset.univ \ (chunkM off' inb').view.set]{Transfers.shareTokN q 0} xT)) := by
  subst h
  exact .rfl

/-- A chunk landed in stream buffer B: the buffer holds rows `n .. n + 31` of the stripe. -/
theorem chunk_landsB (xT : S100000x1024.Idx → F .f32) (n : ℕ) (hn : n + 32 ≤ 1024) {off : Fin 2 → ℕ}
    {inb : ∀ a, off a + S32x1024.size a ≤ S100000x1024.size a} (hoff : off = ![1024 * (wid L).val + n, 0])
    (fb : S32x1024.Idx → F .f32) :
    View.write (Elt F) (bB).view fb ((chunkM off inb).view.read (Elt F) xT) Finset.univ = chunkOf xT (wid L) n :=
  (View.write_whole_univ cc0_scratch4 fb _).trans (chunk_read xT (wid L) n hn hoff)

/-- The copy of a chunk into stream buffer B, in flight: what it will deliver, named. -/
theorem flightB_land (q : PosShare TreeShare) (xT : S100000x1024.Idx → F .f32) (n : ℕ) (hn : n + 32 ≤ 1024) {off : Fin 2 → ℕ}
    {inb : ∀ a, off a + S32x1024.size a ≤ S100000x1024.size a} (hoff : off = ![1024 * (wid L).val + n, 0])
    (fb : S32x1024.Idx → F .f32) :
    (Transfers.Flight (countersEmb : UEmb Counters (MM F)) (V d (cV L) (jV L)) (SemLoc.dma cc0_scratch6.sem) default 1048576
          iprop(((bB).view.loc (V d (cV L) (jV L)) ↦{fullShare} View.write (Elt F) (bB).view fb ((chunkM off inb).view.read (Elt F) xT) Finset.univ)
            ∗ ((xV).view.loc (V d (cV L) (jV L)) ↦[(chunkM off inb).view.set]{Transfers.shareTokN q 1} xT)) : sProp (MM F))
      ⊢ Transfers.Flight (countersEmb : UEmb Counters (MM F)) (V d (cV L) (jV L)) (SemLoc.dma cc0_scratch6.sem) default 1048576
          iprop(((bB).view.loc (V d (cV L) (jV L)) ↦{fullShare} chunkOf xT (wid L) n)
            ∗ ((xV).view.loc (V d (cV L) (jV L)) ↦[(chunkM off inb).view.set]{Transfers.shareTokN q 1} xT)) := by
  rw [chunk_landsB L xT n hn hoff fb]

omit [FloatOps F] in
/-- The same flight and the input's rest, the chunk's offsets spelt another way. -/
theorem flightB_respell (q : PosShare TreeShare) (xT : S100000x1024.Idx → F .f32) (f : S32x1024.Idx → F .f32) {off off' : Fin 2 → ℕ}
    {inb : ∀ a, off a + S32x1024.size a ≤ S100000x1024.size a} {inb' : ∀ a, off' a + S32x1024.size a ≤ S100000x1024.size a}
    (h : off = off') :
    (iprop(Transfers.Flight (countersEmb : UEmb Counters (MM F)) (V d (cV L) (jV L)) (SemLoc.dma cc0_scratch6.sem) default 1048576
          iprop(((bB).view.loc (V d (cV L) (jV L)) ↦{fullShare} f)
            ∗ ((xV).view.loc (V d (cV L) (jV L)) ↦[(chunkM off inb).view.set]{Transfers.shareTokN q 1} xT))
        ∗ ((xV).view.loc (V d (cV L) (jV L)) ↦[Finset.univ \ (chunkM off inb).view.set]{Transfers.shareTokN q 1} xT)) : sProp (MM F))
      ⊢ iprop(Transfers.Flight (countersEmb : UEmb Counters (MM F)) (V d (cV L) (jV L)) (SemLoc.dma cc0_scratch6.sem) default 1048576
          iprop(((bB).view.loc (V d (cV L) (jV L)) ↦{fullShare} f)
            ∗ ((xV).view.loc (V d (cV L) (jV L)) ↦[(chunkM off' inb').view.set]{Transfers.shareTokN q 1} xT))
        ∗ ((xV).view.loc (V d (cV L) (jV L)) ↦[Finset.univ \ (chunkM off' inb').view.set]{Transfers.shareTokN q 1} xT)) := by
  subst h
  exact .rfl

/-- A chunk's copy into stream buffer A just started, with the input's rest: what it will deliver, named, and the chunk's
    offsets spelt as the invariant spells them. -/
theorem flightA_next (q : PosShare TreeShare) (xT : S100000x1024.Idx → F .f32) (n : ℕ) (hn : n + 32 ≤ 1024) {off off' : Fin 2 → ℕ}
    {inb : ∀ a, off a + S32x1024.size a ≤ S100000x1024.size a} {inb' : ∀ a, off' a + S32x1024.size a ≤ S100000x1024.size a}
    (hoff : off = ![1024 * (wid L).val + n, 0]) (h : off = off') (fb : S32x1024.Idx → F .f32) :
    (iprop(Transfers.Flight (countersEmb : UEmb Counters (MM F)) (V d (cV L) (jV L)) (SemLoc.dma cc0_scratch5.sem) default 1048576
          iprop(((bA).view.loc (V d (cV L) (jV L)) ↦{fullShare} View.write (Elt F) (bA).view fb ((chunkM off inb).view.read (Elt F) xT) Finset.univ)
            ∗ ((xV).view.loc (V d (cV L) (jV L)) ↦[(chunkM off inb).view.set]{Transfers.shareTokN q 0} xT))
        ∗ ((xV).view.loc (V d (cV L) (jV L)) ↦[Finset.univ \ (chunkM off inb).view.set]{Transfers.shareTokN q 0} xT)) : sProp (MM F))
      ⊢ iprop(Transfers.Flight (countersEmb : UEmb Counters (MM F)) (V d (cV L) (jV L)) (SemLoc.dma cc0_scratch5.sem) default 1048576
          iprop(((bA).view.loc (V d (cV L) (jV L)) ↦{fullShare} chunkOf xT (wid L) n)
            ∗ ((xV).view.loc (V d (cV L) (jV L)) ↦[(chunkM off' inb').view.set]{Transfers.shareTokN q 0} xT))
        ∗ ((xV).view.loc (V d (cV L) (jV L)) ↦[Finset.univ \ (chunkM off' inb').view.set]{Transfers.shareTokN q 0} xT)) := by
  subst h
  rw [chunk_landsA L xT n hn hoff fb]

/-- Before pair `p`: the targets, the two running rows after `64 p` rows, stream buffer B and its semaphore free, and —
    while pairs remain — the copy of the pair's first chunk into stream buffer A in flight. -/
def inv2 (q : PosShare TreeShare) (xT : S100000x1024.Idx → F .f32) (tg : S1024.Idx → BitVec 32)
    (O : CellTallies nD τ sig (HIx 1)) (W : Waits sig (HIx 1)) (p : ℕ) (_ : Unit) : sProp (MM F) :=
  iprop(Transfers.MayWaits (V d (cV L) (jV L)) (none : HIx 1) O
    ∗ ((sT).view.loc (V d (cV L) (jV L)) ↦{fullShare} tg)
    ∗ ((sA).view.loc (V d (cV L) (jV L)) ↦{fullShare} accAt xT (wid L) (64 * p))
    ∗ ((sC).view.loc (V d (cV L) (jV L)) ↦{fullShare} selAt xT tg (wid L) (64 * p))
    ∗ (∃ fB, (bB).view.loc (V d (cV L) (jV L)) ↦{fullShare} fB)
    ∗ semVal (cellB d L) 0
    ∗ ((xV).view.loc (V d (cV L) (jV L)) ↦{Transfers.shareTokN q 1} xT)
    ∗ (if h : p < k0_t2_loop.trips then
        iprop(Transfers.Flight (countersEmb : UEmb Counters (MM F)) (V d (cV L) (jV L)) (SemLoc.dma cc0_scratch5.sem) default 1048576
          iprop(((bA).view.loc (V d (cV L) (jV L)) ↦{fullShare} chunkOf xT (wid L) (64 * p))
            ∗ ((xV).view.loc (V d (cV L) (jV L)) ↦[(chunkM (k0_off4 L ⟨p, h⟩) (k0_off4_inb L ⟨p, h⟩)).view.set]{Transfers.shareTokN q 0} xT))
          ∗ ((xV).view.loc (V d (cV L) (jV L)) ↦[Finset.univ \ (chunkM (k0_off4 L ⟨p, h⟩) (k0_off4_inb L ⟨p, h⟩)).view.set]{Transfers.shareTokN q 0} xT))
      else
        iprop((∃ fA, (bA).view.loc (V d (cV L) (jV L)) ↦{fullShare} fA) ∗ semVal (cellA d L) 0
          ∗ ((xV).view.loc (V d (cV L) (jV L)) ↦{Transfers.shareTokN q 0} xT)))
    ∗ ∃ W', ⌜∀ pw ∈ W', pw ∈ W ∨ pw.2 = none⌝ ∗ owes (V d (cV L) (jV L)) O W')

omit [FloatOps F] in
theorem midF_trips3 {α : Type} (A B : S1024.Idx → α) : midF A B (Scf.trips k0_t3_loop.lb k0_t3_loop.ub k0_t3_loop.st) = B := by
  rw [show Scf.trips k0_t3_loop.lb k0_t3_loop.ub k0_t3_loop.st = 64 from trips3]; exact midF_full A B
omit [FloatOps F] in
theorem midF_trips4 {α : Type} (A B : S1024.Idx → α) : midF A B (Scf.trips k0_t4_loop.lb k0_t4_loop.ub k0_t4_loop.st) = B := by
  rw [show Scf.trips k0_t4_loop.lb k0_t4_loop.ub k0_t4_loop.st = 64 from trips4]; exact midF_full A B
omit [FloatOps F] in
theorem midF_trips1 {α : Type} (A B : S1024.Idx → α) : midF A B (Scf.trips k0_t1_loop.lb k0_t1_loop.ub k0_t1_loop.st) = B := by
  rw [show Scf.trips k0_t1_loop.lb k0_t1_loop.ub k0_t1_loop.st = 64 from trips1]; exact midF_full A B

set_option maxHeartbeats 4000000 in
/-- One pair of chunks: the second chunk's copy into stream buffer B started, the first waited for and folded in, the next
    pair's first chunk started into stream buffer A if there is one, the second waited for and folded in. -/
theorem trip2 (q : PosShare TreeShare) (xT : S100000x1024.Idx → F .f32) (tg : S1024.Idx → BitVec 32)
    (O : CellTallies nD τ sig (HIx 1)) (W : Waits sig (HIx 1)) (p : Fin k0_t2_loop.trips) (u : Unit) :
    inv2 d L q xT tg O W p.val u
      ⊢ wp frame (wpE (defs₀ (F := F)) 𝒱₀ (V d (cV L) (jV L)) none) Set.univ
          (k0_t2_body L (xV) (Memref.isWhole_whole _) (tV) (Memref.isWhole_whole _) (sPV) (Memref.isWhole_whole _) (cPV) (Memref.isWhole_whole _) (sT) (Memref.isWhole_whole _) (sA) (Memref.isWhole_whole _) (sC) (Memref.isWhole_whole _) (bA) (Memref.isWhole_whole _) (bB) (Memref.isWhole_whole _) cc0_scratch5 cc0_scratch6 cc0_scoped0 cc0_scoped1 cc0_scoped2 (V2 L) p u)
          (inv2 d L q xT tg O W (p.val + 1)) := by
  have hp : p.val < 16 := trips2 ▸ p.isLt
  have hnA : 64 * p.val + 32 ≤ 1024 := by omega
  have hnB : 64 * p.val + 32 + 32 ≤ 1024 := by omega
  unfold inv2
  rw [dif_pos p.isLt]
  iintro ⟨#Hmw, HsT, HsA, HsC, ⟨%fB, HbB⟩, HsemB, Hx1, ⟨HF, Hx0⟩, %W', %hW', HO⟩
  unfold k0_t2_body
  by_cases hc : k0_cond1 p = 1#1
  · have hp1 : p.val + 1 < 16 := (cond1_iff p).mp hc
    sl_exec
    sl_for (inv3 d L xT tg (64 * p.val)) $$ [HsT HsA HsC HF_dst]
    case region => intro k acc; exact trip3 d L xT tg (64 * p.val) hnA _ (gA_toNat L p) (V2 L) 0#32 1#32 p k acc
    · unfold inv3
      rw [midF_zero, midF_zero]
      isplitl [HsT]; · iexact HsT
      isplitl [HsA]; · iexact HsA
      isplitl [HsC]; · iexact HsC
      iexact HF_dst
    iintro %_ HI
    unfold inv3
    icases HI with ⟨HsT, HsA, HsC, HbA⟩
    sl_exec
    sl_for (inv4 d L xT tg (64 * p.val + 32)) $$ [HsT HsA HsC HbB]
    case region => intro k acc; exact trip4 d L xT tg (64 * p.val + 32) hnB _ (gB_toNat L p) k acc
    · unfold inv4
      rw [midF_zero, midF_zero]
      isplitl [HsT]; · iexact HsT
      isplitl [HsA]
      · iclear Hmw
        istop
        refine Entails.of_eq (congrArg _ ?_)
        exact midF_trips3 _ _
      isplitl [HsC]
      · iclear Hmw
        istop
        refine Entails.of_eq (congrArg _ ?_)
        exact midF_trips3 _ _
      iclear Hmw
      istop
      refine Entails.of_eq (congrArg _ ?_)
      exact chunk_landsB L xT (64 * p.val + 32) hnB (off3_eq L p) fB
    iintro %_ HI
    unfold inv4
    icases HI with ⟨HsT, HsA, HsC, HbB⟩
    sl_exec
    sl_step
    have hlt : p.val + 1 < k0_t2_loop.trips := lt_of_lt_of_eq hp1 trips2.symm
    rw [dif_pos hlt]
    have hoff38 : k0_off38 L p = ![1024 * (wid L).val + 64 * (p.val + 1), 0] := (off38_eq L p).trans (by congr 1 <;> omega)
    have hoffEq : k0_off38 L p = k0_off4 L ⟨p.val + 1, hlt⟩ := hoff38.trans (off4_eq L ⟨p.val + 1, hlt⟩).symm
    isplitr; · iexact Hmw
    isplitl [HsT]; · iexact HsT
    isplitl [HsA]
    · iclear Hmw
      istop
      refine Entails.of_eq (congrArg _ ?_)
      exact (midF_trips4 _ _).trans (congrArg (accAt xT (wid L)) (by omega))
    isplitl [HsC]
    · iclear Hmw
      istop
      refine Entails.of_eq (congrArg _ ?_)
      exact (midF_trips4 _ _).trans (congrArg (selAt xT tg (wid L)) (by omega))
    isplitl [HbB]; · iexists _; iexact HbB
    isplitl [HsemB]; · iexact HsemB
    isplitl [Hx1]; · iexact Hx1
    isplitl [HF Hx0]
    · iclear Hmw
      istop
      exact flightA_next d L q xT (64 * (p.val + 1)) (by omega) (inb := k0_off38_inb L p hc) (inb' := k0_off4_inb L ⟨p.val + 1, hlt⟩)
        hoff38 hoffEq _
    iexists _; isplitr
    rotate_left
    · iexact HO
    · ipureintro
      intro pw hpw
      rcases Finset.mem_insert.mp hpw with hpw | hpw
      · exact .inr (hpw ▸ rfl)
      rcases Finset.mem_insert.mp hpw with hpw | hpw
      · exact .inr (hpw ▸ rfl)
      exact hW' pw hpw
  · sl_exec
    sl_for (inv3 d L xT tg (64 * p.val)) $$ [HsT HsA HsC HF_dst]
    case region => intro k acc; exact trip3 d L xT tg (64 * p.val) hnA _ (gA_toNat L p) (V2 L) 0#32 1#32 p k acc
    · unfold inv3
      rw [midF_zero, midF_zero]
      isplitl [HsT]; · iexact HsT
      isplitl [HsA]; · iexact HsA
      isplitl [HsC]; · iexact HsC
      iexact HF_dst
    iintro %_ HI
    unfold inv3
    icases HI with ⟨HsT, HsA, HsC, HbA⟩
    sl_exec
    sl_for (inv4 d L xT tg (64 * p.val + 32)) $$ [HsT HsA HsC HbB]
    case region => intro k acc; exact trip4 d L xT tg (64 * p.val + 32) hnB _ (gB_toNat L p) k acc
    · unfold inv4
      rw [midF_zero, midF_zero]
      isplitl [HsT]; · iexact HsT
      isplitl [HsA]
      · iclear Hmw
        istop
        refine Entails.of_eq (congrArg _ ?_)
        exact midF_trips3 _ _
      isplitl [HsC]
      · iclear Hmw
        istop
        refine Entails.of_eq (congrArg _ ?_)
        exact midF_trips3 _ _
      iclear Hmw
      istop
      refine Entails.of_eq (congrArg _ ?_)
      exact chunk_landsB L xT (64 * p.val + 32) hnB (off3_eq L p) fB
    iintro %_ HI
    unfold inv4
    icases HI with ⟨HsT, HsA, HsC, HbB⟩
    sl_exec
    sl_step
    have hnlt : ¬ p.val + 1 < k0_t2_loop.trips := fun h => hc ((cond1_iff p).mpr (lt_of_lt_of_eq h trips2))
    rw [dif_neg hnlt]
    isplitr; · iexact Hmw
    isplitl [HsT]; · iexact HsT
    isplitl [HsA]
    · iclear Hmw
      istop
      refine Entails.of_eq (congrArg _ ?_)
      exact (midF_trips4 _ _).trans (congrArg (accAt xT (wid L)) (by omega))
    isplitl [HsC]
    · iclear Hmw
      istop
      refine Entails.of_eq (congrArg _ ?_)
      exact (midF_trips4 _ _).trans (congrArg (selAt xT tg (wid L)) (by omega))
    isplitl [HbB]; · iexists _; iexact HbB
    isplitl [HsemB]; · iexact HsemB
    isplitl [Hx1]; · iexact Hx1
    isplitl [HbA HF Hx0]
    · isplitl [HbA]; · iexists _; iexact HbA
      isplitl [HF]; · iexact HF
      iexact Hx0
    iexists _; isplitr
    rotate_left
    · iexact HO
    · ipureintro
      intro pw hpw
      rcases Finset.mem_insert.mp hpw with hpw | hpw
      · exact .inr (hpw ▸ rfl)
      rcases Finset.mem_insert.mp hpw with hpw | hpw
      · exact .inr (hpw ▸ rfl)
      exact hW' pw hpw

/-! ## The task -/

set_option maxHeartbeats 4000000 in
/-- The task on vector subcore `(L 0, L 1)` of device `d`: the input and the targets lent at any share and handed back,
    row `w` of the two partial arrays taken at any contents and handed back at the stripe's sums and selections. -/
theorem tile_body_at (hF : (K (F := F)).Facts) (q : PosShare TreeShare)
    (xT : Buf (Elt F) (xTLoc d)) (tg : Buf (Elt F) (tgLoc d)) (s0 : Buf (Elt F) (sPLoc d)) (c0 : Buf (Elt F) (cPLoc d))
    (O : CellTallies nD τ sig (HIx 1)) (W : Waits sig (HIx 1)) (hO : ∀ g, O g none = 0) :
    (iprop(levAts (K (F := F)).L (K (F := F)).lev ∗ emp
        ∗ ((xTLoc d ↦{q} xT) ∗ (tgLoc d ↦{q} tg) ∗ (sPLoc d ↦[rowSet (wid L)]{fullShare} s0) ∗ cPLoc d ↦[rowSet (wid L)]{fullShare} c0)
        ∗ scopedBufs (V d (cV L) (jV L)) ∗ scopedSems0 (V d (cV L) (jV L)) ∗ owes (V d (cV L) (jV L)) O W) : sProp (MM F))
      ⊢ wp frame (wpE (defs₀ (F := F)) 𝒱₀ (V d (cV L) (jV L)) none) Set.univ
          (cc0_sc_kernel L (xV) (Memref.isWhole_whole _) (tV) (Memref.isWhole_whole _) (sPV) (Memref.isWhole_whole _) (cPV) (Memref.isWhole_whole _) (sT) (Memref.isWhole_whole _) (sA) (Memref.isWhole_whole _) (sC) (Memref.isWhole_whole _) (bA) (Memref.isWhole_whole _) (bB) (Memref.isWhole_whole _) cc0_scratch5 cc0_scratch6 cc0_scoped0 cc0_scoped1 cc0_scoped2)
          fun _ => iprop(((xTLoc d ↦{q} xT) ∗ (tgLoc d ↦{q} tg)
              ∗ (∃ f, ⌜∀ b : Fin 1024, f (ix2 (wid L) b) = scSum xT (wid L) b⌝ ∗ sPLoc d ↦[rowSet (wid L)]{fullShare} f)
              ∗ (∃ f, ⌜∀ b : Fin 1024, f (ix2 (wid L) b) = scSel xT tg (wid L) b⌝ ∗ cPLoc d ↦[rowSet (wid L)]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_kernel_eq_skeleton]; unfold cc0_sc_kernel_skel
  rw [(K (F := F)).scopedBufs_V hF d (cV L) (jV L), SparseCore.Cfg.scopedSems0_V (Val := Elt F) d (cV L) (jV L), ownSems0_V, ownBufs_V]
  iintro ⟨#Hlv, -, ⟨Hx, Ht, Hs, Hc⟩, ⟨⟨%fT, HsT⟩, ⟨%fA, HsA⟩, ⟨%fC, HsC⟩, ⟨%fbA, HbA⟩, ⟨%fbB, HbB⟩, Hbufs⟩,
    ⟨HsemA, HsemB, Hsem0, Hsem1, Hsem2, Hsems⟩, HO⟩
  ihave Hmw := ((K (F := F)).mayWaits_none (thr := (V d (cV L) (jV L))) hO) $$ Hlv
  ihave Hx' := (Entails.of_eq (pts_x (F := F) d L q _).symm) $$ Hx
  ihave Hxs := (toks2 (F := F) d L q xT).1 $$ Hx'
  icases Hxs with ⟨HxR, Hx0, Hx1⟩
  ihave Ht' := (Entails.of_eq (pts_t (F := F) d L q _).symm) $$ Ht
  ihave HsT' := (Entails.of_eq (pts_sT (F := F) d L _).symm) $$ HsT
  ihave HsA' := (Entails.of_eq (pts_sA (F := F) d L _).symm) $$ HsA
  ihave HsC' := (Entails.of_eq (pts_sC (F := F) d L _).symm) $$ HsC
  ihave HbA' := (Entails.of_eq (pts_bA (F := F) d L _).symm) $$ HbA
  ihave HbB' := (Entails.of_eq (pts_bB (F := F) d L _).symm) $$ HbB
  ihave Hs' := (Entails.of_eq (pts_sPRowK (F := F) d L _).symm) $$ Hs
  ihave Hc' := (Entails.of_eq (pts_cPRowK (F := F) d L _).symm) $$ Hc
  -- the targets fetched; the two running rows cleared
  sl_exec
  sl_for (inv1 d L fA fC) $$ [HsA' HsC']
  case region => intro k acc; exact trip1 d L fA fC k acc
  · unfold inv1
    rw [midF_zero, midF_zero]
    isplitl [HsA']; · iexact HsA'
    iexact HsC'
  iintro %_ HI
  unfold inv1
  icases HI with ⟨HsA, HsC⟩
  -- the first chunk started; the sixteen pairs
  sl_exec
  have h0 : 0 < k0_t2_loop.trips := lt_of_lt_of_eq (by omega : 0 < 16) trips2.symm
  have hoff2 : k0_off2 L = ![1024 * (wid L).val + 64 * 0, 0] := (off2_eq L).trans (by congr 1 <;> omega)
  have hoffEq0 : k0_off2 L = k0_off4 L ⟨0, h0⟩ := hoff2.trans (off4_eq L ⟨0, h0⟩).symm
  sl_for (inv2 d L q xT tg O W) $$ [HsT' HsA HsC HbB' HsemB Hx1 HsemA Hx0 HO]
  case region => intro p acc; exact trip2 d L q xT tg O W p acc
  · unfold inv2
    rw [dif_pos h0]
    isplitr; · iexact Hmw
    isplitl [HsT']
    · iclear Hmw Hlv
      istop
      refine Entails.of_eq (congrArg _ ?_)
      exact View.write_whole_univ cc0_scratch0 fT _
    isplitl [HsA]
    · iclear Hmw Hlv
      istop
      refine Entails.of_eq (congrArg _ ?_)
      exact midF_trips1 _ _
    isplitl [HsC]
    · iclear Hmw Hlv
      istop
      refine Entails.of_eq (congrArg _ ?_)
      exact midF_trips1 _ _
    isplitl [HbB']; · iexists _; iexact HbB'
    isplitl [HsemB]; · iexact HsemB
    isplitl [Hx1]; · iexact Hx1
    isplitl [HsemA Hx0]
    · iclear Hmw Hlv
      istop
      exact flightA_next d L q xT (64 * 0) (by omega) (inb := k0_off2_inb L) (inb' := k0_off4_inb L ⟨0, h0⟩) hoff2 hoffEq0 _
    iexists _; isplitr
    rotate_left
    · iexact HO
    · ipureintro
      intro pw hpw
      rcases Finset.mem_insert.mp hpw with hpw | hpw
      · exact .inr (hpw ▸ rfl)
      exact .inl hpw
  iintro %_ HI
  unfold inv2
  rw [dif_neg (lt_irrefl _)]
  icases HI with ⟨-, HsT, HsA, HsC, ⟨%fB', HbB⟩, HsemB, Hx1, ⟨⟨%fA', HbA⟩, HsemA, Hx0⟩, %W', %hW', HO⟩
  -- the two running rows written out
  sl_exec
  sl_step
  -- the post: the input and the targets back, the two rows at the stripe's sums and selections, the scratch and the semaphores
  isplitl [HxR Hx0 Hx1 Ht' Hs' Hc']
  · isplitl [HxR Hx0 Hx1]
    · iapply (Entails.of_eq (pts_x (F := F) d L q xT))
      iapply (toks2 (F := F) d L q xT).2
      isplitl [HxR]; · iexact HxR
      isplitl [Hx0]; · iexact Hx0
      iexact Hx1
    isplitl [Ht']
    · iapply (Entails.of_eq (pts_t (F := F) d L q tg))
      iexact Ht'
    isplitl [Hs']
    · iexists _; isplitr
      rotate_left
      · iapply (Entails.of_eq (pts_sPRowK (F := F) d L _))
        iexact Hs'
      · ipureintro
        intro b
        refine (sPRow_writes d L s0 _ b).trans ?_
        show scSumN xT (wid L) b (64 * k0_t2_loop.trips) = scSumN xT (wid L) b 1024
        rw [trips2]
    · iexists _; isplitr
      rotate_left
      · iapply (Entails.of_eq (pts_cPRowK (F := F) d L _))
        iexact Hc'
      · ipureintro
        intro b
        refine (cPRow_writes d L c0 _ b).trans ?_
        show scSelN xT tg (wid L) b (64 * k0_t2_loop.trips) = scSelN xT tg (wid L) b 1024
        rw [trips2]
  isplitl [HsT HsA HsC HbA HbB Hbufs]
  · isplitl [HsT]
    · iexists _; iapply (Entails.of_eq (pts_sT (F := F) d L _)); iexact HsT
    isplitl [HsA]
    · iexists _; iapply (Entails.of_eq (pts_sA (F := F) d L _)); iexact HsA
    isplitl [HsC]
    · iexists _; iapply (Entails.of_eq (pts_sC (F := F) d L _)); iexact HsC
    isplitl [HbA]
    · iexists _; iapply (Entails.of_eq (pts_bA (F := F) d L _)); iexact HbA
    isplitl [HbB]
    · iexists _; iapply (Entails.of_eq (pts_bB (F := F) d L _)); iexact HbB
    iexact Hbufs
  isplitl [HsemA HsemB Hsem0 Hsem1 Hsem2 Hsems]
  · isplitl [HsemA]; · iexact HsemA
    isplitl [HsemB]; · iexact HsemB
    isplitl [Hsem0]; · iexact Hsem0
    isplitl [Hsem1]; · iexact Hsem1
    isplitl [Hsem2]; · iexact Hsem2
    iexact Hsems
  iexists _; isplitr
  rotate_left
  · iexact HO
  · ipureintro
    intro pw hpw
    rcases Finset.mem_insert.mp hpw with hpw | hpw
    · exact .inr (hpw ▸ rfl)
    rcases Finset.mem_insert.mp hpw with hpw | hpw
    · exact .inr (hpw ▸ rfl)
    exact hW' pw hpw

end Tile

/-- The task on vector subcore `(L 0, L 1)` of device `d`, in the launch theorem's argument order. -/
theorem tile_body [FloatOps F] (hF : (K (F := F)).Facts) (d : Dev nD) (L : grid0.Coords) (q : PosShare TreeShare)
    (xT : Buf (Elt F) (xTLoc d)) (tg : Buf (Elt F) (tgLoc d)) (s0 : Buf (Elt F) (sPLoc d)) (c0 : Buf (Elt F) (cPLoc d))
    (O : CellTallies nD τ sig (HIx 1)) (W : Waits sig (HIx 1)) (hO : ∀ g, O g none = 0) :
    (iprop(levAts (K (F := F)).L (K (F := F)).lev ∗ emp
        ∗ ((xTLoc d ↦{q} xT) ∗ (tgLoc d ↦{q} tg) ∗ (sPLoc d ↦[rowSet (wid L)]{fullShare} s0) ∗ cPLoc d ↦[rowSet (wid L)]{fullShare} c0)
        ∗ scopedBufs (V d (cV L) (jV L)) ∗ scopedSems0 (V d (cV L) (jV L)) ∗ owes (V d (cV L) (jV L)) O W) : sProp (MM F))
      ⊢ wp frame (wpE (defs₀ (F := F)) 𝒱₀ (V d (cV L) (jV L)) none) Set.univ
          (cc0_sc_kernel L (Memref.whole main_v0_scv) (Memref.isWhole_whole _) (Memref.whole main_arg1_scv) (Memref.isWhole_whole _) (Memref.whole main_v1_0_scv) (Memref.isWhole_whole _) (Memref.whole main_v1_1_scv) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
            cc0_scratch5 cc0_scratch6 cc0_scoped0 cc0_scoped1 cc0_scoped2)
          fun _ => iprop(((xTLoc d ↦{q} xT) ∗ (tgLoc d ↦{q} tg)
              ∗ (∃ f, ⌜∀ b : Fin 1024, f (ix2 (wid L) b) = scSum xT (wid L) b⌝ ∗ sPLoc d ↦[rowSet (wid L)]{fullShare} f)
              ∗ (∃ f, ⌜∀ b : Fin 1024, f (ix2 (wid L) b) = scSel xT tg (wid L) b⌝ ∗ cPLoc d ↦[rowSet (wid L)]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') :=
  tile_body_at d L hF q xT tg s0 c0 O W hO

end Cert.Proof.KB

end
-- ==== Proof.Bits.ScLaunch.lean ====
/-
  The launch of the margin-softmax program: one vector-subcore call on two SparseCores of sixteen subcores each, then one
  TensorCore call, between host operations.

  Subcore `s` of SparseCore `c` owns stripe `w = 2 s + c` of the thirty-two stripes of a thousand and twenty-four classes
  the call covers. Its task reads the transposed input and the targets, each through one of thirty-two read shares cut
  from the whole, and writes row `w` of the two partial arrays: the stripe's sums of exponentials, and the target's cosine
  where the stripe holds the target. The TensorCore cuts the shares before the call and keeps what is left over; it holds
  both arrays whole again after it, the partial arrays at the closed terms `sPof`, `cPof` of the transposed input.

  The TensorCore call takes the four arrays whole and leaves the mean loss `tcOut`, a term of them and of what the last,
  clipped block of classes reads past the array's end. The run's post names the result as that term of the launch
  contents, the input and the targets unchanged.
-/
import proofs.«202903_g36928128811344_cont_8to1_b_1739_32_alg».proof.Proof.Bits.KICommon
import proofs.«202903_g36928128811344_cont_8to1_b_1739_32_alg».proof.Proof.Bits.KerVal
import proofs.«202903_g36928128811344_cont_8to1_b_1739_32_alg».proof.Proof.Bits.TcRegion
import proofs.«202903_g36928128811344_cont_8to1_b_1739_32_alg».proof.Proof.Bits.ScBody
import Idealize.ShloMosaic.Lib.Transfers
import Idealize.ShloMosaic.Lib.Pipeline.Regions
import Idealize.ShloMosaic.Lib.ValueIdx

noncomputable section

namespace Cert.Proof.KB

open Cert.Kernel Cert.Kernel.Gen
open Cert.Proof.ScVal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)
open Idealize.ShloMosaic.Tactic

variable {F : FTy → Type} [FloatOps F]

/-! ## Stripes: the thirty-two rows, and the pairs (SparseCore, subcore) that own them -/

omit [FloatOps F] in
theorem wid_coordsV (c : Fin (grid0.bound 0)) (s : Fin (grid0.bound 1)) : (wid (coordsV c s)).val = s.val * 2 + c.val := rfl

omit [FloatOps F] in
theorem wid_injective : Function.Injective fun p : Fin (grid0.bound 0) × Fin (grid0.bound 1) => wid (coordsV p.1 p.2) := by
  rintro ⟨c, s⟩ ⟨c', s'⟩ h
  have h' : (wid (coordsV c s)).val = (wid (coordsV c' s')).val := congrArg Fin.val h
  rw [wid_coordsV, wid_coordsV] at h'
  have hc : c.val < 2 := c.isLt
  have hc' : c'.val < 2 := c'.isLt
  exact Prod.ext (Fin.ext (show c.val = c'.val by omega)) (Fin.ext (show s.val = s'.val by omega))

omit [FloatOps F] in
theorem wid_surjective : Function.Surjective fun p : Fin (grid0.bound 0) × Fin (grid0.bound 1) => wid (coordsV p.1 p.2) := by
  intro w
  have hw : w.val < 32 := w.isLt
  refine ⟨(⟨w.val % 2, Nat.mod_lt _ (by decide)⟩, ⟨w.val / 2, by show w.val / 2 < 16; omega⟩), Fin.ext ?_⟩
  show w.val / 2 * 2 + w.val % 2 = w.val
  omega

/-- Stripe `2 s + c` for the pair `(c, s)`: every stripe once. -/
def widEquiv : Fin (grid0.bound 0) × Fin (grid0.bound 1) ≃ Fin 32 := Equiv.ofBijective _ ⟨wid_injective, wid_surjective⟩

omit [FloatOps F] in
/-- A conjunction over the stripes is one over the SparseCores and, within each, over its subcores. -/
theorem bigSep_wid (Φ : Fin 32 → sProp (MM F)) :
    bigSep Finset.univ Φ = bigSep Finset.univ fun c : Fin (grid0.bound 0) => bigSep Finset.univ fun s : Fin (grid0.bound 1) => Φ (wid (coordsV c s)) := by
  rw [← Finset.map_univ_equiv widEquiv, bigSep_map, bigSep_univ_prod]
  rfl

omit [FloatOps F] in
theorem rowSet_eq (w : Fin 32) : rowSet w = (sRow w).set := by
  show ((View.whole (main_v1_0_scv : Ref sig .scVector)).slice (sRow w)).set = _
  rw [View.set_slice]; exact Finset.map_refl
omit [FloatOps F] in
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv32 h
omit [FloatOps F] in
theorem rows_cover : (Finset.univ : Finset (Fin 32)).biUnion rowSet = Finset.univ :=
  (Finset.biUnion_congr rfl fun i _ => rowSet_eq i).trans (Rect.biUnion_part hdiv32)

omit [FloatOps F] in
/-- An index lies in row `w` exactly when its first coordinate is `w`. -/
theorem mem_rowSet {w : Fin 32} {j : S32x1024.Idx} : j ∈ rowSet w ↔ (j 0).val = w.val := by
  rw [rowSet_eq, Rect.mem_set_unit]
  constructor
  · intro h
    have h0 := h 0
    simp only [Shape.partIx, Shape.partSize, ↓reduceIte] at h0
    have : S32x1024.size 0 / 32 = 1 := by decide
    rw [this] at h0
    omega
  · intro h a
    match a with
    | ⟨0, _⟩ =>
      simp only [Shape.partIx, Shape.partSize]
      have : S32x1024.size 0 / 32 = 1 := by decide
      show w.val * (S32x1024.size 0 / 32) ≤ (j 0).val ∧ (j 0).val < w.val * (S32x1024.size 0 / 32) + S32x1024.size 0 / 32
      rw [this]; omega
    | ⟨1, _⟩ =>
      simp only [Shape.partIx, Shape.partSize]
      exact ⟨by simp, by simpa using (j 1).isLt⟩

section Rows

variable (d : Dev nD)

omit [FloatOps F] in
/-- An array of thirty-two rows, whole, is its rows. -/
theorem sP_rows (f : Buf (Elt F) (sPLoc d)) :
    (sPLoc d ↦{fullShare} f : sProp (MM F)) = bigSep Finset.univ fun w : Fin 32 => sPLoc d ↦[rowSet w]{fullShare} f := by
  rw [← pointsTo_biUnion Finset.univ (ℓ := sPLoc d) rowSet rows_disjoint, rows_cover]; try rfl
omit [FloatOps F] in
theorem cP_rows (f : Buf (Elt F) (cPLoc d)) :
    (cPLoc d ↦{fullShare} f : sProp (MM F)) = bigSep Finset.univ fun w : Fin 32 => cPLoc d ↦[rowSet w]{fullShare} f := by
  rw [← pointsTo_biUnion Finset.univ (ℓ := cPLoc d) rowSet rows_disjoint, rows_cover]; try rfl

/-- A row at contents that read the stripe's sums at the row's own indices is the row at `sPof`. -/
theorem sP_row (xT : Vec F S100000x1024 .f32) (w : Fin 32) :
    iprop(∃ f : Buf (Elt F) (sPLoc d), ⌜∀ b : Fin 1024, f (ix2 w b) = scSum xT w b⌝ ∗ sPLoc d ↦[rowSet w]{fullShare} f)
      ⊢ (sPLoc d ↦[rowSet w]{fullShare} sPof xT : sProp (MM F)) := by
  iintro ⟨%f, %hf, H⟩
  have hcg : (sPLoc d ↦[rowSet w]{fullShare} f : sProp (MM F)) = sPLoc d ↦[rowSet w]{fullShare} sPof xT :=
    pointsTo_congr fun j hj => by
      have hw : j 0 = w := Fin.ext (mem_rowSet.mp hj)
      subst hw
      exact (congrArg f (eq_ix2 j)).trans (hf (j 1))
  rw [← hcg]
  iexact H
/-- The rows, each so, are the whole array at `sPof`. -/
theorem sP_join (xT : Vec F S100000x1024 .f32) :
    (bigSep Finset.univ fun w : Fin 32 => iprop(∃ f : Buf (Elt F) (sPLoc d), ⌜∀ b : Fin 1024, f (ix2 w b) = scSum xT w b⌝ ∗ sPLoc d ↦[rowSet w]{fullShare} f))
      ⊢ (sPLoc d ↦{fullShare} sPof xT : sProp (MM F)) := by
  rw [sP_rows]
  exact bigSep_mono fun w _ => sP_row d xT w
/-- The same for the selected cosines, at `cPof`. -/
theorem cP_row (xT : Vec F S100000x1024 .f32) (t : Vec F S1024 .i32) (w : Fin 32) :
    iprop(∃ f : Buf (Elt F) (cPLoc d), ⌜∀ b : Fin 1024, f (ix2 w b) = scSel xT t w b⌝ ∗ cPLoc d ↦[rowSet w]{fullShare} f)
      ⊢ (cPLoc d ↦[rowSet w]{fullShare} cPof xT t : sProp (MM F)) := by
  iintro ⟨%f, %hf, H⟩
  have hcg : (cPLoc d ↦[rowSet w]{fullShare} f : sProp (MM F)) = cPLoc d ↦[rowSet w]{fullShare} cPof xT t :=
    pointsTo_congr fun j hj => by
      have hw : j 0 = w := Fin.ext (mem_rowSet.mp hj)
      subst hw
      exact (congrArg f (eq_ix2 j)).trans (hf (j 1))
  rw [← hcg]
  iexact H
theorem cP_join (xT : Vec F S100000x1024 .f32) (t : Vec F S1024 .i32) :
    (bigSep Finset.univ fun w : Fin 32 => iprop(∃ f : Buf (Elt F) (cPLoc d), ⌜∀ b : Fin 1024, f (ix2 w b) = scSel xT t w b⌝ ∗ cPLoc d ↦[rowSet w]{fullShare} f))
      ⊢ (cPLoc d ↦{fullShare} cPof xT t : sProp (MM F)) := by
  rw [cP_rows]
  exact bigSep_mono fun w _ => cP_row d xT t w

end Rows

/-! ## What the handshakes carry -/

variable (m : (ℓ : Loc nD τ sig) → Buf (Elt F) ℓ) (ρ : Dev nD → PrngReg)

/-- Stripe `w`'s read share of an array read whole by every task. -/
abbrev tok (w : Fin 32) : PosShare TreeShare := shareTok fullShare 32 w
/-- What the TensorCore keeps of such an array during the call. -/
abbrev kept : PosShare TreeShare := shareDrop fullShare 32

/-- What the task of stripe `w` is handed: a read share of the transposed input and of the targets, and row `w` of the
    two partial arrays, as the launch left them. -/
def goRes (d : Dev nD) (w : Fin 32) : sProp (MM F) :=
  iprop((xTLoc d ↦{tok w} xTof (m (inLoc d))) ∗ (tgLoc d ↦{tok w} m (tgLoc d))
    ∗ (sPLoc d ↦[rowSet w]{fullShare} m (sPLoc d)) ∗ cPLoc d ↦[rowSet w]{fullShare} m (cPLoc d))

/-- What it hands back: the shares, and the two rows at the stripe's sums and selected cosines. -/
def tdRes (d : Dev nD) (w : Fin 32) : sProp (MM F) :=
  iprop((xTLoc d ↦{tok w} xTof (m (inLoc d))) ∗ (tgLoc d ↦{tok w} m (tgLoc d))
    ∗ (∃ f, ⌜∀ b : Fin 1024, f (ix2 w b) = scSum (xTof (m (inLoc d))) w b⌝ ∗ sPLoc d ↦[rowSet w]{fullShare} f)
    ∗ (∃ f, ⌜∀ b : Fin 1024, f (ix2 w b) = scSel (xTof (m (inLoc d))) (m (tgLoc d)) w b⌝ ∗ cPLoc d ↦[rowSet w]{fullShare} f))

instance goRes_storable (d : Dev nD) (w : Fin 32) : BI.Storable (upEmb : UEmb _ (MM F)) (goRes m d w) := by
  unfold goRes; infer_instance
instance tdRes_storable (d : Dev nD) (w : Fin 32) : BI.Storable (upEmb : UEmb _ (MM F)) (tdRes m d w) := by
  unfold tdRes; infer_instance

/-- The one call: a SparseCore is handed its sixteen tasks' resources and hands back their results; a task its own. -/
def P : (K (F := F)).Pay (nD := nD) (Val := Elt F) (Name := ℕ) (U := UU) where
  st := fun q d c => match q with | 0 => bigSep Finset.univ fun i : Fin ((K (F := F)).nSub 0) => goRes m d (wid (coordsV c i))
  dn := fun q d c => match q with | 0 => bigSep Finset.univ fun i : Fin ((K (F := F)).nSub 0) => tdRes m d (wid (coordsV c i))
  go := fun q d c i => match q with | 0 => goRes m d (wid (coordsV c i))
  td := fun q d c i => match q with | 0 => tdRes m d (wid (coordsV c i))
  x := fun _ _ => iprop(emp)

theorem P_st (d : Dev nD) (c : Fin ((K (F := F)).nCore 0)) :
    (P m).st 0 d c = bigSep Finset.univ fun i : Fin ((K (F := F)).nSub 0) => goRes m d (wid (coordsV c i)) := rfl
theorem P_dn (d : Dev nD) (c : Fin ((K (F := F)).nCore 0)) :
    (P m).dn 0 d c = bigSep Finset.univ fun i : Fin ((K (F := F)).nSub 0) => tdRes m d (wid (coordsV c i)) := rfl
theorem P_go (d : Dev nD) (c : Fin ((K (F := F)).nCore 0)) (i : Fin ((K (F := F)).nSub 0)) :
    (P m).go 0 d c i = goRes m d (wid (coordsV c i)) := rfl
theorem P_td (d : Dev nD) (c : Fin ((K (F := F)).nCore 0)) (i : Fin ((K (F := F)).nSub 0)) :
    (P m).td 0 d c i = tdRes m d (wid (coordsV c i)) := rfl

instance P_storable : (P (F := F) m).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

/-! ## The launch theorem's obligations -/

theorem defs₀_vector (c : Fin τ.nSC) (s : Fin τ.nSub) :
    defs₀ (F := F) (.scVector c s) 0 ()
      = SparseCore.onTile hcore0 hsub0 (fun c s => cc0_sc_kernel (coordsV c s)
          (Memref.whole main_v0_scv) (Memref.isWhole_whole _) (Memref.whole main_arg1_scv) (Memref.isWhole_whole _)
          (Memref.whole main_v1_0_scv) (Memref.isWhole_whole _) (Memref.whole main_v1_1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) cc0_scratch5 cc0_scratch6 cc0_scoped0 cc0_scoped1 cc0_scoped2) ⟨⟩ c s := rfl

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of subcore `i` of SparseCore `c`: the body at the place `(c, i)`. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_go, P_td]
  unfold goRes tdRes
  exact (tile_body facts d (coordsV ⟨_, hc.1⟩ ⟨_, hc.2⟩) _ _ _ _ _ O W hO).trans (wp_mono frame _ _ fun _ => obl_post)

/-- A SparseCore's operands are its tasks'; its results theirs. -/
theorem vecSplit : (K (F := F)).VecSplit' (P m) 0 := by
  intro d c
  rw [P_st, P_dn]
  simp only [P_go, P_td]
  iintro H; imodintro
  isplitl [H]; · iexact H
  iintro H; iexact H

/-! ## The launch element -/

/-- The TensorCore call's pipeline. -/
abbrev pcs : Fin 1 → Pipeline.Cfg sig Λ₀ := Pipeline.pin (pcfgs (F := F)) adm

/-- What @main's proof starts from, beside what the launch deals: the TensorCore call's staging cells' rounds and its
    transfers' duty tokens. -/
def G (d : Dev nD) : sProp (MM F) :=
  iprop(Pipeline.cellsGhost (pcs (F := F)) EP 0 d ∗ Pipeline.toksInit (pcs (F := F)) EP 0 d)

/-- The launch element: the handshakes' rounds; the staging cells' rounds; no counter. -/
def u₀ : UU :=
  (initOf (K (F := F)).hsCells (K (F := F)).hsToks,
    (initOf (Pipeline.cells (pcs (F := F)) Gen.cellOf_inj) (Pipeline.launchToks (pcs (F := F)) Gen.cellOf_inj), 1))

omit [FloatOps F] in
theorem bigSep_emp' {I : Type} (s : Finset I) : (bigSep s fun _ => iprop(emp)) = (iprop(emp) : sProp (MM F)) := bigSep_emp_const s

theorem G_intro :
    iprop((bigSep Finset.univ fun c : Dev nD => bigSep Finset.univ fun p : Fin 1 => (Pipeline.cellsGhost (pcs (F := F)) EP p c : sProp (MM F)))
        ∗ (bigSep Finset.univ fun c : Dev nD => bigSep Finset.univ fun p : Fin 1 => (Pipeline.toksInit (pcs (F := F)) EP p c : sProp (MM F))))
      ⊢ bigSep Finset.univ fun d : Dev nD => G (F := F) d := by
  have e1 : (bigSep Finset.univ fun c : Dev nD => bigSep Finset.univ fun p : Fin 1 => (Pipeline.cellsGhost (pcs (F := F)) EP p c : sProp (MM F)))
      = bigSep Finset.univ fun c : Dev nD => Pipeline.cellsGhost (pcs (F := F)) EP 0 c :=
    bigSep_congr fun c _ => bigSep_univ_of_subsingleton (0 : Fin 1)
  have e2 : (bigSep Finset.univ fun c : Dev nD => bigSep Finset.univ fun p : Fin 1 => (Pipeline.toksInit (pcs (F := F)) EP p c : sProp (MM F)))
      = bigSep Finset.univ fun c : Dev nD => Pipeline.toksInit (pcs (F := F)) EP 0 c :=
    bigSep_congr fun c _ => bigSep_univ_of_subsingleton (0 : Fin 1)
  rw [e1, e2, ← bigSep_sep']
  exact BI.Entails.refl _

omit [FloatOps F] in
/-- The right factor's element holds the staging cells' rounds through `EP`. -/
theorem own_EP (a : UP) (b : Counters) : (BI.own ((embR : Emb (UP × Counters) (MM F)) (a, b)) : sProp (MM F)) ⊢ BI.own (EP a) :=
  (own_pair_emb embR a b).trans sep_elim_left

theorem hu₀ : (ownU (u₀ (F := F)) : sProp (MM F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HP := (own_EP (F := F) _ _) $$ HR
  imod (Pipeline.fund_ghost (pcs (F := F)) EP Gen.cellOf_inj) $$ HP with ⟨Hg, Ht⟩
  imodintro
  isplitl [HH]; · iexact HH
  isplitl [Hg Ht]
  · iapply G_intro
    isplitl [Hg] <;> iassumption
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The three host operations: the transposition, the targets made one row, the result made a scalar. -/
abbrev opT : HloOp τ sig (Elt F) :=
  StableHlo.unary main_arg0 main_v0 ((transpose S100000x1024 [1, 0] · transposes_S1024x100000_S100000x1024_1_0) : (⟨S1024x100000, .f32⟩ : BufTy).Contents (Elt F) → (⟨S100000x1024, .f32⟩ : BufTy).Contents (Elt F))
abbrev opR1 : HloOp τ sig (Elt F) := StableHlo.reshape main_arg1 main_v2 rfl shapeCasts_S1024_S1x1024
abbrev opR2 : HloOp τ sig (Elt F) := StableHlo.reshape main_v3 main_v4 rfl shapeCasts_S1x1_S_

omit [FloatOps F] in
/-- Two distinct arrays of the device, whole. -/
theorem held_pair (d : Dev nD) {x y : DevRef τ sig} (h : x ∉ ({y} : Finset (DevRef τ sig))) (W : Valuation τ sig (Elt F)) :
    (held (T d) {x, y} W : sProp (MM F)) = iprop((((d, x) : Loc nD τ sig) ↦{fullShare} W x) ∗ ((d, y) : Loc nD τ sig) ↦{fullShare} W y) := by
  unfold held
  rw [SparseCore.bigSep_insert' h, bigSep_singleton]

omit [FloatOps F] in
theorem unscopedBufs_eq (d : Dev nD) (W : (b : Ref sig .tc) → Buf (Elt F) ((d.tc : Thread nD τ).loc b)) :
    (unscopedBufs d W : sProp (MM F)) = iprop((inLoc d ↦{fullShare} W main_arg0) ∗ (tgLoc d ↦{fullShare} W main_arg1) ∗ (xTLoc d ↦{fullShare} W main_v0)
      ∗ (sPLoc d ↦{fullShare} W main_v1_0) ∗ (cPLoc d ↦{fullShare} W main_v1_1) ∗ (tg2Loc d ↦{fullShare} W main_v2)
      ∗ (outLoc d ↦{fullShare} W main_v3) ∗ resLoc d ↦{fullShare} W main_v4) := by
  unfold unscopedBufs
  rw [show (Finset.univ.filter fun b : Ref sig .tc => ¬ b.isScoped) = {main_arg0, main_arg1, main_v0, main_v1_0, main_v1_1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation of the device's arrays. -/
def V0 (d : Dev nD) : Valuation τ sig (Elt F) := fun b => m (d, b)

/-- Two arrays of the device at their launch contents. -/
theorem held_V0 (d : Dev nD) {x y : DevRef τ sig} (h : x ∉ ({y} : Finset (DevRef τ sig))) :
    (held (T d) {x, y} (V0 m d) : sProp (MM F))
      = iprop((((d, x) : Loc nD τ sig) ↦{fullShare} m (d, x)) ∗ ((d, y) : Loc nD τ sig) ↦{fullShare} m (d, y)) :=
  held_pair d h (V0 m d)

/-- After the transposition: the input as it was, its transpose beside it. -/
theorem held_T (d : Dev nD) :
    (held (T d) {a0', v0'} ((opT (F := F)).result (V0 m d)) : sProp (MM F))
      = iprop((inLoc d ↦{fullShare} m (inLoc d)) ∗ xTLoc d ↦{fullShare} xTof (m (inLoc d))) := by
  rw [held_pair d (x := a0') (y := v0') (by decide), StableHlo.unary_result_ne' _ _ _ (V0 m d) (show main_arg0 ≠ main_v0 by decide),
    StableHlo.unary_result' _ _ _ (V0 m d)]
  rfl

/-- After the first reshape: the targets as they were, and as one row. -/
theorem held_R1 (d : Dev nD) :
    (held (T d) {a1', v2'} ((opR1 (F := F)).result (V0 m d)) : sProp (MM F))
      = iprop((tgLoc d ↦{fullShare} m (tgLoc d)) ∗ tg2Loc d ↦{fullShare} tg2of (m (tgLoc d))) := by
  rw [held_pair d (x := a1') (y := v2') (by decide), StableHlo.reshape_result_ne' _ _ _ _ (V0 m d) (show main_arg1 ≠ main_v2 by decide),
    StableHlo.reshape_result' _ _ _ _ (V0 m d)]
  rfl

/-- The one-by-one array at `o` beside the scalar as launched; -/
theorem held_V3 (d : Dev nD) (o : Vec F S1x1 .f32) :
    (held (T d) {v3', v4'} (Function.update (V0 m d) v3' o) : sProp (MM F))
      = iprop((outLoc d ↦{fullShare} o) ∗ resLoc d ↦{fullShare} m (resLoc d)) := by
  rw [held_pair d (x := v3') (y := v4') (by decide), Function.update_self, Function.update_of_ne (show v4' ≠ v3' by decide)]
  rfl

/-- and after the last reshape: the scalar reads the array's one entry. -/
theorem held_R2 (d : Dev nD) (o : Vec F S1x1 .f32) :
    (held (T d) {v3', v4'} ((opR2 (F := F)).result (Function.update (V0 m d) v3' o)) : sProp (MM F))
      = iprop((outLoc d ↦{fullShare} o) ∗ resLoc d ↦{fullShare} (fun i => shapeCast S_ o shapeCasts_S1x1_S_ i)) := by
  rw [held_pair d (x := v3') (y := v4') (by decide), StableHlo.reshape_result_ne' _ _ _ _ _ (show main_v3 ≠ main_v4 by decide),
    StableHlo.reshape_result' _ _ _ _ _, Function.update_self]
  rfl

/-- The stripes' shares and rows, cut from the four arrays whole; what is left of the two read arrays stays behind. -/
theorem st_intro (d : Dev nD) :
    iprop((xTLoc d ↦{fullShare} xTof (m (inLoc d))) ∗ (tgLoc d ↦{fullShare} m (tgLoc d)) ∗ (sPLoc d ↦{fullShare} m (sPLoc d)) ∗ cPLoc d ↦{fullShare} m (cPLoc d))
      ⊢ iprop(((xTLoc d ↦{kept} xTof (m (inLoc d))) ∗ tgLoc d ↦{kept} m (tgLoc d))
          ∗ bigSep Finset.univ fun c : Fin ((K (F := F)).nCore 0) => (P m).st 0 d c) := by
  have e : (bigSep Finset.univ fun c : Fin ((K (F := F)).nCore 0) => (P m).st 0 d c) = bigSep Finset.univ fun w : Fin 32 => goRes m d w :=
    (bigSep_wid (F := F) (goRes m d)).symm
  rw [e]
  unfold goRes
  rw [bigSep_sep', bigSep_sep', bigSep_sep', sP_rows, cP_rows]
  iintro ⟨Hx, Ht, Hs, Hc⟩
  ihave Hx' := (pointsTo_toks_split fullShare 32) $$ Hx
  icases Hx' with ⟨Hxk, Hxt⟩
  ihave Ht' := (pointsTo_toks_split fullShare 32) $$ Ht
  icases Ht' with ⟨Htk, Htt⟩
  isplitl [Hxk Htk]
  · isplitl [Hxk] <;> iassumption
  isplitl [Hxt]; · iexact Hxt
  isplitl [Htt]; · iexact Htt
  isplitl [Hs] <;> iassumption

/-- The four arrays whole again from what the call hands back and what stayed behind, the partial arrays at their terms. -/
theorem dn_elim (d : Dev nD) :
    iprop(((xTLoc d ↦{kept} xTof (m (inLoc d))) ∗ tgLoc d ↦{kept} m (tgLoc d))
        ∗ bigSep Finset.univ fun c : Fin ((K (F := F)).nCore 0) => (P m).dn 0 d c)
      ⊢ iprop((xTLoc d ↦{fullShare} xTof (m (inLoc d))) ∗ (tgLoc d ↦{fullShare} m (tgLoc d))
          ∗ (sPLoc d ↦{fullShare} sPof (xTof (m (inLoc d)))) ∗ cPLoc d ↦{fullShare} cPof (xTof (m (inLoc d))) (m (tgLoc d))) := by
  have e : (bigSep Finset.univ fun c : Fin ((K (F := F)).nCore 0) => (P m).dn 0 d c) = bigSep Finset.univ fun w : Fin 32 => tdRes m d w :=
    (bigSep_wid (F := F) (tdRes m d)).symm
  rw [e]
  unfold tdRes
  rw [bigSep_sep', bigSep_sep', bigSep_sep']
  iintro ⟨⟨Hxk, Htk⟩, Hxt, Htt, Hs, Hc⟩
  isplitl [Hxk Hxt]
  · iapply (pointsTo_toks_join fullShare 32); isplitl [Hxk] <;> iassumption
  isplitl [Htk Htt]
  · iapply (pointsTo_toks_join fullShare 32); isplitl [Htk] <;> iassumption
  isplitl [Hs]
  · iapply (sP_join d (xTof (m (inLoc d)))); iexact Hs
  · iapply (cP_join d (xTof (m (inLoc d))) (m (tgLoc d))); iexact Hc

/-- What @main leaves the claim: the input and the targets as launched, the result at the mean loss. -/
def FIN (d : Dev nD) : sProp (MM F) :=
  iprop((inLoc d ↦{fullShare} m (inLoc d)) ∗ (tgLoc d ↦{fullShare} m (tgLoc d))
    ∗ ∃ dd : ℕ → Vec F S2048x1024 .f32, resLoc d ↦{fullShare} kerRes (m (inLoc d)) (m (tgLoc d)) dd)

set_option backward.isDefEq.respectTransparency.types false in
/-- The TensorCore call inside @main: entered from the TensorCore's state after the SparseCore call, which it opens for
    what the TensorCore owes and closes again over the waits the call recorded. -/
theorem region_core (hrun : TcBodyRun F) (κ : GSem nD τ sig → ℕ) (d : Dev nD)
    (xT : Vec F S100000x1024 .f32) (tg2 : Vec F S1x1024 .i32) (sP cP : Vec F S32x1024 .f32) (Φ : PUnit → sProp (MM F)) :
    iprop((K (F := F)).ctx EH (P m) κ ∗ (K (F := F)).tcSt EH d 1 ∗ boundary (T d) ∗ G (F := F) d
        ∗ (xTLoc d ↦{fullShare} xT) ∗ (tg2Loc d ↦{fullShare} tg2) ∗ (sPLoc d ↦{fullShare} sP) ∗ (cPLoc d ↦{fullShare} cP)
        ∗ (∃ o : Vec F S1x1 .f32, outLoc d ↦{fullShare} o)
        ∗ (iprop((K (F := F)).tcSt EH d 1 ∗ boundary (T d)
              ∗ (xTLoc d ↦{fullShare} xT) ∗ (tg2Loc d ↦{fullShare} tg2) ∗ (sPLoc d ↦{fullShare} sP) ∗ (cPLoc d ↦{fullShare} cP)
              ∗ ∃ dd : ℕ → Vec F S2048x1024 .f32, outLoc d ↦{fullShare} (fun _ => tcOut xT tg2 sP cP dd)) -∗ Φ ⟨⟩))
      ⊢ wp frame (wpE (D (F := F)) 𝒱 (SparseCore.T d) none) Set.univ
          ((.op (.customCall (Pipeline.entry 0) ()) .ret : Prog (TpuEff nD τ sig (Elt F) (ΛP (F := F)) .tc) PUnit)) Φ := by
  unfold SparseCore.Cfg.tcSt G
  rw [(K (F := F)).Otc_end d (show 1 ≤ 1 from le_rfl)]
  iintro ⟨#Hctx, ⟨⟨%W, %hW, HO⟩, Hrest⟩, Hb, ⟨Hcg, Hti⟩, HxT, Htg, HsP, HcP, Hout, Hk⟩
  ihave Hlev := ((K (F := F)).ctx_levAts κ) $$ Hctx
  iapply (tc_region (xT := xT) (tg2 := tg2) (sP := sP) (cP := cP) (O := 0) (W := W) hrun EP (K (F := F)).lev (by sl_refines_lev) d (fun _ => rfl) .ret Φ)
  isplitl [Hb]; · iexact Hb
  isplitl [Hlev]; · iexact Hlev
  isplitl [Hcg]; · iexact Hcg
  isplitl [Hti]; · iexact Hti
  isplitl [HxT]; · iexact HxT
  isplitl [Htg]; · iexact Htg
  isplitl [HsP]; · iexact HsP
  isplitl [HcP]; · iexact HcP
  isplitl [Hout]; · iexact Hout
  isplitl [HO]; · iexact HO
  unfold tcPost
  iintro ⟨Hb, HxT, Htg, HsP, HcP, Hout, %W', %hW', HO⟩
  rw [wp_ret]; imodintro
  iapply Hk
  isplitl [HO Hrest]
  · isplitl [HO]
    · iexists W'; isplitr
      · ipureintro
        intro p hp
        rcases hW' p hp with h | h
        · exact hW p h
        · show (K (F := F)).lev _ p.2 ≤ _
          rw [h]; exact Nat.zero_le _
      · iexact HO
    · iexact Hrest
  isplitl [Hb]; · iexact Hb
  isplitl [HxT]; · iexact HxT
  isplitl [Htg]; · iexact Htg
  isplitl [HsP]; · iexact HsP
  isplitl [HcP]; · iexact HcP
  iexact Hout

set_option backward.isDefEq.respectTransparency.types false in
/-- The same under the launch's body table: the call's label is the certificate's, lifted. -/
theorem region_step (hrun : TcBodyRun F) (κ : GSem nD τ sig → ℕ) (d : Dev nD)
    (xT : Vec F S100000x1024 .f32) (tg2 : Vec F S1x1024 .i32) (sP cP : Vec F S32x1024 .f32) (Φ : PUnit → sProp (MM F)) :
    iprop((K (F := F)).ctx EH (P m) κ ∗ (K (F := F)).tcSt EH d 1 ∗ boundary (T d) ∗ G (F := F) d
        ∗ (xTLoc d ↦{fullShare} xT) ∗ (tg2Loc d ↦{fullShare} tg2) ∗ (sPLoc d ↦{fullShare} sP) ∗ (cPLoc d ↦{fullShare} cP)
        ∗ (∃ o : Vec F S1x1 .f32, outLoc d ↦{fullShare} o)
        ∗ (iprop((K (F := F)).tcSt EH d 1 ∗ boundary (T d)
              ∗ (xTLoc d ↦{fullShare} xT) ∗ (tg2Loc d ↦{fullShare} tg2) ∗ (sPLoc d ↦{fullShare} sP) ∗ (cPLoc d ↦{fullShare} cP)
              ∗ ∃ dd : ℕ → Vec F S2048x1024 .f32, outLoc d ↦{fullShare} (fun _ => tcOut xT tg2 sP cP dd)) -∗ Φ ⟨⟩))
      ⊢ wp frame (wpE ((K (F := F)).defs (D (F := F))) 𝒱 (SparseCore.T d) none) Set.univ
          (Prog.lift (.customCall (SparseCore.inner (Pipeline.entry 0)) ())) Φ := by
  change _ ⊢ wp _ _ _ (SparseCore.liftProg ((.op (.customCall (Pipeline.entry 0) ()) .ret : Prog (TpuEff nD τ sig (Elt F) (ΛP (F := F)) .tc) PUnit))) _
  exact (region_core m hrun κ d xT tg2 sP cP Φ).trans ((K (F := F)).wp_liftProg (D (F := F)) 𝒱 (SparseCore.T d) Set.univ none _ Φ)

set_option backward.isDefEq.respectTransparency.types false in
/-- @main on device `d`'s TensorCore: the transposition; the call, the stripes' shares and rows out and back; the targets
    made one row; the TensorCore call; the result made a scalar. -/
theorem hmain (hrun : TcBodyRun F) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Hv0, Hs, Hc, Hv2, Hv3, Hv4⟩, -, -⟩, HG⟩
  -- the transposition, over the input and its transpose
  iapply (wp_hlo_within 𝒱 (SparseCore.T d) none Set.univ (op := opT) (S := {a0', v0'}) (Finset.Subset.refl _) (V := V0 m d)) $$ [Hb Ha0 Hv0]
  · isplitl [Hb]; · iexact Hb
    rw [held_V0 m d (x := a0') (y := v0') (by decide)]
    isplitl [Ha0]; · iexact Ha0
    iexact Hv0
  iintro ⟨Hb, Hheld⟩
  ihave Hh := (Entails.of_eq (held_T m d)) $$ Hheld
  icases Hh with ⟨Ha0, Hv0⟩
  rw [wp_ret]; imodintro
  -- the call: the stripes' shares and rows to the two SparseCores and back
  ihave Hsplit := (st_intro m d) $$ [Hv0 Ha1 Hs Hc]
  · isplitl [Hv0]; · iexact Hv0
    isplitl [Ha1]; · iexact Ha1
    isplitl [Hs] <;> iassumption
  icases Hsplit with ⟨Hkept, Hstc⟩
  iapply ((K (F := F)).wp_run (D (F := F)) 𝒱 (EH := EH) (P := P m) κ d 0) $$ [Hst Hstc Hkept Hb Ha0 Hv2 Hv3 Hv4 HG]
  isplitr; · iexact Hctx
  isplitl [Hst]; · iexact Hst
  isplitl [Hstc]; · iexact Hstc
  iintro ⟨Hst, Hdn⟩
  ihave Hjoin := (dn_elim m d) $$ [Hkept Hdn]
  · isplitl [Hkept] <;> iassumption
  icases Hjoin with ⟨Hv0, Ha1, Hs, Hc⟩
  -- the targets as one row
  iapply (wp_hlo_within 𝒱 (SparseCore.T d) none Set.univ (op := opR1) (S := {a1', v2'}) (Finset.Subset.refl _) (V := V0 m d)) $$ [Hb Ha1 Hv2]
  · isplitl [Hb]; · iexact Hb
    rw [held_V0 m d (x := a1') (y := v2') (by decide)]
    isplitl [Ha1]; · iexact Ha1
    iexact Hv2
  iintro ⟨Hb, Hheld⟩
  ihave Hh := (Entails.of_eq (held_R1 m d)) $$ Hheld
  icases Hh with ⟨Ha1, Hv2⟩
  rw [wp_ret]; imodintro
  -- the TensorCore call
  iapply (region_step m hrun κ d (xTof (m (inLoc d))) (tg2of (m (tgLoc d))) (sPof (xTof (m (inLoc d)))) (cPof (xTof (m (inLoc d))) (m (tgLoc d))) _) $$ [Hst Hb HG Hv0 Hv2 Hs Hc Hv3 Ha0 Ha1 Hv4]
  isplitr; · iexact Hctx
  isplitl [Hst]; · iexact Hst
  isplitl [Hb]; · iexact Hb
  isplitl [HG]; · iexact HG
  isplitl [Hv0]; · iexact Hv0
  isplitl [Hv2]; · iexact Hv2
  isplitl [Hs]; · iexact Hs
  isplitl [Hc]; · iexact Hc
  isplitl [Hv3]; · iexists _; iexact Hv3
  iintro ⟨Hst, Hb, Hv0, Hv2, Hs, Hc, %dd, Hv3⟩
  -- the result as a scalar
  iapply (wp_hlo_within 𝒱 (SparseCore.T d) none Set.univ (op := opR2) (S := {v3', v4'}) (Finset.Subset.refl _)
      (V := Function.update (V0 m d) v3' (fun _ => tcOut (xTof (m (inLoc d))) (tg2of (m (tgLoc d))) (sPof (xTof (m (inLoc d)))) (cPof (xTof (m (inLoc d))) (m (tgLoc d))) dd))) $$ [Hb Hv3 Hv4]
  · isplitl [Hb]; · iexact Hb
    rw [held_V3 m d]
    isplitl [Hv3]; · iexact Hv3
    iexact Hv4
  iintro ⟨Hb, Hheld⟩
  ihave Hh := (Entails.of_eq (held_R2 m d _)) $$ Hheld
  icases Hh with ⟨-, Hv4⟩
  rw [wp_ret]; imodintro; imodintro
  isplitl [Hst]; · iexact Hst
  unfold FIN
  isplitl [Ha0]; · iexact Ha0
  isplitl [Ha1]; · iexact Ha1
  iexists dd; iexact Hv4

/-! ## The final memory reads the claim -/

/-- The claim, read off device `d`'s final memory. -/
def fq (d : Dev nD) (s' : Phys nD τ sig (Elt F)) : Prop :=
  (∃ dd : ℕ → Vec F S2048x1024 .f32, s'.mem.mem (resLoc d) = kerRes (m (inLoc d)) (m (tgLoc d)) dd)
    ∧ s'.mem.mem (inLoc d) = m (inLoc d) ∧ s'.mem.mem (tgLoc d) = m (tgLoc d)

theorem hfin (d : Dev nD) (s' : Phys nD τ sig (Elt F)) : iprop(FIN m d ∗ SI s') ⊢ (⌜fq m d s'⌝ : sProp (MM F)) := by
  unfold FIN
  iintro ⟨⟨Hi, Ht, %dd, Hr⟩, HSI⟩
  ihave H := (persistent_entails_right (SI_pointsTo_agree (st := s') (ℓ := inLoc d) (I := Finset.univ) (q := fullShare) (f := m (inLoc d)))) $$ [HSI Hi]
  · isplitl [HSI] <;> iassumption
  icases H with ⟨%h1, HSI, -⟩
  ihave H := (persistent_entails_right (SI_pointsTo_agree (st := s') (ℓ := tgLoc d) (I := Finset.univ) (q := fullShare) (f := m (tgLoc d)))) $$ [HSI Ht]
  · isplitl [HSI] <;> iassumption
  icases H with ⟨%h2, HSI, -⟩
  ihave H := (SI_pointsTo_agree (st := s') (ℓ := resLoc d) (I := Finset.univ) (q := fullShare) (f := kerRes (m (inLoc d)) (m (tgLoc d)) dd)) $$ [HSI Hr]
  · isplitl [HSI] <;> iassumption
  icases H with %h3
  ipureintro
  exact ⟨⟨dd, funext fun i => h3 i (Finset.mem_univ i)⟩, funext fun i => h1 i (Finset.mem_univ i), funext fun i => h2 i (Finset.mem_univ i)⟩

/-! ## The program's run -/

/-- The run's post: on every device the result is the mean loss as a term of the launch contents, and the input and
    the targets are as launched. -/
def QC : PUnit × MemSt nD τ sig (Elt F) → Prop := fun r => ∀ c : Dev nD,
  (∃ dd : ℕ → Vec F S2048x1024 .f32, r.2.mem (resLoc c) = kerRes (m (inLoc c)) (m (tgLoc c)) dd)
    ∧ r.2.mem (inLoc c) = m (inLoc c) ∧ r.2.mem (tgLoc c) = m (tgLoc c)

theorem run_main [∀ e, Nonempty (Elt F e)] (hrun : TcBodyRun F) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (G (F := F)) (FIN m) (u₀ (F := F)) (sep_elim_left.trans (hu₀ m)) (hmain m ρ hrun) (fq m) (hfin m) (QC m) (fun _ h => h)

end Cert.Proof.KB

end
-- ==== Proof.Bits.TcBodyCases.lean ====
/-
  The TensorCore kernel's body, run once per control case at a symbolic grid point and on symbolic whole memrefs.

  The body zeroes the two accumulators when the point is the first, loads the targets' row and the two
  accumulators, adds over the 256 slabs of eight rows of the staged block the exponentials of the rows that lie
  inside the array (to the first accumulator) and the entries whose row is the column's target (to the second), stores
  both back, and at the last point sums everything into the mean loss, stored to the scalar window.

  Three cases by the two conditions: the first point, a middle point, the last point. In each the run itself finds
  what the two accumulators (and, at the last point, the scalar window) are left holding: terms over the contents the
  staging memrefs read when the body starts, the witnesses of a subtype.
-/
import proofs.«202903_g36928128811344_cont_8to1_b_1739_32_alg».proof.Proof.Bits.KICommon
import proofs.«202903_g36928128811344_cont_8to1_b_1739_32_alg».proof.Proof.Gen.Kernel.Points
import Idealize.ShloMosaic.Lib.Pipeline.FrameBody
import Idealize.ShloMosaic.Lib.Tactic

set_option maxRecDepth 16384
set_option pp.deepTerms false
set_option pp.maxSteps 5000

noncomputable section

namespace Cert.Proof.KB

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The two conditions, over the grid -/

/-- The body zeroes the accumulators: the condition of its first conditional, the scalar chain substituted. -/
abbrev condInit (i : grid1.Coords) : Prop :=
  (Scalar.cmpi .ne (Scalar.extui (Scalar.cmpi .eq (BitVec.ofNat 32 (i 0).val) 0#32)) 0#32) = 1#1
/-- The body finishes: the condition of its last conditional. -/
abbrev condFin (i : grid1.Coords) : Prop := k1_cond2 i = 1#1

/-- The accumulators are zeroed at the first point only. -/
theorem hcondInit : ∀ t : Fin grid1.N, condInit (grid1.coords t) ↔ t.val = 0 := by decide +kernel
/-- The finish runs at the last point only. -/
theorem hcondFin : ∀ t : Fin grid1.N, condFin (grid1.coords t) ↔ t.val = 32 := by decide +kernel

/-! ## Reading back a buffer the body has just stored whole -/

/-- A rank-two shape taken whole as a unit-stride rectangle from the origin places every index at itself. -/
theorem emb_origin2 {d : Fin 2 → ℕ} (h : ∀ a, (![0, 0] : Fin 2 → ℕ) a + d a ≤ d a) (y : (⟨2, d⟩ : Shape).Idx) :
    (Rect.unit (s := ⟨2, d⟩) ![0, 0] d h).emb y = y := by
  funext a; apply Fin.ext
  show (![0, 0] : Fin 2 → ℕ) a + 1 * (y a).val = (y a).val
  fin_cases a <;> simp

/-- A buffer stored whole last and read back holds the stored vector, whatever was stored before. -/
theorem read_writes_junk_whole2 {Val : EltTy → Type} [∀ e, Nonempty (Val e)] {κ : Kind} {sp : Space} {d : Fin 2 → ℕ} {e : EltTy}
    {M : Memref sig κ sp ⟨2, d⟩ e} (h : ∀ a, (![0, 0] : Fin 2 → ℕ) a + d a ≤ d a)
    (p : (Rect.unit (s := ⟨2, d⟩) ![0, 0] d h).shape.Idx → Val e) (L : List (View.Piece Val ⟨2, d⟩ e)) :
    M.view.read Val (M.view.writes Val M.view.junk (⟨Rect.unit (s := ⟨2, d⟩) ![0, 0] d h, p⟩ :: L)) = p := by
  rw [View.read_writes_junk_eq_canon]
  funext y
  have hy := View.canon_cons_emb (Rect.unit (s := ⟨2, d⟩) ![0, 0] d h) p L y
  rw [emb_origin2 h y] at hy
  exact hy

/-! ## A middle point -/

set_option maxHeartbeats 4000000 in
/-- At a point that is neither first nor last: what the run leaves in the two accumulators, with the proof that from the
    seven memrefs held whole the body runs to its return handing back the five windows' buffers as they were and the
    accumulators at the witnesses. -/
noncomputable def tcRunMid (c : Dev nD) (i : grid1.Coords)
    (M1 : Memref sig .tc .vmem S2048x1024 .f32) (h1 : M1.IsWhole) (M2 : Memref sig .tc .vmem S1x1024 .i32) (h2 : M2.IsWhole)
    (M3 : Memref sig .tc .vmem S32x1024 .f32) (h3 : M3.IsWhole) (M4 : Memref sig .tc .vmem S32x1024 .f32) (h4 : M4.IsWhole)
    (M5 : Memref sig .tc .smem S1x1 .f32) (h5 : M5.IsWhole) (M6 : Memref sig .tc .vmem S8x1024 .f32) (h6 : M6.IsWhole)
    (M7 : Memref sig .tc .vmem S8x1024 .f32) (h7 : M7.IsWhole)
    (hi : ¬ condInit i) (hf : ¬ condFin i)
    (x : Vec F S2048x1024 .f32) (tg : Vec F S1x1024 .i32) (a0 c0 : Vec F S8x1024 .f32) :
    { W : Vec F S8x1024 .f32 × Vec F S8x1024 .f32 //
      ∀ (sp cp : Vec F S32x1024 .f32) (o : Vec F S1x1 .f32) (E : Set ℕ) (Q : PUnit → sProp (MM F)),
        iprop(owns (c : Thread nD τ) M1 fullShare x
            ∗ owns (c : Thread nD τ) M2 fullShare tg
            ∗ owns (c : Thread nD τ) M3 fullShare sp
            ∗ owns (c : Thread nD τ) M4 fullShare cp
            ∗ owns (c : Thread nD τ) M5 fullShare o
            ∗ owns (c : Thread nD τ) M6 fullShare a0
            ∗ owns (c : Thread nD τ) M7 fullShare c0
            ∗ (iprop(owns (c : Thread nD τ) M1 fullShare x
                ∗ owns (c : Thread nD τ) M2 fullShare tg
                ∗ owns (c : Thread nD τ) M3 fullShare sp
                ∗ owns (c : Thread nD τ) M4 fullShare cp
                ∗ owns (c : Thread nD τ) M5 fullShare o
                ∗ owns (c : Thread nD τ) M6 fullShare W.1
                ∗ owns (c : Thread nD τ) M7 fullShare W.2) -∗ Q ⟨⟩))
          ⊢ wp frame (wpE (defs₀ (F := F)) 𝒱₀ (c : Thread nD τ) none) E (cc1__tc_body i M1 h1 M2 h2 M3 h3 M4 h4 M5 h5 M6 h6 M7 h7) Q } := by
  refine ⟨⟨?_, ?_⟩, fun sp cp o E Q => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := h1.eq_unread hf1; obtain rfl := h2.eq_unread hf2; obtain rfl := h3.eq_unread hf3
    obtain rfl := h4.eq_unread hf4; obtain rfl := h5.eq_unread hf5; obtain rfl := h6.eq_unread hf6
    obtain rfl := h7.eq_unread hf7
    sl_exec_parts! (disch := first | exact hi | exact hf)
    sl_step
    iapply Hk
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    -- the two accumulators: each conjunct hands its buffer over and reads the stored vector back, which assigns its witness
    isplitl [H6]
    all_goals try (iexists _; isplitr; swap; (· first | iexact H6 | iexact H7); ipureintro; (first | exact read_writes_junk_whole2 (Val := Elt F) _ _ _ | skip))

/-! ## The first point -/

set_option maxHeartbeats 4000000 in
/-- At the first point the accumulators are zeroed before anything is read of them: the same, whatever they held. -/
noncomputable def tcRunFirst (c : Dev nD) (i : grid1.Coords)
    (M1 : Memref sig .tc .vmem S2048x1024 .f32) (h1 : M1.IsWhole) (M2 : Memref sig .tc .vmem S1x1024 .i32) (h2 : M2.IsWhole)
    (M3 : Memref sig .tc .vmem S32x1024 .f32) (h3 : M3.IsWhole) (M4 : Memref sig .tc .vmem S32x1024 .f32) (h4 : M4.IsWhole)
    (M5 : Memref sig .tc .smem S1x1 .f32) (h5 : M5.IsWhole) (M6 : Memref sig .tc .vmem S8x1024 .f32) (h6 : M6.IsWhole)
    (M7 : Memref sig .tc .vmem S8x1024 .f32) (h7 : M7.IsWhole)
    (hi : condInit i) (hf : ¬ condFin i)
    (x : Vec F S2048x1024 .f32) (tg : Vec F S1x1024 .i32) :
    { W : Vec F S8x1024 .f32 × Vec F S8x1024 .f32 //
      ∀ (sp cp : Vec F S32x1024 .f32) (o : Vec F S1x1 .f32) (a0 c0 : Vec F S8x1024 .f32) (E : Set ℕ) (Q : PUnit → sProp (MM F)),
        iprop(owns (c : Thread nD τ) M1 fullShare x
            ∗ owns (c : Thread nD τ) M2 fullShare tg
            ∗ owns (c : Thread nD τ) M3 fullShare sp
            ∗ owns (c : Thread nD τ) M4 fullShare cp
            ∗ owns (c : Thread nD τ) M5 fullShare o
            ∗ owns (c : Thread nD τ) M6 fullShare a0
            ∗ owns (c : Thread nD τ) M7 fullShare c0
            ∗ (iprop(owns (c : Thread nD τ) M1 fullShare x
                ∗ owns (c : Thread nD τ) M2 fullShare tg
                ∗ owns (c : Thread nD τ) M3 fullShare sp
                ∗ owns (c : Thread nD τ) M4 fullShare cp
                ∗ owns (c : Thread nD τ) M5 fullShare o
                ∗ owns (c : Thread nD τ) M6 fullShare W.1
                ∗ owns (c : Thread nD τ) M7 fullShare W.2) -∗ Q ⟨⟩))
          ⊢ wp frame (wpE (defs₀ (F := F)) 𝒱₀ (c : Thread nD τ) none) E (cc1__tc_body i M1 h1 M2 h2 M3 h3 M4 h4 M5 h5 M6 h6 M7 h7) Q } := by
  refine ⟨⟨?_, ?_⟩, fun sp cp o a0 c0 E Q => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := h1.eq_unread hf1; obtain rfl := h2.eq_unread hf2; obtain rfl := h3.eq_unread hf3
    obtain rfl := h4.eq_unread hf4; obtain rfl := h5.eq_unread hf5; obtain rfl := h6.eq_unread hf6
    obtain rfl := h7.eq_unread hf7
    sl_exec_parts! (disch := first | exact hi | exact hf)
    sl_step
    iapply Hk
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    -- the two accumulators: each conjunct hands its buffer over and reads the stored vector back, which assigns its witness
    isplitl [H6]
    all_goals try (iexists _; isplitr; swap; (· first | iexact H6 | iexact H7); ipureintro; (first | exact read_writes_junk_whole2 (Val := Elt F) _ _ _ | skip))

/-! ## The last point -/

set_option maxHeartbeats 4000000 in
/-- At the last point the finish follows the stores: the run also leaves the mean loss in the scalar window's buffer,
    a term over the two accumulators it has just stored and the two arrays of partial rows. -/
noncomputable def tcRunLast (c : Dev nD) (i : grid1.Coords)
    (M1 : Memref sig .tc .vmem S2048x1024 .f32) (h1 : M1.IsWhole) (M2 : Memref sig .tc .vmem S1x1024 .i32) (h2 : M2.IsWhole)
    (M3 : Memref sig .tc .vmem S32x1024 .f32) (h3 : M3.IsWhole) (M4 : Memref sig .tc .vmem S32x1024 .f32) (h4 : M4.IsWhole)
    (M5 : Memref sig .tc .smem S1x1 .f32) (h5 : M5.IsWhole) (M6 : Memref sig .tc .vmem S8x1024 .f32) (h6 : M6.IsWhole)
    (M7 : Memref sig .tc .vmem S8x1024 .f32) (h7 : M7.IsWhole)
    (hi : ¬ condInit i) (hf : condFin i)
    (x : Vec F S2048x1024 .f32) (tg : Vec F S1x1024 .i32) (sp cp : Vec F S32x1024 .f32) (a0 c0 : Vec F S8x1024 .f32) :
    { W : Vec F S8x1024 .f32 × Vec F S8x1024 .f32 × Vec F S1x1 .f32 //
      ∀ (o : Vec F S1x1 .f32) (E : Set ℕ) (Q : PUnit → sProp (MM F)),
        iprop(owns (c : Thread nD τ) M1 fullShare x
            ∗ owns (c : Thread nD τ) M2 fullShare tg
            ∗ owns (c : Thread nD τ) M3 fullShare sp
            ∗ owns (c : Thread nD τ) M4 fullShare cp
            ∗ owns (c : Thread nD τ) M5 fullShare o
            ∗ owns (c : Thread nD τ) M6 fullShare a0
            ∗ owns (c : Thread nD τ) M7 fullShare c0
            ∗ (iprop(owns (c : Thread nD τ) M1 fullShare x
                ∗ owns (c : Thread nD τ) M2 fullShare tg
                ∗ owns (c : Thread nD τ) M3 fullShare sp
                ∗ owns (c : Thread nD τ) M4 fullShare cp
                ∗ owns (c : Thread nD τ) M5 fullShare W.2.2
                ∗ owns (c : Thread nD τ) M6 fullShare W.1
                ∗ owns (c : Thread nD τ) M7 fullShare W.2.1) -∗ Q ⟨⟩))
          ⊢ wp frame (wpE (defs₀ (F := F)) 𝒱₀ (c : Thread nD τ) none) E (cc1__tc_body i M1 h1 M2 h2 M3 h3 M4 h4 M5 h5 M6 h6 M7 h7) Q } := by
  refine ⟨⟨?_, ?_, ?_⟩, fun o E Q => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := h1.eq_unread hf1; obtain rfl := h2.eq_unread hf2; obtain rfl := h3.eq_unread hf3
    obtain rfl := h4.eq_unread hf4; obtain rfl := h5.eq_unread hf5; obtain rfl := h6.eq_unread hf6
    obtain rfl := h7.eq_unread hf7
    sl_exec_parts! (disch := first | exact hi | exact hf)
    sl_step
    iapply Hk
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    -- the scalar window and the two accumulators: each conjunct hands its buffer over and reads the stored vector back,
    -- which assigns its witness
    isplitl [H5]
    all_goals try isplitl [H6]
    all_goals try (iexists _; isplitr; swap; (· first | iexact H5 | iexact H6 | iexact H7); ipureintro; (first | exact read_writes_junk_whole2 (Val := Elt F) _ _ _ | skip))

end Cert.Proof.KB

end
-- ==== Proof.Bits.TcBridge.lean ====
/-
  What the three runs of the TensorCore kernel's body leave, read as the fold of the block's 256 slabs.

  Each run names what it stores by the body's own payload terms, one auxiliary definition per returned value, over what the
  loads read of the staging memrefs. Slab by slab those terms are the fold's steps word for word: the class of a slab's
  rows, the comparison with 100000 or with the targets, the exponential, the selection against zero, the sum. So each
  equation holds by unfolding both sides, after two rewritings that do not hold by unfolding: the identity reshape the
  last store ends in, and the contents a whole memref reads back of what it was held at. At the first point the fold
  starts from the zero vector the body has just stored, read back; at the last the scalar is the finish of the two
  accumulators read back after their stores.
-/
import proofs.«202903_g36928128811344_cont_8to1_b_1739_32_alg».proof.Proof.Bits.TcBodyCases
import proofs.«202903_g36928128811344_cont_8to1_b_1739_32_alg».proof.Proof.Bits.TcValue
import Idealize.ShloMosaic.Lib.Pipeline.Value

set_option maxRecDepth 100000

noncomputable section

namespace Cert.Proof.KB

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A load of a rank-two shape taken whole from the origin reads the contents as they are. -/
theorem ld_origin2 {Val : EltTy → Type} {d : Fin 2 → ℕ} {e : EltTy} (h : ∀ a, (![0, 0] : Fin 2 → ℕ) a + d a ≤ d a)
    (X : (⟨2, d⟩ : Shape).Idx → Val e) : View.ld X (Rect.unit (s := ⟨2, d⟩) ![0, 0] d h) = X := by
  funext y
  show X ((Rect.unit (s := ⟨2, d⟩) ![0, 0] d h).idx y) = X y
  exact congrArg X (emb_origin2 h y)

/-- The vector the body zeroes an accumulator with is the zero vector. -/
theorem k1_pay4_eq : k1_pay4 (F := F) = zero8 := by simp only [k1_pay4, shapeCast_self]
theorem k1_pay5_eq : k1_pay5 (F := F) = zero8 := by simp only [k1_pay5, shapeCast_self]

/-! ## A middle point -/

set_option maxHeartbeats 4000000 in
/-- At a middle point the first accumulator is left at the fold of the block's slabs into what it held. -/
theorem tcRunMid_acc (c : Dev nD) (i : grid1.Coords)
    (M1 : Memref sig .tc .vmem S2048x1024 .f32) (h1 : M1.IsWhole) (M2 : Memref sig .tc .vmem S1x1024 .i32) (h2 : M2.IsWhole)
    (M3 : Memref sig .tc .vmem S32x1024 .f32) (h3 : M3.IsWhole) (M4 : Memref sig .tc .vmem S32x1024 .f32) (h4 : M4.IsWhole)
    (M5 : Memref sig .tc .smem S1x1 .f32) (h5 : M5.IsWhole) (M6 : Memref sig .tc .vmem S8x1024 .f32) (h6 : M6.IsWhole)
    (M7 : Memref sig .tc .vmem S8x1024 .f32) (h7 : M7.IsWhole)
    (hi : ¬ condInit i) (hf : ¬ condFin i)
    (x : Vec F S2048x1024 .f32) (tg : Vec F S1x1024 .i32) (a0 c0 : Vec F S8x1024 .f32) :
    (tcRunMid c i M1 h1 M2 h2 M3 h3 M4 h4 M5 h5 M6 h6 M7 h7 hi hf x tg a0 c0).1.1 = accPoint (i 0).val x a0 := by
  show k1_pay1 _ _ = _
  simp only [k1_pay1, shapeCast_self]
  refine Eq.trans (?_ : _ = accUpTo (i 0).val (M1.view.read (Elt F) (h1.unread x)) 256 le_rfl (View.ld (M6.view.read (Elt F) (h6.unread a0)) (Rect.unit (s := S8x1024) ![0, 0] S8x1024.size inb_S8x1024_S8x1024_0_0))) ?_
  · rfl
  · rw [h1.read_unread, h6.read_unread, ld_origin2]; rfl

set_option maxHeartbeats 4000000 in
/-- At a middle point the second accumulator is left at the fold of the block's slabs into what it held. -/
theorem tcRunMid_cacc (c : Dev nD) (i : grid1.Coords)
    (M1 : Memref sig .tc .vmem S2048x1024 .f32) (h1 : M1.IsWhole) (M2 : Memref sig .tc .vmem S1x1024 .i32) (h2 : M2.IsWhole)
    (M3 : Memref sig .tc .vmem S32x1024 .f32) (h3 : M3.IsWhole) (M4 : Memref sig .tc .vmem S32x1024 .f32) (h4 : M4.IsWhole)
    (M5 : Memref sig .tc .smem S1x1 .f32) (h5 : M5.IsWhole) (M6 : Memref sig .tc .vmem S8x1024 .f32) (h6 : M6.IsWhole)
    (M7 : Memref sig .tc .vmem S8x1024 .f32) (h7 : M7.IsWhole)
    (hi : ¬ condInit i) (hf : ¬ condFin i)
    (x : Vec F S2048x1024 .f32) (tg : Vec F S1x1024 .i32) (a0 c0 : Vec F S8x1024 .f32) :
    (tcRunMid c i M1 h1 M2 h2 M3 h3 M4 h4 M5 h5 M6 h6 M7 h7 hi hf x tg a0 c0).1.2 = caccPoint (i 0).val x tg c0 := by
  show k1_pay2 _ _ _ _ = _
  simp only [k1_pay2, shapeCast_self]
  refine Eq.trans (?_ : _ = caccUpTo (i 0).val (M1.view.read (Elt F) (h1.unread x)) (View.ld (M2.view.read (Elt F) (h2.unread tg)) (Rect.unit (s := S1x1024) ![0, 0] S1x1024.size inb_S1x1024_S1x1024_0_0)) 256 le_rfl (View.ld (M7.view.read (Elt F) (h7.unread c0)) (Rect.unit (s := S8x1024) ![0, 0] S8x1024.size inb_S8x1024_S8x1024_0_0))) ?_
  · rfl
  · rw [h1.read_unread, h2.read_unread, h7.read_unread, ld_origin2, ld_origin2]; rfl

/-! ## The first point -/

set_option maxHeartbeats 4000000 in
/-- At the first point the first accumulator is left at the fold into zero. -/
theorem tcRunFirst_acc (c : Dev nD) (i : grid1.Coords)
    (M1 : Memref sig .tc .vmem S2048x1024 .f32) (h1 : M1.IsWhole) (M2 : Memref sig .tc .vmem S1x1024 .i32) (h2 : M2.IsWhole)
    (M3 : Memref sig .tc .vmem S32x1024 .f32) (h3 : M3.IsWhole) (M4 : Memref sig .tc .vmem S32x1024 .f32) (h4 : M4.IsWhole)
    (M5 : Memref sig .tc .smem S1x1 .f32) (h5 : M5.IsWhole) (M6 : Memref sig .tc .vmem S8x1024 .f32) (h6 : M6.IsWhole)
    (M7 : Memref sig .tc .vmem S8x1024 .f32) (h7 : M7.IsWhole)
    (hi : condInit i) (hf : ¬ condFin i)
    (x : Vec F S2048x1024 .f32) (tg : Vec F S1x1024 .i32) :
    (tcRunFirst c i M1 h1 M2 h2 M3 h3 M4 h4 M5 h5 M6 h6 M7 h7 hi hf x tg).1.1 = accPoint (i 0).val x zero8 := by
  show k1_pay1 _ _ = _
  simp only [k1_pay1, shapeCast_self]
  refine Eq.trans (?_ : _ = accUpTo (i 0).val (M1.view.read (Elt F) (h1.unread x)) 256 le_rfl (M6.view.readCov ([⟨(Rect.unit (s := S8x1024) ![0, 0] S8x1024.size inb_S8x1024_S8x1024_0_0), k1_pay4 (F := F)⟩] : List (View.Piece (Elt F) S8x1024 .f32)) (Rect.unit (s := S8x1024) ![0, 0] S8x1024.size inb_S8x1024_S8x1024_0_0).toLoadRect)) ?_
  · rfl
  · rw [h1.read_unread, View.readCov_cons_toLoadRect, k1_pay4_eq]; rfl

set_option maxHeartbeats 4000000 in
/-- At the first point the second accumulator is left at the fold into zero. -/
theorem tcRunFirst_cacc (c : Dev nD) (i : grid1.Coords)
    (M1 : Memref sig .tc .vmem S2048x1024 .f32) (h1 : M1.IsWhole) (M2 : Memref sig .tc .vmem S1x1024 .i32) (h2 : M2.IsWhole)
    (M3 : Memref sig .tc .vmem S32x1024 .f32) (h3 : M3.IsWhole) (M4 : Memref sig .tc .vmem S32x1024 .f32) (h4 : M4.IsWhole)
    (M5 : Memref sig .tc .smem S1x1 .f32) (h5 : M5.IsWhole) (M6 : Memref sig .tc .vmem S8x1024 .f32) (h6 : M6.IsWhole)
    (M7 : Memref sig .tc .vmem S8x1024 .f32) (h7 : M7.IsWhole)
    (hi : condInit i) (hf : ¬ condFin i)
    (x : Vec F S2048x1024 .f32) (tg : Vec F S1x1024 .i32) :
    (tcRunFirst c i M1 h1 M2 h2 M3 h3 M4 h4 M5 h5 M6 h6 M7 h7 hi hf x tg).1.2 = caccPoint (i 0).val x tg zero8 := by
  show k1_pay2 _ _ _ _ = _
  simp only [k1_pay2, shapeCast_self]
  refine Eq.trans (?_ : _ = caccUpTo (i 0).val (M1.view.read (Elt F) (h1.unread x)) (View.ld (M2.view.read (Elt F) (h2.unread tg)) (Rect.unit (s := S1x1024) ![0, 0] S1x1024.size inb_S1x1024_S1x1024_0_0)) 256 le_rfl (M7.view.readCov ([⟨(Rect.unit (s := S8x1024) ![0, 0] S8x1024.size inb_S8x1024_S8x1024_0_0), k1_pay5 (F := F)⟩] : List (View.Piece (Elt F) S8x1024 .f32)) (Rect.unit (s := S8x1024) ![0, 0] S8x1024.size inb_S8x1024_S8x1024_0_0).toLoadRect)) ?_
  · rfl
  · rw [h1.read_unread, h2.read_unread, View.readCov_cons_toLoadRect, k1_pay5_eq, ld_origin2]; rfl

/-! ## The last point -/

set_option maxHeartbeats 4000000 in
/-- At the last point the first accumulator is left at the fold of the block's slabs into what it held. -/
theorem tcRunLast_acc (c : Dev nD) (i : grid1.Coords)
    (M1 : Memref sig .tc .vmem S2048x1024 .f32) (h1 : M1.IsWhole) (M2 : Memref sig .tc .vmem S1x1024 .i32) (h2 : M2.IsWhole)
    (M3 : Memref sig .tc .vmem S32x1024 .f32) (h3 : M3.IsWhole) (M4 : Memref sig .tc .vmem S32x1024 .f32) (h4 : M4.IsWhole)
    (M5 : Memref sig .tc .smem S1x1 .f32) (h5 : M5.IsWhole) (M6 : Memref sig .tc .vmem S8x1024 .f32) (h6 : M6.IsWhole)
    (M7 : Memref sig .tc .vmem S8x1024 .f32) (h7 : M7.IsWhole)
    (hi : ¬ condInit i) (hf : condFin i)
    (x : Vec F S2048x1024 .f32) (tg : Vec F S1x1024 .i32) (sp cp : Vec F S32x1024 .f32) (a0 c0 : Vec F S8x1024 .f32) :
    (tcRunLast c i M1 h1 M2 h2 M3 h3 M4 h4 M5 h5 M6 h6 M7 h7 hi hf x tg sp cp a0 c0).1.1 = accPoint (i 0).val x a0 := by
  show k1_pay1 _ _ = _
  simp only [k1_pay1, shapeCast_self]
  refine Eq.trans (?_ : _ = accUpTo (i 0).val (M1.view.read (Elt F) (h1.unread x)) 256 le_rfl (View.ld (M6.view.read (Elt F) (h6.unread a0)) (Rect.unit (s := S8x1024) ![0, 0] S8x1024.size inb_S8x1024_S8x1024_0_0))) ?_
  · rfl
  · rw [h1.read_unread, h6.read_unread, ld_origin2]; rfl

set_option maxHeartbeats 4000000 in
/-- At the last point the second accumulator is left at the fold of the block's slabs into what it held. -/
theorem tcRunLast_cacc (c : Dev nD) (i : grid1.Coords)
    (M1 : Memref sig .tc .vmem S2048x1024 .f32) (h1 : M1.IsWhole) (M2 : Memref sig .tc .vmem S1x1024 .i32) (h2 : M2.IsWhole)
    (M3 : Memref sig .tc .vmem S32x1024 .f32) (h3 : M3.IsWhole) (M4 : Memref sig .tc .vmem S32x1024 .f32) (h4 : M4.IsWhole)
    (M5 : Memref sig .tc .smem S1x1 .f32) (h5 : M5.IsWhole) (M6 : Memref sig .tc .vmem S8x1024 .f32) (h6 : M6.IsWhole)
    (M7 : Memref sig .tc .vmem S8x1024 .f32) (h7 : M7.IsWhole)
    (hi : ¬ condInit i) (hf : condFin i)
    (x : Vec F S2048x1024 .f32) (tg : Vec F S1x1024 .i32) (sp cp : Vec F S32x1024 .f32) (a0 c0 : Vec F S8x1024 .f32) :
    (tcRunLast c i M1 h1 M2 h2 M3 h3 M4 h4 M5 h5 M6 h6 M7 h7 hi hf x tg sp cp a0 c0).1.2.1 = caccPoint (i 0).val x tg c0 := by
  show k1_pay2 _ _ _ _ = _
  simp only [k1_pay2, shapeCast_self]
  refine Eq.trans (?_ : _ = caccUpTo (i 0).val (M1.view.read (Elt F) (h1.unread x)) (View.ld (M2.view.read (Elt F) (h2.unread tg)) (Rect.unit (s := S1x1024) ![0, 0] S1x1024.size inb_S1x1024_S1x1024_0_0)) 256 le_rfl (View.ld (M7.view.read (Elt F) (h7.unread c0)) (Rect.unit (s := S8x1024) ![0, 0] S8x1024.size inb_S8x1024_S8x1024_0_0))) ?_
  · rfl
  · rw [h1.read_unread, h2.read_unread, h7.read_unread, ld_origin2, ld_origin2]; rfl

set_option maxHeartbeats 4000000 in
/-- At the last point the scalar window is left at the finish of the two accumulators just stored and the two arrays of
    partial rows. -/
theorem tcRunLast_out (c : Dev nD) (i : grid1.Coords)
    (M1 : Memref sig .tc .vmem S2048x1024 .f32) (h1 : M1.IsWhole) (M2 : Memref sig .tc .vmem S1x1024 .i32) (h2 : M2.IsWhole)
    (M3 : Memref sig .tc .vmem S32x1024 .f32) (h3 : M3.IsWhole) (M4 : Memref sig .tc .vmem S32x1024 .f32) (h4 : M4.IsWhole)
    (M5 : Memref sig .tc .smem S1x1 .f32) (h5 : M5.IsWhole) (M6 : Memref sig .tc .vmem S8x1024 .f32) (h6 : M6.IsWhole)
    (M7 : Memref sig .tc .vmem S8x1024 .f32) (h7 : M7.IsWhole)
    (hi : ¬ condInit i) (hf : condFin i)
    (x : Vec F S2048x1024 .f32) (tg : Vec F S1x1024 .i32) (sp cp : Vec F S32x1024 .f32) (a0 c0 : Vec F S8x1024 .f32) :
    (tcRunLast c i M1 h1 M2 h2 M3 h3 M4 h4 M5 h5 M6 h6 M7 h7 hi hf x tg sp cp a0 c0).1.2.2 = fun _ => k1_pay3 (accPoint (i 0).val x a0) (caccPoint (i 0).val x tg c0) sp cp := by
  have e : (tcRunLast c i M1 h1 M2 h2 M3 h3 M4 h4 M5 h5 M6 h6 M7 h7 hi hf x tg sp cp a0 c0).1.2.2 = fun _ => k1_pay3
      (M6.view.readCov ([⟨(Rect.unit (s := S8x1024) ![0, 0] S8x1024.size inb_S8x1024_S8x1024_0_0), (tcRunLast c i M1 h1 M2 h2 M3 h3 M4 h4 M5 h5 M6 h6 M7 h7 hi hf x tg sp cp a0 c0).1.1⟩] : List (View.Piece (Elt F) S8x1024 .f32)) (Rect.unit (s := S8x1024) ![0, 0] S8x1024.size inb_S8x1024_S8x1024_0_0).toLoadRect)
      (M7.view.readCov ([⟨(Rect.unit (s := S8x1024) ![0, 0] S8x1024.size inb_S8x1024_S8x1024_0_0), (tcRunLast c i M1 h1 M2 h2 M3 h3 M4 h4 M5 h5 M6 h6 M7 h7 hi hf x tg sp cp a0 c0).1.2.1⟩] : List (View.Piece (Elt F) S8x1024 .f32)) (Rect.unit (s := S8x1024) ![0, 0] S8x1024.size inb_S8x1024_S8x1024_0_0).toLoadRect)
      (View.ld (M3.view.read (Elt F) (h3.unread sp)) (Rect.unit (s := S32x1024) ![0, 0] S32x1024.size inb_S32x1024_S32x1024_0_0))
      (View.ld (M4.view.read (Elt F) (h4.unread cp)) (Rect.unit (s := S32x1024) ![0, 0] S32x1024.size inb_S32x1024_S32x1024_0_0)) := rfl
  rw [e, View.readCov_cons_toLoadRect, View.readCov_cons_toLoadRect, tcRunLast_acc, tcRunLast_cacc, h3.read_unread, h4.read_unread,
    ld_origin2, ld_origin2]

end Cert.Proof.KB

end
-- ==== Proof.Bits.TcBody.lean ====
/-
  The body's run at every grid point, assembled from its three control cases.

  The first point zeroes the accumulators before the slabs; the last point runs the finish after them; every other point
  runs the slabs alone. Which case a point falls in is decided by its number, and in each case what the run leaves in
  the accumulators is the fold of the point's 256 slabs, from zero at the first point and from what they held elsewhere.
-/
import proofs.«202903_g36928128811344_cont_8to1_b_1739_32_alg».proof.Proof.Bits.TcBodyStmt
import proofs.«202903_g36928128811344_cont_8to1_b_1739_32_alg».proof.Proof.Bits.TcBridge

noncomputable section

namespace Cert.Proof.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

-- the folds and the finish are compared as wholes here, never unrolled
attribute [local irreducible] accPoint caccPoint k1_pay3

/-- A buffer held at contents is held at equal contents. -/
theorem owns_of_eq (c : Dev nD) {sp : Space} {sh : Shape} {e : EltTy} (M : Memref sig .tc sp sh e) {X X' : sh.Idx → Elt F e}
    (h : X = X') : (owns (c : Thread nD τ) M fullShare X : sProp (MM F)) ⊢ owns (c : Thread nD τ) M fullShare X' := by
  rw [h]

/-- The body's run at every grid point. -/
theorem tc_body_run : TcBodyRun F := by
  intro c t x tg sp cp o a0 c0
  have hv : (grid1.coords t 0).val = t.val := coords1_val t
  by_cases h0 : t.val = 0
  · -- the first point: both accumulators start from zero
    have hi : condInit (grid1.coords t) := (hcondInit t).mpr h0
    have hf : ¬condFin (grid1.coords t) := fun h => by have := (hcondFin t).mp h; omega
    have ea := tcRunFirst_acc (F := F) c (grid1.coords t) (st1_0 t) (hstage1_0 ((cfg1.slots t 0).cast nbuf1_0))
      (st1_1 t) (hstage1_1 ((cfg1.slots t 1).cast nbuf1_1)) (st1_2 t) (hstage1_2 ((cfg1.slots t 2).cast nbuf1_2))
      (st1_3 t) (hstage1_3 ((cfg1.slots t 3).cast nbuf1_3)) (st1_4 t) (hstage1_4 ((cfg1.slots t 4).cast nbuf1_4))
      (Memref.whole cc1_scratch0) (Memref.isWhole_whole _) (Memref.whole cc1_scratch1) (Memref.isWhole_whole _) hi hf x tg
    have ec := tcRunFirst_cacc (F := F) c (grid1.coords t) (st1_0 t) (hstage1_0 ((cfg1.slots t 0).cast nbuf1_0))
      (st1_1 t) (hstage1_1 ((cfg1.slots t 1).cast nbuf1_1)) (st1_2 t) (hstage1_2 ((cfg1.slots t 2).cast nbuf1_2))
      (st1_3 t) (hstage1_3 ((cfg1.slots t 3).cast nbuf1_3)) (st1_4 t) (hstage1_4 ((cfg1.slots t 4).cast nbuf1_4))
      (Memref.whole cc1_scratch0) (Memref.isWhole_whole _) (Memref.whole cc1_scratch1) (Memref.isWhole_whole _) hi hf x tg
    have hrun := (tcRunFirst (F := F) c (grid1.coords t) (st1_0 t) (hstage1_0 ((cfg1.slots t 0).cast nbuf1_0))
      (st1_1 t) (hstage1_1 ((cfg1.slots t 1).cast nbuf1_1)) (st1_2 t) (hstage1_2 ((cfg1.slots t 2).cast nbuf1_2))
      (st1_3 t) (hstage1_3 ((cfg1.slots t 3).cast nbuf1_3)) (st1_4 t) (hstage1_4 ((cfg1.slots t 4).cast nbuf1_4))
      (Memref.whole cc1_scratch0) (Memref.isWhole_whole _) (Memref.whole cc1_scratch1) (Memref.isWhole_whole _) hi hf x tg).2
      sp cp o a0 c0 Set.univ
    rw [ea, ec, hv] at hrun
    have eo : (if t.val = 32 then (fun _ => k1_pay3 (accOut t.val x a0) (caccOut t.val x tg c0) sp cp) else o) = o :=
      if_neg (by omega)
    have e1 : accOut t.val x a0 = accPoint t.val x zero8 := by unfold accOut; rw [if_pos h0]
    have e2 : caccOut t.val x tg c0 = caccPoint t.val x tg zero8 := by unfold caccOut; rw [if_pos h0]
    refine BIBase.Entails.trans ?_ (hrun _)
    iintro ⟨H1, H2, H3, H4, H5, H6, H7⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H1, H2, H3, H4, H5, H6, H7⟩
    isplitl [H1]; · iexact H1
    isplitl [H2]; · iexact H2
    isplitl [H3]; · iexact H3
    isplitl [H4]; · iexact H4
    isplitl [H5]; · iapply (owns_of_eq c (st1_4 t) eo.symm); iexact H5
    isplitl [H6]; · iapply (owns_of_eq c (Memref.whole cc1_scratch0) e1.symm); iexact H6
    iapply (owns_of_eq c (Memref.whole cc1_scratch1) e2.symm); iexact H7
  · by_cases h32 : t.val = 32
    · -- the last point: the slabs, then the finish
      have hi : ¬condInit (grid1.coords t) := fun h => h0 ((hcondInit t).mp h)
      have hf : condFin (grid1.coords t) := (hcondFin t).mpr h32
      have ea := tcRunLast_acc (F := F) c (grid1.coords t) (st1_0 t) (hstage1_0 ((cfg1.slots t 0).cast nbuf1_0))
        (st1_1 t) (hstage1_1 ((cfg1.slots t 1).cast nbuf1_1)) (st1_2 t) (hstage1_2 ((cfg1.slots t 2).cast nbuf1_2))
        (st1_3 t) (hstage1_3 ((cfg1.slots t 3).cast nbuf1_3)) (st1_4 t) (hstage1_4 ((cfg1.slots t 4).cast nbuf1_4))
        (Memref.whole cc1_scratch0) (Memref.isWhole_whole _) (Memref.whole cc1_scratch1) (Memref.isWhole_whole _) hi hf x tg sp cp a0 c0
      have ec := tcRunLast_cacc (F := F) c (grid1.coords t) (st1_0 t) (hstage1_0 ((cfg1.slots t 0).cast nbuf1_0))
        (st1_1 t) (hstage1_1 ((cfg1.slots t 1).cast nbuf1_1)) (st1_2 t) (hstage1_2 ((cfg1.slots t 2).cast nbuf1_2))
        (st1_3 t) (hstage1_3 ((cfg1.slots t 3).cast nbuf1_3)) (st1_4 t) (hstage1_4 ((cfg1.slots t 4).cast nbuf1_4))
        (Memref.whole cc1_scratch0) (Memref.isWhole_whole _) (Memref.whole cc1_scratch1) (Memref.isWhole_whole _) hi hf x tg sp cp a0 c0
      have eout := tcRunLast_out (F := F) c (grid1.coords t) (st1_0 t) (hstage1_0 ((cfg1.slots t 0).cast nbuf1_0))
        (st1_1 t) (hstage1_1 ((cfg1.slots t 1).cast nbuf1_1)) (st1_2 t) (hstage1_2 ((cfg1.slots t 2).cast nbuf1_2))
        (st1_3 t) (hstage1_3 ((cfg1.slots t 3).cast nbuf1_3)) (st1_4 t) (hstage1_4 ((cfg1.slots t 4).cast nbuf1_4))
        (Memref.whole cc1_scratch0) (Memref.isWhole_whole _) (Memref.whole cc1_scratch1) (Memref.isWhole_whole _) hi hf x tg sp cp a0 c0
      have hrun := (tcRunLast (F := F) c (grid1.coords t) (st1_0 t) (hstage1_0 ((cfg1.slots t 0).cast nbuf1_0))
        (st1_1 t) (hstage1_1 ((cfg1.slots t 1).cast nbuf1_1)) (st1_2 t) (hstage1_2 ((cfg1.slots t 2).cast nbuf1_2))
        (st1_3 t) (hstage1_3 ((cfg1.slots t 3).cast nbuf1_3)) (st1_4 t) (hstage1_4 ((cfg1.slots t 4).cast nbuf1_4))
        (Memref.whole cc1_scratch0) (Memref.isWhole_whole _) (Memref.whole cc1_scratch1) (Memref.isWhole_whole _) hi hf x tg sp cp a0 c0).2
        o Set.univ
      rw [ea, ec, eout, hv] at hrun
      have e1 : accOut t.val x a0 = accPoint t.val x a0 := by unfold accOut; rw [if_neg h0]
      have e2 : caccOut t.val x tg c0 = caccPoint t.val x tg c0 := by unfold caccOut; rw [if_neg h0]
      have eo : (if t.val = 32 then (fun _ => k1_pay3 (accOut t.val x a0) (caccOut t.val x tg c0) sp cp) else o)
          = fun _ => k1_pay3 (accPoint t.val x a0) (caccPoint t.val x tg c0) sp cp := by rw [if_pos h32, e1, e2]
      refine BIBase.Entails.trans ?_ (hrun _)
      iintro ⟨H1, H2, H3, H4, H5, H6, H7⟩
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H1, H2, H3, H4, H5, H6, H7⟩
      isplitl [H1]; · iexact H1
      isplitl [H2]; · iexact H2
      isplitl [H3]; · iexact H3
      isplitl [H4]; · iexact H4
      isplitl [H5]; · iapply (owns_of_eq c (st1_4 t) eo.symm); iexact H5
      isplitl [H6]; · iapply (owns_of_eq c (Memref.whole cc1_scratch0) e1.symm); iexact H6
      iapply (owns_of_eq c (Memref.whole cc1_scratch1) e2.symm); iexact H7
    · -- a middle point: the slabs alone
      have hi : ¬condInit (grid1.coords t) := fun h => h0 ((hcondInit t).mp h)
      have hf : ¬condFin (grid1.coords t) := fun h => h32 ((hcondFin t).mp h)
      have ea := tcRunMid_acc (F := F) c (grid1.coords t) (st1_0 t) (hstage1_0 ((cfg1.slots t 0).cast nbuf1_0))
        (st1_1 t) (hstage1_1 ((cfg1.slots t 1).cast nbuf1_1)) (st1_2 t) (hstage1_2 ((cfg1.slots t 2).cast nbuf1_2))
        (st1_3 t) (hstage1_3 ((cfg1.slots t 3).cast nbuf1_3)) (st1_4 t) (hstage1_4 ((cfg1.slots t 4).cast nbuf1_4))
        (Memref.whole cc1_scratch0) (Memref.isWhole_whole _) (Memref.whole cc1_scratch1) (Memref.isWhole_whole _) hi hf x tg a0 c0
      have ec := tcRunMid_cacc (F := F) c (grid1.coords t) (st1_0 t) (hstage1_0 ((cfg1.slots t 0).cast nbuf1_0))
        (st1_1 t) (hstage1_1 ((cfg1.slots t 1).cast nbuf1_1)) (st1_2 t) (hstage1_2 ((cfg1.slots t 2).cast nbuf1_2))
        (st1_3 t) (hstage1_3 ((cfg1.slots t 3).cast nbuf1_3)) (st1_4 t) (hstage1_4 ((cfg1.slots t 4).cast nbuf1_4))
        (Memref.whole cc1_scratch0) (Memref.isWhole_whole _) (Memref.whole cc1_scratch1) (Memref.isWhole_whole _) hi hf x tg a0 c0
      have hrun := (tcRunMid (F := F) c (grid1.coords t) (st1_0 t) (hstage1_0 ((cfg1.slots t 0).cast nbuf1_0))
        (st1_1 t) (hstage1_1 ((cfg1.slots t 1).cast nbuf1_1)) (st1_2 t) (hstage1_2 ((cfg1.slots t 2).cast nbuf1_2))
        (st1_3 t) (hstage1_3 ((cfg1.slots t 3).cast nbuf1_3)) (st1_4 t) (hstage1_4 ((cfg1.slots t 4).cast nbuf1_4))
        (Memref.whole cc1_scratch0) (Memref.isWhole_whole _) (Memref.whole cc1_scratch1) (Memref.isWhole_whole _) hi hf x tg a0 c0).2
        sp cp o Set.univ
      rw [ea, ec, hv] at hrun
      have eo : (if t.val = 32 then (fun _ => k1_pay3 (accOut t.val x a0) (caccOut t.val x tg c0) sp cp) else o) = o :=
        if_neg h32
      have e1 : accOut t.val x a0 = accPoint t.val x a0 := by unfold accOut; rw [if_neg h0]
      have e2 : caccOut t.val x tg c0 = caccPoint t.val x tg c0 := by unfold caccOut; rw [if_neg h0]
      refine BIBase.Entails.trans ?_ (hrun _)
      iintro ⟨H1, H2, H3, H4, H5, H6, H7⟩
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H1, H2, H3, H4, H5, H6, H7⟩
      isplitl [H1]; · iexact H1
      isplitl [H2]; · iexact H2
      isplitl [H3]; · iexact H3
      isplitl [H4]; · iexact H4
      isplitl [H5]; · iapply (owns_of_eq c (st1_4 t) eo.symm); iexact H5
      isplitl [H6]; · iapply (owns_of_eq c (Memref.whole cc1_scratch0) e1.symm); iexact H6
      iapply (owns_of_eq c (Memref.whole cc1_scratch1) e2.symm); iexact H7

end Cert.Proof.KB

end
-- ==== Proof.Spec.lean ====
/-
  The margin-softmax loss both programs compute, as functions on the extended reals.

  Row `b` of the input holds cosines `x[b, v]`; `τ b` is the row's target class. With `c = x[b, τ b]` the margin
  moves the target's cosine to `new = c · cos m − √(1 − c²) · sin m` (the cosine of the angle plus the margin), and the
  row's loss is the negative log-probability of the target after that move:
  `log (Σ_v exp (logit v)) − new`, where `logit v` is `new` at the target and `x[b, v]` elsewhere. The result is the
  mean over the 1024 rows.

  Two spellings of the same number are kept apart here: `loss`, with the sum of exponentials of the moved row written as
  the unmoved row's sum, less the target's old exponential, plus its new one, and the square root guarded by a maximum with
  zero; and `refLoss`, with the moved row formed first, shifted by its maximum, and the square root unguarded.
-/
import Idealize.ShloMosaic.PureOps.Ideal
import Idealize.ShloMosaic.Lib.ValueIdx

noncomputable section

open scoped BigOperators

namespace Cert.Spec

open Idealize.ShloMosaic Idealize.ShloMosaic.ValueIdx

/-- The input's shape, rows by classes. -/
abbrev SX : Shape := ⟨2, ![1024, 100000]⟩

/-- `cos m`, `sin m` for the margin `m = 0.5`, the constant one and the row count, each the extended real its 32-bit word denotes. -/
def cosM : EReal := Ideal.ofBits .f32 0x3F60A940#32
def sinM : EReal := Ideal.ofBits .f32 0x3EF57744#32
def one : EReal := Ideal.ofBits .f32 0x3F800000#32
def rows : EReal := Ideal.ofBits .f32 0x44800000#32

/-- The target's cosine in row `b`. -/
def cosT (x : SX.Idx → EReal) (τ : Fin 1024 → Fin 100000) (b : Fin 1024) : EReal := x (ix2 b (τ b))

/-- The sum of the exponentials of row `b`. -/
def sumExp (x : SX.Idx → EReal) (b : Fin 1024) : EReal := ∑ v : Fin 100000, Ideal.exp (x (ix2 b v))

/-- The target's cosine after the margin, with the radicand guarded from below by zero. -/
def newCos (c : EReal) : EReal := c * cosM - Ideal.sqrt (max (one - c * c) 0) * sinM

/-- Row `b`'s loss: the log of the moved row's sum of exponentials, less the moved cosine. -/
def nll (x : SX.Idx → EReal) (τ : Fin 1024 → Fin 100000) (b : Fin 1024) : EReal :=
  Ideal.log (sumExp x b - Ideal.exp (cosT x τ b) + Ideal.exp (newCos (cosT x τ b))) - newCos (cosT x τ b)

/-- The mean loss. -/
def loss (x : SX.Idx → EReal) (τ : Fin 1024 → Fin 100000) : EReal := Ideal.div (∑ b : Fin 1024, nll x τ b) rows

/-! ## The same number as the reference spells it -/

/-- The target's cosine after the margin, the radicand unguarded. -/
def newCosR (c : EReal) : EReal := c * cosM - Ideal.sqrt (one - c * c) * sinM

/-- The moved row: the new cosine at the target, the input elsewhere. -/
def logit (x : SX.Idx → EReal) (τ : Fin 1024 → Fin 100000) (b : Fin 1024) (v : Fin 100000) : EReal :=
  if v = τ b then newCosR (cosT x τ b) else x (ix2 b v)

/-- The moved row's maximum (the bottom element if the row were empty). -/
def rowMax (x : SX.Idx → EReal) (τ : Fin 1024 → Fin 100000) (b : Fin 1024) : EReal :=
  Finset.univ.fold max ⊥ (logit x τ b)

/-- Row `b`'s log-probability of its target: the shifted logit less the log of the shifted exponentials' sum. -/
def logProb (x : SX.Idx → EReal) (τ : Fin 1024 → Fin 100000) (b : Fin 1024) : EReal :=
  (logit x τ b (τ b) - rowMax x τ b) - Ideal.log (∑ v : Fin 100000, Ideal.exp (logit x τ b v - rowMax x τ b))

/-- The mean of the negated log-probabilities, summed from zero. -/
def refLoss (x : SX.Idx → EReal) (τ : Fin 1024 → Fin 100000) : EReal :=
  Ideal.div (0 + ∑ b : Fin 1024, -(logProb x τ b)) rows

/-- What the precondition gives of the input: every entry a real of magnitude at most one. -/
def Cosines (x : SX.Idx → EReal) : Prop := ∀ i, ∃ r : ℝ, x i = (r : EReal) ∧ |r| ≤ 1

end Cert.Spec

end
-- ==== Proof.Alg.lean ====
/-
  The two spellings of the margin-softmax loss agree on rows of cosines, and the kernel's order of summation sums every
  class once.

  Every entry of the input is a real of magnitude at most one. So the target's cosine `c` has `1 − c² ≥ 0`: the guard
  on the radicand is the identity and the moved cosine is one real `n` in both spellings. The moved row `l` is then a
  row of reals, its maximum `M` a real, and over the reals
  `−((l_t − M) − log Σ_v exp (l_v − M)) = log (Σ_v exp l_v) − l_t`, because `Σ_v exp (l_v − M) = exp (−M) · Σ_v exp l_v`
  with both factors positive; and `Σ_v exp l_v = Σ_v exp x_v − exp c + exp n`, one term of the sum having been replaced.

  The second half is about finite sums in a commutative monoid. The 100000 classes are visited as 32 stripes of 1024
  (classes below 32768) and then as 33 blocks of 256 slabs of 8 rows (classes from 32768 to 100351, those from 100000 on
  counting zero): `32 · 1024 + 33 · 256 · 8 = 100000 + 352`, so the two groups together are an initial segment of the
  naturals cut at 100000, each class met once; a value placed at one class and zero elsewhere therefore sums to itself.
-/
import proofs.«202903_g36928128811344_cont_8to1_b_1739_32_alg».proof.Proof.Spec
import proofs.«202903_g36928128811344_cont_8to1_b_1739_32_alg».proof.Proof.ScVal
import Mathlib.Data.EReal.Operations
import Mathlib.Data.Finset.Fold
import Mathlib.Analysis.SpecialFunctions.Log.Basic
import Mathlib.Algebra.BigOperators.Fin
import Mathlib.Algebra.Order.BigOperators.Group.Finset

noncomputable section

open scoped BigOperators

namespace Cert.Alg

open Idealize.ShloMosaic Idealize.ShloMosaic.ValueIdx Cert.Spec

/-! ## Reals inside the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with the binary maximum. -/
theorem coe_max (a b : ℝ) : max (a : EReal) (b : EReal) = ((max a b : ℝ) : EReal) :=
  (EReal.coe_strictMono.monotone.map_max).symm

/-- The maximum of a nonempty finite family of reals, folded from the bottom element, is a real. -/
theorem fold_max_coe {ι : Type*} [DecidableEq ι] (l : ι → ℝ) (s : Finset ι) (hs : s.Nonempty) :
    ∃ M : ℝ, s.fold max (⊥ : EReal) (fun v => (l v : EReal)) = (M : EReal) := by
  induction s using Finset.induction_on with
  | empty => exact absurd hs (by simp)
  | insert a s ha ih =>
    rw [Finset.fold_insert ha]
    rcases s.eq_empty_or_nonempty with rfl | hne
    · exact ⟨l a, by simp⟩
    · obtain ⟨M, hM⟩ := ih hne
      exact ⟨max (l a) M, by rw [hM, coe_max]⟩

/-! ## The constants -/

/-- The pattern of `1.0` denotes one. -/
theorem one_eq : one = 1 := by
  unfold one; simp [Ideal.ofBits, Ideal.ieee, -EReal.coe_mul]; norm_num

/-- A pattern whose exponent field is not all ones denotes a real. -/
theorem ieee_real (e m : ℕ) {w : ℕ} (b : BitVec w) (h : (b.extractLsb' m e).toNat ≠ 2 ^ e - 1) :
    ∃ r : ℝ, Ideal.ieee e m b = (r : EReal) := by
  unfold Ideal.ieee
  dsimp only
  rw [if_neg h]
  split_ifs <;> exact ⟨_, rfl⟩

/-- `cos m` is a real. -/
theorem cosM_real : ∃ r : ℝ, cosM = (r : EReal) := by
  unfold cosM
  exact ieee_real 8 23 (0x3F60A940#32) (by decide)

/-- `sin m` is a real. -/
theorem sinM_real : ∃ r : ℝ, sinM = (r : EReal) := by
  unfold sinM
  exact ieee_real 8 23 (0x3EF57744#32) (by decide)

/-! ## One row -/

/-- Replacing one term of a finite sum of reals: the new sum is the old one less the old term plus the new. -/
theorem sum_replace {ι : Type*} [Fintype ι] [DecidableEq ι] (f : ι → ℝ) (t : ι) (n : ℝ) :
    ∑ v, (if v = t then n else f v) = ∑ v, f v - f t + n := by
  have h : ∑ v, ((if v = t then n else f v) - f v) = n - f t := by
    have h1 : ∀ v ∈ Finset.univ, ((if v = t then n else f v) - f v) = if v = t then n - f v else 0 := by
      intro v _
      by_cases hv : v = t
      · rw [if_pos hv, if_pos hv]
      · rw [if_neg hv, if_neg hv, sub_self]
    exact (Finset.sum_congr rfl h1).trans
      ((Finset.sum_ite_eq' Finset.univ t (fun v => n - f v)).trans (if_pos (Finset.mem_univ t)))
  rw [Finset.sum_sub_distrib] at h
  linarith

/-- Over the reals: the negated log-probability of the shifted softmax is the log of the unshifted sum less the logit. -/
theorem real_row {ι : Type*} [Fintype ι] [Nonempty ι] (l : ι → ℝ) (M : ℝ) (t : ι) :
    0 < ∑ v, Real.exp (l v - M) ∧ 0 < ∑ v, Real.exp (l v) ∧
      -((l t - M) - Real.log (∑ v, Real.exp (l v - M))) = Real.log (∑ v, Real.exp (l v)) - l t := by
  have hS : 0 < ∑ v, Real.exp (l v) := Finset.sum_pos (fun v _ => Real.exp_pos _) Finset.univ_nonempty
  have hS' : 0 < ∑ v, Real.exp (l v - M) := Finset.sum_pos (fun v _ => Real.exp_pos _) Finset.univ_nonempty
  refine ⟨hS', hS, ?_⟩
  have hfac : ∑ v, Real.exp (l v - M) = Real.exp (-M) * ∑ v, Real.exp (l v) := by
    rw [Finset.mul_sum]
    refine Finset.sum_congr rfl (fun v _ => ?_)
    rw [← Real.exp_add]; congr 1; ring
  rw [hfac, Real.log_mul (Real.exp_pos _).ne' hS.ne', Real.log_exp]
  ring

/-- On a row of cosines the negated log-probability of the reference is the row loss of the kernel. -/
theorem neg_logProb_eq_nll (x : SX.Idx → EReal) (τ : Fin 1024 → Fin 100000) (hx : Cosines x) (b : Fin 1024) :
    -(logProb x τ b) = nll x τ b := by
  have hx' : ∀ i, ∃ r : ℝ, x i = (r : EReal) ∧ |r| ≤ 1 := hx
  choose r hr hr1 using hx'
  obtain ⟨cm, hcm⟩ := cosM_real
  obtain ⟨sm, hsm⟩ := sinM_real
  -- the target's cosine and the moved cosine
  have hc : cosT x τ b = ((r (ix2 b (τ b)) : ℝ) : EReal) := hr _
  generalize hcdef : r (ix2 b (τ b)) = c at hc
  have hrad : 0 ≤ 1 - c * c := by
    have h1 := abs_le.mp (hr1 (ix2 b (τ b)))
    rw [hcdef] at h1
    nlinarith [mul_nonneg (sub_nonneg.mpr h1.2) (by linarith [h1.1] : (0 : ℝ) ≤ 1 + c)]
  have hradE : (1 : EReal) - (c : EReal) * (c : EReal) = ((1 - c * c : ℝ) : EReal) := by
    rw [EReal.coe_sub, EReal.coe_mul, EReal.coe_one]
  obtain ⟨n, hn⟩ : ∃ n : ℝ, n = c * cm - Real.sqrt (1 - c * c) * sm := ⟨_, rfl⟩
  have hnewR : newCosR (c : EReal) = (n : EReal) := by
    unfold newCosR
    rw [one_eq, hcm, hsm, hradE, Ideal.sqrt_coe, if_neg (not_lt.mpr hrad), hn, EReal.coe_sub, EReal.coe_mul,
      EReal.coe_mul]
  have hnew : newCos (c : EReal) = (n : EReal) := by
    unfold newCos
    rw [one_eq, hcm, hsm, hradE, max_eq_left (EReal.coe_nonneg.mpr hrad), Ideal.sqrt_coe, if_neg (not_lt.mpr hrad), hn,
      EReal.coe_sub, EReal.coe_mul, EReal.coe_mul]
  -- the moved row, a row of reals
  obtain ⟨l, hl⟩ : ∃ l : Fin 100000 → ℝ, l = fun v => if v = τ b then n else r (ix2 b v) := ⟨_, rfl⟩
  have hlogit : logit x τ b = fun v => ((l v : ℝ) : EReal) := by
    funext v
    unfold logit
    rw [hc, hnewR, hl]
    by_cases hv : v = τ b
    · simp [hv]
    · simp [hv, hr]
  have hlt : l (τ b) = n := by rw [hl]; simp
  obtain ⟨M, hM⟩ := fold_max_coe l Finset.univ Finset.univ_nonempty
  have hmax : rowMax x τ b = (M : EReal) := by unfold rowMax; rw [hlogit]; exact hM
  obtain ⟨hS', hS, hrow⟩ := real_row l M (τ b)
  -- the reference's side
  have hL : -(logProb x τ b) = ((Real.log (∑ v, Real.exp (l v)) - n : ℝ) : EReal) := by
    unfold logProb
    rw [hmax, hlogit]
    have he : ∀ v, Ideal.exp (((l v : ℝ) : EReal) - (M : EReal)) = ((Real.exp (l v - M) : ℝ) : EReal) := fun v => by
      rw [← EReal.coe_sub, Ideal.exp_coe]
    simp only [he]
    rw [← coe_sum, Ideal.log_coe, if_neg (not_le.mpr hS'), ← EReal.coe_sub, ← EReal.coe_sub, ← EReal.coe_neg, hrow, hlt]
  -- the kernel's side
  have hR : nll x τ b = ((Real.log (∑ v, Real.exp (l v)) - n : ℝ) : EReal) := by
    unfold nll sumExp
    rw [hc, hnew]
    have he : ∀ v, Ideal.exp (x (ix2 b v)) = ((Real.exp (r (ix2 b v)) : ℝ) : EReal) := fun v => by
      rw [hr, Ideal.exp_coe]
    simp only [he, Ideal.exp_coe]
    rw [← coe_sum, ← EReal.coe_sub, ← EReal.coe_add]
    have hsum : ∑ v, Real.exp (r (ix2 b v)) - Real.exp c + Real.exp n = ∑ v, Real.exp (l v) := by
      have h1 := sum_replace (fun v => Real.exp (r (ix2 b v))) (τ b) (Real.exp n)
      have h2 : ∑ v, Real.exp (l v) = ∑ v, (if v = τ b then Real.exp n else Real.exp (r (ix2 b v))) := by
        rw [hl]; exact Finset.sum_congr rfl (fun v _ => apply_ite Real.exp _ _ _)
      rw [h2, h1, hcdef]
    rw [hsum, Ideal.log_coe, if_neg (not_le.mpr hS), ← EReal.coe_sub]
  rw [hL, hR]

/-- **The reference's loss is the kernel's loss** on an input of cosines. -/
theorem refLoss_eq_loss (x : Cert.Spec.SX.Idx → EReal) (τ : Fin 1024 → Fin 100000) (hx : Cert.Spec.Cosines x) :
    Cert.Spec.refLoss x τ = Cert.Spec.loss x τ := by
  unfold refLoss loss
  rw [zero_add]
  exact congrArg (fun s => Ideal.div s rows) (Finset.sum_congr rfl (fun b _ => neg_logProb_eq_nll x τ hx b))

/-! ## Regrouping finite sums (any commutative monoid: the extended reals need no finiteness here) -/

section Regroup
variable {A : Type*} [AddCommMonoid A]

/-- A sum over `a · b` consecutive naturals as `a` consecutive runs of `b`. -/
theorem sum_range_mul (a b : ℕ) (g : ℕ → A) :
    ∑ i ∈ Finset.range (a * b), g i = ∑ p ∈ Finset.range a, ∑ q ∈ Finset.range b, g (p * b + q) := by
  induction a with
  | zero => simp
  | succ a ih => rw [add_one_mul, Finset.sum_range_add, ih, Finset.sum_range_succ]

/-- A sum whose terms vanish from `n` on may be cut at `n`. -/
theorem sum_range_cut (n m : ℕ) (g : ℕ → A) (h0 : ∀ i, n ≤ i → g i = 0) :
    ∑ i ∈ Finset.range (n + m), g i = ∑ i ∈ Finset.range n, g i := by
  rw [Finset.sum_range_add, Finset.sum_eq_zero (fun i _ => h0 _ (Nat.le_add_right n i)), add_zero]

/-- A recursion that adds `H t` at step `t`, from zero, is the sum of the `H t`. -/
theorem rec_eq_sum (S : ℕ → A) (H : ℕ → A) (h0 : S 0 = 0) (hs : ∀ t, S (t + 1) = S t + H t) (n : ℕ) :
    S n = ∑ t ∈ Finset.range n, H t := by
  induction n with
  | zero => simpa using h0
  | succ n ih => rw [hs, ih, Finset.sum_range_succ]

/-- A left fold over `Fin n` whose step adds `h k` pointwise is, pointwise, the start plus the sum of the `h k`. -/
theorem foldl_add_apply {J : Type*} : ∀ (n : ℕ) (step : (J → A) → Fin n → (J → A)) (h : Fin n → J → A)
    (_ : ∀ a k j, step a k j = a j + h k j) (a0 : J → A) (j : J),
    Fin.foldl n step a0 j = a0 j + ∑ k : Fin n, h k j
  | 0, _, _, _, _, _ => by simp
  | n + 1, step, h, hstep, a0, j => by
    rw [Fin.foldl_succ_last, hstep,
      foldl_add_apply n (fun a k => step a k.castSucc) (fun k => h k.castSucc) (fun a k j => hstep a k.castSucc j) a0 j,
      Fin.sum_univ_castSucc, add_assoc]

/-- The classes as the kernel visits them: 32 stripes of 1024, then 33 blocks of 256 slabs of 8 rows starting at class
    32768, the classes from 100000 on contributing nothing. -/
theorem sum_classes (g : ℕ → A) (h0 : ∀ i, 100000 ≤ i → g i = 0) :
    ∑ v ∈ Finset.range 100000, g v
      = ∑ w ∈ Finset.range 32, ∑ n ∈ Finset.range 1024, g (1024 * w + n)
        + ∑ r ∈ Finset.range 8, ∑ t ∈ Finset.range 33, ∑ k ∈ Finset.range 256, g ((16 + t) * 2048 + 8 * k + r) := by
  have e1 : ∑ w ∈ Finset.range 32, ∑ n ∈ Finset.range 1024, g (1024 * w + n) = ∑ i ∈ Finset.range 32768, g i := by
    rw [show (32768 : ℕ) = 32 * 1024 from rfl, sum_range_mul]
    refine Finset.sum_congr rfl (fun w _ => Finset.sum_congr rfl (fun n _ => ?_))
    rw [Nat.mul_comm]
  have e2 : ∑ r ∈ Finset.range 8, ∑ t ∈ Finset.range 33, ∑ k ∈ Finset.range 256, g ((16 + t) * 2048 + 8 * k + r)
      = ∑ i ∈ Finset.range 67584, g (32768 + i) := by
    rw [show (67584 : ℕ) = 33 * 2048 from rfl, sum_range_mul, Finset.sum_comm]
    refine Finset.sum_congr rfl (fun t _ => ?_)
    rw [show (2048 : ℕ) = 256 * 8 from rfl, sum_range_mul, Finset.sum_comm]
    refine Finset.sum_congr rfl (fun k _ => Finset.sum_congr rfl (fun r _ => ?_))
    congr 1; ring
  rw [e1, e2, ← Finset.sum_range_add, show (32768 + 67584 : ℕ) = 100000 + 352 from rfl, sum_range_cut _ _ _ h0]

/-- `Σ_v (if v = t then a_v else 0) = a_t` over an initial segment of the naturals that holds `t`. -/
theorem sum_range_ite_eq (n t : ℕ) (ht : t < n) (a : ℕ → A) :
    ∑ v ∈ Finset.range n, (if v = t then a v else 0) = a t :=
  (Finset.sum_ite_eq' (Finset.range n) t a).trans (if_pos (Finset.mem_range.mpr ht))

/-- The same with a constant value. -/
theorem sum_range_ite_const (n t : ℕ) (ht : t < n) (a : A) :
    ∑ v ∈ Finset.range n, (if v = t then a else 0) = a :=
  sum_range_ite_eq n t ht (fun _ => a)

/-- Within stripe `w` the class `v` is met once if `v / 1024 = w`, and not at all otherwise. -/
theorem stripe_place (w v : ℕ) (a : A) :
    ∑ n ∈ Finset.range 1024, (if 1024 * w + n = v then a else 0) = if v / 1024 = w then a else 0 := by
  by_cases h : v / 1024 = w
  · rw [if_pos h]
    have hcond : ∀ n ∈ Finset.range 1024, (if 1024 * w + n = v then a else 0) = if n = v % 1024 then a else 0 := by
      intro n hn
      have hn' := Finset.mem_range.mp hn
      by_cases hc : 1024 * w + n = v
      · rw [if_pos hc, if_pos (by omega)]
      · rw [if_neg hc, if_neg (by omega)]
    exact (Finset.sum_congr rfl hcond).trans
      (sum_range_ite_const 1024 (v % 1024) (Nat.mod_lt _ (by norm_num)) a)
  · rw [if_neg h]
    refine Finset.sum_eq_zero (fun n hn => ?_)
    have hn' := Finset.mem_range.mp hn
    rw [if_neg (by omega)]

/-- The class a block's slab row holds: block `tt` (of 33, the first at class 32768), slab `k` (of 256), row `r` (of 8). -/
def cls (tt : Fin 33) (k : Fin 256) (r : Fin 8) : ℕ := (16 + tt.val) * 2048 + 8 * k.val + r.val

theorem cls_def (tt : Fin 33) (k : Fin 256) (r : Fin 8) : cls tt k r = (16 + tt.val) * 2048 + 8 * k.val + r.val := rfl

/-- A family on the classes, continued by zero past the last class. -/
def ext0 (e : Fin 100000 → A) (v : ℕ) : A := if h : v < 100000 then e ⟨v, h⟩ else 0

theorem ext0_val (e : Fin 100000 → A) (v : Fin 100000) : ext0 e v.val = e v := by
  unfold ext0; rw [dif_pos v.isLt]

theorem ext0_of_le (e : Fin 100000 → A) (i : ℕ) (hi : 100000 ≤ i) : ext0 e i = 0 := by
  unfold ext0; rw [dif_neg (by omega)]

/-- **The kernel's visit of the classes sums every class once**: the 32 stripes of 1024 classes (any indexing `sr` of
    them by stripe and row), then the 8 · 33 · 256 slab rows, those past the last class counting zero. -/
theorem sum_split (e : Fin 100000 → A) (sr : Fin 32 → Fin 1024 → Fin 100000)
    (hsr : ∀ w r, (sr w r).val = 1024 * w.val + r.val) :
    (∑ w : Fin 32, ∑ r : Fin 1024, e (sr w r))
      + (∑ r : Fin 8, ∑ tt : Fin 33, ∑ k : Fin 256, if h : cls tt k r < 100000 then e ⟨cls tt k r, h⟩ else 0)
      = ∑ v : Fin 100000, e v := by
  have hs := sum_classes (ext0 e) (ext0_of_le e)
  simp only [Finset.sum_range] at hs
  have e1 : ∑ w : Fin 32, ∑ r : Fin 1024, e (sr w r) = ∑ w : Fin 32, ∑ n : Fin 1024, ext0 e (1024 * w.val + n.val) :=
    Finset.sum_congr rfl (fun w _ => Finset.sum_congr rfl (fun r _ => by rw [← ext0_val e, hsr]))
  have e2 : (∑ r : Fin 8, ∑ tt : Fin 33, ∑ k : Fin 256, if h : cls tt k r < 100000 then e ⟨cls tt k r, h⟩ else 0)
      = ∑ r : Fin 8, ∑ t : Fin 33, ∑ k : Fin 256, ext0 e ((16 + t.val) * 2048 + 8 * k.val + r.val) := rfl
  have e3 : ∑ v : Fin 100000, e v = ∑ v : Fin 100000, ext0 e v.val :=
    Finset.sum_congr rfl (fun v _ => (ext0_val e v).symm)
  rw [e1, e2, e3, hs]

/-- **Exactly one place of the visit is a given class's**: below 32768 its stripe `v₀ / 1024`, from 32768 on the one slab
    row whose class it is. So a value counted at the places of `v₀` and zero elsewhere sums to itself. -/
theorem place_unique (v₀ : Fin 100000) (a : A) :
    (∑ w : Fin 32, if v₀.val / 1024 = w.val then a else 0)
      + (∑ r : Fin 8, ∑ tt : Fin 33, ∑ k : Fin 256, if cls tt k r = v₀.val then a else 0) = a := by
  have h0 : ∀ i, 100000 ≤ i → (fun v => if v = v₀.val then a else 0) i = 0 := fun i hi => by
    have := v₀.isLt
    exact if_neg (by omega)
  have hs := sum_classes (fun v => if v = v₀.val then a else 0) h0
  beta_reduce at hs
  rw [sum_range_ite_const 100000 v₀.val v₀.isLt a] at hs
  simp only [stripe_place] at hs
  simp only [Finset.sum_range] at hs
  exact hs.symm

end Regroup

/-! ## The same two facts in the kernel's own indexing of the stripes -/

/-- The stripes and the slab rows together sum every class once. -/
theorem places_sum (e : Fin 100000 → EReal) :
    (∑ w : Fin 32, ∑ r : Fin 1024, e (Cert.Proof.ScVal.stripeRow w r))
      + (∑ r : Fin 8, ∑ tt : Fin 33, ∑ k : Fin 256, if h : cls tt k r < 100000 then e ⟨cls tt k r, h⟩ else 0)
      = ∑ v : Fin 100000, e v :=
  sum_split e Cert.Proof.ScVal.stripeRow Cert.Proof.ScVal.stripeRow_val

/-- A value counted at the places of one class and zero elsewhere sums to itself. -/
theorem places_one (v₀ : Fin 100000) (a : EReal) :
    (∑ w : Fin 32, if v₀.val / 1024 = w.val then a else 0)
      + (∑ r : Fin 8, ∑ tt : Fin 33, ∑ k : Fin 256, if cls tt k r = v₀.val then a else 0) = a :=
  place_unique v₀ a

end Cert.Alg

end
-- ==== Proof.TcIdeal.lean ====
/-
  The TensorCore call's two accumulators and its finish, read on the extended reals.

  Point p of the call folds the rows (16 + p) · 2048 + 8 k + r of the transposed input, slab k by slab k, into row r of
  two eight-row accumulators. On the extended reals each fold is a plain sum: the first accumulator ends as the sum,
  over the points and slabs, of the exponentials of the entries whose class is below 100000, the second as the sum of
  the entries whose class is the column's target. The rows past the array never show: their class fails the first test
  and equals no target. The finish adds each accumulator down its eight rows and the subcores' thirty-two partial rows
  to it, moves the target's cosine by the margin, and takes the mean over the columns of the log of the moved sum of
  exponentials less the moved cosine.
-/
import proofs.«202903_g36928128811344_cont_8to1_b_1739_32_alg».proof.Proof.KerVal
import proofs.«202903_g36928128811344_cont_8to1_b_1739_32_alg».proof.Proof.Spec
import proofs.«202903_g36928128811344_cont_8to1_b_1739_32_alg».proof.Proof.Alg
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

open scoped BigOperators

namespace Cert.Proof.KI

open Cert.KernelIdeal Cert.KernelIdeal.Gen Cert.Proof.ScVal
open Idealize.ShloMosaic Idealize.ShloMosaic.ValueIdx
open Cert.Alg (cls)

/-! ## Words -/

/-- The class of row r of slab k of point p's block, as the kernel's word: sums and products of words are the words of
    the sums and products. -/
theorem rid_apply (p k : ℕ) (r : Fin 8) (b : Fin 1024) :
    rid p k (ix2 r b) = BitVec.ofNat 32 ((16 + p) * 2048 + 8 * k + r.val) := by
  show IntOp.addi (iota .tc S8x1024 32 [0] iota_S8x1024_d0_w32 (ix2 r b))
      (Scalar.addi (Scalar.muli (Scalar.addi 16#32 (BitVec.ofNat 32 p)) 2048#32) (BitVec.ofNat 32 (8 * k))) = _
  rw [iota_single_apply]
  show BitVec.ofNat 32 r.val
      + ((BitVec.ofNat 32 16 + BitVec.ofNat 32 p) * BitVec.ofNat 32 2048 + BitVec.ofNat 32 (8 * k)) = _
  rw [BitVec.ofNat_add_ofNat, BitVec.ofNat_mul_ofNat, BitVec.ofNat_add_ofNat, BitVec.ofNat_add_ofNat]
  congr 1
  omega

/-- The signed comparison of a small word with 100000 is the comparison of the numbers. -/
theorem slt_word (n : ℕ) (hn : n < 2 ^ 31) :
    IntOp.cmpi .slt (BitVec.ofNat 32 n) 100000#32 = if n < 100000 then 1#1 else 0#1 := by
  have hnat : (BitVec.ofNat 32 n).toNat = n := by
    rw [BitVec.toNat_ofNat]; exact Nat.mod_eq_of_lt (by omega)
  have h1 : (BitVec.ofNat 32 n).toInt = (n : ℤ) := by
    rw [BitVec.toInt_eq_toNat_of_lt (x := BitVec.ofNat 32 n) (by rw [hnat]; omega), hnat]
  have h2 : (100000#32 : BitVec 32).toInt = (100000 : ℤ) := by decide
  show BitVec.ofBool ((BitVec.ofNat 32 n).slt 100000#32) = _
  by_cases h : n < 100000
  · have hs : (BitVec.ofNat 32 n).slt 100000#32 = true :=
      BitVec.slt_iff_toInt_lt.mpr (by rw [h1, h2]; omega)
    exact (congrArg BitVec.ofBool hs).trans (if_pos h).symm
  · have hs : (BitVec.ofNat 32 n).slt 100000#32 = false :=
      eq_false_of_ne_true fun hs => h (by
        have h3 := BitVec.slt_iff_toInt_lt.mp hs
        rw [h1, h2] at h3
        omega)
    exact (congrArg BitVec.ofBool hs).trans (if_neg h).symm

/-- The equality test of two words below 2^32 is the equality of the numbers. -/
theorem eq_word (n m : ℕ) (hn : n < 2 ^ 32) (hm : m < 2 ^ 32) :
    IntOp.cmpi .eq (BitVec.ofNat 32 n) (BitVec.ofNat 32 m) = if n = m then 1#1 else 0#1 := by
  show BitVec.ofBool (BitVec.ofNat 32 n == BitVec.ofNat 32 m) = _
  by_cases h : n = m
  · rw [h]
    exact (congrArg BitVec.ofBool (beq_self_eq_true _)).trans (if_pos rfl).symm
  · have hne : BitVec.ofNat 32 n ≠ BitVec.ofNat 32 m := fun e => h (by
      have e' := congrArg BitVec.toNat e
      rw [BitVec.toNat_ofNat, BitVec.toNat_ofNat, Nat.mod_eq_of_lt hn, Nat.mod_eq_of_lt hm] at e'
      exact e')
    exact (congrArg BitVec.ofBool (beq_false_of_ne hne)).trans (if_neg h).symm

/-- A select on a decided bit is the conditional. -/
theorem select_ite {α : Type} (q : Prop) [Decidable q] (A B : α) :
    Scalar.select (if q then 1#1 else 0#1) A B = if q then A else B := by
  by_cases h : q
  · rw [if_pos h, if_pos h]; exact select_one A B
  · rw [if_neg h, if_neg h]; exact select_zero A B

/-! ## One slab -/

/-- The transposition read at an index. -/
theorem xTof_apply {F : FTy → Type} [FloatOps F] (x : Vec F S1024x100000 .f32) (v : Fin 100000) (b : Fin 1024) :
    xTof x (ix2 v b) = x (ix2 b v) :=
  transpose_ix2_apply x transposes_S1024x100000_S100000x1024_1_0 v b

/-- Row r of slab k of a block is the block's row 8 k + r. -/
theorem slab_apply {F : FTy → Type} [FloatOps F] (x : Vec F S2048x1024 .f32) (k : ℕ) (hk : k < 256) (r : Fin 8)
    (b : Fin 1024) : slab x k hk (ix2 r b) = x (ix2 ⟨8 * k + r.val, by have := r.isLt; omega⟩ b) := by
  have e : Shape.reshapeEquiv (s := S8x1024) (s' := S8x1024) shapeCasts_S8x1024_S8x1024 (ix2 r b) = ix2 r b :=
    Shape.reshapeEquiv_self _ _
  show x ((Rect.unit (s := S2048x1024) ![8 * k, 0] S8x1024.size (slab_inb k hk)).idx
      (Shape.reshapeEquiv (s := S8x1024) (s' := S8x1024) shapeCasts_S8x1024_S8x1024 (ix2 r b))) = _
  rw [e]
  exact congrArg x (funext fun a => match a with
    | ⟨0, _⟩ => Fin.ext (by show 8 * k + 1 * r.val = 8 * k + r.val; omega)
    | ⟨1, _⟩ => Fin.ext (by show 0 + 1 * b.val = b.val; omega))

/-- The targets' row, spread over the eight rows, reads the column's target. -/
theorem tgt_apply (t : Vec Ideal S1024 .i32) (r : Fin 8) (b : Fin 1024) :
    broadcastTo S8x1024 (tvec (F := Ideal) (tg2of t)) broadcasts_S1x1024_S8x1024 (ix2 r b) = t (ix1 b) := by
  rw [broadcastTo_1b_ab_apply]
  unfold tvec tg2of
  rw [shapeCast_self]
  exact shapeCast_a_1a_apply t shapeCasts_S1024_S1x1024 0 b

/-- One slab into the sum of exponentials, at row r and column b. -/
theorem accStep_apply (p : ℕ) (hp : p < 33) (x : Vec Ideal S2048x1024 .f32) (k : ℕ) (hk : k < 256)
    (a : FVec Ideal S8x1024 .f32) (r : Fin 8) (b : Fin 1024) :
    accStep p x k hk a (ix2 r b)
      = a (ix2 r b) + (if (16 + p) * 2048 + 8 * k + r.val < 100000
          then Ideal.exp (x (ix2 ⟨8 * k + r.val, by have := r.isLt; omega⟩ b)) else 0) := by
  show a (ix2 r b) + Scalar.select (IntOp.cmpi .slt (rid p k (ix2 r b)) 100000#32)
      (Ideal.exp (slab x k hk (ix2 r b))) (Ideal.ofBits .f32 0x00000000#32) = _
  rw [rid_apply, slt_word _ (by have := r.isLt; omega), select_ite, slab_apply, Ideal.ofBits_zero_f32]

/-- One slab into the target's cosine, at row r and column b. -/
theorem caccStep_apply (p : ℕ) (hp : p < 33) (x : Vec Ideal S2048x1024 .f32) (t : Vec Ideal S1024 .i32)
    (τ : Fin 1024 → Fin 100000) (hτ : ∀ b : Fin 1024, t (ix1 b) = BitVec.ofNat 32 (τ b).val)
    (k : ℕ) (hk : k < 256) (c : FVec Ideal S8x1024 .f32) (r : Fin 8) (b : Fin 1024) :
    caccStep p x (tg2of t) k hk c (ix2 r b)
      = c (ix2 r b) + (if (16 + p) * 2048 + 8 * k + r.val = (τ b).val
          then x (ix2 ⟨8 * k + r.val, by have := r.isLt; omega⟩ b) else 0) := by
  show c (ix2 r b) + Scalar.select (IntOp.cmpi .eq (rid p k (ix2 r b))
        (broadcastTo S8x1024 (tvec (F := Ideal) (tg2of t)) broadcasts_S1x1024_S8x1024 (ix2 r b)))
      (slab x k hk (ix2 r b)) (Ideal.ofBits .f32 0x00000000#32) = _
  rw [rid_apply, tgt_apply, hτ, eq_word _ _ (by have := r.isLt; omega) (by have := (τ b).isLt; omega), select_ite,
    slab_apply, Ideal.ofBits_zero_f32]

/-! ## A block of 256 slabs -/

/-- Slab k's gain to the sum of exponentials at row r and column b of point p's block; zero past the last slab. -/
def expTerm (p : ℕ) (x : Vec Ideal S2048x1024 .f32) (r : Fin 8) (b : Fin 1024) (k : ℕ) : EReal :=
  if h : k < 256 then
    (if (16 + p) * 2048 + 8 * k + r.val < 100000
      then Ideal.exp (x (ix2 ⟨8 * k + r.val, by have := r.isLt; omega⟩ b)) else 0)
  else 0

theorem expTerm_of_lt (p : ℕ) (x : Vec Ideal S2048x1024 .f32) (r : Fin 8) (b : Fin 1024) (k : ℕ) (hk : k < 256) :
    expTerm p x r b k = if (16 + p) * 2048 + 8 * k + r.val < 100000
      then Ideal.exp (x (ix2 ⟨8 * k + r.val, by have := r.isLt; omega⟩ b)) else 0 := by
  unfold expTerm; exact dif_pos hk

/-- Slab k's gain to the target's cosine at row r and column b of point p's block, the column's target being class
    v; zero past the last slab. -/
def selTerm (p : ℕ) (x : Vec Ideal S2048x1024 .f32) (v : ℕ) (r : Fin 8) (b : Fin 1024) (k : ℕ) : EReal :=
  if h : k < 256 then
    (if (16 + p) * 2048 + 8 * k + r.val = v then x (ix2 ⟨8 * k + r.val, by have := r.isLt; omega⟩ b) else 0)
  else 0

theorem selTerm_of_lt (p : ℕ) (x : Vec Ideal S2048x1024 .f32) (v : ℕ) (r : Fin 8) (b : Fin 1024) (k : ℕ)
    (hk : k < 256) :
    selTerm p x v r b k = if (16 + p) * 2048 + 8 * k + r.val = v
      then x (ix2 ⟨8 * k + r.val, by have := r.isLt; omega⟩ b) else 0 := by
  unfold selTerm; exact dif_pos hk

/-- The first n slabs folded in: what was there plus the slabs' gains. -/
theorem accUpTo_apply (p : ℕ) (hp : p < 33) (x : Vec Ideal S2048x1024 .f32) (a : FVec Ideal S8x1024 .f32) (r : Fin 8)
    (b : Fin 1024) : ∀ (n : ℕ) (hn : n ≤ 256),
      accUpTo p x n hn a (ix2 r b) = a (ix2 r b) + ∑ k ∈ Finset.range n, expTerm p x r b k := by
  intro n
  induction n with
  | zero =>
    intro hn
    show a (ix2 r b) = a (ix2 r b) + ∑ k ∈ Finset.range 0, expTerm p x r b k
    rw [Finset.sum_range_zero, add_zero]
  | succ n ih =>
    intro hn
    have hk : n < 256 := hn
    show accStep p x n hn (accUpTo p x n (Nat.le_of_succ_le hn) a) (ix2 r b) = _
    rw [accStep_apply p hp, ih (Nat.le_of_succ_le hn), Finset.sum_range_succ, add_assoc,
      expTerm_of_lt p x r b n hk]

theorem caccUpTo_apply (p : ℕ) (hp : p < 33) (x : Vec Ideal S2048x1024 .f32) (t : Vec Ideal S1024 .i32)
    (τ : Fin 1024 → Fin 100000) (hτ : ∀ b : Fin 1024, t (ix1 b) = BitVec.ofNat 32 (τ b).val)
    (c : FVec Ideal S8x1024 .f32) (r : Fin 8) (b : Fin 1024) : ∀ (n : ℕ) (hn : n ≤ 256),
      caccUpTo p x (tg2of t) n hn c (ix2 r b)
        = c (ix2 r b) + ∑ k ∈ Finset.range n, selTerm p x (τ b).val r b k := by
  intro n
  induction n with
  | zero =>
    intro hn
    show c (ix2 r b) = c (ix2 r b) + ∑ k ∈ Finset.range 0, selTerm p x (τ b).val r b k
    rw [Finset.sum_range_zero, add_zero]
  | succ n ih =>
    intro hn
    have hk : n < 256 := hn
    show caccStep p x (tg2of t) n hn (caccUpTo p x (tg2of t) n (Nat.le_of_succ_le hn) c) (ix2 r b) = _
    rw [caccStep_apply p hp x t τ hτ, ih (Nat.le_of_succ_le hn), Finset.sum_range_succ, add_assoc,
      selTerm_of_lt p x (τ b).val r b n hk]

/-- A whole block: what was there plus the 256 slabs' gains. -/
theorem accPoint_apply (p : ℕ) (hp : p < 33) (x : Vec Ideal S2048x1024 .f32) (a : FVec Ideal S8x1024 .f32) (r : Fin 8)
    (b : Fin 1024) :
    accPoint p x a (ix2 r b) = a (ix2 r b) + ∑ k : Fin 256, (if (16 + p) * 2048 + 8 * k.val + r.val < 100000
      then Ideal.exp (x (ix2 ⟨8 * k.val + r.val, by have := r.isLt; have := k.isLt; omega⟩ b)) else 0) := by
  unfold accPoint
  rw [accUpTo_apply p hp x a r b 256 le_rfl, Finset.sum_range]
  exact congrArg (a (ix2 r b) + ·) (Finset.sum_congr rfl fun k _ => expTerm_of_lt p x r b k.val k.isLt)

theorem caccPoint_apply (p : ℕ) (hp : p < 33) (x : Vec Ideal S2048x1024 .f32) (t : Vec Ideal S1024 .i32)
    (τ : Fin 1024 → Fin 100000) (hτ : ∀ b : Fin 1024, t (ix1 b) = BitVec.ofNat 32 (τ b).val)
    (c : FVec Ideal S8x1024 .f32) (r : Fin 8) (b : Fin 1024) :
    caccPoint p x (tg2of t) c (ix2 r b) = c (ix2 r b) + ∑ k : Fin 256, (if (16 + p) * 2048 + 8 * k.val + r.val = (τ b).val
      then x (ix2 ⟨8 * k.val + r.val, by have := r.isLt; have := k.isLt; omega⟩ b) else 0) := by
  unfold caccPoint
  rw [caccUpTo_apply p hp x t τ hτ c r b 256 le_rfl, Finset.sum_range]
  exact congrArg (c (ix2 r b) + ·) (Finset.sum_congr rfl fun k _ => selTerm_of_lt p x (τ b).val r b k.val k.isLt)

/-! ## The 33 points -/

/-- Row j of point p's block, where its class n lies inside the array, is the input's column of class n. -/
theorem xBlk_apply (x : Vec Ideal S1024x100000 .f32) (dd : ℕ → Vec Ideal S2048x1024 .f32) (p : ℕ) (j : Fin 2048)
    (b : Fin 1024) (n : ℕ) (hn : n < 100000) (e : (16 + p) * 2048 + j.val = n) :
    xBlk (xTof x) dd p (ix2 j b) = x (ix2 b ⟨n, hn⟩) := by
  subst e
  show (if h : (16 + p) * 2048 + j.val < 100000
      then xTof x (ix2 ⟨(16 + p) * 2048 + j.val, h⟩ ⟨b.val, b.isLt⟩) else dd p (ix2 j b)) = _
  rw [dif_pos hn]
  exact xTof_apply x _ _

/-- One more point into the sum of exponentials. -/
theorem accS_succ_apply (x : Vec Ideal S1024x100000 .f32) (dd : ℕ → Vec Ideal S2048x1024 .f32) (p : ℕ) (hp : p < 33)
    (r : Fin 8) (b : Fin 1024) :
    accS (xTof x) dd (p + 1) (ix2 r b) = accS (xTof x) dd p (ix2 r b)
      + ∑ k : Fin 256, (if h : (16 + p) * 2048 + 8 * k.val + r.val < 100000
          then Ideal.exp (x (ix2 b ⟨(16 + p) * 2048 + 8 * k.val + r.val, h⟩)) else 0) := by
  have h0 : (if p = 0 then zero8 (F := Ideal) else accS (xTof x) dd p) = accS (xTof x) dd p := by
    by_cases hp0 : p = 0
    · subst hp0; exact if_pos rfl
    · exact if_neg hp0
  show accPoint p (xBlk (xTof x) dd p) (if p = 0 then zero8 (F := Ideal) else accS (xTof x) dd p) (ix2 r b) = _
  rw [h0, accPoint_apply p hp]
  refine congrArg (accS (xTof x) dd p (ix2 r b) + ·) (Finset.sum_congr rfl fun k _ => ?_)
  by_cases h : (16 + p) * 2048 + 8 * k.val + r.val < 100000
  · rw [if_pos h, dif_pos h,
      xBlk_apply x dd p ⟨8 * k.val + r.val, _⟩ b ((16 + p) * 2048 + 8 * k.val + r.val) h
        (by show (16 + p) * 2048 + (8 * k.val + r.val) = _; omega)]
  · rw [if_neg h, dif_neg h]

/-- One more point into the target's cosine. -/
theorem caccS_succ_apply (x : Vec Ideal S1024x100000 .f32) (t : Vec Ideal S1024 .i32) (τ : Fin 1024 → Fin 100000)
    (hτ : ∀ b : Fin 1024, t (ix1 b) = BitVec.ofNat 32 (τ b).val) (dd : ℕ → Vec Ideal S2048x1024 .f32) (p : ℕ)
    (hp : p < 33) (r : Fin 8) (b : Fin 1024) :
    caccS (xTof x) (tg2of t) dd (p + 1) (ix2 r b) = caccS (xTof x) (tg2of t) dd p (ix2 r b)
      + ∑ k : Fin 256, (if (16 + p) * 2048 + 8 * k.val + r.val = (τ b).val then x (ix2 b (τ b)) else 0) := by
  have h0 : (if p = 0 then zero8 (F := Ideal) else caccS (xTof x) (tg2of t) dd p) = caccS (xTof x) (tg2of t) dd p := by
    by_cases hp0 : p = 0
    · subst hp0; exact if_pos rfl
    · exact if_neg hp0
  show caccPoint p (xBlk (xTof x) dd p) (tg2of t)
      (if p = 0 then zero8 (F := Ideal) else caccS (xTof x) (tg2of t) dd p) (ix2 r b) = _
  rw [h0, caccPoint_apply p hp _ t τ hτ]
  refine congrArg (caccS (xTof x) (tg2of t) dd p (ix2 r b) + ·) (Finset.sum_congr rfl fun k _ => ?_)
  by_cases h : (16 + p) * 2048 + 8 * k.val + r.val = (τ b).val
  · rw [if_pos h, if_pos h,
      xBlk_apply x dd p ⟨8 * k.val + r.val, _⟩ b (τ b).val (τ b).isLt
        (by show (16 + p) * 2048 + (8 * k.val + r.val) = _; omega)]
  · rw [if_neg h, if_neg h]

/-- Point p's gain to the sum of exponentials at row r and column b; zero past the last point. -/
def expPoint (x : Vec Ideal S1024x100000 .f32) (r : Fin 8) (b : Fin 1024) (p : ℕ) : EReal :=
  if hp : p < 33 then
    ∑ k : Fin 256, (if h : cls ⟨p, hp⟩ k r < 100000 then Ideal.exp (x (ix2 b ⟨cls ⟨p, hp⟩ k r, h⟩)) else 0)
  else 0

/-- Point p's gain to the target's cosine at row r and column b; zero past the last point. -/
def selPoint (x : Vec Ideal S1024x100000 .f32) (τ : Fin 1024 → Fin 100000) (r : Fin 8) (b : Fin 1024) (p : ℕ) : EReal :=
  if hp : p < 33 then ∑ k : Fin 256, (if cls ⟨p, hp⟩ k r = (τ b).val then x (ix2 b (τ b)) else 0) else 0

theorem accS_upTo (x : Vec Ideal S1024x100000 .f32) (dd : ℕ → Vec Ideal S2048x1024 .f32) (r : Fin 8) (b : Fin 1024) :
    ∀ T : ℕ, T ≤ 33 → accS (xTof x) dd T (ix2 r b) = ∑ p ∈ Finset.range T, expPoint x r b p := by
  intro T
  induction T with
  | zero =>
    intro _
    show Ideal.ofBits .f32 0x00000000#32 = ∑ p ∈ Finset.range 0, expPoint x r b p
    rw [Finset.sum_range_zero]
    exact Ideal.ofBits_zero_f32
  | succ T ih =>
    intro hT
    have hp : T < 33 := hT
    rw [Finset.sum_range_succ, accS_succ_apply x dd T hp, ih (Nat.le_of_succ_le hT)]
    refine congrArg ((∑ p ∈ Finset.range T, expPoint x r b p) + ·) ?_
    unfold expPoint
    exact Eq.symm (Eq.trans (dif_pos hp) rfl)

theorem caccS_upTo (x : Vec Ideal S1024x100000 .f32) (t : Vec Ideal S1024 .i32) (τ : Fin 1024 → Fin 100000)
    (hτ : ∀ b : Fin 1024, t (ix1 b) = BitVec.ofNat 32 (τ b).val) (dd : ℕ → Vec Ideal S2048x1024 .f32) (r : Fin 8)
    (b : Fin 1024) :
    ∀ T : ℕ, T ≤ 33 → caccS (xTof x) (tg2of t) dd T (ix2 r b) = ∑ p ∈ Finset.range T, selPoint x τ r b p := by
  intro T
  induction T with
  | zero =>
    intro _
    show Ideal.ofBits .f32 0x00000000#32 = ∑ p ∈ Finset.range 0, selPoint x τ r b p
    rw [Finset.sum_range_zero]
    exact Ideal.ofBits_zero_f32
  | succ T ih =>
    intro hT
    have hp : T < 33 := hT
    rw [Finset.sum_range_succ, caccS_succ_apply x t τ hτ dd T hp, ih (Nat.le_of_succ_le hT)]
    refine congrArg ((∑ p ∈ Finset.range T, selPoint x τ r b p) + ·) ?_
    unfold selPoint
    exact Eq.symm (Eq.trans (dif_pos hp) rfl)

/-- The first accumulator after the 33 points: the exponentials of the entries of the classes it covers. -/
theorem accS_ideal (x : Vec Ideal S1024x100000 .f32) (dd : ℕ → Vec Ideal S2048x1024 .f32) (r : Fin 8) (b : Fin 1024) :
    accS (xTof x) dd 33 (ix2 r b)
      = ∑ tt : Fin 33, ∑ k : Fin 256,
          (if h : cls tt k r < 100000 then Ideal.exp (x (ix2 b ⟨cls tt k r, h⟩)) else 0) := by
  rw [accS_upTo x dd r b 33 le_rfl, Finset.sum_range]
  exact Finset.sum_congr rfl fun tt _ => by unfold expPoint; exact dif_pos tt.isLt

/-- The second accumulator after the 33 points: the target's entry at the one place whose class is the target. -/
theorem caccS_ideal (x : Vec Ideal S1024x100000 .f32) (t : Vec Ideal S1024 .i32) (τ : Fin 1024 → Fin 100000)
    (hτ : ∀ b : Fin 1024, t (ix1 b) = BitVec.ofNat 32 (τ b).val) (dd : ℕ → Vec Ideal S2048x1024 .f32) (r : Fin 8)
    (b : Fin 1024) :
    caccS (xTof x) (tg2of t) dd 33 (ix2 r b)
      = ∑ tt : Fin 33, ∑ k : Fin 256, (if cls tt k r = (τ b).val then x (ix2 b (τ b)) else 0) := by
  rw [caccS_upTo x t τ hτ dd r b 33 le_rfl, Finset.sum_range]
  exact Finset.sum_congr rfl fun tt _ => by unfold selPoint; exact dif_pos tt.isLt

/-! ## The finish -/

/-- An eight-row accumulator summed down its rows, as one row. -/
def sum8 (A : FVec Ideal S8x1024 .f32) : FVec Ideal S1x1024 .f32 :=
  shapeCast S1x1024
    (multiReduction (F := Ideal) (φ := .f32) .add [0] S1024 A 0x00000000#32 reduces_S8x1024_S1024 (.inl rfl) rfl)
    shapeCasts_S1024_S1x1024

/-- The thirty-two partial rows summed, as one row. -/
def sum32 (P : FVec Ideal S32x1024 .f32) : FVec Ideal S1x1024 .f32 :=
  shapeCast S1x1024
    (multiReduction (F := Ideal) (φ := .f32) .add [0] S1024 (shapeCast S32x1024 P shapeCasts_S32x1024_S32x1024)
      0x00000000#32 reduces_S32x1024_S1024 (.inl rfl) rfl)
    shapeCasts_S1024_S1x1024

/-- The row of target cosines moved by the margin. -/
def movedRow (c : FVec Ideal S1x1024 .f32) : FVec Ideal S1x1024 .f32 :=
  subf (mulf c (broadcast S1x1024 (Scalar.ofBits .f32 0x3F60A940#32)))
    (mulf
      (sqrt (maximumf (subf (broadcast S1x1024 (Scalar.ofBits .f32 0x3F800000#32)) (mulf c c))
        (broadcast S1x1024 (Scalar.ofBits .f32 0x00000000#32))))
      (broadcast S1x1024 (Scalar.ofBits .f32 0x3EF57744#32)))

/-- The row of losses, from the row of sums of exponentials and the row of target cosines. -/
def lossRow (s c : FVec Ideal S1x1024 .f32) : FVec Ideal S1x1024 .f32 :=
  subf (log (addf (subf s (exp c)) (exp (movedRow c)))) (movedRow c)

/-- The mean of a row over its 1024 columns. -/
def rowMean (V : FVec Ideal S1x1024 .f32) : Ideal .f32 :=
  Scalar.divf
    (extractAt ![0, 0, 0]
      (shapeCast S1x1x1
        (multiReduction (F := Ideal) (φ := .f32) .add [1, 2] S1 (shapeCast S1x1x1024 V shapeCasts_S1x1024_S1x1x1024)
          0x00000000#32 reduces_S1x1x1024_S1 (.inl rfl) rfl)
        shapeCasts_S1_S1x1x1)
      inpos_S1x1x1_p0_0_0)
    (Scalar.ofBits .f32 0x44800000#32)

/-- The finish is the mean of the row of losses of the two rows of totals. -/
theorem k1_pay3_eq (A C : Vec Ideal S8x1024 .f32) (sP cP : Vec Ideal S32x1024 .f32) :
    k1_pay3 A C sP cP = rowMean (lossRow (addf (sum8 A) (sum32 sP)) (addf (sum8 C) (sum32 cP))) := rfl

theorem sum8_apply (A : FVec Ideal S8x1024 .f32) (b : Fin 1024) :
    sum8 A (ix2 (0 : Fin 1) b) = ∑ r : Fin 8, A (ix2 r b) := by
  unfold sum8
  rw [shapeCast_a_1a_apply]
  refine (Ideal.multiReduction_add_single (φ := .f32) A 0x00000000#32 reduces_S8x1024_S1024 _ _ (ix1 b)).trans ?_
  exact Finset.sum_congr rfl fun r _ => congrArg A (funext fun c => match c with
    | ⟨0, _⟩ => Fin.ext rfl
    | ⟨1, _⟩ => Fin.ext rfl)

theorem sum32_apply (P : FVec Ideal S32x1024 .f32) (b : Fin 1024) :
    sum32 P (ix2 (0 : Fin 1) b) = ∑ w : Fin 32, P (ix2 w b) := by
  unfold sum32
  rw [shapeCast_a_1a_apply, shapeCast_self]
  refine (Ideal.multiReduction_add_single (φ := .f32) P 0x00000000#32 reduces_S32x1024_S1024 _ _ (ix1 b)).trans ?_
  exact Finset.sum_congr rfl fun w _ => congrArg P (funext fun c => match c with
    | ⟨0, _⟩ => Fin.ext rfl
    | ⟨1, _⟩ => Fin.ext rfl)

theorem movedRow_apply (c : FVec Ideal S1x1024 .f32) (b : Fin 1024) :
    movedRow c (ix2 (0 : Fin 1) b) = Cert.Spec.newCos (c (ix2 (0 : Fin 1) b)) := by
  show c (ix2 (0 : Fin 1) b) * Ideal.ofBits .f32 0x3F60A940#32
      - Ideal.sqrt (max (Ideal.ofBits .f32 0x3F800000#32 - c (ix2 (0 : Fin 1) b) * c (ix2 (0 : Fin 1) b))
          (Ideal.ofBits .f32 0x00000000#32)) * Ideal.ofBits .f32 0x3EF57744#32 = _
  rw [Ideal.ofBits_zero_f32]
  rfl

theorem lossRow_apply (s c : FVec Ideal S1x1024 .f32) (b : Fin 1024) :
    lossRow s c (ix2 (0 : Fin 1) b)
      = Ideal.log (s (ix2 (0 : Fin 1) b) - Ideal.exp (c (ix2 (0 : Fin 1) b))
          + Ideal.exp (Cert.Spec.newCos (c (ix2 (0 : Fin 1) b)))) - Cert.Spec.newCos (c (ix2 (0 : Fin 1) b)) := by
  show Ideal.log (s (ix2 (0 : Fin 1) b) - Ideal.exp (c (ix2 (0 : Fin 1) b))
      + Ideal.exp (movedRow c (ix2 (0 : Fin 1) b))) - movedRow c (ix2 (0 : Fin 1) b) = _
  rw [movedRow_apply]

theorem rowMean_eq (V : FVec Ideal S1x1024 .f32) :
    rowMean V = Ideal.div (∑ b : Fin 1024, V (ix2 (0 : Fin 1) b)) Cert.Spec.rows := by
  have hM : ∀ j : S1.Idx,
      multiReduction (F := Ideal) (φ := .f32) .add [1, 2] S1 (shapeCast S1x1x1024 V shapeCasts_S1x1024_S1x1x1024)
        0x00000000#32 reduces_S1x1x1024_S1 (.inl rfl) rfl j = ∑ b : Fin 1024, V (ix2 (0 : Fin 1) b) := by
    intro j
    refine (Ideal.multiReduction_add_total (φ := .f32) (shapeCast S1x1x1024 V shapeCasts_S1x1024_S1x1x1024)
      0x00000000#32 reduces_S1x1x1024_S1 (fun a => match a with | ⟨0, _⟩ => rfl) _ _ j).trans ?_
    refine (Equiv.sum_comp (Shape.reshapeEquiv (s := S1x1024) (s' := S1x1x1024) shapeCasts_S1x1024_S1x1x1024)
      V).trans ?_
    refine (sum_idx2 V).trans ?_
    exact Fin.sum_univ_one fun a : Fin 1 => ∑ b : Fin 1024, V (ix2 a b)
  show Ideal.div _ (Ideal.ofBits .f32 0x44800000#32) = _
  exact congrArg (fun S => Ideal.div S Cert.Spec.rows) (hM _)

/-- The finish on the extended reals: the mean over the columns of the log of the moved sum of exponentials less the
    moved cosine, the two totals of a column being its sums down the accumulators' rows and the partial rows. -/
theorem k1_pay3_ideal (A C : Vec Ideal S8x1024 .f32) (sP cP : Vec Ideal S32x1024 .f32) :
    k1_pay3 A C sP cP
      = Ideal.div (∑ b : Fin 1024,
          (Ideal.log (((∑ r : Fin 8, A (ix2 r b)) + ∑ w : Fin 32, sP (ix2 w b))
              - Ideal.exp ((∑ r : Fin 8, C (ix2 r b)) + ∑ w : Fin 32, cP (ix2 w b))
              + Ideal.exp (Cert.Spec.newCos ((∑ r : Fin 8, C (ix2 r b)) + ∑ w : Fin 32, cP (ix2 w b))))
            - Cert.Spec.newCos ((∑ r : Fin 8, C (ix2 r b)) + ∑ w : Fin 32, cP (ix2 w b)))) Cert.Spec.rows := by
  rw [k1_pay3_eq, rowMean_eq]
  refine congrArg (fun S => Ideal.div S Cert.Spec.rows) (Finset.sum_congr rfl fun b _ => ?_)
  rw [lossRow_apply, addf_apply, addf_apply, sum8_apply, sum8_apply, sum32_apply, sum32_apply]

end Cert.Proof.KI

end
-- ==== Proof.KerIdeal.lean ====
/-
  The kernel's result, read at the extended reals, is the margin-softmax loss.

  Fix a row `b` of the input, `x[b, ·]`, with target class `τ b`. The classes are split into places: stripe `w` of
  the thirty-two holds the classes `1024 w + r`, and the remaining classes, from 32768 on, are walked in 33 blocks of
  256 slabs of eight rows, the place `(tt, k, r)` holding the class `(16 + tt) · 2048 + 8 k + r` when that is below
  100000 and nothing otherwise. Every class is at exactly one place.

  A stripe's running sum, started from zero, gains `exp x[b, v]` for each of its classes in turn: after all of them it
  is the sum of the stripe's exponentials. A stripe's running selection, started from zero, is replaced by `x[b, v]`
  when the class `v` is the target: after all of them it is the target's cosine if the target lies in the stripe, and
  zero if not, no class being met twice. The eight accumulator rows hold the same two quantities for the other places.
  Summed over all the places, the exponentials give `Σ_v exp x[b, v]`, and the selections give `x[b, τ b]`, every
  place but the target's contributing zero. Those are the two numbers the row's loss is a function of, and the kernel's
  last step applies that function and takes the mean over the rows.
-/
import proofs.«202903_g36928128811344_cont_8to1_b_1739_32_alg».proof.Proof.KerVal
import proofs.«202903_g36928128811344_cont_8to1_b_1739_32_alg».proof.Proof.Spec
import proofs.«202903_g36928128811344_cont_8to1_b_1739_32_alg».proof.Proof.Alg
import proofs.«202903_g36928128811344_cont_8to1_b_1739_32_alg».proof.Proof.TcIdeal
import Idealize.ShloMosaic.PureOps.Ideal.Laws
import Idealize.ShloMosaic.Lib.ValueIdx
import Idealize.ShloMosaic.Lib.Pipeline.Value
import Mathlib.Algebra.BigOperators.Fin

noncomputable section

open scoped BigOperators

namespace Cert.Proof.KI

open Cert.Proof.ScVal
open Cert.Alg (cls places_sum places_one)
open Idealize.ShloMosaic Idealize.ShloMosaic.ValueIdx

/-! ## A stripe's two running values -/

/-- After the first `n` classes of stripe `w`, the running sum is the sum of their exponentials. -/
theorem scSumN_ideal (xT : SXT.Idx → EReal) (w : Fin 32) (b : Fin 1024) (n : ℕ) :
    scSumN (F := Ideal) xT w b n
      = ∑ r ∈ Finset.range n, (if h : r < 1024 then Ideal.exp (xT (ix2 (stripeRow w ⟨r, h⟩) b)) else 0) := by
  induction n with
  | zero =>
    rw [scSumN_zero, Finset.sum_range_zero]
    exact Ideal.ofBits_zero_f32
  | succ n ih =>
    rw [Finset.sum_range_succ, ← ih]
    by_cases h : n < 1024
    · have e : scSumN (F := Ideal) xT w b (n + 1)
          = scSumN (F := Ideal) xT w b n + Ideal.exp (xT (ix2 (stripeRow w ⟨n, h⟩) b)) := scSumN_succ (F := Ideal) xT w b h
      rw [e, dif_pos h]
    · rw [scSumN, dif_neg h, dif_neg h, add_zero]

/-- After the whole stripe it is the sum of the stripe's exponentials. -/
theorem scSum_ideal (xT : SXT.Idx → EReal) (w : Fin 32) (b : Fin 1024) :
    scSum (F := Ideal) xT w b = ∑ r : Fin 1024, Ideal.exp (xT (ix2 (stripeRow w r) b)) := by
  rw [scSum, scSumN_ideal,
    ← Fin.sum_univ_eq_sum_range (fun r => if h : r < 1024 then Ideal.exp (xT (ix2 (stripeRow w ⟨r, h⟩) b)) else 0) 1024]
  exact Finset.sum_congr rfl fun r _ => dif_pos r.isLt

/-- After the first `n` classes of stripe `w`, the running selection is the entry of class `v`, the column's target,
    if `v` is among those classes, and zero if not: a class equal to the target replaces the selection, and no later
    class is the target again. -/
theorem scSelN_ideal (xT : SXT.Idx → EReal) (t : STG.Idx → BitVec 32) (w : Fin 32) (b : Fin 1024) (v : Fin 100000)
    (hv : t (ix1 b) = BitVec.ofNat 32 v.val) (n : ℕ) (hn : n ≤ 1024) :
    scSelN (F := Ideal) xT t w b n
      = if 1024 * w.val ≤ v.val ∧ v.val < 1024 * w.val + n then xT (ix2 v b) else 0 := by
  have htn : (t (ix1 b)).toNat = v.val := by
    rw [hv, BitVec.toNat_ofNat]
    have := v.isLt
    omega
  induction n with
  | zero =>
    rw [scSelN_zero, if_neg (by omega)]
    exact Ideal.ofBits_zero_f32
  | succ n ih =>
    have h : n < 1024 := by omega
    rw [scSelN_succ (F := Ideal) xT t w b h, htn, ih (by omega)]
    by_cases e : v.val = 1024 * w.val + n
    · have ev : stripeRow w ⟨n, h⟩ = v := Fin.ext (by show 1024 * w.val + n = v.val; omega)
      rw [if_pos e, if_pos (by omega), ev]
    · rw [if_neg e]
      by_cases c : 1024 * w.val ≤ v.val ∧ v.val < 1024 * w.val + n
      · rw [if_pos c, if_pos (by omega)]
      · rw [if_neg c, if_neg (by omega)]

/-- After the whole stripe it is the target's entry if the target lies in the stripe, and zero if not. -/
theorem scSel_ideal (xT : SXT.Idx → EReal) (t : STG.Idx → BitVec 32) (w : Fin 32) (b : Fin 1024) (v : Fin 100000)
    (hv : t (ix1 b) = BitVec.ofNat 32 v.val) :
    scSel (F := Ideal) xT t w b = if v.val / 1024 = w.val then xT (ix2 v b) else 0 := by
  rw [scSel, scSelN_ideal xT t w b v hv 1024 le_rfl]
  by_cases c : v.val / 1024 = w.val
  · rw [if_pos c, if_pos (by omega)]
  · rw [if_neg c, if_neg (by omega)]

/-! ## A row's two totals over all the places -/

/-- The exponentials of row `b`, summed place by place, are the row's sum of exponentials. -/
theorem row_sumExp (x : Cert.Spec.SX.Idx → EReal)
    (A : (⟨2, ![8, 1024]⟩ : Shape).Idx → EReal) (sP : (⟨2, ![32, 1024]⟩ : Shape).Idx → EReal)
    (h1 : ∀ (w : Fin 32) (b : Fin 1024), sP (ix2 w b) = ∑ r : Fin 1024, Ideal.exp (x (ix2 b (stripeRow w r))))
    (h3 : ∀ (r : Fin 8) (b : Fin 1024), A (ix2 r b)
      = ∑ tt : Fin 33, ∑ k : Fin 256, (if h : cls tt k r < 100000 then Ideal.exp (x (ix2 b ⟨cls tt k r, h⟩)) else 0))
    (h6 : ∀ e : Fin 100000 → EReal,
      (∑ w : Fin 32, ∑ r : Fin 1024, e (stripeRow w r))
        + (∑ r : Fin 8, ∑ tt : Fin 33, ∑ k : Fin 256, if h : cls tt k r < 100000 then e ⟨cls tt k r, h⟩ else 0)
        = ∑ v : Fin 100000, e v)
    (b : Fin 1024) :
    (∑ r : Fin 8, A (ix2 r b)) + ∑ w : Fin 32, sP (ix2 w b) = Cert.Spec.sumExp x b := by
  have e1 : (∑ w : Fin 32, sP (ix2 w b)) = ∑ w : Fin 32, ∑ r : Fin 1024, Ideal.exp (x (ix2 b (stripeRow w r))) :=
    Finset.sum_congr rfl fun w _ => h1 w b
  have e3 : (∑ r : Fin 8, A (ix2 r b))
      = ∑ r : Fin 8, ∑ tt : Fin 33, ∑ k : Fin 256,
          (if h : cls tt k r < 100000 then Ideal.exp (x (ix2 b ⟨cls tt k r, h⟩)) else 0) :=
    Finset.sum_congr rfl fun r _ => h3 r b
  rw [e1, e3, add_comm]
  exact h6 fun v => Ideal.exp (x (ix2 b v))

/-- The selections of row `b`, summed place by place, are the target's cosine: only the target's place is not zero. -/
theorem row_cosT (x : Cert.Spec.SX.Idx → EReal) (τ : Fin 1024 → Fin 100000)
    (C : (⟨2, ![8, 1024]⟩ : Shape).Idx → EReal) (cP : (⟨2, ![32, 1024]⟩ : Shape).Idx → EReal)
    (h2 : ∀ (w : Fin 32) (b : Fin 1024), cP (ix2 w b) = if (τ b).val / 1024 = w.val then x (ix2 b (τ b)) else 0)
    (h4 : ∀ (r : Fin 8) (b : Fin 1024), C (ix2 r b)
      = ∑ tt : Fin 33, ∑ k : Fin 256, (if cls tt k r = (τ b).val then x (ix2 b (τ b)) else 0))
    (h6 : ∀ (v₀ : Fin 100000) (a : EReal),
      (∑ w : Fin 32, if v₀.val / 1024 = w.val then a else 0)
        + (∑ r : Fin 8, ∑ tt : Fin 33, ∑ k : Fin 256, if cls tt k r = v₀.val then a else 0) = a)
    (b : Fin 1024) :
    (∑ r : Fin 8, C (ix2 r b)) + ∑ w : Fin 32, cP (ix2 w b) = Cert.Spec.cosT x τ b := by
  have e2 : (∑ w : Fin 32, cP (ix2 w b)) = ∑ w : Fin 32, (if (τ b).val / 1024 = w.val then x (ix2 b (τ b)) else 0) :=
    Finset.sum_congr rfl fun w _ => h2 w b
  have e4 : (∑ r : Fin 8, C (ix2 r b))
      = ∑ r : Fin 8, ∑ tt : Fin 33, ∑ k : Fin 256, (if cls tt k r = (τ b).val then x (ix2 b (τ b)) else 0) :=
    Finset.sum_congr rfl fun r _ => h4 r b
  rw [e2, e4, add_comm]
  exact h6 (τ b) (x (ix2 b (τ b)))

/-- The mean of the rows' losses, each written from the row's total of exponentials `s b` and target cosine `c b`,
    is the loss once those are the row's sum of exponentials and the target's cosine. -/
theorem loss_of_totals (x : Cert.Spec.SX.Idx → EReal) (τ : Fin 1024 → Fin 100000) (s c : Fin 1024 → EReal)
    (hs : ∀ b, s b = Cert.Spec.sumExp x b) (hc : ∀ b, c b = Cert.Spec.cosT x τ b) :
    Ideal.div (∑ b : Fin 1024,
        (Ideal.log (s b - Ideal.exp (c b) + Ideal.exp (Cert.Spec.newCos (c b))) - Cert.Spec.newCos (c b)))
      Cert.Spec.rows = Cert.Spec.loss x τ := by
  rw [Cert.Spec.loss]
  refine congrArg (fun z => Ideal.div z Cert.Spec.rows) (Finset.sum_congr rfl fun b _ => ?_)
  rw [hs b, hc b, Cert.Spec.nll]

/-! ## The kernel's arrays -/

open Cert.KernelIdeal Cert.KernelIdeal.Gen

/-- Stripe `w`'s partial sum at row `b`: the sum of the exponentials of the row's entries at the stripe's classes. -/
theorem sPof_ideal (x : Vec Ideal S1024x100000 .f32) (w : Fin 32) (b : Fin 1024) :
    sPof (xTof x) (ix2 w b) = ∑ r : Fin 1024, Ideal.exp (x (ix2 b (stripeRow w r))) := by
  show scSum (F := Ideal) (xTof x) w b = _
  rw [scSum_ideal]
  exact Finset.sum_congr rfl fun r _ => congrArg Ideal.exp (xTof_apply x (stripeRow w r) b)

/-- Stripe `w`'s partial target cosine at row `b`: the row's entry at its target if the target lies in the stripe, zero
    if not. -/
theorem cPof_ideal (x : Vec Ideal S1024x100000 .f32) (t : Vec Ideal S1024 .i32) (τ : Fin 1024 → Fin 100000)
    (hτ : ∀ b : Fin 1024, t (ix1 b) = BitVec.ofNat 32 (τ b).val) (w : Fin 32) (b : Fin 1024) :
    cPof (xTof x) t (ix2 w b) = if (τ b).val / 1024 = w.val then x (ix2 b (τ b)) else 0 := by
  show scSel (F := Ideal) (xTof x) t w b = _
  rw [scSel_ideal (xTof x) t w b (τ b) (hτ b), xTof_apply]

/-! ## The kernel's result -/

/-- The kernel's result is the loss, given the accumulators' two readings, the last step's reading and the two facts on
    the places. -/
theorem ker_eq_loss' (x : Vec Ideal S1024x100000 .f32) (t : Vec Ideal S1024 .i32) (τ : Fin 1024 → Fin 100000)
    (hτ : ∀ b : Fin 1024, t (ix1 b) = BitVec.ofNat 32 (τ b).val) (hx : Cert.Spec.Cosines x)
    (dd : ℕ → Vec Ideal S2048x1024 .f32)
    (H3 : ∀ (r : Fin 8) (b : Fin 1024), accS (xTof x) dd 33 (ix2 r b)
      = ∑ tt : Fin 33, ∑ k : Fin 256, (if h : cls tt k r < 100000 then Ideal.exp (x (ix2 b ⟨cls tt k r, h⟩)) else 0))
    (H4 : ∀ (r : Fin 8) (b : Fin 1024), caccS (xTof x) (tg2of t) dd 33 (ix2 r b)
      = ∑ tt : Fin 33, ∑ k : Fin 256, (if cls tt k r = (τ b).val then x (ix2 b (τ b)) else 0))
    (H5 : ∀ (A C : Vec Ideal S8x1024 .f32) (sP cP : Vec Ideal S32x1024 .f32), k1_pay3 A C sP cP
      = Ideal.div (∑ b : Fin 1024,
          (Ideal.log (((∑ r : Fin 8, A (ix2 r b)) + ∑ w : Fin 32, sP (ix2 w b))
              - Ideal.exp ((∑ r : Fin 8, C (ix2 r b)) + ∑ w : Fin 32, cP (ix2 w b))
              + Ideal.exp (Cert.Spec.newCos ((∑ r : Fin 8, C (ix2 r b)) + ∑ w : Fin 32, cP (ix2 w b))))
            - Cert.Spec.newCos ((∑ r : Fin 8, C (ix2 r b)) + ∑ w : Fin 32, cP (ix2 w b))))
        Cert.Spec.rows)
    (H6a : ∀ e : Fin 100000 → EReal,
      (∑ w : Fin 32, ∑ r : Fin 1024, e (stripeRow w r))
        + (∑ r : Fin 8, ∑ tt : Fin 33, ∑ k : Fin 256, if h : cls tt k r < 100000 then e ⟨cls tt k r, h⟩ else 0)
        = ∑ v : Fin 100000, e v)
    (H6b : ∀ (v₀ : Fin 100000) (a : EReal),
      (∑ w : Fin 32, if v₀.val / 1024 = w.val then a else 0)
        + (∑ r : Fin 8, ∑ tt : Fin 33, ∑ k : Fin 256, if cls tt k r = v₀.val then a else 0) = a) :
    kerOut (F := Ideal) x t dd = Cert.Spec.loss x τ := by
  show k1_pay3 (accS (xTof x) dd 33) (caccS (xTof x) (tg2of t) dd 33) (sPof (xTof x)) (cPof (xTof x) t) = _
  rw [H5]
  exact loss_of_totals x τ
    (fun b => (∑ r : Fin 8, accS (xTof x) dd 33 (ix2 r b)) + ∑ w : Fin 32, sPof (xTof x) (ix2 w b))
    (fun b => (∑ r : Fin 8, caccS (xTof x) (tg2of t) dd 33 (ix2 r b)) + ∑ w : Fin 32, cPof (xTof x) t (ix2 w b))
    (fun b => row_sumExp x (accS (xTof x) dd 33) (sPof (xTof x)) (sPof_ideal x) H3 H6a b)
    (fun b => row_cosT x τ (caccS (xTof x) (tg2of t) dd 33) (cPof (xTof x) t) (cPof_ideal x t τ hτ) H4 H6b b)

/-- The reshape of the one-by-one result to a scalar reads the kernel's result. -/
theorem kerRes_eq {F : FTy → Type} [FloatOps F] (x : Vec F S1024x100000 .f32) (t : Vec F S1024 .i32)
    (dd : ℕ → Vec F S2048x1024 .f32) : kerRes x t dd = fun _ => kerOut x t dd := rfl

/-- The kernel's result is the loss. -/
theorem ker_eq_loss (x : Vec Ideal S1024x100000 .f32) (t : Vec Ideal S1024 .i32) (τ : Fin 1024 → Fin 100000)
    (hτ : ∀ b : Fin 1024, t (ix1 b) = BitVec.ofNat 32 (τ b).val) (hx : Cert.Spec.Cosines x)
    (dd : ℕ → Vec Ideal S2048x1024 .f32) : kerOut (F := Ideal) x t dd = Cert.Spec.loss x τ :=
  ker_eq_loss' x t τ hτ hx dd (accS_ideal x dd) (caccS_ideal x t τ hτ dd) k1_pay3_ideal places_sum places_one

/-- And so is what the last reshape leaves. -/
theorem kerRes_eq_loss (x : Vec Ideal S1024x100000 .f32) (t : Vec Ideal S1024 .i32) (τ : Fin 1024 → Fin 100000)
    (hτ : ∀ b : Fin 1024, t (ix1 b) = BitVec.ofNat 32 (τ b).val) (hx : Cert.Spec.Cosines x)
    (dd : ℕ → Vec Ideal S2048x1024 .f32) : kerRes (F := Ideal) x t dd = fun _ => Cert.Spec.loss x τ := by
  rw [kerRes_eq, ker_eq_loss x t τ hτ hx dd]

end Cert.Proof.KI

end
-- ==== Proof.RefRunHand.lean ====
/-
  The reference's run, written in stretches.

  The reference is a straight line of 99 operations on whole arrays: a gather of each row's entry at its target, the
  cosine moved by the margin, that value written over the input at the target, a row-wise log-softmax, a second
  gather at the targets, and the negated mean. Its run is read here stretch by stretch, cut at the seams of the
  computation: after each stretch the arrays later stretches read are the stage values `val_…` of the two arguments,
  one stage per operation; the stretches' lists joined are the whole program, so every weakly fair execution ends with
  the result at the last stage's value and the arguments as they were.

  An operation inside a called function states its function at the value's own type and carries it to the buffer's
  type and back; at a literal buffer those two types are one, and carrying there and back is the identity. Those
  identities are stated first and rewritten away before two terms are compared, so that the comparison is of the
  operations' terms alone.
-/
import proofs.«202903_g36928128811344_cont_8to1_b_1739_32_alg».proof.Proof.Gen.ReferenceIdeal
import proofs.«202903_g36928128811344_cont_8to1_b_1739_32_alg».proof.Proof.RefReadVal
import Idealize.ShloMosaic.Lib.StableHlo.Run
import Idealize.ShloMosaic.Lib.Pipeline.Frame

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## Values carried to a buffer's type and back -/

/-- Reading a typed reference's contents back after writing them is the identity. -/
theorem ofBuf_toBuf {T : BufTy} (x : TRef sig T) (v : T.Contents (Elt F)) : x.ofBuf (x.toBuf v) = v := by
  obtain ⟨r, rfl, _, _⟩ := x; rfl

/-- At each literal buffer a call reads from outside itself, reading is the identity; … -/
theorem ofBuf_main_arg0 (v : (⟨S1024x100000, .f32⟩ : BufTy).Contents (Elt F)) :
    (TRef.of (T := ⟨S1024x100000, .f32⟩) main_arg0).ofBuf (Val := Elt F) v = v := rfl
theorem ofBuf_main_v0 (v : (⟨S1024x1, .i32⟩ : BufTy).Contents (Elt F)) :
    (TRef.of (T := ⟨S1024x1, .i32⟩) main_v0).ofBuf (Val := Elt F) v = v := rfl
theorem ofBuf_main_v26 (v : (⟨S1024x100000, .f32⟩ : BufTy).Contents (Elt F)) :
    (TRef.of (T := ⟨S1024x100000, .f32⟩) main_v26).ofBuf (Val := Elt F) v = v := rfl
theorem ofBuf_main_v27 (v : (⟨S1024x100000, .f32⟩ : BufTy).Contents (Elt F)) :
    (TRef.of (T := ⟨S1024x100000, .f32⟩) main_v27).ofBuf (Val := Elt F) v = v := rfl
theorem ofBuf_main_v28 (v : (⟨S1024x1, .i32⟩ : BufTy).Contents (Elt F)) :
    (TRef.of (T := ⟨S1024x1, .i32⟩) main_v28).ofBuf (Val := Elt F) v = v := rfl
/-- … and at each literal buffer a call returns its result in, writing is. -/
theorem toBuf_main_v1 (v : (⟨S1024x1, .f32⟩ : BufTy).Contents (Elt F)) :
    (TRef.of (T := ⟨S1024x1, .f32⟩) main_v1).toBuf (Val := Elt F) v = v := rfl
theorem toBuf_main_v27 (v : (⟨S1024x100000, .f32⟩ : BufTy).Contents (Elt F)) :
    (TRef.of (T := ⟨S1024x100000, .f32⟩) main_v27).toBuf (Val := Elt F) v = v := rfl
theorem toBuf_main_v29 (v : (⟨S1024x1, .f32⟩ : BufTy).Contents (Elt F)) :
    (TRef.of (T := ⟨S1024x1, .f32⟩) main_v29).toBuf (Val := Elt F) v = v := rfl

/-! ## The operations, cut at the seams of the computation -/

/-- The first 23 operations: the targets as a column, and the gather of each row's entry at its target. -/
abbrev opsA : List (HloOp τ sig (Elt F)) :=
  [ unary main_arg1 main_v0 (broadcastInDim S1024x1 ![0] bcast_S1024_S1024x1_0 : (⟨S1024, .i32⟩ : BufTy).Contents (Elt F) → (⟨S1024x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S1024x1, .i32⟩) main_call0_v0) (broadcastInDim S1024x1 ![] bcast_S_S1024x1),
    TRef.binary (TRef.of (T := ⟨S1024x1, .i32⟩) main_v0) (TRef.of (T := ⟨S1024x1, .i32⟩) main_call0_v0) (TRef.of (T := ⟨S1024x1, .i1⟩) main_call0_v1) (cmpi .slt),
    TRef.nullary (TRef.of (T := ⟨S_, .i32⟩) main_call0_c_0) (constantI S_ 32 100000#32),
    TRef.unary (TRef.of (T := ⟨S_, .i32⟩) main_call0_c_0) (TRef.of (T := ⟨S1024x1, .i32⟩) main_call0_v2) (broadcastInDim S1024x1 ![] bcast_S_S1024x1),
    TRef.binary (TRef.of (T := ⟨S1024x1, .i32⟩) main_v0) (TRef.of (T := ⟨S1024x1, .i32⟩) main_call0_v2) (TRef.of (T := ⟨S1024x1, .i32⟩) main_call0_v3) addi,
    TRef.ternary (TRef.of (T := ⟨S1024x1, .i1⟩) main_call0_v1) (TRef.of (T := ⟨S1024x1, .i32⟩) main_call0_v3) (TRef.of (T := ⟨S1024x1, .i32⟩) main_v0) (TRef.of (T := ⟨S1024x1, .i32⟩) main_call0_v4) select,
    TRef.reshape (TRef.of (T := ⟨S1024x1, .i32⟩) main_call0_v4) (TRef.of (T := ⟨S1024x1x1, .i32⟩) main_call0_v5) rfl shapeCasts_S1024x1_S1024x1x1,
    TRef.nullary (TRef.of (T := ⟨S1, .i32⟩) main_call0_c_1) (constantI S1 32 99999#32),
    TRef.nullary (TRef.of (T := ⟨S_, .i32⟩) main_call0_c_2) (constantI S_ 32 0#32),
    TRef.unary (TRef.of (T := ⟨S_, .i32⟩) main_call0_c_2) (TRef.of (T := ⟨S1024x1x1, .i32⟩) main_call0_v6) (broadcastInDim S1024x1x1 ![] bcast_S_S1024x1x1),
    TRef.binary (TRef.of (T := ⟨S1024x1x1, .i32⟩) main_call0_v5) (TRef.of (T := ⟨S1024x1x1, .i32⟩) main_call0_v6) (TRef.of (T := ⟨S1024x1x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S1024x1x1, .i32⟩) main_call0_v9) (broadcastInDim S1024x1x1 ![0, 1, 2] bcast_S1x1x1_S1024x1x1_0_1_2),
    TRef.binary (TRef.of (T := ⟨S1024x1x1, .i32⟩) main_call0_v5) (TRef.of (T := ⟨S1024x1x1, .i32⟩) main_call0_v9) (TRef.of (T := ⟨S1024x1x1, .i1⟩) main_call0_v10) (cmpi .sle),
    TRef.binary (TRef.of (T := ⟨S1024x1x1, .i1⟩) main_call0_v7) (TRef.of (T := ⟨S1024x1x1, .i1⟩) main_call0_v10) (TRef.of (T := ⟨S1024x1x1, .i1⟩) main_call0_v11) andi,
    TRef.nullary (TRef.of (T := ⟨S_, .i1⟩) main_call0_c_3) (constantI S_ 1 1#1),
    TRef.binary (TRef.of (T := ⟨S1024x1x1, .i1⟩) main_call0_v11) (TRef.of (T := ⟨S_, .i1⟩) main_call0_c_3) (TRef.of (T := ⟨S1024x1, .i1⟩) main_call0_v12) (fun x v => Host.reduce IntOp.andi x v reducesTo_S1024x1x1_S1024x1_d2 h_S_),
    TRef.binary (TRef.of (T := ⟨S1024x100000, .f32⟩) main_arg0) (TRef.of (T := ⟨S1024x1x1, .i32⟩) main_call0_v5) (TRef.of (T := ⟨S1024x1, .f32⟩) main_call0_v13) (fun x i => Host.gather gather_S1024x100000_S1024x1x1_S1024x1_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S1024x1, .f32⟩) main_call0_v14) (broadcastInDim S1024x1 ![] bcast_S_S1024x1),
    TRef.ternary (TRef.of (T := ⟨S1024x1, .i1⟩) main_call0_v12) (TRef.of (T := ⟨S1024x1, .f32⟩) main_call0_v13) (TRef.of (T := ⟨S1024x1, .f32⟩) main_call0_v14) (TRef.of (T := ⟨S1024x1, .f32⟩) main_v1) select ]

/-- The next 30: the cosine moved by the margin, and the two index columns (row number, target). -/
abbrev opsB1 : List (HloOp τ sig (Elt F)) :=
  [ binary main_v1 main_v1 main_v2 (mulf : (⟨S1024x1, .f32⟩ : BufTy).Contents (Elt F) → (⟨S1024x1, .f32⟩ : BufTy).Contents (Elt F) → (⟨S1024x1, .f32⟩ : BufTy).Contents (Elt F)),
    nullary main_cst (constant S_ .f32 0x3F800000#32),
    unary main_cst main_v3 (broadcastInDim S1024x1 ![] bcast_S_S1024x1 : (⟨S_, .f32⟩ : BufTy).Contents (Elt F) → (⟨S1024x1, .f32⟩ : BufTy).Contents (Elt F)),
    binary main_v3 main_v2 main_v4 (subf : (⟨S1024x1, .f32⟩ : BufTy).Contents (Elt F) → (⟨S1024x1, .f32⟩ : BufTy).Contents (Elt F) → (⟨S1024x1, .f32⟩ : BufTy).Contents (Elt F)),
    unary main_v4 main_v5 (Host.sqrt : (⟨S1024x1, .f32⟩ : BufTy).Contents (Elt F) → (⟨S1024x1, .f32⟩ : BufTy).Contents (Elt F)),
    nullary main_cst_0 (constant S_ .f32 0x3F60A940#32),
    unary main_cst_0 main_v6 (broadcastInDim S1024x1 ![] bcast_S_S1024x1 : (⟨S_, .f32⟩ : BufTy).Contents (Elt F) → (⟨S1024x1, .f32⟩ : BufTy).Contents (Elt F)),
    binary main_v1 main_v6 main_v7 (mulf : (⟨S1024x1, .f32⟩ : BufTy).Contents (Elt F) → (⟨S1024x1, .f32⟩ : BufTy).Contents (Elt F) → (⟨S1024x1, .f32⟩ : BufTy).Contents (Elt F)),
    nullary main_cst_1 (constant S_ .f32 0x3EF57744#32),
    unary main_cst_1 main_v8 (broadcastInDim S1024x1 ![] bcast_S_S1024x1 : (⟨S_, .f32⟩ : BufTy).Contents (Elt F) → (⟨S1024x1, .f32⟩ : BufTy).Contents (Elt F)),
    binary main_v5 main_v8 main_v9 (mulf : (⟨S1024x1, .f32⟩ : BufTy).Contents (Elt F) → (⟨S1024x1, .f32⟩ : BufTy).Contents (Elt F) → (⟨S1024x1, .f32⟩ : BufTy).Contents (Elt F)),
    binary main_v7 main_v9 main_v10 (subf : (⟨S1024x1, .f32⟩ : BufTy).Contents (Elt F) → (⟨S1024x1, .f32⟩ : BufTy).Contents (Elt F) → (⟨S1024x1, .f32⟩ : BufTy).Contents (Elt F)),
    nullary main_v11 (iotaInDim S1024 32 0),
    reshape main_v10 main_v12 rfl shapeCasts_S1024x1_S1024,
    nullary main_c (constantI S_ 32 0#32),
    unary main_c main_v13 (broadcastInDim S1024 ![] bcast_S_S1024 : (⟨S_, .i32⟩ : BufTy).Contents (Elt F) → (⟨S1024, .i32⟩ : BufTy).Contents (Elt F)),
    binary main_v11 main_v13 main_v14 (cmpi .slt : (⟨S1024, .i32⟩ : BufTy).Contents (Elt F) → (⟨S1024, .i32⟩ : BufTy).Contents (Elt F) → (⟨S1024, .i1⟩ : BufTy).Contents (Elt F)),
    nullary main_c_2 (constantI S_ 32 1024#32),
    unary main_c_2 main_v15 (broadcastInDim S1024 ![] bcast_S_S1024 : (⟨S_, .i32⟩ : BufTy).Contents (Elt F) → (⟨S1024, .i32⟩ : BufTy).Contents (Elt F)),
    binary main_v11 main_v15 main_v16 (addi : (⟨S1024, .i32⟩ : BufTy).Contents (Elt F) → (⟨S1024, .i32⟩ : BufTy).Contents (Elt F) → (⟨S1024, .i32⟩ : BufTy).Contents (Elt F)),
    ternary main_v14 main_v16 main_v11 main_v17 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    nullary main_c_3 (constantI S_ 32 0#32),
    unary main_c_3 main_v18 (broadcastInDim S1024 ![] bcast_S_S1024 : (⟨S_, .i32⟩ : BufTy).Contents (Elt F) → (⟨S1024, .i32⟩ : BufTy).Contents (Elt F)),
    binary main_arg1 main_v18 main_v19 (cmpi .slt : (⟨S1024, .i32⟩ : BufTy).Contents (Elt F) → (⟨S1024, .i32⟩ : BufTy).Contents (Elt F) → (⟨S1024, .i1⟩ : BufTy).Contents (Elt F)),
    nullary main_c_4 (constantI S_ 32 100000#32),
    unary main_c_4 main_v20 (broadcastInDim S1024 ![] bcast_S_S1024 : (⟨S_, .i32⟩ : BufTy).Contents (Elt F) → (⟨S1024, .i32⟩ : BufTy).Contents (Elt F)),
    binary main_arg1 main_v20 main_v21 (addi : (⟨S1024, .i32⟩ : BufTy).Contents (Elt F) → (⟨S1024, .i32⟩ : BufTy).Contents (Elt F) → (⟨S1024, .i32⟩ : BufTy).Contents (Elt F)),
    ternary main_v19 main_v21 main_arg1 main_v22 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v17 main_v23 (broadcastInDim S1024x1 ![0] bcast_S1024_S1024x1_0 : (⟨S1024, .i32⟩ : BufTy).Contents (Elt F) → (⟨S1024x1, .i32⟩ : BufTy).Contents (Elt F)),
    unary main_v22 main_v24 (broadcastInDim S1024x1 ![0] bcast_S1024_S1024x1_0 : (⟨S1024, .i32⟩ : BufTy).Contents (Elt F) → (⟨S1024x1, .i32⟩ : BufTy).Contents (Elt F)) ]

/-- The index columns joined into pairs, and the moved cosines written over the input at them. -/
abbrev opsB2 : List (HloOp τ sig (Elt F)) :=
  [ binary main_v23 main_v24 main_v25 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F)),
    ternary main_arg0 main_v25 main_v12 main_v26 ((fun x i u => Host.scatter scatter_S1024x100000_S1024x2_S1024_n_01_01_1 (fun _ b => b) x i u) : (⟨S1024x100000, .f32⟩ : BufTy).Contents (Elt F) → (⟨S1024x2, .i32⟩ : BufTy).Contents (Elt F) → (⟨S1024, .f32⟩ : BufTy).Contents (Elt F) → (⟨S1024x100000, .f32⟩ : BufTy).Contents (Elt F)) ]

/-- The 15 operations of the row-wise log-softmax. -/
abbrev opsC : List (HloOp τ sig (Elt F)) :=
  [ TRef.nullary (TRef.of (T := ⟨S_, .f32⟩) main_call1_cst) (constant S_ .f32 0xFF800000#32),
    TRef.binary (TRef.of (T := ⟨S1024x100000, .f32⟩) main_v26) (TRef.of (T := ⟨S_, .f32⟩) main_call1_cst) (TRef.of (T := ⟨S1024, .f32⟩) main_call1_v0) (fun x v => Host.reduce FloatOps.maximumf x v reducesTo_S1024x100000_S1024_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1024, .f32⟩) main_call1_v1) (broadcastInDim S1024 ![] bcast_S_S1024),
    TRef.binary (TRef.of (T := ⟨S1024, .f32⟩) main_call1_v1) (TRef.of (T := ⟨S1024, .f32⟩) main_call1_v0) (TRef.of (T := ⟨S1024, .f32⟩) main_call1_v2) maximumf,
    TRef.unary (TRef.of (T := ⟨S1024, .f32⟩) main_call1_v2) (TRef.of (T := ⟨S1024x1, .f32⟩) main_call1_v3) (broadcastInDim S1024x1 ![0] bcast_S1024_S1024x1_0),
    TRef.unary (TRef.of (T := ⟨S1024x1, .f32⟩) main_call1_v3) (TRef.of (T := ⟨S1024x100000, .f32⟩) main_call1_v4) (broadcastInDim S1024x100000 ![0, 1] bcast_S1024x1_S1024x100000_0_1),
    TRef.binary (TRef.of (T := ⟨S1024x100000, .f32⟩) main_v26) (TRef.of (T := ⟨S1024x100000, .f32⟩) main_call1_v4) (TRef.of (T := ⟨S1024x100000, .f32⟩) main_call1_v5) subf,
    TRef.unary (TRef.of (T := ⟨S1024x100000, .f32⟩) main_call1_v5) (TRef.of (T := ⟨S1024x100000, .f32⟩) main_call1_v6) Host.exp,
    TRef.nullary (TRef.of (T := ⟨S_, .f32⟩) main_call1_cst_1) (constant S_ .f32 0x00000000#32),
    TRef.binary (TRef.of (T := ⟨S1024x100000, .f32⟩) main_call1_v6) (TRef.of (T := ⟨S_, .f32⟩) main_call1_cst_1) (TRef.of (T := ⟨S1024, .f32⟩) main_call1_v7) (fun x v => Host.reduceAdd x v reducesTo_S1024x100000_S1024_d1 h_S_),
    TRef.unary (TRef.of (T := ⟨S1024, .f32⟩) main_call1_v7) (TRef.of (T := ⟨S1024x1, .f32⟩) main_call1_v8) (broadcastInDim S1024x1 ![0] bcast_S1024_S1024x1_0),
    TRef.unary (TRef.of (T := ⟨S1024x1, .f32⟩) main_call1_v8) (TRef.of (T := ⟨S1024x1, .f32⟩) main_call1_v9) Host.log,
    TRef.unary (TRef.of (T := ⟨S1024x1, .f32⟩) main_call1_v9) (TRef.of (T := ⟨S1024x100000, .f32⟩) main_call1_v10) (broadcastInDim S1024x100000 ![0, 1] bcast_S1024x1_S1024x100000_0_1),
    TRef.binary (TRef.of (T := ⟨S1024x100000, .f32⟩) main_call1_v5) (TRef.of (T := ⟨S1024x100000, .f32⟩) main_call1_v10) (TRef.of (T := ⟨S1024x100000, .f32⟩) main_v27) subf ]

/-- The last 29: the gather of the log-probabilities at the targets, and their negated mean. -/
abbrev opsD : List (HloOp τ sig (Elt F)) :=
  [ unary main_arg1 main_v28 (broadcastInDim S1024x1 ![0] bcast_S1024_S1024x1_0 : (⟨S1024, .i32⟩ : BufTy).Contents (Elt F) → (⟨S1024x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S1024x1, .i32⟩) main_call2_v0) (broadcastInDim S1024x1 ![] bcast_S_S1024x1),
    TRef.binary (TRef.of (T := ⟨S1024x1, .i32⟩) main_v28) (TRef.of (T := ⟨S1024x1, .i32⟩) main_call2_v0) (TRef.of (T := ⟨S1024x1, .i1⟩) main_call2_v1) (cmpi .slt),
    TRef.nullary (TRef.of (T := ⟨S_, .i32⟩) main_call2_c_0) (constantI S_ 32 100000#32),
    TRef.unary (TRef.of (T := ⟨S_, .i32⟩) main_call2_c_0) (TRef.of (T := ⟨S1024x1, .i32⟩) main_call2_v2) (broadcastInDim S1024x1 ![] bcast_S_S1024x1),
    TRef.binary (TRef.of (T := ⟨S1024x1, .i32⟩) main_v28) (TRef.of (T := ⟨S1024x1, .i32⟩) main_call2_v2) (TRef.of (T := ⟨S1024x1, .i32⟩) main_call2_v3) addi,
    TRef.ternary (TRef.of (T := ⟨S1024x1, .i1⟩) main_call2_v1) (TRef.of (T := ⟨S1024x1, .i32⟩) main_call2_v3) (TRef.of (T := ⟨S1024x1, .i32⟩) main_v28) (TRef.of (T := ⟨S1024x1, .i32⟩) main_call2_v4) select,
    TRef.reshape (TRef.of (T := ⟨S1024x1, .i32⟩) main_call2_v4) (TRef.of (T := ⟨S1024x1x1, .i32⟩) main_call2_v5) rfl shapeCasts_S1024x1_S1024x1x1,
    TRef.nullary (TRef.of (T := ⟨S1, .i32⟩) main_call2_c_1) (constantI S1 32 99999#32),
    TRef.nullary (TRef.of (T := ⟨S_, .i32⟩) main_call2_c_2) (constantI S_ 32 0#32),
    TRef.unary (TRef.of (T := ⟨S_, .i32⟩) main_call2_c_2) (TRef.of (T := ⟨S1024x1x1, .i32⟩) main_call2_v6) (broadcastInDim S1024x1x1 ![] bcast_S_S1024x1x1),
    TRef.binary (TRef.of (T := ⟨S1024x1x1, .i32⟩) main_call2_v5) (TRef.of (T := ⟨S1024x1x1, .i32⟩) main_call2_v6) (TRef.of (T := ⟨S1024x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S1024x1x1, .i32⟩) main_call2_v9) (broadcastInDim S1024x1x1 ![0, 1, 2] bcast_S1x1x1_S1024x1x1_0_1_2),
    TRef.binary (TRef.of (T := ⟨S1024x1x1, .i32⟩) main_call2_v5) (TRef.of (T := ⟨S1024x1x1, .i32⟩) main_call2_v9) (TRef.of (T := ⟨S1024x1x1, .i1⟩) main_call2_v10) (cmpi .sle),
    TRef.binary (TRef.of (T := ⟨S1024x1x1, .i1⟩) main_call2_v7) (TRef.of (T := ⟨S1024x1x1, .i1⟩) main_call2_v10) (TRef.of (T := ⟨S1024x1x1, .i1⟩) main_call2_v11) andi,
    TRef.nullary (TRef.of (T := ⟨S_, .i1⟩) main_call2_c_3) (constantI S_ 1 1#1),
    TRef.binary (TRef.of (T := ⟨S1024x1x1, .i1⟩) main_call2_v11) (TRef.of (T := ⟨S_, .i1⟩) main_call2_c_3) (TRef.of (T := ⟨S1024x1, .i1⟩) main_call2_v12) (fun x v => Host.reduce IntOp.andi x v reducesTo_S1024x1x1_S1024x1_d2 h_S_),
    TRef.binary (TRef.of (T := ⟨S1024x100000, .f32⟩) main_v27) (TRef.of (T := ⟨S1024x1x1, .i32⟩) main_call2_v5) (TRef.of (T := ⟨S1024x1, .f32⟩) main_call2_v13) (fun x i => Host.gather gather_S1024x100000_S1024x1x1_S1024x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S1024x1, .f32⟩) main_call2_v14) (broadcastInDim S1024x1 ![] bcast_S_S1024x1),
    TRef.ternary (TRef.of (T := ⟨S1024x1, .i1⟩) main_call2_v12) (TRef.of (T := ⟨S1024x1, .f32⟩) main_call2_v13) (TRef.of (T := ⟨S1024x1, .f32⟩) main_call2_v14) (TRef.of (T := ⟨S1024x1, .f32⟩) main_v29) select,
    reshape main_v29 main_v30 rfl shapeCasts_S1024x1_S1024,
    unary main_v30 main_v31 (Host.negf : (⟨S1024, .f32⟩ : BufTy).Contents (Elt F) → (⟨S1024, .f32⟩ : BufTy).Contents (Elt F)),
    nullary main_cst_5 (constant S_ .f32 0x00000000#32),
    binary main_v31 main_cst_5 main_v32 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    nullary main_cst_6 (constant S_ .f32 0x44800000#32),
    binary main_v32 main_cst_6 main_v33 (Host.divf : (⟨S_, .f32⟩ : BufTy).Contents (Elt F) → (⟨S_, .f32⟩ : BufTy).Contents (Elt F) → (⟨S_, .f32⟩ : BufTy).Contents (Elt F)) ]

/-- All 99 operations. -/
abbrev ops : List (HloOp τ sig (Elt F)) := opsA ++ (opsB1 ++ (opsB2 ++ (opsC ++ opsD)))

/-! ## Each stretch, from any contents -/

theorem opsA_keep_main_arg0 (W : Valuation τ sig (Elt F)) : after opsA W (Proc.devRef .tc main_arg0) = W (Proc.devRef .tc main_arg0) := by
  after_results_simp

theorem opsA_keep_main_arg1 (W : Valuation τ sig (Elt F)) : after opsA W (Proc.devRef .tc main_arg1) = W (Proc.devRef .tc main_arg1) := by
  after_results_simp

/-- The first gather: from the two arguments, the rows' entries at their targets. -/
theorem opsA_main_v1 (W : Valuation τ sig (Elt F)) (x0 : (⟨S1024x100000, .f32⟩ : BufTy).Contents (Elt F)) (x1 : (⟨S1024, .i32⟩ : BufTy).Contents (Elt F))
    (h0 : W (Proc.devRef .tc main_arg0) = x0) (h1 : W (Proc.devRef .tc main_arg1) = x1) :
    after opsA W (Proc.devRef .tc main_v1) = val_main_v1 (F := F) x0 x1 := by
  after_results_simp
  rw [h0, h1]
  simp only [ofBuf_toBuf, ofBuf_main_arg0, ofBuf_main_v0, toBuf_main_v1]
  rfl

theorem opsB1_keep_main_arg0 (W : Valuation τ sig (Elt F)) : after opsB1 W (Proc.devRef .tc main_arg0) = W (Proc.devRef .tc main_arg0) := by
  after_results_simp

theorem opsB1_keep_main_arg1 (W : Valuation τ sig (Elt F)) : after opsB1 W (Proc.devRef .tc main_arg1) = W (Proc.devRef .tc main_arg1) := by
  after_results_simp

/-- The moved cosines, from the gathered entries. -/
theorem opsB1_main_v12 (W : Valuation τ sig (Elt F)) (x0 : (⟨S1024x100000, .f32⟩ : BufTy).Contents (Elt F)) (x1 : (⟨S1024, .i32⟩ : BufTy).Contents (Elt F))
    (hv1 : W (Proc.devRef .tc main_v1) = val_main_v1 (F := F) x0 x1) :
    after opsB1 W (Proc.devRef .tc main_v12) = val_main_v12 (F := F) x0 x1 := by
  after_results_simp
  rw [hv1]
  rfl

/-- The column of row numbers. -/
theorem opsB1_main_v23 (W : Valuation τ sig (Elt F)) : after opsB1 W (Proc.devRef .tc main_v23) = val_main_v23 (F := F) := by
  after_results_simp
  rfl

/-- The column of targets. -/
theorem opsB1_main_v24 (W : Valuation τ sig (Elt F)) (x1 : (⟨S1024, .i32⟩ : BufTy).Contents (Elt F)) (h1 : W (Proc.devRef .tc main_arg1) = x1) :
    after opsB1 W (Proc.devRef .tc main_v24) = val_main_v24 (F := F) x1 := by
  after_results_simp
  rw [h1]
  rfl

theorem opsB2_keep_main_arg0 (W : Valuation τ sig (Elt F)) : after opsB2 W (Proc.devRef .tc main_arg0) = W (Proc.devRef .tc main_arg0) := by
  after_results_simp

theorem opsB2_keep_main_arg1 (W : Valuation τ sig (Elt F)) : after opsB2 W (Proc.devRef .tc main_arg1) = W (Proc.devRef .tc main_arg1) := by
  after_results_simp

/-- The input with the moved cosines written at the targets. -/
theorem opsB2_main_v26 (W : Valuation τ sig (Elt F)) (x0 : (⟨S1024x100000, .f32⟩ : BufTy).Contents (Elt F)) (x1 : (⟨S1024, .i32⟩ : BufTy).Contents (Elt F))
    (h0 : W (Proc.devRef .tc main_arg0) = x0) (h23 : W (Proc.devRef .tc main_v23) = val_main_v23 (F := F))
    (h24 : W (Proc.devRef .tc main_v24) = val_main_v24 (F := F) x1)
    (h12 : W (Proc.devRef .tc main_v12) = val_main_v12 (F := F) x0 x1) :
    after opsB2 W (Proc.devRef .tc main_v26) = val_main_v26 (F := F) x0 x1 := by
  after_results_simp
  rw [h0, h23, h24, h12]
  rfl

theorem opsC_keep_main_arg0 (W : Valuation τ sig (Elt F)) : after opsC W (Proc.devRef .tc main_arg0) = W (Proc.devRef .tc main_arg0) := by
  after_results_simp

theorem opsC_keep_main_arg1 (W : Valuation τ sig (Elt F)) : after opsC W (Proc.devRef .tc main_arg1) = W (Proc.devRef .tc main_arg1) := by
  after_results_simp

/-- The log-softmax of the rows. -/
theorem opsC_main_v27 (W : Valuation τ sig (Elt F)) (x0 : (⟨S1024x100000, .f32⟩ : BufTy).Contents (Elt F)) (x1 : (⟨S1024, .i32⟩ : BufTy).Contents (Elt F))
    (h26 : W (Proc.devRef .tc main_v26) = val_main_v26 (F := F) x0 x1) :
    after opsC W (Proc.devRef .tc main_v27) = val_main_v27 (F := F) x0 x1 := by
  after_results_simp
  rw [h26]
  simp only [ofBuf_toBuf, ofBuf_main_v26, toBuf_main_v27]
  rfl

theorem opsD_keep_main_arg0 (W : Valuation τ sig (Elt F)) : after opsD W (Proc.devRef .tc main_arg0) = W (Proc.devRef .tc main_arg0) := by
  after_results_simp

theorem opsD_keep_main_arg1 (W : Valuation τ sig (Elt F)) : after opsD W (Proc.devRef .tc main_arg1) = W (Proc.devRef .tc main_arg1) := by
  after_results_simp

/-- The result: the negated mean of the log-probabilities at the targets. -/
theorem opsD_main_v33 (W : Valuation τ sig (Elt F)) (x0 : (⟨S1024x100000, .f32⟩ : BufTy).Contents (Elt F)) (x1 : (⟨S1024, .i32⟩ : BufTy).Contents (Elt F))
    (h1 : W (Proc.devRef .tc main_arg1) = x1) (h27 : W (Proc.devRef .tc main_v27) = val_main_v27 (F := F) x0 x1) :
    after opsD W (Proc.devRef .tc main_v33) = val_main_v33 (F := F) x0 x1 := by
  after_results_simp
  rw [h1, h27]
  simp only [ofBuf_toBuf, ofBuf_main_v27, ofBuf_main_v28, toBuf_main_v29]
  rfl

/-! ## The whole list -/

/-- The contents after each stretch. -/
def VA (V0 : Valuation τ sig (Elt F)) : Valuation τ sig (Elt F) := after opsA V0
def VB1 (V0 : Valuation τ sig (Elt F)) : Valuation τ sig (Elt F) := after opsB1 (VA V0)
def VB2 (V0 : Valuation τ sig (Elt F)) : Valuation τ sig (Elt F) := after opsB2 (VB1 V0)
def VC (V0 : Valuation τ sig (Elt F)) : Valuation τ sig (Elt F) := after opsC (VB2 V0)
def VD (V0 : Valuation τ sig (Elt F)) : Valuation τ sig (Elt F) := after opsD (VC V0)

theorem after_ops (V0 : Valuation τ sig (Elt F)) : after ops V0 = VD V0 := by
  simp only [ops, StableHlo.after_append]
  rfl

variable (V0 : Valuation τ sig (Elt F))

theorem VA_main_arg0 : VA V0 (Proc.devRef .tc main_arg0) = V0 (Proc.devRef .tc main_arg0) := opsA_keep_main_arg0 V0
theorem VA_main_arg1 : VA V0 (Proc.devRef .tc main_arg1) = V0 (Proc.devRef .tc main_arg1) := opsA_keep_main_arg1 V0
theorem VB1_main_arg0 : VB1 V0 (Proc.devRef .tc main_arg0) = V0 (Proc.devRef .tc main_arg0) :=
  (opsB1_keep_main_arg0 (VA V0)).trans (VA_main_arg0 V0)
theorem VB1_main_arg1 : VB1 V0 (Proc.devRef .tc main_arg1) = V0 (Proc.devRef .tc main_arg1) :=
  (opsB1_keep_main_arg1 (VA V0)).trans (VA_main_arg1 V0)
theorem VB2_main_arg0 : VB2 V0 (Proc.devRef .tc main_arg0) = V0 (Proc.devRef .tc main_arg0) :=
  (opsB2_keep_main_arg0 (VB1 V0)).trans (VB1_main_arg0 V0)
theorem VB2_main_arg1 : VB2 V0 (Proc.devRef .tc main_arg1) = V0 (Proc.devRef .tc main_arg1) :=
  (opsB2_keep_main_arg1 (VB1 V0)).trans (VB1_main_arg1 V0)
theorem VC_main_arg0 : VC V0 (Proc.devRef .tc main_arg0) = V0 (Proc.devRef .tc main_arg0) :=
  (opsC_keep_main_arg0 (VB2 V0)).trans (VB2_main_arg0 V0)
theorem VC_main_arg1 : VC V0 (Proc.devRef .tc main_arg1) = V0 (Proc.devRef .tc main_arg1) :=
  (opsC_keep_main_arg1 (VB2 V0)).trans (VB2_main_arg1 V0)
theorem VD_main_arg0 : VD V0 (Proc.devRef .tc main_arg0) = V0 (Proc.devRef .tc main_arg0) :=
  (opsD_keep_main_arg0 (VC V0)).trans (VC_main_arg0 V0)
theorem VD_main_arg1 : VD V0 (Proc.devRef .tc main_arg1) = V0 (Proc.devRef .tc main_arg1) :=
  (opsD_keep_main_arg1 (VC V0)).trans (VC_main_arg1 V0)

theorem VA_main_v1 : VA V0 (Proc.devRef .tc main_v1) = val_main_v1 (F := F) (V0 (Proc.devRef .tc main_arg0)) (V0 (Proc.devRef .tc main_arg1)) :=
  opsA_main_v1 V0 _ _ rfl rfl
theorem VB1_main_v12 : VB1 V0 (Proc.devRef .tc main_v12) = val_main_v12 (F := F) (V0 (Proc.devRef .tc main_arg0)) (V0 (Proc.devRef .tc main_arg1)) :=
  opsB1_main_v12 (VA V0) _ _ (VA_main_v1 V0)
theorem VB1_main_v23 : VB1 V0 (Proc.devRef .tc main_v23) = val_main_v23 (F := F) := opsB1_main_v23 (VA V0)
theorem VB1_main_v24 : VB1 V0 (Proc.devRef .tc main_v24) = val_main_v24 (F := F) (V0 (Proc.devRef .tc main_arg1)) :=
  opsB1_main_v24 (VA V0) _ (VA_main_arg1 V0)
theorem VB2_main_v26 : VB2 V0 (Proc.devRef .tc main_v26) = val_main_v26 (F := F) (V0 (Proc.devRef .tc main_arg0)) (V0 (Proc.devRef .tc main_arg1)) :=
  opsB2_main_v26 (VB1 V0) _ _ (VB1_main_arg0 V0) (VB1_main_v23 V0) (VB1_main_v24 V0) (VB1_main_v12 V0)
theorem VC_main_v27 : VC V0 (Proc.devRef .tc main_v27) = val_main_v27 (F := F) (V0 (Proc.devRef .tc main_arg0)) (V0 (Proc.devRef .tc main_arg1)) :=
  opsC_main_v27 (VB2 V0) _ _ (VB2_main_v26 V0)
theorem VD_main_v33 : VD V0 (Proc.devRef .tc main_v33) = val_main_v33 (F := F) (V0 (Proc.devRef .tc main_arg0)) (V0 (Proc.devRef .tc main_arg1)) :=
  opsD_main_v33 (VC V0) _ _ (VC_main_arg1 V0) (VC_main_v27 V0)

/-- After all 99 operations the result buffer holds the last stage's value of the two arguments, … -/
theorem res_main_v33 :
    after ops V0 (Proc.devRef .tc main_v33) = val_main_v33 (F := F) (V0 (Proc.devRef .tc main_arg0)) (V0 (Proc.devRef .tc main_arg1)) := by
  rw [after_ops]; exact VD_main_v33 V0
/-- … and the arguments what they held. -/
theorem res_main_arg0 : after ops V0 (Proc.devRef .tc main_arg0) = V0 (Proc.devRef .tc main_arg0) := by
  rw [after_ops]; exact VD_main_arg0 V0
theorem res_main_arg1 : after ops V0 (Proc.devRef .tc main_arg1) = V0 (Proc.devRef .tc main_arg1) := by
  rw [after_ops]; exact VD_main_arg1 V0

/-! ## The side conditions, stretch by stretch -/

theorem opsA_sub : (opsA : List (HloOp τ sig (Elt F))).Forall fun op => op.bufs ⊆ tcRefs τ sig := by
  simp only [List.Forall, unary_bufs_sub, nullary_bufs_sub, binary_bufs_sub, ternary_bufs_sub, reshape_bufs_sub, and_self]

theorem opsA_fresh : ∀ op ∈ (opsA : List (HloOp τ sig (Elt F))), op.fresh = ∅ := by
  intro _ h; (repeat (cases h with | head => rfl | tail _ h => ?_)); exact nomatch h

theorem opsB1_sub : (opsB1 : List (HloOp τ sig (Elt F))).Forall fun op => op.bufs ⊆ tcRefs τ sig := by
  simp only [List.Forall, unary_bufs_sub, nullary_bufs_sub, binary_bufs_sub, ternary_bufs_sub, reshape_bufs_sub, and_self]

theorem opsB1_fresh : ∀ op ∈ (opsB1 : List (HloOp τ sig (Elt F))), op.fresh = ∅ := by
  intro _ h; (repeat (cases h with | head => rfl | tail _ h => ?_)); exact nomatch h

theorem opsB2_sub : (opsB2 : List (HloOp τ sig (Elt F))).Forall fun op => op.bufs ⊆ tcRefs τ sig := by
  simp only [List.Forall, unary_bufs_sub, nullary_bufs_sub, binary_bufs_sub, ternary_bufs_sub, reshape_bufs_sub, and_self]

theorem opsB2_fresh : ∀ op ∈ (opsB2 : List (HloOp τ sig (Elt F))), op.fresh = ∅ := by
  intro _ h; (repeat (cases h with | head => rfl | tail _ h => ?_)); exact nomatch h

theorem opsC_sub : (opsC : List (HloOp τ sig (Elt F))).Forall fun op => op.bufs ⊆ tcRefs τ sig := by
  simp only [List.Forall, unary_bufs_sub, nullary_bufs_sub, binary_bufs_sub, ternary_bufs_sub, reshape_bufs_sub, and_self]

theorem opsC_fresh : ∀ op ∈ (opsC : List (HloOp τ sig (Elt F))), op.fresh = ∅ := by
  intro _ h; (repeat (cases h with | head => rfl | tail _ h => ?_)); exact nomatch h

theorem opsD_sub : (opsD : List (HloOp τ sig (Elt F))).Forall fun op => op.bufs ⊆ tcRefs τ sig := by
  simp only [List.Forall, unary_bufs_sub, nullary_bufs_sub, binary_bufs_sub, ternary_bufs_sub, reshape_bufs_sub, and_self]

theorem opsD_fresh : ∀ op ∈ (opsD : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp opsA_sub op h, List.forall_iff_forall_mem.mp opsB1_sub op h,
      List.forall_iff_forall_mem.mp opsB2_sub op h, List.forall_iff_forall_mem.mp opsC_sub op h,
      List.forall_iff_forall_mem.mp opsD_sub op h]

theorem ops_fresh : ∀ op ∈ (ops : List (HloOp τ sig (Elt F))), op.fresh = ∅ := fun op h => by
  simp only [ops, List.mem_append] at h
  rcases h with h | h | h | h | h
  exacts [opsA_fresh op h, opsB1_fresh op h, opsB2_fresh op h, opsC_fresh op h, opsD_fresh op h]

theorem scopedRefs_eq : (Finset.univ.filter fun b : Ref sig .tc => b.isScoped) = ∅ := by decide
theorem scopedSems_eq : (Finset.univ.filter fun sm : SemLoc sig => sm.isScoped .tc) = ∅ := by decide

/-! ## The program is its list of operations -/

set_option maxRecDepth 8192 in
set_option maxHeartbeats 4000000 in
theorem main_eq (c : Dev nD) : main (F := F) c = seq ops := rfl

/-! ## The run -/

/-- On every device, for any float values, from any memory with zero counters: every weakly fair execution of the
    reference terminates with its result at the last stage's value of the two arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33)
          = val_main_v33 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v33).trans (res_main_v33 (launchContents m c)),
      (h c main_arg0).trans (res_main_arg0 (launchContents m c)),
      (h c main_arg1).trans (res_main_arg1 (launchContents m c))⟩)
    (run_seq scopedRefs_eq scopedSems_eq defs main (fun _ => ops) main_eq (fun _ => ops_sub) m ρ (fun _ => ops_fresh))

end Cert.RefRun

end
-- ==== Proof.RefReadOps.lean ====
/-
  Facts about single operations, independent of any program: 32-bit words that hold small naturals read as signed
  integers; an and-reduction of ones is one; a scatter whose body keeps the update, read at an index that exactly
  one update lands on, or that none does.
-/
import Idealize.ShloMosaic.PureOps.Ideal.Laws
import Idealize.ShloMosaic.PureOps.ShapeOps
import Idealize.ShloMosaic.PureOps.Contract
import Idealize.ShloMosaic.Lib.ValueIdx

noncomputable section

namespace Cert.RefRead

open Idealize.ShloMosaic Idealize.ShloMosaic.ValueIdx

/-! ## Words holding small naturals -/

/-- A natural below §2^31§, as a 32-bit word read signed, is itself. -/
theorem toInt_ofNat_small (n : Nat) (h : n < 2 ^ 31) : (BitVec.ofNat 32 n).toInt = (n : Int) := by
  rw [BitVec.toInt_eq_toNat_cond, BitVec.toNat_ofNat, Nat.mod_eq_of_lt (by omega)]
  rw [if_pos (by omega)]

/-- Such a word is not below zero, … -/
theorem cmpi_slt_zero (n : Nat) (h : n < 2 ^ 31) : IntOp.cmpi .slt (BitVec.ofNat 32 n) 0#32 = 0#1 := by
  have e := toInt_ofNat_small n h
  simp only [IntOp.cmpi, BitVec.slt, e]
  have : ¬ ((n : Int) < 0) := by omega
  simp [this]

/-- … is at least zero, … -/
theorem cmpi_sge_zero (n : Nat) (h : n < 2 ^ 31) : IntOp.cmpi .sge (BitVec.ofNat 32 n) 0#32 = 1#1 := by
  have e := toInt_ofNat_small n h
  simp only [IntOp.cmpi, BitVec.sle, e]
  have : ((0#32 : BitVec 32).toInt ≤ (n : Int)) := by simp
  simp [this]

/-- … and is at most a bound it is at most as a natural. -/
theorem cmpi_sle_of_le (n k : Nat) (h : n ≤ k) (hk : k < 2 ^ 31) :
    IntOp.cmpi .sle (BitVec.ofNat 32 n) (BitVec.ofNat 32 k) = 1#1 := by
  have e := toInt_ofNat_small n (by omega)
  have e' := toInt_ofNat_small k hk
  simp only [IntOp.cmpi, BitVec.sle, e, e']
  have : ((n : Int) ≤ (k : Int)) := by omega
  simp [this]

/-! ## An and-reduction of ones -/

/-- A left fold of §and§ from one over words that are all one is one. -/
theorem foldl_andi_ones {β : Type} (y : β → BitVec 1) (hy : ∀ n, y n = 1#1) (l : List β) (r : BitVec 1) (hr : r = 1#1) :
    l.foldl (fun r n => IntOp.andi r (y n)) r = 1#1 := by
  induction l generalizing r with
  | nil => exact hr
  | cons a l ih =>
    rw [List.foldl_cons]
    exact ih _ (by rw [hr, hy]; rfl)

/-- A one-operand reduction by §and§ of an operand whose every element is one, from the initial value one, is one. -/
theorem reduce_andi_ones {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  unfold Host.reduce
  exact foldl_andi_ones (fun n => x (s.rowMajor.symm n)) (fun n => hx _) _ _ hi

/-! ## A scatter that keeps the update, at an index -/

section Fold
variable {ι β α : Type} (g : β → Option ι) (v : β → α) (step : (ι → α) → β → ι → α)

/-- A fold whose step leaves index §i'§ alone unless the step's target is §i'§: where no step targets §i'§, the value
    at §i'§ is the initial one. -/
theorem foldl_miss (hA : ∀ r n i', g n ≠ some i' → step r n i' = r i') (l : List β) (x : ι → α) (i' : ι)
    (hm : ∀ m ∈ l, g m ≠ some i') : l.foldl step x i' = x i' := by
  induction l generalizing x with
  | nil => rfl
  | cons a l ih =>
    rw [List.foldl_cons, ih _ (fun m hm' => hm m (List.mem_cons_of_mem _ hm')), hA _ _ _ (hm a (List.mem_cons_self ..))]

/-- … and where exactly one step of a list without repeats targets §i'§, and a step that targets §i'§ writes its own
    value there, the value at §i'§ is that step's. -/
theorem foldl_hit (hA : ∀ r n i', g n ≠ some i' → step r n i' = r i') (hB : ∀ r n i', g n = some i' → step r n i' = v n)
    (l : List β) (hl : l.Nodup) (x : ι → α) (i' : ι) (n₀ : β) (hn : n₀ ∈ l) (h₀ : g n₀ = some i')
    (huniq : ∀ m ∈ l, g m = some i' → m = n₀) : l.foldl step x i' = v n₀ := by
  induction l generalizing x with
  | nil => exact absurd hn (List.not_mem_nil)
  | cons a l ih =>
    rw [List.foldl_cons]
    have hnd := List.nodup_cons.1 hl
    by_cases ha : a = n₀
    · subst ha
      rw [foldl_miss g step hA l _ i' (fun m hm e => hnd.1 (huniq m (List.mem_cons_of_mem _ hm) e ▸ hm)), hB _ _ _ h₀]
    · have hn' : n₀ ∈ l := by
        rcases List.mem_cons.1 hn with e | e
        · exact absurd e.symm ha
        · exact e
      exact ih hnd.2 _ hn' (fun m hm e => huniq m (List.mem_cons_of_mem _ hm) e)

end Fold

section Scatter
variable {s si u : Shape} {w : Nat} {α : Type}

/-- A scatter whose body keeps the update, at an index no update lands on: the operand's element. -/
theorem scatter_set_miss (d : ScatterDims s si u) (x : s.Idx → α) (idx : IVec si w) (upd : u.Idx → α) (i' : s.Idx)
    (hm : ∀ j, d.resultIdx? j idx ≠ some i') : Host.scatter d (fun _ b => b) x idx upd i' = x i' := by
  unfold Host.scatter
  refine foldl_miss (fun n => d.resultIdx? (u.rowMajor.symm n) idx) _ ?_ _ x i' (fun m _ => hm _)
  intro r n i'' h
  generalize d.resultIdx? (u.rowMajor.symm n) idx = o at h ⊢
  cases o with
  | none => rfl
  | some i => exact if_neg (fun e => h (by rw [e]))

/-- … and at an index exactly one update lands on: that update. -/
theorem scatter_set_hit (d : ScatterDims s si u) (x : s.Idx → α) (idx : IVec si w) (upd : u.Idx → α) (i' : s.Idx)
    (j₀ : u.Idx) (h₀ : d.resultIdx? j₀ idx = some i') (huniq : ∀ j, d.resultIdx? j idx = some i' → j = j₀) :
    Host.scatter d (fun _ b => b) x idx upd i' = upd j₀ := by
  unfold Host.scatter
  refine (foldl_hit (fun n => d.resultIdx? (u.rowMajor.symm n) idx) (fun n => upd (u.rowMajor.symm n)) _ ?_ ?_
    (List.finRange u.numel) (List.nodup_finRange _) x i' (u.rowMajor j₀) (List.mem_finRange _) (by simpa using h₀)
    (fun m _ e => by
      have := huniq _ e
      rw [← this]; simp)).trans (by simp)
  · intro r n i'' h
    generalize d.resultIdx? (u.rowMajor.symm n) idx = o at h ⊢
    cases o with
    | none => rfl
    | some i => exact if_neg (fun e => h (by rw [e]))
  · intro r n i'' h
    rw [h]
    exact if_pos rfl

end Scatter

/-! ## A take along the second axis, one start index per row, at an index -/

section Along
variable {α : Type}

/-- The dimension numbers of a take along the second axis with one start index per row: operand §[R, N]§, start
    indices §[R, 1, 1]§, result §[R, 1]§; the first axis batches, the second is indexed and collapsed. -/
abbrev alongDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- THE TAKE READ AT ROW §r§: the operand's row §r§ at the row's start index, read signed and clamped into
    §[0, N − 1]§. -/
theorem gather_along_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (alongDims R N wf) x idx (ix2 r (0 : Fin 1))
      = x (ix2 r ⟨min (idx (ix3 r (0 : Fin 1) (0 : Fin 1))).toInt.toNat (N - 1), by omega⟩) := by
  unfold Host.gather
  congr 1
  funext a
  refine Fin.ext ?_
  match a with
  | ⟨0, _⟩ =>
    show (alongDims R N wf).start (ix2 r (0 : Fin 1)) idx 0 + (alongDims R N wf).batchCoord (ix2 r (0 : Fin 1)) 0
      + (alongDims R N wf).offCoord (ix2 r (0 : Fin 1)) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show (alongDims R N wf).start (ix2 r (0 : Fin 1)) idx 1 + (alongDims R N wf).batchCoord (ix2 r (0 : Fin 1)) 1
      + (alongDims R N wf).offCoord (ix2 r (0 : Fin 1)) 1 = min (idx (ix3 r (0 : Fin 1) (0 : Fin 1))).toInt.toNat (N - 1)
    rw [GatherDims.batchCoord_eq_zero _ _ _ ((alongDims R N wf).sim_disjoint 1 (List.mem_singleton.mpr rfl)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N wf).startIndexMap from List.mem_singleton.mpr rfl)]
    have hsi : (alongDims R N wf).siIdx (ix2 r (0 : Fin 1)) ⟨List.idxOf (1 : Fin 2) (alongDims R N wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Along

/-! ## A scatter of one element per row at a (row, column) index pair, at an index -/

section RowCol
variable {α : Type}

/-- The dimension numbers of a scatter of one element per update into a rank-2 operand at a full index pair: operand
    §[R, N]§, scatter indices §[R, 2]§ (the pair along the second axis), updates §[R]§; both operand axes inserted. -/
abbrev rowColDims (R N : Nat) (wf : ScatterDims.WF ⟨2, ![R, N]⟩ ⟨2, ![R, 2]⟩ ⟨1, ![R]⟩ [] [0, 1] [0, 1] 1) :
    ScatterDims ⟨2, ![R, N]⟩ ⟨2, ![R, 2]⟩ ⟨1, ![R]⟩ where
  updateWindowDims := []
  insertedWindowDims := [0, 1]
  scatterDimsToOperandDims := [0, 1]
  indexVectorDim := 1
  wf := wf

variable {R N w : Nat} (wf : ScatterDims.WF ⟨2, ![R, N]⟩ ⟨2, ![R, 2]⟩ ⟨1, ![R]⟩ [] [0, 1] [0, 1] 1)
  (idx : IVec ⟨2, ![R, 2]⟩ w) (j : (⟨1, ![R]⟩ : Shape).Idx)

/-- Update §j§'s window starts, on the operand's first axis, at the first word of its index pair read signed, … -/
theorem rowCol_start0 : (rowColDims R N wf).start j idx 0 = (idx (ix2 (j 0) (0 : Fin 2))).toInt := by
  unfold ScatterDims.start
  rw [dif_pos (show (0 : Fin 2) ∈ (rowColDims R N wf).scatterDimsToOperandDims from List.mem_cons_self ..)]
  have hsi : (rowColDims R N wf).siIdx j ⟨List.idxOf (0 : Fin 2) (rowColDims R N wf).scatterDimsToOperandDims,
      List.idxOf_lt_length_iff.2 (List.mem_cons_self ..)⟩ = ix2 (j 0) (0 : Fin 2) := by
    funext b; refine Fin.ext ?_
    match b with
    | ⟨0, _⟩ => rfl
    | ⟨1, _⟩ => rfl
  rw [hsi]
  rfl

/-- … and on the second axis at the second word. -/
theorem rowCol_start1 : (rowColDims R N wf).start j idx 1 = (idx (ix2 (j 0) (1 : Fin 2))).toInt := by
  unfold ScatterDims.start
  rw [dif_pos (show (1 : Fin 2) ∈ (rowColDims R N wf).scatterDimsToOperandDims from
    List.mem_cons_of_mem _ (List.mem_singleton.mpr rfl))]
  have hsi : (rowColDims R N wf).siIdx j ⟨List.idxOf (1 : Fin 2) (rowColDims R N wf).scatterDimsToOperandDims,
      List.idxOf_lt_length_iff.2 (List.mem_cons_of_mem _ (List.mem_singleton.mpr rfl))⟩ = ix2 (j 0) (1 : Fin 2) := by
    funext b; refine Fin.ext ?_
    match b with
    | ⟨0, _⟩ => rfl
    | ⟨1, _⟩ => rfl
  rw [hsi]
  rfl

/-- The window has no extent: both operand axes are inserted. -/
theorem rowCol_window (a : Fin 2) : (rowColDims R N wf).window j a = 0 := by
  match a with
  | ⟨0, _⟩ => rfl
  | ⟨1, _⟩ => rfl

/-- Update §j§ lands on §i'§ exactly when its index pair, read signed, is §i'§'s coordinates. -/
theorem rowCol_resultIdx_eq_some_iff (i' : (⟨2, ![R, N]⟩ : Shape).Idx) :
    (rowColDims R N wf).resultIdx? j idx = some i' ↔
      (idx (ix2 (j 0) (0 : Fin 2))).toInt = ((i' 0).val : Int) ∧ (idx (ix2 (j 0) (1 : Fin 2))).toInt = ((i' 1).val : Int) := by
  have hs0 := rowCol_start0 wf idx j
  have hs1 := rowCol_start1 wf idx j
  have hw0 := rowCol_window wf j 0
  have hw1 := rowCol_window wf j 1
  have hi0 : (i' 0).val < R := idx2_lt0 i'
  have hi1 : (i' 1).val < N := idx2_lt1 i'
  unfold ScatterDims.resultIdx?
  constructor
  · intro h
    split at h
    · next hin =>
      have e := Option.some.inj h
      have e0 : ((rowColDims R N wf).start j idx 0 + ((rowColDims R N wf).window j 0 : Nat)).toNat = (i' 0).val :=
        congrArg (fun f : (⟨2, ![R, N]⟩ : Shape).Idx => (f 0).val) e
      have e1 : ((rowColDims R N wf).start j idx 1 + ((rowColDims R N wf).window j 1 : Nat)).toNat = (i' 1).val :=
        congrArg (fun f : (⟨2, ![R, N]⟩ : Shape).Idx => (f 1).val) e
      have h0 := (hin 0).1
      have h1 := (hin 1).1
      rw [hs0, hw0] at e0 h0
      rw [hs1, hw1] at e1 h1
      constructor <;> omega
    · exact absurd h (by simp)
  · rintro ⟨h0, h1⟩
    have hin : ∀ a, 0 ≤ (rowColDims R N wf).start j idx a + ((rowColDims R N wf).window j a : Nat)
        ∧ (rowColDims R N wf).start j idx a + ((rowColDims R N wf).window j a : Nat) < ((⟨2, ![R, N]⟩ : Shape).size a : Nat) := by
      intro a
      match a with
      | ⟨0, _⟩ =>
        show 0 ≤ (rowColDims R N wf).start j idx 0 + ((rowColDims R N wf).window j 0 : Nat)
          ∧ (rowColDims R N wf).start j idx 0 + ((rowColDims R N wf).window j 0 : Nat) < (R : Int)
        rw [hs0, hw0, h0]; constructor <;> omega
      | ⟨1, _⟩ =>
        show 0 ≤ (rowColDims R N wf).start j idx 1 + ((rowColDims R N wf).window j 1 : Nat)
          ∧ (rowColDims R N wf).start j idx 1 + ((rowColDims R N wf).window j 1 : Nat) < (N : Int)
        rw [hs1, hw1, h1]; constructor <;> omega
    rw [dif_pos hin]
    congr 1
    funext a
    refine Fin.ext ?_
    match a with
    | ⟨0, _⟩ =>
      show ((rowColDims R N wf).start j idx 0 + ((rowColDims R N wf).window j 0 : Nat)).toNat = (i' 0).val
      rw [hs0, hw0, h0]; omega
    | ⟨1, _⟩ =>
      show ((rowColDims R N wf).start j idx 1 + ((rowColDims R N wf).window j 1 : Nat)).toNat = (i' 1).val
      rw [hs1, hw1, h1]; omega

/-- THE SCATTER READ AT §(r, q)§, when update §r§'s index pair is §(r, c r)§: update §r§ in column §c r§, the
    operand elsewhere. Distinct updates land in distinct rows, so no two collide. -/
theorem scatter_rows_apply {R N : Nat} (wf : ScatterDims.WF ⟨2, ![R, N]⟩ ⟨2, ![R, 2]⟩ ⟨1, ![R]⟩ [] [0, 1] [0, 1] 1)
    (hR : R < 2 ^ 31) (hN : N < 2 ^ 31) (x : (⟨2, ![R, N]⟩ : Shape).Idx → α) (idx : IVec ⟨2, ![R, 2]⟩ 32)
    (upd : (⟨1, ![R]⟩ : Shape).Idx → α) (c : Fin R → Fin N)
    (h0 : ∀ r : Fin R, idx (ix2 r (0 : Fin 2)) = BitVec.ofNat 32 r.val)
    (h1 : ∀ r : Fin R, idx (ix2 r (1 : Fin 2)) = BitVec.ofNat 32 (c r).val) (r : Fin R) (q : Fin N) :
    Host.scatter (rowColDims R N wf) (fun _ b => b) x idx upd (ix2 r q) = if q = c r then upd (ix1 r) else x (ix2 r q) := by
  have key : ∀ (j : (⟨1, ![R]⟩ : Shape).Idx) (i' : (⟨2, ![R, N]⟩ : Shape).Idx),
      (rowColDims R N wf).resultIdx? j idx = some i' ↔ (j 0).val = (i' 0).val ∧ (c (j 0)).val = (i' 1).val := by
    intro j i'
    have hj : (j 0).val < R := (j 0).isLt
    have hc : (c (j 0)).val < N := (c (j 0)).isLt
    have e0 : (idx (ix2 (j 0) (0 : Fin 2))).toInt = ((j 0).val : Int) :=
      (congrArg BitVec.toInt (h0 (j 0))).trans (toInt_ofNat_small _ (by omega))
    have e1 : (idx (ix2 (j 0) (1 : Fin 2))).toInt = ((c (j 0)).val : Int) :=
      (congrArg BitVec.toInt (h1 (j 0))).trans (toInt_ofNat_small _ (by omega))
    rw [rowCol_resultIdx_eq_some_iff]
    constructor
    · rintro ⟨a, b⟩
      have a' := e0.symm.trans a
      have b' := e1.symm.trans b
      exact ⟨by omega, by omega⟩
    · rintro ⟨a, b⟩
      exact ⟨e0.trans (by omega), e1.trans (by omega)⟩
  by_cases hq : q = c r
  · rw [if_pos hq]
    refine scatter_set_hit _ x idx upd (ix2 r q) (ix1 r) ((key _ _).2 ⟨rfl, by rw [hq]; rfl⟩) (fun j hj => ?_)
    have hr : (j 0).val = r.val := ((key _ _).1 hj).1
    rw [eq_ix1 j]
    exact congrArg ix1 (Fin.ext hr)
  · rw [if_neg hq]
    refine scatter_set_miss _ x idx upd (ix2 r q) (fun j hj => hq ?_)
    obtain ⟨a, b⟩ := (key _ _).1 hj
    have hjr : j 0 = r := Fin.ext a
    rw [hjr] at b
    exact (Fin.ext b).symm

end RowCol

end Cert.RefRead

end
-- ==== Proof.RefRead.lean ====
/-
  The reference's run read back: its result as the mean over rows of the negated log-probability of each row's target,
  the moved row formed by overwriting the target's entry, shifted by its maximum.
-/
import proofs.«202903_g36928128811344_cont_8to1_b_1739_32_alg».proof.Defs
import proofs.«202903_g36928128811344_cont_8to1_b_1739_32_alg».proof.Proof.RefReadVal
import proofs.«202903_g36928128811344_cont_8to1_b_1739_32_alg».proof.Proof.Spec
import proofs.«202903_g36928128811344_cont_8to1_b_1739_32_alg».proof.Proof.RefReadOps
import Idealize.ShloMosaic.Lib.ValueIdx

noncomputable section

open scoped BigOperators

namespace Cert.RefRead

open Cert.ReferenceIdeal Cert.ReferenceIdeal.Gen Cert.ReferenceIdeal.Read Idealize.ShloMosaic Idealize.ShloMosaic.ValueIdx

variable (x : (⟨S1024x100000, .f32⟩ : BufTy).Contents (Elt Ideal)) (t : (⟨S1024, .i32⟩ : BufTy).Contents (Elt Ideal))
  (τ : Fin 1024 → Fin 100000) (hτ : ∀ b : Fin 1024, t (ix1 b) = BitVec.ofNat 32 (τ b).val)

/-! ## The target word: in range, so neither wrapped nor clamped -/

/-- A select on "the target is below zero" keeps the target. -/
theorem select_wrap (n : Nat) (h : n < 2 ^ 31) (a : BitVec 32) :
    Scalar.select (IntOp.cmpi .slt (BitVec.ofNat 32 n) 0#32) a (BitVec.ofNat 32 n) = BitVec.ofNat 32 n := by
  rw [cmpi_slt_zero n h, select_zero]

include hτ in
/-- The first take's index column, after the wrap of negative indices: the target. -/
theorem wrapped0 (i : S1024x1.Idx) : val_main_call0_v4 (F := Ideal) t i = BitVec.ofNat 32 (τ (i 0)).val := by
  have e : idx_main_v0 i = ix1 (n := 1024) (i 0) := funext fun a => Fin.ext (by match a with | ⟨0, _⟩ => rfl)
  rw [val_main_call0_v4_apply, val_main_call0_v1_apply, val_main_v0_apply, val_main_call0_v0_apply,
    val_main_call0_c_apply, e, hτ (i 0)]
  exact select_wrap (τ (i 0)).val (by have := (τ (i 0)).isLt; omega) _

include hτ in
/-- The second take's index column likewise. -/
theorem wrapped2 (i : S1024x1.Idx) : val_main_call2_v4 (F := Ideal) t i = BitVec.ofNat 32 (τ (i 0)).val := by
  have e : idx_main_v28 i = ix1 (n := 1024) (i 0) := funext fun a => Fin.ext (by match a with | ⟨0, _⟩ => rfl)
  rw [val_main_call2_v4_apply, val_main_call2_v1_apply, val_main_v28_apply, val_main_call2_v0_apply,
    val_main_call2_c_apply, e, hτ (i 0)]
  exact select_wrap (τ (i 0)).val (by have := (τ (i 0)).isLt; omega) _

/-- The reshaped index column reads the column at the same row. -/
theorem reshape_idx0 (i : S1024x1x1.Idx) : idx_main_call0_v5 i = ix2 (i 0) (0 : Fin 1) :=
  funext fun a => Fin.ext (by
    match a with
    | ⟨0, _⟩ =>
      show (((i 0).val * 1 + (i 1).val) * 1 + (i 2).val) / 1 = (i 0).val
      have h1 : (i 1).val < 1 := (i 1).isLt
      have h2 : (i 2).val < 1 := (i 2).isLt
      omega
    | ⟨1, _⟩ => rfl)

theorem reshape_idx2 (i : S1024x1x1.Idx) : idx_main_call2_v5 i = ix2 (i 0) (0 : Fin 1) :=
  funext fun a => Fin.ext (by
    match a with
    | ⟨0, _⟩ =>
      show (((i 0).val * 1 + (i 1).val) * 1 + (i 2).val) / 1 = (i 0).val
      have h1 : (i 1).val < 1 := (i 1).isLt
      have h2 : (i 2).val < 1 := (i 2).isLt
      omega
    | ⟨1, _⟩ => rfl)

include hτ in
theorem start0 (i : S1024x1x1.Idx) : val_main_call0_v5 (F := Ideal) t i = BitVec.ofNat 32 (τ (i 0)).val := by
  rw [val_main_call0_v5_apply, reshape_idx0]
  exact wrapped0 t τ hτ _

include hτ in
theorem start2 (i : S1024x1x1.Idx) : val_main_call2_v5 (F := Ideal) t i = BitVec.ofNat 32 (τ (i 0)).val := by
  rw [val_main_call2_v5_apply, reshape_idx2]
  exact wrapped2 t τ hτ _

include hτ in
/-- The first take's in-range mask is set in every row. -/
theorem mask0 (i : S1024x1.Idx) : val_main_call0_v12 (F := Ideal) t i = 1#1 := by
  unfold val_main_call0_v12
  refine reduce_andi_ones _ _ _ _ rfl (fun k => ?_) i
  have hlt := (τ (k 0)).isLt
  rw [val_main_call0_v11_apply, val_main_call0_v7_apply, val_main_call0_v10_apply, start0 t τ hτ,
    val_main_call0_v6_apply, val_main_call0_c_2_apply, val_main_call0_v9_apply, val_main_call0_v8_apply,
    val_main_call0_c_1_apply, cmpi_sge_zero (τ (k 0)).val (by omega),
    cmpi_sle_of_le (τ (k 0)).val 99999 (by omega) (by norm_num)]
  rfl

include hτ in
/-- The second take's mask likewise. -/
theorem mask2 (i : S1024x1.Idx) : val_main_call2_v12 (F := Ideal) t i = 1#1 := by
  unfold val_main_call2_v12
  refine reduce_andi_ones _ _ _ _ rfl (fun k => ?_) i
  have hlt := (τ (k 0)).isLt
  rw [val_main_call2_v11_apply, val_main_call2_v7_apply, val_main_call2_v10_apply, start2 t τ hτ,
    val_main_call2_v6_apply, val_main_call2_c_2_apply, val_main_call2_v9_apply, val_main_call2_v8_apply,
    val_main_call2_c_1_apply, cmpi_sge_zero (τ (k 0)).val (by omega),
    cmpi_sle_of_le (τ (k 0)).val 99999 (by omega) (by norm_num)]
  rfl

/-- A target in range, read signed and clamped into the row, is itself. -/
theorem clamp_target (q : Fin 100000) : min (BitVec.ofNat 32 q.val).toInt.toNat (100000 - 1) = q.val := by
  rw [toInt_ofNat_small q.val (by have := q.isLt; omega)]
  have := q.isLt
  omega

/-! ## The two takes, the moved cosine, and the moved row -/

include hτ in
/-- A take along the row at the target, of any operand: the operand at (row, target). -/
theorem take_at (y : (⟨S1024x100000, .f32⟩ : BufTy).Contents (Elt Ideal)) (idx : (⟨S1024x1x1, .i32⟩ : BufTy).Contents (Elt Ideal))
    (hidx : ∀ i : S1024x1x1.Idx, idx i = BitVec.ofNat 32 (τ (i 0)).val) (b : Fin 1024) :
    Host.gather gather_S1024x100000_S1024x1x1_S1024x1_n_1_0_0_1_2_11 y idx (ix2 b (0 : Fin 1)) = y (ix2 b (τ b)) := by
  have h := gather_along_apply (R := 1024) (N := 100000) (by norm_num)
    Cert.ReferenceIdeal.Gen.gather_S1024x100000_S1024x1x1_S1024x1_n_1_0_0_1_2_11_wf y idx b
  refine h.trans (congrArg y ?_)
  refine congrArg (ix2 b) (Fin.ext ?_)
  show min (idx (ix3 b (0 : Fin 1) (0 : Fin 1))).toInt.toNat (100000 - 1) = (τ b).val
  rw [hidx]
  exact clamp_target (τ b)

include hτ in
/-- The first take: the target's cosine. -/
theorem cos_target (b : Fin 1024) : val_main_v1 (F := Ideal) x t (ix2 b (0 : Fin 1)) = Spec.cosT x τ b := by
  rw [val_main_v1_apply, mask0 t τ hτ, select_one]
  unfold val_main_call0_v13
  exact take_at t τ hτ x _ (start0 t τ hτ) b

include hτ in
/-- The moved cosine, as a column. -/
theorem moved_col (b : Fin 1024) :
    val_main_v10 (F := Ideal) x t (ix2 b (0 : Fin 1)) = Spec.newCosR (Spec.cosT x τ b) := by
  rw [val_main_v10_apply, val_main_v7_apply, val_main_v9_apply, val_main_v5_apply, val_main_v4_apply, val_main_v2_apply,
    val_main_v3_apply, val_main_v6_apply, val_main_v8_apply, val_main_cst_apply, val_main_cst_0_apply, val_main_cst_1_apply,
    cos_target x t τ hτ b]
  rfl

include hτ in
/-- The moved cosine, as the scatter's update. -/
theorem moved_upd (b : Fin 1024) : val_main_v12 (F := Ideal) x t (ix1 b) = Spec.newCosR (Spec.cosT x τ b) := by
  have e : idx_main_v12 (ix1 b) = ix2 b (0 : Fin 1) :=
    funext fun a => Fin.ext (by
      match a with
      | ⟨0, _⟩ => show b.val / 1 = b.val; omega
      | ⟨1, _⟩ => rfl)
  rw [val_main_v12_apply, e, moved_col x t τ hτ b]

/-- The scatter's row indices: the row's own number. -/
theorem scatter_row (b : Fin 1024) : val_main_v25 (F := Ideal) t (ix2 b (0 : Fin 2)) = BitVec.ofNat 32 b.val := by
  unfold val_main_v25
  refine (concatenate_pair_apply_left _ _ _ _ (ix2 b (0 : Fin 2)) (by rfl) (ix2 b (0 : Fin 1))
    (fun c => by match c with | ⟨0, _⟩ => rfl | ⟨1, _⟩ => rfl)).trans ?_
  have e : idx_main_v23 (ix2 b (0 : Fin 1)) = ix1 b := funext fun a => Fin.ext (by match a with | ⟨0, _⟩ => rfl)
  rw [val_main_v23_apply, e, val_main_v17_apply, val_main_v14_apply, val_main_v11_apply, val_main_v13_apply, val_main_c_apply]
  exact select_wrap b.val (by have := b.isLt; omega) _

include hτ in
/-- The scatter's column indices: the target. -/
theorem scatter_col (b : Fin 1024) : val_main_v25 (F := Ideal) t (ix2 b (1 : Fin 2)) = BitVec.ofNat 32 (τ b).val := by
  unfold val_main_v25
  refine (concatenate_pair_apply_right _ _ _ _ (ix2 b (1 : Fin 2)) (by rfl) (by rfl) (ix2 b (0 : Fin 1))
    (fun c hc => by
      match c with
      | ⟨0, _⟩ => rfl
      | ⟨1, _⟩ => exact absurd rfl hc)
    rfl).trans ?_
  have e : idx_main_v24 (ix2 b (0 : Fin 1)) = ix1 b := funext fun a => Fin.ext (by match a with | ⟨0, _⟩ => rfl)
  rw [val_main_v24_apply, e, val_main_v22_apply, val_main_v19_apply, val_main_v18_apply, val_main_c_3_apply, hτ b]
  exact select_wrap (τ b).val (by have := (τ b).isLt; omega) _

include hτ in
/-- THE MOVED ROW: the new cosine at the target, the input elsewhere. -/
theorem moved_row (b : Fin 1024) (v : Fin 100000) :
    val_main_v26 (F := Ideal) x t (ix2 b v) = Spec.logit x τ b v := by
  unfold val_main_v26
  have h := scatter_rows_apply (R := 1024) (N := 100000)
    Cert.ReferenceIdeal.Gen.scatter_S1024x100000_S1024x2_S1024_n_01_01_1_wf (by norm_num) (by norm_num)
    x (val_main_v25 (F := Ideal) t) (val_main_v12 (F := Ideal) x t) τ (scatter_row t) (scatter_col t τ hτ) b v
  refine h.trans ?_
  rw [moved_upd x t τ hτ b]
  rfl

/-! ## The shifted row, its log-probabilities, and the mean -/

/-- The word of minus infinity denotes the bottom element. -/
theorem ninf : Ideal.ofBits .f32 0xFF800000#32 = (⊥ : EReal) := by simp [Ideal.ofBits, Ideal.ieee]

include hτ in
/-- The moved row's maximum: folded from minus infinity, then once more against minus infinity. -/
theorem row_max (b : Fin 1024) : val_main_call1_v2 (F := Ideal) x t (ix1 b) = Spec.rowMax x τ b := by
  have hred : S1024x100000.Reduces [1] S1024 := by decide
  have hl : ∀ k : Fin 100000, hred.lift (ix1 b) k = ix2 b k := fun k =>
    funext fun a => Fin.ext (by match a with | ⟨0, _⟩ => rfl | ⟨1, _⟩ => rfl)
  rw [val_main_call1_v2_apply, val_main_call1_v1_apply, val_main_call1_cst_0_apply]
  unfold val_main_call1_v0
  rw [Host.reduce_eq_fold_single (FloatOps.maximumf (F := Ideal) (φ := .f32)) _ _ _ hred _ (ix1 b),
    val_main_call1_cst_apply]
  show max (Ideal.ofBits .f32 0xFF800000#32)
    ((Finset.univ : Finset (Fin 100000)).fold max (Ideal.ofBits .f32 0xFF800000#32)
      (val_main_v26 (F := Ideal) x t ∘ hred.lift (ix1 b))) = _
  rw [ninf, max_bot_left]
  unfold Spec.rowMax
  refine Finset.fold_congr (fun k _ => ?_)
  rw [Function.comp_apply]
  exact (congrArg (val_main_v26 (F := Ideal) x t) (hl k)).trans (moved_row x t τ hτ b k)

include hτ in
/-- The row shifted by its maximum. -/
theorem shifted (b : Fin 1024) (v : Fin 100000) :
    val_main_call1_v5 (F := Ideal) x t (ix2 b v) = Spec.logit x τ b v - Spec.rowMax x τ b := by
  have e4 : idx_main_call1_v4 (ix2 b v) = ix2 b (0 : Fin 1) :=
    funext fun a => Fin.ext (by match a with | ⟨0, _⟩ => rfl | ⟨1, _⟩ => rfl)
  have e3 : idx_main_call1_v3 (ix2 b (0 : Fin 1)) = ix1 b := funext fun a => Fin.ext (by match a with | ⟨0, _⟩ => rfl)
  rw [val_main_call1_v5_apply, val_main_call1_v4_apply, e4, val_main_call1_v3_apply, e3, moved_row x t τ hτ b v,
    row_max x t τ hτ b]
  rfl

include hτ in
/-- The sum of the shifted row's exponentials (summed from zero). -/
theorem sum_exp (b : Fin 1024) :
    val_main_call1_v7 (F := Ideal) x t (ix1 b) = ∑ v : Fin 100000, Ideal.exp (Spec.logit x τ b v - Spec.rowMax x τ b) := by
  rw [val_main_call1_v7_apply]
  show Ideal.ofBits .f32 0x00000000#32 + _ = _
  rw [Ideal.ofBits_zero_f32, zero_add]
  refine Finset.sum_congr rfl (fun k _ => ?_)
  have e : idx_main_call1_v7 (ix1 b) k = ix2 b k :=
    funext fun a => Fin.ext (by match a with | ⟨0, _⟩ => rfl | ⟨1, _⟩ => rfl)
  rw [e, val_main_call1_v6_apply, shifted x t τ hτ b k, Ideal.hostUnary_exp_def]

include hτ in
/-- The log-softmax entry at (row, column). -/
theorem log_softmax (b : Fin 1024) (v : Fin 100000) :
    val_main_v27 (F := Ideal) x t (ix2 b v) = (Spec.logit x τ b v - Spec.rowMax x τ b)
      - Ideal.log (∑ u : Fin 100000, Ideal.exp (Spec.logit x τ b u - Spec.rowMax x τ b)) := by
  have e10 : idx_main_call1_v10 (ix2 b v) = ix2 b (0 : Fin 1) :=
    funext fun a => Fin.ext (by match a with | ⟨0, _⟩ => rfl | ⟨1, _⟩ => rfl)
  have e8 : idx_main_call1_v8 (ix2 b (0 : Fin 1)) = ix1 b := funext fun a => Fin.ext (by match a with | ⟨0, _⟩ => rfl)
  rw [val_main_v27_apply, shifted x t τ hτ b v, val_main_call1_v10_apply, e10, val_main_call1_v9_apply,
    val_main_call1_v8_apply, e8, sum_exp x t τ hτ b, Ideal.subf_def, Ideal.hostUnary_log_def]

include hτ in
/-- The second take: the row's log-probability of its target. -/
theorem log_prob (b : Fin 1024) : val_main_v29 (F := Ideal) x t (ix2 b (0 : Fin 1)) = Spec.logProb x τ b := by
  rw [val_main_v29_apply, mask2 t τ hτ, select_one]
  unfold val_main_call2_v13
  rw [take_at t τ hτ (val_main_v27 (F := Ideal) x t) _ (start2 t τ hτ) b, log_softmax x t τ hτ b (τ b)]
  rfl

include hτ in
/-- The negated log-probability of row `b`. -/
theorem neg_log_prob (b : Fin 1024) : val_main_v31 (F := Ideal) x t (ix1 b) = -(Spec.logProb x τ b) := by
  have e : idx_main_v30 (ix1 b) = ix2 b (0 : Fin 1) :=
    funext fun a => Fin.ext (by
      match a with
      | ⟨0, _⟩ => show b.val / 1 = b.val; omega
      | ⟨1, _⟩ => rfl)
  rw [val_main_v31_apply, val_main_v30_apply, e, log_prob x t τ hτ b]
  rfl

/-- A rank-1 index set is its coordinate's range. -/
def rowEquiv : S1024.Idx ≃ Fin 1024 where
  toFun i := i 0
  invFun b := ix1 b
  left_inv i := (eq_ix1 i).symm
  right_inv _ := rfl

/-- THE REFERENCE'S RESULT: the mean over rows of the negated log-probability of each row's target. -/
theorem ref_value (x : (⟨S1024x100000, .f32⟩ : BufTy).Contents (Elt Ideal)) (t : (⟨S1024, .i32⟩ : BufTy).Contents (Elt Ideal))
    (τ : Fin 1024 → Fin 100000) (hτ : ∀ b : Fin 1024, t (ix1 b) = BitVec.ofNat 32 (τ b).val) :
    val_main_v33 (F := Ideal) x t = fun _ => Spec.refLoss x τ := by
  funext i
  rw [val_main_v33_apply, val_main_v32_apply, val_main_cst_6_apply]
  show Ideal.div (Ideal.ofBits .f32 0x00000000#32 + ∑ j : S1024.Idx, val_main_v31 (F := Ideal) x t j)
    (Ideal.ofBits .f32 0x44800000#32) = _
  rw [Ideal.ofBits_zero_f32, ← Equiv.sum_comp rowEquiv.symm (val_main_v31 (F := Ideal) x t)]
  unfold Spec.refLoss Spec.rows
  refine congrArg (fun s => Ideal.div (0 + s) (Ideal.ofBits .f32 0x44800000#32)) (Finset.sum_congr rfl (fun b _ => ?_))
  exact neg_log_prob x t τ hτ b

end Cert.RefRead

end
-- ==== Proof.PreDecode.lean ====
/-
  What the precondition says of the two inputs, read back from its printed form.

  The precondition is the conjunction of three tests, each a conjunction over a whole array: every input entry has
  magnitude below +∞; every target word w satisfies 0 ≤ w and w ≤ 99999, compared as signed 32-bit integers; every
  input entry has magnitude at most the number the pattern 0x3F800000 denotes, which is 1. Magnitude is
  max a (−a) on the extended reals.

  From the third test alone every entry is a real r with |r| ≤ 1: were an entry +∞ its magnitude would be +∞, and
  were it −∞ its negation would be +∞; neither is at most 1; and for a real r, max r (−r) ≤ 1 is |r| ≤ 1. (The first
  test is implied and is not used.)

  From the second test every target word, read signed, lies in [0, 99999]. A 32-bit word whose signed reading is not
  negative has the same unsigned reading, so its value as a natural number is below 100000, and a word is the word of
  its value. The classes τ b are those values.
-/
import proofs.«202903_g36928128811344_cont_8to1_b_1739_32_alg».proof.Pre_input_domain
import proofs.«202903_g36928128811344_cont_8to1_b_1739_32_alg».proof.Proof.Gen.Pre_input_domain
import proofs.«202903_g36928128811344_cont_8to1_b_1739_32_alg».proof.Proof.Spec
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx
open Cert.Pre_input_domain

/-- The scalar shape has one index. -/
instance : Subsingleton S_.Idx := ⟨fun a b => funext fun d => d.elim0⟩

/-! ## The numbers -/

/-- The pattern 0x3F800000 (sign 0, exponent 127, fraction 0) denotes the real 1. -/
theorem bits_one : Ideal.ofBits .f32 0x3F800000#32 = ((1 : ℝ) : EReal) := by
  simp [Ideal.ofBits, Ideal.ieee, -EReal.coe_mul]; norm_num

/-- An extended real whose magnitude max a (−a) is at most the real 1 is a real of absolute value at most 1. -/
theorem real_of_mag_le_one (a : EReal) (h : max a (-a) ≤ ((1 : ℝ) : EReal)) : ∃ r : ℝ, a = (r : EReal) ∧ |r| ≤ 1 := by
  obtain ⟨h1, h2⟩ := max_le_iff.1 h
  induction a using EReal.rec with
  | bot => rw [EReal.neg_bot] at h2; exact absurd (top_le_iff.1 h2) (EReal.coe_ne_top 1)
  | top => exact absurd (top_le_iff.1 h1) (EReal.coe_ne_top 1)
  | coe r =>
    have g1 : r ≤ 1 := EReal.coe_le_coe_iff.1 h1
    have g2 : -r ≤ 1 := by rw [← EReal.coe_neg] at h2; exact EReal.coe_le_coe_iff.1 h2
    exact ⟨r, rfl, abs_le.2 ⟨by linarith, g1⟩⟩

/-- A 32-bit word that tests 0 ≤ w and w ≤ 99999, both signed, has a value below 100000. -/
theorem word_lt (w : BitVec 32) (h0 : IntOp.cmpi .sge w 0#32 = 1#1) (h1 : IntOp.cmpi .sle w 99999#32 = 1#1) :
    w.toNat < 100000 := by
  rw [IntOp.cmpi_sge, show (0#32 : BitVec 32).toInt = 0 from by decide] at h0
  rw [IntOp.cmpi_sle, show (99999#32 : BitVec 32).toInt = 99999 from by decide] at h1
  have hw := w.isLt
  have hc := BitVec.toInt_eq_toNat_cond w
  split at hc <;> omega

/-- A word is the word of its value. -/
theorem word_eq (w : BitVec 32) : w = BitVec.ofNat 32 w.toNat := by
  apply BitVec.eq_of_toNat_eq
  rw [BitVec.toNat_ofNat, Nat.mod_eq_of_lt w.isLt]

/-! ## The precondition's conjuncts at one element -/

variable [Facts]

/-- The third conjunct at entry i and the second at word j, as the elementwise tests they are. -/
theorem conjuncts (x : FVec Ideal S1024x100000 .f32) (t : IVec S1024 32)
    (h : fn (F := Ideal) x t = fun _ => 1#1) :
    (∀ i : S1024x100000.Idx, Ideal.cmp .ole (max (x i) (-(x i))) (Ideal.ofBits .f32 0x3F800000#32) = 1#1)
    ∧ (∀ j : S1024.Idx, IntOp.andi (IntOp.cmpi .sge (t j) 0#32) (IntOp.cmpi .sle (t j) 99999#32) = 1#1) := by
  have e := congrFun h ix0
  dsimp only [fn] at e
  obtain ⟨e12, e3⟩ := IntOp.andi_eq_one.1 e
  obtain ⟨-, e2⟩ := IntOp.andi_eq_one.1 e12
  exact ⟨fun i => Host.reduce_andi_all _ _ _ _ _ e3 i, fun j => Host.reduce_andi_all _ _ _ _ _ e2 j⟩

/-! ## The two facts -/

/-- Every input entry is a real of absolute value at most 1. -/
theorem cosines_of_pre (x : FVec Ideal S1024x100000 .f32) (t : IVec S1024 32)
    (h : fn (F := Ideal) x t = fun _ => 1#1) : Cert.Spec.Cosines x := by
  intro i
  have c := (conjuncts x t h).1 i
  rw [bits_one] at c
  have le : max (x i) (-(x i)) ≤ ((1 : ℝ) : EReal) := by
    simpa only [Ideal.cmp, StableHlo.Predicate.ofBool_eq_one_iff, decide_eq_true_eq] using c
  exact real_of_mag_le_one (x i) le

/-- Every target word is the word of a class below 100000. -/
theorem target_of_pre (x : FVec Ideal S1024x100000 .f32) (t : IVec S1024 32)
    (h : fn (F := Ideal) x t = fun _ => 1#1) :
    ∃ τ : Fin 1024 → Fin 100000, ∀ b : Fin 1024, t (ValueIdx.ix1 b) = BitVec.ofNat 32 (τ b).val := by
  have c := (conjuncts x t h).2
  refine ⟨fun b => ⟨(t (ix1 b)).toNat, ?_⟩, fun b => word_eq _⟩
  obtain ⟨h0, h1⟩ := IntOp.andi_eq_one.1 (c (ix1 b))
  exact word_lt _ h0 h1

end Cert.PreDecode

end
-- ==== Proof.lean ====
/-
  The five claims, assembled.

  The kernel streams the transposed input once: thirty-two subcores each fold a stripe of 1024 classes into a row of partial
  sums of exponentials and a row holding the target's cosine where the stripe contains the target and zero elsewhere; a
  pipelined call then folds the remaining classes in 33 blocks of 2048, adds the partial rows, moves each row's target
  cosine by the margin and takes the mean of the rows' losses. The reference overwrites the target's entry of each row by
  the moved cosine and takes the mean of the negated log-probabilities of the targets.

  On cosines — every entry a real of magnitude at most one — with targets in range, both are the mean over rows of
  `log (Σ_v exp (logit v)) − (moved cosine)`: the kernel's partial sums regroup the row's sum of exponentials (addition of
  extended reals is commutative and associative; the classes past the array are discarded by the kernel's own row test), its
  sum of "value where the class is the target, zero elsewhere" is the target's entry (exactly one of its places is the
  target's), the guard under the square root is idle because one minus a cosine's square is not negative, and the
  reference's shift by the row maximum cancels inside the logarithm.

  The kernel's run is proved once for any float values, with its result named as a function of the inputs; its two frame
  claims are that run with the value forgotten, at words and at extended reals, and the equivalence is its reading at extended
  reals beside the reference's run.
-/
import proofs.«202903_g36928128811344_cont_8to1_b_1739_32_alg».proof.Defs
import proofs.«202903_g36928128811344_cont_8to1_b_1739_32_alg».proof.Proof.Gen.Kernel
import proofs.«202903_g36928128811344_cont_8to1_b_1739_32_alg».proof.Proof.Gen.KernelIdeal
import proofs.«202903_g36928128811344_cont_8to1_b_1739_32_alg».proof.Proof.Gen.ReferenceIdeal
import proofs.«202903_g36928128811344_cont_8to1_b_1739_32_alg».proof.Proof.Gen.Pre_input_domain
import proofs.«202903_g36928128811344_cont_8to1_b_1739_32_alg».proof.Proof.ScLaunch
import proofs.«202903_g36928128811344_cont_8to1_b_1739_32_alg».proof.Proof.TcBody
import proofs.«202903_g36928128811344_cont_8to1_b_1739_32_alg».proof.Proof.Bits.ScLaunch
import proofs.«202903_g36928128811344_cont_8to1_b_1739_32_alg».proof.Proof.Bits.TcBody
import proofs.«202903_g36928128811344_cont_8to1_b_1739_32_alg».proof.Proof.KerIdeal
import proofs.«202903_g36928128811344_cont_8to1_b_1739_32_alg».proof.Proof.RefRunHand
import proofs.«202903_g36928128811344_cont_8to1_b_1739_32_alg».proof.Proof.RefRead
import proofs.«202903_g36928128811344_cont_8to1_b_1739_32_alg».proof.Proof.Alg
import proofs.«202903_g36928128811344_cont_8to1_b_1739_32_alg».proof.Proof.PreDecode
import Idealize.ShloMosaic.Adequacy
import Idealize.ShloMosaic.Init

noncomputable section

namespace Cert.Proof

open Idealize.ShloMosaic Idealize.SL.Sem

/-- The word-level kernel runs to the end, faults nowhere and leaves its inputs as they were: its run, the value forgotten. -/
theorem frame_k : Cert.frame_Kernel := fun m g _ =>
  (θ_run (Cert.Kernel.defs (F := Bits)) _ _).mono (fun _ h c => ⟨(h c).2.1, (h c).2.2⟩)
    (Cert.Proof.KB.run_main (F := Bits) m g Cert.Proof.KB.tc_body_run)

/-- The same of the kernel read at extended reals. -/
theorem frame_ki : Cert.frame_KernelIdeal := fun m g _ =>
  (θ_run (Cert.KernelIdeal.defs (F := Ideal)) _ _).mono (fun _ h c => ⟨(h c).2.1, (h c).2.2⟩)
    (Cert.Proof.KI.run_main (F := Ideal) m g Cert.Proof.KI.tc_body_run)

/-- The reference runs to the end and leaves its inputs as they were: its run, the result forgotten. -/
theorem frame_r : Cert.frame_ReferenceIdeal := fun m g _ =>
  (θ_run Cert.ReferenceIdeal.defs _ _).mono (fun _ h c => (h c).2) (Cert.RefRun.run (F := Ideal) m g)

/-- On cosines with targets in range both programs end at the mean margin-softmax loss of the rows' targets: the kernel's
    result is that loss whatever the staging rows past the array held, and the reference's own spelling of it is the same
    number. -/
theorem algebraic : Cert.algebraic_KernelIdeal_ReferenceIdeal := by
  intro m g m' g' hpre hagree
  have hcos := fun c => Cert.PreDecode.cosines_of_pre _ _ (hpre c)
  have htgt := fun c => Cert.PreDecode.target_of_pre _ _ (hpre c)
  choose τ hτ using htgt
  refine ⟨fun c => fun _ => Cert.Spec.loss (m ((c.tc : Thread Cert.KernelIdeal.nD Cert.KernelIdeal.τ).loc Cert.KernelIdeal.main_arg0)) (τ c), ?_, ?_⟩
  · refine (θ_run (Cert.KernelIdeal.defs (F := Ideal)) _ _).mono (fun _ h c => ?_)
      (Cert.Proof.KI.run_main (F := Ideal) m g Cert.Proof.KI.tc_body_run)
    obtain ⟨⟨dd, hres⟩, h0, h1⟩ := h c
    exact ⟨hres.trans (Cert.Proof.KI.kerRes_eq_loss _ _ (τ c) (hτ c) (hcos c) dd), h0, h1⟩
  · refine (θ_run Cert.ReferenceIdeal.defs _ _).mono (fun _ h c => ⟨?_, (h c).2⟩) (Cert.RefRun.run (F := Ideal) m' g')
    rw [(h c).1, (hagree c).1, (hagree c).2, Cert.RefRead.ref_value _ _ (τ c) (hτ c), Cert.Alg.refLoss_eq_loss _ (τ c) (hcos c)]
    rfl

theorem claim : Cert.Claim :=
  ⟨Cert.Kernel.Gen.facts, Cert.KernelIdeal.Gen.facts, Cert.ReferenceIdeal.Gen.facts, Cert.Pre_input_domain.Gen.facts,
    frame_k, frame_ki, frame_r, trivial, algebraic⟩

end Cert.Proof

end
